-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![512, 512]⟩ ⟨2, ![1024, 512]⟩ (Layout.meshBlock [2, 2, 2] ![[1], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨2, ![512, 2048]⟩ ⟨2, ![1024, 2048]⟩ (Layout.meshBlock [2, 2, 2] ![[1], []] c) (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![256, 2048]⟩ ⟨2, ![512, 2048]⟩ (Layout.meshBlock [2, 2, 2] ![[1], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S512x512 : Shape := ⟨2, ![512, 512]⟩
abbrev S512x2048 : Shape := ⟨2, ![512, 2048]⟩
abbrev S_ : Shape := ⟨0, ![]⟩

class Facts : Prop where
  bcast_S_S512x512 : S_.BroadcastsInDim S512x512 (![] : Fin 0 → Fin S512x512.rank)
  reducesTo_S512x512_S_d0_1 : S512x512.ReducesTo [0, 1] S_
  h_S_ : 0 < S_.numel
  bcast_S_S512x2048 : S_.BroadcastsInDim S512x2048 (![] : Fin 0 → Fin S512x2048.rank)
  reducesTo_S512x2048_S_d0_1 : S512x2048.ReducesTo [0, 1] S_

variable [Facts]

def fn {F : FTy → Type} [FloatOps F] (main_arg0 : FVec F S512x512 .f32) (main_arg1 : FVec F S512x2048 .f32) : IVec S_ 1 :=
  let main_v0 : FVec F S512x512 .f32 := Host.absf main_arg0
  let main_cst : FVec F S_ .f32 := constant S_ .f32 0x7F800000#32
  let main_v1 : FVec F S512x512 .f32 := broadcastInDim S512x512 ![] bcast_S_S512x512 main_cst
  let main_v2 : IVec S512x512 1 := cmpf .olt main_v0 main_v1
  let main_c : IVec S_ 1 := constantI S_ 1 1#1
  let main_v3 : IVec S_ 1 := (fun x v => Host.reduce IntOp.andi x v reducesTo_S512x512_S_d0_1 h_S_) main_v2 main_c
  let main_v4 : FVec F S512x2048 .f32 := Host.absf main_arg1
  let main_cst_0 : FVec F S_ .f32 := constant S_ .f32 0x7F800000#32
  let main_v5 : FVec F S512x2048 .f32 := broadcastInDim S512x2048 ![] bcast_S_S512x2048 main_cst_0
  let main_v6 : IVec S512x2048 1 := cmpf .olt main_v4 main_v5
  let main_c_1 : IVec S_ 1 := constantI S_ 1 1#1
  let main_v7 : IVec S_ 1 := (fun x v => Host.reduce IntOp.andi x v reducesTo_S512x2048_S_d0_1 h_S_) main_v6 main_c_1
  let main_v8 : IVec S_ 1 := andi main_v3 main_v7
  main_v8
-- ==== Pre_finite_inputs_ReferenceIdeal.lean ====
abbrev S1024x512 : Shape := ⟨2, ![1024, 512]⟩
abbrev S1024x2048 : Shape := ⟨2, ![1024, 2048]⟩
abbrev S_ : Shape := ⟨0, ![]⟩

class Facts : Prop where
  bcast_S_S1024x512 : S_.BroadcastsInDim S1024x512 (![] : Fin 0 → Fin S1024x512.rank)
  reducesTo_S1024x512_S_d0_1 : S1024x512.ReducesTo [0, 1] S_
  h_S_ : 0 < S_.numel
  bcast_S_S1024x2048 : S_.BroadcastsInDim S1024x2048 (![] : Fin 0 → Fin S1024x2048.rank)
  reducesTo_S1024x2048_S_d0_1 : S1024x2048.ReducesTo [0, 1] S_

variable [Facts]

def fn {F : FTy → Type} [FloatOps F] (main_arg0 : FVec F S1024x512 .f32) (main_arg1 : FVec F S1024x2048 .f32) : IVec S_ 1 :=
  let main_v0 : FVec F S1024x512 .f32 := Host.absf main_arg0
  let main_cst : FVec F S_ .f32 := constant S_ .f32 0x7F800000#32
  let main_v1 : FVec F S1024x512 .f32 := broadcastInDim S1024x512 ![] bcast_S_S1024x512 main_cst
  let main_v2 : IVec S1024x512 1 := cmpf .olt main_v0 main_v1
  let main_c : IVec S_ 1 := constantI S_ 1 1#1
  let main_v3 : IVec S_ 1 := (fun x v => Host.reduce IntOp.andi x v reducesTo_S1024x512_S_d0_1 h_S_) main_v2 main_c
  let main_v4 : FVec F S1024x2048 .f32 := Host.absf main_arg1
  let main_cst_0 : FVec F S_ .f32 := constant S_ .f32 0x7F800000#32
  let main_v5 : FVec F S1024x2048 .f32 := broadcastInDim S1024x2048 ![] bcast_S_S1024x2048 main_cst_0
  let main_v6 : IVec S1024x2048 1 := cmpf .olt main_v4 main_v5
  let main_c_1 : IVec S_ 1 := constantI S_ 1 1#1
  let main_v7 : IVec S_ 1 := (fun x v => Host.reduce IntOp.andi x v reducesTo_S1024x2048_S_d0_1 h_S_) main_v6 main_c_1
  let main_v8 : IVec S_ 1 := andi main_v3 main_v7
  main_v8
-- ==== Kernel.lean ====
abbrev S512x512 : Shape := ⟨2, ![512, 512]⟩
abbrev S512x2048 : Shape := ⟨2, ![512, 2048]⟩
abbrev S256x2048 : Shape := ⟨2, ![256, 2048]⟩
abbrev S512x1024 : Shape := ⟨2, ![512, 1024]⟩
abbrev S6x256x128 : Shape := ⟨3, ![6, 256, 128]⟩
abbrev S16x256x128 : Shape := ⟨3, ![16, 256, 128]⟩
abbrev S6 : Shape := ⟨1, ![6]⟩
abbrev S4 : Shape := ⟨1, ![4]⟩
abbrev S_ : Shape := ⟨0, ![]⟩
abbrev S512x256 : Shape := ⟨2, ![512, 256]⟩
abbrev S512x128 : Shape := ⟨2, ![512, 128]⟩
abbrev S256x128 : Shape := ⟨2, ![256, 128]⟩
abbrev S1x256x128 : Shape := ⟨3, ![1, 256, 128]⟩
abbrev S1 : Shape := ⟨1, ![1]⟩

abbrev nBuf : Space → Nat
  | .hbm => 3
  | .vmem => 8
  | .smem => 0
  | _ => 0

abbrev bufTy : (tb : Table) → Fin (tcTables nBuf tb) → BufTy
  | .hbm, ⟨0, _⟩ => ⟨S512x512, .f32⟩
  | .hbm, ⟨1, _⟩ => ⟨S512x2048, .f32⟩
  | .hbm, ⟨2, _⟩ => ⟨S256x2048, .f32⟩
  | .local _ .vmem, ⟨0, _⟩ => ⟨S512x512, .f32⟩
  | .local _ .vmem, ⟨1, _⟩ => ⟨S512x2048, .f32⟩
  | .local _ .vmem, ⟨2, _⟩ => ⟨S256x2048, .f32⟩
  | .local _ .vmem, ⟨3, _⟩ => ⟨S512x1024, .bf16⟩
  | .local _ .vmem, ⟨4, _⟩ => ⟨S6x256x128, .bf16⟩
  | .local _ .vmem, ⟨5, _⟩ => ⟨S6x256x128, .bf16⟩
  | .local _ .vmem, ⟨6, _⟩ => ⟨S6x256x128, .f32⟩
  | .local _ .vmem, ⟨7, _⟩ => ⟨S16x256x128, .bf16⟩
  | _, _ => ⟨S512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  (ofTc nBuf bufTy 1 35 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_sem0_0 : DmaSem sig := 0
abbrev cc0_sem1_0 : DmaSem sig := 1
abbrev cc0_sem2_0 : DmaSem sig := 2
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.subi c1_i32_6 v2
  let c4_i32_9 : BitVec 32 := 4#32
  let v16 : BitVec 32 := Scalar.muli v13 c4_i32_9
  let v17 : BitVec 32 := Scalar.addi c0_i32 v16
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_10 : BitVec 32 := 2#32
  let v18 : BitVec 32 := Scalar.muli v5 c2_i32_10
  let v19 : BitVec 32 := Scalar.addi v17 v18
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_11 : BitVec 32 := 1#32
  let v20 : BitVec 32 := Scalar.muli v8 c1_i32_11
  let v21 : BitVec 32 := Scalar.addi v19 v20
  v21.toNat
def k0_dev2 (d0 : Dev nD) : Nat :=
  let c0_i32_14 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_13 : BitVec 32 := 4#32
  let v22 : BitVec 32 := Scalar.muli v2 c4_i32_13
  let v23 : BitVec 32 := Scalar.addi c0_i32_14 v22
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_5 v5
  let c2_i32_15 : BitVec 32 := 2#32
  let v24 : BitVec 32 := Scalar.muli v12 c2_i32_15
  let v25 : BitVec 32 := Scalar.addi v23 v24
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_16 : BitVec 32 := 1#32
  let v26 : BitVec 32 := Scalar.muli v8 c1_i32_16
  let v27 : BitVec 32 := Scalar.addi v25 v26
  v27.toNat
def k0_dev3 (d0 : Dev nD) : Nat :=
  let c0_i32_19 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_18 : BitVec 32 := 4#32
  let v28 : BitVec 32 := Scalar.muli v2 c4_i32_18
  let v29 : BitVec 32 := Scalar.addi c0_i32_19 v28
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_20 : BitVec 32 := 2#32
  let v30 : BitVec 32 := Scalar.muli v5 c2_i32_20
  let v31 : BitVec 32 := Scalar.addi v29 v30
  let c1_i32_7 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v14 : BitVec 32 := Scalar.subi c1_i32_7 v8
  let c1_i32_21 : BitVec 32 := 1#32
  let v32 : BitVec 32 := Scalar.muli v14 c1_i32_21
  let v33 : BitVec 32 := Scalar.addi v31 v32
  v33.toNat
def k0_off1 (d0 : Dev nD) : Fin 2 → Nat :=
  let c0 : Index := 0#32
  let c1_i32_22 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v34 : BitVec 32 := Scalar.subi c1_i32_22 v5
  let c256_i32 : BitVec 32 := 256#32
  let v35 : BitVec 32 := Scalar.muli v34 c256_i32
  let v36 : Index := Scalar.indexCast v35
  ![0, v36.toNat]
def k0_off2 (d0 : Dev nD) : Fin 2 → Nat :=
  let c0_24 : Index := 0#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c256_i32_23 : BitVec 32 := 256#32
  let v40 : BitVec 32 := Scalar.muli v5 c256_i32_23
  let v41 : Index := Scalar.indexCast v40
  ![0, v41.toNat]
def k0_off3 (d0 : Dev nD) (c0_i32_26 : BitVec 32) : Fin 2 → Nat :=
  let c0_27 : Index := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1024_i32 : BitVec 32 := 1024#32
  let v9 : BitVec 32 := Scalar.muli v2 c1024_i32
  let c2_i32_25 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v45 : BitVec 32 := Scalar.muli c2_i32_25 v8
  let v46 : BitVec 32 := Scalar.addi v45 c0_i32_26
  let c128_i32 : BitVec 32 := 128#32
  let v47 : BitVec 32 := Scalar.muli v46 c128_i32
  let v48 : BitVec 32 := Scalar.addi v9 v47
  let v49 : Index := Scalar.indexCast v48
  ![0, v49.toNat]
def k0_dev4 (d0 : Dev nD) : Nat :=
  let c0_i32_36 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_35 : BitVec 32 := 4#32
  let v58 : BitVec 32 := Scalar.muli v2 c4_i32_35
  let v59 : BitVec 32 := Scalar.addi c0_i32_36 v58
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_5 v5
  let c2_i32_37 : BitVec 32 := 2#32
  let v60 : BitVec 32 := Scalar.muli v12 c2_i32_37
  let v61 : BitVec 32 := Scalar.addi v59 v60
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_38 : BitVec 32 := 1#32
  let v62 : BitVec 32 := Scalar.muli v8 c1_i32_38
  let v63 : BitVec 32 := Scalar.addi v61 v62
  v63.toNat
def k0_dev5 (d0 : Dev nD) : Nat :=
  let c0_i32_55 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_54 : BitVec 32 := 4#32
  let v85 : BitVec 32 := Scalar.muli v2 c4_i32_54
  let v86 : BitVec 32 := Scalar.addi c0_i32_55 v85
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_5 v5
  let c2_i32_56 : BitVec 32 := 2#32
  let v87 : BitVec 32 := Scalar.muli v12 c2_i32_56
  let v88 : BitVec 32 := Scalar.addi v86 v87
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_57 : BitVec 32 := 1#32
  let v89 : BitVec 32 := Scalar.muli v8 c1_i32_57
  let v90 : BitVec 32 := Scalar.addi v88 v89
  v90.toNat
def k0_off4 (d0 : Dev nD) : Fin 2 → Nat :=
  let c0_62 : Index := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1024_i32 : BitVec 32 := 1024#32
  let v9 : BitVec 32 := Scalar.muli v2 c1024_i32
  let v99 : Index := Scalar.indexCast v9
  ![0, v99.toNat]
def k0_dev6 (d0 : Dev nD) : Nat :=
  let c0_i32_74 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_73 : BitVec 32 := 4#32
  let v112 : BitVec 32 := Scalar.muli v2 c4_i32_73
  let v113 : BitVec 32 := Scalar.addi c0_i32_74 v112
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_5 v5
  let c2_i32_75 : BitVec 32 := 2#32
  let v114 : BitVec 32 := Scalar.muli v12 c2_i32_75
  let v115 : BitVec 32 := Scalar.addi v113 v114
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_76 : BitVec 32 := 1#32
  let v116 : BitVec 32 := Scalar.muli v8 c1_i32_76
  let v117 : BitVec 32 := Scalar.addi v115 v116
  v117.toNat
def k0_dev7 (d0 : Dev nD) : Nat :=
  let c0_i32_90 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_89 : BitVec 32 := 4#32
  let v132 : BitVec 32 := Scalar.muli v2 c4_i32_89
  let v133 : BitVec 32 := Scalar.addi c0_i32_90 v132
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_5 v5
  let c2_i32_91 : BitVec 32 := 2#32
  let v134 : BitVec 32 := Scalar.muli v12 c2_i32_91
  let v135 : BitVec 32 := Scalar.addi v133 v134
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_92 : BitVec 32 := 1#32
  let v136 : BitVec 32 := Scalar.muli v8 c1_i32_92
  let v137 : BitVec 32 := Scalar.addi v135 v136
  v137.toNat
def k0_dev8 (d0 : Dev nD) : Nat :=
  let c0_i32_106 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_105 : BitVec 32 := 4#32
  let v152 : BitVec 32 := Scalar.muli v2 c4_i32_105
  let v153 : BitVec 32 := Scalar.addi c0_i32_106 v152
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_5 v5
  let c2_i32_107 : BitVec 32 := 2#32
  let v154 : BitVec 32 := Scalar.muli v12 c2_i32_107
  let v155 : BitVec 32 := Scalar.addi v153 v154
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_108 : BitVec 32 := 1#32
  let v156 : BitVec 32 := Scalar.muli v8 c1_i32_108
  let v157 : BitVec 32 := Scalar.addi v155 v156
  v157.toNat
def k0_dev9 (d0 : Dev nD) : Nat :=
  let c0_i32_121 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_120 : BitVec 32 := 4#32
  let v172 : BitVec 32 := Scalar.muli v2 c4_i32_120
  let v173 : BitVec 32 := Scalar.addi c0_i32_121 v172
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_5 v5
  let c2_i32_122 : BitVec 32 := 2#32
  let v174 : BitVec 32 := Scalar.muli v12 c2_i32_122
  let v175 : BitVec 32 := Scalar.addi v173 v174
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_123 : BitVec 32 := 1#32
  let v176 : BitVec 32 := Scalar.muli v8 c1_i32_123
  let v177 : BitVec 32 := Scalar.addi v175 v176
  v177.toNat
def k0_off5 (d0 : Dev nD) (c0_i32_129 : BitVec 32) : Fin 2 → Nat :=
  let c0_131 : Index := 0#32
  let c2_i32_128 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v186 : BitVec 32 := Scalar.muli c2_i32_128 v8
  let v187 : BitVec 32 := Scalar.addi v186 c0_i32_129
  let c128_i32_130 : BitVec 32 := 128#32
  let v188 : BitVec 32 := Scalar.muli v187 c128_i32_130
  let v189 : Index := Scalar.indexCast v188
  ![0, v189.toNat]
def k0_off6 (d0 : Dev nD) (c0_i32_169 : BitVec 32) : Fin 3 → Nat :=
  let c2_i32_168 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v224 : BitVec 32 := Scalar.muli c2_i32_168 v8
  let v225 : BitVec 32 := Scalar.addi v224 c0_i32_169
  let v251 : Index := Scalar.indexCast v225
  let c0_197 : Index := 0#32
  let c0_198 : Index := 0#32
  ![v251.toNat, 0, 0]
def k0_off7 (d0 : Dev nD) (c0_i32_169 : BitVec 32) : Fin 3 → Nat :=
  let c8_i32 : BitVec 32 := 8#32
  let c2_i32_168 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v224 : BitVec 32 := Scalar.muli c2_i32_168 v8
  let v225 : BitVec 32 := Scalar.addi v224 c0_i32_169
  let v255 : BitVec 32 := Scalar.addi c8_i32 v225
  let c0_i32_205 : BitVec 32 := 0#32
  let c0_i32_206 : BitVec 32 := 0#32
  ![v255.toNat, 0, 0]
def k0_off8 (d0 : Dev nD) (c0_i32_169 : BitVec 32) : Fin 3 → Nat :=
  let c2_i32_168 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v224 : BitVec 32 := Scalar.muli c2_i32_168 v8
  let v225 : BitVec 32 := Scalar.addi v224 c0_i32_169
  let c0_i32_207 : BitVec 32 := 0#32
  let c0_i32_208 : BitVec 32 := 0#32
  ![v225.toNat, 0, 0]
def k0_dev10 (d0 : Dev nD) : Nat :=
  let c0_i32_202 : BitVec 32 := 0#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.subi c1_i32_6 v2
  let c4_i32_201 : BitVec 32 := 4#32
  let v256 : BitVec 32 := Scalar.muli v13 c4_i32_201
  let v257 : BitVec 32 := Scalar.addi c0_i32_202 v256
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_203 : BitVec 32 := 2#32
  let v258 : BitVec 32 := Scalar.muli v5 c2_i32_203
  let v259 : BitVec 32 := Scalar.addi v257 v258
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_204 : BitVec 32 := 1#32
  let v260 : BitVec 32 := Scalar.muli v8 c1_i32_204
  let v261 : BitVec 32 := Scalar.addi v259 v260
  v261.toNat
def k0_dev11 (d0 : Dev nD) : Nat :=
  let c0_i32_212 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_211 : BitVec 32 := 4#32
  let v270 : BitVec 32 := Scalar.muli v2 c4_i32_211
  let v271 : BitVec 32 := Scalar.addi c0_i32_212 v270
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_213 : BitVec 32 := 2#32
  let v272 : BitVec 32 := Scalar.muli v5 c2_i32_213
  let v273 : BitVec 32 := Scalar.addi v271 v272
  let c1_i32_7 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v14 : BitVec 32 := Scalar.subi c1_i32_7 v8
  let c1_i32_214 : BitVec 32 := 1#32
  let v274 : BitVec 32 := Scalar.muli v14 c1_i32_214
  let v275 : BitVec 32 := Scalar.addi v273 v274
  v275.toNat
def k0_off9 (d0 : Dev nD) (c0_i32_169 : BitVec 32) : Fin 2 → Nat :=
  let c0_220 : Index := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1024_i32 : BitVec 32 := 1024#32
  let v9 : BitVec 32 := Scalar.muli v2 c1024_i32
  let c2_i32_168 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v224 : BitVec 32 := Scalar.muli c2_i32_168 v8
  let v225 : BitVec 32 := Scalar.addi v224 c0_i32_169
  let c128_i32_219 : BitVec 32 := 128#32
  let v284 : BitVec 32 := Scalar.muli v225 c128_i32_219
  let v285 : BitVec 32 := Scalar.addi v9 v284
  let v286 : Index := Scalar.indexCast v285
  ![0, v286.toNat]
def k0_dev12 (d0 : Dev nD) : Nat :=
  let c0_i32_256 : BitVec 32 := 0#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.subi c1_i32_6 v2
  let c4_i32_255 : BitVec 32 := 4#32
  let v320 : BitVec 32 := Scalar.muli v13 c4_i32_255
  let v321 : BitVec 32 := Scalar.addi c0_i32_256 v320
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_257 : BitVec 32 := 2#32
  let v322 : BitVec 32 := Scalar.muli v5 c2_i32_257
  let v323 : BitVec 32 := Scalar.addi v321 v322
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_258 : BitVec 32 := 1#32
  let v324 : BitVec 32 := Scalar.muli v8 c1_i32_258
  let v325 : BitVec 32 := Scalar.addi v323 v324
  v325.toNat
def k0_dev13 (d0 : Dev nD) : Nat :=
  let c0_i32_266 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_265 : BitVec 32 := 4#32
  let v334 : BitVec 32 := Scalar.muli v2 c4_i32_265
  let v335 : BitVec 32 := Scalar.addi c0_i32_266 v334
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_267 : BitVec 32 := 2#32
  let v336 : BitVec 32 := Scalar.muli v5 c2_i32_267
  let v337 : BitVec 32 := Scalar.addi v335 v336
  let c1_i32_7 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v14 : BitVec 32 := Scalar.subi c1_i32_7 v8
  let c1_i32_268 : BitVec 32 := 1#32
  let v338 : BitVec 32 := Scalar.muli v14 c1_i32_268
  let v339 : BitVec 32 := Scalar.addi v337 v338
  v339.toNat
def k0_dev14 (d0 : Dev nD) : Nat :=
  let c0_i32_309 : BitVec 32 := 0#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.subi c1_i32_6 v2
  let c4_i32_308 : BitVec 32 := 4#32
  let v380 : BitVec 32 := Scalar.muli v13 c4_i32_308
  let v381 : BitVec 32 := Scalar.addi c0_i32_309 v380
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_310 : BitVec 32 := 2#32
  let v382 : BitVec 32 := Scalar.muli v5 c2_i32_310
  let v383 : BitVec 32 := Scalar.addi v381 v382
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_311 : BitVec 32 := 1#32
  let v384 : BitVec 32 := Scalar.muli v8 c1_i32_311
  let v385 : BitVec 32 := Scalar.addi v383 v384
  v385.toNat
def k0_off10 (d0 : Dev nD) (c512_i32 : BitVec 32) : Fin 2 → Nat :=
  let c0_316 : Index := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1024_i32 : BitVec 32 := 1024#32
  let v9 : BitVec 32 := Scalar.muli v2 c1024_i32
  let v394 : BitVec 32 := Scalar.addi v9 c512_i32
  let v395 : Index := Scalar.indexCast v394
  ![0, v395.toNat]
def k0_dev15 (d0 : Dev nD) : Nat :=
  let c0_i32_351 : BitVec 32 := 0#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.subi c1_i32_6 v2
  let c4_i32_350 : BitVec 32 := 4#32
  let v425 : BitVec 32 := Scalar.muli v13 c4_i32_350
  let v426 : BitVec 32 := Scalar.addi c0_i32_351 v425
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_352 : BitVec 32 := 2#32
  let v427 : BitVec 32 := Scalar.muli v5 c2_i32_352
  let v428 : BitVec 32 := Scalar.addi v426 v427
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_353 : BitVec 32 := 1#32
  let v429 : BitVec 32 := Scalar.muli v8 c1_i32_353
  let v430 : BitVec 32 := Scalar.addi v428 v429
  v430.toNat
def k0_dev16 (d0 : Dev nD) : Nat :=
  let c0_i32_391 : BitVec 32 := 0#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.subi c1_i32_6 v2
  let c4_i32_390 : BitVec 32 := 4#32
  let v470 : BitVec 32 := Scalar.muli v13 c4_i32_390
  let v471 : BitVec 32 := Scalar.addi c0_i32_391 v470
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_392 : BitVec 32 := 2#32
  let v472 : BitVec 32 := Scalar.muli v5 c2_i32_392
  let v473 : BitVec 32 := Scalar.addi v471 v472
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_393 : BitVec 32 := 1#32
  let v474 : BitVec 32 := Scalar.muli v8 c1_i32_393
  let v475 : BitVec 32 := Scalar.addi v473 v474
  v475.toNat
def k0_dev17 (d0 : Dev nD) : Nat :=
  let c0_i32_431 : BitVec 32 := 0#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.subi c1_i32_6 v2
  let c4_i32_430 : BitVec 32 := 4#32
  let v515 : BitVec 32 := Scalar.muli v13 c4_i32_430
  let v516 : BitVec 32 := Scalar.addi c0_i32_431 v515
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_432 : BitVec 32 := 2#32
  let v517 : BitVec 32 := Scalar.muli v5 c2_i32_432
  let v518 : BitVec 32 := Scalar.addi v516 v517
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_433 : BitVec 32 := 1#32
  let v519 : BitVec 32 := Scalar.muli v8 c1_i32_433
  let v520 : BitVec 32 := Scalar.addi v518 v519
  v520.toNat
def k0_dev18 (d0 : Dev nD) : Nat :=
  let c0_i32_463 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_462 : BitVec 32 := 4#32
  let v554 : BitVec 32 := Scalar.muli v2 c4_i32_462
  let v555 : BitVec 32 := Scalar.addi c0_i32_463 v554
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_464 : BitVec 32 := 2#32
  let v556 : BitVec 32 := Scalar.muli v5 c2_i32_464
  let v557 : BitVec 32 := Scalar.addi v555 v556
  let c1_i32_7 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v14 : BitVec 32 := Scalar.subi c1_i32_7 v8
  let c1_i32_465 : BitVec 32 := 1#32
  let v558 : BitVec 32 := Scalar.muli v14 c1_i32_465
  let v559 : BitVec 32 := Scalar.addi v557 v558
  v559.toNat
def k0_off11 (d0 : Dev nD) (c0_i32_440 : BitVec 32) : Fin 3 → Nat :=
  let c8_i32_470 : BitVec 32 := 8#32
  let c2_i32_439 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v532 : BitVec 32 := Scalar.muli c2_i32_439 v8
  let v533 : BitVec 32 := Scalar.addi v532 c0_i32_440
  let v568 : BitVec 32 := Scalar.addi c8_i32_470 v533
  let v569 : Index := Scalar.indexCast v568
  let c0_471 : Index := 0#32
  let c0_472 : Index := 0#32
  ![v569.toNat, 0, 0]
def k0_off12 (d0 : Dev nD) (c0_i32_440 : BitVec 32) : Fin 2 → Nat :=
  let c0_474 : Index := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_3 v2
  let c1024_i32_4 : BitVec 32 := 1024#32
  let v11 : BitVec 32 := Scalar.muli v10 c1024_i32_4
  let c2_i32_439 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v532 : BitVec 32 := Scalar.muli c2_i32_439 v8
  let v533 : BitVec 32 := Scalar.addi v532 c0_i32_440
  let c128_i32_473 : BitVec 32 := 128#32
  let v573 : BitVec 32 := Scalar.muli v533 c128_i32_473
  let v574 : BitVec 32 := Scalar.addi v11 v573
  let v575 : Index := Scalar.indexCast v574
  ![0, v575.toNat]
def k0_dev19 (d0 : Dev nD) : Nat :=
  let c0_i32_499 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_498 : BitVec 32 := 4#32
  let v599 : BitVec 32 := Scalar.muli v2 c4_i32_498
  let v600 : BitVec 32 := Scalar.addi c0_i32_499 v599
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_500 : BitVec 32 := 2#32
  let v601 : BitVec 32 := Scalar.muli v5 c2_i32_500
  let v602 : BitVec 32 := Scalar.addi v600 v601
  let c1_i32_7 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v14 : BitVec 32 := Scalar.subi c1_i32_7 v8
  let c1_i32_501 : BitVec 32 := 1#32
  let v603 : BitVec 32 := Scalar.muli v14 c1_i32_501
  let v604 : BitVec 32 := Scalar.addi v602 v603
  v604.toNat
def k0_off13 (d0 : Dev nD) (c512_i32_534 : BitVec 32) : Fin 2 → Nat :=
  let c0_535 : Index := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_3 v2
  let c1024_i32_4 : BitVec 32 := 1024#32
  let v11 : BitVec 32 := Scalar.muli v10 c1024_i32_4
  let v643 : BitVec 32 := Scalar.addi v11 c512_i32_534
  let v644 : Index := Scalar.indexCast v643
  ![0, v644.toNat]
def k0_off14 (d0 : Dev nD) (c0_i32_681 : BitVec 32) : Fin 3 → Nat :=
  let c2_i32_680 : BitVec 32 := 2#32
  let c1_i32_679 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v790 : BitVec 32 := Scalar.subi c1_i32_679 v8
  let v791 : BitVec 32 := Scalar.muli c2_i32_680 v790
  let v792 : BitVec 32 := Scalar.addi v791 c0_i32_681
  let v793 : Index := Scalar.indexCast v792
  let c0_682 : Index := 0#32
  let c0_683 : Index := 0#32
  ![v793.toNat, 0, 0]
def k0_off15 (d0 : Dev nD) (c0_i32_681 : BitVec 32) : Fin 2 → Nat :=
  let c0_685 : Index := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1024_i32 : BitVec 32 := 1024#32
  let v9 : BitVec 32 := Scalar.muli v2 c1024_i32
  let c2_i32_680 : BitVec 32 := 2#32
  let c1_i32_679 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v790 : BitVec 32 := Scalar.subi c1_i32_679 v8
  let v791 : BitVec 32 := Scalar.muli c2_i32_680 v790
  let v792 : BitVec 32 := Scalar.addi v791 c0_i32_681
  let c128_i32_684 : BitVec 32 := 128#32
  let v797 : BitVec 32 := Scalar.muli v792 c128_i32_684
  let v798 : BitVec 32 := Scalar.addi v9 v797
  let v799 : Index := Scalar.indexCast v798
  ![0, v799.toNat]
def k0_off16 (d0 : Dev nD) (c0_i32_681 : BitVec 32) : Fin 3 → Nat :=
  let c8_i32_686 : BitVec 32 := 8#32
  let c2_i32_680 : BitVec 32 := 2#32
  let c1_i32_679 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v790 : BitVec 32 := Scalar.subi c1_i32_679 v8
  let v791 : BitVec 32 := Scalar.muli c2_i32_680 v790
  let v792 : BitVec 32 := Scalar.addi v791 c0_i32_681
  let v801 : BitVec 32 := Scalar.addi c8_i32_686 v792
  let v802 : Index := Scalar.indexCast v801
  let c0_687 : Index := 0#32
  let c0_688 : Index := 0#32
  ![v802.toNat, 0, 0]
def k0_off17 (d0 : Dev nD) (c0_i32_681 : BitVec 32) : Fin 2 → Nat :=
  let c0_690 : Index := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_3 v2
  let c1024_i32_4 : BitVec 32 := 1024#32
  let v11 : BitVec 32 := Scalar.muli v10 c1024_i32_4
  let c2_i32_680 : BitVec 32 := 2#32
  let c1_i32_679 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v790 : BitVec 32 := Scalar.subi c1_i32_679 v8
  let v791 : BitVec 32 := Scalar.muli c2_i32_680 v790
  let v792 : BitVec 32 := Scalar.addi v791 c0_i32_681
  let c128_i32_689 : BitVec 32 := 128#32
  let v806 : BitVec 32 := Scalar.muli v792 c128_i32_689
  let v807 : BitVec 32 := Scalar.addi v11 v806
  let v808 : Index := Scalar.indexCast v807
  ![0, v808.toNat]
abbrev stage0_0 : Fin 1 → Memref sig .tc .vmem S512x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

class Facts₀ : Prop where
  hamt_1 : (1#32 : BitVec 32).msb = false
  hamt_3 : (3#32 : BitVec 32).msb = false
  h_S512x256 : 0 < S512x256.numel
  shapeCasts_S512x256_S512x256 : S512x256.ShapeCasts S512x256
  bitsLt_bf16_f32 : FTy.bits .bf16 < FTy.bits .f32
  h_S512x128 : 0 < S512x128.numel
  shapeCasts_S512x128_S512x128 : S512x128.ShapeCasts S512x128
  inb_S6x256x128_S1x256x128_0_0_0 : ∀ a, (![0, 0, 0] : Fin 3 → Nat) a + S1x256x128.size a ≤ S6x256x128.size a
  h_S1x256x128 : 0 < S1x256x128.numel
  shapeCasts_S1x256x128_S256x128 : S1x256x128.ShapeCasts S256x128
  shapeCasts_S256x128_S1x256x128 : S256x128.ShapeCasts S1x256x128
  packedbf16_S6x256x128_S1x256x128_0_0_0 : (Rect.unit (s := S6x256x128) ![0, 0, 0] S1x256x128.size inb_S6x256x128_S1x256x128_0_0_0).PackedRows (EltTy.packing .bf16)
  inb_S6_S1_0 : ∀ a, (![0] : Fin 1 → Nat) a + S1.size a ≤ S6.size a
  squeezes_S1_S_ : S1.Squeezes S_
  squeezes_S1x256x128_S256x128 : S1x256x128.Squeezes S256x128
  wordsbf16_S6x256x128_S1x256x128_0_0_0 : (Rect.unit (s := S6x256x128) ![0, 0, 0] S1x256x128.size inb_S6x256x128_S1x256x128_0_0_0).WholeWords (EltTy.packing .bf16)
  inb_S6x256x128_S1x256x128_1_0_0 : ∀ a, (![1, 0, 0] : Fin 3 → Nat) a + S1x256x128.size a ≤ S6x256x128.size a
  packedbf16_S6x256x128_S1x256x128_1_0_0 : (Rect.unit (s := S6x256x128) ![1, 0, 0] S1x256x128.size inb_S6x256x128_S1x256x128_1_0_0).PackedRows (EltTy.packing .bf16)
  inb_S6_S1_1 : ∀ a, (![1] : Fin 1 → Nat) a + S1.size a ≤ S6.size a
  wordsbf16_S6x256x128_S1x256x128_1_0_0 : (Rect.unit (s := S6x256x128) ![1, 0, 0] S1x256x128.size inb_S6x256x128_S1x256x128_1_0_0).WholeWords (EltTy.packing .bf16)
  h_S512x1024 : 0 < S512x1024.numel
  shapeCasts_S512x1024_S512x1024 : S512x1024.ShapeCasts S512x1024
  inb_S512x1024_S512x1024_0_0 : ∀ a, (![0, 0] : Fin 2 → Nat) a + S512x1024.size a ≤ S512x1024.size a
  packedbf16_S512x1024_S512x1024_0_0 : (Rect.unit (s := S512x1024) ![0, 0] S512x1024.size inb_S512x1024_S512x1024_0_0).PackedRows (EltTy.packing .bf16)
  inb_S512x1024_S512x128_0_512 : ∀ a, (![0, 512] : Fin 2 → Nat) a + S512x128.size a ≤ S512x1024.size a
  inb_S6x256x128_S1x256x128_2_0_0 : ∀ a, (![2, 0, 0] : Fin 3 → Nat) a + S1x256x128.size a ≤ S6x256x128.size a
  packedbf16_S6x256x128_S1x256x128_2_0_0 : (Rect.unit (s := S6x256x128) ![2, 0, 0] S1x256x128.size inb_S6x256x128_S1x256x128_2_0_0).PackedRows (EltTy.packing .bf16)
  inb_S6_S1_2 : ∀ a, (![2] : Fin 1 → Nat) a + S1.size a ≤ S6.size a
  wordsbf16_S6x256x128_S1x256x128_2_0_0 : (Rect.unit (s := S6x256x128) ![2, 0, 0] S1x256x128.size inb_S6x256x128_S1x256x128_2_0_0).WholeWords (EltTy.packing .bf16)
  inb_S512x1024_S512x128_0_640 : ∀ a, (![0, 640] : Fin 2 → Nat) a + S512x128.size a ≤ S512x1024.size a
  inb_S6x256x128_S1x256x128_3_0_0 : ∀ a, (![3, 0, 0] : Fin 3 → Nat) a + S1x256x128.size a ≤ S6x256x128.size a
  packedbf16_S6x256x128_S1x256x128_3_0_0 : (Rect.unit (s := S6x256x128) ![3, 0, 0] S1x256x128.size inb_S6x256x128_S1x256x128_3_0_0).PackedRows (EltTy.packing .bf16)
  inb_S6_S1_3 : ∀ a, (![3] : Fin 1 → Nat) a + S1.size a ≤ S6.size a
  wordsbf16_S6x256x128_S1x256x128_3_0_0 : (Rect.unit (s := S6x256x128) ![3, 0, 0] S1x256x128.size inb_S6x256x128_S1x256x128_3_0_0).WholeWords (EltTy.packing .bf16)
  inb_S512x1024_S512x128_0_768 : ∀ a, (![0, 768] : Fin 2 → Nat) a + S512x128.size a ≤ S512x1024.size a
  inb_S6x256x128_S1x256x128_4_0_0 : ∀ a, (![4, 0, 0] : Fin 3 → Nat) a + S1x256x128.size a ≤ S6x256x128.size a
  packedbf16_S6x256x128_S1x256x128_4_0_0 : (Rect.unit (s := S6x256x128) ![4, 0, 0] S1x256x128.size inb_S6x256x128_S1x256x128_4_0_0).PackedRows (EltTy.packing .bf16)
  inb_S6_S1_4 : ∀ a, (![4] : Fin 1 → Nat) a + S1.size a ≤ S6.size a
  wordsbf16_S6x256x128_S1x256x128_4_0_0 : (Rect.unit (s := S6x256x128) ![4, 0, 0] S1x256x128.size inb_S6x256x128_S1x256x128_4_0_0).WholeWords (EltTy.packing .bf16)
  inb_S512x1024_S512x128_0_896 : ∀ a, (![0, 896] : Fin 2 → Nat) a + S512x128.size a ≤ S512x1024.size a
  inb_S6x256x128_S1x256x128_5_0_0 : ∀ a, (![5, 0, 0] : Fin 3 → Nat) a + S1x256x128.size a ≤ S6x256x128.size a
  packedbf16_S6x256x128_S1x256x128_5_0_0 : (Rect.unit (s := S6x256x128) ![5, 0, 0] S1x256x128.size inb_S6x256x128_S1x256x128_5_0_0).PackedRows (EltTy.packing .bf16)
  inb_S6_S1_5 : ∀ a, (![5] : Fin 1 → Nat) a + S1.size a ≤ S6.size a
  wordsbf16_S6x256x128_S1x256x128_5_0_0 : (Rect.unit (s := S6x256x128) ![5, 0, 0] S1x256x128.size inb_S6x256x128_S1x256x128_5_0_0).WholeWords (EltTy.packing .bf16)
  inb_S4_S1_0 : ∀ a, (![0] : Fin 1 → Nat) a + S1.size a ≤ S4.size a
  h_S256x128 : 0 < S256x128.numel
  inb_S4_S1_1 : ∀ a, (![1] : Fin 1 → Nat) a + S1.size a ≤ S4.size a
  inb_S16x256x128_S1x256x128_4_0_0 : ∀ a, (![4, 0, 0] : Fin 3 → Nat) a + S1x256x128.size a ≤ S16x256x128.size a
  packedbf16_S16x256x128_S1x256x128_4_0_0 : (Rect.unit (s := S16x256x128) ![4, 0, 0] S1x256x128.size inb_S16x256x128_S1x256x128_4_0_0).PackedRows (EltTy.packing .bf16)
  inb_S16x256x128_S1x256x128_12_0_0 : ∀ a, (![12, 0, 0] : Fin 3 → Nat) a + S1x256x128.size a ≤ S16x256x128.size a
  wordsbf16_S16x256x128_S1x256x128_4_0_0 : (Rect.unit (s := S16x256x128) ![4, 0, 0] S1x256x128.size inb_S16x256x128_S1x256x128_4_0_0).WholeWords (EltTy.packing .bf16)
  wordsbf16_S16x256x128_S1x256x128_12_0_0 : (Rect.unit (s := S16x256x128) ![12, 0, 0] S1x256x128.size inb_S16x256x128_S1x256x128_12_0_0).WholeWords (EltTy.packing .bf16)
  inb_S16x256x128_S1x256x128_5_0_0 : ∀ a, (![5, 0, 0] : Fin 3 → Nat) a + S1x256x128.size a ≤ S16x256x128.size a
  packedbf16_S16x256x128_S1x256x128_5_0_0 : (Rect.unit (s := S16x256x128) ![5, 0, 0] S1x256x128.size inb_S16x256x128_S1x256x128_5_0_0).PackedRows (EltTy.packing .bf16)
  inb_S16x256x128_S1x256x128_13_0_0 : ∀ a, (![13, 0, 0] : Fin 3 → Nat) a + S1x256x128.size a ≤ S16x256x128.size a
  wordsbf16_S16x256x128_S1x256x128_5_0_0 : (Rect.unit (s := S16x256x128) ![5, 0, 0] S1x256x128.size inb_S16x256x128_S1x256x128_5_0_0).WholeWords (EltTy.packing .bf16)
  wordsbf16_S16x256x128_S1x256x128_13_0_0 : (Rect.unit (s := S16x256x128) ![13, 0, 0] S1x256x128.size inb_S16x256x128_S1x256x128_13_0_0).WholeWords (EltTy.packing .bf16)
  inb_S16x256x128_S1x256x128_6_0_0 : ∀ a, (![6, 0, 0] : Fin 3 → Nat) a + S1x256x128.size a ≤ S16x256x128.size a
  packedbf16_S16x256x128_S1x256x128_6_0_0 : (Rect.unit (s := S16x256x128) ![6, 0, 0] S1x256x128.size inb_S16x256x128_S1x256x128_6_0_0).PackedRows (EltTy.packing .bf16)
  inb_S16x256x128_S1x256x128_14_0_0 : ∀ a, (![14, 0, 0] : Fin 3 → Nat) a + S1x256x128.size a ≤ S16x256x128.size a
  wordsbf16_S16x256x128_S1x256x128_6_0_0 : (Rect.unit (s := S16x256x128) ![6, 0, 0] S1x256x128.size inb_S16x256x128_S1x256x128_6_0_0).WholeWords (EltTy.packing .bf16)
  wordsbf16_S16x256x128_S1x256x128_14_0_0 : (Rect.unit (s := S16x256x128) ![14, 0, 0] S1x256x128.size inb_S16x256x128_S1x256x128_14_0_0).WholeWords (EltTy.packing .bf16)
  inb_S16x256x128_S1x256x128_7_0_0 : ∀ a, (![7, 0, 0] : Fin 3 → Nat) a + S1x256x128.size a ≤ S16x256x128.size a
  packedbf16_S16x256x128_S1x256x128_7_0_0 : (Rect.unit (s := S16x256x128) ![7, 0, 0] S1x256x128.size inb_S16x256x128_S1x256x128_7_0_0).PackedRows (EltTy.packing .bf16)
  inb_S16x256x128_S1x256x128_15_0_0 : ∀ a, (![15, 0, 0] : Fin 3 → Nat) a + S1x256x128.size a ≤ S16x256x128.size a
  wordsbf16_S16x256x128_S1x256x128_7_0_0 : (Rect.unit (s := S16x256x128) ![7, 0, 0] S1x256x128.size inb_S16x256x128_S1x256x128_7_0_0).WholeWords (EltTy.packing .bf16)
  wordsbf16_S16x256x128_S1x256x128_15_0_0 : (Rect.unit (s := S16x256x128) ![15, 0, 0] S1x256x128.size inb_S16x256x128_S1x256x128_15_0_0).WholeWords (EltTy.packing .bf16)
  inb_S4_S1_2 : ∀ a, (![2] : Fin 1 → Nat) a + S1.size a ≤ S4.size a
  inb_S4_S1_3 : ∀ a, (![3] : Fin 1 → Nat) a + S1.size a ≤ S4.size a
  dot_S512x256_S512x128_S256x128_0_0_1_1_n_n_wf : DotDims.WF S512x256 S512x128 S256x128 [0] [0] [1] [1] [] []
  hcc0_scratch5 : 3 + S6.numel ≤ 35
  hcc0_scratch6 : 9 + S6.numel ≤ 35
  hcc0_scratch7 : 15 + S6.numel ≤ 35
  hcc0_scratch8 : 21 + S6.numel ≤ 35
  hcc0_scratch9 : 27 + S4.numel ≤ 35
  hcc0_scratch10 : 31 + S4.numel ≤ 35
  k0_dev1_lt : ∀ d0 : Dev nD, (k0_dev1 d0) < nD
  k0_dev2_lt : ∀ d0 : Dev nD, (k0_dev2 d0) < nD
  k0_dev3_lt : ∀ d0 : Dev nD, (k0_dev3 d0) < nD
  k0_off1_inb : ∀ d0 : Dev nD, ∀ a, (k0_off1 d0) a + S512x256.size a ≤ S512x512.size a
  k0_off2_inb : ∀ d0 : Dev nD, ∀ a, (k0_off2 d0) a + S512x256.size a ≤ S512x512.size a
  k0_off3_inb : ∀ d0 : Dev nD, ∀ (r : Fin 2), ∀ a, (k0_off3 d0 (BitVec.ofNat 32 r.val)) a + S512x128.size a ≤ S512x2048.size a
  k0_dev4_lt : ∀ d0 : Dev nD, (k0_dev4 d0) < nD
  k0_dev5_lt : ∀ d0 : Dev nD, (k0_dev5 d0) < nD
  k0_off4_inb : ∀ d0 : Dev nD, ∀ a, (k0_off4 d0) a + S512x1024.size a ≤ S512x2048.size a
  k0_dev6_lt : ∀ d0 : Dev nD, (k0_dev6 d0) < nD
  k0_dev7_lt : ∀ d0 : Dev nD, (k0_dev7 d0) < nD
  k0_dev8_lt : ∀ d0 : Dev nD, (k0_dev8 d0) < nD
  k0_dev9_lt : ∀ d0 : Dev nD, (k0_dev9 d0) < nD
  k0_off5_inb : ∀ d0 : Dev nD, ∀ (r : Fin 2), ∀ a, (k0_off5 d0 (BitVec.ofNat 32 r.val)) a + S512x128.size a ≤ S512x1024.size a
  k0_off6_inb : ∀ d0 : Dev nD, ∀ (r : Fin 2), ∀ a, (k0_off6 d0 (BitVec.ofNat 32 r.val)) a + S1x256x128.size a ≤ S16x256x128.size a
  k0_off6_packedbf16 : ∀ d0 : Dev nD, ∀ (r : Fin 2), (Rect.unit (s := S16x256x128) (k0_off6 d0 (BitVec.ofNat 32 r.val)) S1x256x128.size (k0_off6_inb d0 r)).PackedRows (EltTy.packing .bf16)
  k0_off7_inb : ∀ d0 : Dev nD, ∀ (r : Fin 2), ∀ a, (k0_off7 d0 (BitVec.ofNat 32 r.val)) a + S1x256x128.size a ≤ S16x256x128.size a
  k0_off8_inb : ∀ d0 : Dev nD, ∀ (r : Fin 2), ∀ a, (k0_off8 d0 (BitVec.ofNat 32 r.val)) a + S1x256x128.size a ≤ S16x256x128.size a
  k0_off8_wordsbf16 : ∀ d0 : Dev nD, ∀ (r : Fin 2), (Rect.unit (s := S16x256x128) (k0_off8 d0 (BitVec.ofNat 32 r.val)) S1x256x128.size (k0_off8_inb d0 r)).WholeWords (EltTy.packing .bf16)
  k0_off7_wordsbf16 : ∀ d0 : Dev nD, ∀ (r : Fin 2), (Rect.unit (s := S16x256x128) (k0_off7 d0 (BitVec.ofNat 32 r.val)) S1x256x128.size (k0_off7_inb d0 r)).WholeWords (EltTy.packing .bf16)
  k0_dev10_lt : ∀ d0 : Dev nD, (k0_dev10 d0) < nD
  k0_dev11_lt : ∀ d0 : Dev nD, (k0_dev11 d0) < nD
  k0_off9_inb : ∀ d0 : Dev nD, ∀ (r : Fin 2), ∀ a, (k0_off9 d0 (BitVec.ofNat 32 r.val)) a + S256x128.size a ≤ S256x2048.size a
  k0_dev12_lt : ∀ d0 : Dev nD, (k0_dev12 d0) < nD
  k0_dev13_lt : ∀ d0 : Dev nD, (k0_dev13 d0) < nD
  k0_dev14_lt : ∀ d0 : Dev nD, (k0_dev14 d0) < nD
  k0_off10_inb : ∀ d0 : Dev nD, ∀ (r : Fin 4), ∀ a, (k0_off10 d0 (BitVec.ofNat 32 (512 + 128 * r.val))) a + S256x128.size a ≤ S256x2048.size a
  k0_dev15_lt : ∀ d0 : Dev nD, (k0_dev15 d0) < nD
  k0_dev16_lt : ∀ d0 : Dev nD, (k0_dev16 d0) < nD
  k0_dev17_lt : ∀ d0 : Dev nD, (k0_dev17 d0) < nD
  k0_dev18_lt : ∀ d0 : Dev nD, (k0_dev18 d0) < nD
  k0_off11_inb : ∀ d0 : Dev nD, ∀ (r : Fin 2), ∀ a, (k0_off11 d0 (BitVec.ofNat 32 r.val)) a + S1x256x128.size a ≤ S16x256x128.size a
  k0_off12_inb : ∀ d0 : Dev nD, ∀ (r : Fin 2), ∀ a, (k0_off12 d0 (BitVec.ofNat 32 r.val)) a + S256x128.size a ≤ S256x2048.size a
  k0_dev19_lt : ∀ d0 : Dev nD, (k0_dev19 d0) < nD
  k0_off13_inb : ∀ d0 : Dev nD, ∀ (r : Fin 4), ∀ a, (k0_off13 d0 (BitVec.ofNat 32 (512 + 128 * r.val))) a + S256x128.size a ≤ S256x2048.size a
  k0_off14_inb : ∀ d0 : Dev nD, ∀ (r : Fin 2), ∀ a, (k0_off14 d0 (BitVec.ofNat 32 r.val)) a + S1x256x128.size a ≤ S16x256x128.size a
  k0_off15_inb : ∀ d0 : Dev nD, ∀ (r : Fin 2), ∀ a, (k0_off15 d0 (BitVec.ofNat 32 r.val)) a + S256x128.size a ≤ S256x2048.size a
  k0_off16_inb : ∀ d0 : Dev nD, ∀ (r : Fin 2), ∀ a, (k0_off16 d0 (BitVec.ofNat 32 r.val)) a + S1x256x128.size a ≤ S16x256x128.size a
  k0_off17_inb : ∀ d0 : Dev nD, ∀ (r : Fin 2), ∀ a, (k0_off17 d0 (BitVec.ofNat 32 r.val)) a + S256x128.size a ≤ S256x2048.size a
  hstage0_0 : ∀ j, (stage0_0 j).IsWhole
  hstage0_1 : ∀ j, (stage0_1 j).IsWhole
  hstage0_2 : ∀ j, (stage0_2 j).IsWhole

variable [Facts₀]

abbrev cc0_scratch5 : DmaSems sig S6 := SemArray.consecutive 3 S6 hcc0_scratch5
abbrev cc0_scratch6 : DmaSems sig S6 := SemArray.consecutive 9 S6 hcc0_scratch6
abbrev cc0_scratch7 : DmaSems sig S6 := SemArray.consecutive 15 S6 hcc0_scratch7
abbrev cc0_scratch8 : DmaSems sig S6 := SemArray.consecutive 21 S6 hcc0_scratch8
abbrev cc0_scratch9 : DmaSems sig S4 := SemArray.consecutive 27 S4 hcc0_scratch9
abbrev cc0_scratch10 : DmaSems sig S4 := SemArray.consecutive 31 S4 hcc0_scratch10
def dot_S512x256_S512x128_S256x128_0_0_1_1_n_n : DotDims S512x256 S512x128 S256x128 where
  lhsContracting := [0]
  rhsContracting := [0]
  lhsNonContracting := [1]
  rhsNonContracting := [1]
  lhsBatch := []
  rhsBatch := []
  wf := dot_S512x256_S512x128_S256x128_0_0_1_1_n_n_wf

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_arg1) false false (stage0_1 0) (sem0_1 0) (Memref.isWhole_whole _) (hstage0_1 0)

abbrev win0_2 : Pipeline.Window sig grid0 :=
  Pipeline.Window.whole (Memref.whole main_v1) true false (stage0_2 0) (sem0_2 0) (Memref.isWhole_whole _) (hstage0_2 0)

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S1024x512 : Shape := ⟨2, ![1024, 512]⟩
abbrev S1024x2048 : Shape := ⟨2, ![1024, 2048]⟩
abbrev S512x1024 : Shape := ⟨2, ![512, 1024]⟩
abbrev S512x2048 : Shape := ⟨2, ![512, 2048]⟩

abbrev nBuf : Space → Nat
  | .hbm => 4
  | .vmem => 0
  | .smem => 0
  | _ => 0

abbrev bufTy : (tb : Table) → Fin (tcTables nBuf tb) → BufTy
  | .hbm, ⟨0, _⟩ => ⟨S1024x512, .f32⟩
  | .hbm, ⟨1, _⟩ => ⟨S1024x2048, .f32⟩
  | .hbm, ⟨2, _⟩ => ⟨S512x1024, .f32⟩
  | .hbm, ⟨3, _⟩ => ⟨S512x2048, .f32⟩
  | _, _ => ⟨S1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]

class Facts₀ : Prop where
  transposes_S1024x512_S512x1024_1_0 : S1024x512.Transposes [1, 0] S512x1024
  dot_S512x1024_S1024x2048_S512x2048_1_0_0_1_n_n_wf : DotDims.WF S512x1024 S1024x2048 S512x2048 [1] [0] [0] [1] [] []

variable [Facts₀]

def dot_S512x1024_S1024x2048_S512x2048_1_0_0_1_n_n : DotDims S512x1024 S1024x2048 S512x2048 where
  lhsContracting := [1]
  rhsContracting := [0]
  lhsNonContracting := [0]
  rhsNonContracting := [1]
  lhsBatch := []
  rhsBatch := []
  wf := dot_S512x1024_S1024x2048_S512x2048_1_0_0_1_n_n_wf

class Facts : Prop extends Facts₀ where

variable [Facts]
-- ==== Proof.Mesh.lean ====
/-
  The mesh of eight devices as a cube: a device's id is 4·x + 2·y + z over three binary coordinates, and
  each device talks to exactly three others — the one across each axis. The kernel computes those three ids
  by arithmetic over its own id; here each is identified with the coordinate flip it denotes.
-/
import proofs.«900594_g7700000000000595_dist_rsdw_v7x_xyz2x2x2_y_m512_d512_f2048_bf16_1_alg».proof.Proof.Gen.KernelIdeal
import Idealize.ShloMosaic.Lib.Tactic

noncomputable section

namespace Cert.KernelIdeal.Mesh

open Cert.KernelIdeal Cert.KernelIdeal.Gen
open Idealize.ShloMosaic Idealize.ShloMosaic.TcCoe Idealize.ShloMosaic.Tactic

/-- The neighbour across the x axis (the id's bit of weight 4 flipped). -/
def xp (c : Dev nD) : Dev nD := ⟨(c.val + 4) % 8, Nat.mod_lt _ (by decide)⟩
/-- The neighbour across the y axis (the bit of weight 2 flipped). -/
def yp (c : Dev nD) : Dev nD := ⟨4 * (c.val / 4) + (c.val + 2) % 4, by have h : c.val < 8 := c.isLt; show _ < 8; omega⟩
/-- The neighbour across the z axis (the bit of weight 1 flipped). -/
def zp (c : Dev nD) : Dev nD := ⟨2 * (c.val / 2) + (c.val + 1) % 2, by have h : c.val < 8 := c.isLt; show _ < 8; omega⟩

theorem xp_xp (c : Dev nD) : xp (xp c) = c := by revert c; decide
theorem yp_yp (c : Dev nD) : yp (yp c) = c := by revert c; decide
theorem zp_zp (c : Dev nD) : zp (zp c) = c := by revert c; decide
theorem xp_ne (c : Dev nD) : xp c ≠ c := by revert c; decide
theorem yp_ne (c : Dev nD) : yp c ≠ c := by revert c; decide
theorem zp_ne (c : Dev nD) : zp c ≠ c := by revert c; decide
theorem xp_ne_yp (c : Dev nD) : xp c ≠ yp c := by revert c; decide
theorem xp_ne_zp (c : Dev nD) : xp c ≠ zp c := by revert c; decide
theorem yp_ne_zp (c : Dev nD) : yp c ≠ zp c := by revert c; decide
theorem xp_zp (c : Dev nD) : xp (zp c) = zp (xp c) := by revert c; decide
theorem xp_yp (c : Dev nD) : xp (yp c) = yp (xp c) := by revert c; decide
theorem yp_zp (c : Dev nD) : yp (zp c) = zp (yp c) := by revert c; decide

def xE : Dev nD ≃ Dev nD := ⟨xp, xp, xp_xp, xp_xp⟩
def yE : Dev nD ≃ Dev nD := ⟨yp, yp, yp_yp, yp_yp⟩
def zE : Dev nD ≃ Dev nD := ⟨zp, zp, zp_zp, zp_zp⟩

/-- The closed forms of the three address computations. -/
theorem xval (c : Dev nD) : (2 * ((c.val / 2) % 2) + (c.val % 2) + 4) - 4 * (c.val / 4) = (xp c).val := by revert c; decide
theorem yval (c : Dev nD) : (4 * (c.val / 4) + (c.val % 2) + 2) - 2 * ((c.val / 2) % 2) = (yp c).val := by revert c; decide
theorem zval (c : Dev nD) : (4 * (c.val / 4) + 2 * ((c.val / 2) % 2) + 1) - (c.val % 2) = (zp c).val := by revert c; decide

/-- The kernel's nineteen device-id chains: the three entry signals (x, y, z), the six sends across y, then per
    reduced chunk the send across x (and, for the first two chunks, across z), and the two late sends across z. -/
@[sl_canon] theorem dev1_eq (c : Dev nD) : (⟨k0_dev1 c, k0_dev1_lt c⟩ : Dev nD) = xp c := Fin.ext ((k0_dev1_eq c).trans (xval c))
@[sl_canon] theorem dev2_eq (c : Dev nD) : (⟨k0_dev2 c, k0_dev2_lt c⟩ : Dev nD) = yp c := Fin.ext ((k0_dev2_eq c).trans (yval c))
@[sl_canon] theorem dev3_eq (c : Dev nD) : (⟨k0_dev3 c, k0_dev3_lt c⟩ : Dev nD) = zp c := Fin.ext ((k0_dev3_eq c).trans (zval c))
@[sl_canon] theorem dev4_eq (c : Dev nD) : (⟨k0_dev4 c, k0_dev4_lt c⟩ : Dev nD) = yp c := Fin.ext ((k0_dev4_eq c).trans (yval c))
@[sl_canon] theorem dev5_eq (c : Dev nD) : (⟨k0_dev5 c, k0_dev5_lt c⟩ : Dev nD) = yp c := Fin.ext ((k0_dev5_eq c).trans (yval c))
@[sl_canon] theorem dev6_eq (c : Dev nD) : (⟨k0_dev6 c, k0_dev6_lt c⟩ : Dev nD) = yp c := Fin.ext ((k0_dev6_eq c).trans (yval c))
@[sl_canon] theorem dev7_eq (c : Dev nD) : (⟨k0_dev7 c, k0_dev7_lt c⟩ : Dev nD) = yp c := Fin.ext ((k0_dev7_eq c).trans (yval c))
@[sl_canon] theorem dev8_eq (c : Dev nD) : (⟨k0_dev8 c, k0_dev8_lt c⟩ : Dev nD) = yp c := Fin.ext ((k0_dev8_eq c).trans (yval c))
@[sl_canon] theorem dev9_eq (c : Dev nD) : (⟨k0_dev9 c, k0_dev9_lt c⟩ : Dev nD) = yp c := Fin.ext ((k0_dev9_eq c).trans (yval c))
@[sl_canon] theorem dev10_eq (c : Dev nD) : (⟨k0_dev10 c, k0_dev10_lt c⟩ : Dev nD) = xp c := Fin.ext ((k0_dev10_eq c).trans (xval c))
@[sl_canon] theorem dev11_eq (c : Dev nD) : (⟨k0_dev11 c, k0_dev11_lt c⟩ : Dev nD) = zp c := Fin.ext ((k0_dev11_eq c).trans (zval c))
@[sl_canon] theorem dev12_eq (c : Dev nD) : (⟨k0_dev12 c, k0_dev12_lt c⟩ : Dev nD) = xp c := Fin.ext ((k0_dev12_eq c).trans (xval c))
@[sl_canon] theorem dev13_eq (c : Dev nD) : (⟨k0_dev13 c, k0_dev13_lt c⟩ : Dev nD) = zp c := Fin.ext ((k0_dev13_eq c).trans (zval c))
@[sl_canon] theorem dev14_eq (c : Dev nD) : (⟨k0_dev14 c, k0_dev14_lt c⟩ : Dev nD) = xp c := Fin.ext ((k0_dev14_eq c).trans (xval c))
@[sl_canon] theorem dev15_eq (c : Dev nD) : (⟨k0_dev15 c, k0_dev15_lt c⟩ : Dev nD) = xp c := Fin.ext ((k0_dev15_eq c).trans (xval c))
@[sl_canon] theorem dev16_eq (c : Dev nD) : (⟨k0_dev16 c, k0_dev16_lt c⟩ : Dev nD) = xp c := Fin.ext ((k0_dev16_eq c).trans (xval c))
@[sl_canon] theorem dev17_eq (c : Dev nD) : (⟨k0_dev17 c, k0_dev17_lt c⟩ : Dev nD) = xp c := Fin.ext ((k0_dev17_eq c).trans (xval c))
@[sl_canon] theorem dev18_eq (c : Dev nD) : (⟨k0_dev18 c, k0_dev18_lt c⟩ : Dev nD) = zp c := Fin.ext ((k0_dev18_eq c).trans (zval c))
@[sl_canon] theorem dev19_eq (c : Dev nD) : (⟨k0_dev19 c, k0_dev19_lt c⟩ : Dev nD) = zp c := Fin.ext ((k0_dev19_eq c).trans (zval c))

end Cert.KernelIdeal.Mesh

end
-- ==== Proof.Cells.lean ====
import proofs.«900594_g7700000000000595_dist_rsdw_v7x_xyz2x2x2_y_m512_d512_f2048_bf16_1_alg».proof.Proof.Mesh
import proofs.«900594_g7700000000000595_dist_rsdw_v7x_xyz2x2x2_y_m512_d512_f2048_bf16_1_alg».proof.Proof.Gen.KernelIdeal.Skeleton
import proofs.«900594_g7700000000000595_dist_rsdw_v7x_xyz2x2x2_y_m512_d512_f2048_bf16_1_alg».proof.Proof.Gen.KernelIdeal.Frame
import Idealize.ShloMosaic.Lib.Pipeline.Launch
import Idealize.ShloMosaic.Lib.Pipeline.Kit
import Idealize.ShloMosaic.Lib.Tactic

noncomputable section

namespace Cert.KernelIdeal.Coll

open Cert.KernelIdeal Cert.KernelIdeal.Gen Cert.KernelIdeal.Mesh
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The algebra: the pipeline's copy beside the rounds library's, duties named by a device id

A barrier cell has three duties at its one round, one per neighbour, each named by the neighbour that pays it; every
DMA cell has the single duty named 0. -/

abbrev D3 : Type := Dev nD
abbrev UB : Type := URounds (GSem nD τ sig) D3
abbrev UU : Type := UR sig nD τ × UB
abbrev EP : Emb (UR sig nD τ) (MT nD τ sig Unit (Elt F) ℕ UU ℕ) := embL
abbrev ER : Emb UB (MT nD τ sig Unit (Elt F) ℕ UU ℕ) := embR
abbrev 𝒱₀ : Variants := Variants.none

/-! ## The semaphores -/

/-- The runtime's barrier semaphore of collective id 0. -/
abbrev barS : Sem sig := (SemArray.scalar (sig.barrier 0 rfl) : Sems sig S_).sem

theorem inb6 (j : Fin 6) : ∀ a, (![j.val] : Fin 1 → Nat) a + S1.size a ≤ S6.size a := by
  intro a; fin_cases a; have := j.isLt; simp [Shape.size]; omega
theorem inb4 (i : Fin 4) : ∀ a, (![i.val] : Fin 1 → Nat) a + S1.size a ≤ S4.size a := by
  intro a; fin_cases a; have := i.isLt; simp [Shape.size]; omega

/-- Entry j of a six-entry DMA-semaphore array, as the kernel slices it out. -/
abbrev sem6 (A : DmaSems sig S6) (j : Fin 6) : DmaSem sig :=
  ((SemArray.slice A (Rect.unit (s := S6) ![j.val] S1.size (inb6 j))).squeeze S_ squeezes_S1_S_).sem
abbrev sem4 (A : DmaSems sig S4) (i : Fin 4) : DmaSem sig :=
  ((SemArray.slice A (Rect.unit (s := S4) ![i.val] S1.size (inb4 i))).squeeze S_ squeezes_S1_S_).sem

/-- Send and receive semaphores of the six copies across y, the six across x and the four across z. -/
abbrev ysS (j : Fin 6) : DmaSem sig := sem6 cc0_scratch5 j
abbrev yrS (j : Fin 6) : DmaSem sig := sem6 cc0_scratch6 j
abbrev xsS (j : Fin 6) : DmaSem sig := sem6 cc0_scratch7 j
abbrev xrS (j : Fin 6) : DmaSem sig := sem6 cc0_scratch8 j
abbrev zsS (i : Fin 4) : DmaSem sig := sem4 cc0_scratch9 i
abbrev zrS (i : Fin 4) : DmaSem sig := sem4 cc0_scratch10 i

abbrev barCell (c : Dev nD) : GSem nD τ sig := ((c : Thread nD τ), .reg barS)
abbrev ysCell (c : Dev nD) (j : Fin 6) : GSem nD τ sig := ((c : Thread nD τ), .dma (ysS j))
abbrev yrCell (c : Dev nD) (j : Fin 6) : GSem nD τ sig := ((c : Thread nD τ), .dma (yrS j))
abbrev xsCell (c : Dev nD) (j : Fin 6) : GSem nD τ sig := ((c : Thread nD τ), .dma (xsS j))
abbrev xrCell (c : Dev nD) (j : Fin 6) : GSem nD τ sig := ((c : Thread nD τ), .dma (xrS j))
abbrev zsCell (c : Dev nD) (i : Fin 4) : GSem nD τ sig := ((c : Thread nD τ), .dma (zsS i))
abbrev zrCell (c : Dev nD) (i : Fin 4) : GSem nD τ sig := ((c : Thread nD τ), .dma (zrS i))

theorem ysS_val (j : Fin 6) : (ysS j).val = 3 + j.val := by fin_cases j <;> rfl
theorem yrS_val (j : Fin 6) : (yrS j).val = 9 + j.val := by fin_cases j <;> rfl
theorem xsS_val (j : Fin 6) : (xsS j).val = 15 + j.val := by fin_cases j <;> rfl
theorem xrS_val (j : Fin 6) : (xrS j).val = 21 + j.val := by fin_cases j <;> rfl
theorem zsS_val (i : Fin 4) : (zsS i).val = 27 + i.val := by fin_cases i <;> rfl
theorem zrS_val (i : Fin 4) : (zrS i).val = 31 + i.val := by fin_cases i <;> rfl

/-! ## The scratch buffers and their slots -/

abbrev sndM : Memref sig .tc .vmem S6x256x128 .bf16 := Memref.whole cc0_scratch1
abbrev rcvM : Memref sig .tc .vmem S6x256x128 .bf16 := Memref.whole cc0_scratch2
abbrev blkM : Memref sig .tc .vmem S16x256x128 .bf16 := Memref.whole cc0_scratch4

theorem inb6s (j : Fin 6) : ∀ a, (![j.val, 0, 0] : Fin 3 → Nat) a + S1x256x128.size a ≤ S6x256x128.size a := by
  intro a; fin_cases a <;> (have := j.isLt; simp [Shape.size]) <;> omega
theorem inb16s (s : Fin 16) : ∀ a, (![s.val, 0, 0] : Fin 3 → Nat) a + S1x256x128.size a ≤ S16x256x128.size a := by
  intro a; fin_cases a <;> (have := s.isLt; simp [Shape.size]) <;> omega

/-- Slot j of a [6, 256, 128] buffer as the [256, 128] memref the kernel's copies name. -/
abbrev slot6 (M : Memref sig .tc .vmem S6x256x128 .bf16) (j : Fin 6) : Memref sig .tc .vmem S256x128 .bf16 :=
  (M.slice (Rect.unit (s := S6x256x128) ![j.val, 0, 0] S1x256x128.size (inb6s j)) (fun _ => rfl)).squeeze S256x128 squeezes_S1x256x128_S256x128
/-- Slot s of the [16, 256, 128] block buffer. -/
abbrev slot16 (s : Fin 16) : Memref sig .tc .vmem S256x128 .bf16 :=
  (blkM.slice (Rect.unit (s := S16x256x128) ![s.val, 0, 0] S1x256x128.size (inb16s s)) (fun _ => rfl)).squeeze S256x128 squeezes_S1x256x128_S256x128

end Cert.KernelIdeal.Coll

end
-- ==== Proof.Sched.lean ====
import proofs.«900594_g7700000000000595_dist_rsdw_v7x_xyz2x2x2_y_m512_d512_f2048_bf16_1_alg».proof.Proof.Mesh
import proofs.«900594_g7700000000000595_dist_rsdw_v7x_xyz2x2x2_y_m512_d512_f2048_bf16_1_alg».proof.Proof.Gen.KernelIdeal.Skeleton
import proofs.«900594_g7700000000000595_dist_rsdw_v7x_xyz2x2x2_y_m512_d512_f2048_bf16_1_alg».proof.Proof.Gen.KernelIdeal.Frame
import proofs.«900594_g7700000000000595_dist_rsdw_v7x_xyz2x2x2_y_m512_d512_f2048_bf16_1_alg».proof.Proof.Cells
import Idealize.ShloMosaic.Lib.Pipeline.Launch
import Idealize.ShloMosaic.Lib.Pipeline.Kit
import Idealize.ShloMosaic.Lib.Tactic

noncomputable section

namespace Cert.KernelIdeal.Coll

open Cert.KernelIdeal Cert.KernelIdeal.Gen Cert.KernelIdeal.Mesh
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## Slots of the block buffer at a computed index -/

theorem inbN (n : ℕ) (h : n < 16) : ∀ a, (![n, 0, 0] : Fin 3 → Nat) a + S1x256x128.size a ≤ S16x256x128.size a := by
  intro a; fin_cases a <;> simp [Shape.size] <;> omega
/-- Slot n of the block buffer, n any natural number below sixteen. -/
abbrev slotN (n : ℕ) (h : n < 16) : Memref sig .tc .vmem S256x128 .bf16 :=
  (blkM.slice (Rect.unit (s := S16x256x128) ![n, 0, 0] S1x256x128.size (inbN n h)) (fun _ => rfl)).squeeze S256x128 squeezes_S1x256x128_S256x128

theorem z2 (c : Dev nD) : c.val % 2 < 2 := Nat.mod_lt _ (by decide)

/-- The parity-dependent slots of device c: its own two reduced chunks (w = 0, 1), where its x neighbour's copies of
    them land, and where its z neighbour's two chunks and their x copies land. -/
abbrev ownA (c : Dev nD) (w : Fin 2) : Memref sig .tc .vmem S256x128 .bf16 := slotN (2 * (c.val % 2) + w.val) (by have := z2 c; have := w.isLt; omega)
abbrev xinA (c : Dev nD) (w : Fin 2) : Memref sig .tc .vmem S256x128 .bf16 := slotN (2 * (c.val % 2) + w.val + 8) (by have := z2 c; have := w.isLt; omega)
abbrev zinA (c : Dev nD) (w : Fin 2) : Memref sig .tc .vmem S256x128 .bf16 := slotN ((w.val + 2) - 2 * (c.val % 2)) (by have := z2 c; have := w.isLt; omega)
abbrev zinB (c : Dev nD) (w : Fin 2) : Memref sig .tc .vmem S256x128 .bf16 := slotN ((w.val + 10) - 2 * (c.val % 2)) (by have := z2 c; have := w.isLt; omega)
/-- The parity-independent slots: own chunks 4 to 7 (k = 0..3) and where the x neighbour's copies of them land. -/
abbrev ownB (k : Fin 4) : Memref sig .tc .vmem S256x128 .bf16 := slotN (4 + k.val) (by have := k.isLt; omega)
abbrev xinB (k : Fin 4) : Memref sig .tc .vmem S256x128 .bf16 := slotN (12 + k.val) (by have := k.isLt; omega)

/-- A slot held through its view, at a share, at whole-buffer contents f (only the slot's elements matter). -/
abbrev holds (c : Dev nD) (M : Memref sig .tc .vmem S256x128 .bf16) (q : PosShare TreeShare) (f : Buf (Elt F) (M.view.loc (c : Thread nD τ))) : sProp 𝕄 :=
  M.view.loc (c : Thread nD τ) ↦[M.view.set]{q} f
abbrev some_ (c : Dev nD) (M : Memref sig .tc .vmem S256x128 .bf16) : sProp 𝕄 :=
  iprop(∃ f : Buf (Elt F) (M.view.loc (c : Thread nD τ)), M.view.loc (c : Thread nD τ) ↦[M.view.set]{fullShare} f)
abbrev someQ (c : Dev nD) (M : Memref sig .tc .vmem S256x128 .bf16) (q : PosShare TreeShare) : sProp 𝕄 :=
  iprop(∃ f : Buf (Elt F) (M.view.loc (c : Thread nD τ)), M.view.loc (c : Thread nD τ) ↦[M.view.set]{q} f)

section Sched

-- The canonical final contents of the send buffer and of the block buffer on each device.
variable (SND : Dev nD → (cc0_scratch1 : Ref sig .tc).ty.Contents (Elt F)) (BLK : Dev nD → (cc0_scratch4 : Ref sig .tc).ty.Contents (Elt F))

/-- What a neighbour hands over with its entry signal: the slots its peer's copies will land in, and that each of
    their receive cells has reached its one round. -/
def PX (p : Dev nD) : sProp 𝕄 :=
  iprop(some_ p (xinA p 0) ∗ some_ p (xinA p 1) ∗ some_ p (xinB 0) ∗ some_ p (xinB 1) ∗ some_ p (xinB 2) ∗ some_ p (xinB 3)
    ∗ reached ER (xrCell p 0) 0 ∗ reached ER (xrCell p 1) 0 ∗ reached ER (xrCell p 2) 0 ∗ reached ER (xrCell p 3) 0 ∗ reached ER (xrCell p 4) 0 ∗ reached ER (xrCell p 5) 0)
def PY (p : Dev nD) : sProp 𝕄 :=
  iprop(some_ p (slot6 rcvM 0) ∗ some_ p (slot6 rcvM 1) ∗ some_ p (slot6 rcvM 2) ∗ some_ p (slot6 rcvM 3) ∗ some_ p (slot6 rcvM 4) ∗ some_ p (slot6 rcvM 5)
    ∗ reached ER (yrCell p 0) 0 ∗ reached ER (yrCell p 1) 0 ∗ reached ER (yrCell p 2) 0 ∗ reached ER (yrCell p 3) 0 ∗ reached ER (yrCell p 4) 0 ∗ reached ER (yrCell p 5) 0)
def PZ (p : Dev nD) : sProp 𝕄 :=
  iprop(some_ p (zinA p 0) ∗ some_ p (zinA p 1) ∗ some_ p (zinB p 0) ∗ some_ p (zinB p 1)
    ∗ reached ER (zrCell p 0) 0 ∗ reached ER (zrCell p 1) 0 ∗ reached ER (zrCell p 2) 0 ∗ reached ER (zrCell p 3) 0)

set_option maxHeartbeats 4000000 in
/-- The payload of the one duty of DMA semaphore number n on device c: a send cell gives the source slot back at the
    share it was lent at; a receive cell gives the landing slot holding what was sent. -/
def dmaPay (c : Dev nD) (n : ℕ) : sProp 𝕄 :=
  if h : 3 ≤ n ∧ n < 9 then some_ c (slot6 sndM ⟨n - 3, by omega⟩)
  else if h : 9 ≤ n ∧ n < 15 then holds c (slot6 rcvM ⟨n - 9, by omega⟩) fullShare (SND (yp c))
  else if h : 15 ≤ n ∧ n < 17 then someQ c (ownA c ⟨n - 15, by omega⟩) fullShare.left
  else if h : 17 ≤ n ∧ n < 21 then some_ c (ownB ⟨n - 17, by omega⟩)
  else if h : 21 ≤ n ∧ n < 23 then holds c (xinA c ⟨n - 21, by omega⟩) fullShare (BLK c)
  else if h : 23 ≤ n ∧ n < 27 then holds c (xinB ⟨n - 23, by omega⟩) fullShare (BLK c)
  else if h : 27 ≤ n ∧ n < 29 then someQ c (ownA c ⟨n - 27, by omega⟩) fullShare.right
  else if h : 29 ≤ n ∧ n < 31 then someQ c (xinA c ⟨n - 29, by omega⟩) fullShare.left
  else if h : 31 ≤ n ∧ n < 33 then holds c (zinA c ⟨n - 31, by omega⟩) fullShare (BLK c)
  else if h : 33 ≤ n ∧ n < 35 then holds c (zinB c ⟨n - 33, by omega⟩) fullShare (BLK c)
  else iprop(emp)

/-- Every copy moves one [256, 128] slot of bf16: the units one such copy credits. -/
abbrev Ny : ℕ := (slot6 rcvM 0).view.dmaCredit
abbrev Nb : ℕ := (slotN 0 (by decide)).view.dmaCredit

/-- One round. A barrier cell: three duties of one unit, each named by the neighbour that pays it and handing over that
    neighbour's landing slots. A DMA cell of the kernel: one duty of a slot's credit. -/
def Rd : Rounds.Schedule (GSem nD τ sig) D3 𝕄 where
  duties g r := if r = 0 ∧ g.1.2 = .tc then (match g.2 with | .reg _ => {xp g.1.1, yp g.1.1, zp g.1.1} | .dma q => if 3 ≤ q.val then {0} else ∅) else ∅
  unitless _ := False
  amount g _ _ := match g.2 with | .reg _ => 1 | .dma q => if q.val < 15 then Ny else Nb
  payload g _ d := match g.2 with
    | .reg _ => if d = xp g.1.1 then PX d else if d = yp g.1.1 then PY d else PZ d
    | .dma q => dmaPay SND BLK g.1.1 q.val
  amount_pos g _ _ _ := by
    cases g.2 with
    | reg _ => exact Nat.one_pos
    | dma q => dsimp only; split <;> exact View.dmaCredit_pos _ (by decide)

end Sched

end Cert.KernelIdeal.Coll

end
-- ==== Proof.Ghost.lean ====
import proofs.«900594_g7700000000000595_dist_rsdw_v7x_xyz2x2x2_y_m512_d512_f2048_bf16_1_alg».proof.Proof.Mesh
import proofs.«900594_g7700000000000595_dist_rsdw_v7x_xyz2x2x2_y_m512_d512_f2048_bf16_1_alg».proof.Proof.Gen.KernelIdeal.Skeleton
import proofs.«900594_g7700000000000595_dist_rsdw_v7x_xyz2x2x2_y_m512_d512_f2048_bf16_1_alg».proof.Proof.Gen.KernelIdeal.Frame
import proofs.«900594_g7700000000000595_dist_rsdw_v7x_xyz2x2x2_y_m512_d512_f2048_bf16_1_alg».proof.Proof.Sched
import Idealize.ShloMosaic.Lib.Pipeline.Launch
import Idealize.ShloMosaic.Lib.Pipeline.Kit
import Idealize.ShloMosaic.Lib.Tactic

noncomputable section

namespace Cert.KernelIdeal.Coll

open Cert.KernelIdeal Cert.KernelIdeal.Gen Cert.KernelIdeal.Mesh
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

section Tables
variable (SND : Dev nD → (cc0_scratch1 : Ref sig .tc).ty.Contents (Elt F)) (BLK : Dev nD → (cc0_scratch4 : Ref sig .tc).ty.Contents (Elt F))

theorem duties_bar (c : Dev nD) : (Rd (F := F) SND BLK).duties (barCell c) 0 = {xp c, yp c, zp c} := by
  dsimp only [Rd]; rw [if_pos ⟨rfl, rfl⟩]
theorem duties_ys (c : Dev nD) (j : Fin 6) : (Rd (F := F) SND BLK).duties (ysCell c j) 0 = {0} := by
  dsimp only [Rd]; rw [if_pos ⟨rfl, rfl⟩]; rw [if_pos (by rw [ysS_val]; omega)]
theorem duties_yr (c : Dev nD) (j : Fin 6) : (Rd (F := F) SND BLK).duties (yrCell c j) 0 = {0} := by
  dsimp only [Rd]; rw [if_pos ⟨rfl, rfl⟩]; rw [if_pos (by rw [yrS_val]; omega)]
theorem duties_xs (c : Dev nD) (j : Fin 6) : (Rd (F := F) SND BLK).duties (xsCell c j) 0 = {0} := by
  dsimp only [Rd]; rw [if_pos ⟨rfl, rfl⟩]; rw [if_pos (by rw [xsS_val]; omega)]
theorem duties_xr (c : Dev nD) (j : Fin 6) : (Rd (F := F) SND BLK).duties (xrCell c j) 0 = {0} := by
  dsimp only [Rd]; rw [if_pos ⟨rfl, rfl⟩]; rw [if_pos (by rw [xrS_val]; omega)]
theorem duties_zs (c : Dev nD) (i : Fin 4) : (Rd (F := F) SND BLK).duties (zsCell c i) 0 = {0} := by
  dsimp only [Rd]; rw [if_pos ⟨rfl, rfl⟩]; rw [if_pos (by rw [zsS_val]; omega)]
theorem duties_zr (c : Dev nD) (i : Fin 4) : (Rd (F := F) SND BLK).duties (zrCell c i) 0 = {0} := by
  dsimp only [Rd]; rw [if_pos ⟨rfl, rfl⟩]; rw [if_pos (by rw [zrS_val]; omega)]

theorem amount_bar (c : Dev nD) (d : D3) : (Rd (F := F) SND BLK).amount (barCell c) 0 d = 1 := rfl
theorem amount_ys (c : Dev nD) (j : Fin 6) (d : D3) : (Rd (F := F) SND BLK).amount (ysCell c j) 0 d = Ny := by
  dsimp only [Rd]; rw [if_pos (by rw [ysS_val]; omega)]
theorem amount_yr (c : Dev nD) (j : Fin 6) (d : D3) : (Rd (F := F) SND BLK).amount (yrCell c j) 0 d = Ny := by
  dsimp only [Rd]; rw [if_pos (by rw [yrS_val]; omega)]
theorem amount_xs (c : Dev nD) (j : Fin 6) (d : D3) : (Rd (F := F) SND BLK).amount (xsCell c j) 0 d = Nb := by
  dsimp only [Rd]; rw [if_neg (by rw [xsS_val]; omega)]
theorem amount_xr (c : Dev nD) (j : Fin 6) (d : D3) : (Rd (F := F) SND BLK).amount (xrCell c j) 0 d = Nb := by
  dsimp only [Rd]; rw [if_neg (by rw [xrS_val]; omega)]
theorem amount_zs (c : Dev nD) (i : Fin 4) (d : D3) : (Rd (F := F) SND BLK).amount (zsCell c i) 0 d = Nb := by
  dsimp only [Rd]; rw [if_neg (by rw [zsS_val]; omega)]
theorem amount_zr (c : Dev nD) (i : Fin 4) (d : D3) : (Rd (F := F) SND BLK).amount (zrCell c i) 0 d = Nb := by
  dsimp only [Rd]; rw [if_neg (by rw [zrS_val]; omega)]

theorem expect_bar (c : Dev nD) : (Rd (F := F) SND BLK).expect (barCell c) 0 = 3 := by
  unfold Schedule.expect Schedule.amountOf
  rw [duties_bar, Finset.sum_congr rfl fun d _ => amount_bar SND BLK c d, Finset.sum_const, smul_eq_mul, mul_one]
  revert c; decide
theorem expect_ys (c : Dev nD) (j : Fin 6) : (Rd (F := F) SND BLK).expect (ysCell c j) 0 = Ny := by
  unfold Schedule.expect Schedule.amountOf; rw [duties_ys, Finset.sum_singleton, amount_ys]
theorem expect_yr (c : Dev nD) (j : Fin 6) : (Rd (F := F) SND BLK).expect (yrCell c j) 0 = Ny := by
  unfold Schedule.expect Schedule.amountOf; rw [duties_yr, Finset.sum_singleton, amount_yr]
theorem expect_xs (c : Dev nD) (j : Fin 6) : (Rd (F := F) SND BLK).expect (xsCell c j) 0 = Nb := by
  unfold Schedule.expect Schedule.amountOf; rw [duties_xs, Finset.sum_singleton, amount_xs]
theorem expect_xr (c : Dev nD) (j : Fin 6) : (Rd (F := F) SND BLK).expect (xrCell c j) 0 = Nb := by
  unfold Schedule.expect Schedule.amountOf; rw [duties_xr, Finset.sum_singleton, amount_xr]
theorem expect_zs (c : Dev nD) (i : Fin 4) : (Rd (F := F) SND BLK).expect (zsCell c i) 0 = Nb := by
  unfold Schedule.expect Schedule.amountOf; rw [duties_zs, Finset.sum_singleton, amount_zs]
theorem expect_zr (c : Dev nD) (i : Fin 4) : (Rd (F := F) SND BLK).expect (zrCell c i) 0 = Nb := by
  unfold Schedule.expect Schedule.amountOf; rw [duties_zr, Finset.sum_singleton, amount_zr]

theorem yp_ne_xp (c : Dev nD) : yp c ≠ xp c := by revert c; decide
theorem zp_ne_xp (c : Dev nD) : zp c ≠ xp c := by revert c; decide
theorem zp_ne_yp (c : Dev nD) : zp c ≠ yp c := by revert c; decide
/-- What the owner of a barrier cell receives with each neighbour's unit. -/
theorem payload_bar_wx (c : Dev nD) : (Rd (F := F) SND BLK).payload (barCell c) 0 (xp c) = PX (xp c) := by dsimp only [Rd]; rw [if_pos rfl]
theorem payload_bar_wy (c : Dev nD) : (Rd (F := F) SND BLK).payload (barCell c) 0 (yp c) = PY (yp c) := by dsimp only [Rd]; rw [if_neg (yp_ne_xp c), if_pos rfl]
theorem payload_bar_wz (c : Dev nD) : (Rd (F := F) SND BLK).payload (barCell c) 0 (zp c) = PZ (zp c) := by dsimp only [Rd]; rw [if_neg (zp_ne_xp c), if_neg (zp_ne_yp c)]
/-- What a device hands each neighbour with its entry signal: its own landing slots. -/
theorem payload_bar_sx (c : Dev nD) : (Rd (F := F) SND BLK).payload (barCell (xp c)) 0 c = PX c := by dsimp only [Rd]; rw [if_pos (xp_xp c).symm]
theorem payload_bar_sy (c : Dev nD) : (Rd (F := F) SND BLK).payload (barCell (yp c)) 0 c = PY c := by
  dsimp only [Rd]; rw [if_neg (by revert c; decide), if_pos (yp_yp c).symm]
theorem payload_bar_sz (c : Dev nD) : (Rd (F := F) SND BLK).payload (barCell (zp c)) 0 c = PZ c := by
  dsimp only [Rd]; rw [if_neg (by revert c; decide), if_neg (by revert c; decide)]

theorem payload_ys (c : Dev nD) (j : Fin 6) : (Rd (F := F) SND BLK).payload (ysCell c j) 0 0 = some_ c (slot6 sndM j) := by fin_cases j <;> rfl
theorem payload_yr (c : Dev nD) (j : Fin 6) : (Rd (F := F) SND BLK).payload (yrCell c j) 0 0 = holds c (slot6 rcvM j) fullShare (SND (yp c)) := by fin_cases j <;> rfl
theorem payload_xsA (c : Dev nD) (w : Fin 2) : (Rd (F := F) SND BLK).payload (xsCell c ⟨w.val, by omega⟩) 0 0 = someQ c (ownA c w) fullShare.left := by fin_cases w <;> rfl
theorem payload_xsB (c : Dev nD) (k : Fin 4) : (Rd (F := F) SND BLK).payload (xsCell c ⟨k.val + 2, by omega⟩) 0 0 = some_ c (ownB k) := by fin_cases k <;> rfl
theorem payload_xrA (c : Dev nD) (w : Fin 2) : (Rd (F := F) SND BLK).payload (xrCell c ⟨w.val, by omega⟩) 0 0 = holds c (xinA c w) fullShare (BLK c) := by fin_cases w <;> rfl
theorem payload_xrB (c : Dev nD) (k : Fin 4) : (Rd (F := F) SND BLK).payload (xrCell c ⟨k.val + 2, by omega⟩) 0 0 = holds c (xinB k) fullShare (BLK c) := by fin_cases k <;> rfl
theorem payload_zsA (c : Dev nD) (w : Fin 2) : (Rd (F := F) SND BLK).payload (zsCell c ⟨w.val, by omega⟩) 0 0 = someQ c (ownA c w) fullShare.right := by fin_cases w <;> rfl
theorem payload_zsB (c : Dev nD) (w : Fin 2) : (Rd (F := F) SND BLK).payload (zsCell c ⟨w.val + 2, by omega⟩) 0 0 = someQ c (xinA c w) fullShare.left := by fin_cases w <;> rfl
theorem payload_zrA (c : Dev nD) (w : Fin 2) : (Rd (F := F) SND BLK).payload (zrCell c ⟨w.val, by omega⟩) 0 0 = holds c (zinA c w) fullShare (BLK c) := by fin_cases w <;> rfl
theorem payload_zrB (c : Dev nD) (w : Fin 2) : (Rd (F := F) SND BLK).payload (zrCell c ⟨w.val + 2, by omega⟩) 0 0 = holds c (zinB c w) fullShare (BLK c) := by fin_cases w <;> rfl

end Tables

/-! ## What each device owes at launch; the levels -/

/-- Device c owes each neighbour's barrier cell one unit, and the receive cell of each of its sixteen copies a slot's
    credit: six across y, six across x, four across z. The summands stand in the reverse of the order the body pays
    them in, so that each payment takes the last one off. -/
def O₀ (c : Dev nD) : CellTallies nD τ sig Unit :=
  tallyAt (zrCell (zp c) 3) () Nb
    + tallyAt (zrCell (zp c) 2) () Nb
    + tallyAt (xrCell (xp c) 5) () Nb
    + tallyAt (xrCell (xp c) 4) () Nb
    + tallyAt (xrCell (xp c) 3) () Nb
    + tallyAt (xrCell (xp c) 2) () Nb
    + tallyAt (zrCell (zp c) 1) () Nb
    + tallyAt (xrCell (xp c) 1) () Nb
    + tallyAt (zrCell (zp c) 0) () Nb
    + tallyAt (xrCell (xp c) 0) () Nb
    + tallyAt (yrCell (yp c) 5) () Ny
    + tallyAt (yrCell (yp c) 4) () Ny
    + tallyAt (yrCell (yp c) 3) () Ny
    + tallyAt (yrCell (yp c) 2) () Ny
    + tallyAt (yrCell (yp c) 1) () Ny
    + tallyAt (yrCell (yp c) 0) () Ny
    + tallyAt (barCell (zp c)) () 1
    + tallyAt (barCell (yp c)) () 1
    + tallyAt (barCell (xp c)) () 1

def L (g : GSem nD τ sig) : Finset Unit := if g.1.2 = .tc then {()} else ∅
/-- Barrier cells at 1; receive cells across y at 2, across x at 3, across z at 4; everything else (staging, send) at 0:
    a device waits on a cell only while what it still owes lies strictly above it. -/
def lv (g : GSem nD τ sig) (_ : Unit) : ℕ :=
  match g.2 with
  | .reg _ => 1
  | .dma q => if 9 ≤ q.val ∧ q.val < 15 then 2 else if 21 ≤ q.val ∧ q.val < 27 then 3 else if 31 ≤ q.val then 4 else 0

theorem L_of_ne (g : GSem nD τ sig) (h : g.1.2 ≠ .tc) : L g = ∅ := if_neg h
theorem L_tc (c : Dev nD) (sm : SemLoc sig) : L ((c : Thread nD τ), sm) = {()} := if_pos rfl

section Ghost
variable (SND : Dev nD → (cc0_scratch1 : Ref sig .tc).ty.Contents (Elt F)) (BLK : Dev nD → (cc0_scratch4 : Ref sig .tc).ty.Contents (Elt F))
  (OUT : Dev nD → (cc0_stg2_0 : Ref sig .tc).ty.Contents (Elt F))

/-- The invariants device c's body opens, at the names K: its own thirty-three cells, its three neighbours' barrier
    cells (its signals) and the receive cells of its sixteen copies. -/
def invs (K : GSem nD τ sig → ℕ) (c : Dev nD) : sProp 𝕄 :=
  iprop(cellInv ER (Rd SND BLK) (K (barCell c)) (barCell c)
    ∗ cellInv ER (Rd SND BLK) (K (barCell (xp c))) (barCell (xp c))
    ∗ cellInv ER (Rd SND BLK) (K (barCell (yp c))) (barCell (yp c))
    ∗ cellInv ER (Rd SND BLK) (K (barCell (zp c))) (barCell (zp c))
    ∗ cellInv ER (Rd SND BLK) (K (ysCell c 0)) (ysCell c 0)
    ∗ cellInv ER (Rd SND BLK) (K (ysCell c 1)) (ysCell c 1)
    ∗ cellInv ER (Rd SND BLK) (K (ysCell c 2)) (ysCell c 2)
    ∗ cellInv ER (Rd SND BLK) (K (ysCell c 3)) (ysCell c 3)
    ∗ cellInv ER (Rd SND BLK) (K (ysCell c 4)) (ysCell c 4)
    ∗ cellInv ER (Rd SND BLK) (K (ysCell c 5)) (ysCell c 5)
    ∗ cellInv ER (Rd SND BLK) (K (yrCell c 0)) (yrCell c 0)
    ∗ cellInv ER (Rd SND BLK) (K (yrCell c 1)) (yrCell c 1)
    ∗ cellInv ER (Rd SND BLK) (K (yrCell c 2)) (yrCell c 2)
    ∗ cellInv ER (Rd SND BLK) (K (yrCell c 3)) (yrCell c 3)
    ∗ cellInv ER (Rd SND BLK) (K (yrCell c 4)) (yrCell c 4)
    ∗ cellInv ER (Rd SND BLK) (K (yrCell c 5)) (yrCell c 5)
    ∗ cellInv ER (Rd SND BLK) (K (yrCell (yp c) 0)) (yrCell (yp c) 0)
    ∗ cellInv ER (Rd SND BLK) (K (yrCell (yp c) 1)) (yrCell (yp c) 1)
    ∗ cellInv ER (Rd SND BLK) (K (yrCell (yp c) 2)) (yrCell (yp c) 2)
    ∗ cellInv ER (Rd SND BLK) (K (yrCell (yp c) 3)) (yrCell (yp c) 3)
    ∗ cellInv ER (Rd SND BLK) (K (yrCell (yp c) 4)) (yrCell (yp c) 4)
    ∗ cellInv ER (Rd SND BLK) (K (yrCell (yp c) 5)) (yrCell (yp c) 5)
    ∗ cellInv ER (Rd SND BLK) (K (xsCell c 0)) (xsCell c 0)
    ∗ cellInv ER (Rd SND BLK) (K (xsCell c 1)) (xsCell c 1)
    ∗ cellInv ER (Rd SND BLK) (K (xsCell c 2)) (xsCell c 2)
    ∗ cellInv ER (Rd SND BLK) (K (xsCell c 3)) (xsCell c 3)
    ∗ cellInv ER (Rd SND BLK) (K (xsCell c 4)) (xsCell c 4)
    ∗ cellInv ER (Rd SND BLK) (K (xsCell c 5)) (xsCell c 5)
    ∗ cellInv ER (Rd SND BLK) (K (xrCell c 0)) (xrCell c 0)
    ∗ cellInv ER (Rd SND BLK) (K (xrCell c 1)) (xrCell c 1)
    ∗ cellInv ER (Rd SND BLK) (K (xrCell c 2)) (xrCell c 2)
    ∗ cellInv ER (Rd SND BLK) (K (xrCell c 3)) (xrCell c 3)
    ∗ cellInv ER (Rd SND BLK) (K (xrCell c 4)) (xrCell c 4)
    ∗ cellInv ER (Rd SND BLK) (K (xrCell c 5)) (xrCell c 5)
    ∗ cellInv ER (Rd SND BLK) (K (xrCell (xp c) 0)) (xrCell (xp c) 0)
    ∗ cellInv ER (Rd SND BLK) (K (xrCell (xp c) 1)) (xrCell (xp c) 1)
    ∗ cellInv ER (Rd SND BLK) (K (xrCell (xp c) 2)) (xrCell (xp c) 2)
    ∗ cellInv ER (Rd SND BLK) (K (xrCell (xp c) 3)) (xrCell (xp c) 3)
    ∗ cellInv ER (Rd SND BLK) (K (xrCell (xp c) 4)) (xrCell (xp c) 4)
    ∗ cellInv ER (Rd SND BLK) (K (xrCell (xp c) 5)) (xrCell (xp c) 5)
    ∗ cellInv ER (Rd SND BLK) (K (zsCell c 0)) (zsCell c 0)
    ∗ cellInv ER (Rd SND BLK) (K (zsCell c 1)) (zsCell c 1)
    ∗ cellInv ER (Rd SND BLK) (K (zsCell c 2)) (zsCell c 2)
    ∗ cellInv ER (Rd SND BLK) (K (zsCell c 3)) (zsCell c 3)
    ∗ cellInv ER (Rd SND BLK) (K (zrCell c 0)) (zrCell c 0)
    ∗ cellInv ER (Rd SND BLK) (K (zrCell c 1)) (zrCell c 1)
    ∗ cellInv ER (Rd SND BLK) (K (zrCell c 2)) (zrCell c 2)
    ∗ cellInv ER (Rd SND BLK) (K (zrCell c 3)) (zrCell c 3)
    ∗ cellInv ER (Rd SND BLK) (K (zrCell (zp c) 0)) (zrCell (zp c) 0)
    ∗ cellInv ER (Rd SND BLK) (K (zrCell (zp c) 1)) (zrCell (zp c) 1)
    ∗ cellInv ER (Rd SND BLK) (K (zrCell (zp c) 2)) (zrCell (zp c) 2)
    ∗ cellInv ER (Rd SND BLK) (K (zrCell (zp c) 3)) (zrCell (zp c) 3))

instance invs_persistent (K : GSem nD τ sig → ℕ) (c : Dev nD) : BI.Persistent (invs SND BLK K c) := by unfold invs; infer_instance

/-- That the one round of each cell device c pays into, or hands over, is reached. -/
def marks (c : Dev nD) : sProp 𝕄 :=
  iprop(reached ER (barCell (xp c)) 0
    ∗ reached ER (barCell (yp c)) 0
    ∗ reached ER (barCell (zp c)) 0
    ∗ reached ER (ysCell c 0) 0
    ∗ reached ER (ysCell c 1) 0
    ∗ reached ER (ysCell c 2) 0
    ∗ reached ER (ysCell c 3) 0
    ∗ reached ER (ysCell c 4) 0
    ∗ reached ER (ysCell c 5) 0
    ∗ reached ER (yrCell c 0) 0
    ∗ reached ER (yrCell c 1) 0
    ∗ reached ER (yrCell c 2) 0
    ∗ reached ER (yrCell c 3) 0
    ∗ reached ER (yrCell c 4) 0
    ∗ reached ER (yrCell c 5) 0
    ∗ reached ER (xsCell c 0) 0
    ∗ reached ER (xsCell c 1) 0
    ∗ reached ER (xsCell c 2) 0
    ∗ reached ER (xsCell c 3) 0
    ∗ reached ER (xsCell c 4) 0
    ∗ reached ER (xsCell c 5) 0
    ∗ reached ER (xrCell c 0) 0
    ∗ reached ER (xrCell c 1) 0
    ∗ reached ER (xrCell c 2) 0
    ∗ reached ER (xrCell c 3) 0
    ∗ reached ER (xrCell c 4) 0
    ∗ reached ER (xrCell c 5) 0
    ∗ reached ER (zsCell c 0) 0
    ∗ reached ER (zsCell c 1) 0
    ∗ reached ER (zsCell c 2) 0
    ∗ reached ER (zsCell c 3) 0
    ∗ reached ER (zrCell c 0) 0
    ∗ reached ER (zrCell c 1) 0
    ∗ reached ER (zrCell c 2) 0
    ∗ reached ER (zrCell c 3) 0)

instance marks_persistent (c : Dev nD) : BI.Persistent (marks (F := F) c) := by unfold marks; infer_instance

/-- Device c's positions at round 0 of its own thirty-three cells. -/
def positions (c : Dev nD) : sProp 𝕄 :=
  iprop(atPos ER (barCell c) 0 ∅ 0
    ∗ atPos ER (ysCell c 0) 0 ∅ 0
    ∗ atPos ER (ysCell c 1) 0 ∅ 0
    ∗ atPos ER (ysCell c 2) 0 ∅ 0
    ∗ atPos ER (ysCell c 3) 0 ∅ 0
    ∗ atPos ER (ysCell c 4) 0 ∅ 0
    ∗ atPos ER (ysCell c 5) 0 ∅ 0
    ∗ atPos ER (yrCell c 0) 0 ∅ 0
    ∗ atPos ER (yrCell c 1) 0 ∅ 0
    ∗ atPos ER (yrCell c 2) 0 ∅ 0
    ∗ atPos ER (yrCell c 3) 0 ∅ 0
    ∗ atPos ER (yrCell c 4) 0 ∅ 0
    ∗ atPos ER (yrCell c 5) 0 ∅ 0
    ∗ atPos ER (xsCell c 0) 0 ∅ 0
    ∗ atPos ER (xsCell c 1) 0 ∅ 0
    ∗ atPos ER (xsCell c 2) 0 ∅ 0
    ∗ atPos ER (xsCell c 3) 0 ∅ 0
    ∗ atPos ER (xsCell c 4) 0 ∅ 0
    ∗ atPos ER (xsCell c 5) 0 ∅ 0
    ∗ atPos ER (xrCell c 0) 0 ∅ 0
    ∗ atPos ER (xrCell c 1) 0 ∅ 0
    ∗ atPos ER (xrCell c 2) 0 ∅ 0
    ∗ atPos ER (xrCell c 3) 0 ∅ 0
    ∗ atPos ER (xrCell c 4) 0 ∅ 0
    ∗ atPos ER (xrCell c 5) 0 ∅ 0
    ∗ atPos ER (zsCell c 0) 0 ∅ 0
    ∗ atPos ER (zsCell c 1) 0 ∅ 0
    ∗ atPos ER (zsCell c 2) 0 ∅ 0
    ∗ atPos ER (zsCell c 3) 0 ∅ 0
    ∗ atPos ER (zrCell c 0) 0 ∅ 0
    ∗ atPos ER (zrCell c 1) 0 ∅ 0
    ∗ atPos ER (zrCell c 2) 0 ∅ 0
    ∗ atPos ER (zrCell c 3) 0 ∅ 0)

/-- The duty tokens device c pays with: one on each neighbour's barrier cell (the duty named c), its sixteen send
    duties, and the receive duties of its sixteen copies on the neighbours' cells. -/
def payToks (c : Dev nD) : sProp 𝕄 :=
  iprop(dutyTok ER (barCell (xp c)) 0 c
    ∗ dutyTok ER (barCell (yp c)) 0 c
    ∗ dutyTok ER (barCell (zp c)) 0 c
    ∗ dutyTok ER (ysCell c 0) 0 (0 : D3)
    ∗ dutyTok ER (ysCell c 1) 0 (0 : D3)
    ∗ dutyTok ER (ysCell c 2) 0 (0 : D3)
    ∗ dutyTok ER (ysCell c 3) 0 (0 : D3)
    ∗ dutyTok ER (ysCell c 4) 0 (0 : D3)
    ∗ dutyTok ER (ysCell c 5) 0 (0 : D3)
    ∗ dutyTok ER (yrCell (yp c) 0) 0 (0 : D3)
    ∗ dutyTok ER (yrCell (yp c) 1) 0 (0 : D3)
    ∗ dutyTok ER (yrCell (yp c) 2) 0 (0 : D3)
    ∗ dutyTok ER (yrCell (yp c) 3) 0 (0 : D3)
    ∗ dutyTok ER (yrCell (yp c) 4) 0 (0 : D3)
    ∗ dutyTok ER (yrCell (yp c) 5) 0 (0 : D3)
    ∗ dutyTok ER (xsCell c 0) 0 (0 : D3)
    ∗ dutyTok ER (xsCell c 1) 0 (0 : D3)
    ∗ dutyTok ER (xsCell c 2) 0 (0 : D3)
    ∗ dutyTok ER (xsCell c 3) 0 (0 : D3)
    ∗ dutyTok ER (xsCell c 4) 0 (0 : D3)
    ∗ dutyTok ER (xsCell c 5) 0 (0 : D3)
    ∗ dutyTok ER (xrCell (xp c) 0) 0 (0 : D3)
    ∗ dutyTok ER (xrCell (xp c) 1) 0 (0 : D3)
    ∗ dutyTok ER (xrCell (xp c) 2) 0 (0 : D3)
    ∗ dutyTok ER (xrCell (xp c) 3) 0 (0 : D3)
    ∗ dutyTok ER (xrCell (xp c) 4) 0 (0 : D3)
    ∗ dutyTok ER (xrCell (xp c) 5) 0 (0 : D3)
    ∗ dutyTok ER (zsCell c 0) 0 (0 : D3)
    ∗ dutyTok ER (zsCell c 1) 0 (0 : D3)
    ∗ dutyTok ER (zsCell c 2) 0 (0 : D3)
    ∗ dutyTok ER (zsCell c 3) 0 (0 : D3)
    ∗ dutyTok ER (zrCell (zp c) 0) 0 (0 : D3)
    ∗ dutyTok ER (zrCell (zp c) 1) 0 (0 : D3)
    ∗ dutyTok ER (zrCell (zp c) 2) 0 (0 : D3)
    ∗ dutyTok ER (zrCell (zp c) 3) 0 (0 : D3))

/-- The credit tokens dealt to device c at launch: its barrier's three units and each receive cell's slot credit. -/
def credits (c : Dev nD) : sProp 𝕄 :=
  iprop(cred (tallyAt (barCell c) () 3)
    ∗ cred (tallyAt (yrCell c 0) () Ny)
    ∗ cred (tallyAt (yrCell c 1) () Ny)
    ∗ cred (tallyAt (yrCell c 2) () Ny)
    ∗ cred (tallyAt (yrCell c 3) () Ny)
    ∗ cred (tallyAt (yrCell c 4) () Ny)
    ∗ cred (tallyAt (yrCell c 5) () Ny)
    ∗ cred (tallyAt (xrCell c 0) () Nb)
    ∗ cred (tallyAt (xrCell c 1) () Nb)
    ∗ cred (tallyAt (xrCell c 2) () Nb)
    ∗ cred (tallyAt (xrCell c 3) () Nb)
    ∗ cred (tallyAt (xrCell c 4) () Nb)
    ∗ cred (tallyAt (xrCell c 5) () Nb)
    ∗ cred (tallyAt (zrCell c 0) () Nb)
    ∗ cred (tallyAt (zrCell c 1) () Nb)
    ∗ cred (tallyAt (zrCell c 2) () Nb)
    ∗ cred (tallyAt (zrCell c 3) () Nb))

def ghost (K : GSem nD τ sig → ℕ) (c : Dev nD) : sProp 𝕄 :=
  iprop(invs SND BLK K c ∗ marks c ∗ positions c ∗ payToks c)

/-- What device c's body starts from, besides its buffers. -/
def start (c : Dev nD) : sProp 𝕄 :=
  iprop((∃ K, ghost SND BLK K c) ∗ credits c ∗ levAts L lv)

/-- The five scratch buffers whole, at some contents. -/
def scratch (c : Dev nD) : sProp 𝕄 :=
  iprop((∃ f : Buf (Elt F) (((c : Thread nD τ)).loc cc0_scratch0), ((c : Thread nD τ).loc cc0_scratch0) ↦{fullShare} f)
    ∗ (∃ f : Buf (Elt F) (((c : Thread nD τ)).loc cc0_scratch1), ((c : Thread nD τ).loc cc0_scratch1) ↦{fullShare} f)
    ∗ (∃ f : Buf (Elt F) (((c : Thread nD τ)).loc cc0_scratch2), ((c : Thread nD τ).loc cc0_scratch2) ↦{fullShare} f)
    ∗ (∃ f : Buf (Elt F) (((c : Thread nD τ)).loc cc0_scratch3), ((c : Thread nD τ).loc cc0_scratch3) ↦{fullShare} f)
    ∗ (∃ f : Buf (Elt F) (((c : Thread nD τ)).loc cc0_scratch4), ((c : Thread nD τ).loc cc0_scratch4) ↦{fullShare} f))

/-- Device c's thirty-two DMA semaphores back at zero, their cells closed (the barrier semaphore is the runtime's:
    nothing to hand back). -/
def closedSems (c : Dev nD) : sProp 𝕄 :=
  iprop(semVal (ysCell c 0) 0
    ∗ semVal (ysCell c 1) 0
    ∗ semVal (ysCell c 2) 0
    ∗ semVal (ysCell c 3) 0
    ∗ semVal (ysCell c 4) 0
    ∗ semVal (ysCell c 5) 0
    ∗ semVal (yrCell c 0) 0
    ∗ semVal (yrCell c 1) 0
    ∗ semVal (yrCell c 2) 0
    ∗ semVal (yrCell c 3) 0
    ∗ semVal (yrCell c 4) 0
    ∗ semVal (yrCell c 5) 0
    ∗ semVal (xsCell c 0) 0
    ∗ semVal (xsCell c 1) 0
    ∗ semVal (xsCell c 2) 0
    ∗ semVal (xsCell c 3) 0
    ∗ semVal (xsCell c 4) 0
    ∗ semVal (xsCell c 5) 0
    ∗ semVal (xrCell c 0) 0
    ∗ semVal (xrCell c 1) 0
    ∗ semVal (xrCell c 2) 0
    ∗ semVal (xrCell c 3) 0
    ∗ semVal (xrCell c 4) 0
    ∗ semVal (xrCell c 5) 0
    ∗ semVal (zsCell c 0) 0
    ∗ semVal (zsCell c 1) 0
    ∗ semVal (zsCell c 2) 0
    ∗ semVal (zsCell c 3) 0
    ∗ semVal (zrCell c 0) 0
    ∗ semVal (zrCell c 1) 0
    ∗ semVal (zrCell c 2) 0
    ∗ semVal (zrCell c 3) 0)

def Φ₀ (c : Dev nD) : sProp 𝕄 := iprop(start SND BLK c ∗ scratch c)
def Φ₁ (c : Dev nD) : sProp 𝕄 := iprop(scratch (F := F) c ∗ closedSems c)

/-! ## The pipeline's proof data -/

variable (m : (ℓ : Loc nD τ sig) → Buf (Elt F) ℓ) (ρ : Dev nD → PrngReg)

/-- What the two input staging buffers hold when the body runs: the device's whole argument arrays. -/
def xstg (c : Dev nD) : (cc0_stg0_0 : Ref sig .tc).ty.Contents (Elt F) :=
  (win0_0.blk (0 : Fin 1)).view.read (Elt F) (m ((c : Thread nD τ).loc main_arg0))
def dystg (c : Dev nD) : (cc0_stg1_0 : Ref sig .tc).ty.Contents (Elt F) :=
  (win0_1.blk (0 : Fin 1)).view.read (Elt F) (m ((c : Thread nD τ).loc main_arg1))

def dats (_ : Fin 1) (c : Dev nD) : Dat τ (Elt F) Unit ℕ UU ℕ cfg0 c where
  A w := m ((cfg0.win w).arr.view.loc (c : Thread nD τ))
  after w _ := match w with
    | ⟨0, _⟩ => xstg m c
    | ⟨1, _⟩ => dystg m c
    | ⟨2, _⟩ => OUT c
  Φ t := match t with
    | ⟨0, _⟩ => Φ₀ SND BLK c
    | ⟨_ + 1, _⟩ => Φ₁ c
  q _ := fullShare
  owed t := match t with
    | ⟨0, _⟩ => O₀ c
    | ⟨_ + 1, _⟩ => 0

end Ghost

end Cert.KernelIdeal.Coll

end
-- ==== Proof.Launch.lean ====
/-
  The launch of the eight-device kernel: from each device's body obligation to the run of @main.

  Each device owns thirty-three semaphore cells — the runtime's barrier semaphore and the kernel's thirty-two DMA
  semaphores — under the rounds discipline. Here the cells of all devices are funded at once, every cell's
  invariant is allocated, the duty tokens are dealt to the devices that pay them (a barrier token to the neighbour
  it is named by, a receive token to the neighbour that sends into the cell: crossing an axis of the cube permutes
  the devices), the launch credit is counted (what the devices owe, summed, is what is owed to each device's own
  cells), the staging cells' waits are shown to sit below every launch due, and the pipeline's launch theorem is
  applied. The value families `SND`, `BLK`, `OUT` of the proof data are arbitrary throughout.
-/
import proofs.«900594_g7700000000000595_dist_rsdw_v7x_xyz2x2x2_y_m512_d512_f2048_bf16_1_alg».proof.Proof.Ghost
import Idealize.ShloMosaic.Lib.Pipeline.Launch
import Idealize.ShloMosaic.Lib.Pipeline.Kit
import Idealize.ShloMosaic.Lib.Pipeline.Value
import Idealize.ShloMosaic.Lib.Tactic

noncomputable section

namespace Cert.KernelIdeal.Coll

open Cert.KernelIdeal Cert.KernelIdeal.Gen Cert.KernelIdeal.Mesh
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The kernel's semaphores, listed

Device c has thirty-three cells of its own: the barrier semaphore and the thirty-two DMA semaphores, in the order of
their numbers — six send and six receive semaphores across y, the same across x, four and four across z. -/

/-- The thirty-two DMA semaphores. -/
abbrev osem : Fin 32 → SemLoc sig := fun
  | 0 => .dma (ysS 0)
  | 1 => .dma (ysS 1)
  | 2 => .dma (ysS 2)
  | 3 => .dma (ysS 3)
  | 4 => .dma (ysS 4)
  | 5 => .dma (ysS 5)
  | 6 => .dma (yrS 0)
  | 7 => .dma (yrS 1)
  | 8 => .dma (yrS 2)
  | 9 => .dma (yrS 3)
  | 10 => .dma (yrS 4)
  | 11 => .dma (yrS 5)
  | 12 => .dma (xsS 0)
  | 13 => .dma (xsS 1)
  | 14 => .dma (xsS 2)
  | 15 => .dma (xsS 3)
  | 16 => .dma (xsS 4)
  | 17 => .dma (xsS 5)
  | 18 => .dma (xrS 0)
  | 19 => .dma (xrS 1)
  | 20 => .dma (xrS 2)
  | 21 => .dma (xrS 3)
  | 22 => .dma (xrS 4)
  | 23 => .dma (xrS 5)
  | 24 => .dma (zsS 0)
  | 25 => .dma (zsS 1)
  | 26 => .dma (zsS 2)
  | 27 => .dma (zsS 3)
  | 28 => .dma (zrS 0)
  | 29 => .dma (zrS 1)
  | 30 => .dma (zrS 2)
  | 31 => .dma (zrS 3)
  | ⟨_ + 32, h⟩ => absurd h (Nat.not_lt.2 (Nat.le_add_left _ _))

/-- The barrier semaphore first, then the thirty-two. -/
abbrev csem : Fin 33 → SemLoc sig := fun
  | 0 => .reg barS
  | 1 => .dma (ysS 0)
  | 2 => .dma (ysS 1)
  | 3 => .dma (ysS 2)
  | 4 => .dma (ysS 3)
  | 5 => .dma (ysS 4)
  | 6 => .dma (ysS 5)
  | 7 => .dma (yrS 0)
  | 8 => .dma (yrS 1)
  | 9 => .dma (yrS 2)
  | 10 => .dma (yrS 3)
  | 11 => .dma (yrS 4)
  | 12 => .dma (yrS 5)
  | 13 => .dma (xsS 0)
  | 14 => .dma (xsS 1)
  | 15 => .dma (xsS 2)
  | 16 => .dma (xsS 3)
  | 17 => .dma (xsS 4)
  | 18 => .dma (xsS 5)
  | 19 => .dma (xrS 0)
  | 20 => .dma (xrS 1)
  | 21 => .dma (xrS 2)
  | 22 => .dma (xrS 3)
  | 23 => .dma (xrS 4)
  | 24 => .dma (xrS 5)
  | 25 => .dma (zsS 0)
  | 26 => .dma (zsS 1)
  | 27 => .dma (zsS 2)
  | 28 => .dma (zsS 3)
  | 29 => .dma (zrS 0)
  | 30 => .dma (zrS 1)
  | 31 => .dma (zrS 2)
  | 32 => .dma (zrS 3)
  | ⟨_ + 33, h⟩ => absurd h (Nat.not_lt.2 (Nat.le_add_left _ _))

abbrev kcell (ck : Dev nD × Fin 33) : GSem nD τ sig := ((ck.1 : Thread nD τ), csem ck.2)

/-- The place of a semaphore in that list, read off its number. -/
def idx : SemLoc sig → Fin 33
  | .reg _ => 0
  | .dma q => ⟨(q.val - 2) % 33, Nat.mod_lt _ (by decide)⟩

theorem idx_csem (k : Fin 33) : idx (csem k) = k := by fin_cases k <;> rfl

theorem csem_injective : Function.Injective csem := fun k k' h => by
  rw [← idx_csem k, ← idx_csem k', h]

theorem kcell_injective : Function.Injective (kcell : Dev nD × Fin 33 → GSem nD τ sig) := by
  rintro ⟨c, k⟩ ⟨c', k'⟩ h
  have h1 : c = c' := congrArg (fun g : GSem nD τ sig => g.1.1) h
  subst h1
  have h2 : k = k' := csem_injective (congrArg Prod.snd h)
  subst h2; rfl

theorem ownSemFacts : Pipeline.OwnSemFacts cfg0.spec osem := by decide

theorem share_eq (SND : Dev nD → (cc0_scratch1 : Ref sig .tc).ty.Contents (Elt F)) (BLK : Dev nD → (cc0_scratch4 : Ref sig .tc).ty.Contents (Elt F))
    (OUT : Dev nD → (cc0_stg2_0 : Ref sig .tc).ty.Contents (Elt F)) (m : (ℓ : Loc nD τ sig) → Buf (Elt F) ℓ)
    (c : Dev nD) (w : Fin cfg0.W) : (dats SND BLK OUT m 0 c).share w = fullShare := by unfold Dat.share; split <;> rfl

def allCells : Finset (GSem nD τ sig) := Finset.univ.map ⟨kcell, kcell_injective⟩

/-! ## The duty tokens as minted

Per device thirty-five: on its barrier cell the three duties named by its neighbours, on each DMA cell the one duty. -/

abbrev tsem : Fin 35 → SemLoc sig := fun
  | 0 => .reg barS
  | 1 => .reg barS
  | 2 => .reg barS
  | 3 => .dma (ysS 0)
  | 4 => .dma (ysS 1)
  | 5 => .dma (ysS 2)
  | 6 => .dma (ysS 3)
  | 7 => .dma (ysS 4)
  | 8 => .dma (ysS 5)
  | 9 => .dma (yrS 0)
  | 10 => .dma (yrS 1)
  | 11 => .dma (yrS 2)
  | 12 => .dma (yrS 3)
  | 13 => .dma (yrS 4)
  | 14 => .dma (yrS 5)
  | 15 => .dma (xsS 0)
  | 16 => .dma (xsS 1)
  | 17 => .dma (xsS 2)
  | 18 => .dma (xsS 3)
  | 19 => .dma (xsS 4)
  | 20 => .dma (xsS 5)
  | 21 => .dma (xrS 0)
  | 22 => .dma (xrS 1)
  | 23 => .dma (xrS 2)
  | 24 => .dma (xrS 3)
  | 25 => .dma (xrS 4)
  | 26 => .dma (xrS 5)
  | 27 => .dma (zsS 0)
  | 28 => .dma (zsS 1)
  | 29 => .dma (zsS 2)
  | 30 => .dma (zsS 3)
  | 31 => .dma (zrS 0)
  | 32 => .dma (zrS 1)
  | 33 => .dma (zrS 2)
  | 34 => .dma (zrS 3)
  | ⟨_ + 35, h⟩ => absurd h (Nat.not_lt.2 (Nat.le_add_left _ _))

abbrev tduty (c : Dev nD) : Fin 35 → D3 := fun
  | 0 => xp c
  | 1 => yp c
  | 2 => zp c
  | _ => (0 : D3)

abbrev tokOf (cj : Dev nD × Fin 35) : GSem nD τ sig × ℕ × D3 := (((cj.1 : Thread nD τ), tsem cj.2), 0, tduty cj.1 cj.2)

theorem tsem_idx (j : Fin 35) : (idx (tsem j)).val = j.val - 2 := by fin_cases j <;> rfl

theorem tokOf_injective : Function.Injective (tokOf : Dev nD × Fin 35 → GSem nD τ sig × ℕ × D3) := by
  rintro ⟨c, j⟩ ⟨c', j'⟩ h
  have h1 : c = c' := congrArg (fun x : GSem nD τ sig × ℕ × D3 => x.1.1.1) h
  subst h1
  have h2 : tsem j = tsem j' := congrArg (fun x : GSem nD τ sig × ℕ × D3 => x.1.2) h
  have h3 : tduty c j = tduty c j' := congrArg (fun x : GSem nD τ sig × ℕ × D3 => x.2.2) h
  have h4 : j.val - 2 = j'.val - 2 := by rw [← tsem_idx, ← tsem_idx, h2]
  have h5 : j = j' := by
    by_cases hj : 3 ≤ j.val
    · by_cases hj' : 3 ≤ j'.val
      · exact Fin.ext (by omega)
      · exfalso
        have : j.val = 2 + (j'.val - 2) + (j.val - 2 - (j'.val - 2)) := by omega
        omega
    · by_cases hj' : 3 ≤ j'.val
      · exfalso; omega
      · have e1 : j.val < 3 := by omega
        have e2 : j'.val < 3 := by omega
        have hx := xp_ne_yp c; have hxz := xp_ne_zp c; have hyz := yp_ne_zp c
        have hj0 : j = 0 ∨ j = 1 ∨ j = 2 := by
          rcases (show j.val = 0 ∨ j.val = 1 ∨ j.val = 2 by omega) with h | h | h
          · exact Or.inl (Fin.ext h)
          · exact Or.inr (Or.inl (Fin.ext h))
          · exact Or.inr (Or.inr (Fin.ext h))
        have hj0' : j' = 0 ∨ j' = 1 ∨ j' = 2 := by
          rcases (show j'.val = 0 ∨ j'.val = 1 ∨ j'.val = 2 by omega) with h | h | h
          · exact Or.inl (Fin.ext h)
          · exact Or.inr (Or.inl (Fin.ext h))
          · exact Or.inr (Or.inr (Fin.ext h))
        rcases hj0 with rfl | rfl | rfl <;> rcases hj0' with rfl | rfl | rfl <;>
          (first | rfl | exact absurd h3 hx | exact absurd h3 hxz | exact absurd h3 hyz | exact absurd h3.symm hx | exact absurd h3.symm hxz | exact absurd h3.symm hyz)
  subst h5; rfl

def allToks : Finset (GSem nD τ sig × ℕ × D3) := Finset.univ.map ⟨tokOf, tokOf_injective⟩

def u₀ : UU :=
  (initOf (Pipeline.cells cfgs cellOf_inj) (Pipeline.launchToks cfgs cellOf_inj), initOf allCells allToks)

section Launch
variable (SND : Dev nD → (cc0_scratch1 : Ref sig .tc).ty.Contents (Elt F)) (BLK : Dev nD → (cc0_scratch4 : Ref sig .tc).ty.Contents (Elt F))
  (OUT : Dev nD → (cc0_stg2_0 : Ref sig .tc).ty.Contents (Elt F))
variable (m : (ℓ : Loc nD τ sig) → Buf (Elt F) ℓ) (ρ : Dev nD → PrngReg)

/-- The duty tokens of device c's own cells, as minted: on its barrier cell the three duties named by its neighbours, on
    each DMA cell the one duty. -/
def toks (c : Dev nD) : sProp 𝕄 :=
  iprop(dutyTok ER (barCell c) 0 (xp c)
    ∗ dutyTok ER (barCell c) 0 (yp c)
    ∗ dutyTok ER (barCell c) 0 (zp c)
    ∗ dutyTok ER (ysCell c 0) 0 (0 : D3)
    ∗ dutyTok ER (ysCell c 1) 0 (0 : D3)
    ∗ dutyTok ER (ysCell c 2) 0 (0 : D3)
    ∗ dutyTok ER (ysCell c 3) 0 (0 : D3)
    ∗ dutyTok ER (ysCell c 4) 0 (0 : D3)
    ∗ dutyTok ER (ysCell c 5) 0 (0 : D3)
    ∗ dutyTok ER (yrCell c 0) 0 (0 : D3)
    ∗ dutyTok ER (yrCell c 1) 0 (0 : D3)
    ∗ dutyTok ER (yrCell c 2) 0 (0 : D3)
    ∗ dutyTok ER (yrCell c 3) 0 (0 : D3)
    ∗ dutyTok ER (yrCell c 4) 0 (0 : D3)
    ∗ dutyTok ER (yrCell c 5) 0 (0 : D3)
    ∗ dutyTok ER (xsCell c 0) 0 (0 : D3)
    ∗ dutyTok ER (xsCell c 1) 0 (0 : D3)
    ∗ dutyTok ER (xsCell c 2) 0 (0 : D3)
    ∗ dutyTok ER (xsCell c 3) 0 (0 : D3)
    ∗ dutyTok ER (xsCell c 4) 0 (0 : D3)
    ∗ dutyTok ER (xsCell c 5) 0 (0 : D3)
    ∗ dutyTok ER (xrCell c 0) 0 (0 : D3)
    ∗ dutyTok ER (xrCell c 1) 0 (0 : D3)
    ∗ dutyTok ER (xrCell c 2) 0 (0 : D3)
    ∗ dutyTok ER (xrCell c 3) 0 (0 : D3)
    ∗ dutyTok ER (xrCell c 4) 0 (0 : D3)
    ∗ dutyTok ER (xrCell c 5) 0 (0 : D3)
    ∗ dutyTok ER (zsCell c 0) 0 (0 : D3)
    ∗ dutyTok ER (zsCell c 1) 0 (0 : D3)
    ∗ dutyTok ER (zsCell c 2) 0 (0 : D3)
    ∗ dutyTok ER (zsCell c 3) 0 (0 : D3)
    ∗ dutyTok ER (zrCell c 0) 0 (0 : D3)
    ∗ dutyTok ER (zrCell c 1) 0 (0 : D3)
    ∗ dutyTok ER (zrCell c 2) 0 (0 : D3)
    ∗ dutyTok ER (zrCell c 3) 0 (0 : D3))

/-- What the launch element deals device c. -/
def G (c : Dev nD) : sProp 𝕄 :=
  iprop((bigSep Finset.univ fun k : Fin 33 => roundState ER (Rd SND BLK) (kcell (c, k)) 0)
    ∗ (bigSep Finset.univ fun k : Fin 33 => iprop(atPos ER (kcell (c, k)) 0 ∅ 0 ∗ reached ER (kcell (c, k)) 0)) ∗ toks c)

/-- What the global step makes of it. -/
def G' (c : Dev nD) : sProp 𝕄 := iprop(∃ K, ghost SND BLK K c)

omit [FloatOps F] in
theorem bigSep_fin33 (Φ : Fin 33 → sProp 𝕄) : bigSep Finset.univ Φ = bigSepL ([0, 1, 2, 3, 4, 5, 6, 7, 8, 9, 10, 11, 12, 13, 14, 15, 16, 17, 18, 19, 20, 21, 22, 23, 24, 25, 26, 27, 28, 29, 30, 31, 32] : List (Fin 33)) Φ :=
  bigSep_univ_eq_bigSepL _ (by decide) (by decide) Φ
omit [FloatOps F] in
theorem bigSep_fin35 (Φ : Fin 35 → sProp 𝕄) : bigSep Finset.univ Φ = bigSepL ([0, 1, 2, 3, 4, 5, 6, 7, 8, 9, 10, 11, 12, 13, 14, 15, 16, 17, 18, 19, 20, 21, 22, 23, 24, 25, 26, 27, 28, 29, 30, 31, 32, 33, 34] : List (Fin 35)) Φ :=
  bigSep_univ_eq_bigSepL _ (by decide) (by decide) Φ

omit [FloatOps F] in
theorem fund_cells : BI.own (ER (initOf allCells allToks)) ⊢ (|==> bigSep Finset.univ (G SND BLK) : sProp 𝕄) := by
  have hX (Φ : GSem nD τ sig → sProp 𝕄) : bigSep allCells Φ = bigSep Finset.univ fun c : Dev nD => bigSep Finset.univ fun k : Fin 33 => Φ (kcell (c, k)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]
    exact bigSep_congr fun c _ => by rw [bigSep_fin35]; rfl
  iintro HX
  imod (Rounds.fund ER (Rd SND BLK) allCells allToks) $$ HX with ⟨Hst, Hr, Hat, Htok⟩
  imodintro
  ihave Hst' := (Entails.of_eq (hX fun g => roundState ER (Rd SND BLK) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
/-- The kernel's own semaphores are the thirty-two; -/
theorem ownSems0_eq (c : Dev nD) : (Pipeline.ownSems0 (Ix := Unit) (Name := ℕ) (U := UU) (Lvl := ℕ) (Val := Elt F) (τ := τ) osem c : sProp 𝕄)
    = closedSems c := by
  rw [Pipeline.ownSems0_eq_of_list c osem [0, 1, 2, 3, 4, 5, 6, 7, 8, 9, 10, 11, 12, 13, 14, 15, 16, 17, 18, 19, 20, 21, 22, 23, 24, 25, 26, 27, 28, 29, 30, 31] (by decide) (by decide)]; rfl
omit [FloatOps F] in
/-- the barrier semaphore the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 33 => semVal (kcell (c, k)) 0 : sProp 𝕄) := by
  rw [ownSems0_eq, unscopedSems0_eq,
    show (bigSep Finset.univ fun k : Fin 33 => semVal (kcell (c, k)) 0 : sProp 𝕄) = iprop(semVal (barCell c) 0 ∗ closedSems c) from by
      rw [bigSep_fin33]; rfl]
  iintro ⟨HS, HB⟩
  isplitl [HB]; · iexact HB
  iexact HS

omit [FloatOps F] in
instance some_storable (c : Dev nD) (M : Memref sig .tc .vmem S256x128 .bf16) : BI.Storable (upEmb : UEmb _ 𝕄) (some_ (F := F) c M) := by infer_instance
omit [FloatOps F] in
instance someQ_storable (c : Dev nD) (M : Memref sig .tc .vmem S256x128 .bf16) (q : PosShare TreeShare) : BI.Storable (upEmb : UEmb _ 𝕄) (someQ (F := F) c M q) := by infer_instance
omit [FloatOps F] in
instance holds_storable (c : Dev nD) (M : Memref sig .tc .vmem S256x128 .bf16) (q : PosShare TreeShare) (f : Buf (Elt F) (M.view.loc (c : Thread nD τ))) :
    BI.Storable (upEmb : UEmb _ 𝕄) (holds (F := F) c M q f) := by infer_instance

omit [FloatOps F] in
set_option synthInstance.maxHeartbeats 400000 in
instance PX_storable (p : Dev nD) : BI.Storable (upEmb : UEmb _ 𝕄) (PX (F := F) p) := by unfold PX; infer_instance
omit [FloatOps F] in
set_option synthInstance.maxHeartbeats 400000 in
instance PY_storable (p : Dev nD) : BI.Storable (upEmb : UEmb _ 𝕄) (PY (F := F) p) := by unfold PY; infer_instance
omit [FloatOps F] in
set_option synthInstance.maxHeartbeats 400000 in
instance PZ_storable (p : Dev nD) : BI.Storable (upEmb : UEmb _ 𝕄) (PZ (F := F) p) := by unfold PZ; infer_instance
set_option synthInstance.maxHeartbeats 400000 in
set_option maxHeartbeats 2000000 in
instance dmaPay_storable (c : Dev nD) (n : ℕ) : BI.Storable (upEmb : UEmb _ 𝕄) (dmaPay (F := F) SND BLK c n) := by
  unfold dmaPay; (repeat' split) <;> infer_instance

/-- Every payload of the schedule is made of points-to assertions and reached-marks: it can be kept in an invariant. -/
instance Rd_payload_storable (g : GSem nD τ sig) (r : ℕ) (d : D3) :
    BI.Storable (upEmb : UEmb _ 𝕄) ((Rd (F := F) SND BLK).payload g r d) := by
  show BI.Storable upEmb (match g.2 with
    | .reg _ => if d = xp g.1.1 then PX d else if d = yp g.1.1 then PY d else PZ d
    | .dma q => dmaPay SND BLK g.1.1 q.val)
  cases g.2 with
  | reg s => dsimp only; (repeat' split) <;> infer_instance
  | dma q => dsimp only; infer_instance

omit [FloatOps F] in
theorem core_alloc (c : Dev nD) :
    iprop(Pipeline.ownSems0 (Ix := Unit) (Name := ℕ) (U := UU) (Lvl := ℕ) (Val := Elt F) (τ := τ) osem c ∗ unscopedSems0 c ∗ G SND BLK c)
      ⊢ |={Set.univ}=> iprop((bigSep Finset.univ fun k : Fin 33 => iprop(∃ κ : ℕ, cellInv ER (Rd SND BLK) κ (kcell (c, k))))
          ∗ (bigSep Finset.univ fun k : Fin 33 => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 33 => semVal (kcell (c, k)) 0) ∗ bigSep Finset.univ fun k : Fin 33 => roundState ER (Rd SND BLK) (kcell (c, k)) 0)
      ⊢ (|={Set.univ}=> bigSep Finset.univ fun k : Fin 33 => iprop(∃ κ : ℕ, cellInv ER (Rd SND BLK) κ (kcell (c, k))) : sProp 𝕄) from by
        rw [← bigSep_sep']
        exact (bigSep_mono fun k _ => (Rounds.body_intro ER (Rd SND BLK) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-! ### From the allocated invariants to each device's ghost state -/

omit [FloatOps F] in
/-- A persistent assertion that yields both conjuncts yields their separating conjunction. -/
theorem pers_sep {R A B : sProp 𝕄} [BI.Persistent R] (h1 : R ⊢ A) (h2 : R ⊢ B) : R ⊢ iprop(A ∗ B) := by
  iintro #H
  isplitr
  · iapply h1; iexact H
  · iapply h2; iexact H

/-- Every cell's invariant at the names K, and that its round 0 is reached: persistent, and shared by all devices. -/
def records (K : GSem nD τ sig → ℕ) : sProp 𝕄 :=
  iprop((bigSep Finset.univ fun ck : Dev nD × Fin 33 => cellInv ER (Rd SND BLK) (K (kcell ck)) (kcell ck))
    ∗ bigSep Finset.univ fun ck : Dev nD × Fin 33 => reached ER (kcell ck) 0)

instance records_persistent (K : GSem nD τ sig → ℕ) : BI.Persistent (records SND BLK K) := by unfold records; infer_instance

omit [FloatOps F] in
theorem inv_of (K : GSem nD τ sig → ℕ) (g : GSem nD τ sig) (hg : kcell (g.1.1, idx g.2) = g) :
    records SND BLK K ⊢ cellInv ER (Rd SND BLK) (K g) g := by
  have h : (bigSep Finset.univ fun ck : Dev nD × Fin 33 => (cellInv ER (Rd SND BLK) (K (kcell ck)) (kcell ck) : sProp 𝕄)) ⊢ cellInv ER (Rd SND BLK) (K g) g := by
    have h' := bigSep_elim (Finset.mem_univ (g.1.1, idx g.2)) (Φ := fun ck : Dev nD × Fin 33 => (cellInv ER (Rd SND BLK) (K (kcell ck)) (kcell ck) : sProp 𝕄))
    rw [hg] at h'; exact h'
  unfold records
  iintro ⟨HI, -⟩
  iapply h; iexact HI

omit [FloatOps F] in
theorem reached_of (K : GSem nD τ sig → ℕ) (g : GSem nD τ sig) (hg : kcell (g.1.1, idx g.2) = g) :
    records SND BLK K ⊢ reached ER g 0 := by
  have h : (bigSep Finset.univ fun ck : Dev nD × Fin 33 => (reached ER (kcell ck) 0 : sProp 𝕄)) ⊢ reached ER g 0 := by
    have h' := bigSep_elim (Finset.mem_univ (g.1.1, idx g.2)) (Φ := fun ck : Dev nD × Fin 33 => (reached ER (kcell ck) 0 : sProp 𝕄))
    rw [hg] at h'; exact h'
  unfold records
  iintro ⟨-, HR⟩
  iapply h; iexact HR

omit [FloatOps F] in
theorem invs_intro (K : GSem nD τ sig → ℕ) (c : Dev nD) : records SND BLK K ⊢ invs SND BLK K c := by
  unfold invs
  repeat' apply pers_sep
  all_goals (refine inv_of SND BLK K _ ?_; rfl)

omit [FloatOps F] in
theorem marks_intro (K : GSem nD τ sig → ℕ) (c : Dev nD) : records SND BLK K ⊢ marks c := by
  unfold marks
  repeat' apply pers_sep
  all_goals (refine reached_of SND BLK K _ ?_; rfl)

omit [FloatOps F] in
theorem ghost_intro (K : GSem nD τ sig → ℕ) (c : Dev nD) : iprop(records SND BLK K ∗ positions c ∗ payToks c) ⊢ G' SND BLK c := by
  iintro ⟨#HR, Hp, Ht⟩
  unfold G'; iexists K; unfold ghost
  isplitr; · iapply (invs_intro SND BLK K c); iexact HR
  isplitr; · iapply (marks_intro SND BLK K c); iexact HR
  isplitl [Hp]; · iexact Hp
  iexact Ht

omit [FloatOps F] in
/-- The tokens dealt around the cube: each barrier token to the neighbour it is named by, each receive token to the
    neighbour that sends into the cell; the send tokens stay. -/
theorem sep_congr_big {A A' B B' : Dev nD → sProp 𝕄} (h1 : bigSep Finset.univ A = bigSep Finset.univ A') (h2 : bigSep Finset.univ B = bigSep Finset.univ B') :
    (bigSep Finset.univ fun c => iprop(A c ∗ B c)) = bigSep Finset.univ fun c => iprop(A' c ∗ B' c) := by
  rw [bigSep_sep', bigSep_sep', h1, h2]

omit [FloatOps F] in
/-- The tokens dealt around the cube: each barrier token to the neighbour it is named by, each receive token to the
    neighbour that sends into the cell; the send tokens stay. -/
theorem toks_around : (bigSep Finset.univ fun c : Dev nD => (toks c : sProp 𝕄)) = bigSep Finset.univ fun c : Dev nD => payToks c := by
  have hx (Φ : Dev nD → sProp 𝕄) : bigSep Finset.univ Φ = bigSep Finset.univ fun c => Φ (xp c) := bigSep_univ_equiv xE Φ
  have hy (Φ : Dev nD → sProp 𝕄) : bigSep Finset.univ Φ = bigSep Finset.univ fun c => Φ (yp c) := bigSep_univ_equiv yE Φ
  have hz (Φ : Dev nD → sProp 𝕄) : bigSep Finset.univ Φ = bigSep Finset.univ fun c => Φ (zp c) := bigSep_univ_equiv zE Φ
  unfold toks payToks
  repeat' apply sep_congr_big
  all_goals first
    | rfl
    | exact hx _
    | exact hy _
    | exact hz _
    | exact (hx _).trans (bigSep_congr fun c _ => congrArg (dutyTok ER (barCell (xp c)) 0) (xp_xp c))
    | exact (hy _).trans (bigSep_congr fun c _ => congrArg (dutyTok ER (barCell (yp c)) 0) (yp_yp c))
    | exact (hz _).trans (bigSep_congr fun c _ => congrArg (dutyTok ER (barCell (zp c)) 0) (zp_zp c))

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

omit [FloatOps F] in
theorem regroup :
    (bigSep Finset.univ fun c : Dev nD => iprop((bigSep Finset.univ fun k : Fin 33 => iprop(∃ κ : ℕ, cellInv ER (Rd SND BLK) κ (kcell (c, k))))
          ∗ (bigSep Finset.univ fun k : Fin 33 => iprop(atPos ER (kcell (c, k)) 0 ∅ 0 ∗ reached ER (kcell (c, k)) 0)) ∗ toks c) : sProp 𝕄)
      ⊢ bigSep Finset.univ (G' SND BLK) := by
  rw [bigSep_sep', bigSep_sep', ← bigSep_univ_prod (fun ck : Dev nD × Fin 33 => iprop(∃ κ : ℕ, cellInv ER (Rd SND BLK) κ (kcell ck))),
    bigSep_congr (s := Finset.univ) (fun (c : Dev nD) _ => bigSep_sep' Finset.univ (fun k : Fin 33 => (atPos ER (kcell (c, k)) 0 ∅ 0 : sProp 𝕄)) (fun k => reached ER (kcell (c, k)) 0)),
    bigSep_sep', ← bigSep_univ_prod (fun ck : Dev nD × Fin 33 => (reached ER (kcell ck) 0 : sProp 𝕄)), toks_around]
  iintro ⟨HI, ⟨Hat, #HR⟩, Htok⟩
  ihave HK := (BI.bigSep_exists_pi Finset.univ (fun (ck : Dev nD × Fin 33) (κ : ℕ) => (cellInv ER (Rd SND BLK) κ (kcell ck) : sProp 𝕄))) $$ HI
  icases HK with ⟨%K', #HI⟩
  have hK : (bigSep Finset.univ fun ck : Dev nD × Fin 33 => (cellInv ER (Rd SND BLK) (K' ck) (kcell ck) : sProp 𝕄))
      = bigSep Finset.univ fun ck : Dev nD × Fin 33 => (cellInv ER (Rd SND BLK) ((fun g : GSem nD τ sig => K' (g.1.1, idx g.2)) (kcell ck)) (kcell ck) : sProp 𝕄) :=
    bigSep_congr fun ck _ => by
      show _ = cellInv ER (Rd SND BLK) (K' (ck.1, idx (csem ck.2))) (kcell ck)
      rw [idx_csem]
  iapply (bigSep_with_persistent (R := records SND BLK (fun g : GSem nD τ sig => K' (g.1.1, idx g.2))) fun c _ => ghost_intro SND BLK (fun g : GSem nD τ sig => K' (g.1.1, idx g.2)) c)
  isplitr
  · unfold records; isplitl
    · iapply (Entails.of_eq hK); iexact HI
    iexact HR
  · iapply ((Entails.of_eq (bigSep_sep' Finset.univ (fun c : Dev nD => bigSep Finset.univ fun k : Fin 33 => (atPos ER (kcell (c, k)) 0 ∅ 0 : sProp 𝕄)) payToks).symm).trans
      (bigSep_mono fun c _ => show _ ⊢ iprop(positions c ∗ payToks c) from Entails.of_eq (by rw [bigSep_fin33]; rfl)))
    isplitl [Hat]; · iexact Hat
    iexact Htok

omit [FloatOps F] in
/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G SND BLK c) : sProp 𝕄)
    ⊢ |={Set.univ}=> bigSep Finset.univ (G' SND BLK) :=
  ((bigSep_mono fun c _ => core_alloc SND BLK c).trans (bigSep_fupd _ _)).trans (BI.fupd_mono (regroup SND BLK))

/-! ### The launch credit -/

/-- What is owed to device c's own cells, by whomever: the three units of its barrier cell and a slot's credit on
    each of its sixteen receive cells. -/
def T (c : Dev nD) : CellTallies nD τ sig Unit :=
  tallyAt (barCell c) () 3
    + (tallyAt (yrCell c 0) () Ny
    + (tallyAt (yrCell c 1) () Ny
    + (tallyAt (yrCell c 2) () Ny
    + (tallyAt (yrCell c 3) () Ny
    + (tallyAt (yrCell c 4) () Ny
    + (tallyAt (yrCell c 5) () Ny
    + (tallyAt (xrCell c 0) () Nb
    + (tallyAt (xrCell c 1) () Nb
    + (tallyAt (xrCell c 2) () Nb
    + (tallyAt (xrCell c 3) () Nb
    + (tallyAt (xrCell c 4) () Nb
    + (tallyAt (xrCell c 5) () Nb
    + (tallyAt (zrCell c 0) () Nb
    + (tallyAt (zrCell c 1) () Nb
    + (tallyAt (zrCell c 2) () Nb
    + tallyAt (zrCell c 3) () Nb)))))))))))))))

omit [FloatOps F] in
/-- Summed over the devices, what they owe is what is owed to them: every due goes to the neighbour across one
    axis, and crossing an axis permutes the devices. -/
theorem sum_owed : (∑ d : Dev nD, O₀ d) = ∑ d : Dev nD, T d := by
  have hx (f : Dev nD → CellTallies nD τ sig Unit) : (∑ d, f (xp d)) = ∑ d, f d := Equiv.sum_comp xE f
  have hy (f : Dev nD → CellTallies nD τ sig Unit) : (∑ d, f (yp d)) = ∑ d, f d := Equiv.sum_comp yE f
  have hz (f : Dev nD → CellTallies nD τ sig Unit) : (∑ d, f (zp d)) = ∑ d, f d := Equiv.sum_comp zE f
  have h3 (d : Dev nD) : (tallyAt (barCell d) () 3 : CellTallies nD τ sig Unit) = tallyAt (barCell d) () 1 + tallyAt (barCell d) () 1 + tallyAt (barCell d) () 1 := by
    rw [tallyAt_add, tallyAt_add]
  simp only [O₀, T, h3, Finset.sum_add_distrib]
  rw [hx (fun d => tallyAt (barCell d) () 1), hy (fun d => tallyAt (barCell d) () 1), hz (fun d => tallyAt (barCell d) () 1),
    hy (fun d => tallyAt (yrCell d 0) () Ny),
    hy (fun d => tallyAt (yrCell d 1) () Ny),
    hy (fun d => tallyAt (yrCell d 2) () Ny),
    hy (fun d => tallyAt (yrCell d 3) () Ny),
    hy (fun d => tallyAt (yrCell d 4) () Ny),
    hy (fun d => tallyAt (yrCell d 5) () Ny),
    hx (fun d => tallyAt (xrCell d 0) () Nb),
    hx (fun d => tallyAt (xrCell d 1) () Nb),
    hx (fun d => tallyAt (xrCell d 2) () Nb),
    hx (fun d => tallyAt (xrCell d 3) () Nb),
    hx (fun d => tallyAt (xrCell d 4) () Nb),
    hx (fun d => tallyAt (xrCell d 5) () Nb),
    hz (fun d => tallyAt (zrCell d 0) () Nb),
    hz (fun d => tallyAt (zrCell d 1) () Nb),
    hz (fun d => tallyAt (zrCell d 2) () Nb),
    hz (fun d => tallyAt (zrCell d 3) () Nb)]
  ac_rfl

omit [FloatOps F] in
theorem T_own (d : Dev nD) (g : GSem nD τ sig) (h : T d g ≠ 0) : g.1 = (d.tc : Thread nD τ) := by
  by_contra hne
  refine h ?_
  have hz : ∀ (sm : SemLoc sig) (k : ℕ), (tallyAt ((d : Thread nD τ), sm) () k : CellTallies nD τ sig Unit) g = 0 :=
    fun sm k => tallyAt_ne_cell (fun e => hne (congrArg Prod.fst e)) () k
  simp only [T, Pi.add_apply, hz, add_zero]

omit [FloatOps F] in
theorem creds (c : Dev nD) : (Pipeline.launchCred O₀ c : sProp 𝕄) ⊢ credits c := by
  rw [Pipeline.launchCred_of_sum O₀ T sum_owed T_own c]
  unfold T credits
  iterate 16 (refine (cred_add _ _).1.trans (sep_mono_right ?_))
  exact Entails.refl _

/-! ### The levels -/

/-- Whether a semaphore's cells sit at level one or more: the barrier semaphore and the receive semaphores. -/
def lvPos : SemLoc sig → Bool
  | .reg _ => true
  | .dma q => decide (9 ≤ q.val ∧ q.val < 15) || decide (21 ≤ q.val ∧ q.val < 27) || decide (31 ≤ q.val)

omit [FloatOps F] in
theorem lv_pos_of {g : GSem nD τ sig} (h : lvPos g.2 = true) : 0 < lv g () := by
  obtain ⟨t, sm⟩ := g
  cases sm with
  | reg s => exact Nat.one_pos
  | dma q =>
    simp only [lvPos, Bool.or_eq_true, decide_eq_true_eq] at h
    show 0 < (if 9 ≤ q.val ∧ q.val < 15 then 2 else if 21 ≤ q.val ∧ q.val < 27 then 3 else if 31 ≤ q.val then 4 else 0)
    split_ifs with h1 h2 h3
    · exact Nat.succ_pos _
    · exact Nat.succ_pos _
    · exact Nat.succ_pos _
    · exfalso; rcases h with (h | h) | h
      · exact h1 h
      · exact h2 h
      · exact h3 h

omit [FloatOps F] in
/-- Everything a device owes at launch is owed to a TensorCore cell at level one or more. -/
theorem O₀_pos {c : Dev nD} {g : GSem nD τ sig} {u : Unit} (h : 0 < O₀ c g u) : g.1.2 = Proc.tc ∧ 0 < lv g u := by
  have key : ∀ {g' : GSem nD τ sig} {k : ℕ}, 0 < (tallyAt g' () k : CellTallies nD τ sig Unit) g u → g'.1.2 = Proc.tc → lvPos g'.2 = true → g.1.2 = Proc.tc ∧ 0 < lv g u :=
    fun hp h1 h2 => by obtain ⟨rfl, rfl⟩ := Pipeline.tallyAt_pos hp; exact ⟨h1, lv_pos_of h2⟩
  unfold O₀ at h
  iterate 18 (rcases Pipeline.add_pos_cases h with h | h' <;> [skip; exact key h' rfl rfl])
  exact key h rfl rfl

omit [FloatOps F] in
/-- A wait on a cell at level zero — a staging cell — is allowed whatever of the launch dues is still owed. -/
theorem mayWait_stage (c : Dev nD) (q : DmaSem sig) (hq : lv ((c : Thread nD τ), .dma q) () = 0) (O : CellTallies nD τ sig Unit) (hO : O = O₀ c ∨ O = 0) :
    (levAts L lv : sProp 𝕄) ⊢ MayWait (c : Thread nD τ) (.dma q) () O := by
  rcases hO with rfl | rfl
  · exact Pipeline.mayWait_of_levAts (by rw [L_tc]; exact Finset.mem_singleton_self _) fun g i hg => by
      obtain ⟨h1, h2⟩ := O₀_pos hg
      refine ⟨?_, by rw [hq]; exact h2⟩
      obtain ⟨⟨d, p⟩, sm⟩ := g
      cases h1; rw [L_tc]; exact Finset.mem_singleton_self _
  · rw [MayWait_zero]; iintro -; iempintro

theorem waits (c : Dev nD) : (levAts L lv : sProp 𝕄) ⊢ Pipeline.cellsWaits cfgs (dats SND BLK OUT m) () 0 c :=
  Pipeline.cellsWaits_intro cfgs (dats SND BLK OUT m) () 0 c fun w s t =>
    mayWait_stage c _ (by fin_cases w <;> fin_cases s <;> rfl) _ (by
      rcases t with ⟨_ | _, ht⟩
      · exact Or.inl rfl
      · exact Or.inr rfl)

/-! ### The theorem's side conditions -/

omit [FloatOps F] in
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' SND BLK c)
      ⊢ |={Set.univ}=> iprop(start SND BLK c ∗ emp) := by
  iintro ⟨-, Hlev, Hcr, -, HG⟩
  ihave Hc := (creds (F := F) c) $$ Hcr
  imodintro
  unfold start G'
  isplitl
  · isplitl [HG]; · iexact HG
    isplitl [Hc]; · iexact Hc
    iexact Hlev
  · iempintro

theorem phi0_intro (c : Dev nD) :
    iprop(start SND BLK c ∗ Pipeline.prefHeld Pipeline.Prefetch.none c (fun _ => fullShare.right) (fun k => k.elim0) ∗ Pipeline.scopedRest cfg0.spec c)
      ⊢ (dats SND BLK OUT m 0 c).Φ 0 := by
  rw [show (dats SND BLK OUT m 0 c).Φ 0 = Φ₀ SND BLK c from rfl, scopedRest0_eq]
  unfold Φ₀ scratch
  iintro ⟨Hs, -, Hr⟩
  isplitl [Hs]; · iexact Hs
  iexact Hr

theorem phi1_exit (c : Dev nD) :
    (dats SND BLK OUT m 0 c).Φ (Fin.last cfg0.N) ⊢ iprop(emp ∗ Pipeline.ownSems0 osem c ∗ Pipeline.scopedRest cfg0.spec c) := by
  rw [show (dats SND BLK OUT m 0 c).Φ (Fin.last cfg0.N) = Φ₁ c from rfl, scopedRest0_eq, ownSems0_eq]
  unfold Φ₁ scratch
  iintro ⟨Hr, Hz⟩
  isplitr; · iempintro
  isplitl [Hz]; · iexact Hz
  iexact Hr

/-! ### The result array -/

/-- The output window is the whole result array, written back at the one point: the array ends at what the body
    leaves in the window's staging buffer. -/
theorem out_final (c : Dev nD) : (dats SND BLK OUT m 0 c).arrAt (2 : Fin 3) cfg0.N = OUT c := by
  refine (dats SND BLK OUT m 0 c).arrAt_eq_of_cover 2 (OUT c) (fun t _ => ?_) (fun i => ⟨t0_0, flush0_2 t0_0, ?_⟩)
  · funext j
    show OUT c j = OUT c (((cfg0.win 2).blk t).view.emb j)
    refine congrArg (OUT c) (funext fun a => Fin.ext ?_)
    match a with
    | ⟨0, _⟩ => show (j 0).val = 0 * 256 + 1 * (j 0).val; omega
    | ⟨1, _⟩ => show (j 1).val = 0 * 2048 + 1 * (j 1).val; omega
  · show i ∈ ((View.whole main_v1).slice (win0_2.rect t0_0)).set
    rw [View.set_slice_whole, Rect.mem_set_unit]
    intro a
    match a with
    | ⟨0, _⟩ => show 0 * 256 ≤ (i 0).val ∧ (i 0).val < 0 * 256 + 256; have h : (i 0).val < 256 := (i 0).isLt; omega
    | ⟨1, _⟩ => show 0 * 2048 ≤ (i 1).val ∧ (i 1).val < 0 * 2048 + 2048; have h : (i 1).val < 2048 := (i 1).isLt; omega

/-! ### The run -/

set_option maxRecDepth 8000 in
/-- At the compiled mesh of eight devices, for any float values, from any memory with zero counters: if each device's
    body meets its obligation over the proof data, every weakly fair execution of @main terminates, and every final
    state has each device's result array at `OUT c` — what the body leaves in the output window's staging buffer — and
    the arguments unchanged. -/
theorem run_of_body (hbody : ∀ c, BodyObligation (dats SND BLK OUT m 0 c) (defs₀ (F := F)) 𝒱₀ () Set.univ) :
    θ_run defs (onTc (τ := τ) (main (F := F))) ⟨m, fun _ => 0, ρ⟩ (fun r => ∀ c : Dev nD,
      r.2.mem ((c.tc : Thread nD τ).loc main_v1) = OUT c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_region_owing_glob_pf (fun p => (cfgs p).toPCfg) (fun p => (cfgs p).toPCfg_adm) (dats SND BLK OUT m) () cellOf_inj (0 : Fin 1)
    winFacts0.to₀ ownSemFacts (Pipeline.PreFacts.none _) EP defs₀ 𝒱₀ m ρ main
    (hmain := fun _ => rfl)
    (hbody := hbody) (hne := fun w => by fin_cases w <;> exact Nat.succ_pos _) (harr := arr_whole0) (hstage := stage_whole0) (hshare := share_eq SND BLK OUT m)
    (hdistinct := winFacts0.arr_inj)
    (O₀ := O₀) (howed₀ := fun _ => rfl) (howedN := fun _ => rfl)
    (L := L) (lv := lv) (hL := L_of_ne) (hwaits := waits SND BLK OUT m)
    (G := G SND BLK) (G' := G' SND BLK) (u₀ := u₀)
    (hu₀ := by
      unfold u₀
      iintro Hu
      ihave H := (ownU_pair _ _) $$ Hu
      icases H with ⟨HP, HX⟩
      imod (fund_cells SND BLK) $$ HX with HG
      imodintro
      isplitl [HP] <;> iassumption)
    (hglob := glob SND BLK)
    (hA := fun _ _ => rfl) (hpf := fun _ k => k.elim0)
    (X := start SND BLK) (Y := fun _ => iprop(emp)) (Z := fun _ => iprop(emp))
    (hX := start_intro SND BLK m ρ) (hin := phi0_intro SND BLK OUT m) (hout := phi1_exit SND BLK OUT m)
    (QY := fun _ _ => True)
    (hY := fun c s' => by
      iintro ⟨-, -, HSI⟩
      imodintro
      isplitr; · ipureintro; trivial
      iexact HSI)
    (hQ := fun _ h c => ⟨((h c).1 2).trans (out_final SND BLK OUT m c), ((h c).1 0).trans ((dats SND BLK OUT m 0 c).arrAt_in 0 rfl _), ((h c).1 1).trans ((dats SND BLK OUT m 0 c).arrAt_in 1 rfl _)⟩)

end Launch

/-- info: 'Cert.KernelIdeal.Coll.run_of_body' depends on axioms: [propext, Classical.choice, Quot.sound] -/
#guard_msgs in #print axioms run_of_body

end Cert.KernelIdeal.Coll

end
-- ==== Proof.BodyDefs.lean ====
import proofs.«900594_g7700000000000595_dist_rsdw_v7x_xyz2x2x2_y_m512_d512_f2048_bf16_1_alg».proof.Proof.Mesh
import proofs.«900594_g7700000000000595_dist_rsdw_v7x_xyz2x2x2_y_m512_d512_f2048_bf16_1_alg».proof.Proof.Gen.KernelIdeal.Skeleton
import proofs.«900594_g7700000000000595_dist_rsdw_v7x_xyz2x2x2_y_m512_d512_f2048_bf16_1_alg».proof.Proof.Gen.KernelIdeal.Frame
import proofs.«900594_g7700000000000595_dist_rsdw_v7x_xyz2x2x2_y_m512_d512_f2048_bf16_1_alg».proof.Proof.Ghost
import Idealize.ShloMosaic.Lib.Pipeline.Launch
import Idealize.ShloMosaic.Lib.Pipeline.Kit
import Idealize.ShloMosaic.Lib.Tactic

noncomputable section

namespace Cert.KernelIdeal.Coll

open Cert.KernelIdeal Cert.KernelIdeal.Gen Cert.KernelIdeal.Mesh
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

section BodyDefs
variable (SND : Dev nD → (cc0_scratch1 : Ref sig .tc).ty.Contents (Elt F)) (BLK : Dev nD → (cc0_scratch4 : Ref sig .tc).ty.Contents (Elt F))
  (OUT : Dev nD → (cc0_stg2_0 : Ref sig .tc).ty.Contents (Elt F))
variable (m : (ℓ : Loc nD τ sig) → Buf (Elt F) ℓ)

/-- The one grid point. -/
def t₀ : Fin cfg0.N := ⟨0, by decide⟩

/-- A staging buffer whole at named contents. -/
abbrev stg (c : Dev nD) (b : Ref sig .tc) (Xc : b.ty.Contents (Elt F)) : sProp 𝕄 :=
  iprop(∃ f : Buf (Elt F) (((c : Dev nD) : Thread nD τ).loc b), ⌜f = Xc⌝ ∗ (((c : Thread nD τ).loc b) ↦{fullShare} f))

/-- What the body of device c starts from: its ghost state at the names K, its launch credit, the levels, the five
    scratch buffers, what it owes, and the three staging buffers as the pipeline hands them over. -/
def bodyPre (K : GSem nD τ sig → ℕ) (c : Dev nD) : sProp 𝕄 :=
  iprop((ghost SND BLK K c ∗ credits c ∗ levAts L lv ∗ scratch c)
    ∗ (dats SND BLK OUT m 0 c).owesAt () t₀.castSucc
    ∗ (∃ d, stg c cc0_stg0_0 ((dats SND BLK OUT m 0 c).before (0 : Fin 3) t₀ d))
    ∗ (∃ d, stg c cc0_stg1_0 ((dats SND BLK OUT m 0 c).before (1 : Fin 3) t₀ d))
    ∗ (∃ d, stg c cc0_stg2_0 ((dats SND BLK OUT m 0 c).before (2 : Fin 3) t₀ d)))

/-- What it ends with: the scratch buffers and its semaphores back, nothing owed, the inputs in place and the result
    buffer holding OUT c. -/
def bodyPost (c : Dev nD) : sProp 𝕄 :=
  iprop(Φ₁ c ∗ (dats SND BLK OUT m 0 c).owesAt () t₀.succ
    ∗ stg c cc0_stg0_0 (xstg m c) ∗ stg c cc0_stg1_0 (dystg m c) ∗ stg c cc0_stg2_0 (OUT c))

end BodyDefs

end Cert.KernelIdeal.Coll

end
-- ==== Proof.Assemble.lean ====
/-
  From the body lemma to the run: the body lemma of one device, stated from the body's own precondition, is put in
  the form the pipeline asks of a body (the three windows' staging buffers one by one, the point named), and the
  launch then gives the run of @main with each device's result array named and the arguments unchanged; the frame
  is that run with the result dropped. The value families `SND`, `BLK`, `OUT` stay arbitrary: the body lemma is a
  hypothesis here.
-/
import proofs.«900594_g7700000000000595_dist_rsdw_v7x_xyz2x2x2_y_m512_d512_f2048_bf16_1_alg».proof.Proof.Launch
import proofs.«900594_g7700000000000595_dist_rsdw_v7x_xyz2x2x2_y_m512_d512_f2048_bf16_1_alg».proof.Proof.BodyDefs
import Idealize.ShloMosaic.Lib.Pipeline.Launch
import Idealize.ShloMosaic.Lib.Pipeline.Kit
import Idealize.ShloMosaic.Lib.Tactic

noncomputable section

namespace Cert.KernelIdeal.Coll

open Cert.KernelIdeal Cert.KernelIdeal.Gen Cert.KernelIdeal.Mesh
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

section Assemble
variable (SND : Dev nD → (cc0_scratch1 : Ref sig .tc).ty.Contents (Elt F)) (BLK : Dev nD → (cc0_scratch4 : Ref sig .tc).ty.Contents (Elt F))
  (OUT : Dev nD → (cc0_stg2_0 : Ref sig .tc).ty.Contents (Elt F))
variable (m : (ℓ : Loc nD τ sig) → Buf (Elt F) ℓ)

omit [FloatOps F] in
/-- The grid has the one point. -/
theorem fin_N (t : Fin cfg0.N) : t = t₀ := (fin_N0 t).trans rfl

omit [FloatOps F] in
/-- A whole buffer held at named contents, as the points-to of its location. -/
theorem owns_whole_eq (c : Dev nD) (b : Ref sig .tc) (Xc : b.ty.Contents (Elt F)) :
    (owns (Ix := Unit) (Name := ℕ) (U := UU) (Lvl := ℕ) (c : Thread nD τ) (Memref.whole b) fullShare Xc : sProp 𝕄)
      = iprop(∃ f : Buf (Elt F) (((c : Dev nD) : Thread nD τ).loc b), ⌜f = Xc⌝ ∗ (((c : Thread nD τ).loc b) ↦{fullShare} f)) := by
  unfold owns; simp only [Memref.view_whole, View.read_whole, View.set_whole]

/-- What the pipeline hands the body at the point: the region's precondition, what is owed, and the three staging
    buffers, the first two holding the device's argument arrays. -/
def bodyPre' (c : Dev nD) : sProp 𝕄 :=
  iprop(Φ₀ SND BLK c ∗ (dats SND BLK OUT m 0 c).owesAt () t₀.castSucc
    ∗ (∃ d, stg c cc0_stg0_0 ((dats SND BLK OUT m 0 c).before (0 : Fin 3) t₀ d))
    ∗ (∃ d, stg c cc0_stg1_0 ((dats SND BLK OUT m 0 c).before (1 : Fin 3) t₀ d))
    ∗ (∃ d, stg c cc0_stg2_0 ((dats SND BLK OUT m 0 c).before (2 : Fin 3) t₀ d)))

/-- The body lemma's statement, named: from the body's own precondition at any names K, on any device, the body runs
    to its postcondition. -/
def SoundBody : Prop :=
  ∀ (K : GSem nD τ sig → ℕ) (c : Dev nD) (Kt : PUnit → sProp 𝕄),
      iprop(bodyPre SND BLK OUT m K c ∗ (bodyPost SND BLK OUT m c -∗ Kt ⟨⟩))
        ⊢ wp frame (wpE (defs₀ (F := F)) 𝒱₀ c none) Set.univ
      (cc0_body (Memref.whole cc0_stg0_0) (Memref.isWhole_whole _) (Memref.whole cc0_stg1_0) (Memref.isWhole_whole _) (Memref.whole cc0_stg2_0) (Memref.isWhole_whole _)
        (Memref.whole cc0_scratch0) (Memref.isWhole_whole _) (Memref.whole cc0_scratch1) (Memref.isWhole_whole _) (Memref.whole cc0_scratch2) (Memref.isWhole_whole _)
        (Memref.whole cc0_scratch3) (Memref.isWhole_whole _) (Memref.whole cc0_scratch4) (Memref.isWhole_whole _)
        cc0_scratch5 cc0_scratch6 cc0_scratch7 cc0_scratch8 cc0_scratch9 cc0_scratch10) Kt

/-- The pipeline's body obligation on device c, from the body lemma. -/
theorem body_obligation_of
    (hsound : SoundBody SND BLK OUT m)
    (c : Dev nD) : BodyObligation (dats SND BLK OUT m 0 c) (defs₀ (F := F)) 𝒱₀ () Set.univ := fun t => by
  rw [fin_N t]
  rw [bigSep_W0, bigSep_W0]
  simp only [owns_whole_eq]
  show bodyPre' SND BLK OUT m c ⊢ wp frame (wpE (defs₀ (F := F)) 𝒱₀ c none) Set.univ
    (cc0_body (Memref.whole cc0_stg0_0) (Memref.isWhole_whole _) (Memref.whole cc0_stg1_0) (Memref.isWhole_whole _) (Memref.whole cc0_stg2_0) (Memref.isWhole_whole _)
        (Memref.whole cc0_scratch0) (Memref.isWhole_whole _) (Memref.whole cc0_scratch1) (Memref.isWhole_whole _) (Memref.whole cc0_scratch2) (Memref.isWhole_whole _)
        (Memref.whole cc0_scratch3) (Memref.isWhole_whole _) (Memref.whole cc0_scratch4) (Memref.isWhole_whole _)
        cc0_scratch5 cc0_scratch6 cc0_scratch7 cc0_scratch8 cc0_scratch9 cc0_scratch10) (fun _ => bodyPost SND BLK OUT m c)
  unfold bodyPre' Φ₀ start
  iintro ⟨⟨⟨⟨%K, Hg⟩, Hcr, Hlev⟩, Hscr⟩, Ho, Hx, Hdy, Hout⟩
  iapply (hsound K c fun _ => bodyPost SND BLK OUT m c)
  unfold bodyPre
  isplitr []
  · isplitl [Hg Hcr Hlev Hscr]
    · isplitl [Hg]; · iexact Hg
      isplitl [Hcr]; · iexact Hcr
      isplitl [Hlev]; · iexact Hlev
      iexact Hscr
    isplitl [Ho]; · iexact Ho
    isplitl [Hx]; · iexact Hx
    isplitl [Hdy]; · iexact Hdy
    iexact Hout
  · iintro H; iexact H

/-- The run, from the body lemma: every weakly fair execution of @main on the eight devices terminates, each device's
    result array ends at `OUT c` and its argument arrays are unchanged. -/
theorem run_out
    (hsound : SoundBody SND BLK OUT m)
    (ρ : Dev nD → PrngReg) :
    θ_run defs (onTc (τ := τ) (main (F := F))) ⟨m, fun _ => 0, ρ⟩ (fun r => ∀ c : Dev nD,
      r.2.mem ((c.tc : Thread nD τ).loc main_v1) = OUT c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  run_of_body SND BLK OUT m ρ (body_obligation_of SND BLK OUT m hsound)

/-- The frame: the run with the result dropped. -/
theorem frame_of_run
    (hsound : SoundBody SND BLK OUT m)
    (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => (h c).2) (run_out SND BLK OUT m hsound ρ)

end Assemble

/-- info: 'Cert.KernelIdeal.Coll.body_obligation_of' depends on axioms: [propext, Classical.choice, Quot.sound] -/
#guard_msgs in #print axioms body_obligation_of
/-- info: 'Cert.KernelIdeal.Coll.run_out' depends on axioms: [propext, Classical.choice, Quot.sound] -/
#guard_msgs in #print axioms run_out
/-- info: 'Cert.KernelIdeal.Coll.frame_of_run' depends on axioms: [propext, Classical.choice, Quot.sound] -/
#guard_msgs in #print axioms frame_of_run

end Cert.KernelIdeal.Coll

end
-- ==== Proof.Bits.Mesh.lean ====
/-
  The mesh of eight devices as a cube: a device's id is 4·x + 2·y + z over three binary coordinates, and
  each device talks to exactly three others — the one across each axis. The kernel computes those three ids
  by arithmetic over its own id; here each is identified with the coordinate flip it denotes.
-/
import proofs.«900594_g7700000000000595_dist_rsdw_v7x_xyz2x2x2_y_m512_d512_f2048_bf16_1_alg».proof.Proof.Gen.Kernel
import Idealize.ShloMosaic.Lib.Tactic

noncomputable section

namespace Cert.Kernel.Mesh

open Cert.Kernel Cert.Kernel.Gen
open Idealize.ShloMosaic Idealize.ShloMosaic.TcCoe Idealize.ShloMosaic.Tactic

/-- The neighbour across the x axis (the id's bit of weight 4 flipped). -/
def xp (c : Dev nD) : Dev nD := ⟨(c.val + 4) % 8, Nat.mod_lt _ (by decide)⟩
/-- The neighbour across the y axis (the bit of weight 2 flipped). -/
def yp (c : Dev nD) : Dev nD := ⟨4 * (c.val / 4) + (c.val + 2) % 4, by have h : c.val < 8 := c.isLt; show _ < 8; omega⟩
/-- The neighbour across the z axis (the bit of weight 1 flipped). -/
def zp (c : Dev nD) : Dev nD := ⟨2 * (c.val / 2) + (c.val + 1) % 2, by have h : c.val < 8 := c.isLt; show _ < 8; omega⟩

theorem xp_xp (c : Dev nD) : xp (xp c) = c := by revert c; decide
theorem yp_yp (c : Dev nD) : yp (yp c) = c := by revert c; decide
theorem zp_zp (c : Dev nD) : zp (zp c) = c := by revert c; decide
theorem xp_ne (c : Dev nD) : xp c ≠ c := by revert c; decide
theorem yp_ne (c : Dev nD) : yp c ≠ c := by revert c; decide
theorem zp_ne (c : Dev nD) : zp c ≠ c := by revert c; decide
theorem xp_ne_yp (c : Dev nD) : xp c ≠ yp c := by revert c; decide
theorem xp_ne_zp (c : Dev nD) : xp c ≠ zp c := by revert c; decide
theorem yp_ne_zp (c : Dev nD) : yp c ≠ zp c := by revert c; decide
theorem xp_zp (c : Dev nD) : xp (zp c) = zp (xp c) := by revert c; decide
theorem xp_yp (c : Dev nD) : xp (yp c) = yp (xp c) := by revert c; decide
theorem yp_zp (c : Dev nD) : yp (zp c) = zp (yp c) := by revert c; decide

def xE : Dev nD ≃ Dev nD := ⟨xp, xp, xp_xp, xp_xp⟩
def yE : Dev nD ≃ Dev nD := ⟨yp, yp, yp_yp, yp_yp⟩
def zE : Dev nD ≃ Dev nD := ⟨zp, zp, zp_zp, zp_zp⟩

/-- The closed forms of the three address computations. -/
theorem xval (c : Dev nD) : (2 * ((c.val / 2) % 2) + (c.val % 2) + 4) - 4 * (c.val / 4) = (xp c).val := by revert c; decide
theorem yval (c : Dev nD) : (4 * (c.val / 4) + (c.val % 2) + 2) - 2 * ((c.val / 2) % 2) = (yp c).val := by revert c; decide
theorem zval (c : Dev nD) : (4 * (c.val / 4) + 2 * ((c.val / 2) % 2) + 1) - (c.val % 2) = (zp c).val := by revert c; decide

/-- The kernel's nineteen device-id chains: the three entry signals (x, y, z), the six sends across y, then per
    reduced chunk the send across x (and, for the first two chunks, across z), and the two late sends across z. -/
@[sl_canon] theorem dev1_eq (c : Dev nD) : (⟨k0_dev1 c, k0_dev1_lt c⟩ : Dev nD) = xp c := Fin.ext ((k0_dev1_eq c).trans (xval c))
@[sl_canon] theorem dev2_eq (c : Dev nD) : (⟨k0_dev2 c, k0_dev2_lt c⟩ : Dev nD) = yp c := Fin.ext ((k0_dev2_eq c).trans (yval c))
@[sl_canon] theorem dev3_eq (c : Dev nD) : (⟨k0_dev3 c, k0_dev3_lt c⟩ : Dev nD) = zp c := Fin.ext ((k0_dev3_eq c).trans (zval c))
@[sl_canon] theorem dev4_eq (c : Dev nD) : (⟨k0_dev4 c, k0_dev4_lt c⟩ : Dev nD) = yp c := Fin.ext ((k0_dev4_eq c).trans (yval c))
@[sl_canon] theorem dev5_eq (c : Dev nD) : (⟨k0_dev5 c, k0_dev5_lt c⟩ : Dev nD) = yp c := Fin.ext ((k0_dev5_eq c).trans (yval c))
@[sl_canon] theorem dev6_eq (c : Dev nD) : (⟨k0_dev6 c, k0_dev6_lt c⟩ : Dev nD) = yp c := Fin.ext ((k0_dev6_eq c).trans (yval c))
@[sl_canon] theorem dev7_eq (c : Dev nD) : (⟨k0_dev7 c, k0_dev7_lt c⟩ : Dev nD) = yp c := Fin.ext ((k0_dev7_eq c).trans (yval c))
@[sl_canon] theorem dev8_eq (c : Dev nD) : (⟨k0_dev8 c, k0_dev8_lt c⟩ : Dev nD) = yp c := Fin.ext ((k0_dev8_eq c).trans (yval c))
@[sl_canon] theorem dev9_eq (c : Dev nD) : (⟨k0_dev9 c, k0_dev9_lt c⟩ : Dev nD) = yp c := Fin.ext ((k0_dev9_eq c).trans (yval c))
@[sl_canon] theorem dev10_eq (c : Dev nD) : (⟨k0_dev10 c, k0_dev10_lt c⟩ : Dev nD) = xp c := Fin.ext ((k0_dev10_eq c).trans (xval c))
@[sl_canon] theorem dev11_eq (c : Dev nD) : (⟨k0_dev11 c, k0_dev11_lt c⟩ : Dev nD) = zp c := Fin.ext ((k0_dev11_eq c).trans (zval c))
@[sl_canon] theorem dev12_eq (c : Dev nD) : (⟨k0_dev12 c, k0_dev12_lt c⟩ : Dev nD) = xp c := Fin.ext ((k0_dev12_eq c).trans (xval c))
@[sl_canon] theorem dev13_eq (c : Dev nD) : (⟨k0_dev13 c, k0_dev13_lt c⟩ : Dev nD) = zp c := Fin.ext ((k0_dev13_eq c).trans (zval c))
@[sl_canon] theorem dev14_eq (c : Dev nD) : (⟨k0_dev14 c, k0_dev14_lt c⟩ : Dev nD) = xp c := Fin.ext ((k0_dev14_eq c).trans (xval c))
@[sl_canon] theorem dev15_eq (c : Dev nD) : (⟨k0_dev15 c, k0_dev15_lt c⟩ : Dev nD) = xp c := Fin.ext ((k0_dev15_eq c).trans (xval c))
@[sl_canon] theorem dev16_eq (c : Dev nD) : (⟨k0_dev16 c, k0_dev16_lt c⟩ : Dev nD) = xp c := Fin.ext ((k0_dev16_eq c).trans (xval c))
@[sl_canon] theorem dev17_eq (c : Dev nD) : (⟨k0_dev17 c, k0_dev17_lt c⟩ : Dev nD) = xp c := Fin.ext ((k0_dev17_eq c).trans (xval c))
@[sl_canon] theorem dev18_eq (c : Dev nD) : (⟨k0_dev18 c, k0_dev18_lt c⟩ : Dev nD) = zp c := Fin.ext ((k0_dev18_eq c).trans (zval c))
@[sl_canon] theorem dev19_eq (c : Dev nD) : (⟨k0_dev19 c, k0_dev19_lt c⟩ : Dev nD) = zp c := Fin.ext ((k0_dev19_eq c).trans (zval c))

end Cert.Kernel.Mesh

end
-- ==== Proof.Bits.Cells.lean ====
import proofs.«900594_g7700000000000595_dist_rsdw_v7x_xyz2x2x2_y_m512_d512_f2048_bf16_1_alg».proof.Proof.Bits.Mesh
import proofs.«900594_g7700000000000595_dist_rsdw_v7x_xyz2x2x2_y_m512_d512_f2048_bf16_1_alg».proof.Proof.Gen.Kernel.Skeleton
import proofs.«900594_g7700000000000595_dist_rsdw_v7x_xyz2x2x2_y_m512_d512_f2048_bf16_1_alg».proof.Proof.Gen.Kernel.Frame
import Idealize.ShloMosaic.Lib.Pipeline.Launch
import Idealize.ShloMosaic.Lib.Pipeline.Kit
import Idealize.ShloMosaic.Lib.Tactic

noncomputable section

namespace Cert.Kernel.Coll

open Cert.Kernel Cert.Kernel.Gen Cert.Kernel.Mesh
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The algebra: the pipeline's copy beside the rounds library's, duties named by a device id

A barrier cell has three duties at its one round, one per neighbour, each named by the neighbour that pays it; every
DMA cell has the single duty named 0. -/

abbrev D3 : Type := Dev nD
abbrev UB : Type := URounds (GSem nD τ sig) D3
abbrev UU : Type := UR sig nD τ × UB
abbrev EP : Emb (UR sig nD τ) (MT nD τ sig Unit (Elt F) ℕ UU ℕ) := embL
abbrev ER : Emb UB (MT nD τ sig Unit (Elt F) ℕ UU ℕ) := embR
abbrev 𝒱₀ : Variants := Variants.none

/-! ## The semaphores -/

/-- The runtime's barrier semaphore of collective id 0. -/
abbrev barS : Sem sig := (SemArray.scalar (sig.barrier 0 rfl) : Sems sig S_).sem

theorem inb6 (j : Fin 6) : ∀ a, (![j.val] : Fin 1 → Nat) a + S1.size a ≤ S6.size a := by
  intro a; fin_cases a; have := j.isLt; simp [Shape.size]; omega
theorem inb4 (i : Fin 4) : ∀ a, (![i.val] : Fin 1 → Nat) a + S1.size a ≤ S4.size a := by
  intro a; fin_cases a; have := i.isLt; simp [Shape.size]; omega

/-- Entry j of a six-entry DMA-semaphore array, as the kernel slices it out. -/
abbrev sem6 (A : DmaSems sig S6) (j : Fin 6) : DmaSem sig :=
  ((SemArray.slice A (Rect.unit (s := S6) ![j.val] S1.size (inb6 j))).squeeze S_ squeezes_S1_S_).sem
abbrev sem4 (A : DmaSems sig S4) (i : Fin 4) : DmaSem sig :=
  ((SemArray.slice A (Rect.unit (s := S4) ![i.val] S1.size (inb4 i))).squeeze S_ squeezes_S1_S_).sem

/-- Send and receive semaphores of the six copies across y, the six across x and the four across z. -/
abbrev ysS (j : Fin 6) : DmaSem sig := sem6 cc0_scratch5 j
abbrev yrS (j : Fin 6) : DmaSem sig := sem6 cc0_scratch6 j
abbrev xsS (j : Fin 6) : DmaSem sig := sem6 cc0_scratch7 j
abbrev xrS (j : Fin 6) : DmaSem sig := sem6 cc0_scratch8 j
abbrev zsS (i : Fin 4) : DmaSem sig := sem4 cc0_scratch9 i
abbrev zrS (i : Fin 4) : DmaSem sig := sem4 cc0_scratch10 i

abbrev barCell (c : Dev nD) : GSem nD τ sig := ((c : Thread nD τ), .reg barS)
abbrev ysCell (c : Dev nD) (j : Fin 6) : GSem nD τ sig := ((c : Thread nD τ), .dma (ysS j))
abbrev yrCell (c : Dev nD) (j : Fin 6) : GSem nD τ sig := ((c : Thread nD τ), .dma (yrS j))
abbrev xsCell (c : Dev nD) (j : Fin 6) : GSem nD τ sig := ((c : Thread nD τ), .dma (xsS j))
abbrev xrCell (c : Dev nD) (j : Fin 6) : GSem nD τ sig := ((c : Thread nD τ), .dma (xrS j))
abbrev zsCell (c : Dev nD) (i : Fin 4) : GSem nD τ sig := ((c : Thread nD τ), .dma (zsS i))
abbrev zrCell (c : Dev nD) (i : Fin 4) : GSem nD τ sig := ((c : Thread nD τ), .dma (zrS i))

theorem ysS_val (j : Fin 6) : (ysS j).val = 3 + j.val := by fin_cases j <;> rfl
theorem yrS_val (j : Fin 6) : (yrS j).val = 9 + j.val := by fin_cases j <;> rfl
theorem xsS_val (j : Fin 6) : (xsS j).val = 15 + j.val := by fin_cases j <;> rfl
theorem xrS_val (j : Fin 6) : (xrS j).val = 21 + j.val := by fin_cases j <;> rfl
theorem zsS_val (i : Fin 4) : (zsS i).val = 27 + i.val := by fin_cases i <;> rfl
theorem zrS_val (i : Fin 4) : (zrS i).val = 31 + i.val := by fin_cases i <;> rfl

/-! ## The scratch buffers and their slots -/

abbrev sndM : Memref sig .tc .vmem S6x256x128 .bf16 := Memref.whole cc0_scratch1
abbrev rcvM : Memref sig .tc .vmem S6x256x128 .bf16 := Memref.whole cc0_scratch2
abbrev blkM : Memref sig .tc .vmem S16x256x128 .bf16 := Memref.whole cc0_scratch4

theorem inb6s (j : Fin 6) : ∀ a, (![j.val, 0, 0] : Fin 3 → Nat) a + S1x256x128.size a ≤ S6x256x128.size a := by
  intro a; fin_cases a <;> (have := j.isLt; simp [Shape.size]) <;> omega
theorem inb16s (s : Fin 16) : ∀ a, (![s.val, 0, 0] : Fin 3 → Nat) a + S1x256x128.size a ≤ S16x256x128.size a := by
  intro a; fin_cases a <;> (have := s.isLt; simp [Shape.size]) <;> omega

/-- Slot j of a [6, 256, 128] buffer as the [256, 128] memref the kernel's copies name. -/
abbrev slot6 (M : Memref sig .tc .vmem S6x256x128 .bf16) (j : Fin 6) : Memref sig .tc .vmem S256x128 .bf16 :=
  (M.slice (Rect.unit (s := S6x256x128) ![j.val, 0, 0] S1x256x128.size (inb6s j)) (fun _ => rfl)).squeeze S256x128 squeezes_S1x256x128_S256x128
/-- Slot s of the [16, 256, 128] block buffer. -/
abbrev slot16 (s : Fin 16) : Memref sig .tc .vmem S256x128 .bf16 :=
  (blkM.slice (Rect.unit (s := S16x256x128) ![s.val, 0, 0] S1x256x128.size (inb16s s)) (fun _ => rfl)).squeeze S256x128 squeezes_S1x256x128_S256x128

end Cert.Kernel.Coll

end
-- ==== Proof.Bits.Sched.lean ====
import proofs.«900594_g7700000000000595_dist_rsdw_v7x_xyz2x2x2_y_m512_d512_f2048_bf16_1_alg».proof.Proof.Bits.Mesh
import proofs.«900594_g7700000000000595_dist_rsdw_v7x_xyz2x2x2_y_m512_d512_f2048_bf16_1_alg».proof.Proof.Gen.Kernel.Skeleton
import proofs.«900594_g7700000000000595_dist_rsdw_v7x_xyz2x2x2_y_m512_d512_f2048_bf16_1_alg».proof.Proof.Gen.Kernel.Frame
import proofs.«900594_g7700000000000595_dist_rsdw_v7x_xyz2x2x2_y_m512_d512_f2048_bf16_1_alg».proof.Proof.Bits.Cells
import Idealize.ShloMosaic.Lib.Pipeline.Launch
import Idealize.ShloMosaic.Lib.Pipeline.Kit
import Idealize.ShloMosaic.Lib.Tactic

noncomputable section

namespace Cert.Kernel.Coll

open Cert.Kernel Cert.Kernel.Gen Cert.Kernel.Mesh
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## Slots of the block buffer at a computed index -/

theorem inbN (n : ℕ) (h : n < 16) : ∀ a, (![n, 0, 0] : Fin 3 → Nat) a + S1x256x128.size a ≤ S16x256x128.size a := by
  intro a; fin_cases a <;> simp [Shape.size] <;> omega
/-- Slot n of the block buffer, n any natural number below sixteen. -/
abbrev slotN (n : ℕ) (h : n < 16) : Memref sig .tc .vmem S256x128 .bf16 :=
  (blkM.slice (Rect.unit (s := S16x256x128) ![n, 0, 0] S1x256x128.size (inbN n h)) (fun _ => rfl)).squeeze S256x128 squeezes_S1x256x128_S256x128

theorem z2 (c : Dev nD) : c.val % 2 < 2 := Nat.mod_lt _ (by decide)

/-- The parity-dependent slots of device c: its own two reduced chunks (w = 0, 1), where its x neighbour's copies of
    them land, and where its z neighbour's two chunks and their x copies land. -/
abbrev ownA (c : Dev nD) (w : Fin 2) : Memref sig .tc .vmem S256x128 .bf16 := slotN (2 * (c.val % 2) + w.val) (by have := z2 c; have := w.isLt; omega)
abbrev xinA (c : Dev nD) (w : Fin 2) : Memref sig .tc .vmem S256x128 .bf16 := slotN (2 * (c.val % 2) + w.val + 8) (by have := z2 c; have := w.isLt; omega)
abbrev zinA (c : Dev nD) (w : Fin 2) : Memref sig .tc .vmem S256x128 .bf16 := slotN ((w.val + 2) - 2 * (c.val % 2)) (by have := z2 c; have := w.isLt; omega)
abbrev zinB (c : Dev nD) (w : Fin 2) : Memref sig .tc .vmem S256x128 .bf16 := slotN ((w.val + 10) - 2 * (c.val % 2)) (by have := z2 c; have := w.isLt; omega)
/-- The parity-independent slots: own chunks 4 to 7 (k = 0..3) and where the x neighbour's copies of them land. -/
abbrev ownB (k : Fin 4) : Memref sig .tc .vmem S256x128 .bf16 := slotN (4 + k.val) (by have := k.isLt; omega)
abbrev xinB (k : Fin 4) : Memref sig .tc .vmem S256x128 .bf16 := slotN (12 + k.val) (by have := k.isLt; omega)

/-- A slot held through its view, at a share, at whole-buffer contents f (only the slot's elements matter). -/
abbrev holds (c : Dev nD) (M : Memref sig .tc .vmem S256x128 .bf16) (q : PosShare TreeShare) (f : Buf (Elt F) (M.view.loc (c : Thread nD τ))) : sProp 𝕄 :=
  M.view.loc (c : Thread nD τ) ↦[M.view.set]{q} f
abbrev some_ (c : Dev nD) (M : Memref sig .tc .vmem S256x128 .bf16) : sProp 𝕄 :=
  iprop(∃ f : Buf (Elt F) (M.view.loc (c : Thread nD τ)), M.view.loc (c : Thread nD τ) ↦[M.view.set]{fullShare} f)
abbrev someQ (c : Dev nD) (M : Memref sig .tc .vmem S256x128 .bf16) (q : PosShare TreeShare) : sProp 𝕄 :=
  iprop(∃ f : Buf (Elt F) (M.view.loc (c : Thread nD τ)), M.view.loc (c : Thread nD τ) ↦[M.view.set]{q} f)

section Sched

-- The canonical final contents of the send buffer and of the block buffer on each device.
variable (SND : Dev nD → (cc0_scratch1 : Ref sig .tc).ty.Contents (Elt F)) (BLK : Dev nD → (cc0_scratch4 : Ref sig .tc).ty.Contents (Elt F))

/-- What a neighbour hands over with its entry signal: the slots its peer's copies will land in, and that each of
    their receive cells has reached its one round. -/
def PX (p : Dev nD) : sProp 𝕄 :=
  iprop(some_ p (xinA p 0) ∗ some_ p (xinA p 1) ∗ some_ p (xinB 0) ∗ some_ p (xinB 1) ∗ some_ p (xinB 2) ∗ some_ p (xinB 3)
    ∗ reached ER (xrCell p 0) 0 ∗ reached ER (xrCell p 1) 0 ∗ reached ER (xrCell p 2) 0 ∗ reached ER (xrCell p 3) 0 ∗ reached ER (xrCell p 4) 0 ∗ reached ER (xrCell p 5) 0)
def PY (p : Dev nD) : sProp 𝕄 :=
  iprop(some_ p (slot6 rcvM 0) ∗ some_ p (slot6 rcvM 1) ∗ some_ p (slot6 rcvM 2) ∗ some_ p (slot6 rcvM 3) ∗ some_ p (slot6 rcvM 4) ∗ some_ p (slot6 rcvM 5)
    ∗ reached ER (yrCell p 0) 0 ∗ reached ER (yrCell p 1) 0 ∗ reached ER (yrCell p 2) 0 ∗ reached ER (yrCell p 3) 0 ∗ reached ER (yrCell p 4) 0 ∗ reached ER (yrCell p 5) 0)
def PZ (p : Dev nD) : sProp 𝕄 :=
  iprop(some_ p (zinA p 0) ∗ some_ p (zinA p 1) ∗ some_ p (zinB p 0) ∗ some_ p (zinB p 1)
    ∗ reached ER (zrCell p 0) 0 ∗ reached ER (zrCell p 1) 0 ∗ reached ER (zrCell p 2) 0 ∗ reached ER (zrCell p 3) 0)

set_option maxHeartbeats 4000000 in
/-- The payload of the one duty of DMA semaphore number n on device c: a send cell gives the source slot back at the
    share it was lent at; a receive cell gives the landing slot holding what was sent. -/
def dmaPay (c : Dev nD) (n : ℕ) : sProp 𝕄 :=
  if h : 3 ≤ n ∧ n < 9 then some_ c (slot6 sndM ⟨n - 3, by omega⟩)
  else if h : 9 ≤ n ∧ n < 15 then holds c (slot6 rcvM ⟨n - 9, by omega⟩) fullShare (SND (yp c))
  else if h : 15 ≤ n ∧ n < 17 then someQ c (ownA c ⟨n - 15, by omega⟩) fullShare.left
  else if h : 17 ≤ n ∧ n < 21 then some_ c (ownB ⟨n - 17, by omega⟩)
  else if h : 21 ≤ n ∧ n < 23 then holds c (xinA c ⟨n - 21, by omega⟩) fullShare (BLK c)
  else if h : 23 ≤ n ∧ n < 27 then holds c (xinB ⟨n - 23, by omega⟩) fullShare (BLK c)
  else if h : 27 ≤ n ∧ n < 29 then someQ c (ownA c ⟨n - 27, by omega⟩) fullShare.right
  else if h : 29 ≤ n ∧ n < 31 then someQ c (xinA c ⟨n - 29, by omega⟩) fullShare.left
  else if h : 31 ≤ n ∧ n < 33 then holds c (zinA c ⟨n - 31, by omega⟩) fullShare (BLK c)
  else if h : 33 ≤ n ∧ n < 35 then holds c (zinB c ⟨n - 33, by omega⟩) fullShare (BLK c)
  else iprop(emp)

/-- Every copy moves one [256, 128] slot of bf16: the units one such copy credits. -/
abbrev Ny : ℕ := (slot6 rcvM 0).view.dmaCredit
abbrev Nb : ℕ := (slotN 0 (by decide)).view.dmaCredit

/-- One round. A barrier cell: three duties of one unit, each named by the neighbour that pays it and handing over that
    neighbour's landing slots. A DMA cell of the kernel: one duty of a slot's credit. -/
def Rd : Rounds.Schedule (GSem nD τ sig) D3 𝕄 where
  duties g r := if r = 0 ∧ g.1.2 = .tc then (match g.2 with | .reg _ => {xp g.1.1, yp g.1.1, zp g.1.1} | .dma q => if 3 ≤ q.val then {0} else ∅) else ∅
  unitless _ := False
  amount g _ _ := match g.2 with | .reg _ => 1 | .dma q => if q.val < 15 then Ny else Nb
  payload g _ d := match g.2 with
    | .reg _ => if d = xp g.1.1 then PX d else if d = yp g.1.1 then PY d else PZ d
    | .dma q => dmaPay SND BLK g.1.1 q.val
  amount_pos g _ _ _ := by
    cases g.2 with
    | reg _ => exact Nat.one_pos
    | dma q => dsimp only; split <;> exact View.dmaCredit_pos _ (by decide)

end Sched

end Cert.Kernel.Coll

end
-- ==== Proof.Bits.Ghost.lean ====
import proofs.«900594_g7700000000000595_dist_rsdw_v7x_xyz2x2x2_y_m512_d512_f2048_bf16_1_alg».proof.Proof.Bits.Mesh
import proofs.«900594_g7700000000000595_dist_rsdw_v7x_xyz2x2x2_y_m512_d512_f2048_bf16_1_alg».proof.Proof.Gen.Kernel.Skeleton
import proofs.«900594_g7700000000000595_dist_rsdw_v7x_xyz2x2x2_y_m512_d512_f2048_bf16_1_alg».proof.Proof.Gen.Kernel.Frame
import proofs.«900594_g7700000000000595_dist_rsdw_v7x_xyz2x2x2_y_m512_d512_f2048_bf16_1_alg».proof.Proof.Bits.Sched
import Idealize.ShloMosaic.Lib.Pipeline.Launch
import Idealize.ShloMosaic.Lib.Pipeline.Kit
import Idealize.ShloMosaic.Lib.Tactic

noncomputable section

namespace Cert.Kernel.Coll

open Cert.Kernel Cert.Kernel.Gen Cert.Kernel.Mesh
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

section Tables
variable (SND : Dev nD → (cc0_scratch1 : Ref sig .tc).ty.Contents (Elt F)) (BLK : Dev nD → (cc0_scratch4 : Ref sig .tc).ty.Contents (Elt F))

theorem duties_bar (c : Dev nD) : (Rd (F := F) SND BLK).duties (barCell c) 0 = {xp c, yp c, zp c} := by
  dsimp only [Rd]; rw [if_pos ⟨rfl, rfl⟩]
theorem duties_ys (c : Dev nD) (j : Fin 6) : (Rd (F := F) SND BLK).duties (ysCell c j) 0 = {0} := by
  dsimp only [Rd]; rw [if_pos ⟨rfl, rfl⟩]; rw [if_pos (by rw [ysS_val]; omega)]
theorem duties_yr (c : Dev nD) (j : Fin 6) : (Rd (F := F) SND BLK).duties (yrCell c j) 0 = {0} := by
  dsimp only [Rd]; rw [if_pos ⟨rfl, rfl⟩]; rw [if_pos (by rw [yrS_val]; omega)]
theorem duties_xs (c : Dev nD) (j : Fin 6) : (Rd (F := F) SND BLK).duties (xsCell c j) 0 = {0} := by
  dsimp only [Rd]; rw [if_pos ⟨rfl, rfl⟩]; rw [if_pos (by rw [xsS_val]; omega)]
theorem duties_xr (c : Dev nD) (j : Fin 6) : (Rd (F := F) SND BLK).duties (xrCell c j) 0 = {0} := by
  dsimp only [Rd]; rw [if_pos ⟨rfl, rfl⟩]; rw [if_pos (by rw [xrS_val]; omega)]
theorem duties_zs (c : Dev nD) (i : Fin 4) : (Rd (F := F) SND BLK).duties (zsCell c i) 0 = {0} := by
  dsimp only [Rd]; rw [if_pos ⟨rfl, rfl⟩]; rw [if_pos (by rw [zsS_val]; omega)]
theorem duties_zr (c : Dev nD) (i : Fin 4) : (Rd (F := F) SND BLK).duties (zrCell c i) 0 = {0} := by
  dsimp only [Rd]; rw [if_pos ⟨rfl, rfl⟩]; rw [if_pos (by rw [zrS_val]; omega)]

theorem amount_bar (c : Dev nD) (d : D3) : (Rd (F := F) SND BLK).amount (barCell c) 0 d = 1 := rfl
theorem amount_ys (c : Dev nD) (j : Fin 6) (d : D3) : (Rd (F := F) SND BLK).amount (ysCell c j) 0 d = Ny := by
  dsimp only [Rd]; rw [if_pos (by rw [ysS_val]; omega)]
theorem amount_yr (c : Dev nD) (j : Fin 6) (d : D3) : (Rd (F := F) SND BLK).amount (yrCell c j) 0 d = Ny := by
  dsimp only [Rd]; rw [if_pos (by rw [yrS_val]; omega)]
theorem amount_xs (c : Dev nD) (j : Fin 6) (d : D3) : (Rd (F := F) SND BLK).amount (xsCell c j) 0 d = Nb := by
  dsimp only [Rd]; rw [if_neg (by rw [xsS_val]; omega)]
theorem amount_xr (c : Dev nD) (j : Fin 6) (d : D3) : (Rd (F := F) SND BLK).amount (xrCell c j) 0 d = Nb := by
  dsimp only [Rd]; rw [if_neg (by rw [xrS_val]; omega)]
theorem amount_zs (c : Dev nD) (i : Fin 4) (d : D3) : (Rd (F := F) SND BLK).amount (zsCell c i) 0 d = Nb := by
  dsimp only [Rd]; rw [if_neg (by rw [zsS_val]; omega)]
theorem amount_zr (c : Dev nD) (i : Fin 4) (d : D3) : (Rd (F := F) SND BLK).amount (zrCell c i) 0 d = Nb := by
  dsimp only [Rd]; rw [if_neg (by rw [zrS_val]; omega)]

theorem expect_bar (c : Dev nD) : (Rd (F := F) SND BLK).expect (barCell c) 0 = 3 := by
  unfold Schedule.expect Schedule.amountOf
  rw [duties_bar, Finset.sum_congr rfl fun d _ => amount_bar SND BLK c d, Finset.sum_const, smul_eq_mul, mul_one]
  revert c; decide
theorem expect_ys (c : Dev nD) (j : Fin 6) : (Rd (F := F) SND BLK).expect (ysCell c j) 0 = Ny := by
  unfold Schedule.expect Schedule.amountOf; rw [duties_ys, Finset.sum_singleton, amount_ys]
theorem expect_yr (c : Dev nD) (j : Fin 6) : (Rd (F := F) SND BLK).expect (yrCell c j) 0 = Ny := by
  unfold Schedule.expect Schedule.amountOf; rw [duties_yr, Finset.sum_singleton, amount_yr]
theorem expect_xs (c : Dev nD) (j : Fin 6) : (Rd (F := F) SND BLK).expect (xsCell c j) 0 = Nb := by
  unfold Schedule.expect Schedule.amountOf; rw [duties_xs, Finset.sum_singleton, amount_xs]
theorem expect_xr (c : Dev nD) (j : Fin 6) : (Rd (F := F) SND BLK).expect (xrCell c j) 0 = Nb := by
  unfold Schedule.expect Schedule.amountOf; rw [duties_xr, Finset.sum_singleton, amount_xr]
theorem expect_zs (c : Dev nD) (i : Fin 4) : (Rd (F := F) SND BLK).expect (zsCell c i) 0 = Nb := by
  unfold Schedule.expect Schedule.amountOf; rw [duties_zs, Finset.sum_singleton, amount_zs]
theorem expect_zr (c : Dev nD) (i : Fin 4) : (Rd (F := F) SND BLK).expect (zrCell c i) 0 = Nb := by
  unfold Schedule.expect Schedule.amountOf; rw [duties_zr, Finset.sum_singleton, amount_zr]

theorem yp_ne_xp (c : Dev nD) : yp c ≠ xp c := by revert c; decide
theorem zp_ne_xp (c : Dev nD) : zp c ≠ xp c := by revert c; decide
theorem zp_ne_yp (c : Dev nD) : zp c ≠ yp c := by revert c; decide
/-- What the owner of a barrier cell receives with each neighbour's unit. -/
theorem payload_bar_wx (c : Dev nD) : (Rd (F := F) SND BLK).payload (barCell c) 0 (xp c) = PX (xp c) := by dsimp only [Rd]; rw [if_pos rfl]
theorem payload_bar_wy (c : Dev nD) : (Rd (F := F) SND BLK).payload (barCell c) 0 (yp c) = PY (yp c) := by dsimp only [Rd]; rw [if_neg (yp_ne_xp c), if_pos rfl]
theorem payload_bar_wz (c : Dev nD) : (Rd (F := F) SND BLK).payload (barCell c) 0 (zp c) = PZ (zp c) := by dsimp only [Rd]; rw [if_neg (zp_ne_xp c), if_neg (zp_ne_yp c)]
/-- What a device hands each neighbour with its entry signal: its own landing slots. -/
theorem payload_bar_sx (c : Dev nD) : (Rd (F := F) SND BLK).payload (barCell (xp c)) 0 c = PX c := by dsimp only [Rd]; rw [if_pos (xp_xp c).symm]
theorem payload_bar_sy (c : Dev nD) : (Rd (F := F) SND BLK).payload (barCell (yp c)) 0 c = PY c := by
  dsimp only [Rd]; rw [if_neg (by revert c; decide), if_pos (yp_yp c).symm]
theorem payload_bar_sz (c : Dev nD) : (Rd (F := F) SND BLK).payload (barCell (zp c)) 0 c = PZ c := by
  dsimp only [Rd]; rw [if_neg (by revert c; decide), if_neg (by revert c; decide)]

theorem payload_ys (c : Dev nD) (j : Fin 6) : (Rd (F := F) SND BLK).payload (ysCell c j) 0 0 = some_ c (slot6 sndM j) := by fin_cases j <;> rfl
theorem payload_yr (c : Dev nD) (j : Fin 6) : (Rd (F := F) SND BLK).payload (yrCell c j) 0 0 = holds c (slot6 rcvM j) fullShare (SND (yp c)) := by fin_cases j <;> rfl
theorem payload_xsA (c : Dev nD) (w : Fin 2) : (Rd (F := F) SND BLK).payload (xsCell c ⟨w.val, by omega⟩) 0 0 = someQ c (ownA c w) fullShare.left := by fin_cases w <;> rfl
theorem payload_xsB (c : Dev nD) (k : Fin 4) : (Rd (F := F) SND BLK).payload (xsCell c ⟨k.val + 2, by omega⟩) 0 0 = some_ c (ownB k) := by fin_cases k <;> rfl
theorem payload_xrA (c : Dev nD) (w : Fin 2) : (Rd (F := F) SND BLK).payload (xrCell c ⟨w.val, by omega⟩) 0 0 = holds c (xinA c w) fullShare (BLK c) := by fin_cases w <;> rfl
theorem payload_xrB (c : Dev nD) (k : Fin 4) : (Rd (F := F) SND BLK).payload (xrCell c ⟨k.val + 2, by omega⟩) 0 0 = holds c (xinB k) fullShare (BLK c) := by fin_cases k <;> rfl
theorem payload_zsA (c : Dev nD) (w : Fin 2) : (Rd (F := F) SND BLK).payload (zsCell c ⟨w.val, by omega⟩) 0 0 = someQ c (ownA c w) fullShare.right := by fin_cases w <;> rfl
theorem payload_zsB (c : Dev nD) (w : Fin 2) : (Rd (F := F) SND BLK).payload (zsCell c ⟨w.val + 2, by omega⟩) 0 0 = someQ c (xinA c w) fullShare.left := by fin_cases w <;> rfl
theorem payload_zrA (c : Dev nD) (w : Fin 2) : (Rd (F := F) SND BLK).payload (zrCell c ⟨w.val, by omega⟩) 0 0 = holds c (zinA c w) fullShare (BLK c) := by fin_cases w <;> rfl
theorem payload_zrB (c : Dev nD) (w : Fin 2) : (Rd (F := F) SND BLK).payload (zrCell c ⟨w.val + 2, by omega⟩) 0 0 = holds c (zinB c w) fullShare (BLK c) := by fin_cases w <;> rfl

end Tables

/-! ## What each device owes at launch; the levels -/

/-- Device c owes each neighbour's barrier cell one unit, and the receive cell of each of its sixteen copies a slot's
    credit: six across y, six across x, four across z. The summands stand in the reverse of the order the body pays
    them in, so that each payment takes the last one off. -/
def O₀ (c : Dev nD) : CellTallies nD τ sig Unit :=
  tallyAt (zrCell (zp c) 3) () Nb
    + tallyAt (zrCell (zp c) 2) () Nb
    + tallyAt (xrCell (xp c) 5) () Nb
    + tallyAt (xrCell (xp c) 4) () Nb
    + tallyAt (xrCell (xp c) 3) () Nb
    + tallyAt (xrCell (xp c) 2) () Nb
    + tallyAt (zrCell (zp c) 1) () Nb
    + tallyAt (xrCell (xp c) 1) () Nb
    + tallyAt (zrCell (zp c) 0) () Nb
    + tallyAt (xrCell (xp c) 0) () Nb
    + tallyAt (yrCell (yp c) 5) () Ny
    + tallyAt (yrCell (yp c) 4) () Ny
    + tallyAt (yrCell (yp c) 3) () Ny
    + tallyAt (yrCell (yp c) 2) () Ny
    + tallyAt (yrCell (yp c) 1) () Ny
    + tallyAt (yrCell (yp c) 0) () Ny
    + tallyAt (barCell (zp c)) () 1
    + tallyAt (barCell (yp c)) () 1
    + tallyAt (barCell (xp c)) () 1

def L (g : GSem nD τ sig) : Finset Unit := if g.1.2 = .tc then {()} else ∅
/-- Barrier cells at 1; receive cells across y at 2, across x at 3, across z at 4; everything else (staging, send) at 0:
    a device waits on a cell only while what it still owes lies strictly above it. -/
def lv (g : GSem nD τ sig) (_ : Unit) : ℕ :=
  match g.2 with
  | .reg _ => 1
  | .dma q => if 9 ≤ q.val ∧ q.val < 15 then 2 else if 21 ≤ q.val ∧ q.val < 27 then 3 else if 31 ≤ q.val then 4 else 0

theorem L_of_ne (g : GSem nD τ sig) (h : g.1.2 ≠ .tc) : L g = ∅ := if_neg h
theorem L_tc (c : Dev nD) (sm : SemLoc sig) : L ((c : Thread nD τ), sm) = {()} := if_pos rfl

section Ghost
variable (SND : Dev nD → (cc0_scratch1 : Ref sig .tc).ty.Contents (Elt F)) (BLK : Dev nD → (cc0_scratch4 : Ref sig .tc).ty.Contents (Elt F))
  (OUT : Dev nD → (cc0_stg2_0 : Ref sig .tc).ty.Contents (Elt F))

/-- The invariants device c's body opens, at the names K: its own thirty-three cells, its three neighbours' barrier
    cells (its signals) and the receive cells of its sixteen copies. -/
def invs (K : GSem nD τ sig → ℕ) (c : Dev nD) : sProp 𝕄 :=
  iprop(cellInv ER (Rd SND BLK) (K (barCell c)) (barCell c)
    ∗ cellInv ER (Rd SND BLK) (K (barCell (xp c))) (barCell (xp c))
    ∗ cellInv ER (Rd SND BLK) (K (barCell (yp c))) (barCell (yp c))
    ∗ cellInv ER (Rd SND BLK) (K (barCell (zp c))) (barCell (zp c))
    ∗ cellInv ER (Rd SND BLK) (K (ysCell c 0)) (ysCell c 0)
    ∗ cellInv ER (Rd SND BLK) (K (ysCell c 1)) (ysCell c 1)
    ∗ cellInv ER (Rd SND BLK) (K (ysCell c 2)) (ysCell c 2)
    ∗ cellInv ER (Rd SND BLK) (K (ysCell c 3)) (ysCell c 3)
    ∗ cellInv ER (Rd SND BLK) (K (ysCell c 4)) (ysCell c 4)
    ∗ cellInv ER (Rd SND BLK) (K (ysCell c 5)) (ysCell c 5)
    ∗ cellInv ER (Rd SND BLK) (K (yrCell c 0)) (yrCell c 0)
    ∗ cellInv ER (Rd SND BLK) (K (yrCell c 1)) (yrCell c 1)
    ∗ cellInv ER (Rd SND BLK) (K (yrCell c 2)) (yrCell c 2)
    ∗ cellInv ER (Rd SND BLK) (K (yrCell c 3)) (yrCell c 3)
    ∗ cellInv ER (Rd SND BLK) (K (yrCell c 4)) (yrCell c 4)
    ∗ cellInv ER (Rd SND BLK) (K (yrCell c 5)) (yrCell c 5)
    ∗ cellInv ER (Rd SND BLK) (K (yrCell (yp c) 0)) (yrCell (yp c) 0)
    ∗ cellInv ER (Rd SND BLK) (K (yrCell (yp c) 1)) (yrCell (yp c) 1)
    ∗ cellInv ER (Rd SND BLK) (K (yrCell (yp c) 2)) (yrCell (yp c) 2)
    ∗ cellInv ER (Rd SND BLK) (K (yrCell (yp c) 3)) (yrCell (yp c) 3)
    ∗ cellInv ER (Rd SND BLK) (K (yrCell (yp c) 4)) (yrCell (yp c) 4)
    ∗ cellInv ER (Rd SND BLK) (K (yrCell (yp c) 5)) (yrCell (yp c) 5)
    ∗ cellInv ER (Rd SND BLK) (K (xsCell c 0)) (xsCell c 0)
    ∗ cellInv ER (Rd SND BLK) (K (xsCell c 1)) (xsCell c 1)
    ∗ cellInv ER (Rd SND BLK) (K (xsCell c 2)) (xsCell c 2)
    ∗ cellInv ER (Rd SND BLK) (K (xsCell c 3)) (xsCell c 3)
    ∗ cellInv ER (Rd SND BLK) (K (xsCell c 4)) (xsCell c 4)
    ∗ cellInv ER (Rd SND BLK) (K (xsCell c 5)) (xsCell c 5)
    ∗ cellInv ER (Rd SND BLK) (K (xrCell c 0)) (xrCell c 0)
    ∗ cellInv ER (Rd SND BLK) (K (xrCell c 1)) (xrCell c 1)
    ∗ cellInv ER (Rd SND BLK) (K (xrCell c 2)) (xrCell c 2)
    ∗ cellInv ER (Rd SND BLK) (K (xrCell c 3)) (xrCell c 3)
    ∗ cellInv ER (Rd SND BLK) (K (xrCell c 4)) (xrCell c 4)
    ∗ cellInv ER (Rd SND BLK) (K (xrCell c 5)) (xrCell c 5)
    ∗ cellInv ER (Rd SND BLK) (K (xrCell (xp c) 0)) (xrCell (xp c) 0)
    ∗ cellInv ER (Rd SND BLK) (K (xrCell (xp c) 1)) (xrCell (xp c) 1)
    ∗ cellInv ER (Rd SND BLK) (K (xrCell (xp c) 2)) (xrCell (xp c) 2)
    ∗ cellInv ER (Rd SND BLK) (K (xrCell (xp c) 3)) (xrCell (xp c) 3)
    ∗ cellInv ER (Rd SND BLK) (K (xrCell (xp c) 4)) (xrCell (xp c) 4)
    ∗ cellInv ER (Rd SND BLK) (K (xrCell (xp c) 5)) (xrCell (xp c) 5)
    ∗ cellInv ER (Rd SND BLK) (K (zsCell c 0)) (zsCell c 0)
    ∗ cellInv ER (Rd SND BLK) (K (zsCell c 1)) (zsCell c 1)
    ∗ cellInv ER (Rd SND BLK) (K (zsCell c 2)) (zsCell c 2)
    ∗ cellInv ER (Rd SND BLK) (K (zsCell c 3)) (zsCell c 3)
    ∗ cellInv ER (Rd SND BLK) (K (zrCell c 0)) (zrCell c 0)
    ∗ cellInv ER (Rd SND BLK) (K (zrCell c 1)) (zrCell c 1)
    ∗ cellInv ER (Rd SND BLK) (K (zrCell c 2)) (zrCell c 2)
    ∗ cellInv ER (Rd SND BLK) (K (zrCell c 3)) (zrCell c 3)
    ∗ cellInv ER (Rd SND BLK) (K (zrCell (zp c) 0)) (zrCell (zp c) 0)
    ∗ cellInv ER (Rd SND BLK) (K (zrCell (zp c) 1)) (zrCell (zp c) 1)
    ∗ cellInv ER (Rd SND BLK) (K (zrCell (zp c) 2)) (zrCell (zp c) 2)
    ∗ cellInv ER (Rd SND BLK) (K (zrCell (zp c) 3)) (zrCell (zp c) 3))

instance invs_persistent (K : GSem nD τ sig → ℕ) (c : Dev nD) : BI.Persistent (invs SND BLK K c) := by unfold invs; infer_instance

/-- That the one round of each cell device c pays into, or hands over, is reached. -/
def marks (c : Dev nD) : sProp 𝕄 :=
  iprop(reached ER (barCell (xp c)) 0
    ∗ reached ER (barCell (yp c)) 0
    ∗ reached ER (barCell (zp c)) 0
    ∗ reached ER (ysCell c 0) 0
    ∗ reached ER (ysCell c 1) 0
    ∗ reached ER (ysCell c 2) 0
    ∗ reached ER (ysCell c 3) 0
    ∗ reached ER (ysCell c 4) 0
    ∗ reached ER (ysCell c 5) 0
    ∗ reached ER (yrCell c 0) 0
    ∗ reached ER (yrCell c 1) 0
    ∗ reached ER (yrCell c 2) 0
    ∗ reached ER (yrCell c 3) 0
    ∗ reached ER (yrCell c 4) 0
    ∗ reached ER (yrCell c 5) 0
    ∗ reached ER (xsCell c 0) 0
    ∗ reached ER (xsCell c 1) 0
    ∗ reached ER (xsCell c 2) 0
    ∗ reached ER (xsCell c 3) 0
    ∗ reached ER (xsCell c 4) 0
    ∗ reached ER (xsCell c 5) 0
    ∗ reached ER (xrCell c 0) 0
    ∗ reached ER (xrCell c 1) 0
    ∗ reached ER (xrCell c 2) 0
    ∗ reached ER (xrCell c 3) 0
    ∗ reached ER (xrCell c 4) 0
    ∗ reached ER (xrCell c 5) 0
    ∗ reached ER (zsCell c 0) 0
    ∗ reached ER (zsCell c 1) 0
    ∗ reached ER (zsCell c 2) 0
    ∗ reached ER (zsCell c 3) 0
    ∗ reached ER (zrCell c 0) 0
    ∗ reached ER (zrCell c 1) 0
    ∗ reached ER (zrCell c 2) 0
    ∗ reached ER (zrCell c 3) 0)

instance marks_persistent (c : Dev nD) : BI.Persistent (marks (F := F) c) := by unfold marks; infer_instance

/-- Device c's positions at round 0 of its own thirty-three cells. -/
def positions (c : Dev nD) : sProp 𝕄 :=
  iprop(atPos ER (barCell c) 0 ∅ 0
    ∗ atPos ER (ysCell c 0) 0 ∅ 0
    ∗ atPos ER (ysCell c 1) 0 ∅ 0
    ∗ atPos ER (ysCell c 2) 0 ∅ 0
    ∗ atPos ER (ysCell c 3) 0 ∅ 0
    ∗ atPos ER (ysCell c 4) 0 ∅ 0
    ∗ atPos ER (ysCell c 5) 0 ∅ 0
    ∗ atPos ER (yrCell c 0) 0 ∅ 0
    ∗ atPos ER (yrCell c 1) 0 ∅ 0
    ∗ atPos ER (yrCell c 2) 0 ∅ 0
    ∗ atPos ER (yrCell c 3) 0 ∅ 0
    ∗ atPos ER (yrCell c 4) 0 ∅ 0
    ∗ atPos ER (yrCell c 5) 0 ∅ 0
    ∗ atPos ER (xsCell c 0) 0 ∅ 0
    ∗ atPos ER (xsCell c 1) 0 ∅ 0
    ∗ atPos ER (xsCell c 2) 0 ∅ 0
    ∗ atPos ER (xsCell c 3) 0 ∅ 0
    ∗ atPos ER (xsCell c 4) 0 ∅ 0
    ∗ atPos ER (xsCell c 5) 0 ∅ 0
    ∗ atPos ER (xrCell c 0) 0 ∅ 0
    ∗ atPos ER (xrCell c 1) 0 ∅ 0
    ∗ atPos ER (xrCell c 2) 0 ∅ 0
    ∗ atPos ER (xrCell c 3) 0 ∅ 0
    ∗ atPos ER (xrCell c 4) 0 ∅ 0
    ∗ atPos ER (xrCell c 5) 0 ∅ 0
    ∗ atPos ER (zsCell c 0) 0 ∅ 0
    ∗ atPos ER (zsCell c 1) 0 ∅ 0
    ∗ atPos ER (zsCell c 2) 0 ∅ 0
    ∗ atPos ER (zsCell c 3) 0 ∅ 0
    ∗ atPos ER (zrCell c 0) 0 ∅ 0
    ∗ atPos ER (zrCell c 1) 0 ∅ 0
    ∗ atPos ER (zrCell c 2) 0 ∅ 0
    ∗ atPos ER (zrCell c 3) 0 ∅ 0)

/-- The duty tokens device c pays with: one on each neighbour's barrier cell (the duty named c), its sixteen send
    duties, and the receive duties of its sixteen copies on the neighbours' cells. -/
def payToks (c : Dev nD) : sProp 𝕄 :=
  iprop(dutyTok ER (barCell (xp c)) 0 c
    ∗ dutyTok ER (barCell (yp c)) 0 c
    ∗ dutyTok ER (barCell (zp c)) 0 c
    ∗ dutyTok ER (ysCell c 0) 0 (0 : D3)
    ∗ dutyTok ER (ysCell c 1) 0 (0 : D3)
    ∗ dutyTok ER (ysCell c 2) 0 (0 : D3)
    ∗ dutyTok ER (ysCell c 3) 0 (0 : D3)
    ∗ dutyTok ER (ysCell c 4) 0 (0 : D3)
    ∗ dutyTok ER (ysCell c 5) 0 (0 : D3)
    ∗ dutyTok ER (yrCell (yp c) 0) 0 (0 : D3)
    ∗ dutyTok ER (yrCell (yp c) 1) 0 (0 : D3)
    ∗ dutyTok ER (yrCell (yp c) 2) 0 (0 : D3)
    ∗ dutyTok ER (yrCell (yp c) 3) 0 (0 : D3)
    ∗ dutyTok ER (yrCell (yp c) 4) 0 (0 : D3)
    ∗ dutyTok ER (yrCell (yp c) 5) 0 (0 : D3)
    ∗ dutyTok ER (xsCell c 0) 0 (0 : D3)
    ∗ dutyTok ER (xsCell c 1) 0 (0 : D3)
    ∗ dutyTok ER (xsCell c 2) 0 (0 : D3)
    ∗ dutyTok ER (xsCell c 3) 0 (0 : D3)
    ∗ dutyTok ER (xsCell c 4) 0 (0 : D3)
    ∗ dutyTok ER (xsCell c 5) 0 (0 : D3)
    ∗ dutyTok ER (xrCell (xp c) 0) 0 (0 : D3)
    ∗ dutyTok ER (xrCell (xp c) 1) 0 (0 : D3)
    ∗ dutyTok ER (xrCell (xp c) 2) 0 (0 : D3)
    ∗ dutyTok ER (xrCell (xp c) 3) 0 (0 : D3)
    ∗ dutyTok ER (xrCell (xp c) 4) 0 (0 : D3)
    ∗ dutyTok ER (xrCell (xp c) 5) 0 (0 : D3)
    ∗ dutyTok ER (zsCell c 0) 0 (0 : D3)
    ∗ dutyTok ER (zsCell c 1) 0 (0 : D3)
    ∗ dutyTok ER (zsCell c 2) 0 (0 : D3)
    ∗ dutyTok ER (zsCell c 3) 0 (0 : D3)
    ∗ dutyTok ER (zrCell (zp c) 0) 0 (0 : D3)
    ∗ dutyTok ER (zrCell (zp c) 1) 0 (0 : D3)
    ∗ dutyTok ER (zrCell (zp c) 2) 0 (0 : D3)
    ∗ dutyTok ER (zrCell (zp c) 3) 0 (0 : D3))

/-- The credit tokens dealt to device c at launch: its barrier's three units and each receive cell's slot credit. -/
def credits (c : Dev nD) : sProp 𝕄 :=
  iprop(cred (tallyAt (barCell c) () 3)
    ∗ cred (tallyAt (yrCell c 0) () Ny)
    ∗ cred (tallyAt (yrCell c 1) () Ny)
    ∗ cred (tallyAt (yrCell c 2) () Ny)
    ∗ cred (tallyAt (yrCell c 3) () Ny)
    ∗ cred (tallyAt (yrCell c 4) () Ny)
    ∗ cred (tallyAt (yrCell c 5) () Ny)
    ∗ cred (tallyAt (xrCell c 0) () Nb)
    ∗ cred (tallyAt (xrCell c 1) () Nb)
    ∗ cred (tallyAt (xrCell c 2) () Nb)
    ∗ cred (tallyAt (xrCell c 3) () Nb)
    ∗ cred (tallyAt (xrCell c 4) () Nb)
    ∗ cred (tallyAt (xrCell c 5) () Nb)
    ∗ cred (tallyAt (zrCell c 0) () Nb)
    ∗ cred (tallyAt (zrCell c 1) () Nb)
    ∗ cred (tallyAt (zrCell c 2) () Nb)
    ∗ cred (tallyAt (zrCell c 3) () Nb))

def ghost (K : GSem nD τ sig → ℕ) (c : Dev nD) : sProp 𝕄 :=
  iprop(invs SND BLK K c ∗ marks c ∗ positions c ∗ payToks c)

/-- What device c's body starts from, besides its buffers. -/
def start (c : Dev nD) : sProp 𝕄 :=
  iprop((∃ K, ghost SND BLK K c) ∗ credits c ∗ levAts L lv)

/-- The five scratch buffers whole, at some contents. -/
def scratch (c : Dev nD) : sProp 𝕄 :=
  iprop((∃ f : Buf (Elt F) (((c : Thread nD τ)).loc cc0_scratch0), ((c : Thread nD τ).loc cc0_scratch0) ↦{fullShare} f)
    ∗ (∃ f : Buf (Elt F) (((c : Thread nD τ)).loc cc0_scratch1), ((c : Thread nD τ).loc cc0_scratch1) ↦{fullShare} f)
    ∗ (∃ f : Buf (Elt F) (((c : Thread nD τ)).loc cc0_scratch2), ((c : Thread nD τ).loc cc0_scratch2) ↦{fullShare} f)
    ∗ (∃ f : Buf (Elt F) (((c : Thread nD τ)).loc cc0_scratch3), ((c : Thread nD τ).loc cc0_scratch3) ↦{fullShare} f)
    ∗ (∃ f : Buf (Elt F) (((c : Thread nD τ)).loc cc0_scratch4), ((c : Thread nD τ).loc cc0_scratch4) ↦{fullShare} f))

/-- Device c's thirty-two DMA semaphores back at zero, their cells closed (the barrier semaphore is the runtime's:
    nothing to hand back). -/
def closedSems (c : Dev nD) : sProp 𝕄 :=
  iprop(semVal (ysCell c 0) 0
    ∗ semVal (ysCell c 1) 0
    ∗ semVal (ysCell c 2) 0
    ∗ semVal (ysCell c 3) 0
    ∗ semVal (ysCell c 4) 0
    ∗ semVal (ysCell c 5) 0
    ∗ semVal (yrCell c 0) 0
    ∗ semVal (yrCell c 1) 0
    ∗ semVal (yrCell c 2) 0
    ∗ semVal (yrCell c 3) 0
    ∗ semVal (yrCell c 4) 0
    ∗ semVal (yrCell c 5) 0
    ∗ semVal (xsCell c 0) 0
    ∗ semVal (xsCell c 1) 0
    ∗ semVal (xsCell c 2) 0
    ∗ semVal (xsCell c 3) 0
    ∗ semVal (xsCell c 4) 0
    ∗ semVal (xsCell c 5) 0
    ∗ semVal (xrCell c 0) 0
    ∗ semVal (xrCell c 1) 0
    ∗ semVal (xrCell c 2) 0
    ∗ semVal (xrCell c 3) 0
    ∗ semVal (xrCell c 4) 0
    ∗ semVal (xrCell c 5) 0
    ∗ semVal (zsCell c 0) 0
    ∗ semVal (zsCell c 1) 0
    ∗ semVal (zsCell c 2) 0
    ∗ semVal (zsCell c 3) 0
    ∗ semVal (zrCell c 0) 0
    ∗ semVal (zrCell c 1) 0
    ∗ semVal (zrCell c 2) 0
    ∗ semVal (zrCell c 3) 0)

def Φ₀ (c : Dev nD) : sProp 𝕄 := iprop(start SND BLK c ∗ scratch c)
def Φ₁ (c : Dev nD) : sProp 𝕄 := iprop(scratch (F := F) c ∗ closedSems c)

/-! ## The pipeline's proof data -/

variable (m : (ℓ : Loc nD τ sig) → Buf (Elt F) ℓ) (ρ : Dev nD → PrngReg)

/-- What the two input staging buffers hold when the body runs: the device's whole argument arrays. -/
def xstg (c : Dev nD) : (cc0_stg0_0 : Ref sig .tc).ty.Contents (Elt F) :=
  (win0_0.blk (0 : Fin 1)).view.read (Elt F) (m ((c : Thread nD τ).loc main_arg0))
def dystg (c : Dev nD) : (cc0_stg1_0 : Ref sig .tc).ty.Contents (Elt F) :=
  (win0_1.blk (0 : Fin 1)).view.read (Elt F) (m ((c : Thread nD τ).loc main_arg1))

def dats (_ : Fin 1) (c : Dev nD) : Dat τ (Elt F) Unit ℕ UU ℕ cfg0 c where
  A w := m ((cfg0.win w).arr.view.loc (c : Thread nD τ))
  after w _ := match w with
    | ⟨0, _⟩ => xstg m c
    | ⟨1, _⟩ => dystg m c
    | ⟨2, _⟩ => OUT c
  Φ t := match t with
    | ⟨0, _⟩ => Φ₀ SND BLK c
    | ⟨_ + 1, _⟩ => Φ₁ c
  q _ := fullShare
  owed t := match t with
    | ⟨0, _⟩ => O₀ c
    | ⟨_ + 1, _⟩ => 0

end Ghost

end Cert.Kernel.Coll

end
-- ==== Proof.Bits.Launch.lean ====
/-
  The launch of the eight-device kernel: from each device's body obligation to the run of @main.

  Each device owns thirty-three semaphore cells — the runtime's barrier semaphore and the kernel's thirty-two DMA
  semaphores — under the rounds discipline. Here the cells of all devices are funded at once, every cell's
  invariant is allocated, the duty tokens are dealt to the devices that pay them (a barrier token to the neighbour
  it is named by, a receive token to the neighbour that sends into the cell: crossing an axis of the cube permutes
  the devices), the launch credit is counted (what the devices owe, summed, is what is owed to each device's own
  cells), the staging cells' waits are shown to sit below every launch due, and the pipeline's launch theorem is
  applied. The value families `SND`, `BLK`, `OUT` of the proof data are arbitrary throughout.
-/
import proofs.«900594_g7700000000000595_dist_rsdw_v7x_xyz2x2x2_y_m512_d512_f2048_bf16_1_alg».proof.Proof.Bits.Ghost
import Idealize.ShloMosaic.Lib.Pipeline.Launch
import Idealize.ShloMosaic.Lib.Pipeline.Kit
import Idealize.ShloMosaic.Lib.Pipeline.Value
import Idealize.ShloMosaic.Lib.Tactic

noncomputable section

namespace Cert.Kernel.Coll

open Cert.Kernel Cert.Kernel.Gen Cert.Kernel.Mesh
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The kernel's semaphores, listed

Device c has thirty-three cells of its own: the barrier semaphore and the thirty-two DMA semaphores, in the order of
their numbers — six send and six receive semaphores across y, the same across x, four and four across z. -/

/-- The thirty-two DMA semaphores. -/
abbrev osem : Fin 32 → SemLoc sig := fun
  | 0 => .dma (ysS 0)
  | 1 => .dma (ysS 1)
  | 2 => .dma (ysS 2)
  | 3 => .dma (ysS 3)
  | 4 => .dma (ysS 4)
  | 5 => .dma (ysS 5)
  | 6 => .dma (yrS 0)
  | 7 => .dma (yrS 1)
  | 8 => .dma (yrS 2)
  | 9 => .dma (yrS 3)
  | 10 => .dma (yrS 4)
  | 11 => .dma (yrS 5)
  | 12 => .dma (xsS 0)
  | 13 => .dma (xsS 1)
  | 14 => .dma (xsS 2)
  | 15 => .dma (xsS 3)
  | 16 => .dma (xsS 4)
  | 17 => .dma (xsS 5)
  | 18 => .dma (xrS 0)
  | 19 => .dma (xrS 1)
  | 20 => .dma (xrS 2)
  | 21 => .dma (xrS 3)
  | 22 => .dma (xrS 4)
  | 23 => .dma (xrS 5)
  | 24 => .dma (zsS 0)
  | 25 => .dma (zsS 1)
  | 26 => .dma (zsS 2)
  | 27 => .dma (zsS 3)
  | 28 => .dma (zrS 0)
  | 29 => .dma (zrS 1)
  | 30 => .dma (zrS 2)
  | 31 => .dma (zrS 3)
  | ⟨_ + 32, h⟩ => absurd h (Nat.not_lt.2 (Nat.le_add_left _ _))

/-- The barrier semaphore first, then the thirty-two. -/
abbrev csem : Fin 33 → SemLoc sig := fun
  | 0 => .reg barS
  | 1 => .dma (ysS 0)
  | 2 => .dma (ysS 1)
  | 3 => .dma (ysS 2)
  | 4 => .dma (ysS 3)
  | 5 => .dma (ysS 4)
  | 6 => .dma (ysS 5)
  | 7 => .dma (yrS 0)
  | 8 => .dma (yrS 1)
  | 9 => .dma (yrS 2)
  | 10 => .dma (yrS 3)
  | 11 => .dma (yrS 4)
  | 12 => .dma (yrS 5)
  | 13 => .dma (xsS 0)
  | 14 => .dma (xsS 1)
  | 15 => .dma (xsS 2)
  | 16 => .dma (xsS 3)
  | 17 => .dma (xsS 4)
  | 18 => .dma (xsS 5)
  | 19 => .dma (xrS 0)
  | 20 => .dma (xrS 1)
  | 21 => .dma (xrS 2)
  | 22 => .dma (xrS 3)
  | 23 => .dma (xrS 4)
  | 24 => .dma (xrS 5)
  | 25 => .dma (zsS 0)
  | 26 => .dma (zsS 1)
  | 27 => .dma (zsS 2)
  | 28 => .dma (zsS 3)
  | 29 => .dma (zrS 0)
  | 30 => .dma (zrS 1)
  | 31 => .dma (zrS 2)
  | 32 => .dma (zrS 3)
  | ⟨_ + 33, h⟩ => absurd h (Nat.not_lt.2 (Nat.le_add_left _ _))

abbrev kcell (ck : Dev nD × Fin 33) : GSem nD τ sig := ((ck.1 : Thread nD τ), csem ck.2)

/-- The place of a semaphore in that list, read off its number. -/
def idx : SemLoc sig → Fin 33
  | .reg _ => 0
  | .dma q => ⟨(q.val - 2) % 33, Nat.mod_lt _ (by decide)⟩

theorem idx_csem (k : Fin 33) : idx (csem k) = k := by fin_cases k <;> rfl

theorem csem_injective : Function.Injective csem := fun k k' h => by
  rw [← idx_csem k, ← idx_csem k', h]

theorem kcell_injective : Function.Injective (kcell : Dev nD × Fin 33 → GSem nD τ sig) := by
  rintro ⟨c, k⟩ ⟨c', k'⟩ h
  have h1 : c = c' := congrArg (fun g : GSem nD τ sig => g.1.1) h
  subst h1
  have h2 : k = k' := csem_injective (congrArg Prod.snd h)
  subst h2; rfl

theorem ownSemFacts : Pipeline.OwnSemFacts cfg0.spec osem := by decide

theorem share_eq (SND : Dev nD → (cc0_scratch1 : Ref sig .tc).ty.Contents (Elt F)) (BLK : Dev nD → (cc0_scratch4 : Ref sig .tc).ty.Contents (Elt F))
    (OUT : Dev nD → (cc0_stg2_0 : Ref sig .tc).ty.Contents (Elt F)) (m : (ℓ : Loc nD τ sig) → Buf (Elt F) ℓ)
    (c : Dev nD) (w : Fin cfg0.W) : (dats SND BLK OUT m 0 c).share w = fullShare := by unfold Dat.share; split <;> rfl

def allCells : Finset (GSem nD τ sig) := Finset.univ.map ⟨kcell, kcell_injective⟩

/-! ## The duty tokens as minted

Per device thirty-five: on its barrier cell the three duties named by its neighbours, on each DMA cell the one duty. -/

abbrev tsem : Fin 35 → SemLoc sig := fun
  | 0 => .reg barS
  | 1 => .reg barS
  | 2 => .reg barS
  | 3 => .dma (ysS 0)
  | 4 => .dma (ysS 1)
  | 5 => .dma (ysS 2)
  | 6 => .dma (ysS 3)
  | 7 => .dma (ysS 4)
  | 8 => .dma (ysS 5)
  | 9 => .dma (yrS 0)
  | 10 => .dma (yrS 1)
  | 11 => .dma (yrS 2)
  | 12 => .dma (yrS 3)
  | 13 => .dma (yrS 4)
  | 14 => .dma (yrS 5)
  | 15 => .dma (xsS 0)
  | 16 => .dma (xsS 1)
  | 17 => .dma (xsS 2)
  | 18 => .dma (xsS 3)
  | 19 => .dma (xsS 4)
  | 20 => .dma (xsS 5)
  | 21 => .dma (xrS 0)
  | 22 => .dma (xrS 1)
  | 23 => .dma (xrS 2)
  | 24 => .dma (xrS 3)
  | 25 => .dma (xrS 4)
  | 26 => .dma (xrS 5)
  | 27 => .dma (zsS 0)
  | 28 => .dma (zsS 1)
  | 29 => .dma (zsS 2)
  | 30 => .dma (zsS 3)
  | 31 => .dma (zrS 0)
  | 32 => .dma (zrS 1)
  | 33 => .dma (zrS 2)
  | 34 => .dma (zrS 3)
  | ⟨_ + 35, h⟩ => absurd h (Nat.not_lt.2 (Nat.le_add_left _ _))

abbrev tduty (c : Dev nD) : Fin 35 → D3 := fun
  | 0 => xp c
  | 1 => yp c
  | 2 => zp c
  | _ => (0 : D3)

abbrev tokOf (cj : Dev nD × Fin 35) : GSem nD τ sig × ℕ × D3 := (((cj.1 : Thread nD τ), tsem cj.2), 0, tduty cj.1 cj.2)

theorem tsem_idx (j : Fin 35) : (idx (tsem j)).val = j.val - 2 := by fin_cases j <;> rfl

theorem tokOf_injective : Function.Injective (tokOf : Dev nD × Fin 35 → GSem nD τ sig × ℕ × D3) := by
  rintro ⟨c, j⟩ ⟨c', j'⟩ h
  have h1 : c = c' := congrArg (fun x : GSem nD τ sig × ℕ × D3 => x.1.1.1) h
  subst h1
  have h2 : tsem j = tsem j' := congrArg (fun x : GSem nD τ sig × ℕ × D3 => x.1.2) h
  have h3 : tduty c j = tduty c j' := congrArg (fun x : GSem nD τ sig × ℕ × D3 => x.2.2) h
  have h4 : j.val - 2 = j'.val - 2 := by rw [← tsem_idx, ← tsem_idx, h2]
  have h5 : j = j' := by
    by_cases hj : 3 ≤ j.val
    · by_cases hj' : 3 ≤ j'.val
      · exact Fin.ext (by omega)
      · exfalso
        have : j.val = 2 + (j'.val - 2) + (j.val - 2 - (j'.val - 2)) := by omega
        omega
    · by_cases hj' : 3 ≤ j'.val
      · exfalso; omega
      · have e1 : j.val < 3 := by omega
        have e2 : j'.val < 3 := by omega
        have hx := xp_ne_yp c; have hxz := xp_ne_zp c; have hyz := yp_ne_zp c
        have hj0 : j = 0 ∨ j = 1 ∨ j = 2 := by
          rcases (show j.val = 0 ∨ j.val = 1 ∨ j.val = 2 by omega) with h | h | h
          · exact Or.inl (Fin.ext h)
          · exact Or.inr (Or.inl (Fin.ext h))
          · exact Or.inr (Or.inr (Fin.ext h))
        have hj0' : j' = 0 ∨ j' = 1 ∨ j' = 2 := by
          rcases (show j'.val = 0 ∨ j'.val = 1 ∨ j'.val = 2 by omega) with h | h | h
          · exact Or.inl (Fin.ext h)
          · exact Or.inr (Or.inl (Fin.ext h))
          · exact Or.inr (Or.inr (Fin.ext h))
        rcases hj0 with rfl | rfl | rfl <;> rcases hj0' with rfl | rfl | rfl <;>
          (first | rfl | exact absurd h3 hx | exact absurd h3 hxz | exact absurd h3 hyz | exact absurd h3.symm hx | exact absurd h3.symm hxz | exact absurd h3.symm hyz)
  subst h5; rfl

def allToks : Finset (GSem nD τ sig × ℕ × D3) := Finset.univ.map ⟨tokOf, tokOf_injective⟩

def u₀ : UU :=
  (initOf (Pipeline.cells cfgs cellOf_inj) (Pipeline.launchToks cfgs cellOf_inj), initOf allCells allToks)

section Launch
variable (SND : Dev nD → (cc0_scratch1 : Ref sig .tc).ty.Contents (Elt F)) (BLK : Dev nD → (cc0_scratch4 : Ref sig .tc).ty.Contents (Elt F))
  (OUT : Dev nD → (cc0_stg2_0 : Ref sig .tc).ty.Contents (Elt F))
variable (m : (ℓ : Loc nD τ sig) → Buf (Elt F) ℓ) (ρ : Dev nD → PrngReg)

/-- The duty tokens of device c's own cells, as minted: on its barrier cell the three duties named by its neighbours, on
    each DMA cell the one duty. -/
def toks (c : Dev nD) : sProp 𝕄 :=
  iprop(dutyTok ER (barCell c) 0 (xp c)
    ∗ dutyTok ER (barCell c) 0 (yp c)
    ∗ dutyTok ER (barCell c) 0 (zp c)
    ∗ dutyTok ER (ysCell c 0) 0 (0 : D3)
    ∗ dutyTok ER (ysCell c 1) 0 (0 : D3)
    ∗ dutyTok ER (ysCell c 2) 0 (0 : D3)
    ∗ dutyTok ER (ysCell c 3) 0 (0 : D3)
    ∗ dutyTok ER (ysCell c 4) 0 (0 : D3)
    ∗ dutyTok ER (ysCell c 5) 0 (0 : D3)
    ∗ dutyTok ER (yrCell c 0) 0 (0 : D3)
    ∗ dutyTok ER (yrCell c 1) 0 (0 : D3)
    ∗ dutyTok ER (yrCell c 2) 0 (0 : D3)
    ∗ dutyTok ER (yrCell c 3) 0 (0 : D3)
    ∗ dutyTok ER (yrCell c 4) 0 (0 : D3)
    ∗ dutyTok ER (yrCell c 5) 0 (0 : D3)
    ∗ dutyTok ER (xsCell c 0) 0 (0 : D3)
    ∗ dutyTok ER (xsCell c 1) 0 (0 : D3)
    ∗ dutyTok ER (xsCell c 2) 0 (0 : D3)
    ∗ dutyTok ER (xsCell c 3) 0 (0 : D3)
    ∗ dutyTok ER (xsCell c 4) 0 (0 : D3)
    ∗ dutyTok ER (xsCell c 5) 0 (0 : D3)
    ∗ dutyTok ER (xrCell c 0) 0 (0 : D3)
    ∗ dutyTok ER (xrCell c 1) 0 (0 : D3)
    ∗ dutyTok ER (xrCell c 2) 0 (0 : D3)
    ∗ dutyTok ER (xrCell c 3) 0 (0 : D3)
    ∗ dutyTok ER (xrCell c 4) 0 (0 : D3)
    ∗ dutyTok ER (xrCell c 5) 0 (0 : D3)
    ∗ dutyTok ER (zsCell c 0) 0 (0 : D3)
    ∗ dutyTok ER (zsCell c 1) 0 (0 : D3)
    ∗ dutyTok ER (zsCell c 2) 0 (0 : D3)
    ∗ dutyTok ER (zsCell c 3) 0 (0 : D3)
    ∗ dutyTok ER (zrCell c 0) 0 (0 : D3)
    ∗ dutyTok ER (zrCell c 1) 0 (0 : D3)
    ∗ dutyTok ER (zrCell c 2) 0 (0 : D3)
    ∗ dutyTok ER (zrCell c 3) 0 (0 : D3))

/-- What the launch element deals device c. -/
def G (c : Dev nD) : sProp 𝕄 :=
  iprop((bigSep Finset.univ fun k : Fin 33 => roundState ER (Rd SND BLK) (kcell (c, k)) 0)
    ∗ (bigSep Finset.univ fun k : Fin 33 => iprop(atPos ER (kcell (c, k)) 0 ∅ 0 ∗ reached ER (kcell (c, k)) 0)) ∗ toks c)

/-- What the global step makes of it. -/
def G' (c : Dev nD) : sProp 𝕄 := iprop(∃ K, ghost SND BLK K c)

omit [FloatOps F] in
theorem bigSep_fin33 (Φ : Fin 33 → sProp 𝕄) : bigSep Finset.univ Φ = bigSepL ([0, 1, 2, 3, 4, 5, 6, 7, 8, 9, 10, 11, 12, 13, 14, 15, 16, 17, 18, 19, 20, 21, 22, 23, 24, 25, 26, 27, 28, 29, 30, 31, 32] : List (Fin 33)) Φ :=
  bigSep_univ_eq_bigSepL _ (by decide) (by decide) Φ
omit [FloatOps F] in
theorem bigSep_fin35 (Φ : Fin 35 → sProp 𝕄) : bigSep Finset.univ Φ = bigSepL ([0, 1, 2, 3, 4, 5, 6, 7, 8, 9, 10, 11, 12, 13, 14, 15, 16, 17, 18, 19, 20, 21, 22, 23, 24, 25, 26, 27, 28, 29, 30, 31, 32, 33, 34] : List (Fin 35)) Φ :=
  bigSep_univ_eq_bigSepL _ (by decide) (by decide) Φ

omit [FloatOps F] in
theorem fund_cells : BI.own (ER (initOf allCells allToks)) ⊢ (|==> bigSep Finset.univ (G SND BLK) : sProp 𝕄) := by
  have hX (Φ : GSem nD τ sig → sProp 𝕄) : bigSep allCells Φ = bigSep Finset.univ fun c : Dev nD => bigSep Finset.univ fun k : Fin 33 => Φ (kcell (c, k)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]
    exact bigSep_congr fun c _ => by rw [bigSep_fin35]; rfl
  iintro HX
  imod (Rounds.fund ER (Rd SND BLK) allCells allToks) $$ HX with ⟨Hst, Hr, Hat, Htok⟩
  imodintro
  ihave Hst' := (Entails.of_eq (hX fun g => roundState ER (Rd SND BLK) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
/-- The kernel's own semaphores are the thirty-two; -/
theorem ownSems0_eq (c : Dev nD) : (Pipeline.ownSems0 (Ix := Unit) (Name := ℕ) (U := UU) (Lvl := ℕ) (Val := Elt F) (τ := τ) osem c : sProp 𝕄)
    = closedSems c := by
  rw [Pipeline.ownSems0_eq_of_list c osem [0, 1, 2, 3, 4, 5, 6, 7, 8, 9, 10, 11, 12, 13, 14, 15, 16, 17, 18, 19, 20, 21, 22, 23, 24, 25, 26, 27, 28, 29, 30, 31] (by decide) (by decide)]; rfl
omit [FloatOps F] in
/-- the barrier semaphore the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 33 => semVal (kcell (c, k)) 0 : sProp 𝕄) := by
  rw [ownSems0_eq, unscopedSems0_eq,
    show (bigSep Finset.univ fun k : Fin 33 => semVal (kcell (c, k)) 0 : sProp 𝕄) = iprop(semVal (barCell c) 0 ∗ closedSems c) from by
      rw [bigSep_fin33]; rfl]
  iintro ⟨HS, HB⟩
  isplitl [HB]; · iexact HB
  iexact HS

omit [FloatOps F] in
instance some_storable (c : Dev nD) (M : Memref sig .tc .vmem S256x128 .bf16) : BI.Storable (upEmb : UEmb _ 𝕄) (some_ (F := F) c M) := by infer_instance
omit [FloatOps F] in
instance someQ_storable (c : Dev nD) (M : Memref sig .tc .vmem S256x128 .bf16) (q : PosShare TreeShare) : BI.Storable (upEmb : UEmb _ 𝕄) (someQ (F := F) c M q) := by infer_instance
omit [FloatOps F] in
instance holds_storable (c : Dev nD) (M : Memref sig .tc .vmem S256x128 .bf16) (q : PosShare TreeShare) (f : Buf (Elt F) (M.view.loc (c : Thread nD τ))) :
    BI.Storable (upEmb : UEmb _ 𝕄) (holds (F := F) c M q f) := by infer_instance

omit [FloatOps F] in
set_option synthInstance.maxHeartbeats 400000 in
instance PX_storable (p : Dev nD) : BI.Storable (upEmb : UEmb _ 𝕄) (PX (F := F) p) := by unfold PX; infer_instance
omit [FloatOps F] in
set_option synthInstance.maxHeartbeats 400000 in
instance PY_storable (p : Dev nD) : BI.Storable (upEmb : UEmb _ 𝕄) (PY (F := F) p) := by unfold PY; infer_instance
omit [FloatOps F] in
set_option synthInstance.maxHeartbeats 400000 in
instance PZ_storable (p : Dev nD) : BI.Storable (upEmb : UEmb _ 𝕄) (PZ (F := F) p) := by unfold PZ; infer_instance
set_option synthInstance.maxHeartbeats 400000 in
set_option maxHeartbeats 2000000 in
instance dmaPay_storable (c : Dev nD) (n : ℕ) : BI.Storable (upEmb : UEmb _ 𝕄) (dmaPay (F := F) SND BLK c n) := by
  unfold dmaPay; (repeat' split) <;> infer_instance

/-- Every payload of the schedule is made of points-to assertions and reached-marks: it can be kept in an invariant. -/
instance Rd_payload_storable (g : GSem nD τ sig) (r : ℕ) (d : D3) :
    BI.Storable (upEmb : UEmb _ 𝕄) ((Rd (F := F) SND BLK).payload g r d) := by
  show BI.Storable upEmb (match g.2 with
    | .reg _ => if d = xp g.1.1 then PX d else if d = yp g.1.1 then PY d else PZ d
    | .dma q => dmaPay SND BLK g.1.1 q.val)
  cases g.2 with
  | reg s => dsimp only; (repeat' split) <;> infer_instance
  | dma q => dsimp only; infer_instance

omit [FloatOps F] in
theorem core_alloc (c : Dev nD) :
    iprop(Pipeline.ownSems0 (Ix := Unit) (Name := ℕ) (U := UU) (Lvl := ℕ) (Val := Elt F) (τ := τ) osem c ∗ unscopedSems0 c ∗ G SND BLK c)
      ⊢ |={Set.univ}=> iprop((bigSep Finset.univ fun k : Fin 33 => iprop(∃ κ : ℕ, cellInv ER (Rd SND BLK) κ (kcell (c, k))))
          ∗ (bigSep Finset.univ fun k : Fin 33 => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 33 => semVal (kcell (c, k)) 0) ∗ bigSep Finset.univ fun k : Fin 33 => roundState ER (Rd SND BLK) (kcell (c, k)) 0)
      ⊢ (|={Set.univ}=> bigSep Finset.univ fun k : Fin 33 => iprop(∃ κ : ℕ, cellInv ER (Rd SND BLK) κ (kcell (c, k))) : sProp 𝕄) from by
        rw [← bigSep_sep']
        exact (bigSep_mono fun k _ => (Rounds.body_intro ER (Rd SND BLK) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-! ### From the allocated invariants to each device's ghost state -/

omit [FloatOps F] in
/-- A persistent assertion that yields both conjuncts yields their separating conjunction. -/
theorem pers_sep {R A B : sProp 𝕄} [BI.Persistent R] (h1 : R ⊢ A) (h2 : R ⊢ B) : R ⊢ iprop(A ∗ B) := by
  iintro #H
  isplitr
  · iapply h1; iexact H
  · iapply h2; iexact H

/-- Every cell's invariant at the names K, and that its round 0 is reached: persistent, and shared by all devices. -/
def records (K : GSem nD τ sig → ℕ) : sProp 𝕄 :=
  iprop((bigSep Finset.univ fun ck : Dev nD × Fin 33 => cellInv ER (Rd SND BLK) (K (kcell ck)) (kcell ck))
    ∗ bigSep Finset.univ fun ck : Dev nD × Fin 33 => reached ER (kcell ck) 0)

instance records_persistent (K : GSem nD τ sig → ℕ) : BI.Persistent (records SND BLK K) := by unfold records; infer_instance

omit [FloatOps F] in
theorem inv_of (K : GSem nD τ sig → ℕ) (g : GSem nD τ sig) (hg : kcell (g.1.1, idx g.2) = g) :
    records SND BLK K ⊢ cellInv ER (Rd SND BLK) (K g) g := by
  have h : (bigSep Finset.univ fun ck : Dev nD × Fin 33 => (cellInv ER (Rd SND BLK) (K (kcell ck)) (kcell ck) : sProp 𝕄)) ⊢ cellInv ER (Rd SND BLK) (K g) g := by
    have h' := bigSep_elim (Finset.mem_univ (g.1.1, idx g.2)) (Φ := fun ck : Dev nD × Fin 33 => (cellInv ER (Rd SND BLK) (K (kcell ck)) (kcell ck) : sProp 𝕄))
    rw [hg] at h'; exact h'
  unfold records
  iintro ⟨HI, -⟩
  iapply h; iexact HI

omit [FloatOps F] in
theorem reached_of (K : GSem nD τ sig → ℕ) (g : GSem nD τ sig) (hg : kcell (g.1.1, idx g.2) = g) :
    records SND BLK K ⊢ reached ER g 0 := by
  have h : (bigSep Finset.univ fun ck : Dev nD × Fin 33 => (reached ER (kcell ck) 0 : sProp 𝕄)) ⊢ reached ER g 0 := by
    have h' := bigSep_elim (Finset.mem_univ (g.1.1, idx g.2)) (Φ := fun ck : Dev nD × Fin 33 => (reached ER (kcell ck) 0 : sProp 𝕄))
    rw [hg] at h'; exact h'
  unfold records
  iintro ⟨-, HR⟩
  iapply h; iexact HR

omit [FloatOps F] in
theorem invs_intro (K : GSem nD τ sig → ℕ) (c : Dev nD) : records SND BLK K ⊢ invs SND BLK K c := by
  unfold invs
  repeat' apply pers_sep
  all_goals (refine inv_of SND BLK K _ ?_; rfl)

omit [FloatOps F] in
theorem marks_intro (K : GSem nD τ sig → ℕ) (c : Dev nD) : records SND BLK K ⊢ marks c := by
  unfold marks
  repeat' apply pers_sep
  all_goals (refine reached_of SND BLK K _ ?_; rfl)

omit [FloatOps F] in
theorem ghost_intro (K : GSem nD τ sig → ℕ) (c : Dev nD) : iprop(records SND BLK K ∗ positions c ∗ payToks c) ⊢ G' SND BLK c := by
  iintro ⟨#HR, Hp, Ht⟩
  unfold G'; iexists K; unfold ghost
  isplitr; · iapply (invs_intro SND BLK K c); iexact HR
  isplitr; · iapply (marks_intro SND BLK K c); iexact HR
  isplitl [Hp]; · iexact Hp
  iexact Ht

omit [FloatOps F] in
/-- The tokens dealt around the cube: each barrier token to the neighbour it is named by, each receive token to the
    neighbour that sends into the cell; the send tokens stay. -/
theorem sep_congr_big {A A' B B' : Dev nD → sProp 𝕄} (h1 : bigSep Finset.univ A = bigSep Finset.univ A') (h2 : bigSep Finset.univ B = bigSep Finset.univ B') :
    (bigSep Finset.univ fun c => iprop(A c ∗ B c)) = bigSep Finset.univ fun c => iprop(A' c ∗ B' c) := by
  rw [bigSep_sep', bigSep_sep', h1, h2]

omit [FloatOps F] in
/-- The tokens dealt around the cube: each barrier token to the neighbour it is named by, each receive token to the
    neighbour that sends into the cell; the send tokens stay. -/
theorem toks_around : (bigSep Finset.univ fun c : Dev nD => (toks c : sProp 𝕄)) = bigSep Finset.univ fun c : Dev nD => payToks c := by
  have hx (Φ : Dev nD → sProp 𝕄) : bigSep Finset.univ Φ = bigSep Finset.univ fun c => Φ (xp c) := bigSep_univ_equiv xE Φ
  have hy (Φ : Dev nD → sProp 𝕄) : bigSep Finset.univ Φ = bigSep Finset.univ fun c => Φ (yp c) := bigSep_univ_equiv yE Φ
  have hz (Φ : Dev nD → sProp 𝕄) : bigSep Finset.univ Φ = bigSep Finset.univ fun c => Φ (zp c) := bigSep_univ_equiv zE Φ
  unfold toks payToks
  repeat' apply sep_congr_big
  all_goals first
    | rfl
    | exact hx _
    | exact hy _
    | exact hz _
    | exact (hx _).trans (bigSep_congr fun c _ => congrArg (dutyTok ER (barCell (xp c)) 0) (xp_xp c))
    | exact (hy _).trans (bigSep_congr fun c _ => congrArg (dutyTok ER (barCell (yp c)) 0) (yp_yp c))
    | exact (hz _).trans (bigSep_congr fun c _ => congrArg (dutyTok ER (barCell (zp c)) 0) (zp_zp c))

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

omit [FloatOps F] in
theorem regroup :
    (bigSep Finset.univ fun c : Dev nD => iprop((bigSep Finset.univ fun k : Fin 33 => iprop(∃ κ : ℕ, cellInv ER (Rd SND BLK) κ (kcell (c, k))))
          ∗ (bigSep Finset.univ fun k : Fin 33 => iprop(atPos ER (kcell (c, k)) 0 ∅ 0 ∗ reached ER (kcell (c, k)) 0)) ∗ toks c) : sProp 𝕄)
      ⊢ bigSep Finset.univ (G' SND BLK) := by
  rw [bigSep_sep', bigSep_sep', ← bigSep_univ_prod (fun ck : Dev nD × Fin 33 => iprop(∃ κ : ℕ, cellInv ER (Rd SND BLK) κ (kcell ck))),
    bigSep_congr (s := Finset.univ) (fun (c : Dev nD) _ => bigSep_sep' Finset.univ (fun k : Fin 33 => (atPos ER (kcell (c, k)) 0 ∅ 0 : sProp 𝕄)) (fun k => reached ER (kcell (c, k)) 0)),
    bigSep_sep', ← bigSep_univ_prod (fun ck : Dev nD × Fin 33 => (reached ER (kcell ck) 0 : sProp 𝕄)), toks_around]
  iintro ⟨HI, ⟨Hat, #HR⟩, Htok⟩
  ihave HK := (BI.bigSep_exists_pi Finset.univ (fun (ck : Dev nD × Fin 33) (κ : ℕ) => (cellInv ER (Rd SND BLK) κ (kcell ck) : sProp 𝕄))) $$ HI
  icases HK with ⟨%K', #HI⟩
  have hK : (bigSep Finset.univ fun ck : Dev nD × Fin 33 => (cellInv ER (Rd SND BLK) (K' ck) (kcell ck) : sProp 𝕄))
      = bigSep Finset.univ fun ck : Dev nD × Fin 33 => (cellInv ER (Rd SND BLK) ((fun g : GSem nD τ sig => K' (g.1.1, idx g.2)) (kcell ck)) (kcell ck) : sProp 𝕄) :=
    bigSep_congr fun ck _ => by
      show _ = cellInv ER (Rd SND BLK) (K' (ck.1, idx (csem ck.2))) (kcell ck)
      rw [idx_csem]
  iapply (bigSep_with_persistent (R := records SND BLK (fun g : GSem nD τ sig => K' (g.1.1, idx g.2))) fun c _ => ghost_intro SND BLK (fun g : GSem nD τ sig => K' (g.1.1, idx g.2)) c)
  isplitr
  · unfold records; isplitl
    · iapply (Entails.of_eq hK); iexact HI
    iexact HR
  · iapply ((Entails.of_eq (bigSep_sep' Finset.univ (fun c : Dev nD => bigSep Finset.univ fun k : Fin 33 => (atPos ER (kcell (c, k)) 0 ∅ 0 : sProp 𝕄)) payToks).symm).trans
      (bigSep_mono fun c _ => show _ ⊢ iprop(positions c ∗ payToks c) from Entails.of_eq (by rw [bigSep_fin33]; rfl)))
    isplitl [Hat]; · iexact Hat
    iexact Htok

omit [FloatOps F] in
/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G SND BLK c) : sProp 𝕄)
    ⊢ |={Set.univ}=> bigSep Finset.univ (G' SND BLK) :=
  ((bigSep_mono fun c _ => core_alloc SND BLK c).trans (bigSep_fupd _ _)).trans (BI.fupd_mono (regroup SND BLK))

/-! ### The launch credit -/

/-- What is owed to device c's own cells, by whomever: the three units of its barrier cell and a slot's credit on
    each of its sixteen receive cells. -/
def T (c : Dev nD) : CellTallies nD τ sig Unit :=
  tallyAt (barCell c) () 3
    + (tallyAt (yrCell c 0) () Ny
    + (tallyAt (yrCell c 1) () Ny
    + (tallyAt (yrCell c 2) () Ny
    + (tallyAt (yrCell c 3) () Ny
    + (tallyAt (yrCell c 4) () Ny
    + (tallyAt (yrCell c 5) () Ny
    + (tallyAt (xrCell c 0) () Nb
    + (tallyAt (xrCell c 1) () Nb
    + (tallyAt (xrCell c 2) () Nb
    + (tallyAt (xrCell c 3) () Nb
    + (tallyAt (xrCell c 4) () Nb
    + (tallyAt (xrCell c 5) () Nb
    + (tallyAt (zrCell c 0) () Nb
    + (tallyAt (zrCell c 1) () Nb
    + (tallyAt (zrCell c 2) () Nb
    + tallyAt (zrCell c 3) () Nb)))))))))))))))

omit [FloatOps F] in
/-- Summed over the devices, what they owe is what is owed to them: every due goes to the neighbour across one
    axis, and crossing an axis permutes the devices. -/
theorem sum_owed : (∑ d : Dev nD, O₀ d) = ∑ d : Dev nD, T d := by
  have hx (f : Dev nD → CellTallies nD τ sig Unit) : (∑ d, f (xp d)) = ∑ d, f d := Equiv.sum_comp xE f
  have hy (f : Dev nD → CellTallies nD τ sig Unit) : (∑ d, f (yp d)) = ∑ d, f d := Equiv.sum_comp yE f
  have hz (f : Dev nD → CellTallies nD τ sig Unit) : (∑ d, f (zp d)) = ∑ d, f d := Equiv.sum_comp zE f
  have h3 (d : Dev nD) : (tallyAt (barCell d) () 3 : CellTallies nD τ sig Unit) = tallyAt (barCell d) () 1 + tallyAt (barCell d) () 1 + tallyAt (barCell d) () 1 := by
    rw [tallyAt_add, tallyAt_add]
  simp only [O₀, T, h3, Finset.sum_add_distrib]
  rw [hx (fun d => tallyAt (barCell d) () 1), hy (fun d => tallyAt (barCell d) () 1), hz (fun d => tallyAt (barCell d) () 1),
    hy (fun d => tallyAt (yrCell d 0) () Ny),
    hy (fun d => tallyAt (yrCell d 1) () Ny),
    hy (fun d => tallyAt (yrCell d 2) () Ny),
    hy (fun d => tallyAt (yrCell d 3) () Ny),
    hy (fun d => tallyAt (yrCell d 4) () Ny),
    hy (fun d => tallyAt (yrCell d 5) () Ny),
    hx (fun d => tallyAt (xrCell d 0) () Nb),
    hx (fun d => tallyAt (xrCell d 1) () Nb),
    hx (fun d => tallyAt (xrCell d 2) () Nb),
    hx (fun d => tallyAt (xrCell d 3) () Nb),
    hx (fun d => tallyAt (xrCell d 4) () Nb),
    hx (fun d => tallyAt (xrCell d 5) () Nb),
    hz (fun d => tallyAt (zrCell d 0) () Nb),
    hz (fun d => tallyAt (zrCell d 1) () Nb),
    hz (fun d => tallyAt (zrCell d 2) () Nb),
    hz (fun d => tallyAt (zrCell d 3) () Nb)]
  ac_rfl

omit [FloatOps F] in
theorem T_own (d : Dev nD) (g : GSem nD τ sig) (h : T d g ≠ 0) : g.1 = (d.tc : Thread nD τ) := by
  by_contra hne
  refine h ?_
  have hz : ∀ (sm : SemLoc sig) (k : ℕ), (tallyAt ((d : Thread nD τ), sm) () k : CellTallies nD τ sig Unit) g = 0 :=
    fun sm k => tallyAt_ne_cell (fun e => hne (congrArg Prod.fst e)) () k
  simp only [T, Pi.add_apply, hz, add_zero]

omit [FloatOps F] in
theorem creds (c : Dev nD) : (Pipeline.launchCred O₀ c : sProp 𝕄) ⊢ credits c := by
  rw [Pipeline.launchCred_of_sum O₀ T sum_owed T_own c]
  unfold T credits
  iterate 16 (refine (cred_add _ _).1.trans (sep_mono_right ?_))
  exact Entails.refl _

/-! ### The levels -/

/-- Whether a semaphore's cells sit at level one or more: the barrier semaphore and the receive semaphores. -/
def lvPos : SemLoc sig → Bool
  | .reg _ => true
  | .dma q => decide (9 ≤ q.val ∧ q.val < 15) || decide (21 ≤ q.val ∧ q.val < 27) || decide (31 ≤ q.val)

omit [FloatOps F] in
theorem lv_pos_of {g : GSem nD τ sig} (h : lvPos g.2 = true) : 0 < lv g () := by
  obtain ⟨t, sm⟩ := g
  cases sm with
  | reg s => exact Nat.one_pos
  | dma q =>
    simp only [lvPos, Bool.or_eq_true, decide_eq_true_eq] at h
    show 0 < (if 9 ≤ q.val ∧ q.val < 15 then 2 else if 21 ≤ q.val ∧ q.val < 27 then 3 else if 31 ≤ q.val then 4 else 0)
    split_ifs with h1 h2 h3
    · exact Nat.succ_pos _
    · exact Nat.succ_pos _
    · exact Nat.succ_pos _
    · exfalso; rcases h with (h | h) | h
      · exact h1 h
      · exact h2 h
      · exact h3 h

omit [FloatOps F] in
/-- Everything a device owes at launch is owed to a TensorCore cell at level one or more. -/
theorem O₀_pos {c : Dev nD} {g : GSem nD τ sig} {u : Unit} (h : 0 < O₀ c g u) : g.1.2 = Proc.tc ∧ 0 < lv g u := by
  have key : ∀ {g' : GSem nD τ sig} {k : ℕ}, 0 < (tallyAt g' () k : CellTallies nD τ sig Unit) g u → g'.1.2 = Proc.tc → lvPos g'.2 = true → g.1.2 = Proc.tc ∧ 0 < lv g u :=
    fun hp h1 h2 => by obtain ⟨rfl, rfl⟩ := Pipeline.tallyAt_pos hp; exact ⟨h1, lv_pos_of h2⟩
  unfold O₀ at h
  iterate 18 (rcases Pipeline.add_pos_cases h with h | h' <;> [skip; exact key h' rfl rfl])
  exact key h rfl rfl

omit [FloatOps F] in
/-- A wait on a cell at level zero — a staging cell — is allowed whatever of the launch dues is still owed. -/
theorem mayWait_stage (c : Dev nD) (q : DmaSem sig) (hq : lv ((c : Thread nD τ), .dma q) () = 0) (O : CellTallies nD τ sig Unit) (hO : O = O₀ c ∨ O = 0) :
    (levAts L lv : sProp 𝕄) ⊢ MayWait (c : Thread nD τ) (.dma q) () O := by
  rcases hO with rfl | rfl
  · exact Pipeline.mayWait_of_levAts (by rw [L_tc]; exact Finset.mem_singleton_self _) fun g i hg => by
      obtain ⟨h1, h2⟩ := O₀_pos hg
      refine ⟨?_, by rw [hq]; exact h2⟩
      obtain ⟨⟨d, p⟩, sm⟩ := g
      cases h1; rw [L_tc]; exact Finset.mem_singleton_self _
  · rw [MayWait_zero]; iintro -; iempintro

theorem waits (c : Dev nD) : (levAts L lv : sProp 𝕄) ⊢ Pipeline.cellsWaits cfgs (dats SND BLK OUT m) () 0 c :=
  Pipeline.cellsWaits_intro cfgs (dats SND BLK OUT m) () 0 c fun w s t =>
    mayWait_stage c _ (by fin_cases w <;> fin_cases s <;> rfl) _ (by
      rcases t with ⟨_ | _, ht⟩
      · exact Or.inl rfl
      · exact Or.inr rfl)

/-! ### The theorem's side conditions -/

omit [FloatOps F] in
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' SND BLK c)
      ⊢ |={Set.univ}=> iprop(start SND BLK c ∗ emp) := by
  iintro ⟨-, Hlev, Hcr, -, HG⟩
  ihave Hc := (creds (F := F) c) $$ Hcr
  imodintro
  unfold start G'
  isplitl
  · isplitl [HG]; · iexact HG
    isplitl [Hc]; · iexact Hc
    iexact Hlev
  · iempintro

theorem phi0_intro (c : Dev nD) :
    iprop(start SND BLK c ∗ Pipeline.prefHeld Pipeline.Prefetch.none c (fun _ => fullShare.right) (fun k => k.elim0) ∗ Pipeline.scopedRest cfg0.spec c)
      ⊢ (dats SND BLK OUT m 0 c).Φ 0 := by
  rw [show (dats SND BLK OUT m 0 c).Φ 0 = Φ₀ SND BLK c from rfl, scopedRest0_eq]
  unfold Φ₀ scratch
  iintro ⟨Hs, -, Hr⟩
  isplitl [Hs]; · iexact Hs
  iexact Hr

theorem phi1_exit (c : Dev nD) :
    (dats SND BLK OUT m 0 c).Φ (Fin.last cfg0.N) ⊢ iprop(emp ∗ Pipeline.ownSems0 osem c ∗ Pipeline.scopedRest cfg0.spec c) := by
  rw [show (dats SND BLK OUT m 0 c).Φ (Fin.last cfg0.N) = Φ₁ c from rfl, scopedRest0_eq, ownSems0_eq]
  unfold Φ₁ scratch
  iintro ⟨Hr, Hz⟩
  isplitr; · iempintro
  isplitl [Hz]; · iexact Hz
  iexact Hr

/-! ### The result array -/

/-- The output window is the whole result array, written back at the one point: the array ends at what the body
    leaves in the window's staging buffer. -/
theorem out_final (c : Dev nD) : (dats SND BLK OUT m 0 c).arrAt (2 : Fin 3) cfg0.N = OUT c := by
  refine (dats SND BLK OUT m 0 c).arrAt_eq_of_cover 2 (OUT c) (fun t _ => ?_) (fun i => ⟨t0_0, flush0_2 t0_0, ?_⟩)
  · funext j
    show OUT c j = OUT c (((cfg0.win 2).blk t).view.emb j)
    refine congrArg (OUT c) (funext fun a => Fin.ext ?_)
    match a with
    | ⟨0, _⟩ => show (j 0).val = 0 * 256 + 1 * (j 0).val; omega
    | ⟨1, _⟩ => show (j 1).val = 0 * 2048 + 1 * (j 1).val; omega
  · show i ∈ ((View.whole main_v1).slice (win0_2.rect t0_0)).set
    rw [View.set_slice_whole, Rect.mem_set_unit]
    intro a
    match a with
    | ⟨0, _⟩ => show 0 * 256 ≤ (i 0).val ∧ (i 0).val < 0 * 256 + 256; have h : (i 0).val < 256 := (i 0).isLt; omega
    | ⟨1, _⟩ => show 0 * 2048 ≤ (i 1).val ∧ (i 1).val < 0 * 2048 + 2048; have h : (i 1).val < 2048 := (i 1).isLt; omega

/-! ### The run -/

set_option maxRecDepth 8000 in
/-- At the compiled mesh of eight devices, for any float values, from any memory with zero counters: if each device's
    body meets its obligation over the proof data, every weakly fair execution of @main terminates, and every final
    state has each device's result array at `OUT c` — what the body leaves in the output window's staging buffer — and
    the arguments unchanged. -/
theorem run_of_body (hbody : ∀ c, BodyObligation (dats SND BLK OUT m 0 c) (defs₀ (F := F)) 𝒱₀ () Set.univ) :
    θ_run defs (onTc (τ := τ) (main (F := F))) ⟨m, fun _ => 0, ρ⟩ (fun r => ∀ c : Dev nD,
      r.2.mem ((c.tc : Thread nD τ).loc main_v1) = OUT c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_region_owing_glob_pf (fun p => (cfgs p).toPCfg) (fun p => (cfgs p).toPCfg_adm) (dats SND BLK OUT m) () cellOf_inj (0 : Fin 1)
    winFacts0.to₀ ownSemFacts (Pipeline.PreFacts.none _) EP defs₀ 𝒱₀ m ρ main
    (hmain := fun _ => rfl)
    (hbody := hbody) (hne := fun w => by fin_cases w <;> exact Nat.succ_pos _) (harr := arr_whole0) (hstage := stage_whole0) (hshare := share_eq SND BLK OUT m)
    (hdistinct := winFacts0.arr_inj)
    (O₀ := O₀) (howed₀ := fun _ => rfl) (howedN := fun _ => rfl)
    (L := L) (lv := lv) (hL := L_of_ne) (hwaits := waits SND BLK OUT m)
    (G := G SND BLK) (G' := G' SND BLK) (u₀ := u₀)
    (hu₀ := by
      unfold u₀
      iintro Hu
      ihave H := (ownU_pair _ _) $$ Hu
      icases H with ⟨HP, HX⟩
      imod (fund_cells SND BLK) $$ HX with HG
      imodintro
      isplitl [HP] <;> iassumption)
    (hglob := glob SND BLK)
    (hA := fun _ _ => rfl) (hpf := fun _ k => k.elim0)
    (X := start SND BLK) (Y := fun _ => iprop(emp)) (Z := fun _ => iprop(emp))
    (hX := start_intro SND BLK m ρ) (hin := phi0_intro SND BLK OUT m) (hout := phi1_exit SND BLK OUT m)
    (QY := fun _ _ => True)
    (hY := fun c s' => by
      iintro ⟨-, -, HSI⟩
      imodintro
      isplitr; · ipureintro; trivial
      iexact HSI)
    (hQ := fun _ h c => ⟨((h c).1 2).trans (out_final SND BLK OUT m c), ((h c).1 0).trans ((dats SND BLK OUT m 0 c).arrAt_in 0 rfl _), ((h c).1 1).trans ((dats SND BLK OUT m 0 c).arrAt_in 1 rfl _)⟩)

end Launch

/-- info: 'Cert.Kernel.Coll.run_of_body' depends on axioms: [propext, Classical.choice, Quot.sound] -/
#guard_msgs in #print axioms run_of_body

end Cert.Kernel.Coll

end
-- ==== Proof.Bits.BodyDefs.lean ====
import proofs.«900594_g7700000000000595_dist_rsdw_v7x_xyz2x2x2_y_m512_d512_f2048_bf16_1_alg».proof.Proof.Bits.Mesh
import proofs.«900594_g7700000000000595_dist_rsdw_v7x_xyz2x2x2_y_m512_d512_f2048_bf16_1_alg».proof.Proof.Gen.Kernel.Skeleton
import proofs.«900594_g7700000000000595_dist_rsdw_v7x_xyz2x2x2_y_m512_d512_f2048_bf16_1_alg».proof.Proof.Gen.Kernel.Frame
import proofs.«900594_g7700000000000595_dist_rsdw_v7x_xyz2x2x2_y_m512_d512_f2048_bf16_1_alg».proof.Proof.Bits.Ghost
import Idealize.ShloMosaic.Lib.Pipeline.Launch
import Idealize.ShloMosaic.Lib.Pipeline.Kit
import Idealize.ShloMosaic.Lib.Tactic

noncomputable section

namespace Cert.Kernel.Coll

open Cert.Kernel Cert.Kernel.Gen Cert.Kernel.Mesh
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

section BodyDefs
variable (SND : Dev nD → (cc0_scratch1 : Ref sig .tc).ty.Contents (Elt F)) (BLK : Dev nD → (cc0_scratch4 : Ref sig .tc).ty.Contents (Elt F))
  (OUT : Dev nD → (cc0_stg2_0 : Ref sig .tc).ty.Contents (Elt F))
variable (m : (ℓ : Loc nD τ sig) → Buf (Elt F) ℓ)

/-- The one grid point. -/
def t₀ : Fin cfg0.N := ⟨0, by decide⟩

/-- A staging buffer whole at named contents. -/
abbrev stg (c : Dev nD) (b : Ref sig .tc) (Xc : b.ty.Contents (Elt F)) : sProp 𝕄 :=
  iprop(∃ f : Buf (Elt F) (((c : Dev nD) : Thread nD τ).loc b), ⌜f = Xc⌝ ∗ (((c : Thread nD τ).loc b) ↦{fullShare} f))

/-- What the body of device c starts from: its ghost state at the names K, its launch credit, the levels, the five
    scratch buffers, what it owes, and the three staging buffers as the pipeline hands them over. -/
def bodyPre (K : GSem nD τ sig → ℕ) (c : Dev nD) : sProp 𝕄 :=
  iprop((ghost SND BLK K c ∗ credits c ∗ levAts L lv ∗ scratch c)
    ∗ (dats SND BLK OUT m 0 c).owesAt () t₀.castSucc
    ∗ (∃ d, stg c cc0_stg0_0 ((dats SND BLK OUT m 0 c).before (0 : Fin 3) t₀ d))
    ∗ (∃ d, stg c cc0_stg1_0 ((dats SND BLK OUT m 0 c).before (1 : Fin 3) t₀ d))
    ∗ (∃ d, stg c cc0_stg2_0 ((dats SND BLK OUT m 0 c).before (2 : Fin 3) t₀ d)))

/-- What it ends with: the scratch buffers and its semaphores back, nothing owed, the inputs in place and the result
    buffer holding OUT c. -/
def bodyPost (c : Dev nD) : sProp 𝕄 :=
  iprop(Φ₁ c ∗ (dats SND BLK OUT m 0 c).owesAt () t₀.succ
    ∗ stg c cc0_stg0_0 (xstg m c) ∗ stg c cc0_stg1_0 (dystg m c) ∗ stg c cc0_stg2_0 (OUT c))

end BodyDefs

end Cert.Kernel.Coll

end
-- ==== Proof.Bits.Assemble.lean ====
/-
  From the body lemma to the run: the body lemma of one device, stated from the body's own precondition, is put in
  the form the pipeline asks of a body (the three windows' staging buffers one by one, the point named), and the
  launch then gives the run of @main with each device's result array named and the arguments unchanged; the frame
  is that run with the result dropped. The value families `SND`, `BLK`, `OUT` stay arbitrary: the body lemma is a
  hypothesis here.
-/
import proofs.«900594_g7700000000000595_dist_rsdw_v7x_xyz2x2x2_y_m512_d512_f2048_bf16_1_alg».proof.Proof.Bits.Launch
import proofs.«900594_g7700000000000595_dist_rsdw_v7x_xyz2x2x2_y_m512_d512_f2048_bf16_1_alg».proof.Proof.Bits.BodyDefs
import Idealize.ShloMosaic.Lib.Pipeline.Launch
import Idealize.ShloMosaic.Lib.Pipeline.Kit
import Idealize.ShloMosaic.Lib.Tactic

noncomputable section

namespace Cert.Kernel.Coll

open Cert.Kernel Cert.Kernel.Gen Cert.Kernel.Mesh
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

section Assemble
variable (SND : Dev nD → (cc0_scratch1 : Ref sig .tc).ty.Contents (Elt F)) (BLK : Dev nD → (cc0_scratch4 : Ref sig .tc).ty.Contents (Elt F))
  (OUT : Dev nD → (cc0_stg2_0 : Ref sig .tc).ty.Contents (Elt F))
variable (m : (ℓ : Loc nD τ sig) → Buf (Elt F) ℓ)

omit [FloatOps F] in
/-- The grid has the one point. -/
theorem fin_N (t : Fin cfg0.N) : t = t₀ := (fin_N0 t).trans rfl

omit [FloatOps F] in
/-- A whole buffer held at named contents, as the points-to of its location. -/
theorem owns_whole_eq (c : Dev nD) (b : Ref sig .tc) (Xc : b.ty.Contents (Elt F)) :
    (owns (Ix := Unit) (Name := ℕ) (U := UU) (Lvl := ℕ) (c : Thread nD τ) (Memref.whole b) fullShare Xc : sProp 𝕄)
      = iprop(∃ f : Buf (Elt F) (((c : Dev nD) : Thread nD τ).loc b), ⌜f = Xc⌝ ∗ (((c : Thread nD τ).loc b) ↦{fullShare} f)) := by
  unfold owns; simp only [Memref.view_whole, View.read_whole, View.set_whole]

/-- What the pipeline hands the body at the point: the region's precondition, what is owed, and the three staging
    buffers, the first two holding the device's argument arrays. -/
def bodyPre' (c : Dev nD) : sProp 𝕄 :=
  iprop(Φ₀ SND BLK c ∗ (dats SND BLK OUT m 0 c).owesAt () t₀.castSucc
    ∗ (∃ d, stg c cc0_stg0_0 ((dats SND BLK OUT m 0 c).before (0 : Fin 3) t₀ d))
    ∗ (∃ d, stg c cc0_stg1_0 ((dats SND BLK OUT m 0 c).before (1 : Fin 3) t₀ d))
    ∗ (∃ d, stg c cc0_stg2_0 ((dats SND BLK OUT m 0 c).before (2 : Fin 3) t₀ d)))

/-- The body lemma's statement, named: from the body's own precondition at any names K, on any device, the body runs
    to its postcondition. -/
def SoundBody : Prop :=
  ∀ (K : GSem nD τ sig → ℕ) (c : Dev nD) (Kt : PUnit → sProp 𝕄),
      iprop(bodyPre SND BLK OUT m K c ∗ (bodyPost SND BLK OUT m c -∗ Kt ⟨⟩))
        ⊢ wp frame (wpE (defs₀ (F := F)) 𝒱₀ c none) Set.univ
      (cc0_body (Memref.whole cc0_stg0_0) (Memref.isWhole_whole _) (Memref.whole cc0_stg1_0) (Memref.isWhole_whole _) (Memref.whole cc0_stg2_0) (Memref.isWhole_whole _)
        (Memref.whole cc0_scratch0) (Memref.isWhole_whole _) (Memref.whole cc0_scratch1) (Memref.isWhole_whole _) (Memref.whole cc0_scratch2) (Memref.isWhole_whole _)
        (Memref.whole cc0_scratch3) (Memref.isWhole_whole _) (Memref.whole cc0_scratch4) (Memref.isWhole_whole _)
        cc0_scratch5 cc0_scratch6 cc0_scratch7 cc0_scratch8 cc0_scratch9 cc0_scratch10) Kt

/-- The pipeline's body obligation on device c, from the body lemma. -/
theorem body_obligation_of
    (hsound : SoundBody SND BLK OUT m)
    (c : Dev nD) : BodyObligation (dats SND BLK OUT m 0 c) (defs₀ (F := F)) 𝒱₀ () Set.univ := fun t => by
  rw [fin_N t]
  rw [bigSep_W0, bigSep_W0]
  simp only [owns_whole_eq]
  show bodyPre' SND BLK OUT m c ⊢ wp frame (wpE (defs₀ (F := F)) 𝒱₀ c none) Set.univ
    (cc0_body (Memref.whole cc0_stg0_0) (Memref.isWhole_whole _) (Memref.whole cc0_stg1_0) (Memref.isWhole_whole _) (Memref.whole cc0_stg2_0) (Memref.isWhole_whole _)
        (Memref.whole cc0_scratch0) (Memref.isWhole_whole _) (Memref.whole cc0_scratch1) (Memref.isWhole_whole _) (Memref.whole cc0_scratch2) (Memref.isWhole_whole _)
        (Memref.whole cc0_scratch3) (Memref.isWhole_whole _) (Memref.whole cc0_scratch4) (Memref.isWhole_whole _)
        cc0_scratch5 cc0_scratch6 cc0_scratch7 cc0_scratch8 cc0_scratch9 cc0_scratch10) (fun _ => bodyPost SND BLK OUT m c)
  unfold bodyPre' Φ₀ start
  iintro ⟨⟨⟨⟨%K, Hg⟩, Hcr, Hlev⟩, Hscr⟩, Ho, Hx, Hdy, Hout⟩
  iapply (hsound K c fun _ => bodyPost SND BLK OUT m c)
  unfold bodyPre
  isplitr []
  · isplitl [Hg Hcr Hlev Hscr]
    · isplitl [Hg]; · iexact Hg
      isplitl [Hcr]; · iexact Hcr
      isplitl [Hlev]; · iexact Hlev
      iexact Hscr
    isplitl [Ho]; · iexact Ho
    isplitl [Hx]; · iexact Hx
    isplitl [Hdy]; · iexact Hdy
    iexact Hout
  · iintro H; iexact H

/-- The run, from the body lemma: every weakly fair execution of @main on the eight devices terminates, each device's
    result array ends at `OUT c` and its argument arrays are unchanged. -/
theorem run_out
    (hsound : SoundBody SND BLK OUT m)
    (ρ : Dev nD → PrngReg) :
    θ_run defs (onTc (τ := τ) (main (F := F))) ⟨m, fun _ => 0, ρ⟩ (fun r => ∀ c : Dev nD,
      r.2.mem ((c.tc : Thread nD τ).loc main_v1) = OUT c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  run_of_body SND BLK OUT m ρ (body_obligation_of SND BLK OUT m hsound)

/-- The frame: the run with the result dropped. -/
theorem frame_of_run
    (hsound : SoundBody SND BLK OUT m)
    (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => (h c).2) (run_out SND BLK OUT m hsound ρ)

end Assemble

/-- info: 'Cert.Kernel.Coll.body_obligation_of' depends on axioms: [propext, Classical.choice, Quot.sound] -/
#guard_msgs in #print axioms body_obligation_of
/-- info: 'Cert.Kernel.Coll.run_out' depends on axioms: [propext, Classical.choice, Quot.sound] -/
#guard_msgs in #print axioms run_out
/-- info: 'Cert.Kernel.Coll.frame_of_run' depends on axioms: [propext, Classical.choice, Quot.sound] -/
#guard_msgs in #print axioms frame_of_run

end Cert.Kernel.Coll

end
-- ==== Proof.RefValue.lean ====
/-
  The one-device reference, read as ONE function of its two argument arrays.

  The reference transposes `x : [1024, 512]` and contracts the transposed array with `dy : [1024, 2048]` over
  the 1024 rows: at the ideal instance its result at row `i`, column `j` is the sum over `k` of
  `x[k, i] * dy[k, j]`, on the extended reals (a transpose moves no value, and the host's contraction is the
  textbook sum of products). `refOut` is that array; `ref_term_eq` says the term the reference's run ends at
  is `refOut` of the arguments; `run_ref` is the run with the result so named, and `frame_ri` the run with the
  result dropped.
-/
import proofs.«900594_g7700000000000595_dist_rsdw_v7x_xyz2x2x2_y_m512_d512_f2048_bf16_1_alg».proof.Defs
import proofs.«900594_g7700000000000595_dist_rsdw_v7x_xyz2x2x2_y_m512_d512_f2048_bf16_1_alg».proof.Proof.Gen.ReferenceIdeal
import proofs.«900594_g7700000000000595_dist_rsdw_v7x_xyz2x2x2_y_m512_d512_f2048_bf16_1_alg».proof.Proof.Gen.ReferenceIdeal.Run
import proofs.«900594_g7700000000000595_dist_rsdw_v7x_xyz2x2x2_y_m512_d512_f2048_bf16_1_alg».proof.Proof.Gen.ReferenceIdeal.Read
import proofs.«900594_g7700000000000595_dist_rsdw_v7x_xyz2x2x2_y_m512_d512_f2048_bf16_1_alg».proof.Proof.Gen.Pre_finite_inputs_ReferenceIdeal
import Idealize.ShloMosaic.Lib.ValueIdx

noncomputable section

namespace Cert.ReferenceIdeal.RefValue

open Cert.ReferenceIdeal Cert.ReferenceIdeal.Gen Idealize.ShloMosaic Idealize.ShloMosaic.TcCoe Idealize.SL.Sem
open Idealize.ShloMosaic.ValueIdx

/-- The reference's result as a function of its arguments: entry `(i, j)` is `∑ k, x[k, i] * dy[k, j]`. -/
def refOut (x : (⟨S1024x512, .f32⟩ : BufTy).Contents (Elt Ideal)) (dy : (⟨S1024x2048, .f32⟩ : BufTy).Contents (Elt Ideal)) :
    (⟨S512x2048, .f32⟩ : BufTy).Contents (Elt Ideal) :=
  fun ij => ∑ k : Fin 1024, x (ix2 k (ij 0)) * dy (ix2 k (ij 1))

/-- `refOut` at the index of coordinates `i`, `j`. -/
theorem refOut_apply (x : (⟨S1024x512, .f32⟩ : BufTy).Contents (Elt Ideal)) (dy : (⟨S1024x2048, .f32⟩ : BufTy).Contents (Elt Ideal))
    (i : Fin 512) (j : Fin 2048) :
    refOut x dy (ix2 i j) = ∑ k : Fin 1024, x (ix2 k i) * dy (ix2 k j) := rfl

/-- The transposed left operand at (row `i`, contraction position `k`) is `x` at `(k, i`). -/
theorem lhs_index (i : Fin 512) (j : Fin 2048) (k : Fin 1024) :
    Read.idx_main_v0 (Read.lidx_main_v1 (ix2 i j) k) = ix2 k i :=
  funext fun a => Fin.ext (by match a with | ⟨0, _⟩ => rfl | ⟨1, _⟩ => rfl)

/-- The right operand at (contraction position `k`, column `j`). -/
theorem rhs_index (i : Fin 512) (j : Fin 2048) (k : Fin 1024) :
    Read.ridx_main_v1 (ix2 i j) k = ix2 k j :=
  funext fun a => Fin.ext (by match a with | ⟨0, _⟩ => rfl | ⟨1, _⟩ => rfl)

/-- The term the reference's run states for its result — the host contraction of the transposed first argument
    with the second — is `refOut` of the two arguments. -/
theorem ref_term_eq (x : (⟨S1024x512, .f32⟩ : BufTy).Contents (Elt Ideal)) (dy : (⟨S1024x2048, .f32⟩ : BufTy).Contents (Elt Ideal)) :
    Host.dotGeneral (F := Ideal) (φ₁ := .f32) (φ₂ := .f32) dot_S512x1024_S1024x2048_S512x2048_1_0_0_1_n_n none
        (transpose (α := Ideal .f32) S512x1024 [1, 0] x transposes_S1024x512_S512x1024_1_0) dy
      = refOut x dy := by
  rw [Read.val_main_v1_eq]
  funext ij
  obtain ⟨i, j, rfl⟩ : ∃ (i : Fin 512) (j : Fin 2048), ij = ix2 i j := ⟨ij 0, ij 1, eq_ix2 ij⟩
  rw [Read.val_main_v1_apply, refOut_apply]
  refine Finset.sum_congr rfl fun k _ => ?_
  rw [Read.val_main_v0_apply, lhs_index, rhs_index]

/-- Every weakly fair execution of the reference terminates with its result at `refOut` of the two argument
    arrays as they were at the start, and the arguments unchanged. -/
theorem run_ref (m' : (ℓ : Loc Cert.ReferenceIdeal.nD Cert.ReferenceIdeal.τ Cert.ReferenceIdeal.sig) → Buf (Elt Ideal) ℓ)
    (ρ' : Dev Cert.ReferenceIdeal.nD → PrngReg) :
    θ_run (Cert.ReferenceIdeal.defs (F := Ideal)) (onTc (τ := Cert.ReferenceIdeal.τ) (Cert.ReferenceIdeal.main (F := Ideal))) ⟨m', fun _ => 0, ρ'⟩ (fun r =>
      r.2.mem (((0 : Dev Cert.ReferenceIdeal.nD).tc : Thread Cert.ReferenceIdeal.nD Cert.ReferenceIdeal.τ).loc Cert.ReferenceIdeal.main_v1)
          = refOut (m' (((0 : Dev Cert.ReferenceIdeal.nD).tc : Thread Cert.ReferenceIdeal.nD Cert.ReferenceIdeal.τ).loc Cert.ReferenceIdeal.main_arg0))
              (m' (((0 : Dev Cert.ReferenceIdeal.nD).tc : Thread Cert.ReferenceIdeal.nD Cert.ReferenceIdeal.τ).loc Cert.ReferenceIdeal.main_arg1))
      ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
      ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)) :=
  (θ_run Cert.ReferenceIdeal.defs _ _).mono (fun _ h => ⟨(h 0).1.trans (ref_term_eq _ _), (h 0).2⟩)
    (Cert.ReferenceIdeal.Value.run (F := Ideal) m' ρ')

/-- The reference runs and leaves its arguments as they were: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- info: 'Cert.ReferenceIdeal.RefValue.ref_term_eq' depends on axioms: [propext, Classical.choice, Quot.sound] -/
#guard_msgs in #print axioms ref_term_eq
/-- info: 'Cert.ReferenceIdeal.RefValue.run_ref' depends on axioms: [propext, Classical.choice, Quot.sound] -/
#guard_msgs in #print axioms run_ref
/-- info: 'Cert.ReferenceIdeal.RefValue.frame_ri' depends on axioms: [propext, Classical.choice, Quot.sound] -/
#guard_msgs in #print axioms frame_ri

end Cert.ReferenceIdeal.RefValue

end
-- ==== Proof.Final.lean ====
/-
  The certificate's five conjuncts from the two body lemmas and the value of the kernel's result.

  The word-level program and the idealized one are one text at two float instances, so each has its frame from the
  same run, with the result dropped; the reference's frame is its run with the result dropped; the idealization
  rewrote no operation. For the algebraic conjunct the reference's result is `refOut` of its two arguments, the
  kernel's run leaves `OUT c` in device c's result array, and `OUT c` is device c's block of `refOut` when each
  device's arguments are its blocks of the reference's: that last fact, the value families and the two body lemmas
  are hypotheses here.
-/
import proofs.«900594_g7700000000000595_dist_rsdw_v7x_xyz2x2x2_y_m512_d512_f2048_bf16_1_alg».proof.Defs
import proofs.«900594_g7700000000000595_dist_rsdw_v7x_xyz2x2x2_y_m512_d512_f2048_bf16_1_alg».proof.Proof.Gen.Kernel
import proofs.«900594_g7700000000000595_dist_rsdw_v7x_xyz2x2x2_y_m512_d512_f2048_bf16_1_alg».proof.Proof.Gen.KernelIdeal
import proofs.«900594_g7700000000000595_dist_rsdw_v7x_xyz2x2x2_y_m512_d512_f2048_bf16_1_alg».proof.Proof.Gen.ReferenceIdeal
import proofs.«900594_g7700000000000595_dist_rsdw_v7x_xyz2x2x2_y_m512_d512_f2048_bf16_1_alg».proof.Proof.Gen.Pre_finite_inputs_Kernel
import proofs.«900594_g7700000000000595_dist_rsdw_v7x_xyz2x2x2_y_m512_d512_f2048_bf16_1_alg».proof.Proof.Gen.Pre_finite_inputs_ReferenceIdeal
import proofs.«900594_g7700000000000595_dist_rsdw_v7x_xyz2x2x2_y_m512_d512_f2048_bf16_1_alg».proof.Proof.Assemble
import proofs.«900594_g7700000000000595_dist_rsdw_v7x_xyz2x2x2_y_m512_d512_f2048_bf16_1_alg».proof.Proof.Bits.Assemble
import proofs.«900594_g7700000000000595_dist_rsdw_v7x_xyz2x2x2_y_m512_d512_f2048_bf16_1_alg».proof.Proof.RefValue

noncomputable section

namespace Cert.Final

open Idealize.ShloMosaic Idealize.ShloMosaic.TcCoe Idealize.SL.Sem

section Claim
-- The idealized kernel's value families, as functions of the launch memory, at the ideal instance;
variable
  (SNDi : ((ℓ : Loc Cert.KernelIdeal.nD Cert.KernelIdeal.τ Cert.KernelIdeal.sig) → Buf (Elt Ideal) ℓ) → Dev Cert.KernelIdeal.nD
    → (Cert.KernelIdeal.cc0_scratch1 : Ref Cert.KernelIdeal.sig .tc).ty.Contents (Elt Ideal))
  (BLKi : ((ℓ : Loc Cert.KernelIdeal.nD Cert.KernelIdeal.τ Cert.KernelIdeal.sig) → Buf (Elt Ideal) ℓ) → Dev Cert.KernelIdeal.nD
    → (Cert.KernelIdeal.cc0_scratch4 : Ref Cert.KernelIdeal.sig .tc).ty.Contents (Elt Ideal))
  (OUTi : ((ℓ : Loc Cert.KernelIdeal.nD Cert.KernelIdeal.τ Cert.KernelIdeal.sig) → Buf (Elt Ideal) ℓ) → Dev Cert.KernelIdeal.nD
    → (Cert.KernelIdeal.cc0_stg2_0 : Ref Cert.KernelIdeal.sig .tc).ty.Contents (Elt Ideal))
-- the word-level kernel's, at the bit-exact instance.
  (SNDb : ((ℓ : Loc Cert.Kernel.nD Cert.Kernel.τ Cert.Kernel.sig) → Buf (Elt Bits) ℓ) → Dev Cert.Kernel.nD
    → (Cert.Kernel.cc0_scratch1 : Ref Cert.Kernel.sig .tc).ty.Contents (Elt Bits))
  (BLKb : ((ℓ : Loc Cert.Kernel.nD Cert.Kernel.τ Cert.Kernel.sig) → Buf (Elt Bits) ℓ) → Dev Cert.Kernel.nD
    → (Cert.Kernel.cc0_scratch4 : Ref Cert.Kernel.sig .tc).ty.Contents (Elt Bits))
  (OUTb : ((ℓ : Loc Cert.Kernel.nD Cert.Kernel.τ Cert.Kernel.sig) → Buf (Elt Bits) ℓ) → Dev Cert.Kernel.nD
    → (Cert.Kernel.cc0_stg2_0 : Ref Cert.Kernel.sig .tc).ty.Contents (Elt Bits))

/-- The word-level kernel runs and leaves its arguments as they were. -/
theorem frame_p (hsoundB : ∀ m, Cert.Kernel.Coll.SoundBody (F := Bits) (SNDb m) (BLKb m) (OUTb m) m) : Cert.frame_Kernel :=
  fun m g _ => Cert.Kernel.Coll.frame_of_run (F := Bits) (SNDb m) (BLKb m) (OUTb m) m (hsoundB m) g

/-- So does the idealized kernel. -/
theorem frame_pi (hsoundI : ∀ m, Cert.KernelIdeal.Coll.SoundBody (F := Ideal) (SNDi m) (BLKi m) (OUTi m) m) : Cert.frame_KernelIdeal :=
  fun m g _ => Cert.KernelIdeal.Coll.frame_of_run (F := Ideal) (SNDi m) (BLKi m) (OUTi m) m (hsoundI m) g

/-- The idealization rewrote no operation. -/
theorem preserves : Cert.preserves_Kernel_KernelIdeal := trivial

/-- Kernel and reference agree: the reference's result is `refOut` of its arguments, and each device's result array
    ends at its block of it. -/
theorem algebraic (hsoundI : ∀ m, Cert.KernelIdeal.Coll.SoundBody (F := Ideal) (SNDi m) (BLKi m) (OUTi m) m)
    (hout : ∀ (m : (ℓ : Loc Cert.KernelIdeal.nD Cert.KernelIdeal.τ Cert.KernelIdeal.sig) → Buf (Elt Ideal) ℓ)
        (m' : (ℓ : Loc Cert.ReferenceIdeal.nD Cert.ReferenceIdeal.τ Cert.ReferenceIdeal.sig) → Buf (Elt Ideal) ℓ),
      Cert.Pre_KernelIdeal m →
      (∀ c : Dev Cert.KernelIdeal.nD,
        m ((c.tc : Thread Cert.KernelIdeal.nD Cert.KernelIdeal.τ).loc Cert.KernelIdeal.main_arg0) = Layout.blockN ⟨2, ![512, 512]⟩ ⟨2, ![1024, 512]⟩ (Layout.meshBlock [2, 2, 2] ![[1], []] c) (m' (((0 : Dev Cert.ReferenceIdeal.nD).tc : Thread Cert.ReferenceIdeal.nD Cert.ReferenceIdeal.τ).loc Cert.ReferenceIdeal.main_arg0))
        ∧ m ((c.tc : Thread Cert.KernelIdeal.nD Cert.KernelIdeal.τ).loc Cert.KernelIdeal.main_arg1) = Layout.blockN ⟨2, ![512, 2048]⟩ ⟨2, ![1024, 2048]⟩ (Layout.meshBlock [2, 2, 2] ![[1], []] c) (m' (((0 : Dev Cert.ReferenceIdeal.nD).tc : Thread Cert.ReferenceIdeal.nD Cert.ReferenceIdeal.τ).loc Cert.ReferenceIdeal.main_arg1))) →
      ∀ c : Dev Cert.KernelIdeal.nD,
        OUTi m c = Layout.blockN ⟨2, ![256, 2048]⟩ ⟨2, ![512, 2048]⟩ (Layout.meshBlock [2, 2, 2] ![[1], []] c)
          (Cert.ReferenceIdeal.RefValue.refOut
            (m' (((0 : Dev Cert.ReferenceIdeal.nD).tc : Thread Cert.ReferenceIdeal.nD Cert.ReferenceIdeal.τ).loc Cert.ReferenceIdeal.main_arg0))
            (m' (((0 : Dev Cert.ReferenceIdeal.nD).tc : Thread Cert.ReferenceIdeal.nD Cert.ReferenceIdeal.τ).loc Cert.ReferenceIdeal.main_arg1)))) :
    Cert.algebraic_KernelIdeal_ReferenceIdeal := by
  intro m g m' g' hpre hagree
  refine ⟨Cert.ReferenceIdeal.RefValue.refOut _ _, ?_, Cert.ReferenceIdeal.RefValue.run_ref m' g'⟩
  exact (θ_run Cert.KernelIdeal.defs _ _).mono (fun _ h c => ⟨(h c).1.trans (hout m m' hpre hagree c), (h c).2⟩)
    (Cert.KernelIdeal.Coll.run_out (F := Ideal) (SNDi m) (BLKi m) (OUTi m) m (hsoundI m) g)

/-- Everything the certificate claims. -/
theorem claim_of (hsoundB : ∀ m, Cert.Kernel.Coll.SoundBody (F := Bits) (SNDb m) (BLKb m) (OUTb m) m)
    (hsoundI : ∀ m, Cert.KernelIdeal.Coll.SoundBody (F := Ideal) (SNDi m) (BLKi m) (OUTi m) m)
    (hout : ∀ (m : (ℓ : Loc Cert.KernelIdeal.nD Cert.KernelIdeal.τ Cert.KernelIdeal.sig) → Buf (Elt Ideal) ℓ)
        (m' : (ℓ : Loc Cert.ReferenceIdeal.nD Cert.ReferenceIdeal.τ Cert.ReferenceIdeal.sig) → Buf (Elt Ideal) ℓ),
      Cert.Pre_KernelIdeal m →
      (∀ c : Dev Cert.KernelIdeal.nD,
        m ((c.tc : Thread Cert.KernelIdeal.nD Cert.KernelIdeal.τ).loc Cert.KernelIdeal.main_arg0) = Layout.blockN ⟨2, ![512, 512]⟩ ⟨2, ![1024, 512]⟩ (Layout.meshBlock [2, 2, 2] ![[1], []] c) (m' (((0 : Dev Cert.ReferenceIdeal.nD).tc : Thread Cert.ReferenceIdeal.nD Cert.ReferenceIdeal.τ).loc Cert.ReferenceIdeal.main_arg0))
        ∧ m ((c.tc : Thread Cert.KernelIdeal.nD Cert.KernelIdeal.τ).loc Cert.KernelIdeal.main_arg1) = Layout.blockN ⟨2, ![512, 2048]⟩ ⟨2, ![1024, 2048]⟩ (Layout.meshBlock [2, 2, 2] ![[1], []] c) (m' (((0 : Dev Cert.ReferenceIdeal.nD).tc : Thread Cert.ReferenceIdeal.nD Cert.ReferenceIdeal.τ).loc Cert.ReferenceIdeal.main_arg1))) →
      ∀ c : Dev Cert.KernelIdeal.nD,
        OUTi m c = Layout.blockN ⟨2, ![256, 2048]⟩ ⟨2, ![512, 2048]⟩ (Layout.meshBlock [2, 2, 2] ![[1], []] c)
          (Cert.ReferenceIdeal.RefValue.refOut
            (m' (((0 : Dev Cert.ReferenceIdeal.nD).tc : Thread Cert.ReferenceIdeal.nD Cert.ReferenceIdeal.τ).loc Cert.ReferenceIdeal.main_arg0))
            (m' (((0 : Dev Cert.ReferenceIdeal.nD).tc : Thread Cert.ReferenceIdeal.nD Cert.ReferenceIdeal.τ).loc Cert.ReferenceIdeal.main_arg1)))) :
    Cert.Claim :=
  ⟨Cert.Kernel.Gen.facts, Cert.KernelIdeal.Gen.facts, Cert.ReferenceIdeal.Gen.facts, Cert.Pre_finite_inputs_Kernel.Gen.facts, Cert.Pre_finite_inputs_ReferenceIdeal.Gen.facts,
    frame_p SNDb BLKb OUTb hsoundB, frame_pi SNDi BLKi OUTi hsoundI, Cert.ReferenceIdeal.RefValue.frame_ri, preserves,
    algebraic SNDi BLKi OUTi hsoundI hout⟩

end Claim

/-- info: 'Cert.Final.claim_of' depends on axioms: [propext, Classical.choice, Quot.sound] -/
#guard_msgs in #print axioms claim_of

end Cert.Final

end
-- ==== Proof.Steps.lean ====
import proofs.«900594_g7700000000000595_dist_rsdw_v7x_xyz2x2x2_y_m512_d512_f2048_bf16_1_alg».proof.Proof.Mesh
import proofs.«900594_g7700000000000595_dist_rsdw_v7x_xyz2x2x2_y_m512_d512_f2048_bf16_1_alg».proof.Proof.Gen.KernelIdeal.Skeleton
import proofs.«900594_g7700000000000595_dist_rsdw_v7x_xyz2x2x2_y_m512_d512_f2048_bf16_1_alg».proof.Proof.Gen.KernelIdeal.Frame
import proofs.«900594_g7700000000000595_dist_rsdw_v7x_xyz2x2x2_y_m512_d512_f2048_bf16_1_alg».proof.Proof.Ghost
import Idealize.ShloMosaic.Lib.Pipeline.Launch
import Idealize.ShloMosaic.Lib.Pipeline.Kit
import Idealize.ShloMosaic.Lib.Tactic

noncomputable section

namespace Cert.KernelIdeal.Coll

open Cert.KernelIdeal Cert.KernelIdeal.Gen Cert.KernelIdeal.Mesh
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

section Steps
variable (SND : Dev nD → (cc0_scratch1 : Ref sig .tc).ty.Contents (Elt F)) (BLK : Dev nD → (cc0_scratch4 : Ref sig .tc).ty.Contents (Elt F))

/-- Copy j across y: device c's send slot j into slot j of its y neighbour's receive buffer. The source comes back with
    the send cell's credit at some contents; the neighbour's receive cell is handed the slot holding what was sent,
    restated at the canonical contents the source agrees with on the slot (hfs). -/
theorem wp_ysend (K : GSem nD τ sig → ℕ) (c n : Dev nD) (hn : n = yp c) (j : Fin 6)
    {hsc : (slot6 rcvM j : Memref sig (Dev.tc n : Thread nD τ).2.kind .vmem S256x128 .bf16).view.ref.isScScratch = false}
    {hsrc : (slot6 sndM j : Memref sig .tc .vmem S256x128 .bf16).view.WordExact} {hdst : (slot6 rcvM j : Memref sig .tc .vmem S256x128 .bf16).view.WordExact}
    {hsem : DmaTarget.Typed .vmem (.dma (yrS j)) (.remote (Dev.tc n : Thread nD τ) (slot6 rcvM j : Memref sig .tc .vmem S256x128 .bf16) (.dma (ysS j)) hsc)}
    {α : Type} {Q : α → sProp 𝕄} {k : PUnit → Prog (TpuEff nD τ sig (Elt F) Λ₀ .tc) α}
    (fs : Buf (Elt F) ((slot6 sndM j).view.loc (c : Thread nD τ))) (fd : Buf (Elt F) ((slot6 rcvM j).view.loc (yp c : Thread nD τ)))
    (hfs : ∀ i ∈ (slot6 rcvM j).view.set, (slot6 rcvM j).view.write (Elt F) fd ((slot6 sndM j).view.read (Elt F) fs) Finset.univ i = SND c i)
    (O : CellTallies nD τ sig Unit) (W : Waits sig Unit) :
    iprop(cellInv ER (Rd SND BLK) (K (ysCell c j)) (ysCell c j) ∗ cellInv ER (Rd SND BLK) (K (yrCell (yp c) j)) (yrCell (yp c) j)
        ∗ ((slot6 sndM j).view.loc (c : Thread nD τ) ↦[(slot6 sndM j).view.set]{fullShare} fs)
        ∗ ((slot6 rcvM j).view.loc (yp c : Thread nD τ) ↦[(slot6 rcvM j).view.set]{fullShare} fd)
        ∗ owes (c : Thread nD τ) (O + tallyAt (yrCell (yp c) j) () Ny) W
        ∗ dutyTok ER (ysCell c j) 0 0 ∗ reached ER (ysCell c j) 0
        ∗ dutyTok ER (yrCell (yp c) j) 0 0 ∗ reached ER (yrCell (yp c) j) 0)
      ⊢ iprop(((cred (tallyAt (ysCell c j) () Ny) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (slot6 sndM j) (.remote (Dev.tc n : Thread nD τ) (slot6 rcvM j) (.dma (ysS j)) hsc) (.dma (yrS j)) hsrc hdst hsem) k) Q) := by
  subst hn
  exact Rounds.wp_send_pointsTo 𝒱₀ ER (Rd SND BLK) (c : Thread nD τ) none (κ₁ := K (ysCell c j)) (κ₂ := K (yrCell (yp c) j))
    (r₁ := 0) (r₂ := 0) (d₁ := 0) (d₂ := 0) (fd := fd)
    (by rw [duties_ys]; exact Finset.mem_singleton_self _) (by rw [duties_yr]; exact Finset.mem_singleton_self _)
    () () Ny rfl (amount_ys SND BLK c j 0) (amount_yr SND BLK (yp c) j 0) O rfl (W := W)
    (by rw [payload_ys]; iintro H; iexists fs; iexact H)
    (by rw [payload_yr, yp_yp]; exact Entails.of_eq (pointsTo_congr hfs))

/-- The three payloads the owner of a barrier cell receives with the rest of its one round, as a chain. -/
theorem rest_bar (c : Dev nD) :
    bigSep ((Rd (F := F) SND BLK).duties (barCell c) 0 \ ∅) (fun d => (Rd (F := F) SND BLK).payload (barCell c) 0 d)
      = iprop(PX (xp c) ∗ PY (yp c) ∗ PZ (zp c)) := by
  rw [Finset.sdiff_empty, duties_bar,
    bigSep_eq_bigSepL_of_eq [xp c, yp c, zp c] (by ext d; simp) (by simp [xp_ne_yp, xp_ne_zp, yp_ne_zp]),
    bigSepL_cons_cons, bigSepL_cons_cons, bigSepL_singleton, payload_bar_wx, payload_bar_wy, payload_bar_wz]
  rfl

end Steps

end Cert.KernelIdeal.Coll

end
-- ==== Proof.Levels.lean ====
/-
  Levels of the cells, and the side condition of a wait read off the shape of what is still owed.

  A device may wait on one of its cells only while everything it still owes lies on cells of a strictly higher level.
  Barrier cells sit at level 1, the receive cells across y at 2, across x at 3, across z at 4, and the send cells at 0.
  What a device owes is always a sum of one-cell tallies, so "all of it lies above level n" is closed under sums and is
  decided cell by cell.
-/
import proofs.«900594_g7700000000000595_dist_rsdw_v7x_xyz2x2x2_y_m512_d512_f2048_bf16_1_alg».proof.Proof.Ghost

noncomputable section

namespace Cert.KernelIdeal.Coll

open Cert.KernelIdeal Cert.KernelIdeal.Gen Cert.KernelIdeal.Mesh
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The level of each cell -/

theorem lv_bar (c : Dev nD) : lv (barCell c) () = 1 := rfl

theorem lv_ys (c : Dev nD) (j : Fin 6) : lv (ysCell c j) () = 0 := by
  have hj := j.isLt
  dsimp only [lv]
  rw [if_neg (by rw [ysS_val]; omega), if_neg (by rw [ysS_val]; omega), if_neg (by rw [ysS_val]; omega)]

theorem lv_yr (c : Dev nD) (j : Fin 6) : lv (yrCell c j) () = 2 := by
  have hj := j.isLt
  dsimp only [lv]
  rw [if_pos (by rw [yrS_val]; omega)]

theorem lv_xs (c : Dev nD) (j : Fin 6) : lv (xsCell c j) () = 0 := by
  have hj := j.isLt
  dsimp only [lv]
  rw [if_neg (by rw [xsS_val]; omega), if_neg (by rw [xsS_val]; omega), if_neg (by rw [xsS_val]; omega)]

theorem lv_xr (c : Dev nD) (j : Fin 6) : lv (xrCell c j) () = 3 := by
  have hj := j.isLt
  dsimp only [lv]
  rw [if_neg (by rw [xrS_val]; omega), if_pos (by rw [xrS_val]; omega)]

theorem lv_zs (c : Dev nD) (i : Fin 4) : lv (zsCell c i) () = 0 := by
  have hi := i.isLt
  dsimp only [lv]
  rw [if_neg (by rw [zsS_val]; omega), if_neg (by rw [zsS_val]; omega), if_neg (by rw [zsS_val]; omega)]

theorem lv_zr (c : Dev nD) (i : Fin 4) : lv (zrCell c i) () = 4 := by
  have hi := i.isLt
  dsimp only [lv]
  rw [if_neg (by rw [zrS_val]; omega), if_neg (by rw [zrS_val]; omega), if_pos (by rw [zrS_val]; omega)]

/-! ## Everything owed lies above a level -/

/-- Every cell the tally O is positive at is a cell of a compute core, at a level strictly above n. -/
def Above (n : ℕ) (O : CellTallies nD τ sig Unit) : Prop :=
  ∀ (g : GSem nD τ sig) (i : Unit), 0 < O g i → i ∈ L g ∧ n < lv g i

/-- The empty tally is positive nowhere. -/
theorem above_zero (n : ℕ) : Above n 0 := by
  intro g i h
  rw [Pi.zero_apply, Finsupp.zero_apply] at h
  exact absurd h (Nat.lt_irrefl 0)

/-- A sum is positive only where a summand is. -/
theorem above_add {n : ℕ} {O₁ O₂ : CellTallies nD τ sig Unit} (h₁ : Above n O₁) (h₂ : Above n O₂) : Above n (O₁ + O₂) :=
  fun g i h => (Pipeline.add_pos_cases h).elim (h₁ g i) (h₂ g i)

/-- A one-cell tally is positive only at its cell: a compute core's cell above level n qualifies. -/
theorem above_tally (n : ℕ) (g₀ : GSem nD τ sig) (k : ℕ) (htc : g₀.1.2 = .tc) (h : n < lv g₀ ()) : Above n (tallyAt g₀ () k) := by
  intro g i hp
  obtain ⟨hg, hi⟩ := Pipeline.tallyAt_pos hp
  subst hg
  refine ⟨?_, h⟩
  unfold L
  rw [if_pos htc]
  exact Finset.mem_singleton_self _

/-- The cell kinds that carry a positive level, each with the bound it clears. -/
theorem above_bar (n : ℕ) (c : Dev nD) (k : ℕ) (h : n < 1) : Above n (tallyAt (barCell c) () k) :=
  above_tally n _ k rfl (by rw [lv_bar]; exact h)
theorem above_yr (n : ℕ) (c : Dev nD) (j : Fin 6) (k : ℕ) (h : n < 2) : Above n (tallyAt (yrCell c j) () k) :=
  above_tally n _ k rfl (by rw [lv_yr]; exact h)
theorem above_xr (n : ℕ) (c : Dev nD) (j : Fin 6) (k : ℕ) (h : n < 3) : Above n (tallyAt (xrCell c j) () k) :=
  above_tally n _ k rfl (by rw [lv_xr]; exact h)
theorem above_zr (n : ℕ) (c : Dev nD) (i : Fin 4) (k : ℕ) (h : n < 4) : Above n (tallyAt (zrCell c i) () k) :=
  above_tally n _ k rfl (by rw [lv_zr]; exact h)

/-! ## The side condition of one wait -/

/-- A device waiting on a cell of level n, while all it owes lies above n, may wait. -/
theorem mayWait_above (c : Dev nD) (s : SemLoc sig) (O : CellTallies nD τ sig Unit) (n : ℕ)
    (hs : lv ((c : Thread nD τ), s) () = n) (h : Above n O) :
    (levAts L lv : sProp 𝕄) ⊢ MayWait (c : Thread nD τ) s () O :=
  Pipeline.mayWait_of_levAts (by rw [L_tc]; exact Finset.mem_singleton_self _) (fun g i hp => by rw [hs]; exact h g i hp)

/-- Closes `Above n O` for a literal n and O a (left-nested) sum of one-cell tallies on barrier and receive cells, or
    the zero tally: split the sum, then rewrite each cell's level and compare it with n. The shape of O is matched
    without unfolding anything but abbreviations. Send cells are at level 0, above nothing, so they have no rewrite. -/
macro "above_tac" : tactic => `(tactic|
  repeat (first
    | with_reducible exact above_zero _
    | with_reducible refine above_add ?_ ?_
    | (with_reducible refine above_tally _ _ _ ?_ ?_
       · exact rfl
       · (first | rw [lv_bar] | rw [lv_yr] | rw [lv_xr] | rw [lv_zr]) <;> decide)))

/-! ## The shapes the waits of the body meet -/

example (c : Dev nD) : Above 1 (tallyAt (zrCell (zp c) 3) () Nb + tallyAt (xrCell (xp c) 5) () Nb + tallyAt (yrCell (yp c) 0) () Ny) := by above_tac
example (c : Dev nD) : Above 2 (tallyAt (zrCell (zp c) 1) () Nb + tallyAt (xrCell (xp c) 1) () Nb) := by above_tac
example (c : Dev nD) : Above 3 (tallyAt (zrCell (zp c) 3) () Nb + tallyAt (zrCell (zp c) 2) () Nb) := by above_tac
example (c : Dev nD) : Above 0 (O₀ c) := by unfold O₀; above_tac
example (c : Dev nD) : Above 3 (0 + tallyAt (zrCell (zp c) 0) () Nb) := by above_tac
example (c : Dev nD) : Above 4 (0 : CellTallies nD τ sig Unit) := by above_tac

example (c : Dev nD) :
    (levAts L lv : sProp 𝕄) ⊢ MayWait (c : Thread nD τ) (.dma (yrS 2)) ()
      (tallyAt (zrCell (zp c) 1) () Nb + tallyAt (xrCell (xp c) 1) () Nb) :=
  mayWait_above c _ _ 2 (lv_yr c 2) (by above_tac)

/-- info: 'Cert.KernelIdeal.Coll.mayWait_above' depends on axioms: [propext, Classical.choice, Quot.sound] -/
#guard_msgs in #print axioms mayWait_above

/-- info: 'Cert.KernelIdeal.Coll.above_tally' depends on axioms: [propext, Classical.choice, Quot.sound] -/
#guard_msgs in #print axioms above_tally

/-- info: 'Cert.KernelIdeal.Coll.lv_zr' depends on axioms: [propext, Classical.choice, Quot.sound] -/
#guard_msgs in #print axioms lv_zr

end Cert.KernelIdeal.Coll

end
-- ==== Proof.Steps3.lean ====
/-
  One wait on a DMA cell.

  Every DMA cell of the schedule has a single duty at its one round. A device waiting on one of its own DMA cells for the
  cell's whole amount, at the start of the round, comes back at round 1 holding the duty's payload, provided everything
  it still owes lies on cells strictly above the cell it waits on.
-/
import proofs.«900594_g7700000000000595_dist_rsdw_v7x_xyz2x2x2_y_m512_d512_f2048_bf16_1_alg».proof.Proof.Steps
import proofs.«900594_g7700000000000595_dist_rsdw_v7x_xyz2x2x2_y_m512_d512_f2048_bf16_1_alg».proof.Proof.Levels

noncomputable section

namespace Cert.KernelIdeal.Coll

open Cert.KernelIdeal Cert.KernelIdeal.Gen Cert.KernelIdeal.Mesh
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

section Waits
variable (SND : Dev nD → (cc0_scratch1 : Ref sig .tc).ty.Contents (Elt F)) (BLK : Dev nD → (cc0_scratch4 : Ref sig .tc).ty.Contents (Elt F))

/-- With nothing taken yet, the rest of a one-duty round is that duty's payload. -/
theorem rest_single (g : GSem nD τ sig) (hd : (Rd (F := F) SND BLK).duties g 0 = {0}) :
    bigSep ((Rd (F := F) SND BLK).duties g 0 \ ∅) (fun d => (Rd (F := F) SND BLK).payload g 0 d) = (Rd (F := F) SND BLK).payload g 0 0 := by
  rw [Finset.sdiff_empty, hd, bigSep_singleton]

/-- A one-duty round expects that duty's amount. -/
theorem expect_single (g : GSem nD τ sig) (N : ℕ) (hd : (Rd (F := F) SND BLK).duties g 0 = {0}) (hN : (Rd (F := F) SND BLK).amount g 0 0 = N) :
    (Rd (F := F) SND BLK).expect g 0 = N := by
  unfold Schedule.expect Schedule.amountOf
  rw [hd, Finset.sum_singleton, hN]

/-- The wait of device c on its DMA cell s, of level n and amount N, for N units, while all it owes lies above n: the
    credit is spent, the wait recorded, and the device stands at round 1 with the payload of the cell's one duty. -/
theorem wp_dwait (K : GSem nD τ sig → ℕ) (c : Dev nD) (s : DmaSem sig) (N n : ℕ)
    (hd : (Rd (F := F) SND BLK).duties ((c : Thread nD τ), .dma s) 0 = {0})
    (hN : (Rd (F := F) SND BLK).amount ((c : Thread nD τ), .dma s) 0 0 = N)
    (hlv : lv ((c : Thread nD τ), SemLoc.dma s) () = n)
    (O : CellTallies nD τ sig Unit) (hab : Above n O) (W : Waits sig Unit)
    {w : TpuEff nD τ sig (Elt F) Λ₀ .tc PUnit} {k' : ℕ}
    (hw : ∀ Kk : PUnit → sProp 𝕄, wpE (defs₀ (F := F)) 𝒱₀ (c : Thread nD τ) none Set.univ w Kk = waitSpec (c : Thread nD τ) Set.univ (.dma s) k' Kk)
    {α : Type} {Q : α → sProp 𝕄} {k : PUnit → Prog (TpuEff nD τ sig (Elt F) Λ₀ .tc) α}
    (hk : k' = N := by rfl) :
    iprop(cellInv ER (Rd SND BLK) (K ((c : Thread nD τ), .dma s)) ((c : Thread nD τ), .dma s)
        ∗ cred (tallyAt ((c : Thread nD τ), .dma s) () N) ∗ owes (c : Thread nD τ) O W ∗ levAts L lv
        ∗ atPos ER ((c : Thread nD τ), .dma s) 0 ∅ 0)
      ⊢ iprop(((owes (c : Thread nD τ) O (insert (SemLoc.dma s, ()) W) ∗ atPos ER ((c : Thread nD τ), .dma s) 1 ∅ 0
              ∗ (Rd SND BLK).payload ((c : Thread nD τ), .dma s) 0 0)
            -∗ wp frame (wpE (defs₀ (F := F)) 𝒱₀ (c : Thread nD τ) none) Set.univ (k ⟨⟩) Q)
          -∗ wp frame (wpE (defs₀ (F := F)) 𝒱₀ (c : Thread nD τ) none) Set.univ (.op w k) Q) := by
  subst hk
  have hexp : 0 + k' = (Rd (F := F) SND BLK).expect ((c : Thread nD τ), .dma s) 0 := by
    rw [Nat.zero_add, expect_single SND BLK _ k' hd hN]
  iintro ⟨HI, Hc, HO, Hlev, Hat⟩ Hk
  iapply (Rounds.wp_wait_rest_token 𝒱₀ ER (Rd SND BLK) (c : Thread nD τ) none (κ := K ((c : Thread nD τ), .dma s))
      hw (Set.mem_univ _) () (O := O) (W := W) (R := 0) (m := 0) (T := ∅) hexp) $$ [HI Hc HO Hlev Hat]
  · isplitl [HI]; · iexact HI
    isplitl [Hc]; · iexact Hc
    isplitl [HO]; · iexact HO
    isplitl [Hlev]; · iapply (mayWait_above c (.dma s) O n hlv hab); iexact Hlev
    iexact Hat
  iintro ⟨HO, Hat, -, Hpay⟩
  iapply Hk
  isplitl [HO]; · iexact HO
  isplitl [Hat]; · iexact Hat
  iapply (Entails.of_eq (rest_single SND BLK _ hd)); iexact Hpay

/-! The shape of a use: the first send semaphore across y, and a receive semaphore across z behind a computed slot. -/

example (K : GSem nD τ sig → ℕ) (c : Dev nD) (O : CellTallies nD τ sig Unit) (W : Waits sig Unit) (hab : Above 0 O)
    {hsrc : (slot6 sndM 0 : Memref sig .tc .vmem S256x128 .bf16).view.WordExact} {hdst : (slot6 rcvM 0 : Memref sig .tc .vmem S256x128 .bf16).view.WordExact}
    {α : Type} {Q : α → sProp 𝕄} {k : PUnit → Prog (TpuEff nD τ sig (Elt F) Λ₀ .tc) α} :
    iprop(cellInv ER (Rd SND BLK) (K (ysCell c 0)) (ysCell c 0) ∗ cred (tallyAt (ysCell c 0) () Ny) ∗ owes (c : Thread nD τ) O W ∗ levAts L lv
        ∗ atPos ER (ysCell c 0) 0 ∅ 0)
      ⊢ iprop(((owes (c : Thread nD τ) O (insert (SemLoc.dma (ysS 0), ()) W) ∗ atPos ER (ysCell c 0) 1 ∅ 0 ∗ (Rd SND BLK).payload (ysCell c 0) 0 0)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (ysS 0) (slot6 sndM 0) (slot6 rcvM 0) hsrc hdst) k) Q) :=
  wp_dwait SND BLK K c (ysS 0) Ny 0 (duties_ys SND BLK c 0) (amount_ys SND BLK c 0 0) (lv_ys c 0) O hab W
    (wpE_waitDma2_eq 𝒱₀ (c : Thread nD τ) none Set.univ)

example (K : GSem nD τ sig → ℕ) (c : Dev nD) (i : Fin 4) (m₁ m₂ : ℕ) (h₁ : m₁ < 16) (h₂ : m₂ < 16) (O : CellTallies nD τ sig Unit) (W : Waits sig Unit) (hab : Above 4 O)
    {hsrc : (slotN m₁ h₁ : Memref sig .tc .vmem S256x128 .bf16).view.WordExact} {hdst : (slotN m₂ h₂ : Memref sig .tc .vmem S256x128 .bf16).view.WordExact}
    {α : Type} {Q : α → sProp 𝕄} {k : PUnit → Prog (TpuEff nD τ sig (Elt F) Λ₀ .tc) α} :
    iprop(cellInv ER (Rd SND BLK) (K (zrCell c i)) (zrCell c i) ∗ cred (tallyAt (zrCell c i) () Nb) ∗ owes (c : Thread nD τ) O W ∗ levAts L lv
        ∗ atPos ER (zrCell c i) 0 ∅ 0)
      ⊢ iprop(((owes (c : Thread nD τ) O (insert (SemLoc.dma (zrS i), ()) W) ∗ atPos ER (zrCell c i) 1 ∅ 0 ∗ (Rd SND BLK).payload (zrCell c i) 0 0)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (zrS i) (slotN m₁ h₁) (slotN m₂ h₂) hsrc hdst) k) Q) := by
  iintro H
  iapply (wp_dwait SND BLK K c (zrS i) Nb 4 (duties_zr SND BLK c i) (amount_zr SND BLK c i 0) (lv_zr c i) O hab W
    (wpE_waitDma2_eq 𝒱₀ (c : Thread nD τ) none Set.univ)) $$ H

end Waits

/-- info: 'Cert.KernelIdeal.Coll.wp_dwait' depends on axioms: [propext, Classical.choice, Quot.sound] -/
#guard_msgs in #print axioms wp_dwait

end Cert.KernelIdeal.Coll

end
-- ==== Proof.Steps2.lean ====
/-
  The copies across x and across z, one wrapper per shape.

  Each of a device's ten later copies moves one slot of the block buffer into a slot of a neighbour's block buffer. Which
  slot depends on the parity of the device's id: a device's own two reduced chunks sit at slots 2p and 2p + 1 (p the
  parity), its x neighbour has the same parity, its z neighbour the other. The program names the slots by computed
  offsets; here each is identified with the slot it denotes, the sender's share of the source goes to the send cell,
  and the landing slot, holding what was sent, to the neighbour's receive cell.
-/
import proofs.«900594_g7700000000000595_dist_rsdw_v7x_xyz2x2x2_y_m512_d512_f2048_bf16_1_alg».proof.Proof.Steps

noncomputable section

namespace Cert.KernelIdeal.Coll

open Cert.KernelIdeal Cert.KernelIdeal.Gen Cert.KernelIdeal.Mesh
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## Slots by offset, and the parities of the neighbours -/

/-- The slot of the block buffer at an offset vector, as the program's copies spell it. -/
abbrev slotAt (off : Fin 3 → Nat) (h : ∀ a, off a + S1x256x128.size a ≤ S16x256x128.size a) : Memref sig .tc .vmem S256x128 .bf16 :=
  (blkM.slice (Rect.unit (s := S16x256x128) off S1x256x128.size h) (fun _ => rfl)).squeeze S256x128 squeezes_S1x256x128_S256x128

theorem slotN_congr {n n' : ℕ} (e : n = n') {h : n < 16} {h' : n' < 16} : slotN n h = slotN n' h' := by subst e; rfl

/-- Flipping the bit of weight 4 keeps the parity; flipping the bit of weight 1 reverses it. -/
theorem xp_par (c : Dev nD) : (xp c).val % 2 = c.val % 2 := by revert c; decide
theorem zp_par (c : Dev nD) : (zp c).val % 2 = 1 - c.val % 2 := by revert c; decide

/-- Where the x neighbour receives a device's first two chunks is the slot the device itself receives them at; where
    the z neighbour receives them is the slot they sit at on the sender, and likewise for their x copies. -/
theorem xinA_xp (c : Dev nD) (w : Fin 2) : xinA (xp c) w = xinA c w := slotN_congr (by rw [xp_par])
theorem zinA_zp (c : Dev nD) (w : Fin 2) : zinA (zp c) w = ownA c w :=
  slotN_congr (by rw [zp_par]; have := z2 c; have := w.isLt; omega)
theorem zinB_zp (c : Dev nD) (w : Fin 2) : zinB (zp c) w = xinA c w :=
  slotN_congr (by rw [zp_par]; have := z2 c; have := w.isLt; omega)

/-- Semaphore indices: the first two of six or four, and the rest. -/
abbrev lo6 (w : Fin 2) : Fin 6 := ⟨w.val, by omega⟩
abbrev hi6 (k : Fin 4) : Fin 6 := ⟨k.val + 2, by omega⟩
abbrev lo4 (w : Fin 2) : Fin 4 := ⟨w.val, by omega⟩
abbrev hi4 (w : Fin 2) : Fin 4 := ⟨w.val + 2, by omega⟩

section Sends
variable (SND : Dev nD → (cc0_scratch1 : Ref sig .tc).ty.Contents (Elt F)) (BLK : Dev nD → (cc0_scratch4 : Ref sig .tc).ty.Contents (Elt F))

/-- Own chunk w (w = 0, 1) across x: from the sender's slot 2p + w into slot 2p + w + 8 of the x neighbour, whose parity
    is the sender's. The sender lends the left half of its share of the source; the landing is restated at the
    neighbour's canonical block contents (hfs). -/
theorem wp_xsendA (K : GSem nD τ sig → ℕ) (c n : Dev nD) (hn : n = xp c) (w : Fin 2)
    (off8 off7 : Fin 3 → Nat)
    (h8 : ∀ a, off8 a + S1x256x128.size a ≤ S16x256x128.size a) (h7 : ∀ a, off7 a + S1x256x128.size a ≤ S16x256x128.size a)
    (e8 : off8 = ![2 * (c.val % 2) + w.val, 0, 0]) (e7 : off7 = ![2 * (c.val % 2) + w.val + 8, 0, 0])
    {hsc : (slotAt off7 h7 : Memref sig (Dev.tc n : Thread nD τ).2.kind .vmem S256x128 .bf16).view.ref.isScScratch = false}
    {hsrc : (slotAt off8 h8 : Memref sig .tc .vmem S256x128 .bf16).view.WordExact} {hdst : (slotAt off7 h7 : Memref sig .tc .vmem S256x128 .bf16).view.WordExact}
    {hsem : DmaTarget.Typed .vmem (.dma (xrS (lo6 w))) (.remote (Dev.tc n : Thread nD τ) (slotAt off7 h7 : Memref sig .tc .vmem S256x128 .bf16) (.dma (xsS (lo6 w))) hsc)}
    {α : Type} {Q : α → sProp 𝕄} {k : PUnit → Prog (TpuEff nD τ sig (Elt F) Λ₀ .tc) α}
    (fs : Buf (Elt F) ((ownA c w).view.loc (c : Thread nD τ))) (fd : Buf (Elt F) ((xinA (xp c) w).view.loc (xp c : Thread nD τ)))
    (hfs : ∀ i ∈ (xinA (xp c) w).view.set, (xinA (xp c) w).view.write (Elt F) fd ((ownA c w).view.read (Elt F) fs) Finset.univ i = BLK (xp c) i)
    (O : CellTallies nD τ sig Unit) (W : Waits sig Unit) :
    iprop(cellInv ER (Rd SND BLK) (K (xsCell c (lo6 w))) (xsCell c (lo6 w)) ∗ cellInv ER (Rd SND BLK) (K (xrCell (xp c) (lo6 w))) (xrCell (xp c) (lo6 w))
        ∗ ((ownA c w).view.loc (c : Thread nD τ) ↦[(ownA c w).view.set]{fullShare.left} fs)
        ∗ ((xinA (xp c) w).view.loc (xp c : Thread nD τ) ↦[(xinA (xp c) w).view.set]{fullShare} fd)
        ∗ owes (c : Thread nD τ) (O + tallyAt (xrCell (xp c) (lo6 w)) () Nb) W
        ∗ dutyTok ER (xsCell c (lo6 w)) 0 0 ∗ reached ER (xsCell c (lo6 w)) 0
        ∗ dutyTok ER (xrCell (xp c) (lo6 w)) 0 0 ∗ reached ER (xrCell (xp c) (lo6 w)) 0)
      ⊢ iprop(((cred (tallyAt (xsCell c (lo6 w)) () Nb) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (slotAt off8 h8) (.remote (Dev.tc n : Thread nD τ) (slotAt off7 h7) (.dma (xsS (lo6 w))) hsc) (.dma (xrS (lo6 w))) hsrc hdst hsem) k) Q) := by
  have e7' : off7 = ![2 * ((xp c).val % 2) + w.val + 8, 0, 0] := by rw [e7, xp_par]
  subst hn e8 e7'
  exact Rounds.wp_send_pointsTo 𝒱₀ ER (Rd SND BLK) (c : Thread nD τ) none (κ₁ := K (xsCell c (lo6 w))) (κ₂ := K (xrCell (xp c) (lo6 w)))
    (r₁ := 0) (r₂ := 0) (d₁ := 0) (d₂ := 0) (fs := fs) (fd := fd)
    (by rw [duties_xs]; exact Finset.mem_singleton_self _) (by rw [duties_xr]; exact Finset.mem_singleton_self _)
    () () Nb rfl (amount_xs SND BLK c (lo6 w) 0) (amount_xr SND BLK (xp c) (lo6 w) 0) O rfl (W := W)
    (by rw [payload_xsA]; iintro H; iexists fs; iexact H)
    (by rw [payload_xrA]; exact Entails.of_eq (pointsTo_congr hfs))

/-- The program's literal spelling of a parity-independent slot is the slot. -/
example : ownB 0 = (blkM.slice (Rect.unit (s := S16x256x128) ![4, 0, 0] S1x256x128.size Gen.inb_S16x256x128_S1x256x128_4_0_0) (fun _ => rfl)).squeeze S256x128 squeezes_S1x256x128_S256x128 := rfl

/-- Own chunk 4 + k (k = 0..3) across x: from the sender's slot 4 + k into slot 12 + k of the x neighbour, whatever the
    parities. The sender lends its whole share of the source. -/
theorem wp_xsendB (K : GSem nD τ sig → ℕ) (c n : Dev nD) (hn : n = xp c) (k' : Fin 4)
    {hsc : (xinB k' : Memref sig (Dev.tc n : Thread nD τ).2.kind .vmem S256x128 .bf16).view.ref.isScScratch = false}
    {hsrc : (ownB k' : Memref sig .tc .vmem S256x128 .bf16).view.WordExact} {hdst : (xinB k' : Memref sig .tc .vmem S256x128 .bf16).view.WordExact}
    {hsem : DmaTarget.Typed .vmem (.dma (xrS (hi6 k'))) (.remote (Dev.tc n : Thread nD τ) (xinB k' : Memref sig .tc .vmem S256x128 .bf16) (.dma (xsS (hi6 k'))) hsc)}
    {α : Type} {Q : α → sProp 𝕄} {k : PUnit → Prog (TpuEff nD τ sig (Elt F) Λ₀ .tc) α}
    (fs : Buf (Elt F) ((ownB k').view.loc (c : Thread nD τ))) (fd : Buf (Elt F) ((xinB k').view.loc (xp c : Thread nD τ)))
    (hfs : ∀ i ∈ (xinB k').view.set, (xinB k').view.write (Elt F) fd ((ownB k').view.read (Elt F) fs) Finset.univ i = BLK (xp c) i)
    (O : CellTallies nD τ sig Unit) (W : Waits sig Unit) :
    iprop(cellInv ER (Rd SND BLK) (K (xsCell c (hi6 k'))) (xsCell c (hi6 k')) ∗ cellInv ER (Rd SND BLK) (K (xrCell (xp c) (hi6 k'))) (xrCell (xp c) (hi6 k'))
        ∗ ((ownB k').view.loc (c : Thread nD τ) ↦[(ownB k').view.set]{fullShare} fs)
        ∗ ((xinB k').view.loc (xp c : Thread nD τ) ↦[(xinB k').view.set]{fullShare} fd)
        ∗ owes (c : Thread nD τ) (O + tallyAt (xrCell (xp c) (hi6 k')) () Nb) W
        ∗ dutyTok ER (xsCell c (hi6 k')) 0 0 ∗ reached ER (xsCell c (hi6 k')) 0
        ∗ dutyTok ER (xrCell (xp c) (hi6 k')) 0 0 ∗ reached ER (xrCell (xp c) (hi6 k')) 0)
      ⊢ iprop(((cred (tallyAt (xsCell c (hi6 k')) () Nb) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (ownB k') (.remote (Dev.tc n : Thread nD τ) (xinB k') (.dma (xsS (hi6 k'))) hsc) (.dma (xrS (hi6 k'))) hsrc hdst hsem) k) Q) := by
  subst hn
  exact Rounds.wp_send_pointsTo 𝒱₀ ER (Rd SND BLK) (c : Thread nD τ) none (κ₁ := K (xsCell c (hi6 k'))) (κ₂ := K (xrCell (xp c) (hi6 k')))
    (r₁ := 0) (r₂ := 0) (d₁ := 0) (d₂ := 0) (fs := fs) (fd := fd)
    (by rw [duties_xs]; exact Finset.mem_singleton_self _) (by rw [duties_xr]; exact Finset.mem_singleton_self _)
    () () Nb rfl (amount_xs SND BLK c (hi6 k') 0) (amount_xr SND BLK (xp c) (hi6 k') 0) O rfl (W := W)
    (by rw [payload_xsB]; iintro H; iexists fs; iexact H)
    (by rw [payload_xrB]; exact Entails.of_eq (pointsTo_congr hfs))

/-- Own chunk w (w = 0, 1) across z: from the sender's slot 2p + w into the same slot of the z neighbour, which that
    neighbour, of the other parity, counts as (w + 2) - 2(1 - p). The sender lends the right half of its share. -/
theorem wp_zsendA (K : GSem nD τ sig → ℕ) (c n : Dev nD) (hn : n = zp c) (w : Fin 2)
    (offs offd : Fin 3 → Nat)
    (hs : ∀ a, offs a + S1x256x128.size a ≤ S16x256x128.size a) (hd : ∀ a, offd a + S1x256x128.size a ≤ S16x256x128.size a)
    (es : offs = ![2 * (c.val % 2) + w.val, 0, 0]) (ed : offd = ![2 * (c.val % 2) + w.val, 0, 0])
    {hsc : (slotAt offd hd : Memref sig (Dev.tc n : Thread nD τ).2.kind .vmem S256x128 .bf16).view.ref.isScScratch = false}
    {hsrc : (slotAt offs hs : Memref sig .tc .vmem S256x128 .bf16).view.WordExact} {hdst : (slotAt offd hd : Memref sig .tc .vmem S256x128 .bf16).view.WordExact}
    {hsem : DmaTarget.Typed .vmem (.dma (zrS (lo4 w))) (.remote (Dev.tc n : Thread nD τ) (slotAt offd hd : Memref sig .tc .vmem S256x128 .bf16) (.dma (zsS (lo4 w))) hsc)}
    {α : Type} {Q : α → sProp 𝕄} {k : PUnit → Prog (TpuEff nD τ sig (Elt F) Λ₀ .tc) α}
    (fs : Buf (Elt F) ((ownA c w).view.loc (c : Thread nD τ))) (fd : Buf (Elt F) ((zinA (zp c) w).view.loc (zp c : Thread nD τ)))
    (hfs : ∀ i ∈ (zinA (zp c) w).view.set, (zinA (zp c) w).view.write (Elt F) fd ((ownA c w).view.read (Elt F) fs) Finset.univ i = BLK (zp c) i)
    (O : CellTallies nD τ sig Unit) (W : Waits sig Unit) :
    iprop(cellInv ER (Rd SND BLK) (K (zsCell c (lo4 w))) (zsCell c (lo4 w)) ∗ cellInv ER (Rd SND BLK) (K (zrCell (zp c) (lo4 w))) (zrCell (zp c) (lo4 w))
        ∗ ((ownA c w).view.loc (c : Thread nD τ) ↦[(ownA c w).view.set]{fullShare.right} fs)
        ∗ ((zinA (zp c) w).view.loc (zp c : Thread nD τ) ↦[(zinA (zp c) w).view.set]{fullShare} fd)
        ∗ owes (c : Thread nD τ) (O + tallyAt (zrCell (zp c) (lo4 w)) () Nb) W
        ∗ dutyTok ER (zsCell c (lo4 w)) 0 0 ∗ reached ER (zsCell c (lo4 w)) 0
        ∗ dutyTok ER (zrCell (zp c) (lo4 w)) 0 0 ∗ reached ER (zrCell (zp c) (lo4 w)) 0)
      ⊢ iprop(((cred (tallyAt (zsCell c (lo4 w)) () Nb) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (slotAt offs hs) (.remote (Dev.tc n : Thread nD τ) (slotAt offd hd) (.dma (zsS (lo4 w))) hsc) (.dma (zrS (lo4 w))) hsrc hdst hsem) k) Q) := by
  have en : 2 * (c.val % 2) + w.val = (w.val + 2) - 2 * ((zp c).val % 2) := by rw [zp_par]; have := z2 c; have := w.isLt; omega
  have ed' : offd = ![(w.val + 2) - 2 * ((zp c).val % 2), 0, 0] := by rw [ed, en]
  subst hn es ed'
  exact Rounds.wp_send_pointsTo 𝒱₀ ER (Rd SND BLK) (c : Thread nD τ) none (κ₁ := K (zsCell c (lo4 w))) (κ₂ := K (zrCell (zp c) (lo4 w)))
    (r₁ := 0) (r₂ := 0) (d₁ := 0) (d₂ := 0) (fs := fs) (fd := fd)
    (by rw [duties_zs]; exact Finset.mem_singleton_self _) (by rw [duties_zr]; exact Finset.mem_singleton_self _)
    () () Nb rfl (amount_zs SND BLK c (lo4 w) 0) (amount_zr SND BLK (zp c) (lo4 w) 0) O rfl (W := W)
    (by rw [payload_zsA]; iintro H; iexists fs; iexact H)
    (by rw [payload_zrA]; exact Entails.of_eq (pointsTo_congr hfs))

/-- The x neighbour's copy of chunk w (w = 0, 1) across z: from the sender's slot 2p + w + 8 into the same slot of the z
    neighbour, which that neighbour counts as (w + 10) - 2(1 - p). The sender lends the left half of its share. -/
theorem wp_zsendB (K : GSem nD τ sig → ℕ) (c n : Dev nD) (hn : n = zp c) (w : Fin 2)
    (offs offd : Fin 3 → Nat)
    (hs : ∀ a, offs a + S1x256x128.size a ≤ S16x256x128.size a) (hd : ∀ a, offd a + S1x256x128.size a ≤ S16x256x128.size a)
    (es : offs = ![2 * (c.val % 2) + w.val + 8, 0, 0]) (ed : offd = ![2 * (c.val % 2) + w.val + 8, 0, 0])
    {hsc : (slotAt offd hd : Memref sig (Dev.tc n : Thread nD τ).2.kind .vmem S256x128 .bf16).view.ref.isScScratch = false}
    {hsrc : (slotAt offs hs : Memref sig .tc .vmem S256x128 .bf16).view.WordExact} {hdst : (slotAt offd hd : Memref sig .tc .vmem S256x128 .bf16).view.WordExact}
    {hsem : DmaTarget.Typed .vmem (.dma (zrS (hi4 w))) (.remote (Dev.tc n : Thread nD τ) (slotAt offd hd : Memref sig .tc .vmem S256x128 .bf16) (.dma (zsS (hi4 w))) hsc)}
    {α : Type} {Q : α → sProp 𝕄} {k : PUnit → Prog (TpuEff nD τ sig (Elt F) Λ₀ .tc) α}
    (fs : Buf (Elt F) ((xinA c w).view.loc (c : Thread nD τ))) (fd : Buf (Elt F) ((zinB (zp c) w).view.loc (zp c : Thread nD τ)))
    (hfs : ∀ i ∈ (zinB (zp c) w).view.set, (zinB (zp c) w).view.write (Elt F) fd ((xinA c w).view.read (Elt F) fs) Finset.univ i = BLK (zp c) i)
    (O : CellTallies nD τ sig Unit) (W : Waits sig Unit) :
    iprop(cellInv ER (Rd SND BLK) (K (zsCell c (hi4 w))) (zsCell c (hi4 w)) ∗ cellInv ER (Rd SND BLK) (K (zrCell (zp c) (hi4 w))) (zrCell (zp c) (hi4 w))
        ∗ ((xinA c w).view.loc (c : Thread nD τ) ↦[(xinA c w).view.set]{fullShare.left} fs)
        ∗ ((zinB (zp c) w).view.loc (zp c : Thread nD τ) ↦[(zinB (zp c) w).view.set]{fullShare} fd)
        ∗ owes (c : Thread nD τ) (O + tallyAt (zrCell (zp c) (hi4 w)) () Nb) W
        ∗ dutyTok ER (zsCell c (hi4 w)) 0 0 ∗ reached ER (zsCell c (hi4 w)) 0
        ∗ dutyTok ER (zrCell (zp c) (hi4 w)) 0 0 ∗ reached ER (zrCell (zp c) (hi4 w)) 0)
      ⊢ iprop(((cred (tallyAt (zsCell c (hi4 w)) () Nb) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (slotAt offs hs) (.remote (Dev.tc n : Thread nD τ) (slotAt offd hd) (.dma (zsS (hi4 w))) hsc) (.dma (zrS (hi4 w))) hsrc hdst hsem) k) Q) := by
  have en : 2 * (c.val % 2) + w.val + 8 = (w.val + 10) - 2 * ((zp c).val % 2) := by rw [zp_par]; have := z2 c; have := w.isLt; omega
  have ed' : offd = ![(w.val + 10) - 2 * ((zp c).val % 2), 0, 0] := by rw [ed, en]
  subst hn es ed'
  exact Rounds.wp_send_pointsTo 𝒱₀ ER (Rd SND BLK) (c : Thread nD τ) none (κ₁ := K (zsCell c (hi4 w))) (κ₂ := K (zrCell (zp c) (hi4 w)))
    (r₁ := 0) (r₂ := 0) (d₁ := 0) (d₂ := 0) (fs := fs) (fd := fd)
    (by rw [duties_zs]; exact Finset.mem_singleton_self _) (by rw [duties_zr]; exact Finset.mem_singleton_self _)
    () () Nb rfl (amount_zs SND BLK c (hi4 w) 0) (amount_zr SND BLK (zp c) (hi4 w) 0) O rfl (W := W)
    (by rw [payload_zsB]; iintro H; iexists fs; iexact H)
    (by rw [payload_zrB]; exact Entails.of_eq (pointsTo_congr hfs))

end Sends

/-- info: 'Cert.KernelIdeal.Coll.wp_xsendA' depends on axioms: [propext, Classical.choice, Quot.sound] -/
#guard_msgs in #print axioms wp_xsendA

/-- info: 'Cert.KernelIdeal.Coll.wp_xsendB' depends on axioms: [propext, Classical.choice, Quot.sound] -/
#guard_msgs in #print axioms wp_xsendB

/-- info: 'Cert.KernelIdeal.Coll.wp_zsendA' depends on axioms: [propext, Classical.choice, Quot.sound] -/
#guard_msgs in #print axioms wp_zsendA

/-- info: 'Cert.KernelIdeal.Coll.wp_zsendB' depends on axioms: [propext, Classical.choice, Quot.sound] -/
#guard_msgs in #print axioms wp_zsendB

end Cert.KernelIdeal.Coll

end
-- ==== Proof.Slots.lean ====
import proofs.«900594_g7700000000000595_dist_rsdw_v7x_xyz2x2x2_y_m512_d512_f2048_bf16_1_alg».proof.Proof.Sched
import Idealize.ShloMosaic.Lib.Pipeline.Value
import Idealize.ShloMosaic.Lib.ValueIdx
import Idealize.ShloMosaic.Lib.ValueLayout

/-!
# The scratch buffers cut into their slots

A scratch buffer `[N, 256, 128]` is `N` slots `[256, 128]`, slot `n` being the elements whose leading
coordinate is `n`. Holding the whole buffer is holding its slots, one by one; holding a slot in full is
holding its two half shares; and what a slot holds after a copy has landed in it, or after a block has
been stored to it, is told by the elements of the slot alone.
-/

noncomputable section

namespace Cert.KernelIdeal.Coll

open Cert.KernelIdeal Cert.KernelIdeal.Gen Cert.KernelIdeal.Mesh
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ UU ℕ

/-! ## A slot's elements -/

/-- The rectangle `[1, 256, 128]` at leading offset `n` of a shape `[N, 256, 128]` holds exactly the indices whose
    leading coordinate is `n`. -/
theorem mem_lead {N : ℕ} (n : ℕ)
    (inb : ∀ a, (![n, 0, 0] : Fin 3 → ℕ) a + S1x256x128.size a ≤ (⟨3, ![N, 256, 128]⟩ : Shape).size a)
    (i : (⟨3, ![N, 256, 128]⟩ : Shape).Idx) :
    i ∈ (Rect.unit (s := ⟨3, ![N, 256, 128]⟩) ![n, 0, 0] S1x256x128.size inb).set ↔ (i 0).val = n := by
  rw [Rect.mem_set_unit]
  constructor
  · intro h
    have h0 := h 0
    simp [Shape.size] at h0
    omega
  · intro h a
    have hl := (i a).isLt
    fin_cases a <;> simp [Shape.size] at hl ⊢ <;> omega

/-- Two such rectangles at different leading offsets share no index. -/
theorem disjoint_lead {N : ℕ} {n n' : ℕ} (hne : n ≠ n') (inb inb') :
    Disjoint (Rect.unit (s := ⟨3, ![N, 256, 128]⟩) ![n, 0, 0] S1x256x128.size inb).set
      (Rect.unit (s := ⟨3, ![N, 256, 128]⟩) ![n', 0, 0] S1x256x128.size inb').set :=
  Finset.disjoint_left.mpr fun i hi hi' => hne (((mem_lead n inb i).mp hi).symm.trans ((mem_lead n' inb' i).mp hi'))

/-! ## A full share is its two halves -/

theorem halves (c : Dev nD) (M : Memref sig .tc .vmem S256x128 .bf16) (f : Buf (Elt F) (M.view.loc (c : Thread nD τ))) :
    holds c M fullShare f ⊣⊢ iprop(holds c M fullShare.left f ∗ holds c M fullShare.right f) :=
  pointsTo_share (PosShare.mem_left_op_right fullShare)

/-! ## Where a slot's elements lie -/

/-- The rectangle `[1, 256, 128]` at leading offset `n` puts its element `(u, r, k)` at `(n, r, k)`. -/
theorem rect_lead_emb {N : ℕ} (n : ℕ) (hn : n < N)
    (inb : ∀ a, (![n, 0, 0] : Fin 3 → ℕ) a + S1x256x128.size a ≤ (⟨3, ![N, 256, 128]⟩ : Shape).size a)
    (u : Fin 1) (r : Fin 256) (k : Fin 128) :
    (Rect.unit (s := ⟨3, ![N, 256, 128]⟩) ![n, 0, 0] S1x256x128.size inb).emb (ix3 u r k) = ix3 (⟨n, hn⟩ : Fin N) r k := by
  funext a
  apply Fin.ext
  rw [Rect.emb_apply]
  have hu : u.val = 0 := by omega
  match a with
  | ⟨0, _⟩ => show n + 1 * u.val = n; omega
  | ⟨1, _⟩ => show 0 + 1 * r.val = r.val; omega
  | ⟨2, _⟩ => show 0 + 1 * k.val = k.val; omega

/-- An index whose leading coordinate is `n` is `(n, r, k)` for its own `r` and `k`. -/
theorem eq_ix3_lead {N : ℕ} (n : ℕ) (hn : n < N) (i : (⟨3, ![N, 256, 128]⟩ : Shape).Idx) (h : (i 0).val = n) :
    i = ix3 (⟨n, hn⟩ : Fin N) (i 1) (i 2) := by
  funext a
  match a with
  | ⟨0, _⟩ => exact Fin.ext h
  | ⟨1, _⟩ => rfl
  | ⟨2, _⟩ => rfl

/-! ## Cutting a buffer along its leading axis -/

theorem cut_lead {N : ℕ} (M : Memref sig .tc .vmem (⟨3, ![N, 256, 128]⟩ : Shape) .bf16) (c : Dev nD) (q : PosShare TreeShare)
    (f : Buf (Elt F) (M.view.loc (c : Thread nD τ)))
    (inb : ∀ n : Fin N, ∀ a, (![n.val, 0, 0] : Fin 3 → ℕ) a + S1x256x128.size a ≤ (⟨3, ![N, 256, 128]⟩ : Shape).size a) :
    (M.view.loc (c : Thread nD τ) ↦[M.view.set]{q} f : sProp 𝕄)
      = bigSep Finset.univ fun n : Fin N =>
          (M.view.loc (c : Thread nD τ) ↦[(M.view.slice (Rect.unit ![n.val, 0, 0] S1x256x128.size (inb n))).set]{q} f : sProp 𝕄) := by
  have hd : ∀ n ∈ (Finset.univ : Finset (Fin N)), ∀ n' ∈ (Finset.univ : Finset (Fin N)), n ≠ n' →
      Disjoint (M.view.slice (Rect.unit ![n.val, 0, 0] S1x256x128.size (inb n))).set
        (M.view.slice (Rect.unit ![n'.val, 0, 0] S1x256x128.size (inb n'))).set := by
    intro n _ n' _ hne
    rw [View.set_slice, View.set_slice]
    exact (Finset.disjoint_map _).mpr (disjoint_lead (fun e => hne (Fin.ext e)) _ _)
  have hc : M.view.set = Finset.univ.biUnion fun n : Fin N => (M.view.slice (Rect.unit ![n.val, 0, 0] S1x256x128.size (inb n))).set := by
    ext i
    simp only [Finset.mem_biUnion, Finset.mem_univ, true_and, View.set_slice, Finset.mem_map]
    constructor
    · intro hi
      obtain ⟨y, -, rfl⟩ := Finset.mem_map.mp hi
      exact ⟨⟨(y 0).val, (y 0).isLt⟩, y, (mem_lead _ _ y).mpr rfl, rfl⟩
    · rintro ⟨n, y, -, rfl⟩
      exact View.emb_mem_set _ y
  rw [hc]
  exact pointsTo_biUnion Finset.univ _ hd

/-! ## The six slots of the send and receive buffers -/

theorem holds_slot6 (M : Memref sig .tc .vmem S6x256x128 .bf16) (c : Dev nD) (j : Fin 6) (q : PosShare TreeShare)
    (f : Buf (Elt F) (M.view.loc (c : Thread nD τ))) :
    holds c (slot6 M j) q f
      = (M.view.loc (c : Thread nD τ) ↦[(M.view.slice (Rect.unit ![j.val, 0, 0] S1x256x128.size (inb6s j))).set]{q} f : sProp 𝕄) :=
  congrArg (fun I => (M.view.loc (c : Thread nD τ) ↦[I]{q} f : sProp 𝕄))
    (View.set_reshape (M.view.slice (Rect.unit ![j.val, 0, 0] S1x256x128.size (inb6s j))) _)

/-- A `[6, 256, 128]` buffer held through its view is its six slots held, at any share. -/
theorem split6_view (M : Memref sig .tc .vmem S6x256x128 .bf16) (c : Dev nD) (q : PosShare TreeShare)
    (f : Buf (Elt F) (M.view.loc (c : Thread nD τ))) :
    (M.view.loc (c : Thread nD τ) ↦[M.view.set]{q} f : sProp 𝕄)
      = iprop(holds c (slot6 M 0) q f ∗ holds c (slot6 M 1) q f ∗ holds c (slot6 M 2) q f ∗ holds c (slot6 M 3) q f ∗ holds c (slot6 M 4) q f ∗ holds c (slot6 M 5) q f) := by
  rw [cut_lead M c q f inb6s, show (Finset.univ : Finset (Fin 6)) = {0, 1, 2, 3, 4, 5} by decide,
    bigSep_insert (by decide), bigSep_insert (by decide), bigSep_insert (by decide), bigSep_insert (by decide),
    bigSep_insert (by decide), bigSep_singleton]
  simp only [holds_slot6]
  rfl

theorem split6_snd (c : Dev nD) (f : Buf (Elt F) (View.loc (c : Thread nD τ) sndM.view)) :
    (View.loc (c : Thread nD τ) sndM.view ↦{fullShare} f : sProp 𝕄)
      ⊣⊢ iprop(holds c (slot6 sndM 0) fullShare f ∗ holds c (slot6 sndM 1) fullShare f ∗ holds c (slot6 sndM 2) fullShare f ∗ holds c (slot6 sndM 3) fullShare f ∗ holds c (slot6 sndM 4) fullShare f ∗ holds c (slot6 sndM 5) fullShare f) := by
  have e := split6_view sndM c fullShare f
  rw [View.set_whole] at e
  exact ⟨Entails.of_eq e, Entails.of_eq e.symm⟩

theorem split6_rcv (c : Dev nD) (f : Buf (Elt F) (View.loc (c : Thread nD τ) rcvM.view)) :
    (View.loc (c : Thread nD τ) rcvM.view ↦{fullShare} f : sProp 𝕄)
      ⊣⊢ iprop(holds c (slot6 rcvM 0) fullShare f ∗ holds c (slot6 rcvM 1) fullShare f ∗ holds c (slot6 rcvM 2) fullShare f ∗ holds c (slot6 rcvM 3) fullShare f ∗ holds c (slot6 rcvM 4) fullShare f ∗ holds c (slot6 rcvM 5) fullShare f) := by
  have e := split6_view rcvM c fullShare f
  rw [View.set_whole] at e
  exact ⟨Entails.of_eq e, Entails.of_eq e.symm⟩

/-! ## The sixteen slots of the block buffer -/

theorem holds_slotN (c : Dev nD) (n : ℕ) (h : n < 16) (q : PosShare TreeShare)
    (f : Buf (Elt F) (blkM.view.loc (c : Thread nD τ))) :
    holds c (slotN n h) q f
      = (blkM.view.loc (c : Thread nD τ) ↦[(blkM.view.slice (Rect.unit ![n, 0, 0] S1x256x128.size (inbN n h))).set]{q} f : sProp 𝕄) :=
  congrArg (fun I => (blkM.view.loc (c : Thread nD τ) ↦[I]{q} f : sProp 𝕄))
    (View.set_reshape (blkM.view.slice (Rect.unit ![n, 0, 0] S1x256x128.size (inbN n h))) _)

/-- Equal slot numbers name the same slot, whatever the evidence that they are below sixteen. -/
theorem holds_slotN_congr (c : Dev nD) {n n' : ℕ} (e : n = n') (h : n < 16) (h' : n' < 16) (q : PosShare TreeShare)
    (f : Buf (Elt F) (blkM.view.loc (c : Thread nD τ))) :
    holds c (slotN n h) q f = holds c (slotN n' h') q f := by
  subst e; rfl

theorem inb16v (n : Fin 16) : ∀ a, (![n.val, 0, 0] : Fin 3 → Nat) a + S1x256x128.size a ≤ S16x256x128.size a := inbN n.val n.isLt

set_option maxHeartbeats 4000000 in
/-- The block buffer held through its view is its sixteen slots held, in the order of their numbers, at any share. -/
theorem splitBlk_lit (c : Dev nD) (q : PosShare TreeShare) (f : Buf (Elt F) (blkM.view.loc (c : Thread nD τ))) :
    (blkM.view.loc (c : Thread nD τ) ↦[blkM.view.set]{q} f : sProp 𝕄)
      = iprop(holds c (slotN (0 : Fin 16).val (0 : Fin 16).isLt) q f ∗ holds c (slotN (1 : Fin 16).val (1 : Fin 16).isLt) q f ∗ holds c (slotN (2 : Fin 16).val (2 : Fin 16).isLt) q f ∗ holds c (slotN (3 : Fin 16).val (3 : Fin 16).isLt) q f ∗ holds c (slotN (4 : Fin 16).val (4 : Fin 16).isLt) q f ∗ holds c (slotN (5 : Fin 16).val (5 : Fin 16).isLt) q f ∗ holds c (slotN (6 : Fin 16).val (6 : Fin 16).isLt) q f ∗ holds c (slotN (7 : Fin 16).val (7 : Fin 16).isLt) q f ∗ holds c (slotN (8 : Fin 16).val (8 : Fin 16).isLt) q f ∗ holds c (slotN (9 : Fin 16).val (9 : Fin 16).isLt) q f ∗ holds c (slotN (10 : Fin 16).val (10 : Fin 16).isLt) q f ∗ holds c (slotN (11 : Fin 16).val (11 : Fin 16).isLt) q f ∗ holds c (slotN (12 : Fin 16).val (12 : Fin 16).isLt) q f ∗ holds c (slotN (13 : Fin 16).val (13 : Fin 16).isLt) q f ∗ holds c (slotN (14 : Fin 16).val (14 : Fin 16).isLt) q f ∗ holds c (slotN (15 : Fin 16).val (15 : Fin 16).isLt) q f) := by
  rw [cut_lead blkM c q f inb16v,
    show (Finset.univ : Finset (Fin 16)) = {0, 1, 2, 3, 4, 5, 6, 7, 8, 9, 10, 11, 12, 13, 14, 15} by decide,
    bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_singleton]
  simp only [holds_slotN]
  rfl

/-- The sixteen slots in the order of their numbers and in the order of their roles on a device of even
    (respectively odd) number are the same sixteen, so the two separating conjunctions are equal. -/
theorem sep_perm_even (H : Fin 16 → sProp 𝕄) :
    BI.sep (H 0) (BI.sep (H 1) (BI.sep (H 2) (BI.sep (H 3) (BI.sep (H 4) (BI.sep (H 5) (BI.sep (H 6) (BI.sep (H 7) (BI.sep (H 8) (BI.sep (H 9) (BI.sep (H 10) (BI.sep (H 11) (BI.sep (H 12) (BI.sep (H 13) (BI.sep (H 14) (H 15)))))))))))))))
      = BI.sep (H 0) (BI.sep (H 1) (BI.sep (H 4) (BI.sep (H 5) (BI.sep (H 6) (BI.sep (H 7) (BI.sep (H 8) (BI.sep (H 9) (BI.sep (H 12) (BI.sep (H 13) (BI.sep (H 14) (BI.sep (H 15) (BI.sep (H 2) (BI.sep (H 3) (BI.sep (H 10) (H 11))))))))))))))) := by
  ac_rfl

theorem sep_perm_odd (H : Fin 16 → sProp 𝕄) :
    BI.sep (H 0) (BI.sep (H 1) (BI.sep (H 2) (BI.sep (H 3) (BI.sep (H 4) (BI.sep (H 5) (BI.sep (H 6) (BI.sep (H 7) (BI.sep (H 8) (BI.sep (H 9) (BI.sep (H 10) (BI.sep (H 11) (BI.sep (H 12) (BI.sep (H 13) (BI.sep (H 14) (H 15)))))))))))))))
      = BI.sep (H 2) (BI.sep (H 3) (BI.sep (H 4) (BI.sep (H 5) (BI.sep (H 6) (BI.sep (H 7) (BI.sep (H 10) (BI.sep (H 11) (BI.sep (H 12) (BI.sep (H 13) (BI.sep (H 14) (BI.sep (H 15) (BI.sep (H 0) (BI.sep (H 1) (BI.sep (H 8) (H 9))))))))))))))) := by
  ac_rfl

set_option maxHeartbeats 4000000 in
/-- The block buffer held in full is its sixteen slots held in full, named by their roles on device `c`: the
    roles' slot numbers depend on the parity of `c`, and in either case they are the sixteen numbers once each. -/
theorem splitBlk (c : Dev nD) (f : Buf (Elt F) (View.loc (c : Thread nD τ) blkM.view)) :
    (View.loc (c : Thread nD τ) blkM.view ↦{fullShare} f : sProp 𝕄)
      ⊣⊢ iprop(holds c (ownA c 0) fullShare f ∗ holds c (ownA c 1) fullShare f ∗ holds c (ownB 0) fullShare f ∗ holds c (ownB 1) fullShare f ∗ holds c (ownB 2) fullShare f ∗ holds c (ownB 3) fullShare f ∗ holds c (xinA c 0) fullShare f ∗ holds c (xinA c 1) fullShare f ∗ holds c (xinB 0) fullShare f ∗ holds c (xinB 1) fullShare f ∗ holds c (xinB 2) fullShare f ∗ holds c (xinB 3) fullShare f ∗ holds c (zinA c 0) fullShare f ∗ holds c (zinA c 1) fullShare f ∗ holds c (zinB c 0) fullShare f ∗ holds c (zinB c 1) fullShare f) := by
  have e : (View.loc (c : Thread nD τ) blkM.view ↦{fullShare} f : sProp 𝕄)
      = iprop(holds c (ownA c 0) fullShare f ∗ holds c (ownA c 1) fullShare f ∗ holds c (ownB 0) fullShare f ∗ holds c (ownB 1) fullShare f ∗ holds c (ownB 2) fullShare f ∗ holds c (ownB 3) fullShare f ∗ holds c (xinA c 0) fullShare f ∗ holds c (xinA c 1) fullShare f ∗ holds c (xinB 0) fullShare f ∗ holds c (xinB 1) fullShare f ∗ holds c (xinB 2) fullShare f ∗ holds c (xinB 3) fullShare f ∗ holds c (zinA c 0) fullShare f ∗ holds c (zinA c 1) fullShare f ∗ holds c (zinB c 0) fullShare f ∗ holds c (zinB c 1) fullShare f) := by
    have h0 := splitBlk_lit c fullShare f
    rw [View.set_whole] at h0
    rw [h0]
    rcases Nat.mod_two_eq_zero_or_one c.val with hc | hc
    · rw [
      holds_slotN_congr c (show 2 * (c.val % 2) + (0 : Fin 2).val = (0 : Fin 16).val from by rw [hc]; rfl) _ (0 : Fin 16).isLt fullShare f,
      holds_slotN_congr c (show 2 * (c.val % 2) + (1 : Fin 2).val = (1 : Fin 16).val from by rw [hc]; rfl) _ (1 : Fin 16).isLt fullShare f,
      holds_slotN_congr c (show 4 + (0 : Fin 4).val = (4 : Fin 16).val from rfl) _ (4 : Fin 16).isLt fullShare f,
      holds_slotN_congr c (show 4 + (1 : Fin 4).val = (5 : Fin 16).val from rfl) _ (5 : Fin 16).isLt fullShare f,
      holds_slotN_congr c (show 4 + (2 : Fin 4).val = (6 : Fin 16).val from rfl) _ (6 : Fin 16).isLt fullShare f,
      holds_slotN_congr c (show 4 + (3 : Fin 4).val = (7 : Fin 16).val from rfl) _ (7 : Fin 16).isLt fullShare f,
      holds_slotN_congr c (show 2 * (c.val % 2) + (0 : Fin 2).val + 8 = (8 : Fin 16).val from by rw [hc]; rfl) _ (8 : Fin 16).isLt fullShare f,
      holds_slotN_congr c (show 2 * (c.val % 2) + (1 : Fin 2).val + 8 = (9 : Fin 16).val from by rw [hc]; rfl) _ (9 : Fin 16).isLt fullShare f,
      holds_slotN_congr c (show 12 + (0 : Fin 4).val = (12 : Fin 16).val from rfl) _ (12 : Fin 16).isLt fullShare f,
      holds_slotN_congr c (show 12 + (1 : Fin 4).val = (13 : Fin 16).val from rfl) _ (13 : Fin 16).isLt fullShare f,
      holds_slotN_congr c (show 12 + (2 : Fin 4).val = (14 : Fin 16).val from rfl) _ (14 : Fin 16).isLt fullShare f,
      holds_slotN_congr c (show 12 + (3 : Fin 4).val = (15 : Fin 16).val from rfl) _ (15 : Fin 16).isLt fullShare f,
      holds_slotN_congr c (show ((0 : Fin 2).val + 2) - 2 * (c.val % 2) = (2 : Fin 16).val from by rw [hc]; rfl) _ (2 : Fin 16).isLt fullShare f,
      holds_slotN_congr c (show ((1 : Fin 2).val + 2) - 2 * (c.val % 2) = (3 : Fin 16).val from by rw [hc]; rfl) _ (3 : Fin 16).isLt fullShare f,
      holds_slotN_congr c (show ((0 : Fin 2).val + 10) - 2 * (c.val % 2) = (10 : Fin 16).val from by rw [hc]; rfl) _ (10 : Fin 16).isLt fullShare f,
      holds_slotN_congr c (show ((1 : Fin 2).val + 10) - 2 * (c.val % 2) = (11 : Fin 16).val from by rw [hc]; rfl) _ (11 : Fin 16).isLt fullShare f]
      exact sep_perm_even (fun n : Fin 16 => holds c (slotN n.val n.isLt) fullShare f)
    · rw [
      holds_slotN_congr c (show 2 * (c.val % 2) + (0 : Fin 2).val = (2 : Fin 16).val from by rw [hc]; rfl) _ (2 : Fin 16).isLt fullShare f,
      holds_slotN_congr c (show 2 * (c.val % 2) + (1 : Fin 2).val = (3 : Fin 16).val from by rw [hc]; rfl) _ (3 : Fin 16).isLt fullShare f,
      holds_slotN_congr c (show 4 + (0 : Fin 4).val = (4 : Fin 16).val from rfl) _ (4 : Fin 16).isLt fullShare f,
      holds_slotN_congr c (show 4 + (1 : Fin 4).val = (5 : Fin 16).val from rfl) _ (5 : Fin 16).isLt fullShare f,
      holds_slotN_congr c (show 4 + (2 : Fin 4).val = (6 : Fin 16).val from rfl) _ (6 : Fin 16).isLt fullShare f,
      holds_slotN_congr c (show 4 + (3 : Fin 4).val = (7 : Fin 16).val from rfl) _ (7 : Fin 16).isLt fullShare f,
      holds_slotN_congr c (show 2 * (c.val % 2) + (0 : Fin 2).val + 8 = (10 : Fin 16).val from by rw [hc]; rfl) _ (10 : Fin 16).isLt fullShare f,
      holds_slotN_congr c (show 2 * (c.val % 2) + (1 : Fin 2).val + 8 = (11 : Fin 16).val from by rw [hc]; rfl) _ (11 : Fin 16).isLt fullShare f,
      holds_slotN_congr c (show 12 + (0 : Fin 4).val = (12 : Fin 16).val from rfl) _ (12 : Fin 16).isLt fullShare f,
      holds_slotN_congr c (show 12 + (1 : Fin 4).val = (13 : Fin 16).val from rfl) _ (13 : Fin 16).isLt fullShare f,
      holds_slotN_congr c (show 12 + (2 : Fin 4).val = (14 : Fin 16).val from rfl) _ (14 : Fin 16).isLt fullShare f,
      holds_slotN_congr c (show 12 + (3 : Fin 4).val = (15 : Fin 16).val from rfl) _ (15 : Fin 16).isLt fullShare f,
      holds_slotN_congr c (show ((0 : Fin 2).val + 2) - 2 * (c.val % 2) = (0 : Fin 16).val from by rw [hc]; rfl) _ (0 : Fin 16).isLt fullShare f,
      holds_slotN_congr c (show ((1 : Fin 2).val + 2) - 2 * (c.val % 2) = (1 : Fin 16).val from by rw [hc]; rfl) _ (1 : Fin 16).isLt fullShare f,
      holds_slotN_congr c (show ((0 : Fin 2).val + 10) - 2 * (c.val % 2) = (8 : Fin 16).val from by rw [hc]; rfl) _ (8 : Fin 16).isLt fullShare f,
      holds_slotN_congr c (show ((1 : Fin 2).val + 10) - 2 * (c.val % 2) = (9 : Fin 16).val from by rw [hc]; rfl) _ (9 : Fin 16).isLt fullShare f]
      exact sep_perm_odd (fun n : Fin 16 => holds c (slotN n.val n.isLt) fullShare f)
  exact ⟨Entails.of_eq e, Entails.of_eq e.symm⟩

/-! ## Reading a slot

A slot's element `(r, k)` is the buffer's element `(n, r, k)`. -/

theorem lead_slot_emb {N : ℕ} (M : Memref sig .tc .vmem (⟨3, ![N, 256, 128]⟩ : Shape) .bf16) (n : ℕ) (hn : n < N)
    (inb : ∀ a, (![n, 0, 0] : Fin 3 → ℕ) a + S1x256x128.size a ≤ (⟨3, ![N, 256, 128]⟩ : Shape).size a)
    (r : Fin 256) (k : Fin 128) :
    ((M.slice (Rect.unit ![n, 0, 0] S1x256x128.size inb) (fun _ => rfl)).squeeze S256x128 squeezes_S1x256x128_S256x128).view.emb (ix2 r k)
      = M.view.emb (ix3 (⟨n, hn⟩ : Fin N) r k) := by
  show M.view.emb ((Rect.unit (s := ⟨3, ![N, 256, 128]⟩) ![n, 0, 0] S1x256x128.size inb).emb (Shape.reshapeEquiv _ (ix2 r k))) = _
  rw [reshapeEquiv_ix2_1ab, rect_lead_emb n hn]

theorem lead_slot_read {N : ℕ} (M : Memref sig .tc .vmem (⟨3, ![N, 256, 128]⟩ : Shape) .bf16) (n : ℕ) (hn : n < N)
    (inb : ∀ a, (![n, 0, 0] : Fin 3 → ℕ) a + S1x256x128.size a ≤ (⟨3, ![N, 256, 128]⟩ : Shape).size a)
    (g : M.view.ty.Contents (Elt F)) (r : Fin 256) (k : Fin 128) :
    ((M.slice (Rect.unit ![n, 0, 0] S1x256x128.size inb) (fun _ => rfl)).squeeze S256x128 squeezes_S1x256x128_S256x128).view.read (Elt F) g (ix2 r k)
      = M.view.read (Elt F) g (ix3 (⟨n, hn⟩ : Fin N) r k) := by
  rw [View.read_apply, View.read_apply, lead_slot_emb M n hn]

theorem read_slotN (n : ℕ) (h : n < 16) (g : (cc0_scratch4 : Ref sig .tc).ty.Contents (Elt F)) (r : Fin 256) (k : Fin 128) :
    (slotN n h).view.read (Elt F) g (ix2 r k) = g (ix3 (⟨n, h⟩ : Fin 16) r k) :=
  lead_slot_read blkM n h (inbN n h) g r k

theorem read_slot6_snd (j : Fin 6) (g : (cc0_scratch1 : Ref sig .tc).ty.Contents (Elt F)) (r : Fin 256) (k : Fin 128) :
    (slot6 sndM j).view.read (Elt F) g (ix2 r k) = g (ix3 j r k) :=
  lead_slot_read sndM j.val j.isLt (inb6s j) g r k

theorem read_slot6_rcv (j : Fin 6) (g : (cc0_scratch2 : Ref sig .tc).ty.Contents (Elt F)) (r : Fin 256) (k : Fin 128) :
    (slot6 rcvM j).view.read (Elt F) g (ix2 r k) = g (ix3 j r k) :=
  lead_slot_read rcvM j.val j.isLt (inb6s j) g r k

/-! ## What a slot holds after a copy has landed in it

The copy writes, through the landing slot's view, what the source slot's view reads: contents that read, through
the landing slot, as the source reads are as good. -/

theorem holds_write_read_congr (p : Dev nD) (Md Ms : Memref sig .tc .vmem S256x128 .bf16) (q : PosShare TreeShare)
    (fd G : Buf (Elt F) (Md.view.loc (p : Thread nD τ))) (fs : Ms.view.ty.Contents (Elt F))
    (hG : ∀ x, Md.view.read (Elt F) G x = Ms.view.read (Elt F) fs x) :
    holds p Md q (Md.view.write (Elt F) fd (Ms.view.read (Elt F) fs) Finset.univ) = holds p Md q G := by
  refine pointsTo_congr fun i hi => ?_
  obtain ⟨x, rfl⟩ := View.exists_emb_of_mem_set _ hi
  rw [View.write_emb_of_mem _ _ (Finset.mem_univ x), ← hG x, View.read_apply, cast_cast, cast_eq]

/-- Slot `n` of one device's block buffer copied into slot `n'` of another's. -/
theorem landN (p : Dev nD) (n n' : ℕ) (h : n < 16) (h' : n' < 16) (q : PosShare TreeShare)
    (fd fs G : (cc0_scratch4 : Ref sig .tc).ty.Contents (Elt F))
    (hG : ∀ (r : Fin 256) (k : Fin 128), G (ix3 (⟨n', h'⟩ : Fin 16) r k) = fs (ix3 (⟨n, h⟩ : Fin 16) r k)) :
    holds p (slotN n' h') q ((slotN n' h').view.write (Elt F) fd ((slotN n h).view.read (Elt F) fs) Finset.univ)
      = holds p (slotN n' h') q G :=
  holds_write_read_congr p (slotN n' h') (slotN n h) q fd G fs fun x => by
    obtain ⟨r, k, rfl⟩ : ∃ (r : Fin 256) (k : Fin 128), x = ix2 r k := ⟨x 0, x 1, eq_ix2 x⟩
    rw [read_slotN, read_slotN]
    exact hG r k

/-- Slot `j` of one device's send buffer copied into slot `j` of another's receive buffer. -/
theorem land6 (p : Dev nD) (j : Fin 6) (q : PosShare TreeShare)
    (fd G : (cc0_scratch2 : Ref sig .tc).ty.Contents (Elt F)) (fs : (cc0_scratch1 : Ref sig .tc).ty.Contents (Elt F))
    (hG : ∀ (r : Fin 256) (k : Fin 128), G (ix3 j r k) = fs (ix3 j r k)) :
    holds p (slot6 rcvM j) q ((slot6 rcvM j).view.write (Elt F) fd ((slot6 sndM j).view.read (Elt F) fs) Finset.univ)
      = holds p (slot6 rcvM j) q G :=
  holds_write_read_congr p (slot6 rcvM j) (slot6 sndM j) q fd G fs fun x => by
    obtain ⟨r, k, rfl⟩ : ∃ (r : Fin 256) (k : Fin 128), x = ix2 r k := ⟨x 0, x 1, eq_ix2 x⟩
    rw [read_slot6_rcv, read_slot6_snd]
    exact hG r k

/-- The two buffers have one type, so the sender's contents themselves describe the landing slot. -/
theorem land6_self (p : Dev nD) (j : Fin 6) (q : PosShare TreeShare)
    (fd : (cc0_scratch2 : Ref sig .tc).ty.Contents (Elt F)) (fs : (cc0_scratch1 : Ref sig .tc).ty.Contents (Elt F)) :
    holds p (slot6 rcvM j) q ((slot6 rcvM j).view.write (Elt F) fd ((slot6 sndM j).view.read (Elt F) fs) Finset.univ)
      = holds p (slot6 rcvM j) q fs :=
  land6 p j q fd fs fs fun _ _ => rfl

/-! ## What a slot holds after a block has been stored to it

A store of a `[1, 256, 128]` block `v` through the buffer's rectangle at leading offset `n` puts `v (0, r, k)` at
`(n, r, k)`: contents that hold `v` there are as good on slot `n`. The offsets may be spelt in any way that
equals `(n, 0, 0)`. -/

theorem lead_store_congr {N : ℕ} (M : Memref sig .tc .vmem (⟨3, ![N, 256, 128]⟩ : Shape) .bf16) (c : Dev nD) (q : PosShare TreeShare)
    (n : ℕ) (hn : n < N) (off : Fin 3 → ℕ) (hoff : off = ![n, 0, 0])
    (inb : ∀ a, off a + S1x256x128.size a ≤ (⟨3, ![N, 256, 128]⟩ : Shape).size a)
    (inb' : ∀ a, (![n, 0, 0] : Fin 3 → ℕ) a + S1x256x128.size a ≤ (⟨3, ![N, 256, 128]⟩ : Shape).size a)
    (f G : Buf (Elt F) (M.view.loc (c : Thread nD τ))) (v : S1x256x128.Idx → Elt F .bf16)
    (hG : ∀ (r : Fin 256) (k : Fin 128), M.view.read (Elt F) G (ix3 (⟨n, hn⟩ : Fin N) r k) = v (ix3 (0 : Fin 1) r k)) :
    holds c ((M.slice (Rect.unit ![n, 0, 0] S1x256x128.size inb') (fun _ => rfl)).squeeze S256x128 squeezes_S1x256x128_S256x128) q
        ((M.access (Rect.unit off S1x256x128.size inb)).write (Elt F) f v Finset.univ)
      = holds c ((M.slice (Rect.unit ![n, 0, 0] S1x256x128.size inb') (fun _ => rfl)).squeeze S256x128 squeezes_S1x256x128_S256x128) q G := by
  subst hoff
  refine pointsTo_congr fun i hi => ?_
  obtain ⟨x, rfl⟩ := View.exists_emb_of_mem_set _ hi
  obtain ⟨r, k, rfl⟩ : ∃ (r : Fin 256) (k : Fin 128), x = ix2 r k := ⟨x 0, x 1, eq_ix2 x⟩
  have he : ((M.slice (Rect.unit ![n, 0, 0] S1x256x128.size inb') (fun _ => rfl)).squeeze S256x128 squeezes_S1x256x128_S256x128).view.emb (ix2 r k)
      = (M.access (Rect.unit ![n, 0, 0] S1x256x128.size inb)).emb (ix3 (0 : Fin 1) r k) := by
    show M.view.emb ((Rect.unit (s := ⟨3, ![N, 256, 128]⟩) ![n, 0, 0] S1x256x128.size inb').emb (Shape.reshapeEquiv _ (ix2 r k)))
      = M.view.emb ((Rect.unit (s := ⟨3, ![N, 256, 128]⟩) ![n, 0, 0] S1x256x128.size inb).emb (ix3 (0 : Fin 1) r k))
    rw [reshapeEquiv_ix2_1ab]
    rfl
  rw [he, View.write_emb_of_mem _ _ (Finset.mem_univ _), ← hG r k, View.read_apply, cast_cast]
  have hx : (M.access (Rect.unit ![n, 0, 0] S1x256x128.size inb)).emb (ix3 (0 : Fin 1) r k) = M.view.emb (ix3 (⟨n, hn⟩ : Fin N) r k) := by
    show M.view.emb ((Rect.unit (s := ⟨3, ![N, 256, 128]⟩) ![n, 0, 0] S1x256x128.size inb).emb (ix3 (0 : Fin 1) r k)) = _
    rw [rect_lead_emb n hn]
  rw [hx]
  exact (cast_eq _ _)

/-- A block stored to slot `j` of the send buffer. -/
theorem store6_snd (c : Dev nD) (j : Fin 6) (q : PosShare TreeShare) (off : Fin 3 → ℕ) (hoff : off = ![j.val, 0, 0])
    (inb : ∀ a, off a + S1x256x128.size a ≤ S6x256x128.size a)
    (f G : (cc0_scratch1 : Ref sig .tc).ty.Contents (Elt F)) (v : S1x256x128.Idx → Elt F .bf16)
    (hG : ∀ (r : Fin 256) (k : Fin 128), G (ix3 j r k) = v (ix3 (0 : Fin 1) r k)) :
    holds c (slot6 sndM j) q ((sndM.access (Rect.unit off S1x256x128.size inb)).write (Elt F) f v Finset.univ)
      = holds c (slot6 sndM j) q G :=
  lead_store_congr sndM c q j.val j.isLt off hoff inb (inb6s j) f G v hG

/-- A block stored to slot `n` of the block buffer. -/
theorem storeN (c : Dev nD) (n : ℕ) (h : n < 16) (q : PosShare TreeShare) (off : Fin 3 → ℕ) (hoff : off = ![n, 0, 0])
    (inb : ∀ a, off a + S1x256x128.size a ≤ S16x256x128.size a)
    (f G : (cc0_scratch4 : Ref sig .tc).ty.Contents (Elt F)) (v : S1x256x128.Idx → Elt F .bf16)
    (hG : ∀ (r : Fin 256) (k : Fin 128), G (ix3 (⟨n, h⟩ : Fin 16) r k) = v (ix3 (0 : Fin 1) r k)) :
    holds c (slotN n h) q ((blkM.access (Rect.unit off S1x256x128.size inb)).write (Elt F) f v Finset.univ)
      = holds c (slotN n h) q G :=
  lead_store_congr blkM c q n h off hoff inb (inbN n h) f G v hG

/-! ## What the lemmas rest on -/

/-- info: 'Cert.KernelIdeal.Coll.mem_lead' depends on axioms: [propext, Classical.choice, Quot.sound] -/
#guard_msgs in #print axioms mem_lead

/-- info: 'Cert.KernelIdeal.Coll.disjoint_lead' depends on axioms: [propext, Classical.choice, Quot.sound] -/
#guard_msgs in #print axioms disjoint_lead

/-- info: 'Cert.KernelIdeal.Coll.halves' depends on axioms: [propext, Classical.choice, Quot.sound] -/
#guard_msgs in #print axioms halves

/-- info: 'Cert.KernelIdeal.Coll.rect_lead_emb' depends on axioms: [propext, Quot.sound] -/
#guard_msgs in #print axioms rect_lead_emb

/-- info: 'Cert.KernelIdeal.Coll.eq_ix3_lead' depends on axioms: [propext, Quot.sound] -/
#guard_msgs in #print axioms eq_ix3_lead

/-- info: 'Cert.KernelIdeal.Coll.cut_lead' depends on axioms: [propext, Classical.choice, Quot.sound] -/
#guard_msgs in #print axioms cut_lead

/-- info: 'Cert.KernelIdeal.Coll.holds_slot6' depends on axioms: [propext, Classical.choice, Quot.sound] -/
#guard_msgs in #print axioms holds_slot6

/-- info: 'Cert.KernelIdeal.Coll.split6_view' depends on axioms: [propext, Classical.choice, Quot.sound] -/
#guard_msgs in #print axioms split6_view

/-- info: 'Cert.KernelIdeal.Coll.split6_snd' depends on axioms: [propext, Classical.choice, Quot.sound] -/
#guard_msgs in #print axioms split6_snd

/-- info: 'Cert.KernelIdeal.Coll.split6_rcv' depends on axioms: [propext, Classical.choice, Quot.sound] -/
#guard_msgs in #print axioms split6_rcv

/-- info: 'Cert.KernelIdeal.Coll.holds_slotN' depends on axioms: [propext, Classical.choice, Quot.sound] -/
#guard_msgs in #print axioms holds_slotN

/-- info: 'Cert.KernelIdeal.Coll.holds_slotN_congr' depends on axioms: [propext, Classical.choice, Quot.sound] -/
#guard_msgs in #print axioms holds_slotN_congr

/-- info: 'Cert.KernelIdeal.Coll.inb16v' depends on axioms: [propext, Classical.choice, Quot.sound] -/
#guard_msgs in #print axioms inb16v

/-- info: 'Cert.KernelIdeal.Coll.splitBlk_lit' depends on axioms: [propext, Classical.choice, Quot.sound] -/
#guard_msgs in #print axioms splitBlk_lit

/-- info: 'Cert.KernelIdeal.Coll.sep_perm_even' depends on axioms: [propext, Classical.choice, Quot.sound] -/
#guard_msgs in #print axioms sep_perm_even

/-- info: 'Cert.KernelIdeal.Coll.sep_perm_odd' depends on axioms: [propext, Classical.choice, Quot.sound] -/
#guard_msgs in #print axioms sep_perm_odd

/-- info: 'Cert.KernelIdeal.Coll.splitBlk' depends on axioms: [propext, Classical.choice, Quot.sound] -/
#guard_msgs in #print axioms splitBlk

/-- info: 'Cert.KernelIdeal.Coll.lead_slot_emb' depends on axioms: [propext, Classical.choice, Quot.sound] -/
#guard_msgs in #print axioms lead_slot_emb

/-- info: 'Cert.KernelIdeal.Coll.lead_slot_read' depends on axioms: [propext, Classical.choice, Quot.sound] -/
#guard_msgs in #print axioms lead_slot_read

/-- info: 'Cert.KernelIdeal.Coll.read_slotN' depends on axioms: [propext, Classical.choice, Quot.sound] -/
#guard_msgs in #print axioms read_slotN

/-- info: 'Cert.KernelIdeal.Coll.read_slot6_snd' depends on axioms: [propext, Classical.choice, Quot.sound] -/
#guard_msgs in #print axioms read_slot6_snd

/-- info: 'Cert.KernelIdeal.Coll.read_slot6_rcv' depends on axioms: [propext, Classical.choice, Quot.sound] -/
#guard_msgs in #print axioms read_slot6_rcv

/-- info: 'Cert.KernelIdeal.Coll.holds_write_read_congr' depends on axioms: [propext, Classical.choice, Quot.sound] -/
#guard_msgs in #print axioms holds_write_read_congr

/-- info: 'Cert.KernelIdeal.Coll.landN' depends on axioms: [propext, Classical.choice, Quot.sound] -/
#guard_msgs in #print axioms landN

/-- info: 'Cert.KernelIdeal.Coll.land6' depends on axioms: [propext, Classical.choice, Quot.sound] -/
#guard_msgs in #print axioms land6

/-- info: 'Cert.KernelIdeal.Coll.land6_self' depends on axioms: [propext, Classical.choice, Quot.sound] -/
#guard_msgs in #print axioms land6_self

/-- info: 'Cert.KernelIdeal.Coll.lead_store_congr' depends on axioms: [propext, Classical.choice, Quot.sound] -/
#guard_msgs in #print axioms lead_store_congr

/-- info: 'Cert.KernelIdeal.Coll.store6_snd' depends on axioms: [propext, Classical.choice, Quot.sound] -/
#guard_msgs in #print axioms store6_snd

/-- info: 'Cert.KernelIdeal.Coll.storeN' depends on axioms: [propext, Classical.choice, Quot.sound] -/
#guard_msgs in #print axioms storeN

end Cert.KernelIdeal.Coll

end
-- ==== Proof.Steps4.lean ====
/-
  The five copies again, the landing restated through an equation of assertions.

  Each wrapper of a copy hands the neighbour's receive cell the landing slot "holding what was sent". Here that is
  restated at the canonical contents by an equation between the two assertions about the slot, which is the form the
  slot lemmas prove; everything else is as in the first versions.
-/
import proofs.«900594_g7700000000000595_dist_rsdw_v7x_xyz2x2x2_y_m512_d512_f2048_bf16_1_alg».proof.Proof.Steps2
import proofs.«900594_g7700000000000595_dist_rsdw_v7x_xyz2x2x2_y_m512_d512_f2048_bf16_1_alg».proof.Proof.Slots

noncomputable section

namespace Cert.KernelIdeal.Coll

open Cert.KernelIdeal Cert.KernelIdeal.Gen Cert.KernelIdeal.Mesh
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ UU ℕ

section Sends
variable (SND : Dev nD → (cc0_scratch1 : Ref sig .tc).ty.Contents (Elt F)) (BLK : Dev nD → (cc0_scratch4 : Ref sig .tc).ty.Contents (Elt F))

/-- Copy j across y; the landing slot of the y neighbour is restated at the sender's canonical send contents. -/
theorem wp_ysend' (K : GSem nD τ sig → ℕ) (c n : Dev nD) (hn : n = yp c) (j : Fin 6)
    {hsc : (slot6 rcvM j : Memref sig (Dev.tc n : Thread nD τ).2.kind .vmem S256x128 .bf16).view.ref.isScScratch = false}
    {hsrc : (slot6 sndM j : Memref sig .tc .vmem S256x128 .bf16).view.WordExact} {hdst : (slot6 rcvM j : Memref sig .tc .vmem S256x128 .bf16).view.WordExact}
    {hsem : DmaTarget.Typed .vmem (.dma (yrS j)) (.remote (Dev.tc n : Thread nD τ) (slot6 rcvM j : Memref sig .tc .vmem S256x128 .bf16) (.dma (ysS j)) hsc)}
    {α : Type} {Q : α → sProp 𝕄} {k : PUnit → Prog (TpuEff nD τ sig (Elt F) Λ₀ .tc) α}
    (fs : Buf (Elt F) ((slot6 sndM j).view.loc (c : Thread nD τ))) (fd : Buf (Elt F) ((slot6 rcvM j).view.loc (yp c : Thread nD τ)))
    (heq : (holds (yp c) (slot6 rcvM j) fullShare ((slot6 rcvM j).view.write (Elt F) fd ((slot6 sndM j).view.read (Elt F) fs) Finset.univ) : sProp 𝕄)
      = holds (yp c) (slot6 rcvM j) fullShare (SND c))
    (O : CellTallies nD τ sig Unit) (W : Waits sig Unit) :
    iprop(cellInv ER (Rd SND BLK) (K (ysCell c j)) (ysCell c j) ∗ cellInv ER (Rd SND BLK) (K (yrCell (yp c) j)) (yrCell (yp c) j)
        ∗ ((slot6 sndM j).view.loc (c : Thread nD τ) ↦[(slot6 sndM j).view.set]{fullShare} fs)
        ∗ ((slot6 rcvM j).view.loc (yp c : Thread nD τ) ↦[(slot6 rcvM j).view.set]{fullShare} fd)
        ∗ owes (c : Thread nD τ) (O + tallyAt (yrCell (yp c) j) () Ny) W
        ∗ dutyTok ER (ysCell c j) 0 0 ∗ reached ER (ysCell c j) 0
        ∗ dutyTok ER (yrCell (yp c) j) 0 0 ∗ reached ER (yrCell (yp c) j) 0)
      ⊢ iprop(((cred (tallyAt (ysCell c j) () Ny) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (slot6 sndM j) (.remote (Dev.tc n : Thread nD τ) (slot6 rcvM j) (.dma (ysS j)) hsc) (.dma (yrS j)) hsrc hdst hsem) k) Q) := by
  subst hn
  exact Rounds.wp_send_pointsTo 𝒱₀ ER (Rd SND BLK) (c : Thread nD τ) none (κ₁ := K (ysCell c j)) (κ₂ := K (yrCell (yp c) j))
    (r₁ := 0) (r₂ := 0) (d₁ := 0) (d₂ := 0) (fs := fs) (fd := fd)
    (by rw [duties_ys]; exact Finset.mem_singleton_self _) (by rw [duties_yr]; exact Finset.mem_singleton_self _)
    () () Ny rfl (amount_ys SND BLK c j 0) (amount_yr SND BLK (yp c) j 0) O rfl (W := W)
    (by rw [payload_ys]; iintro H; iexists fs; iexact H)
    (by rw [payload_yr, yp_yp]; exact Entails.of_eq heq)

/-- Own chunk w (w = 0, 1) across x, from slot 2p + w into slot 2p + w + 8 of the x neighbour. -/
theorem wp_xsendA' (K : GSem nD τ sig → ℕ) (c n : Dev nD) (hn : n = xp c) (w : Fin 2) (j : Fin 6) (hj : j = lo6 w)
    (off8 off7 : Fin 3 → Nat)
    (h8 : ∀ a, off8 a + S1x256x128.size a ≤ S16x256x128.size a) (h7 : ∀ a, off7 a + S1x256x128.size a ≤ S16x256x128.size a)
    (e8 : off8 = ![2 * (c.val % 2) + w.val, 0, 0]) (e7 : off7 = ![2 * (c.val % 2) + w.val + 8, 0, 0])
    {hsc : (slotAt off7 h7 : Memref sig (Dev.tc n : Thread nD τ).2.kind .vmem S256x128 .bf16).view.ref.isScScratch = false}
    {hsrc : (slotAt off8 h8 : Memref sig .tc .vmem S256x128 .bf16).view.WordExact} {hdst : (slotAt off7 h7 : Memref sig .tc .vmem S256x128 .bf16).view.WordExact}
    {hsem : DmaTarget.Typed .vmem (.dma (xrS j)) (.remote (Dev.tc n : Thread nD τ) (slotAt off7 h7 : Memref sig .tc .vmem S256x128 .bf16) (.dma (xsS j)) hsc)}
    {α : Type} {Q : α → sProp 𝕄} {k : PUnit → Prog (TpuEff nD τ sig (Elt F) Λ₀ .tc) α}
    (fs : Buf (Elt F) ((ownA c w).view.loc (c : Thread nD τ))) (fd : Buf (Elt F) ((xinA (xp c) w).view.loc (xp c : Thread nD τ)))
    (heq : (holds (xp c) (xinA (xp c) w) fullShare ((xinA (xp c) w).view.write (Elt F) fd ((ownA c w).view.read (Elt F) fs) Finset.univ) : sProp 𝕄)
      = holds (xp c) (xinA (xp c) w) fullShare (BLK (xp c)))
    (O : CellTallies nD τ sig Unit) (W : Waits sig Unit) :
    iprop(cellInv ER (Rd SND BLK) (K (xsCell c j)) (xsCell c j) ∗ cellInv ER (Rd SND BLK) (K (xrCell (xp c) j)) (xrCell (xp c) j)
        ∗ ((ownA c w).view.loc (c : Thread nD τ) ↦[(ownA c w).view.set]{fullShare.left} fs)
        ∗ ((xinA (xp c) w).view.loc (xp c : Thread nD τ) ↦[(xinA (xp c) w).view.set]{fullShare} fd)
        ∗ owes (c : Thread nD τ) (O + tallyAt (xrCell (xp c) j) () Nb) W
        ∗ dutyTok ER (xsCell c j) 0 0 ∗ reached ER (xsCell c j) 0
        ∗ dutyTok ER (xrCell (xp c) j) 0 0 ∗ reached ER (xrCell (xp c) j) 0)
      ⊢ iprop(((cred (tallyAt (xsCell c j) () Nb) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (slotAt off8 h8) (.remote (Dev.tc n : Thread nD τ) (slotAt off7 h7) (.dma (xsS j)) hsc) (.dma (xrS j)) hsrc hdst hsem) k) Q) := by
  subst hj
  have e7' : off7 = ![2 * ((xp c).val % 2) + w.val + 8, 0, 0] := by rw [e7, xp_par]
  subst hn e8 e7'
  exact Rounds.wp_send_pointsTo 𝒱₀ ER (Rd SND BLK) (c : Thread nD τ) none (κ₁ := K (xsCell c (lo6 w))) (κ₂ := K (xrCell (xp c) (lo6 w)))
    (r₁ := 0) (r₂ := 0) (d₁ := 0) (d₂ := 0) (fs := fs) (fd := fd)
    (by rw [duties_xs]; exact Finset.mem_singleton_self _) (by rw [duties_xr]; exact Finset.mem_singleton_self _)
    () () Nb rfl (amount_xs SND BLK c (lo6 w) 0) (amount_xr SND BLK (xp c) (lo6 w) 0) O rfl (W := W)
    (by rw [payload_xsA]; iintro H; iexists fs; iexact H)
    (by rw [payload_xrA]; exact Entails.of_eq heq)

/-- Own chunk 4 + k' (k' = 0..3) across x, from slot 4 + k' into slot 12 + k' of the x neighbour. -/
theorem wp_xsendB' (K : GSem nD τ sig → ℕ) (c n : Dev nD) (hn : n = xp c) (k' : Fin 4) (j : Fin 6) (hj : j = hi6 k')
    {hsc : (xinB k' : Memref sig (Dev.tc n : Thread nD τ).2.kind .vmem S256x128 .bf16).view.ref.isScScratch = false}
    {hsrc : (ownB k' : Memref sig .tc .vmem S256x128 .bf16).view.WordExact} {hdst : (xinB k' : Memref sig .tc .vmem S256x128 .bf16).view.WordExact}
    {hsem : DmaTarget.Typed .vmem (.dma (xrS j)) (.remote (Dev.tc n : Thread nD τ) (xinB k' : Memref sig .tc .vmem S256x128 .bf16) (.dma (xsS j)) hsc)}
    {α : Type} {Q : α → sProp 𝕄} {k : PUnit → Prog (TpuEff nD τ sig (Elt F) Λ₀ .tc) α}
    (fs : Buf (Elt F) ((ownB k').view.loc (c : Thread nD τ))) (fd : Buf (Elt F) ((xinB k').view.loc (xp c : Thread nD τ)))
    (heq : (holds (xp c) (xinB k') fullShare ((xinB k').view.write (Elt F) fd ((ownB k').view.read (Elt F) fs) Finset.univ) : sProp 𝕄)
      = holds (xp c) (xinB k') fullShare (BLK (xp c)))
    (O : CellTallies nD τ sig Unit) (W : Waits sig Unit) :
    iprop(cellInv ER (Rd SND BLK) (K (xsCell c j)) (xsCell c j) ∗ cellInv ER (Rd SND BLK) (K (xrCell (xp c) j)) (xrCell (xp c) j)
        ∗ ((ownB k').view.loc (c : Thread nD τ) ↦[(ownB k').view.set]{fullShare} fs)
        ∗ ((xinB k').view.loc (xp c : Thread nD τ) ↦[(xinB k').view.set]{fullShare} fd)
        ∗ owes (c : Thread nD τ) (O + tallyAt (xrCell (xp c) j) () Nb) W
        ∗ dutyTok ER (xsCell c j) 0 0 ∗ reached ER (xsCell c j) 0
        ∗ dutyTok ER (xrCell (xp c) j) 0 0 ∗ reached ER (xrCell (xp c) j) 0)
      ⊢ iprop(((cred (tallyAt (xsCell c j) () Nb) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (ownB k') (.remote (Dev.tc n : Thread nD τ) (xinB k') (.dma (xsS j)) hsc) (.dma (xrS j)) hsrc hdst hsem) k) Q) := by
  subst hj
  subst hn
  exact Rounds.wp_send_pointsTo 𝒱₀ ER (Rd SND BLK) (c : Thread nD τ) none (κ₁ := K (xsCell c (hi6 k'))) (κ₂ := K (xrCell (xp c) (hi6 k')))
    (r₁ := 0) (r₂ := 0) (d₁ := 0) (d₂ := 0) (fs := fs) (fd := fd)
    (by rw [duties_xs]; exact Finset.mem_singleton_self _) (by rw [duties_xr]; exact Finset.mem_singleton_self _)
    () () Nb rfl (amount_xs SND BLK c (hi6 k') 0) (amount_xr SND BLK (xp c) (hi6 k') 0) O rfl (W := W)
    (by rw [payload_xsB]; iintro H; iexists fs; iexact H)
    (by rw [payload_xrB]; exact Entails.of_eq heq)

/-- Own chunk w (w = 0, 1) across z, from slot 2p + w into the same slot of the z neighbour. -/
theorem wp_zsendA' (K : GSem nD τ sig → ℕ) (c n : Dev nD) (hn : n = zp c) (w : Fin 2) (i : Fin 4) (hi : i = lo4 w)
    (offs offd : Fin 3 → Nat)
    (hs : ∀ a, offs a + S1x256x128.size a ≤ S16x256x128.size a) (hd : ∀ a, offd a + S1x256x128.size a ≤ S16x256x128.size a)
    (es : offs = ![2 * (c.val % 2) + w.val, 0, 0]) (ed : offd = ![2 * (c.val % 2) + w.val, 0, 0])
    {hsc : (slotAt offd hd : Memref sig (Dev.tc n : Thread nD τ).2.kind .vmem S256x128 .bf16).view.ref.isScScratch = false}
    {hsrc : (slotAt offs hs : Memref sig .tc .vmem S256x128 .bf16).view.WordExact} {hdst : (slotAt offd hd : Memref sig .tc .vmem S256x128 .bf16).view.WordExact}
    {hsem : DmaTarget.Typed .vmem (.dma (zrS i)) (.remote (Dev.tc n : Thread nD τ) (slotAt offd hd : Memref sig .tc .vmem S256x128 .bf16) (.dma (zsS i)) hsc)}
    {α : Type} {Q : α → sProp 𝕄} {k : PUnit → Prog (TpuEff nD τ sig (Elt F) Λ₀ .tc) α}
    (fs : Buf (Elt F) ((ownA c w).view.loc (c : Thread nD τ))) (fd : Buf (Elt F) ((zinA (zp c) w).view.loc (zp c : Thread nD τ)))
    (heq : (holds (zp c) (zinA (zp c) w) fullShare ((zinA (zp c) w).view.write (Elt F) fd ((ownA c w).view.read (Elt F) fs) Finset.univ) : sProp 𝕄)
      = holds (zp c) (zinA (zp c) w) fullShare (BLK (zp c)))
    (O : CellTallies nD τ sig Unit) (W : Waits sig Unit) :
    iprop(cellInv ER (Rd SND BLK) (K (zsCell c i)) (zsCell c i) ∗ cellInv ER (Rd SND BLK) (K (zrCell (zp c) i)) (zrCell (zp c) i)
        ∗ ((ownA c w).view.loc (c : Thread nD τ) ↦[(ownA c w).view.set]{fullShare.right} fs)
        ∗ ((zinA (zp c) w).view.loc (zp c : Thread nD τ) ↦[(zinA (zp c) w).view.set]{fullShare} fd)
        ∗ owes (c : Thread nD τ) (O + tallyAt (zrCell (zp c) i) () Nb) W
        ∗ dutyTok ER (zsCell c i) 0 0 ∗ reached ER (zsCell c i) 0
        ∗ dutyTok ER (zrCell (zp c) i) 0 0 ∗ reached ER (zrCell (zp c) i) 0)
      ⊢ iprop(((cred (tallyAt (zsCell c i) () Nb) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (slotAt offs hs) (.remote (Dev.tc n : Thread nD τ) (slotAt offd hd) (.dma (zsS i)) hsc) (.dma (zrS i)) hsrc hdst hsem) k) Q) := by
  subst hi
  have en : 2 * (c.val % 2) + w.val = (w.val + 2) - 2 * ((zp c).val % 2) := by rw [zp_par]; have := z2 c; have := w.isLt; omega
  have ed' : offd = ![(w.val + 2) - 2 * ((zp c).val % 2), 0, 0] := by rw [ed, en]
  subst hn es ed'
  exact Rounds.wp_send_pointsTo 𝒱₀ ER (Rd SND BLK) (c : Thread nD τ) none (κ₁ := K (zsCell c (lo4 w))) (κ₂ := K (zrCell (zp c) (lo4 w)))
    (r₁ := 0) (r₂ := 0) (d₁ := 0) (d₂ := 0) (fs := fs) (fd := fd)
    (by rw [duties_zs]; exact Finset.mem_singleton_self _) (by rw [duties_zr]; exact Finset.mem_singleton_self _)
    () () Nb rfl (amount_zs SND BLK c (lo4 w) 0) (amount_zr SND BLK (zp c) (lo4 w) 0) O rfl (W := W)
    (by rw [payload_zsA]; iintro H; iexists fs; iexact H)
    (by rw [payload_zrA]; exact Entails.of_eq heq)

/-- The x neighbour's copy of chunk w (w = 0, 1) across z, from slot 2p + w + 8 into the same slot of the z neighbour. -/
theorem wp_zsendB' (K : GSem nD τ sig → ℕ) (c n : Dev nD) (hn : n = zp c) (w : Fin 2) (i : Fin 4) (hi : i = hi4 w)
    (offs offd : Fin 3 → Nat)
    (hs : ∀ a, offs a + S1x256x128.size a ≤ S16x256x128.size a) (hd : ∀ a, offd a + S1x256x128.size a ≤ S16x256x128.size a)
    (es : offs = ![2 * (c.val % 2) + w.val + 8, 0, 0]) (ed : offd = ![2 * (c.val % 2) + w.val + 8, 0, 0])
    {hsc : (slotAt offd hd : Memref sig (Dev.tc n : Thread nD τ).2.kind .vmem S256x128 .bf16).view.ref.isScScratch = false}
    {hsrc : (slotAt offs hs : Memref sig .tc .vmem S256x128 .bf16).view.WordExact} {hdst : (slotAt offd hd : Memref sig .tc .vmem S256x128 .bf16).view.WordExact}
    {hsem : DmaTarget.Typed .vmem (.dma (zrS i)) (.remote (Dev.tc n : Thread nD τ) (slotAt offd hd : Memref sig .tc .vmem S256x128 .bf16) (.dma (zsS i)) hsc)}
    {α : Type} {Q : α → sProp 𝕄} {k : PUnit → Prog (TpuEff nD τ sig (Elt F) Λ₀ .tc) α}
    (fs : Buf (Elt F) ((xinA c w).view.loc (c : Thread nD τ))) (fd : Buf (Elt F) ((zinB (zp c) w).view.loc (zp c : Thread nD τ)))
    (heq : (holds (zp c) (zinB (zp c) w) fullShare ((zinB (zp c) w).view.write (Elt F) fd ((xinA c w).view.read (Elt F) fs) Finset.univ) : sProp 𝕄)
      = holds (zp c) (zinB (zp c) w) fullShare (BLK (zp c)))
    (O : CellTallies nD τ sig Unit) (W : Waits sig Unit) :
    iprop(cellInv ER (Rd SND BLK) (K (zsCell c i)) (zsCell c i) ∗ cellInv ER (Rd SND BLK) (K (zrCell (zp c) i)) (zrCell (zp c) i)
        ∗ ((xinA c w).view.loc (c : Thread nD τ) ↦[(xinA c w).view.set]{fullShare.left} fs)
        ∗ ((zinB (zp c) w).view.loc (zp c : Thread nD τ) ↦[(zinB (zp c) w).view.set]{fullShare} fd)
        ∗ owes (c : Thread nD τ) (O + tallyAt (zrCell (zp c) i) () Nb) W
        ∗ dutyTok ER (zsCell c i) 0 0 ∗ reached ER (zsCell c i) 0
        ∗ dutyTok ER (zrCell (zp c) i) 0 0 ∗ reached ER (zrCell (zp c) i) 0)
      ⊢ iprop(((cred (tallyAt (zsCell c i) () Nb) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (slotAt offs hs) (.remote (Dev.tc n : Thread nD τ) (slotAt offd hd) (.dma (zsS i)) hsc) (.dma (zrS i)) hsrc hdst hsem) k) Q) := by
  subst hi
  have en : 2 * (c.val % 2) + w.val + 8 = (w.val + 10) - 2 * ((zp c).val % 2) := by rw [zp_par]; have := z2 c; have := w.isLt; omega
  have ed' : offd = ![(w.val + 10) - 2 * ((zp c).val % 2), 0, 0] := by rw [ed, en]
  subst hn es ed'
  exact Rounds.wp_send_pointsTo 𝒱₀ ER (Rd SND BLK) (c : Thread nD τ) none (κ₁ := K (zsCell c (hi4 w))) (κ₂ := K (zrCell (zp c) (hi4 w)))
    (r₁ := 0) (r₂ := 0) (d₁ := 0) (d₂ := 0) (fs := fs) (fd := fd)
    (by rw [duties_zs]; exact Finset.mem_singleton_self _) (by rw [duties_zr]; exact Finset.mem_singleton_self _)
    () () Nb rfl (amount_zs SND BLK c (hi4 w) 0) (amount_zr SND BLK (zp c) (hi4 w) 0) O rfl (W := W)
    (by rw [payload_zsB]; iintro H; iexists fs; iexact H)
    (by rw [payload_zrB]; exact Entails.of_eq heq)

/-! The slot lemmas prove exactly the equations asked for. -/

example (K : GSem nD τ sig → ℕ) (c : Dev nD) (j : Fin 6) (fs : (cc0_scratch1 : Ref sig .tc).ty.Contents (Elt F)) (fd : (cc0_scratch2 : Ref sig .tc).ty.Contents (Elt F))
    (hG : ∀ (r : Fin 256) (k : Fin 128), SND c (ix3 j r k) = fs (ix3 j r k)) (O : CellTallies nD τ sig Unit) (W : Waits sig Unit) :=
  fun hsc hsrc hdst hsem (α : Type) (Q : α → sProp 𝕄) (k : PUnit → Prog (TpuEff nD τ sig (Elt F) Λ₀ .tc) α) =>
    wp_ysend' SND BLK K c (yp c) rfl j (hsc := hsc) (hsrc := hsrc) (hdst := hdst) (hsem := hsem) (Q := Q) (k := k) fs fd
      (land6 (yp c) j fullShare fd (SND c) fs hG) O W

example (K : GSem nD τ sig → ℕ) (c : Dev nD) (w : Fin 2) (off8 off7 : Fin 3 → Nat)
    (h8 : ∀ a, off8 a + S1x256x128.size a ≤ S16x256x128.size a) (h7 : ∀ a, off7 a + S1x256x128.size a ≤ S16x256x128.size a)
    (e8 : off8 = ![2 * (c.val % 2) + w.val, 0, 0]) (e7 : off7 = ![2 * (c.val % 2) + w.val + 8, 0, 0])
    (fs fd : (cc0_scratch4 : Ref sig .tc).ty.Contents (Elt F))
    (hn : 2 * (c.val % 2) + w.val < 16) (hn' : 2 * ((xp c).val % 2) + w.val + 8 < 16)
    (hG : ∀ (r : Fin 256) (k : Fin 128), BLK (xp c) (ix3 (⟨2 * ((xp c).val % 2) + w.val + 8, hn'⟩ : Fin 16) r k) = fs (ix3 (⟨2 * (c.val % 2) + w.val, hn⟩ : Fin 16) r k))
    (O : CellTallies nD τ sig Unit) (W : Waits sig Unit) :=
  fun hsc hsrc hdst hsem (α : Type) (Q : α → sProp 𝕄) (k : PUnit → Prog (TpuEff nD τ sig (Elt F) Λ₀ .tc) α) =>
    wp_xsendA' SND BLK K c (xp c) rfl w (lo6 w) rfl off8 off7 h8 h7 e8 e7 (hsc := hsc) (hsrc := hsrc) (hdst := hdst) (hsem := hsem) (Q := Q) (k := k) fs fd
      (landN (xp c) _ _ hn hn' fullShare fd fs (BLK (xp c)) hG) O W

example (K : GSem nD τ sig → ℕ) (c : Dev nD) (k' : Fin 4) (fs fd : (cc0_scratch4 : Ref sig .tc).ty.Contents (Elt F))
    (hn : 4 + k'.val < 16) (hn' : 12 + k'.val < 16)
    (hG : ∀ (r : Fin 256) (k : Fin 128), BLK (xp c) (ix3 (⟨12 + k'.val, hn'⟩ : Fin 16) r k) = fs (ix3 (⟨4 + k'.val, hn⟩ : Fin 16) r k))
    (O : CellTallies nD τ sig Unit) (W : Waits sig Unit) :=
  fun hsc hsrc hdst hsem (α : Type) (Q : α → sProp 𝕄) (k : PUnit → Prog (TpuEff nD τ sig (Elt F) Λ₀ .tc) α) =>
    wp_xsendB' SND BLK K c (xp c) rfl k' (hi6 k') rfl (hsc := hsc) (hsrc := hsrc) (hdst := hdst) (hsem := hsem) (Q := Q) (k := k) fs fd
      (landN (xp c) _ _ hn hn' fullShare fd fs (BLK (xp c)) hG) O W

example (K : GSem nD τ sig → ℕ) (c : Dev nD) (w : Fin 2) (offs offd : Fin 3 → Nat)
    (hs : ∀ a, offs a + S1x256x128.size a ≤ S16x256x128.size a) (hd : ∀ a, offd a + S1x256x128.size a ≤ S16x256x128.size a)
    (es : offs = ![2 * (c.val % 2) + w.val, 0, 0]) (ed : offd = ![2 * (c.val % 2) + w.val, 0, 0])
    (fs fd : (cc0_scratch4 : Ref sig .tc).ty.Contents (Elt F))
    (hn : 2 * (c.val % 2) + w.val < 16) (hn' : (w.val + 2) - 2 * ((zp c).val % 2) < 16)
    (hG : ∀ (r : Fin 256) (k : Fin 128), BLK (zp c) (ix3 (⟨(w.val + 2) - 2 * ((zp c).val % 2), hn'⟩ : Fin 16) r k) = fs (ix3 (⟨2 * (c.val % 2) + w.val, hn⟩ : Fin 16) r k))
    (O : CellTallies nD τ sig Unit) (W : Waits sig Unit) :=
  fun hsc hsrc hdst hsem (α : Type) (Q : α → sProp 𝕄) (k : PUnit → Prog (TpuEff nD τ sig (Elt F) Λ₀ .tc) α) =>
    wp_zsendA' SND BLK K c (zp c) rfl w (lo4 w) rfl offs offd hs hd es ed (hsc := hsc) (hsrc := hsrc) (hdst := hdst) (hsem := hsem) (Q := Q) (k := k) fs fd
      (landN (zp c) _ _ hn hn' fullShare fd fs (BLK (zp c)) hG) O W

example (K : GSem nD τ sig → ℕ) (c : Dev nD) (w : Fin 2) (offs offd : Fin 3 → Nat)
    (hs : ∀ a, offs a + S1x256x128.size a ≤ S16x256x128.size a) (hd : ∀ a, offd a + S1x256x128.size a ≤ S16x256x128.size a)
    (es : offs = ![2 * (c.val % 2) + w.val + 8, 0, 0]) (ed : offd = ![2 * (c.val % 2) + w.val + 8, 0, 0])
    (fs fd : (cc0_scratch4 : Ref sig .tc).ty.Contents (Elt F))
    (hn : 2 * (c.val % 2) + w.val + 8 < 16) (hn' : (w.val + 10) - 2 * ((zp c).val % 2) < 16)
    (hG : ∀ (r : Fin 256) (k : Fin 128), BLK (zp c) (ix3 (⟨(w.val + 10) - 2 * ((zp c).val % 2), hn'⟩ : Fin 16) r k) = fs (ix3 (⟨2 * (c.val % 2) + w.val + 8, hn⟩ : Fin 16) r k))
    (O : CellTallies nD τ sig Unit) (W : Waits sig Unit) :=
  fun hsc hsrc hdst hsem (α : Type) (Q : α → sProp 𝕄) (k : PUnit → Prog (TpuEff nD τ sig (Elt F) Λ₀ .tc) α) =>
    wp_zsendB' SND BLK K c (zp c) rfl w (hi4 w) rfl offs offd hs hd es ed (hsc := hsc) (hsrc := hsrc) (hdst := hdst) (hsem := hsem) (Q := Q) (k := k) fs fd
      (landN (zp c) _ _ hn hn' fullShare fd fs (BLK (zp c)) hG) O W

/-! With literal indices, as the body's context spells the cells. -/

example (K : GSem nD τ sig → ℕ) (c : Dev nD) (off8 off7 : Fin 3 → Nat)
    (h8 : ∀ a, off8 a + S1x256x128.size a ≤ S16x256x128.size a) (h7 : ∀ a, off7 a + S1x256x128.size a ≤ S16x256x128.size a)
    (e8 : off8 = ![2 * (c.val % 2) + (1 : Fin 2).val, 0, 0]) (e7 : off7 = ![2 * (c.val % 2) + (1 : Fin 2).val + 8, 0, 0])
    (fs fd : (cc0_scratch4 : Ref sig .tc).ty.Contents (Elt F))
    (heq : (holds (xp c) (xinA (xp c) 1) fullShare ((xinA (xp c) 1).view.write (Elt F) fd ((ownA c 1).view.read (Elt F) fs) Finset.univ) : sProp 𝕄)
      = holds (xp c) (xinA (xp c) 1) fullShare (BLK (xp c)))
    (O : CellTallies nD τ sig Unit) (W : Waits sig Unit)
    {hsc : (slotAt off7 h7 : Memref sig (Dev.tc (xp c) : Thread nD τ).2.kind .vmem S256x128 .bf16).view.ref.isScScratch = false}
    {hsrc : (slotAt off8 h8 : Memref sig .tc .vmem S256x128 .bf16).view.WordExact} {hdst : (slotAt off7 h7 : Memref sig .tc .vmem S256x128 .bf16).view.WordExact}
    {hsem : DmaTarget.Typed .vmem (.dma (xrS 1)) (.remote (Dev.tc (xp c) : Thread nD τ) (slotAt off7 h7 : Memref sig .tc .vmem S256x128 .bf16) (.dma (xsS 1)) hsc)}
    {α : Type} {Q : α → sProp 𝕄} {k : PUnit → Prog (TpuEff nD τ sig (Elt F) Λ₀ .tc) α} :
    iprop(cellInv ER (Rd SND BLK) (K (xsCell c 1)) (xsCell c 1) ∗ cellInv ER (Rd SND BLK) (K (xrCell (xp c) 1)) (xrCell (xp c) 1)
        ∗ ((ownA c 1).view.loc (c : Thread nD τ) ↦[(ownA c 1).view.set]{fullShare.left} fs)
        ∗ ((xinA (xp c) 1).view.loc (xp c : Thread nD τ) ↦[(xinA (xp c) 1).view.set]{fullShare} fd)
        ∗ owes (c : Thread nD τ) (O + tallyAt (xrCell (xp c) 1) () Nb) W
        ∗ dutyTok ER (xsCell c 1) 0 0 ∗ reached ER (xsCell c 1) 0
        ∗ dutyTok ER (xrCell (xp c) 1) 0 0 ∗ reached ER (xrCell (xp c) 1) 0)
      ⊢ iprop(((cred (tallyAt (xsCell c 1) () Nb) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (slotAt off8 h8) (.remote (Dev.tc (xp c) : Thread nD τ) (slotAt off7 h7) (.dma (xsS 1)) hsc) (.dma (xrS 1)) hsrc hdst hsem) k) Q) :=
  wp_xsendA' SND BLK K c (xp c) rfl 1 1 rfl off8 off7 h8 h7 e8 e7 fs fd heq O W

example (K : GSem nD τ sig → ℕ) (c : Dev nD) (fs fd : (cc0_scratch4 : Ref sig .tc).ty.Contents (Elt F))
    (heq : (holds (xp c) (xinB 1) fullShare ((xinB 1).view.write (Elt F) fd ((ownB 1).view.read (Elt F) fs) Finset.univ) : sProp 𝕄) = holds (xp c) (xinB 1) fullShare (BLK (xp c)))
    (O : CellTallies nD τ sig Unit) (W : Waits sig Unit) :=
  fun hsc hsrc hdst hsem (α : Type) (Q : α → sProp 𝕄) (k : PUnit → Prog (TpuEff nD τ sig (Elt F) Λ₀ .tc) α) =>
    wp_xsendB' SND BLK K c (xp c) rfl (k' := 1) 3 rfl (hsc := hsc) (hsrc := hsrc) (hdst := hdst) (hsem := hsem) (Q := Q) (k := k) fs fd heq O W

example (K : GSem nD τ sig → ℕ) (c : Dev nD) (offs offd : Fin 3 → Nat)
    (hs : ∀ a, offs a + S1x256x128.size a ≤ S16x256x128.size a) (hd : ∀ a, offd a + S1x256x128.size a ≤ S16x256x128.size a)
    (es : offs = ![2 * (c.val % 2) + (1 : Fin 2).val + 8, 0, 0]) (ed : offd = ![2 * (c.val % 2) + (1 : Fin 2).val + 8, 0, 0])
    (fs fd : (cc0_scratch4 : Ref sig .tc).ty.Contents (Elt F))
    (heq : (holds (zp c) (zinB (zp c) 1) fullShare ((zinB (zp c) 1).view.write (Elt F) fd ((xinA c 1).view.read (Elt F) fs) Finset.univ) : sProp 𝕄) = holds (zp c) (zinB (zp c) 1) fullShare (BLK (zp c)))
    (O : CellTallies nD τ sig Unit) (W : Waits sig Unit) :=
  fun hsc hsrc hdst hsem (α : Type) (Q : α → sProp 𝕄) (k : PUnit → Prog (TpuEff nD τ sig (Elt F) Λ₀ .tc) α) =>
    wp_zsendB' SND BLK K c (zp c) rfl 1 3 rfl offs offd hs hd es ed (hsc := hsc) (hsrc := hsrc) (hdst := hdst) (hsem := hsem) (Q := Q) (k := k) fs fd heq O W

end Sends

/-- info: 'Cert.KernelIdeal.Coll.wp_ysend'' depends on axioms: [propext, Classical.choice, Quot.sound] -/
#guard_msgs in #print axioms wp_ysend'

/-- info: 'Cert.KernelIdeal.Coll.wp_xsendA'' depends on axioms: [propext, Classical.choice, Quot.sound] -/
#guard_msgs in #print axioms wp_xsendA'

/-- info: 'Cert.KernelIdeal.Coll.wp_xsendB'' depends on axioms: [propext, Classical.choice, Quot.sound] -/
#guard_msgs in #print axioms wp_xsendB'

/-- info: 'Cert.KernelIdeal.Coll.wp_zsendA'' depends on axioms: [propext, Classical.choice, Quot.sound] -/
#guard_msgs in #print axioms wp_zsendA'

/-- info: 'Cert.KernelIdeal.Coll.wp_zsendB'' depends on axioms: [propext, Classical.choice, Quot.sound] -/
#guard_msgs in #print axioms wp_zsendB'

end Cert.KernelIdeal.Coll

end
-- ==== Proof.Finish.lean ====
/-
  The end of the body: every DMA cell of a device is closed.

  The schedule has one round: from round 1 on no cell has a duty. A device that stands at round 1 of one of its cells,
  having taken nothing of it, closes the cell and keeps its counter at zero. Doing so for the thirty-two DMA cells of a
  device hands back its thirty-two DMA semaphores at zero.
-/
import proofs.«900594_g7700000000000595_dist_rsdw_v7x_xyz2x2x2_y_m512_d512_f2048_bf16_1_alg».proof.Proof.Steps

noncomputable section

namespace Cert.KernelIdeal.Coll

open Cert.KernelIdeal Cert.KernelIdeal.Gen Cert.KernelIdeal.Mesh
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- Device c's positions at round 1 of its thirty-two DMA cells, in the order its semaphores are handed back. -/
def positions1 (c : Dev nD) : sProp 𝕄 :=
  iprop(atPos ER (ysCell c 0) 1 ∅ 0
    ∗ atPos ER (ysCell c 1) 1 ∅ 0
    ∗ atPos ER (ysCell c 2) 1 ∅ 0
    ∗ atPos ER (ysCell c 3) 1 ∅ 0
    ∗ atPos ER (ysCell c 4) 1 ∅ 0
    ∗ atPos ER (ysCell c 5) 1 ∅ 0
    ∗ atPos ER (yrCell c 0) 1 ∅ 0
    ∗ atPos ER (yrCell c 1) 1 ∅ 0
    ∗ atPos ER (yrCell c 2) 1 ∅ 0
    ∗ atPos ER (yrCell c 3) 1 ∅ 0
    ∗ atPos ER (yrCell c 4) 1 ∅ 0
    ∗ atPos ER (yrCell c 5) 1 ∅ 0
    ∗ atPos ER (xsCell c 0) 1 ∅ 0
    ∗ atPos ER (xsCell c 1) 1 ∅ 0
    ∗ atPos ER (xsCell c 2) 1 ∅ 0
    ∗ atPos ER (xsCell c 3) 1 ∅ 0
    ∗ atPos ER (xsCell c 4) 1 ∅ 0
    ∗ atPos ER (xsCell c 5) 1 ∅ 0
    ∗ atPos ER (xrCell c 0) 1 ∅ 0
    ∗ atPos ER (xrCell c 1) 1 ∅ 0
    ∗ atPos ER (xrCell c 2) 1 ∅ 0
    ∗ atPos ER (xrCell c 3) 1 ∅ 0
    ∗ atPos ER (xrCell c 4) 1 ∅ 0
    ∗ atPos ER (xrCell c 5) 1 ∅ 0
    ∗ atPos ER (zsCell c 0) 1 ∅ 0
    ∗ atPos ER (zsCell c 1) 1 ∅ 0
    ∗ atPos ER (zsCell c 2) 1 ∅ 0
    ∗ atPos ER (zsCell c 3) 1 ∅ 0
    ∗ atPos ER (zrCell c 0) 1 ∅ 0
    ∗ atPos ER (zrCell c 1) 1 ∅ 0
    ∗ atPos ER (zrCell c 2) 1 ∅ 0
    ∗ atPos ER (zrCell c 3) 1 ∅ 0)

section Finish
variable (SND : Dev nD → (cc0_scratch1 : Ref sig .tc).ty.Contents (Elt F)) (BLK : Dev nD → (cc0_scratch4 : Ref sig .tc).ty.Contents (Elt F))

/-- Only round 0 has duties. -/
theorem duties_later (g : GSem nD τ sig) : ∀ r, 1 ≤ r → (Rd (F := F) SND BLK).duties g r = ∅ := by
  intro r hr
  dsimp only [Rd]
  exact if_neg (fun h => absurd h.1 (by omega))

/-- The owner of a cell, at round 1 of it with nothing taken, closes it and keeps its counter, which reads zero. -/
theorem close_cell (κ : ℕ) (g : GSem nD τ sig) :
    iprop(cellInv ER (Rd (F := F) SND BLK) κ g ∗ atPos ER g 1 ∅ 0) ⊢ (|={Set.univ}=> semVal g 0 : sProp 𝕄) :=
  Rounds.cell_close ER (Rd SND BLK) (Set.mem_univ κ) (fun h => h) (R := 1) (duties_later SND BLK g)

/-- The same, the invariant and the position taken one after the other. -/
theorem close_cell_w (κ : ℕ) (g : GSem nD τ sig) :
    cellInv ER (Rd (F := F) SND BLK) κ g ⊢ iprop(atPos ER g 1 ∅ 0 -∗ (|={Set.univ}=> semVal g 0 : sProp 𝕄)) :=
  BI.wand_intro (close_cell SND BLK κ g)

/-- All thirty-two DMA cells of a device closed, one after the other. -/
theorem close_all (K : GSem nD τ sig → ℕ) (c : Dev nD) :
    iprop(invs SND BLK K c ∗ positions1 c) ⊢ (|={Set.univ}=> closedSems c : sProp 𝕄) := by
  unfold invs positions1 closedSems
  iintro ⟨⟨#Ib, #Ibx, #Iby, #Ibz, #Iys0, #Iys1, #Iys2, #Iys3, #Iys4, #Iys5, #Iyr0, #Iyr1, #Iyr2, #Iyr3, #Iyr4, #Iyr5,
      #Iyp0, #Iyp1, #Iyp2, #Iyp3, #Iyp4, #Iyp5, #Ixs0, #Ixs1, #Ixs2, #Ixs3, #Ixs4, #Ixs5, #Ixr0, #Ixr1, #Ixr2, #Ixr3, #Ixr4, #Ixr5,
      #Ixp0, #Ixp1, #Ixp2, #Ixp3, #Ixp4, #Ixp5, #Izs0, #Izs1, #Izs2, #Izs3, #Izr0, #Izr1, #Izr2, #Izr3, #Izp0, #Izp1, #Izp2, #Izp3⟩,
    Pys0, Pys1, Pys2, Pys3, Pys4, Pys5, Pyr0, Pyr1, Pyr2, Pyr3, Pyr4, Pyr5, Pxs0, Pxs1, Pxs2, Pxs3, Pxs4, Pxs5,
    Pxr0, Pxr1, Pxr2, Pxr3, Pxr4, Pxr5, Pzs0, Pzs1, Pzs2, Pzs3, Pzr0, Pzr1, Pzr2, Pzr3⟩
  imod (close_cell_w SND BLK (K (ysCell c 0)) (ysCell c 0)) $$ Iys0 Pys0 with Zys0
  imod (close_cell_w SND BLK (K (ysCell c 1)) (ysCell c 1)) $$ Iys1 Pys1 with Zys1
  imod (close_cell_w SND BLK (K (ysCell c 2)) (ysCell c 2)) $$ Iys2 Pys2 with Zys2
  imod (close_cell_w SND BLK (K (ysCell c 3)) (ysCell c 3)) $$ Iys3 Pys3 with Zys3
  imod (close_cell_w SND BLK (K (ysCell c 4)) (ysCell c 4)) $$ Iys4 Pys4 with Zys4
  imod (close_cell_w SND BLK (K (ysCell c 5)) (ysCell c 5)) $$ Iys5 Pys5 with Zys5
  imod (close_cell_w SND BLK (K (yrCell c 0)) (yrCell c 0)) $$ Iyr0 Pyr0 with Zyr0
  imod (close_cell_w SND BLK (K (yrCell c 1)) (yrCell c 1)) $$ Iyr1 Pyr1 with Zyr1
  imod (close_cell_w SND BLK (K (yrCell c 2)) (yrCell c 2)) $$ Iyr2 Pyr2 with Zyr2
  imod (close_cell_w SND BLK (K (yrCell c 3)) (yrCell c 3)) $$ Iyr3 Pyr3 with Zyr3
  imod (close_cell_w SND BLK (K (yrCell c 4)) (yrCell c 4)) $$ Iyr4 Pyr4 with Zyr4
  imod (close_cell_w SND BLK (K (yrCell c 5)) (yrCell c 5)) $$ Iyr5 Pyr5 with Zyr5
  imod (close_cell_w SND BLK (K (xsCell c 0)) (xsCell c 0)) $$ Ixs0 Pxs0 with Zxs0
  imod (close_cell_w SND BLK (K (xsCell c 1)) (xsCell c 1)) $$ Ixs1 Pxs1 with Zxs1
  imod (close_cell_w SND BLK (K (xsCell c 2)) (xsCell c 2)) $$ Ixs2 Pxs2 with Zxs2
  imod (close_cell_w SND BLK (K (xsCell c 3)) (xsCell c 3)) $$ Ixs3 Pxs3 with Zxs3
  imod (close_cell_w SND BLK (K (xsCell c 4)) (xsCell c 4)) $$ Ixs4 Pxs4 with Zxs4
  imod (close_cell_w SND BLK (K (xsCell c 5)) (xsCell c 5)) $$ Ixs5 Pxs5 with Zxs5
  imod (close_cell_w SND BLK (K (xrCell c 0)) (xrCell c 0)) $$ Ixr0 Pxr0 with Zxr0
  imod (close_cell_w SND BLK (K (xrCell c 1)) (xrCell c 1)) $$ Ixr1 Pxr1 with Zxr1
  imod (close_cell_w SND BLK (K (xrCell c 2)) (xrCell c 2)) $$ Ixr2 Pxr2 with Zxr2
  imod (close_cell_w SND BLK (K (xrCell c 3)) (xrCell c 3)) $$ Ixr3 Pxr3 with Zxr3
  imod (close_cell_w SND BLK (K (xrCell c 4)) (xrCell c 4)) $$ Ixr4 Pxr4 with Zxr4
  imod (close_cell_w SND BLK (K (xrCell c 5)) (xrCell c 5)) $$ Ixr5 Pxr5 with Zxr5
  imod (close_cell_w SND BLK (K (zsCell c 0)) (zsCell c 0)) $$ Izs0 Pzs0 with Zzs0
  imod (close_cell_w SND BLK (K (zsCell c 1)) (zsCell c 1)) $$ Izs1 Pzs1 with Zzs1
  imod (close_cell_w SND BLK (K (zsCell c 2)) (zsCell c 2)) $$ Izs2 Pzs2 with Zzs2
  imod (close_cell_w SND BLK (K (zsCell c 3)) (zsCell c 3)) $$ Izs3 Pzs3 with Zzs3
  imod (close_cell_w SND BLK (K (zrCell c 0)) (zrCell c 0)) $$ Izr0 Pzr0 with Zzr0
  imod (close_cell_w SND BLK (K (zrCell c 1)) (zrCell c 1)) $$ Izr1 Pzr1 with Zzr1
  imod (close_cell_w SND BLK (K (zrCell c 2)) (zrCell c 2)) $$ Izr2 Pzr2 with Zzr2
  imod (close_cell_w SND BLK (K (zrCell c 3)) (zrCell c 3)) $$ Izr3 Pzr3 with Zzr3
  imodintro
  isplitl [Zys0]; · iexact Zys0
  isplitl [Zys1]; · iexact Zys1
  isplitl [Zys2]; · iexact Zys2
  isplitl [Zys3]; · iexact Zys3
  isplitl [Zys4]; · iexact Zys4
  isplitl [Zys5]; · iexact Zys5
  isplitl [Zyr0]; · iexact Zyr0
  isplitl [Zyr1]; · iexact Zyr1
  isplitl [Zyr2]; · iexact Zyr2
  isplitl [Zyr3]; · iexact Zyr3
  isplitl [Zyr4]; · iexact Zyr4
  isplitl [Zyr5]; · iexact Zyr5
  isplitl [Zxs0]; · iexact Zxs0
  isplitl [Zxs1]; · iexact Zxs1
  isplitl [Zxs2]; · iexact Zxs2
  isplitl [Zxs3]; · iexact Zxs3
  isplitl [Zxs4]; · iexact Zxs4
  isplitl [Zxs5]; · iexact Zxs5
  isplitl [Zxr0]; · iexact Zxr0
  isplitl [Zxr1]; · iexact Zxr1
  isplitl [Zxr2]; · iexact Zxr2
  isplitl [Zxr3]; · iexact Zxr3
  isplitl [Zxr4]; · iexact Zxr4
  isplitl [Zxr5]; · iexact Zxr5
  isplitl [Zzs0]; · iexact Zzs0
  isplitl [Zzs1]; · iexact Zzs1
  isplitl [Zzs2]; · iexact Zzs2
  isplitl [Zzs3]; · iexact Zzs3
  isplitl [Zzr0]; · iexact Zzr0
  isplitl [Zzr1]; · iexact Zzr1
  isplitl [Zzr2]; · iexact Zzr2
  iexact Zzr3

end Finish

/-- info: 'Cert.KernelIdeal.Coll.close_cell' depends on axioms: [propext, Classical.choice, Quot.sound] -/
#guard_msgs in #print axioms close_cell

/-- info: 'Cert.KernelIdeal.Coll.close_all' depends on axioms: [propext, Classical.choice, Quot.sound] -/
#guard_msgs in #print axioms close_all

end Cert.KernelIdeal.Coll

end
-- ==== Proof.BlkCases.lean ====
import proofs.«900594_g7700000000000595_dist_rsdw_v7x_xyz2x2x2_y_m512_d512_f2048_bf16_1_alg».proof.Proof.Mesh
import Idealize.ShloMosaic.Lib.ValueIdx

/-!
# What each slot of the block buffer holds

At the end, slot `s` of device `c`'s block buffer `[16, 256, 128]` holds one reduced chunk of one device of
`c`'s plane: slots 0 to 7 hold chunks of `c` itself and of its neighbour across z, slots 8 to 15 the same eight of
the neighbour across x. Within each eight, the last four slots are chunks 2 to 5 of the device itself; the first four
are chunks 0 and 1 of the two devices of the z pair, the pair's even member first.

`srcDev c s` is the device and `srcChunk s` the chunk; the lemmas below read the table at the slot numbers the
kernel computes for each role, on the device itself and on the neighbour a copy is sent to.
-/

noncomputable section

namespace Cert.KernelIdeal.Coll

open Cert.KernelIdeal Cert.KernelIdeal.Gen Cert.KernelIdeal.Mesh
open Idealize.ShloMosaic Idealize.ShloMosaic.TcCoe Idealize.SL.Sem
open Idealize.ShloMosaic.ValueIdx

variable {F : FTy → Type} [FloatOps F]

/-- The device whose chunk slot `s` of device `c`'s block buffer holds. -/
def srcDev (c : Dev nD) (s : ℕ) : Dev nD :=
  if s < 8 then (if 4 ≤ s ∨ s / 2 = c.val % 2 then c else zp c)
  else (if 12 ≤ s ∨ (s - 8) / 2 = c.val % 2 then xp c else xp (zp c))

/-- The number of the chunk slot `s` holds. -/
def srcChunk (s : ℕ) : Fin 6 :=
  if h : 4 ≤ s % 8 then ⟨s % 8 - 2, by omega⟩ else ⟨s % 2, by omega⟩

/-- The block buffer's final contents on device `c`, from the family `redB` of the devices' reduced chunks (chunk
    `j` of device `d` as the `[1, 256, 128]` block it is stored as). -/
def blkOf (redB : Dev nD → Fin 6 → (S1x256x128.Idx → Elt F .bf16)) (c : Dev nD) : (cc0_scratch4 : Ref sig .tc).ty.Contents (Elt F) :=
  fun (i : S16x256x128.Idx) => redB (srcDev c (i 0).val) (srcChunk (i 0).val) (ix3 (0 : Fin 1) (i 1) (i 2))

section Roles

variable (redB : Dev nD → Fin 6 → (S1x256x128.Idx → Elt F .bf16))

theorem blkOf_apply (c : Dev nD) (n : Fin 16) (r : Fin 256) (k : Fin 128) :
    blkOf redB c (ix3 n r k) = redB (srcDev c n.val) (srcChunk n.val) (ix3 (0 : Fin 1) r k) := rfl

theorem par_lt2 (c : Dev nD) : c.val % 2 < 2 := Nat.mod_lt _ (by decide)

theorem srcDev_ownA (c : Dev nD) (w : Fin 2) : srcDev c (2 * (c.val % 2) + w.val) = c := by
  have hz := par_lt2 c
  have hv := w.isLt
  unfold srcDev
  split_ifs <;> first | rfl | (exfalso; omega)

theorem srcChunk_ownA (c : Dev nD) (w : Fin 2) : srcChunk (2 * (c.val % 2) + w.val) = ⟨w.val, by have := w.isLt; omega⟩ := by
  have hz := par_lt2 c
  have hv := w.isLt
  unfold srcChunk
  rw [dif_neg (by omega)]
  exact Fin.ext (by show (2 * (c.val % 2) + w.val) % 2 = w.val; omega)

theorem blkOf_ownA (c : Dev nD) (w : Fin 2) (r : Fin 256) (k : Fin 128) :
    blkOf redB c (ix3 (⟨2 * (c.val % 2) + w.val, by have := par_lt2 c; have := w.isLt; omega⟩ : Fin 16) r k)
      = redB (c) ⟨w.val, by have := w.isLt; omega⟩ (ix3 (0 : Fin 1) r k) := by
  rw [blkOf_apply]
  show redB (srcDev c (2 * (c.val % 2) + w.val)) (srcChunk (2 * (c.val % 2) + w.val)) (ix3 (0 : Fin 1) r k) = _
  rw [srcDev_ownA, srcChunk_ownA]

theorem srcDev_ownB (c : Dev nD) (k' : Fin 4) : srcDev c (4 + k'.val) = c := by
  have hz := par_lt2 c
  have hv := k'.isLt
  unfold srcDev
  split_ifs <;> first | rfl | (exfalso; omega)

theorem srcChunk_ownB (k' : Fin 4) : srcChunk (4 + k'.val) = ⟨k'.val + 2, by have := k'.isLt; omega⟩ := by
  have hv := k'.isLt
  unfold srcChunk
  rw [dif_pos (by omega)]
  exact Fin.ext (by show (4 + k'.val) % 8 - 2 = k'.val + 2; omega)

theorem blkOf_ownB (c : Dev nD) (k' : Fin 4) (r : Fin 256) (k : Fin 128) :
    blkOf redB c (ix3 (⟨4 + k'.val, by have := par_lt2 c; have := k'.isLt; omega⟩ : Fin 16) r k)
      = redB (c) ⟨k'.val + 2, by have := k'.isLt; omega⟩ (ix3 (0 : Fin 1) r k) := by
  rw [blkOf_apply]
  show redB (srcDev c (4 + k'.val)) (srcChunk (4 + k'.val)) (ix3 (0 : Fin 1) r k) = _
  rw [srcDev_ownB, srcChunk_ownB]

theorem srcDev_xinA (c : Dev nD) (w : Fin 2) : srcDev c (2 * (c.val % 2) + w.val + 8) = xp c := by
  have hz := par_lt2 c
  have hv := w.isLt
  unfold srcDev
  split_ifs <;> first | rfl | (exfalso; omega)

theorem srcChunk_xinA (c : Dev nD) (w : Fin 2) : srcChunk (2 * (c.val % 2) + w.val + 8) = ⟨w.val, by have := w.isLt; omega⟩ := by
  have hz := par_lt2 c
  have hv := w.isLt
  unfold srcChunk
  rw [dif_neg (by omega)]
  exact Fin.ext (by show (2 * (c.val % 2) + w.val + 8) % 2 = w.val; omega)

theorem blkOf_xinA (c : Dev nD) (w : Fin 2) (r : Fin 256) (k : Fin 128) :
    blkOf redB c (ix3 (⟨2 * (c.val % 2) + w.val + 8, by have := par_lt2 c; have := w.isLt; omega⟩ : Fin 16) r k)
      = redB (xp c) ⟨w.val, by have := w.isLt; omega⟩ (ix3 (0 : Fin 1) r k) := by
  rw [blkOf_apply]
  show redB (srcDev c (2 * (c.val % 2) + w.val + 8)) (srcChunk (2 * (c.val % 2) + w.val + 8)) (ix3 (0 : Fin 1) r k) = _
  rw [srcDev_xinA, srcChunk_xinA]

theorem srcDev_xinB (c : Dev nD) (k' : Fin 4) : srcDev c (12 + k'.val) = xp c := by
  have hz := par_lt2 c
  have hv := k'.isLt
  unfold srcDev
  split_ifs <;> first | rfl | (exfalso; omega)

theorem srcChunk_xinB (k' : Fin 4) : srcChunk (12 + k'.val) = ⟨k'.val + 2, by have := k'.isLt; omega⟩ := by
  have hv := k'.isLt
  unfold srcChunk
  rw [dif_pos (by omega)]
  exact Fin.ext (by show (12 + k'.val) % 8 - 2 = k'.val + 2; omega)

theorem blkOf_xinB (c : Dev nD) (k' : Fin 4) (r : Fin 256) (k : Fin 128) :
    blkOf redB c (ix3 (⟨12 + k'.val, by have := par_lt2 c; have := k'.isLt; omega⟩ : Fin 16) r k)
      = redB (xp c) ⟨k'.val + 2, by have := k'.isLt; omega⟩ (ix3 (0 : Fin 1) r k) := by
  rw [blkOf_apply]
  show redB (srcDev c (12 + k'.val)) (srcChunk (12 + k'.val)) (ix3 (0 : Fin 1) r k) = _
  rw [srcDev_xinB, srcChunk_xinB]

theorem srcDev_zinA (c : Dev nD) (w : Fin 2) : srcDev c ((w.val + 2) - 2 * (c.val % 2)) = zp c := by
  have hz := par_lt2 c
  have hv := w.isLt
  unfold srcDev
  split_ifs <;> first | rfl | (exfalso; omega)

theorem srcChunk_zinA (c : Dev nD) (w : Fin 2) : srcChunk ((w.val + 2) - 2 * (c.val % 2)) = ⟨w.val, by have := w.isLt; omega⟩ := by
  have hz := par_lt2 c
  have hv := w.isLt
  unfold srcChunk
  rw [dif_neg (by omega)]
  exact Fin.ext (by show ((w.val + 2) - 2 * (c.val % 2)) % 2 = w.val; omega)

theorem blkOf_zinA (c : Dev nD) (w : Fin 2) (r : Fin 256) (k : Fin 128) :
    blkOf redB c (ix3 (⟨(w.val + 2) - 2 * (c.val % 2), by have := par_lt2 c; have := w.isLt; omega⟩ : Fin 16) r k)
      = redB (zp c) ⟨w.val, by have := w.isLt; omega⟩ (ix3 (0 : Fin 1) r k) := by
  rw [blkOf_apply]
  show redB (srcDev c ((w.val + 2) - 2 * (c.val % 2))) (srcChunk ((w.val + 2) - 2 * (c.val % 2))) (ix3 (0 : Fin 1) r k) = _
  rw [srcDev_zinA, srcChunk_zinA]

theorem srcDev_zinB (c : Dev nD) (w : Fin 2) : srcDev c ((w.val + 10) - 2 * (c.val % 2)) = xp (zp c) := by
  have hz := par_lt2 c
  have hv := w.isLt
  unfold srcDev
  split_ifs <;> first | rfl | (exfalso; omega)

theorem srcChunk_zinB (c : Dev nD) (w : Fin 2) : srcChunk ((w.val + 10) - 2 * (c.val % 2)) = ⟨w.val, by have := w.isLt; omega⟩ := by
  have hz := par_lt2 c
  have hv := w.isLt
  unfold srcChunk
  rw [dif_neg (by omega)]
  exact Fin.ext (by show ((w.val + 10) - 2 * (c.val % 2)) % 2 = w.val; omega)

theorem blkOf_zinB (c : Dev nD) (w : Fin 2) (r : Fin 256) (k : Fin 128) :
    blkOf redB c (ix3 (⟨(w.val + 10) - 2 * (c.val % 2), by have := par_lt2 c; have := w.isLt; omega⟩ : Fin 16) r k)
      = redB (xp (zp c)) ⟨w.val, by have := w.isLt; omega⟩ (ix3 (0 : Fin 1) r k) := by
  rw [blkOf_apply]
  show redB (srcDev c ((w.val + 10) - 2 * (c.val % 2))) (srcChunk ((w.val + 10) - 2 * (c.val % 2))) (ix3 (0 : Fin 1) r k) = _
  rw [srcDev_zinB, srcChunk_zinB]

/-! ## Where a device's copies land

The slot a copy lands in is computed on the receiving device, with the receiver's own parity; what the receiver's
table says of that slot is the sender's chunk, because a neighbour's neighbour across the same axis is the device
itself. -/

theorem blkOf_land_xinA (c : Dev nD) (w : Fin 2) (r : Fin 256) (k : Fin 128) :
    blkOf redB (xp c) (ix3 (⟨2 * ((xp c).val % 2) + w.val + 8, by have := par_lt2 (xp c); have := w.isLt; omega⟩ : Fin 16) r k)
      = redB c ⟨w.val, by have := w.isLt; omega⟩ (ix3 (0 : Fin 1) r k) := by
  rw [blkOf_xinA, xp_xp]

theorem blkOf_land_xinB (c : Dev nD) (k' : Fin 4) (r : Fin 256) (k : Fin 128) :
    blkOf redB (xp c) (ix3 (⟨12 + k'.val, by have := k'.isLt; omega⟩ : Fin 16) r k)
      = redB c ⟨k'.val + 2, by have := k'.isLt; omega⟩ (ix3 (0 : Fin 1) r k) := by
  have h := blkOf_xinB redB (xp c) k' r k
  rw [xp_xp] at h
  exact h

theorem blkOf_land_zinA (c : Dev nD) (w : Fin 2) (r : Fin 256) (k : Fin 128) :
    blkOf redB (zp c) (ix3 (⟨(w.val + 2) - 2 * ((zp c).val % 2), by have := par_lt2 (zp c); have := w.isLt; omega⟩ : Fin 16) r k)
      = redB c ⟨w.val, by have := w.isLt; omega⟩ (ix3 (0 : Fin 1) r k) := by
  rw [blkOf_zinA, zp_zp]

theorem blkOf_land_zinB (c : Dev nD) (w : Fin 2) (r : Fin 256) (k : Fin 128) :
    blkOf redB (zp c) (ix3 (⟨(w.val + 10) - 2 * ((zp c).val % 2), by have := par_lt2 (zp c); have := w.isLt; omega⟩ : Fin 16) r k)
      = redB (xp c) ⟨w.val, by have := w.isLt; omega⟩ (ix3 (0 : Fin 1) r k) := by
  rw [blkOf_zinB, zp_zp]

end Roles

/-! ## What the lemmas rest on -/

/-- info: 'Cert.KernelIdeal.Coll.blkOf_apply' depends on axioms: [propext, Classical.choice, Quot.sound] -/
#guard_msgs in #print axioms blkOf_apply

/-- info: 'Cert.KernelIdeal.Coll.par_lt2' does not depend on any axioms -/
#guard_msgs in #print axioms par_lt2

/-- info: 'Cert.KernelIdeal.Coll.srcDev_ownA' depends on axioms: [propext, Quot.sound] -/
#guard_msgs in #print axioms srcDev_ownA

/-- info: 'Cert.KernelIdeal.Coll.srcChunk_ownA' depends on axioms: [propext, Quot.sound] -/
#guard_msgs in #print axioms srcChunk_ownA

/-- info: 'Cert.KernelIdeal.Coll.blkOf_ownA' depends on axioms: [propext, Classical.choice, Quot.sound] -/
#guard_msgs in #print axioms blkOf_ownA

/-- info: 'Cert.KernelIdeal.Coll.srcDev_ownB' depends on axioms: [propext, Quot.sound] -/
#guard_msgs in #print axioms srcDev_ownB

/-- info: 'Cert.KernelIdeal.Coll.srcChunk_ownB' depends on axioms: [propext, Quot.sound] -/
#guard_msgs in #print axioms srcChunk_ownB

/-- info: 'Cert.KernelIdeal.Coll.blkOf_ownB' depends on axioms: [propext, Classical.choice, Quot.sound] -/
#guard_msgs in #print axioms blkOf_ownB

/-- info: 'Cert.KernelIdeal.Coll.srcDev_xinA' depends on axioms: [propext, Quot.sound] -/
#guard_msgs in #print axioms srcDev_xinA

/-- info: 'Cert.KernelIdeal.Coll.srcChunk_xinA' depends on axioms: [propext, Quot.sound] -/
#guard_msgs in #print axioms srcChunk_xinA

/-- info: 'Cert.KernelIdeal.Coll.blkOf_xinA' depends on axioms: [propext, Classical.choice, Quot.sound] -/
#guard_msgs in #print axioms blkOf_xinA

/-- info: 'Cert.KernelIdeal.Coll.srcDev_xinB' depends on axioms: [propext, Quot.sound] -/
#guard_msgs in #print axioms srcDev_xinB

/-- info: 'Cert.KernelIdeal.Coll.srcChunk_xinB' depends on axioms: [propext, Quot.sound] -/
#guard_msgs in #print axioms srcChunk_xinB

/-- info: 'Cert.KernelIdeal.Coll.blkOf_xinB' depends on axioms: [propext, Classical.choice, Quot.sound] -/
#guard_msgs in #print axioms blkOf_xinB

/-- info: 'Cert.KernelIdeal.Coll.srcDev_zinA' depends on axioms: [propext, Quot.sound] -/
#guard_msgs in #print axioms srcDev_zinA

/-- info: 'Cert.KernelIdeal.Coll.srcChunk_zinA' depends on axioms: [propext, Quot.sound] -/
#guard_msgs in #print axioms srcChunk_zinA

/-- info: 'Cert.KernelIdeal.Coll.blkOf_zinA' depends on axioms: [propext, Classical.choice, Quot.sound] -/
#guard_msgs in #print axioms blkOf_zinA

/-- info: 'Cert.KernelIdeal.Coll.srcDev_zinB' depends on axioms: [propext, Quot.sound] -/
#guard_msgs in #print axioms srcDev_zinB

/-- info: 'Cert.KernelIdeal.Coll.srcChunk_zinB' depends on axioms: [propext, Quot.sound] -/
#guard_msgs in #print axioms srcChunk_zinB

/-- info: 'Cert.KernelIdeal.Coll.blkOf_zinB' depends on axioms: [propext, Classical.choice, Quot.sound] -/
#guard_msgs in #print axioms blkOf_zinB

/-- info: 'Cert.KernelIdeal.Coll.blkOf_land_xinA' depends on axioms: [propext, Classical.choice, Quot.sound] -/
#guard_msgs in #print axioms blkOf_land_xinA

/-- info: 'Cert.KernelIdeal.Coll.blkOf_land_xinB' depends on axioms: [propext, Classical.choice, Quot.sound] -/
#guard_msgs in #print axioms blkOf_land_xinB

/-- info: 'Cert.KernelIdeal.Coll.blkOf_land_zinA' depends on axioms: [propext, Classical.choice, Quot.sound] -/
#guard_msgs in #print axioms blkOf_land_zinA

/-- info: 'Cert.KernelIdeal.Coll.blkOf_land_zinB' depends on axioms: [propext, Classical.choice, Quot.sound] -/
#guard_msgs in #print axioms blkOf_land_zinB

end Cert.KernelIdeal.Coll

end
-- ==== Proof.Values.lean ====
import proofs.«900594_g7700000000000595_dist_rsdw_v7x_xyz2x2x2_y_m512_d512_f2048_bf16_1_alg».proof.Proof.Mesh
import proofs.«900594_g7700000000000595_dist_rsdw_v7x_xyz2x2x2_y_m512_d512_f2048_bf16_1_alg».proof.Proof.Gen.KernelIdeal.Skeleton
import proofs.«900594_g7700000000000595_dist_rsdw_v7x_xyz2x2x2_y_m512_d512_f2048_bf16_1_alg».proof.Proof.Gen.KernelIdeal.Frame
import proofs.«900594_g7700000000000595_dist_rsdw_v7x_xyz2x2x2_y_m512_d512_f2048_bf16_1_alg».proof.Proof.BodyDefs
import proofs.«900594_g7700000000000595_dist_rsdw_v7x_xyz2x2x2_y_m512_d512_f2048_bf16_1_alg».proof.Proof.BlkCases
import Idealize.ShloMosaic.Lib.Pipeline.Launch
import Idealize.ShloMosaic.Lib.Pipeline.Kit
import Idealize.ShloMosaic.Lib.Tactic

noncomputable section

namespace Cert.KernelIdeal.Coll

open Cert.KernelIdeal Cert.KernelIdeal.Gen Cert.KernelIdeal.Mesh
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

open Idealize.ShloMosaic.ValueIdx

/-! ## What the kernel computes, device by device, as terms of the two staged argument blocks

Every value the body moves is named here once, in the form the body's own loads and stores give it: a load is the
view's read of the buffer's contents through the load's rectangle; the bf16 copy of dy's column half and the six
partial products of the device's own rows are lists of (rectangle, vector) pieces read back through covering
rectangles. -/

abbrev M0 : Memref sig .tc .vmem S512x512 .f32 := Memref.whole cc0_stg0_0
abbrev M1 : Memref sig .tc .vmem S512x2048 .f32 := Memref.whole cc0_stg1_0
abbrev M2 : Memref sig .tc .vmem S256x2048 .f32 := Memref.whole cc0_stg2_0
abbrev Mbf : Memref sig .tc .vmem S512x1024 .bf16 := Memref.whole cc0_scratch0
abbrev Mp : Memref sig .tc .vmem S6x256x128 .f32 := Memref.whole cc0_scratch3

/-- The rectangle of slot j of a [6, 256, 128] buffer, and of slot n of the [16, 256, 128] one. -/
abbrev R6 (j : Fin 6) : Rect S6x256x128 := Rect.unit (s := S6x256x128) ![j.val, 0, 0] S1x256x128.size (inb6s j)
abbrev colR (o : ℕ) (h : ∀ a, (![0, o] : Fin 2 → ℕ) a + S512x128.size a ≤ S512x1024.size a) : Rect S512x1024 :=
  Rect.unit (s := S512x1024) ![0, o] S512x128.size h

section Spec
variable (X : (cc0_stg0_0 : Ref sig .tc).ty.Contents (Elt F)) (DY : (cc0_stg1_0 : Ref sig .tc).ty.Contents (Elt F))

/-- The device's x block cut to the peer's columns, and to its own, in bf16. -/
def xRaw (c : Dev nD) : Vec F S512x256 .f32 :=
  View.readAt (Elt F) M0.view (Rect.unit (s := S512x512) (k0_off1 c) S512x256.size (k0_off1_inb c)).toLoadRect X
def xpL (c : Dev nD) : FVec F S512x256 .bf16 := k0_pay1 (xRaw X c)
def xmL (c : Dev nD) : FVec F S512x256 .bf16 :=
  k0_pay2 (View.readAt (Elt F) M0.view (Rect.unit (s := S512x512) (k0_off2 c) S512x256.size (k0_off2_inb c)).toLoadRect X)
/-- Column chunk w (of the device's own first two) of dy, in f32. -/
def dyL (c : Dev nD) (w : Fin 2) : Vec F S512x128 .f32 :=
  View.readAt (Elt F) M1.view (Rect.unit (s := S512x2048) (k0_off3 c (BitVec.ofNat 32 w.val)) S512x128.size (k0_off3_inb c w)).toLoadRect DY
/-- The bf16 copy of the device's column half of dy, as the one piece written over the whole scratch buffer. -/
def bfW (c : Dev nD) : List (View.Piece (Elt F) S512x1024 .bf16) :=
  [⟨Rect.unit (s := S512x1024) ![0, 0] S512x1024.size inb_S512x1024_S512x1024_0_0,
      k0_pay5 (View.readAt (Elt F) M1.view (Rect.unit (s := S512x2048) (k0_off4 c) S512x1024.size (k0_off4_inb c)).toLoadRect DY)⟩]
/-- Its column chunk at a literal offset, and at the device's own first two chunks. -/
def bfAt (c : Dev nD) (o : ℕ) (h : ∀ a, (![0, o] : Fin 2 → ℕ) a + S512x128.size a ≤ S512x1024.size a) : Vec F S512x128 .bf16 :=
  Mbf.view.readCov (bfW DY c) (colR o h).toLoadRect
def bfS (c : Dev nD) (w : Fin 2) : Vec F S512x128 .bf16 :=
  View.readAt (Elt F) Mbf.view (Rect.unit (s := S512x1024) (k0_off5 c (BitVec.ofNat 32 w.val)) S512x128.size (k0_off5_inb c w)).toLoadRect
    (Mbf.view.writes (Elt F) Mbf.view.junk (bfW DY c))

/-- The six partial products for the PEER's rows, as sent across y. -/
def sndVec (c : Dev nD) : Fin 6 → FVec F S1x256x128 .bf16
  | 0 => k0_pay3 (xRaw X c) (dyL DY c 0)
  | 1 => k0_pay4 (xpL X c) (dyL DY c 1)
  | 2 => k0_pay6 (xpL X c) (bfAt DY c 512 inb_S512x1024_S512x128_0_512)
  | 3 => k0_pay8 (k0_pay7 (xpL X c) (bfAt DY c 640 inb_S512x1024_S512x128_0_640))
  | 4 => k0_pay9 (xpL X c) (bfAt DY c 768 inb_S512x1024_S512x128_0_768)
  | 5 => k0_pay10 (xpL X c) (bfAt DY c 896 inb_S512x1024_S512x128_0_896)

/-- The six partial products for the device's OWN rows, as the pieces written into the f32 scratch buffer (last first). -/
def pW (c : Dev nD) : List (View.Piece (Elt F) S6x256x128 .f32) :=
  ⟨R6 5, k0_pay17 (xmL X c) (bfAt DY c 896 inb_S512x1024_S512x128_0_896)⟩ ::
  ⟨R6 4, k0_pay16 (k0_pay15 (xmL X c) (bfAt DY c 768 inb_S512x1024_S512x128_0_768))⟩ ::
  [⟨R6 3, k0_pay14 (xmL X c) (bfAt DY c 640 inb_S512x1024_S512x128_0_640)⟩,
   ⟨R6 2, k0_pay13 (xmL X c) (bfAt DY c 512 inb_S512x1024_S512x128_0_512)⟩,
   ⟨R6 1, k0_pay12 (xmL X c) (bfS DY c 1)⟩,
   ⟨R6 0, k0_pay11 (xmL X c) (bfS DY c 0)⟩]
def pAt (c : Dev nD) (j : Fin 6) : Vec F S1x256x128 .f32 := Mp.view.readCov (pW X DY c) (R6 j).toLoadRect

end Spec

section Spec2
variable (SND : Dev nD → (cc0_scratch1 : Ref sig .tc).ty.Contents (Elt F)) (BLK : Dev nD → (cc0_scratch4 : Ref sig .tc).ty.Contents (Elt F))
variable (X : (cc0_stg0_0 : Ref sig .tc).ty.Contents (Elt F)) (DY : (cc0_stg1_0 : Ref sig .tc).ty.Contents (Elt F))

/-- What the y neighbour sent for chunk j, read out of the receive buffer's slot j. -/
def rAt (c : Dev nD) (j : Fin 6) : Vec F S1x256x128 .bf16 :=
  View.readAt (Elt F) (Memref.whole cc0_scratch2 : Memref sig .tc .vmem S6x256x128 .bf16).view (R6 j).toLoadRect (SND (yp c))

/-- The reduced chunk j of device c: its own partial product plus the neighbour's, in f32 (what goes to the result)
    and in bf16 (what goes into the block buffer and on to the x and z neighbours). -/
def red32 (c : Dev nD) : Fin 6 → FVec F S256x128 .f32
  | 0 => k0_pay18 (pAt X DY c 0) (rAt SND c 0)
  | 1 => k0_pay20 (pAt X DY c 1) (rAt SND c 1)
  | 2 => k0_pay22 (pAt X DY c 2) (rAt SND c 2)
  | 3 => k0_pay24 (pAt X DY c 3) (rAt SND c 3)
  | 4 => k0_pay26 (pAt X DY c 4) (rAt SND c 4)
  | 5 => k0_pay28 (pAt X DY c 5) (rAt SND c 5)
def redB (c : Dev nD) : Fin 6 → (S1x256x128.Idx → Elt F .bf16)
  | 0 => k0_pay19 (pAt X DY c 0) (rAt SND c 0)
  | 1 => k0_pay21 (pAt X DY c 1) (rAt SND c 1)
  | 2 => k0_pay23 (pAt X DY c 2) (rAt SND c 2)
  | 3 => k0_pay25 (pAt X DY c 3) (rAt SND c 3)
  | 4 => k0_pay27 (pAt X DY c 4) (rAt SND c 4)
  | 5 => k0_pay29 (k0_pay28 (pAt X DY c 5) (rAt SND c 5))

/-- A slot of the block buffer read back, at a computed offset. -/
def bAt (c : Dev nD) (off : Fin 3 → ℕ) (h : ∀ a, off a + S1x256x128.size a ≤ S16x256x128.size a) : Vec F S1x256x128 .bf16 :=
  View.readAt (Elt F) (Memref.whole cc0_scratch4 : Memref sig .tc .vmem S16x256x128 .bf16).view (Rect.unit (s := S16x256x128) off S1x256x128.size h).toLoadRect (BLK c)

/-- One [256, 128] column chunk of the result at a computed offset. -/
abbrev oR (off : Fin 2 → ℕ) (h : ∀ a, off a + S256x128.size a ≤ S256x2048.size a) : Rect S256x2048 :=
  Rect.unit (s := S256x2048) off S256x128.size h

/-- The sixteen column chunks the body stores into the result, last first: the four chunks that came across z, the six
    that came across x, and the device's own six. -/
def outW (c : Dev nD) : List (View.Piece (Elt F) S256x2048 .f32) :=
  [⟨oR (k0_off17 c 1#32) (k0_off17_inb c 1), k0_pay39 (bAt BLK c (k0_off16 c 1#32) (k0_off16_inb c 1))⟩,
   ⟨oR (k0_off15 c 1#32) (k0_off15_inb c 1), k0_pay38 (bAt BLK c (k0_off14 c 1#32) (k0_off14_inb c 1))⟩,
   ⟨oR (k0_off17 c 0#32) (k0_off17_inb c 0), k0_pay37 (bAt BLK c (k0_off16 c 0#32) (k0_off16_inb c 0))⟩,
   ⟨oR (k0_off15 c 0#32) (k0_off15_inb c 0), k0_pay36 (bAt BLK c (k0_off14 c 0#32) (k0_off14_inb c 0))⟩,
   ⟨oR (k0_off13 c 896#32) (k0_off13_inb c 3), k0_pay35 (bAt BLK c ![15, 0, 0] inb_S16x256x128_S1x256x128_15_0_0)⟩,
   ⟨oR (k0_off13 c 768#32) (k0_off13_inb c 2), k0_pay34 (bAt BLK c ![14, 0, 0] inb_S16x256x128_S1x256x128_14_0_0)⟩,
   ⟨oR (k0_off13 c 640#32) (k0_off13_inb c 1), k0_pay33 (bAt BLK c ![13, 0, 0] inb_S16x256x128_S1x256x128_13_0_0)⟩,
   ⟨oR (k0_off13 c 512#32) (k0_off13_inb c 0), k0_pay32 (bAt BLK c ![12, 0, 0] inb_S16x256x128_S1x256x128_12_0_0)⟩,
   ⟨oR (k0_off12 c 1#32) (k0_off12_inb c 1), k0_pay31 (bAt BLK c (k0_off11 c 1#32) (k0_off11_inb c 1))⟩,
   ⟨oR (k0_off12 c 0#32) (k0_off12_inb c 0), k0_pay30 (bAt BLK c (k0_off11 c 0#32) (k0_off11_inb c 0))⟩,
   ⟨oR (k0_off10 c 896#32) (k0_off10_inb c 3), red32 SND X DY c 5⟩,
   ⟨oR (k0_off10 c 768#32) (k0_off10_inb c 2), red32 SND X DY c 4⟩,
   ⟨oR (k0_off10 c 640#32) (k0_off10_inb c 1), red32 SND X DY c 3⟩,
   ⟨oR (k0_off10 c 512#32) (k0_off10_inb c 0), red32 SND X DY c 2⟩,
   ⟨oR (k0_off9 c 1#32) (k0_off9_inb c 1), red32 SND X DY c 1⟩,
   ⟨oR (k0_off9 c 0#32) (k0_off9_inb c 0), red32 SND X DY c 0⟩]

end Spec2

/-! ## The three families the schedule and the proof data are stated over -/

section Families
variable (m : (ℓ : Loc nD τ sig) → Buf (Elt F) ℓ)

/-- The send buffer's canonical contents: slot j holds the partial product sent for chunk j. -/
def SNDv (c : Dev nD) : (cc0_scratch1 : Ref sig .tc).ty.Contents (Elt F) :=
  fun (i : S6x256x128.Idx) => sndVec (xstg m c) (dystg m c) c (i 0) (ix3 (0 : Fin 1) (i 1) (i 2))
/-- The block buffer's: each slot holds the reduced chunk of the device it came from. -/
def BLKv : Dev nD → (cc0_scratch4 : Ref sig .tc).ty.Contents (Elt F) :=
  blkOf fun d j => redB (SNDv m) (xstg m d) (dystg m d) d j
/-- The result buffer's: the sixteen column chunks, over contents that do not matter (they cover the buffer). -/
def OUTv (c : Dev nD) : (cc0_stg2_0 : Ref sig .tc).ty.Contents (Elt F) :=
  M2.view.writes (Elt F) M2.view.junk (outW (SNDv m) (BLKv m) (xstg m c) (dystg m c) c)

end Families

end Cert.KernelIdeal.Coll

end
-- ==== Proof.LayoutIdx.lean ====
/-
  Where an element of a device's block lies in the whole array, on the 2 x 2 x 2 mesh with dimension 0 cut
  in two along mesh axis 1 (the middle axis) and dimension 1 not cut; and a sum over 1024 terms split into
  its two halves of 512.

  Device `c` of the mesh has coordinate `(c / 2) % 2` on axis 1 (the devices are numbered row-major over the
  axes, so axis 1 has stride 2). A dimension cut along that axis alone is in two blocks and device `c` holds
  block `(c / 2) % 2`: row `i` of its block is row `n * ((c / 2) % 2) + i` of the whole array, `n` the block's
  number of rows; the column is the same.
-/
import Idealize.ShloMosaic.Lib.Layout
import Idealize.ShloMosaic.Lib.ValueIdx
import Mathlib.Algebra.BigOperators.Fin

namespace Cert.LayoutIdx

open Idealize.ShloMosaic Idealize.ShloMosaic.ValueIdx

/-- On the mesh [2, 2, 2] the block coordinate of device `c` along a dimension cut by axis 1 alone is the
    device's coordinate on that axis, `(c / 2) % 2`. -/
theorem meshLin_axis1 (c : Fin 8) : Layout.meshLin [2, 2, 2] c.val [1] = (c.val / 2) % 2 := by
  revert c; decide

/-- Row `i`, column `j` of device `c`'s block, rows cut in two along mesh axis 1, is row
    `n * ((c / 2) % 2) + i`, column `j` of the whole array: for any block height `n`, width `w` and whole
    height `N` that the tiling fact `h` relates. -/
theorem blockN_axis1_apply {α : Type} {n N w : Nat} (c : Fin 8) (A : (⟨2, ![N, w]⟩ : Shape).Idx → α)
    (h : Layout.TilesN ⟨2, ![n, w]⟩ ⟨2, ![N, w]⟩ (fun b => Layout.cutSize [2, 2, 2] ((![[1], []] : Fin 2 → List Nat) b)))
    (i : Fin n) (j : Fin w) (hlt : n * ((c.val / 2) % 2) + i.val < N) :
    Layout.blockN ⟨2, ![n, w]⟩ ⟨2, ![N, w]⟩ (Layout.meshBlock [2, 2, 2] ![[1], []] c) A h (ix2 i j)
      = A (ix2 ⟨n * ((c.val / 2) % 2) + i.val, hlt⟩ j) := by
  rw [Layout.blockN_apply]
  refine congrArg A (funext fun b => Fin.ext ?_)
  rw [Layout.TilesN.idx_val]
  match b with
  | ⟨0, _⟩ =>
    show Layout.meshLin [2, 2, 2] c.val [1] * n + i.val = n * ((c.val / 2) % 2) + i.val
    rw [meshLin_axis1, Nat.mul_comm]
  | ⟨1, _⟩ =>
    show 0 * w + j.val = j.val
    rw [Nat.zero_mul, Nat.zero_add]

/-- The block of a [1024, 512] array: 512 rows a device. -/
theorem blockN_512x512_apply {α : Type} (c : Fin 8) (A : (⟨2, ![1024, 512]⟩ : Shape).Idx → α) (i : Fin 512) (j : Fin 512) :
    (Layout.blockN ⟨2, ![512, 512]⟩ ⟨2, ![1024, 512]⟩ (Layout.meshBlock [2, 2, 2] ![[1], []] c) A) (ix2 i j)
      = A (ix2 ⟨512 * ((c.val / 2) % 2) + i.val, by have := i.isLt; omega⟩ j) :=
  blockN_axis1_apply c A _ i j _

/-- The block of a [1024, 2048] array: 512 rows a device. -/
theorem blockN_512x2048_apply {α : Type} (c : Fin 8) (A : (⟨2, ![1024, 2048]⟩ : Shape).Idx → α) (i : Fin 512) (j : Fin 2048) :
    (Layout.blockN ⟨2, ![512, 2048]⟩ ⟨2, ![1024, 2048]⟩ (Layout.meshBlock [2, 2, 2] ![[1], []] c) A) (ix2 i j)
      = A (ix2 ⟨512 * ((c.val / 2) % 2) + i.val, by have := i.isLt; omega⟩ j) :=
  blockN_axis1_apply c A _ i j _

/-- The block of a [512, 2048] array: 256 rows a device. -/
theorem blockN_256x2048_apply {α : Type} (c : Fin 8) (A : (⟨2, ![512, 2048]⟩ : Shape).Idx → α) (i : Fin 256) (j : Fin 2048) :
    (Layout.blockN ⟨2, ![256, 2048]⟩ ⟨2, ![512, 2048]⟩ (Layout.meshBlock [2, 2, 2] ![[1], []] c) A) (ix2 i j)
      = A (ix2 ⟨256 * ((c.val / 2) % 2) + i.val, by have := i.isLt; omega⟩ j) :=
  blockN_axis1_apply c A _ i j _

/-- A sum of 1024 terms is the sum of its first 512 plus the sum of its last 512 (in any commutative
    additive monoid; the extended reals are one). -/
theorem sum_fin1024_split {M : Type} [AddCommMonoid M] (f : Fin 1024 → M) :
    ∑ k : Fin 1024, f k
      = (∑ i : Fin 512, f ⟨i.val, by have := i.isLt; omega⟩) + ∑ i : Fin 512, f ⟨512 + i.val, by have := i.isLt; omega⟩ :=
  Fin.sum_univ_add (a := 512) (b := 512) f

/-- The same split at the extended reals. -/
theorem sum_fin1024_split_ereal (f : Fin 1024 → EReal) :
    ∑ k : Fin 1024, f k
      = (∑ i : Fin 512, f ⟨i.val, by have := i.isLt; omega⟩) + ∑ i : Fin 512, f ⟨512 + i.val, by have := i.isLt; omega⟩ :=
  sum_fin1024_split f

/-- info: 'Cert.LayoutIdx.blockN_512x512_apply' depends on axioms: [propext, Quot.sound] -/
#guard_msgs in #print axioms blockN_512x512_apply
/-- info: 'Cert.LayoutIdx.blockN_512x2048_apply' depends on axioms: [propext, Quot.sound] -/
#guard_msgs in #print axioms blockN_512x2048_apply
/-- info: 'Cert.LayoutIdx.blockN_256x2048_apply' depends on axioms: [propext, Quot.sound] -/
#guard_msgs in #print axioms blockN_256x2048_apply
/-- info: 'Cert.LayoutIdx.sum_fin1024_split' depends on axioms: [propext, Classical.choice, Quot.sound] -/
#guard_msgs in #print axioms sum_fin1024_split

end Cert.LayoutIdx
-- ==== Proof.ValIdx.lean ====
import proofs.«900594_g7700000000000595_dist_rsdw_v7x_xyz2x2x2_y_m512_d512_f2048_bf16_1_alg».proof.Proof.Slots
import proofs.«900594_g7700000000000595_dist_rsdw_v7x_xyz2x2x2_y_m512_d512_f2048_bf16_1_alg».proof.Proof.LayoutIdx
import proofs.«900594_g7700000000000595_dist_rsdw_v7x_xyz2x2x2_y_m512_d512_f2048_bf16_1_alg».proof.Proof.RefValue
import Idealize.ShloMosaic.Lib.Pipeline.Value
import Idealize.ShloMosaic.Lib.ValueIdx
import Idealize.ShloMosaic.Lib.ValueLayout

/-!
# Index plumbing of the value proof

Two groups of facts.

* A load through a unit-stride rectangle at offsets `off` reads, at the rectangle's own index `x`, the buffer's
  element `off + x`; a store through it puts the stored block's element `x` there and leaves every element outside the
  rectangle as it was. Stated for matrices cut by a smaller matrix, and for the `[N, 256, 128]` buffers cut into
  their slots.
* Over the extended reals: the result's entry is a sum over 1024 rows; the rows are held half and half by two devices,
  so the entry is the sum of the two devices' sums over their 512 rows, in either order.
-/

noncomputable section

namespace Cert.KernelIdeal.Coll

open Cert.KernelIdeal Cert.KernelIdeal.Gen Cert.KernelIdeal.Mesh
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open scoped BigOperators

variable {F : FTy → Type} [FloatOps F]

local notation "𝕄" => MT nD τ sig Unit (Elt F) ℕ UU ℕ

/-! ## A matrix cut by a smaller matrix at symbolic offsets -/

section Plumbing

variable {κ : Kind} {sp : Space} {e : EltTy}

theorem unit2_lt0 {R C R' C' : ℕ} (off : Fin 2 → ℕ)
    (inb : ∀ a, off a + (⟨2, ![R', C']⟩ : Shape).size a ≤ (⟨2, ![R, C]⟩ : Shape).size a) (i : Fin R') : off 0 + i.val < R := by
  have h := inb 0
  have hi := i.isLt
  simp [Shape.size] at h
  omega

theorem unit2_lt1 {R C R' C' : ℕ} (off : Fin 2 → ℕ)
    (inb : ∀ a, off a + (⟨2, ![R', C']⟩ : Shape).size a ≤ (⟨2, ![R, C]⟩ : Shape).size a) (j : Fin C') : off 1 + j.val < C := by
  have h := inb 1
  have hj := j.isLt
  simp [Shape.size] at h
  omega

/-- The rectangle's element `(i, j)` is the matrix's element `(off 0 + i, off 1 + j)`. -/
theorem unit_idx_ix2 {R C R' C' : ℕ} (off : Fin 2 → ℕ)
    (inb : ∀ a, off a + (⟨2, ![R', C']⟩ : Shape).size a ≤ (⟨2, ![R, C]⟩ : Shape).size a) (i : Fin R') (j : Fin C') :
    (Rect.unit (s := ⟨2, ![R, C]⟩) off (⟨2, ![R', C']⟩ : Shape).size inb).emb (ix2 i j)
      = ix2 (⟨off 0 + i.val, unit2_lt0 off inb i⟩ : Fin R) (⟨off 1 + j.val, unit2_lt1 off inb j⟩ : Fin C) := by
  funext a
  apply Fin.ext
  rw [Rect.emb_apply]
  match a with
  | ⟨0, _⟩ => show off 0 + 1 * i.val = off 0 + i.val; omega
  | ⟨1, _⟩ => show off 1 + 1 * j.val = off 1 + j.val; omega

/-- A load of a `[R', C']` block at offsets `off` of a `[R, C]` matrix: its element `(i, j)` is the matrix's
    element `(off 0 + i, off 1 + j)`. `g` is what the view reads off the contents (the contents themselves, for a
    whole buffer). -/
theorem readAt_unit2 {R C R' C' : ℕ} (v : View sig κ sp (⟨2, ![R, C]⟩ : Shape) e) (off : Fin 2 → ℕ)
    (inb : ∀ a, off a + (⟨2, ![R', C']⟩ : Shape).size a ≤ (⟨2, ![R, C]⟩ : Shape).size a)
    (f : v.ty.Contents (Elt F)) (g : (⟨2, ![R, C]⟩ : Shape).Idx → Elt F e) (hg : ∀ x, v.read (Elt F) f x = g x)
    (i : Fin R') (j : Fin C') :
    v.readAt (Elt F) (Rect.unit (s := ⟨2, ![R, C]⟩) off (⟨2, ![R', C']⟩ : Shape).size inb).toLoadRect f (ix2 i j)
      = g (ix2 ⟨off 0 + i.val, unit2_lt0 off inb i⟩ ⟨off 1 + j.val, unit2_lt1 off inb j⟩) := by
  rw [View.readAt_apply, hg]
  exact congrArg g (unit_idx_ix2 off inb i j)

/-- After a store of a `[R', C']` block `w` at offsets `off`, the matrix's element `(off 0 + i, off 1 + j)` is `w (i, j)`. -/
theorem read_write_unit2_inside {R C R' C' : ℕ} (v : View sig κ sp (⟨2, ![R, C]⟩ : Shape) e) (off : Fin 2 → ℕ)
    (inb : ∀ a, off a + (⟨2, ![R', C']⟩ : Shape).size a ≤ (⟨2, ![R, C]⟩ : Shape).size a)
    (f : v.ty.Contents (Elt F)) (w : (⟨2, ![R', C']⟩ : Shape).Idx → Elt F e) (i : Fin R') (j : Fin C') :
    v.read (Elt F) ((v.slice (Rect.unit off (⟨2, ![R', C']⟩ : Shape).size inb)).write (Elt F) f w Finset.univ)
        (ix2 ⟨off 0 + i.val, unit2_lt0 off inb i⟩ ⟨off 1 + j.val, unit2_lt1 off inb j⟩)
      = w (ix2 i j) := by
  have h := View.read_slice_write_emb (v := v) (Rect.unit (s := ⟨2, ![R, C]⟩) off (⟨2, ![R', C']⟩ : Shape).size inb) f w
    (Finset.mem_univ (ix2 i j))
  rw [unit_idx_ix2 off inb i j] at h
  exact h

/-- After a store through a unit-stride rectangle, of any rank, every element outside the rectangle is what it was. -/
theorem read_write_unit_outside {s : Shape} (v : View sig κ sp s e) (off size : Fin s.rank → ℕ)
    (inb : ∀ a, off a + size a ≤ s.size a) (f : v.ty.Contents (Elt F)) (w : (Rect.unit off size inb).shape.Idx → Elt F e)
    (y : s.Idx) (hy : ¬ ∀ a, off a ≤ (y a).val ∧ (y a).val < off a + size a) :
    v.read (Elt F) ((v.slice (Rect.unit off size inb)).write (Elt F) f w Finset.univ) y = v.read (Elt F) f y :=
  View.read_slice_write_of_not_mem _ f w _ (by rw [Rect.map_emb_univ, Rect.mem_set_unit]; exact hy)

/-- A column block: a `[R, C']` block stored at columns `o ..< o + C'` of a `[R, C]` matrix. -/
theorem read_write_cols_inside {R C C' : ℕ} (v : View sig κ sp (⟨2, ![R, C]⟩ : Shape) e) (off : Fin 2 → ℕ) (o : ℕ) (hoff : off = ![0, o])
    (inb : ∀ a, off a + (⟨2, ![R, C']⟩ : Shape).size a ≤ (⟨2, ![R, C]⟩ : Shape).size a)
    (f : v.ty.Contents (Elt F)) (w : (⟨2, ![R, C']⟩ : Shape).Idx → Elt F e) (r : Fin R) (k : Fin C') (hk : o + k.val < C) :
    v.read (Elt F) ((v.slice (Rect.unit off (⟨2, ![R, C']⟩ : Shape).size inb)).write (Elt F) f w Finset.univ) (ix2 r ⟨o + k.val, hk⟩)
      = w (ix2 r k) := by
  subst hoff
  have h := read_write_unit2_inside v ![0, o] inb f w r k
  have e : (ix2 (⟨(![0, o] : Fin 2 → ℕ) 0 + r.val, unit2_lt0 ![0, o] inb r⟩ : Fin R) (⟨(![0, o] : Fin 2 → ℕ) 1 + k.val, unit2_lt1 ![0, o] inb k⟩ : Fin C))
      = ix2 r ⟨o + k.val, hk⟩ := by
    funext a
    apply Fin.ext
    match a with
    | ⟨0, _⟩ => show 0 + r.val = r.val; omega
    | ⟨1, _⟩ => rfl
  rw [e] at h
  exact h

theorem read_write_cols_outside {R C C' : ℕ} (v : View sig κ sp (⟨2, ![R, C]⟩ : Shape) e) (off : Fin 2 → ℕ) (o : ℕ) (hoff : off = ![0, o])
    (inb : ∀ a, off a + (⟨2, ![R, C']⟩ : Shape).size a ≤ (⟨2, ![R, C]⟩ : Shape).size a)
    (f : v.ty.Contents (Elt F)) (w : (⟨2, ![R, C']⟩ : Shape).Idx → Elt F e) (r : Fin R) (col : Fin C) (hc : col.val < o ∨ o + C' ≤ col.val) :
    v.read (Elt F) ((v.slice (Rect.unit off (⟨2, ![R, C']⟩ : Shape).size inb)).write (Elt F) f w Finset.univ) (ix2 r col)
      = v.read (Elt F) f (ix2 r col) := by
  subst hoff
  refine read_write_unit_outside v _ _ inb f w _ fun h => ?_
  have h1 : o ≤ col.val ∧ col.val < o + C' := h 1
  omega

/-! ## The `[N, 256, 128]` buffers cut into their slots -/

/-- A load of slot `n`: its element `(0, r, k)` is the buffer's element `(n, r, k)`. -/
theorem readAt_lead {N : ℕ} (v : View sig κ sp (⟨3, ![N, 256, 128]⟩ : Shape) e) (n : ℕ) (hn : n < N) (off : Fin 3 → ℕ) (hoff : off = ![n, 0, 0])
    (inb : ∀ a, off a + S1x256x128.size a ≤ (⟨3, ![N, 256, 128]⟩ : Shape).size a)
    (f : v.ty.Contents (Elt F)) (g : (⟨3, ![N, 256, 128]⟩ : Shape).Idx → Elt F e) (hg : ∀ x, v.read (Elt F) f x = g x)
    (u : Fin 1) (r : Fin 256) (k : Fin 128) :
    v.readAt (Elt F) (Rect.unit (s := ⟨3, ![N, 256, 128]⟩) off S1x256x128.size inb).toLoadRect f (ix3 u r k) = g (ix3 (⟨n, hn⟩ : Fin N) r k) := by
  subst hoff
  rw [View.readAt_apply, hg]
  exact congrArg g (rect_lead_emb n hn inb u r k)

/-- After a store of a `[1, 256, 128]` block `w` to slot `n`, the buffer's element `(n, r, k)` is `w (0, r, k)`. -/
theorem read_write_lead_inside {N : ℕ} (v : View sig κ sp (⟨3, ![N, 256, 128]⟩ : Shape) e) (n : ℕ) (hn : n < N) (off : Fin 3 → ℕ) (hoff : off = ![n, 0, 0])
    (inb : ∀ a, off a + S1x256x128.size a ≤ (⟨3, ![N, 256, 128]⟩ : Shape).size a)
    (f : v.ty.Contents (Elt F)) (w : S1x256x128.Idx → Elt F e) (r : Fin 256) (k : Fin 128) :
    v.read (Elt F) ((v.slice (Rect.unit off S1x256x128.size inb)).write (Elt F) f w Finset.univ) (ix3 (⟨n, hn⟩ : Fin N) r k)
      = w (ix3 (0 : Fin 1) r k) := by
  subst hoff
  have h := View.read_slice_write_emb (v := v) (Rect.unit (s := ⟨3, ![N, 256, 128]⟩) ![n, 0, 0] S1x256x128.size inb) f w
    (Finset.mem_univ (ix3 (0 : Fin 1) r k))
  rw [rect_lead_emb n hn inb (0 : Fin 1) r k] at h
  exact h

/-- After a store of a `[1, 256, 128]` block to slot `n`, the elements of every other slot are what they were. -/
theorem read_write_lead_outside {N : ℕ} (v : View sig κ sp (⟨3, ![N, 256, 128]⟩ : Shape) e) (n : ℕ) (off : Fin 3 → ℕ) (hoff : off = ![n, 0, 0])
    (inb : ∀ a, off a + S1x256x128.size a ≤ (⟨3, ![N, 256, 128]⟩ : Shape).size a)
    (f : v.ty.Contents (Elt F)) (w : S1x256x128.Idx → Elt F e) (m : Fin N) (hm : m.val ≠ n) (r : Fin 256) (k : Fin 128) :
    v.read (Elt F) ((v.slice (Rect.unit off S1x256x128.size inb)).write (Elt F) f w Finset.univ) (ix3 m r k)
      = v.read (Elt F) f (ix3 m r k) := by
  subst hoff
  refine read_write_unit_outside v _ _ inb f w _ fun h => ?_
  have h0 : n ≤ m.val ∧ m.val < n + 1 := h 0
  omega

end Plumbing

/-! ## The kernel's buffers

The same facts at the whole buffers the kernel loads from and stores to, where the view reads the contents
themselves. -/

theorem readAt_stg0 (off : Fin 2 → ℕ) (inb : ∀ a, off a + S512x256.size a ≤ S512x512.size a)
    (f : (cc0_stg0_0 : Ref sig .tc).ty.Contents (Elt F)) (i : Fin 512) (j : Fin 256) :
    (Memref.whole cc0_stg0_0 : Memref sig .tc .vmem S512x512 .f32).view.readAt (Elt F) (Rect.unit (s := S512x512) off S512x256.size inb).toLoadRect f (ix2 i j)
      = f (ix2 ⟨off 0 + i.val, unit2_lt0 off inb i⟩ ⟨off 1 + j.val, unit2_lt1 off inb j⟩) :=
  readAt_unit2 (Memref.whole cc0_stg0_0 : Memref sig .tc .vmem S512x512 .f32).view off inb f f (fun _ => rfl) i j

theorem readAt_stg1_128 (off : Fin 2 → ℕ) (inb : ∀ a, off a + S512x128.size a ≤ S512x2048.size a)
    (f : (cc0_stg1_0 : Ref sig .tc).ty.Contents (Elt F)) (i : Fin 512) (j : Fin 128) :
    (Memref.whole cc0_stg1_0 : Memref sig .tc .vmem S512x2048 .f32).view.readAt (Elt F) (Rect.unit (s := S512x2048) off S512x128.size inb).toLoadRect f (ix2 i j)
      = f (ix2 ⟨off 0 + i.val, unit2_lt0 off inb i⟩ ⟨off 1 + j.val, unit2_lt1 off inb j⟩) :=
  readAt_unit2 (Memref.whole cc0_stg1_0 : Memref sig .tc .vmem S512x2048 .f32).view off inb f f (fun _ => rfl) i j

theorem readAt_stg1_1024 (off : Fin 2 → ℕ) (inb : ∀ a, off a + S512x1024.size a ≤ S512x2048.size a)
    (f : (cc0_stg1_0 : Ref sig .tc).ty.Contents (Elt F)) (i : Fin 512) (j : Fin 1024) :
    (Memref.whole cc0_stg1_0 : Memref sig .tc .vmem S512x2048 .f32).view.readAt (Elt F) (Rect.unit (s := S512x2048) off S512x1024.size inb).toLoadRect f (ix2 i j)
      = f (ix2 ⟨off 0 + i.val, unit2_lt0 off inb i⟩ ⟨off 1 + j.val, unit2_lt1 off inb j⟩) :=
  readAt_unit2 (Memref.whole cc0_stg1_0 : Memref sig .tc .vmem S512x2048 .f32).view off inb f f (fun _ => rfl) i j

theorem readAt_stg2 (off : Fin 2 → ℕ) (inb : ∀ a, off a + S256x128.size a ≤ S256x2048.size a)
    (f : (cc0_stg2_0 : Ref sig .tc).ty.Contents (Elt F)) (i : Fin 256) (j : Fin 128) :
    (Memref.whole cc0_stg2_0 : Memref sig .tc .vmem S256x2048 .f32).view.readAt (Elt F) (Rect.unit (s := S256x2048) off S256x128.size inb).toLoadRect f (ix2 i j)
      = f (ix2 ⟨off 0 + i.val, unit2_lt0 off inb i⟩ ⟨off 1 + j.val, unit2_lt1 off inb j⟩) :=
  readAt_unit2 (Memref.whole cc0_stg2_0 : Memref sig .tc .vmem S256x2048 .f32).view off inb f f (fun _ => rfl) i j

theorem readAt_scratch0 (off : Fin 2 → ℕ) (inb : ∀ a, off a + S512x128.size a ≤ S512x1024.size a)
    (f : (cc0_scratch0 : Ref sig .tc).ty.Contents (Elt F)) (i : Fin 512) (j : Fin 128) :
    (Memref.whole cc0_scratch0 : Memref sig .tc .vmem S512x1024 .bf16).view.readAt (Elt F) (Rect.unit (s := S512x1024) off S512x128.size inb).toLoadRect f (ix2 i j)
      = f (ix2 ⟨off 0 + i.val, unit2_lt0 off inb i⟩ ⟨off 1 + j.val, unit2_lt1 off inb j⟩) :=
  readAt_unit2 (Memref.whole cc0_scratch0 : Memref sig .tc .vmem S512x1024 .bf16).view off inb f f (fun _ => rfl) i j

theorem readAt_scratch1 (n : ℕ) (hn : n < 6) (off : Fin 3 → ℕ) (hoff : off = ![n, 0, 0]) (inb : ∀ a, off a + S1x256x128.size a ≤ S6x256x128.size a)
    (f : (cc0_scratch1 : Ref sig .tc).ty.Contents (Elt F)) (u : Fin 1) (r : Fin 256) (k : Fin 128) :
    (Memref.whole cc0_scratch1 : Memref sig .tc .vmem S6x256x128 .bf16).view.readAt (Elt F) (Rect.unit (s := S6x256x128) off S1x256x128.size inb).toLoadRect f (ix3 u r k)
      = f (ix3 (⟨n, hn⟩ : Fin 6) r k) :=
  readAt_lead (Memref.whole cc0_scratch1 : Memref sig .tc .vmem S6x256x128 .bf16).view n hn off hoff inb f f (fun _ => rfl) u r k

theorem write_scratch1_inside (n : ℕ) (hn : n < 6) (off : Fin 3 → ℕ) (hoff : off = ![n, 0, 0]) (inb : ∀ a, off a + S1x256x128.size a ≤ S6x256x128.size a)
    (f : (cc0_scratch1 : Ref sig .tc).ty.Contents (Elt F)) (w : S1x256x128.Idx → Elt F .bf16) (r : Fin 256) (k : Fin 128) :
    (((Memref.whole cc0_scratch1 : Memref sig .tc .vmem S6x256x128 .bf16).access (Rect.unit (s := S6x256x128) off S1x256x128.size inb)).write (Elt F) f w Finset.univ
        : (cc0_scratch1 : Ref sig .tc).ty.Contents (Elt F)) (ix3 (⟨n, hn⟩ : Fin 6) r k)
      = w (ix3 (0 : Fin 1) r k) := by
  have h := read_write_lead_inside (Memref.whole cc0_scratch1 : Memref sig .tc .vmem S6x256x128 .bf16).view n hn off hoff inb f w r k
  generalize ((Memref.whole cc0_scratch1 : Memref sig .tc .vmem S6x256x128 .bf16).view.slice (Rect.unit (s := S6x256x128) off S1x256x128.size inb)).write (Elt F) f w Finset.univ = W at h ⊢
  exact h

theorem write_scratch1_outside (n : ℕ) (off : Fin 3 → ℕ) (hoff : off = ![n, 0, 0]) (inb : ∀ a, off a + S1x256x128.size a ≤ S6x256x128.size a)
    (f : (cc0_scratch1 : Ref sig .tc).ty.Contents (Elt F)) (w : S1x256x128.Idx → Elt F .bf16) (m : Fin 6) (hm : m.val ≠ n) (r : Fin 256) (k : Fin 128) :
    (((Memref.whole cc0_scratch1 : Memref sig .tc .vmem S6x256x128 .bf16).access (Rect.unit (s := S6x256x128) off S1x256x128.size inb)).write (Elt F) f w Finset.univ
        : (cc0_scratch1 : Ref sig .tc).ty.Contents (Elt F)) (ix3 m r k)
      = f (ix3 m r k) := by
  have h := read_write_lead_outside (Memref.whole cc0_scratch1 : Memref sig .tc .vmem S6x256x128 .bf16).view n off hoff inb f w m hm r k
  generalize ((Memref.whole cc0_scratch1 : Memref sig .tc .vmem S6x256x128 .bf16).view.slice (Rect.unit (s := S6x256x128) off S1x256x128.size inb)).write (Elt F) f w Finset.univ = W at h ⊢
  exact h

theorem readAt_scratch2 (n : ℕ) (hn : n < 6) (off : Fin 3 → ℕ) (hoff : off = ![n, 0, 0]) (inb : ∀ a, off a + S1x256x128.size a ≤ S6x256x128.size a)
    (f : (cc0_scratch2 : Ref sig .tc).ty.Contents (Elt F)) (u : Fin 1) (r : Fin 256) (k : Fin 128) :
    (Memref.whole cc0_scratch2 : Memref sig .tc .vmem S6x256x128 .bf16).view.readAt (Elt F) (Rect.unit (s := S6x256x128) off S1x256x128.size inb).toLoadRect f (ix3 u r k)
      = f (ix3 (⟨n, hn⟩ : Fin 6) r k) :=
  readAt_lead (Memref.whole cc0_scratch2 : Memref sig .tc .vmem S6x256x128 .bf16).view n hn off hoff inb f f (fun _ => rfl) u r k

theorem write_scratch2_inside (n : ℕ) (hn : n < 6) (off : Fin 3 → ℕ) (hoff : off = ![n, 0, 0]) (inb : ∀ a, off a + S1x256x128.size a ≤ S6x256x128.size a)
    (f : (cc0_scratch2 : Ref sig .tc).ty.Contents (Elt F)) (w : S1x256x128.Idx → Elt F .bf16) (r : Fin 256) (k : Fin 128) :
    (((Memref.whole cc0_scratch2 : Memref sig .tc .vmem S6x256x128 .bf16).access (Rect.unit (s := S6x256x128) off S1x256x128.size inb)).write (Elt F) f w Finset.univ
        : (cc0_scratch2 : Ref sig .tc).ty.Contents (Elt F)) (ix3 (⟨n, hn⟩ : Fin 6) r k)
      = w (ix3 (0 : Fin 1) r k) := by
  have h := read_write_lead_inside (Memref.whole cc0_scratch2 : Memref sig .tc .vmem S6x256x128 .bf16).view n hn off hoff inb f w r k
  generalize ((Memref.whole cc0_scratch2 : Memref sig .tc .vmem S6x256x128 .bf16).view.slice (Rect.unit (s := S6x256x128) off S1x256x128.size inb)).write (Elt F) f w Finset.univ = W at h ⊢
  exact h

theorem write_scratch2_outside (n : ℕ) (off : Fin 3 → ℕ) (hoff : off = ![n, 0, 0]) (inb : ∀ a, off a + S1x256x128.size a ≤ S6x256x128.size a)
    (f : (cc0_scratch2 : Ref sig .tc).ty.Contents (Elt F)) (w : S1x256x128.Idx → Elt F .bf16) (m : Fin 6) (hm : m.val ≠ n) (r : Fin 256) (k : Fin 128) :
    (((Memref.whole cc0_scratch2 : Memref sig .tc .vmem S6x256x128 .bf16).access (Rect.unit (s := S6x256x128) off S1x256x128.size inb)).write (Elt F) f w Finset.univ
        : (cc0_scratch2 : Ref sig .tc).ty.Contents (Elt F)) (ix3 m r k)
      = f (ix3 m r k) := by
  have h := read_write_lead_outside (Memref.whole cc0_scratch2 : Memref sig .tc .vmem S6x256x128 .bf16).view n off hoff inb f w m hm r k
  generalize ((Memref.whole cc0_scratch2 : Memref sig .tc .vmem S6x256x128 .bf16).view.slice (Rect.unit (s := S6x256x128) off S1x256x128.size inb)).write (Elt F) f w Finset.univ = W at h ⊢
  exact h

theorem readAt_scratch3 (n : ℕ) (hn : n < 6) (off : Fin 3 → ℕ) (hoff : off = ![n, 0, 0]) (inb : ∀ a, off a + S1x256x128.size a ≤ S6x256x128.size a)
    (f : (cc0_scratch3 : Ref sig .tc).ty.Contents (Elt F)) (u : Fin 1) (r : Fin 256) (k : Fin 128) :
    (Memref.whole cc0_scratch3 : Memref sig .tc .vmem S6x256x128 .f32).view.readAt (Elt F) (Rect.unit (s := S6x256x128) off S1x256x128.size inb).toLoadRect f (ix3 u r k)
      = f (ix3 (⟨n, hn⟩ : Fin 6) r k) :=
  readAt_lead (Memref.whole cc0_scratch3 : Memref sig .tc .vmem S6x256x128 .f32).view n hn off hoff inb f f (fun _ => rfl) u r k

theorem write_scratch3_inside (n : ℕ) (hn : n < 6) (off : Fin 3 → ℕ) (hoff : off = ![n, 0, 0]) (inb : ∀ a, off a + S1x256x128.size a ≤ S6x256x128.size a)
    (f : (cc0_scratch3 : Ref sig .tc).ty.Contents (Elt F)) (w : S1x256x128.Idx → Elt F .f32) (r : Fin 256) (k : Fin 128) :
    (((Memref.whole cc0_scratch3 : Memref sig .tc .vmem S6x256x128 .f32).access (Rect.unit (s := S6x256x128) off S1x256x128.size inb)).write (Elt F) f w Finset.univ
        : (cc0_scratch3 : Ref sig .tc).ty.Contents (Elt F)) (ix3 (⟨n, hn⟩ : Fin 6) r k)
      = w (ix3 (0 : Fin 1) r k) := by
  have h := read_write_lead_inside (Memref.whole cc0_scratch3 : Memref sig .tc .vmem S6x256x128 .f32).view n hn off hoff inb f w r k
  generalize ((Memref.whole cc0_scratch3 : Memref sig .tc .vmem S6x256x128 .f32).view.slice (Rect.unit (s := S6x256x128) off S1x256x128.size inb)).write (Elt F) f w Finset.univ = W at h ⊢
  exact h

theorem write_scratch3_outside (n : ℕ) (off : Fin 3 → ℕ) (hoff : off = ![n, 0, 0]) (inb : ∀ a, off a + S1x256x128.size a ≤ S6x256x128.size a)
    (f : (cc0_scratch3 : Ref sig .tc).ty.Contents (Elt F)) (w : S1x256x128.Idx → Elt F .f32) (m : Fin 6) (hm : m.val ≠ n) (r : Fin 256) (k : Fin 128) :
    (((Memref.whole cc0_scratch3 : Memref sig .tc .vmem S6x256x128 .f32).access (Rect.unit (s := S6x256x128) off S1x256x128.size inb)).write (Elt F) f w Finset.univ
        : (cc0_scratch3 : Ref sig .tc).ty.Contents (Elt F)) (ix3 m r k)
      = f (ix3 m r k) := by
  have h := read_write_lead_outside (Memref.whole cc0_scratch3 : Memref sig .tc .vmem S6x256x128 .f32).view n off hoff inb f w m hm r k
  generalize ((Memref.whole cc0_scratch3 : Memref sig .tc .vmem S6x256x128 .f32).view.slice (Rect.unit (s := S6x256x128) off S1x256x128.size inb)).write (Elt F) f w Finset.univ = W at h ⊢
  exact h

theorem readAt_scratch4 (n : ℕ) (hn : n < 16) (off : Fin 3 → ℕ) (hoff : off = ![n, 0, 0]) (inb : ∀ a, off a + S1x256x128.size a ≤ S16x256x128.size a)
    (f : (cc0_scratch4 : Ref sig .tc).ty.Contents (Elt F)) (u : Fin 1) (r : Fin 256) (k : Fin 128) :
    (Memref.whole cc0_scratch4 : Memref sig .tc .vmem S16x256x128 .bf16).view.readAt (Elt F) (Rect.unit (s := S16x256x128) off S1x256x128.size inb).toLoadRect f (ix3 u r k)
      = f (ix3 (⟨n, hn⟩ : Fin 16) r k) :=
  readAt_lead (Memref.whole cc0_scratch4 : Memref sig .tc .vmem S16x256x128 .bf16).view n hn off hoff inb f f (fun _ => rfl) u r k

theorem write_scratch4_inside (n : ℕ) (hn : n < 16) (off : Fin 3 → ℕ) (hoff : off = ![n, 0, 0]) (inb : ∀ a, off a + S1x256x128.size a ≤ S16x256x128.size a)
    (f : (cc0_scratch4 : Ref sig .tc).ty.Contents (Elt F)) (w : S1x256x128.Idx → Elt F .bf16) (r : Fin 256) (k : Fin 128) :
    (((Memref.whole cc0_scratch4 : Memref sig .tc .vmem S16x256x128 .bf16).access (Rect.unit (s := S16x256x128) off S1x256x128.size inb)).write (Elt F) f w Finset.univ
        : (cc0_scratch4 : Ref sig .tc).ty.Contents (Elt F)) (ix3 (⟨n, hn⟩ : Fin 16) r k)
      = w (ix3 (0 : Fin 1) r k) := by
  have h := read_write_lead_inside (Memref.whole cc0_scratch4 : Memref sig .tc .vmem S16x256x128 .bf16).view n hn off hoff inb f w r k
  generalize ((Memref.whole cc0_scratch4 : Memref sig .tc .vmem S16x256x128 .bf16).view.slice (Rect.unit (s := S16x256x128) off S1x256x128.size inb)).write (Elt F) f w Finset.univ = W at h ⊢
  exact h

theorem write_scratch4_outside (n : ℕ) (off : Fin 3 → ℕ) (hoff : off = ![n, 0, 0]) (inb : ∀ a, off a + S1x256x128.size a ≤ S16x256x128.size a)
    (f : (cc0_scratch4 : Ref sig .tc).ty.Contents (Elt F)) (w : S1x256x128.Idx → Elt F .bf16) (m : Fin 16) (hm : m.val ≠ n) (r : Fin 256) (k : Fin 128) :
    (((Memref.whole cc0_scratch4 : Memref sig .tc .vmem S16x256x128 .bf16).access (Rect.unit (s := S16x256x128) off S1x256x128.size inb)).write (Elt F) f w Finset.univ
        : (cc0_scratch4 : Ref sig .tc).ty.Contents (Elt F)) (ix3 m r k)
      = f (ix3 m r k) := by
  have h := read_write_lead_outside (Memref.whole cc0_scratch4 : Memref sig .tc .vmem S16x256x128 .bf16).view n off hoff inb f w m hm r k
  generalize ((Memref.whole cc0_scratch4 : Memref sig .tc .vmem S16x256x128 .bf16).view.slice (Rect.unit (s := S16x256x128) off S1x256x128.size inb)).write (Elt F) f w Finset.univ = W at h ⊢
  exact h

/-- A `[256, 128]` block stored at columns `o ..< o + 128` of the `[256, 2048]` result block. -/
theorem write_stg2_inside (off : Fin 2 → ℕ) (o : ℕ) (hoff : off = ![0, o]) (inb : ∀ a, off a + S256x128.size a ≤ S256x2048.size a)
    (f : (cc0_stg2_0 : Ref sig .tc).ty.Contents (Elt F)) (w : S256x128.Idx → Elt F .f32) (r : Fin 256) (k : Fin 128) (hk : o + k.val < 2048) :
    (((Memref.whole cc0_stg2_0 : Memref sig .tc .vmem S256x2048 .f32).access (Rect.unit (s := S256x2048) off S256x128.size inb)).write (Elt F) f w Finset.univ
        : (cc0_stg2_0 : Ref sig .tc).ty.Contents (Elt F)) (ix2 r ⟨o + k.val, hk⟩)
      = w (ix2 r k) := by
  have h := read_write_cols_inside (Memref.whole cc0_stg2_0 : Memref sig .tc .vmem S256x2048 .f32).view off o hoff inb f w r k hk
  generalize ((Memref.whole cc0_stg2_0 : Memref sig .tc .vmem S256x2048 .f32).view.slice (Rect.unit (s := S256x2048) off S256x128.size inb)).write (Elt F) f w Finset.univ = W at h ⊢
  exact h

theorem write_stg2_outside (off : Fin 2 → ℕ) (o : ℕ) (hoff : off = ![0, o]) (inb : ∀ a, off a + S256x128.size a ≤ S256x2048.size a)
    (f : (cc0_stg2_0 : Ref sig .tc).ty.Contents (Elt F)) (w : S256x128.Idx → Elt F .f32) (r : Fin 256) (col : Fin 2048) (hc : col.val < o ∨ o + 128 ≤ col.val) :
    (((Memref.whole cc0_stg2_0 : Memref sig .tc .vmem S256x2048 .f32).access (Rect.unit (s := S256x2048) off S256x128.size inb)).write (Elt F) f w Finset.univ
        : (cc0_stg2_0 : Ref sig .tc).ty.Contents (Elt F)) (ix2 r col)
      = f (ix2 r col) := by
  have h := read_write_cols_outside (Memref.whole cc0_stg2_0 : Memref sig .tc .vmem S256x2048 .f32).view off o hoff inb f w r col hc
  generalize ((Memref.whole cc0_stg2_0 : Memref sig .tc .vmem S256x2048 .f32).view.slice (Rect.unit (s := S256x2048) off S256x128.size inb)).write (Elt F) f w Finset.univ = W at h ⊢
  exact h

/-! ## The two halves of the contraction -/

/-- The whole arrays `Xw : [1024, 512]` and `DYw : [1024, 2048]` are cut into two blocks of 512 rows; one device
    holds block `y` (`Xa`, `DYa`), the other block `y'`, the other one of the two (`Xb`, `DYb`). Entry
    `(256 y + r, col)` of the reference's result, a sum over all 1024 rows, is the first device's sum over its rows
    plus the second's. -/
theorem two_halves (Xw : (⟨2, ![1024, 512]⟩ : Shape).Idx → EReal) (DYw : (⟨2, ![1024, 2048]⟩ : Shape).Idx → EReal)
    (Xa Xb : (⟨2, ![512, 512]⟩ : Shape).Idx → EReal) (DYa DYb : (⟨2, ![512, 2048]⟩ : Shape).Idx → EReal)
    (y y' : ℕ) (hy : y + y' = 1)
    (hXa : ∀ (i : Fin 512) (j : Fin 512), Xa (ix2 i j) = Xw (ix2 ⟨512 * y + i.val, by have := i.isLt; omega⟩ j))
    (hXb : ∀ (i : Fin 512) (j : Fin 512), Xb (ix2 i j) = Xw (ix2 ⟨512 * y' + i.val, by have := i.isLt; omega⟩ j))
    (hDa : ∀ (i : Fin 512) (j : Fin 2048), DYa (ix2 i j) = DYw (ix2 ⟨512 * y + i.val, by have := i.isLt; omega⟩ j))
    (hDb : ∀ (i : Fin 512) (j : Fin 2048), DYb (ix2 i j) = DYw (ix2 ⟨512 * y' + i.val, by have := i.isLt; omega⟩ j))
    (r : Fin 256) (col : Fin 2048) :
    (∑ i : Fin 512, Xa (ix2 i ⟨256 * y + r.val, by have := r.isLt; omega⟩) * DYa (ix2 i col))
        + (∑ i : Fin 512, Xb (ix2 i ⟨256 * y + r.val, by have := r.isLt; omega⟩) * DYb (ix2 i col))
      = Cert.ReferenceIdeal.RefValue.refOut Xw DYw (ix2 ⟨256 * y + r.val, by have := r.isLt; omega⟩ col) := by
  rw [Cert.ReferenceIdeal.RefValue.refOut_apply]
  refine Eq.trans ?_ (Cert.LayoutIdx.sum_fin1024_split_ereal
    (fun k => Xw (ix2 k ⟨256 * y + r.val, by have := r.isLt; omega⟩) * DYw (ix2 k col))).symm
  simp only [hXa, hXb, hDa, hDb]
  obtain ⟨rfl, rfl⟩ | ⟨rfl, rfl⟩ : (y = 0 ∧ y' = 1) ∨ (y = 1 ∧ y' = 0) := by omega
  · simp only [Nat.mul_zero, Nat.zero_add, Nat.mul_one]
  · rw [add_comm]
    simp only [Nat.mul_zero, Nat.zero_add, Nat.mul_one]

/-! ## What the lemmas rest on -/

/-- info: 'Cert.KernelIdeal.Coll.unit2_lt0' depends on axioms: [propext, Quot.sound] -/
#guard_msgs in #print axioms unit2_lt0

/-- info: 'Cert.KernelIdeal.Coll.unit2_lt1' depends on axioms: [propext, Quot.sound] -/
#guard_msgs in #print axioms unit2_lt1

/-- info: 'Cert.KernelIdeal.Coll.unit_idx_ix2' depends on axioms: [propext, Quot.sound] -/
#guard_msgs in #print axioms unit_idx_ix2

/-- info: 'Cert.KernelIdeal.Coll.readAt_unit2' depends on axioms: [propext, Classical.choice, Quot.sound] -/
#guard_msgs in #print axioms readAt_unit2

/-- info: 'Cert.KernelIdeal.Coll.read_write_unit2_inside' depends on axioms: [propext, Classical.choice, Quot.sound] -/
#guard_msgs in #print axioms read_write_unit2_inside

/-- info: 'Cert.KernelIdeal.Coll.read_write_unit_outside' depends on axioms: [propext, Classical.choice, Quot.sound] -/
#guard_msgs in #print axioms read_write_unit_outside

/-- info: 'Cert.KernelIdeal.Coll.read_write_cols_inside' depends on axioms: [propext, Classical.choice, Quot.sound] -/
#guard_msgs in #print axioms read_write_cols_inside

/-- info: 'Cert.KernelIdeal.Coll.read_write_cols_outside' depends on axioms: [propext, Classical.choice, Quot.sound] -/
#guard_msgs in #print axioms read_write_cols_outside

/-- info: 'Cert.KernelIdeal.Coll.readAt_lead' depends on axioms: [propext, Classical.choice, Quot.sound] -/
#guard_msgs in #print axioms readAt_lead

/-- info: 'Cert.KernelIdeal.Coll.read_write_lead_inside' depends on axioms: [propext, Classical.choice, Quot.sound] -/
#guard_msgs in #print axioms read_write_lead_inside

/-- info: 'Cert.KernelIdeal.Coll.read_write_lead_outside' depends on axioms: [propext, Classical.choice, Quot.sound] -/
#guard_msgs in #print axioms read_write_lead_outside

/-- info: 'Cert.KernelIdeal.Coll.readAt_stg0' depends on axioms: [propext, Classical.choice, Quot.sound] -/
#guard_msgs in #print axioms readAt_stg0

/-- info: 'Cert.KernelIdeal.Coll.readAt_stg1_128' depends on axioms: [propext, Classical.choice, Quot.sound] -/
#guard_msgs in #print axioms readAt_stg1_128

/-- info: 'Cert.KernelIdeal.Coll.readAt_stg1_1024' depends on axioms: [propext, Classical.choice, Quot.sound] -/
#guard_msgs in #print axioms readAt_stg1_1024

/-- info: 'Cert.KernelIdeal.Coll.readAt_stg2' depends on axioms: [propext, Classical.choice, Quot.sound] -/
#guard_msgs in #print axioms readAt_stg2

/-- info: 'Cert.KernelIdeal.Coll.readAt_scratch0' depends on axioms: [propext, Classical.choice, Quot.sound] -/
#guard_msgs in #print axioms readAt_scratch0

/-- info: 'Cert.KernelIdeal.Coll.readAt_scratch1' depends on axioms: [propext, Classical.choice, Quot.sound] -/
#guard_msgs in #print axioms readAt_scratch1

/-- info: 'Cert.KernelIdeal.Coll.write_scratch1_inside' depends on axioms: [propext, Classical.choice, Quot.sound] -/
#guard_msgs in #print axioms write_scratch1_inside

/-- info: 'Cert.KernelIdeal.Coll.write_scratch1_outside' depends on axioms: [propext, Classical.choice, Quot.sound] -/
#guard_msgs in #print axioms write_scratch1_outside

/-- info: 'Cert.KernelIdeal.Coll.readAt_scratch2' depends on axioms: [propext, Classical.choice, Quot.sound] -/
#guard_msgs in #print axioms readAt_scratch2

/-- info: 'Cert.KernelIdeal.Coll.write_scratch2_inside' depends on axioms: [propext, Classical.choice, Quot.sound] -/
#guard_msgs in #print axioms write_scratch2_inside

/-- info: 'Cert.KernelIdeal.Coll.write_scratch2_outside' depends on axioms: [propext, Classical.choice, Quot.sound] -/
#guard_msgs in #print axioms write_scratch2_outside

/-- info: 'Cert.KernelIdeal.Coll.readAt_scratch3' depends on axioms: [propext, Classical.choice, Quot.sound] -/
#guard_msgs in #print axioms readAt_scratch3

/-- info: 'Cert.KernelIdeal.Coll.write_scratch3_inside' depends on axioms: [propext, Classical.choice, Quot.sound] -/
#guard_msgs in #print axioms write_scratch3_inside

/-- info: 'Cert.KernelIdeal.Coll.write_scratch3_outside' depends on axioms: [propext, Classical.choice, Quot.sound] -/
#guard_msgs in #print axioms write_scratch3_outside

/-- info: 'Cert.KernelIdeal.Coll.readAt_scratch4' depends on axioms: [propext, Classical.choice, Quot.sound] -/
#guard_msgs in #print axioms readAt_scratch4

/-- info: 'Cert.KernelIdeal.Coll.write_scratch4_inside' depends on axioms: [propext, Classical.choice, Quot.sound] -/
#guard_msgs in #print axioms write_scratch4_inside

/-- info: 'Cert.KernelIdeal.Coll.write_scratch4_outside' depends on axioms: [propext, Classical.choice, Quot.sound] -/
#guard_msgs in #print axioms write_scratch4_outside

/-- info: 'Cert.KernelIdeal.Coll.write_stg2_inside' depends on axioms: [propext, Classical.choice, Quot.sound] -/
#guard_msgs in #print axioms write_stg2_inside

/-- info: 'Cert.KernelIdeal.Coll.write_stg2_outside' depends on axioms: [propext, Classical.choice, Quot.sound] -/
#guard_msgs in #print axioms write_stg2_outside

/-- info: 'Cert.KernelIdeal.Coll.two_halves' depends on axioms: [propext, Classical.choice, Quot.sound] -/
#guard_msgs in #print axioms two_halves

end Cert.KernelIdeal.Coll

end
-- ==== Proof.OutCover.lean ====
import proofs.«900594_g7700000000000595_dist_rsdw_v7x_xyz2x2x2_y_m512_d512_f2048_bf16_1_alg».proof.Proof.Values
import proofs.«900594_g7700000000000595_dist_rsdw_v7x_xyz2x2x2_y_m512_d512_f2048_bf16_1_alg».proof.Proof.ValIdx
import Idealize.ShloMosaic.Lib.Writes

/-!
# The sixteen column chunks cover the result block

The body stores sixteen `[256, 128]` column chunks into the `[256, 2048]` result block, each at a column offset
computed from the device's number. On every device the sixteen offsets are the sixteen multiples of 128 below 2048,
each once: the chunks are pairwise disjoint and together they are the whole block. So what the block held before does
not matter, and at a chunk's columns the block holds that chunk.
-/

noncomputable section

namespace Cert.KernelIdeal.Coll

open Cert.KernelIdeal Cert.KernelIdeal.Gen Cert.KernelIdeal.Mesh
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

/-! ## Writes through pairwise disjoint rectangles -/

/-- After writes through pairwise disjoint rectangles, each piece's elements hold that piece's payload: no later write
    touches them. -/
theorem read_writes_of_mem_disjoint {κ : Kind} {sp : Space} {s : Shape} {e : EltTy} (v : View sig κ sp s e) (f : v.ty.Contents (Elt F)) :
    ∀ (L : List (View.Piece (Elt F) s e)), L.Pairwise (fun p q => Disjoint p.1.set q.1.set) →
      ∀ p ∈ L, ∀ x : p.1.shape.Idx, v.read (Elt F) (v.writes (Elt F) f L) (p.1.emb x) = p.2 x
  | [], _, p, hp, _ => absurd hp List.not_mem_nil
  | q :: L, hd, p, hp, x => by
    rcases List.mem_cons.mp hp with rfl | hp'
    · obtain ⟨r, w⟩ := p
      exact View.read_writes_cons_emb v f r w L x
    · have hdq : Disjoint q.1.set p.1.set := (List.pairwise_cons.mp hd).1 p hp'
      have hx : p.1.emb x ∉ Finset.univ.map q.1.emb := by
        rw [Rect.map_emb_univ]
        exact fun h => Finset.disjoint_left.mp hdq h (p.1.toLoadRect.idx_mem x)
      rw [View.writes_cons, View.read_slice_write_of_not_mem q.1 _ _ _ hx]
      exact read_writes_of_mem_disjoint v f L (List.pairwise_cons.mp hd).2 p hp' x

/-! ## The sixteen column offsets -/

/-- The column offset of the `i`-th stored chunk (the last store first) on the device of number `c`: the closed
    forms of the kernel's six offset computations. -/
def colOff (c : ℕ) : ℕ → ℕ
  | 0 => (128 * 1 + 1280) - (1024 * (c / 4) + 256 * (c % 2))
  | 1 => (1024 * (c / 4) + 128 * 1 + 256) - 256 * (c % 2)
  | 2 => (128 * 0 + 1280) - (1024 * (c / 4) + 256 * (c % 2))
  | 3 => (1024 * (c / 4) + 128 * 0 + 256) - 256 * (c % 2)
  | 4 => (128 * 3 + 1536) - 1024 * (c / 4)
  | 5 => (128 * 2 + 1536) - 1024 * (c / 4)
  | 6 => (128 * 1 + 1536) - 1024 * (c / 4)
  | 7 => (128 * 0 + 1536) - 1024 * (c / 4)
  | 8 => (256 * (c % 2) + 128 * 1 + 1024) - 1024 * (c / 4)
  | 9 => (256 * (c % 2) + 128 * 0 + 1024) - 1024 * (c / 4)
  | 10 => 1024 * (c / 4) + 128 * 3 + 512
  | 11 => 1024 * (c / 4) + 128 * 2 + 512
  | 12 => 1024 * (c / 4) + 128 * 1 + 512
  | 13 => 1024 * (c / 4) + 128 * 0 + 512
  | 14 => 1024 * (c / 4) + 256 * (c % 2) + 128 * 1
  | 15 => 1024 * (c / 4) + 256 * (c % 2) + 128 * 0
  | _ => 0

theorem colOff_le : ∀ (c : Fin 8) (i : Fin 16), colOff c.val i.val + 128 ≤ 2048 := by decide
/-- On every device two different chunks' column ranges `[o, o + 128)` do not meet. -/
theorem colOff_disj : ∀ (c : Fin 8) (i j : Fin 16), i ≠ j →
    colOff c.val i.val + 128 ≤ colOff c.val j.val ∨ colOff c.val j.val + 128 ≤ colOff c.val i.val := by decide
/-- On every device every multiple of 128 below 2048 is the column offset of one of the sixteen chunks. -/
theorem colOff_cover : ∀ (c : Fin 8) (q : Fin 16), ∃ i : Fin 16, colOff c.val i.val = 128 * q.val := by decide

theorem colInb (c : Dev nD) (i : ℕ) (hi : i < 16) : ∀ a, (![0, colOff c.val i] : Fin 2 → ℕ) a + S256x128.size a ≤ S256x2048.size a := by
  have h := colOff_le c ⟨i, hi⟩
  intro a
  match a with
  | ⟨0, _⟩ => show 0 + 256 ≤ 256; omega
  | ⟨1, _⟩ => show colOff c.val i + 128 ≤ 2048; exact h

/-- A column chunk's rectangle at column offset `o` holds the indices whose column is in `[o, o + 128)`. -/
theorem mem_oR_cols (o : ℕ) (h : ∀ a, (![0, o] : Fin 2 → ℕ) a + S256x128.size a ≤ S256x2048.size a) (y : S256x2048.Idx) :
    y ∈ (oR ![0, o] h).set ↔ o ≤ (y 1).val ∧ (y 1).val < o + 128 := by
  rw [Rect.mem_set_unit, Fin.forall_fin_two]
  show (0 ≤ (y 0).val ∧ (y 0).val < 0 + 256) ∧ (o ≤ (y 1).val ∧ (y 1).val < o + 128) ↔ _
  have h0 : (y 0).val < 256 := (y 0).isLt
  constructor
  · exact fun h => h.2
  · exact fun h => ⟨⟨Nat.zero_le _, by omega⟩, h⟩

/-- The element `(r, k)` of the column chunk at column offset `o` is the block's element `(r, o + k)`. -/
theorem oR_emb_cols (o : ℕ) (h : ∀ a, (![0, o] : Fin 2 → ℕ) a + S256x128.size a ≤ S256x2048.size a) (r : Fin 256) (k : Fin 128)
    (hk : o + k.val < 2048) : (oR ![0, o] h).emb (ix2 r k) = ix2 r ⟨o + k.val, hk⟩ := by
  funext a
  apply Fin.ext
  rw [Rect.emb_apply]
  match a with
  | ⟨0, _⟩ => show 0 + 1 * r.val = r.val; omega
  | ⟨1, _⟩ => show o + 1 * k.val = o + k.val; omega

/-! ## Any sixteen pieces at those offsets -/

section Sixteen

variable (c : Dev nD) (L : List (View.Piece (Elt F) S256x2048 .f32)) (hlen : L.length = 16)
  (hrect : ∀ (i : ℕ) (hi : i < 16), (L[i]'(by rw [hlen]; exact hi)).1 = oR ![0, colOff c.val i] (colInb c i hi))

include hlen hrect

theorem sixteen_cover (y : S256x2048.Idx) : ∃ p ∈ L, y ∈ p.1.set := by
  have hy : (y 1).val < 2048 := (y 1).isLt
  obtain ⟨i, hi⟩ := colOff_cover c ⟨(y 1).val / 128, by omega⟩
  refine ⟨L[i.val]'(by rw [hlen]; exact i.isLt), List.getElem_mem _, ?_⟩
  rw [hrect i.val i.isLt, mem_oR_cols]
  have hi' : colOff c.val i.val = 128 * ((y 1).val / 128) := hi
  omega

theorem sixteen_disjoint : L.Pairwise (fun p q => Disjoint p.1.set q.1.set) := by
  rw [List.pairwise_iff_getElem]
  intro i j hi hj hij
  have hi' : i < 16 := by rw [← hlen]; exact hi
  have hj' : j < 16 := by rw [← hlen]; exact hj
  rw [hrect i hi', hrect j hj']
  exact Rect.unit_disjoint (1 : Fin 2) (colOff_disj c ⟨i, hi'⟩ ⟨j, hj'⟩ (fun e => by have := congrArg Fin.val e; simp at this; omega))

end Sixteen

/-! ## The body's sixteen stores -/

section Main

variable (SND : Dev nD → (cc0_scratch1 : Ref sig .tc).ty.Contents (Elt F)) (BLK : Dev nD → (cc0_scratch4 : Ref sig .tc).ty.Contents (Elt F))
variable (X : (cc0_stg0_0 : Ref sig .tc).ty.Contents (Elt F)) (DY : (cc0_stg1_0 : Ref sig .tc).ty.Contents (Elt F))

theorem outW_length (c : Dev nD) : (outW SND BLK X DY c).length = 16 := rfl

/-- The `i`-th store's rectangle is the column chunk at `colOff c i`: each computed offset is its closed form. -/
theorem outW_rect (c : Dev nD) (i : ℕ) (hi : i < 16) :
    ((outW SND BLK X DY c)[i]'(by rw [outW_length]; exact hi)).1 = oR ![0, colOff c.val i] (colInb c i hi) := by
  interval_cases i
  · exact Rect.unit_congr (k0_off17_eq c ⟨1, by decide⟩) (k0_off17_inb c 1) (colInb c 0 (by decide))
  · exact Rect.unit_congr (k0_off15_eq c ⟨1, by decide⟩) (k0_off15_inb c 1) (colInb c 1 (by decide))
  · exact Rect.unit_congr (k0_off17_eq c ⟨0, by decide⟩) (k0_off17_inb c 0) (colInb c 2 (by decide))
  · exact Rect.unit_congr (k0_off15_eq c ⟨0, by decide⟩) (k0_off15_inb c 0) (colInb c 3 (by decide))
  · exact Rect.unit_congr (k0_off13_eq c ⟨3, by decide⟩) (k0_off13_inb c 3) (colInb c 4 (by decide))
  · exact Rect.unit_congr (k0_off13_eq c ⟨2, by decide⟩) (k0_off13_inb c 2) (colInb c 5 (by decide))
  · exact Rect.unit_congr (k0_off13_eq c ⟨1, by decide⟩) (k0_off13_inb c 1) (colInb c 6 (by decide))
  · exact Rect.unit_congr (k0_off13_eq c ⟨0, by decide⟩) (k0_off13_inb c 0) (colInb c 7 (by decide))
  · exact Rect.unit_congr (k0_off12_eq c ⟨1, by decide⟩) (k0_off12_inb c 1) (colInb c 8 (by decide))
  · exact Rect.unit_congr (k0_off12_eq c ⟨0, by decide⟩) (k0_off12_inb c 0) (colInb c 9 (by decide))
  · exact Rect.unit_congr (k0_off10_eq c ⟨3, by decide⟩) (k0_off10_inb c 3) (colInb c 10 (by decide))
  · exact Rect.unit_congr (k0_off10_eq c ⟨2, by decide⟩) (k0_off10_inb c 2) (colInb c 11 (by decide))
  · exact Rect.unit_congr (k0_off10_eq c ⟨1, by decide⟩) (k0_off10_inb c 1) (colInb c 12 (by decide))
  · exact Rect.unit_congr (k0_off10_eq c ⟨0, by decide⟩) (k0_off10_inb c 0) (colInb c 13 (by decide))
  · exact Rect.unit_congr (k0_off9_eq c ⟨1, by decide⟩) (k0_off9_inb c 1) (colInb c 14 (by decide))
  · exact Rect.unit_congr (k0_off9_eq c ⟨0, by decide⟩) (k0_off9_inb c 0) (colInb c 15 (by decide))

theorem outW_cover (c : Dev nD) (y : S256x2048.Idx) : ∃ p ∈ outW SND BLK X DY c, y ∈ p.1.set :=
  sixteen_cover c _ (outW_length SND BLK X DY c) (outW_rect SND BLK X DY c) y

theorem outW_disjoint (c : Dev nD) : (outW SND BLK X DY c).Pairwise (fun p q => Disjoint p.1.set q.1.set) :=
  sixteen_disjoint c _ (outW_length SND BLK X DY c) (outW_rect SND BLK X DY c)

/-- The sixteen stores leave the same block whatever it held before. -/
theorem outW_rebase (c : Dev nD) (O O' : (cc0_stg2_0 : Ref sig .tc).ty.Contents (Elt F)) :
    M2.view.writes (Elt F) O (outW SND BLK X DY c) = M2.view.writes (Elt F) O' (outW SND BLK X DY c) := by
  have h := View.read_writes_of_cover M2.view O M2.view O' (outW SND BLK X DY c) (outW_cover SND BLK X DY c)
  generalize M2.view.writes (Elt F) O (outW SND BLK X DY c) = W at h ⊢
  generalize M2.view.writes (Elt F) O' (outW SND BLK X DY c) = W' at h ⊢
  exact h

/-- After the sixteen stores each piece's elements hold that piece. -/
theorem outW_apply (c : Dev nD) (O : (cc0_stg2_0 : Ref sig .tc).ty.Contents (Elt F))
    (p : View.Piece (Elt F) S256x2048 .f32) (hp : p ∈ outW SND BLK X DY c) (x : p.1.shape.Idx) :
    (M2.view.writes (Elt F) O (outW SND BLK X DY c) : (cc0_stg2_0 : Ref sig .tc).ty.Contents (Elt F)) (p.1.emb x) = p.2 x := by
  have h := read_writes_of_mem_disjoint M2.view O (outW SND BLK X DY c) (outW_disjoint SND BLK X DY c) p hp x
  generalize M2.view.writes (Elt F) O (outW SND BLK X DY c) = W at h ⊢
  exact h

end Main

section Families

variable (m : (ℓ : Loc nD τ sig) → Buf (Elt F) ℓ)

/-- The result block after the body's sixteen stores is `OUTv m c`, whatever it held before. -/
theorem out_rebase (c : Dev nD) (O : (cc0_stg2_0 : Ref sig .tc).ty.Contents (Elt F)) :
    M2.view.writes (Elt F) O (outW (SNDv m) (BLKv m) (xstg m c) (dystg m c) c) = OUTv m c :=
  outW_rebase (SNDv m) (BLKv m) (xstg m c) (dystg m c) c O M2.view.junk

/-- `OUTv m c` at a piece's elements is that piece. -/
theorem out_apply (c : Dev nD) (p : View.Piece (Elt F) S256x2048 .f32)
    (hp : p ∈ outW (SNDv m) (BLKv m) (xstg m c) (dystg m c) c) (x : p.1.shape.Idx) :
    OUTv m c (p.1.emb x) = p.2 x :=
  outW_apply (SNDv m) (BLKv m) (xstg m c) (dystg m c) c M2.view.junk p hp x

/-- The same by coordinates: the piece stored at column offset `o` (its offsets spelt in any way that equals
    `(0, o)`) is what `OUTv m c` holds at columns `o ..< o + 128`. -/
theorem out_apply_cols (c : Dev nD) (off : Fin 2 → ℕ) (h : ∀ a, off a + S256x128.size a ≤ S256x2048.size a)
    (w : S256x128.Idx → Elt F .f32)
    (hp : (⟨oR off h, w⟩ : View.Piece (Elt F) S256x2048 .f32) ∈ outW (SNDv m) (BLKv m) (xstg m c) (dystg m c) c)
    (o : ℕ) (hoff : off = ![0, o]) (r : Fin 256) (k : Fin 128) (hk : o + k.val < 2048) :
    OUTv m c (ix2 r ⟨o + k.val, hk⟩) = w (ix2 r k) := by
  subst hoff
  have e := out_apply m c ⟨oR ![0, o] h, w⟩ hp (ix2 r k)
  rw [oR_emb_cols o h r k hk] at e
  exact e

end Families

/-! ## What the lemmas rest on -/

/-- info: 'Cert.KernelIdeal.Coll.read_writes_of_mem_disjoint' depends on axioms: [propext, Classical.choice, Quot.sound] -/
#guard_msgs in #print axioms read_writes_of_mem_disjoint

/-- info: 'Cert.KernelIdeal.Coll.colOff_le' depends on axioms: [propext, Quot.sound] -/
#guard_msgs in #print axioms colOff_le

/-- info: 'Cert.KernelIdeal.Coll.colOff_disj' depends on axioms: [propext, Quot.sound] -/
#guard_msgs in #print axioms colOff_disj

/-- info: 'Cert.KernelIdeal.Coll.colOff_cover' depends on axioms: [propext, Classical.choice, Quot.sound] -/
#guard_msgs in #print axioms colOff_cover

/-- info: 'Cert.KernelIdeal.Coll.colInb' depends on axioms: [propext, Quot.sound] -/
#guard_msgs in #print axioms colInb

/-- info: 'Cert.KernelIdeal.Coll.mem_oR_cols' depends on axioms: [propext, Classical.choice, Quot.sound] -/
#guard_msgs in #print axioms mem_oR_cols

/-- info: 'Cert.KernelIdeal.Coll.oR_emb_cols' depends on axioms: [propext, Quot.sound] -/
#guard_msgs in #print axioms oR_emb_cols

/-- info: 'Cert.KernelIdeal.Coll.sixteen_cover' depends on axioms: [propext, Classical.choice, Quot.sound] -/
#guard_msgs in #print axioms sixteen_cover

/-- info: 'Cert.KernelIdeal.Coll.sixteen_disjoint' depends on axioms: [propext, Classical.choice, Quot.sound] -/
#guard_msgs in #print axioms sixteen_disjoint

/-- info: 'Cert.KernelIdeal.Coll.outW_length' depends on axioms: [propext, Classical.choice, Quot.sound] -/
#guard_msgs in #print axioms outW_length

/-- info: 'Cert.KernelIdeal.Coll.outW_rect' depends on axioms: [propext, Classical.choice, Quot.sound] -/
#guard_msgs in #print axioms outW_rect

/-- info: 'Cert.KernelIdeal.Coll.outW_cover' depends on axioms: [propext, Classical.choice, Quot.sound] -/
#guard_msgs in #print axioms outW_cover

/-- info: 'Cert.KernelIdeal.Coll.outW_disjoint' depends on axioms: [propext, Classical.choice, Quot.sound] -/
#guard_msgs in #print axioms outW_disjoint

/-- info: 'Cert.KernelIdeal.Coll.outW_rebase' depends on axioms: [propext, Classical.choice, Quot.sound] -/
#guard_msgs in #print axioms outW_rebase

/-- info: 'Cert.KernelIdeal.Coll.outW_apply' depends on axioms: [propext, Classical.choice, Quot.sound] -/
#guard_msgs in #print axioms outW_apply

/-- info: 'Cert.KernelIdeal.Coll.out_rebase' depends on axioms: [propext, Classical.choice, Quot.sound] -/
#guard_msgs in #print axioms out_rebase

/-- info: 'Cert.KernelIdeal.Coll.out_apply' depends on axioms: [propext, Classical.choice, Quot.sound] -/
#guard_msgs in #print axioms out_apply

/-- info: 'Cert.KernelIdeal.Coll.out_apply_cols' depends on axioms: [propext, Classical.choice, Quot.sound] -/
#guard_msgs in #print axioms out_apply_cols

end Cert.KernelIdeal.Coll

end
-- ==== Proof.Joins.lean ====
/-
  Handing the scratch buffers back whole.

  At the end of the body every slot of a scratch buffer is held in full, each at some contents of its own. Two half
  shares of one slot agree on the slot, so they are one full share. Slots at different leading offsets share no element
  and together they are the whole buffer, so slots held at different contents are the buffer held at some contents.
-/
import proofs.«900594_g7700000000000595_dist_rsdw_v7x_xyz2x2x2_y_m512_d512_f2048_bf16_1_alg».proof.Proof.Slots

noncomputable section

namespace Cert.KernelIdeal.Coll

open Cert.KernelIdeal Cert.KernelIdeal.Gen Cert.KernelIdeal.Mesh
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ UU ℕ

/-! ## Two halves of a slot -/

/-- The two half shares of a slot, each at some contents: the contents agree on the slot, so the slot is held in full
    at the first. -/
theorem join_halves_ex (c : Dev nD) (M : Memref sig .tc .vmem S256x128 .bf16) :
    iprop(someQ c M fullShare.left ∗ someQ c M fullShare.right) ⊢ (some_ c M : sProp 𝕄) := by
  iintro ⟨⟨%f, Hl⟩, ⟨%g, Hr⟩⟩
  ihave H := (persistent_entails_right (pointsTo_agree (q₁ := fullShare.left) (q₂ := fullShare.right) (f := f) (g := g)
      (I := M.view.set) (J := M.view.set))) $$ [Hl Hr]
  · isplitl [Hl]; · iexact Hl
    iexact Hr
  icases H with ⟨%hag, Hl, Hr⟩
  iexists f
  iapply (halves c M f).2
  isplitl [Hl]; · iexact Hl
  iapply (Entails.of_eq (pointsTo_congr (q := fullShare.right) fun i hi => ((hag i (Finset.mem_inter.mpr ⟨hi, hi⟩)).1).symm))
  iexact Hr

/-! ## Slots along the leading axis, at different contents -/

section Lead
variable {N : ℕ} (M : Memref sig .tc .vmem (⟨3, ![N, 256, 128]⟩ : Shape) .bf16)
  (inb : ∀ n : Fin N, ∀ a, (![n.val, 0, 0] : Fin 3 → ℕ) a + S1x256x128.size a ≤ (⟨3, ![N, 256, 128]⟩ : Shape).size a)

/-- Slots at different leading offsets share no element of the buffer. -/
theorem lead_disjoint : ∀ n ∈ (Finset.univ : Finset (Fin N)), ∀ n' ∈ (Finset.univ : Finset (Fin N)), n ≠ n' →
    Disjoint (M.view.slice (Rect.unit ![n.val, 0, 0] S1x256x128.size (inb n))).set
      (M.view.slice (Rect.unit ![n'.val, 0, 0] S1x256x128.size (inb n'))).set := by
  intro n _ n' _ hne
  rw [View.set_slice, View.set_slice, Finset.disjoint_map]
  exact disjoint_lead (fun e => hne (Fin.ext e)) (inb n) (inb n')

/-- Every element under the buffer's view lies in the slot at its own leading coordinate. -/
theorem lead_cover : (Finset.univ : Finset (Fin N)).biUnion
    (fun n => (M.view.slice (Rect.unit ![n.val, 0, 0] S1x256x128.size (inb n))).set) = M.view.set := by
  apply Finset.Subset.antisymm
  · exact Finset.biUnion_subset.mpr fun n _ => View.set_slice_subset _ _
  · intro i hi
    obtain ⟨y, rfl⟩ := View.exists_emb_of_mem_set _ hi
    refine Finset.mem_biUnion.mpr ⟨⟨(y 0).val, (y 0).isLt⟩, Finset.mem_univ _, ?_⟩
    rw [View.set_slice]
    exact Finset.mem_map_of_mem _ ((mem_lead _ _ y).mpr rfl)

/-- The slots of a buffer held at one share, each at contents of its own, are the buffer held at some contents. -/
theorem join_lead (c : Dev nD) (q : PosShare TreeShare) (fs : Fin N → Buf (Elt F) (M.view.loc (c : Thread nD τ)))
    (f₀ : Buf (Elt F) (M.view.loc (c : Thread nD τ))) :
    bigSep Finset.univ (fun n : Fin N =>
        (M.view.loc (c : Thread nD τ) ↦[(M.view.slice (Rect.unit ![n.val, 0, 0] S1x256x128.size (inb n))).set]{q} fs n : sProp 𝕄))
      ⊢ (iprop(∃ g : Buf (Elt F) (M.view.loc (c : Thread nD τ)), M.view.loc (c : Thread nD τ) ↦[M.view.set]{q} g) : sProp 𝕄) := by
  iintro H
  ihave H := (pointsTo_biUnion_join (q := q) Finset.univ
    (fun n : Fin N => (M.view.slice (Rect.unit ![n.val, 0, 0] S1x256x128.size (inb n))).set) fs f₀ (lead_disjoint M inb)) $$ H
  icases H with ⟨%g, -, H⟩
  iexists g
  rw [lead_cover M inb]
  iexact H

end Lead

/-! ## The send and receive buffers -/

/-- A separating conjunction over six indices, written out. -/
theorem bigSep_fin6 (Φ : Fin 6 → sProp 𝕄) : bigSep Finset.univ Φ = iprop(Φ 0 ∗ Φ 1 ∗ Φ 2 ∗ Φ 3 ∗ Φ 4 ∗ Φ 5) := by
  rw [show (Finset.univ : Finset (Fin 6)) = {0, 1, 2, 3, 4, 5} by decide,
    bigSep_insert (by decide), bigSep_insert (by decide), bigSep_insert (by decide), bigSep_insert (by decide),
    bigSep_insert (by decide), bigSep_singleton]
  rfl

/-- The six slots of a [6, 256, 128] buffer, each held in full at some contents, are the buffer's view held in full. -/
theorem join6_view (M : Memref sig .tc .vmem S6x256x128 .bf16) (c : Dev nD) :
    iprop(some_ c (slot6 M 0) ∗ some_ c (slot6 M 1) ∗ some_ c (slot6 M 2) ∗ some_ c (slot6 M 3) ∗ some_ c (slot6 M 4) ∗ some_ c (slot6 M 5))
      ⊢ (iprop(∃ f : Buf (Elt F) (M.view.loc (c : Thread nD τ)), M.view.loc (c : Thread nD τ) ↦[M.view.set]{fullShare} f) : sProp 𝕄) := by
  iintro ⟨⟨%f0, H0⟩, ⟨%f1, H1⟩, ⟨%f2, H2⟩, ⟨%f3, H3⟩, ⟨%f4, H4⟩, ⟨%f5, H5⟩⟩
  iapply (join_lead M inb6s c fullShare ![f0, f1, f2, f3, f4, f5] f0)
  rw [bigSep_fin6]
  isplitl [H0]; · iapply (Entails.of_eq (holds_slot6 M c 0 fullShare f0)); iexact H0
  isplitl [H1]; · iapply (Entails.of_eq (holds_slot6 M c 1 fullShare f1)); iexact H1
  isplitl [H2]; · iapply (Entails.of_eq (holds_slot6 M c 2 fullShare f2)); iexact H2
  isplitl [H3]; · iapply (Entails.of_eq (holds_slot6 M c 3 fullShare f3)); iexact H3
  isplitl [H4]; · iapply (Entails.of_eq (holds_slot6 M c 4 fullShare f4)); iexact H4
  iapply (Entails.of_eq (holds_slot6 M c 5 fullShare f5)); iexact H5

/-- The send buffer handed back whole. -/
theorem join6_snd_ex (c : Dev nD) :
    iprop(some_ c (slot6 sndM 0) ∗ some_ c (slot6 sndM 1) ∗ some_ c (slot6 sndM 2) ∗ some_ c (slot6 sndM 3) ∗ some_ c (slot6 sndM 4) ∗ some_ c (slot6 sndM 5))
      ⊢ (iprop(∃ f : Buf (Elt F) (((c : Thread nD τ)).loc cc0_scratch1), ((c : Thread nD τ).loc cc0_scratch1) ↦{fullShare} f) : sProp 𝕄) := by
  refine (join6_view sndM c).trans ?_
  iintro ⟨%f, H⟩
  iexists f
  rw [View.set_whole]
  iexact H

/-- The receive buffer handed back whole. -/
theorem join6_rcv_ex (c : Dev nD) :
    iprop(some_ c (slot6 rcvM 0) ∗ some_ c (slot6 rcvM 1) ∗ some_ c (slot6 rcvM 2) ∗ some_ c (slot6 rcvM 3) ∗ some_ c (slot6 rcvM 4) ∗ some_ c (slot6 rcvM 5))
      ⊢ (iprop(∃ f : Buf (Elt F) (((c : Thread nD τ)).loc cc0_scratch2), ((c : Thread nD τ).loc cc0_scratch2) ↦{fullShare} f) : sProp 𝕄) := by
  refine (join6_view rcvM c).trans ?_
  iintro ⟨%f, H⟩
  iexists f
  rw [View.set_whole]
  iexact H

/-! ## The block buffer -/

/-- A separating conjunction over sixteen indices, written out. -/
theorem bigSep_fin16 (Φ : Fin 16 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15) := by
  rw [show (Finset.univ : Finset (Fin 16)) = {0, 1, 2, 3, 4, 5, 6, 7, 8, 9, 10, 11, 12, 13, 14, 15} by decide,
    bigSep_insert (by decide), bigSep_insert (by decide), bigSep_insert (by decide), bigSep_insert (by decide), bigSep_insert (by decide),
    bigSep_insert (by decide), bigSep_insert (by decide), bigSep_insert (by decide), bigSep_insert (by decide), bigSep_insert (by decide),
    bigSep_insert (by decide), bigSep_insert (by decide), bigSep_insert (by decide), bigSep_insert (by decide), bigSep_insert (by decide),
    bigSep_singleton]
  rfl

/-- The elements of the block buffer under its slot number m. -/
abbrev piece (c : Dev nD) (m : Fin 16) (f : Buf (Elt F) (blkM.view.loc (c : Thread nD τ))) : sProp 𝕄 :=
  blkM.view.loc (c : Thread nD τ) ↦[(blkM.view.slice (Rect.unit ![m.val, 0, 0] S1x256x128.size (inb16v m))).set]{fullShare} f

/-- A slot whose number equals m holds exactly the elements under m. -/
theorem slot_piece (c : Dev nD) (n : ℕ) (h : n < 16) (m : Fin 16) (e : n = m.val) (f : Buf (Elt F) (blkM.view.loc (c : Thread nD τ))) :
    holds c (slotN n h) fullShare f ⊢ piece c m f := by
  subst e
  exact Entails.of_eq (holds_slotN c m.val h fullShare f)

/-- The same, slot by role. -/
theorem ownA_piece (c : Dev nD) (w : Fin 2) (m : Fin 16) (e : 2 * (c.val % 2) + w.val = m.val) (f : Buf (Elt F) (blkM.view.loc (c : Thread nD τ))) :
    holds c (ownA c w) fullShare f ⊢ piece c m f := slot_piece c _ _ m e f
theorem xinA_piece (c : Dev nD) (w : Fin 2) (m : Fin 16) (e : 2 * (c.val % 2) + w.val + 8 = m.val) (f : Buf (Elt F) (blkM.view.loc (c : Thread nD τ))) :
    holds c (xinA c w) fullShare f ⊢ piece c m f := slot_piece c _ _ m e f
theorem zinA_piece (c : Dev nD) (w : Fin 2) (m : Fin 16) (e : (w.val + 2) - 2 * (c.val % 2) = m.val) (f : Buf (Elt F) (blkM.view.loc (c : Thread nD τ))) :
    holds c (zinA c w) fullShare f ⊢ piece c m f := slot_piece c _ _ m e f
theorem zinB_piece (c : Dev nD) (w : Fin 2) (m : Fin 16) (e : (w.val + 10) - 2 * (c.val % 2) = m.val) (f : Buf (Elt F) (blkM.view.loc (c : Thread nD τ))) :
    holds c (zinB c w) fullShare f ⊢ piece c m f := slot_piece c _ _ m e f
theorem ownB_piece (c : Dev nD) (k : Fin 4) (m : Fin 16) (e : 4 + k.val = m.val) (f : Buf (Elt F) (blkM.view.loc (c : Thread nD τ))) :
    holds c (ownB k) fullShare f ⊢ piece c m f := slot_piece c _ _ m e f
theorem xinB_piece (c : Dev nD) (k : Fin 4) (m : Fin 16) (e : 12 + k.val = m.val) (f : Buf (Elt F) (blkM.view.loc (c : Thread nD τ))) :
    holds c (xinB k) fullShare f ⊢ piece c m f := slot_piece c _ _ m e f

/-- The block buffer's view held in full at some contents is the buffer held in full. -/
theorem blk_whole_ex (c : Dev nD) :
    (iprop(∃ g : Buf (Elt F) (blkM.view.loc (c : Thread nD τ)), blkM.view.loc (c : Thread nD τ) ↦[blkM.view.set]{fullShare} g) : sProp 𝕄)
      ⊢ iprop(∃ f : Buf (Elt F) (((c : Thread nD τ)).loc cc0_scratch4), ((c : Thread nD τ).loc cc0_scratch4) ↦{fullShare} f) := by
  iintro ⟨%f, H⟩
  iexists f
  rw [View.set_whole]
  iexact H

/-- On a device of even number the own chunks sit at slots 0, 1, their x copies at 8, 9, and the z neighbour's chunks
    and their x copies at 2, 3 and 10, 11. -/
theorem joinBlk_even (c : Dev nD) (hc : c.val % 2 = 0) :
    iprop(some_ c (ownA c 0) ∗ some_ c (ownA c 1) ∗ some_ c (ownB 0) ∗ some_ c (ownB 1) ∗ some_ c (ownB 2) ∗ some_ c (ownB 3)
        ∗ some_ c (xinA c 0) ∗ some_ c (xinA c 1) ∗ some_ c (xinB 0) ∗ some_ c (xinB 1) ∗ some_ c (xinB 2) ∗ some_ c (xinB 3)
        ∗ some_ c (zinA c 0) ∗ some_ c (zinA c 1) ∗ some_ c (zinB c 0) ∗ some_ c (zinB c 1))
      ⊢ (iprop(∃ g : Buf (Elt F) (blkM.view.loc (c : Thread nD τ)), blkM.view.loc (c : Thread nD τ) ↦[blkM.view.set]{fullShare} g) : sProp 𝕄) := by
  iintro ⟨⟨%a0, Ha0⟩, ⟨%a1, Ha1⟩, ⟨%b0, Hb0⟩, ⟨%b1, Hb1⟩, ⟨%b2, Hb2⟩, ⟨%b3, Hb3⟩, ⟨%x0, Hx0⟩, ⟨%x1, Hx1⟩,
    ⟨%y0, Hy0⟩, ⟨%y1, Hy1⟩, ⟨%y2, Hy2⟩, ⟨%y3, Hy3⟩, ⟨%z0, Hz0⟩, ⟨%z1, Hz1⟩, ⟨%u0, Hu0⟩, ⟨%u1, Hu1⟩⟩
  iapply (join_lead blkM inb16v c fullShare ![a0, a1, z0, z1, b0, b1, b2, b3, x0, x1, u0, u1, y0, y1, y2, y3] a0)
  rw [bigSep_fin16]
  isplitl [Ha0]; · iapply (ownA_piece c 0 0 (by rw [hc]; rfl) a0); iexact Ha0
  isplitl [Ha1]; · iapply (ownA_piece c 1 1 (by rw [hc]; rfl) a1); iexact Ha1
  isplitl [Hz0]; · iapply (zinA_piece c 0 2 (by rw [hc]; rfl) z0); iexact Hz0
  isplitl [Hz1]; · iapply (zinA_piece c 1 3 (by rw [hc]; rfl) z1); iexact Hz1
  isplitl [Hb0]; · iapply (ownB_piece c 0 4 rfl b0); iexact Hb0
  isplitl [Hb1]; · iapply (ownB_piece c 1 5 rfl b1); iexact Hb1
  isplitl [Hb2]; · iapply (ownB_piece c 2 6 rfl b2); iexact Hb2
  isplitl [Hb3]; · iapply (ownB_piece c 3 7 rfl b3); iexact Hb3
  isplitl [Hx0]; · iapply (xinA_piece c 0 8 (by rw [hc]; rfl) x0); iexact Hx0
  isplitl [Hx1]; · iapply (xinA_piece c 1 9 (by rw [hc]; rfl) x1); iexact Hx1
  isplitl [Hu0]; · iapply (zinB_piece c 0 10 (by rw [hc]; rfl) u0); iexact Hu0
  isplitl [Hu1]; · iapply (zinB_piece c 1 11 (by rw [hc]; rfl) u1); iexact Hu1
  isplitl [Hy0]; · iapply (xinB_piece c 0 12 rfl y0); iexact Hy0
  isplitl [Hy1]; · iapply (xinB_piece c 1 13 rfl y1); iexact Hy1
  isplitl [Hy2]; · iapply (xinB_piece c 2 14 rfl y2); iexact Hy2
  iapply (xinB_piece c 3 15 rfl y3); iexact Hy3

/-- On a device of odd number the two pairs of pairs change places: own chunks at 2, 3 and 10, 11, the z neighbour's
    at 0, 1 and 8, 9. -/
theorem joinBlk_odd (c : Dev nD) (hc : c.val % 2 = 1) :
    iprop(some_ c (ownA c 0) ∗ some_ c (ownA c 1) ∗ some_ c (ownB 0) ∗ some_ c (ownB 1) ∗ some_ c (ownB 2) ∗ some_ c (ownB 3)
        ∗ some_ c (xinA c 0) ∗ some_ c (xinA c 1) ∗ some_ c (xinB 0) ∗ some_ c (xinB 1) ∗ some_ c (xinB 2) ∗ some_ c (xinB 3)
        ∗ some_ c (zinA c 0) ∗ some_ c (zinA c 1) ∗ some_ c (zinB c 0) ∗ some_ c (zinB c 1))
      ⊢ (iprop(∃ g : Buf (Elt F) (blkM.view.loc (c : Thread nD τ)), blkM.view.loc (c : Thread nD τ) ↦[blkM.view.set]{fullShare} g) : sProp 𝕄) := by
  iintro ⟨⟨%a0, Ha0⟩, ⟨%a1, Ha1⟩, ⟨%b0, Hb0⟩, ⟨%b1, Hb1⟩, ⟨%b2, Hb2⟩, ⟨%b3, Hb3⟩, ⟨%x0, Hx0⟩, ⟨%x1, Hx1⟩,
    ⟨%y0, Hy0⟩, ⟨%y1, Hy1⟩, ⟨%y2, Hy2⟩, ⟨%y3, Hy3⟩, ⟨%z0, Hz0⟩, ⟨%z1, Hz1⟩, ⟨%u0, Hu0⟩, ⟨%u1, Hu1⟩⟩
  iapply (join_lead blkM inb16v c fullShare ![z0, z1, a0, a1, b0, b1, b2, b3, u0, u1, x0, x1, y0, y1, y2, y3] a0)
  rw [bigSep_fin16]
  isplitl [Hz0]; · iapply (zinA_piece c 0 0 (by rw [hc]; rfl) z0); iexact Hz0
  isplitl [Hz1]; · iapply (zinA_piece c 1 1 (by rw [hc]; rfl) z1); iexact Hz1
  isplitl [Ha0]; · iapply (ownA_piece c 0 2 (by rw [hc]; rfl) a0); iexact Ha0
  isplitl [Ha1]; · iapply (ownA_piece c 1 3 (by rw [hc]; rfl) a1); iexact Ha1
  isplitl [Hb0]; · iapply (ownB_piece c 0 4 rfl b0); iexact Hb0
  isplitl [Hb1]; · iapply (ownB_piece c 1 5 rfl b1); iexact Hb1
  isplitl [Hb2]; · iapply (ownB_piece c 2 6 rfl b2); iexact Hb2
  isplitl [Hb3]; · iapply (ownB_piece c 3 7 rfl b3); iexact Hb3
  isplitl [Hu0]; · iapply (zinB_piece c 0 8 (by rw [hc]; rfl) u0); iexact Hu0
  isplitl [Hu1]; · iapply (zinB_piece c 1 9 (by rw [hc]; rfl) u1); iexact Hu1
  isplitl [Hx0]; · iapply (xinA_piece c 0 10 (by rw [hc]; rfl) x0); iexact Hx0
  isplitl [Hx1]; · iapply (xinA_piece c 1 11 (by rw [hc]; rfl) x1); iexact Hx1
  isplitl [Hy0]; · iapply (xinB_piece c 0 12 rfl y0); iexact Hy0
  isplitl [Hy1]; · iapply (xinB_piece c 1 13 rfl y1); iexact Hy1
  isplitl [Hy2]; · iapply (xinB_piece c 2 14 rfl y2); iexact Hy2
  iapply (xinB_piece c 3 15 rfl y3); iexact Hy3

/-- The sixteen slots named by their roles on device c, each held in full at some contents, are the block buffer held
    in full: whichever the parity of c, the roles' slot numbers are the sixteen numbers once each. -/
theorem joinBlk_ex (c : Dev nD) :
    iprop(some_ c (ownA c 0) ∗ some_ c (ownA c 1) ∗ some_ c (ownB 0) ∗ some_ c (ownB 1) ∗ some_ c (ownB 2) ∗ some_ c (ownB 3)
        ∗ some_ c (xinA c 0) ∗ some_ c (xinA c 1) ∗ some_ c (xinB 0) ∗ some_ c (xinB 1) ∗ some_ c (xinB 2) ∗ some_ c (xinB 3)
        ∗ some_ c (zinA c 0) ∗ some_ c (zinA c 1) ∗ some_ c (zinB c 0) ∗ some_ c (zinB c 1))
      ⊢ (iprop(∃ f : Buf (Elt F) (((c : Thread nD τ)).loc cc0_scratch4), ((c : Thread nD τ).loc cc0_scratch4) ↦{fullShare} f) : sProp 𝕄) :=
  (Nat.mod_two_eq_zero_or_one c.val).elim (fun hc => (joinBlk_even c hc).trans (blk_whole_ex c)) (fun hc => (joinBlk_odd c hc).trans (blk_whole_ex c))

/-- info: 'Cert.KernelIdeal.Coll.join_halves_ex' depends on axioms: [propext, Classical.choice, Quot.sound] -/
#guard_msgs in #print axioms join_halves_ex

/-- info: 'Cert.KernelIdeal.Coll.join6_snd_ex' depends on axioms: [propext, Classical.choice, Quot.sound] -/
#guard_msgs in #print axioms join6_snd_ex

/-- info: 'Cert.KernelIdeal.Coll.join6_rcv_ex' depends on axioms: [propext, Classical.choice, Quot.sound] -/
#guard_msgs in #print axioms join6_rcv_ex

/-- info: 'Cert.KernelIdeal.Coll.joinBlk_ex' depends on axioms: [propext, Classical.choice, Quot.sound] -/
#guard_msgs in #print axioms joinBlk_ex

end Cert.KernelIdeal.Coll

end
-- ==== Proof.Body.lean ====
import proofs.«900594_g7700000000000595_dist_rsdw_v7x_xyz2x2x2_y_m512_d512_f2048_bf16_1_alg».proof.Proof.Mesh
import proofs.«900594_g7700000000000595_dist_rsdw_v7x_xyz2x2x2_y_m512_d512_f2048_bf16_1_alg».proof.Proof.Gen.KernelIdeal.Skeleton
import proofs.«900594_g7700000000000595_dist_rsdw_v7x_xyz2x2x2_y_m512_d512_f2048_bf16_1_alg».proof.Proof.Gen.KernelIdeal.Frame
import proofs.«900594_g7700000000000595_dist_rsdw_v7x_xyz2x2x2_y_m512_d512_f2048_bf16_1_alg».proof.Proof.Steps3
import proofs.«900594_g7700000000000595_dist_rsdw_v7x_xyz2x2x2_y_m512_d512_f2048_bf16_1_alg».proof.Proof.Steps4
import proofs.«900594_g7700000000000595_dist_rsdw_v7x_xyz2x2x2_y_m512_d512_f2048_bf16_1_alg».proof.Proof.Slots
import proofs.«900594_g7700000000000595_dist_rsdw_v7x_xyz2x2x2_y_m512_d512_f2048_bf16_1_alg».proof.Proof.Finish
import proofs.«900594_g7700000000000595_dist_rsdw_v7x_xyz2x2x2_y_m512_d512_f2048_bf16_1_alg».proof.Proof.Values
import proofs.«900594_g7700000000000595_dist_rsdw_v7x_xyz2x2x2_y_m512_d512_f2048_bf16_1_alg».proof.Proof.OutCover
import proofs.«900594_g7700000000000595_dist_rsdw_v7x_xyz2x2x2_y_m512_d512_f2048_bf16_1_alg».proof.Proof.Joins
import Idealize.ShloMosaic.Lib.Pipeline.Launch
import Idealize.ShloMosaic.Lib.Pipeline.Kit
import Idealize.ShloMosaic.Lib.Tactic

noncomputable section

namespace Cert.KernelIdeal.Coll

open Cert.KernelIdeal Cert.KernelIdeal.Gen Cert.KernelIdeal.Mesh
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

open Idealize.ShloMosaic.ValueIdx

local notation "𝕄" => MT nD τ sig Unit (Elt F) ℕ UU ℕ

/-- What device c still owes at each stage after its six copies across y: the receive credits of the copies not yet issued. -/
abbrev O1 (c : Dev nD) : CellTallies nD τ sig Unit := tallyAt (zrCell (zp c) 3) () Nb
abbrev O2 (c : Dev nD) : CellTallies nD τ sig Unit := O1 c + tallyAt (zrCell (zp c) 2) () Nb
abbrev O3 (c : Dev nD) : CellTallies nD τ sig Unit := O2 c + tallyAt (xrCell (xp c) 5) () Nb
abbrev O4 (c : Dev nD) : CellTallies nD τ sig Unit := O3 c + tallyAt (xrCell (xp c) 4) () Nb
abbrev O5 (c : Dev nD) : CellTallies nD τ sig Unit := O4 c + tallyAt (xrCell (xp c) 3) () Nb
abbrev O6 (c : Dev nD) : CellTallies nD τ sig Unit := O5 c + tallyAt (xrCell (xp c) 2) () Nb
abbrev O7 (c : Dev nD) : CellTallies nD τ sig Unit := O6 c + tallyAt (zrCell (zp c) 1) () Nb
abbrev O8 (c : Dev nD) : CellTallies nD τ sig Unit := O7 c + tallyAt (xrCell (xp c) 1) () Nb
abbrev O9 (c : Dev nD) : CellTallies nD τ sig Unit := O8 c + tallyAt (zrCell (zp c) 0) () Nb
abbrev O10 (c : Dev nD) : CellTallies nD τ sig Unit := O9 c + tallyAt (xrCell (xp c) 0) () Nb

section Mem
variable (SND : Dev nD → (cc0_scratch1 : Ref sig .tc).ty.Contents (Elt F)) (BLK : Dev nD → (cc0_scratch4 : Ref sig .tc).ty.Contents (Elt F))
theorem mem_sx (c : Dev nD) : c ∈ (Rd (F := F) SND BLK).duties (barCell (xp c)) 0 := by rw [duties_bar, xp_xp]; exact Finset.mem_insert_self _ _
theorem mem_sy (c : Dev nD) : c ∈ (Rd (F := F) SND BLK).duties (barCell (yp c)) 0 := by
  rw [duties_bar, yp_yp]; exact Finset.mem_insert_of_mem (Finset.mem_insert_self _ _)
theorem mem_sz (c : Dev nD) : c ∈ (Rd (F := F) SND BLK).duties (barCell (zp c)) 0 := by
  rw [duties_bar, zp_zp]; exact Finset.mem_insert_of_mem (Finset.mem_insert_of_mem (Finset.mem_singleton_self _))
theorem mem_sx' (c : Dev nD) : c ∈ ({xp (xp c), yp (xp c), zp (xp c)} : Finset D3) := by rw [xp_xp]; exact Finset.mem_insert_self _ _
theorem mem_sy' (c : Dev nD) : c ∈ ({xp (yp c), yp (yp c), zp (yp c)} : Finset D3) := by
  rw [yp_yp]; exact Finset.mem_insert_of_mem (Finset.mem_insert_self _ _)
theorem mem_sz' (c : Dev nD) : c ∈ ({xp (zp c), yp (zp c), zp (zp c)} : Finset D3) := by
  rw [zp_zp]; exact Finset.mem_insert_of_mem (Finset.mem_insert_of_mem (Finset.mem_singleton_self _))
end Mem

/-- Nothing owed, under a name the executor's own test for an empty tally does not see through: the waits after the last
    payment are taken by hand like the others. -/
@[irreducible] def Onil : CellTallies nD τ sig Unit := 0
theorem Onil_eq : (Onil : CellTallies nD τ sig Unit) = 0 := by unfold Onil; rfl
theorem above_nil (n : ℕ) : Above n Onil := by rw [Onil_eq]; exact above_zero n

/-- What is owed restated along an equation of tallies. -/
theorem owes_congr {t : Thread nD τ} {O O' : CellTallies nD τ sig Unit} (h : O = O') (W : Waits sig Unit) :
    (owes t O W : sProp 𝕄) ⊢ owes t O' W := by subst h; exact BI.Entails.refl _

/-- The reduced chunks as the one family the block buffer's canonical contents are built from. -/
abbrev redBv (m : (ℓ : Loc nD τ sig) → Buf (Elt F) ℓ) : Dev nD → Fin 6 → (S1x256x128.Idx → Elt F .bf16) :=
  fun d j => redB (SNDv m) (xstg m d) (dystg m d) d j

section Body
variable (m : (ℓ : Loc nD τ sig) → Buf (Elt F) ℓ)

attribute [local sl_rounds] duties_bar duties_ys duties_yr duties_xs duties_xr duties_zs duties_zr amount_bar amount_ys amount_yr amount_xs amount_xr amount_zs amount_zr
  expect_bar expect_ys expect_yr expect_xs expect_xr expect_zs expect_zr payload_bar_wx payload_bar_wy payload_bar_wz payload_bar_sx payload_bar_sy payload_bar_sz
  PX PY PZ some_ someQ holds xp_ne_yp xp_ne_zp yp_ne_zp yp_ne_xp zp_ne_xp zp_ne_yp mem_sx mem_sy mem_sz mem_sx' mem_sy' mem_sz'

set_option maxHeartbeats 16000000 in
set_option maxRecDepth 100000 in
/-- The body of device c, from its ghost state, credit and buffers to the result buffer at OUTv m c: the three entry
    signals hand the neighbours this device's landing slots; the wait brings theirs; each of the sixteen copies is
    sent at the canonical contents its source agrees with on the slot, and each wait brings a slot back. -/
theorem sound_body (K : GSem nD τ sig → ℕ) (c : Dev nD) (Kt : PUnit → sProp 𝕄) :
    iprop(bodyPre (SNDv m) (BLKv m) (OUTv m) m K c ∗ (bodyPost (SNDv m) (BLKv m) (OUTv m) m c -∗ Kt ⟨⟩))
      ⊢ wp frame (wpE (defs₀ (F := F)) 𝒱₀ (c : Thread nD τ) none) Set.univ
          (cc0_body (Memref.whole cc0_stg0_0) (Memref.isWhole_whole _) (Memref.whole cc0_stg1_0) (Memref.isWhole_whole _) (Memref.whole cc0_stg2_0) (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) (Memref.whole cc0_scratch4) (Memref.isWhole_whole _) cc0_scratch5 cc0_scratch6 cc0_scratch7 cc0_scratch8 cc0_scratch9 cc0_scratch10) Kt := by
  unfold bodyPre ghost marks positions payToks credits scratch
  iintro ⟨⟨⟨⟨Hinvs, ⟨#Hrbx, #Hrby, #Hrbz, #Hrys0, #Hrys1, #Hrys2, #Hrys3, #Hrys4, #Hrys5, #Hryr0, #Hryr1, #Hryr2, #Hryr3, #Hryr4, #Hryr5, #Hrxs0, #Hrxs1, #Hrxs2, #Hrxs3, #Hrxs4, #Hrxs5, #Hrxr0, #Hrxr1, #Hrxr2, #Hrxr3, #Hrxr4, #Hrxr5, #Hrzs0, #Hrzs1, #Hrzs2, #Hrzs3, #Hrzr0, #Hrzr1, #Hrzr2, #Hrzr3⟩,
      ⟨Hatb, Hatys0, Hatys1, Hatys2, Hatys3, Hatys4, Hatys5, Hatyr0, Hatyr1, Hatyr2, Hatyr3, Hatyr4, Hatyr5, Hatxs0, Hatxs1, Hatxs2, Hatxs3, Hatxs4, Hatxs5, Hatxr0, Hatxr1, Hatxr2, Hatxr3, Hatxr4, Hatxr5, Hatzs0, Hatzs1, Hatzs2, Hatzs3, Hatzr0, Hatzr1, Hatzr2, Hatzr3⟩,
      Htbx, Htby, Htbz, Htys0, Htys1, Htys2, Htys3, Htys4, Htys5, Htyr0, Htyr1, Htyr2, Htyr3, Htyr4, Htyr5, Htxs0, Htxs1, Htxs2, Htxs3, Htxs4, Htxs5, Htxr0, Htxr1, Htxr2, Htxr3, Htxr4, Htxr5, Htzs0, Htzs1, Htzs2, Htzs3, Htzr0, Htzr1, Htzr2, Htzr3⟩,
      ⟨Hcb, Hcyr0, Hcyr1, Hcyr2, Hcyr3, Hcyr4, Hcyr5, Hcxr0, Hcxr1, Hcxr2, Hcxr3, Hcxr4, Hcxr5, Hczr0, Hczr1, Hczr2, Hczr3⟩, #Hlev, ⟨%f0, Hs0⟩, ⟨%f1, Hs1⟩, ⟨%f2, Hs2⟩, ⟨%f3, Hs3⟩, ⟨%f4, Hs4⟩⟩,
    Ho, ⟨%d0, %g0, %hg0, Hx⟩, ⟨%d1, %g1, %hg1, Hdy⟩, ⟨%d2, %g2, %hg2, Hout⟩⟩, Hk⟩
  unfold invs
  icases Hinvs with ⟨#HIb, #HIbx, #HIby, #HIbz, #HIys0, #HIys1, #HIys2, #HIys3, #HIys4, #HIys5, #HIyr0, #HIyr1, #HIyr2, #HIyr3, #HIyr4, #HIyr5, #HIyrp0, #HIyrp1, #HIyrp2, #HIyrp3, #HIyrp4, #HIyrp5, #HIxs0, #HIxs1, #HIxs2, #HIxs3, #HIxs4, #HIxs5, #HIxr0, #HIxr1, #HIxr2, #HIxr3, #HIxr4, #HIxr5, #HIxrp0, #HIxrp1, #HIxrp2, #HIxrp3, #HIxrp4, #HIxrp5, #HIzs0, #HIzs1, #HIzs2, #HIzs3, #HIzr0, #HIzr1, #HIzr2, #HIzr3, #HIzrp0, #HIzrp1, #HIzrp2, #HIzrp3⟩
  -- the staged argument blocks, what is owed
  have hx : g0 = xstg m c := by rw [hg0]; unfold Dat.before; rw [if_pos (fetch0_0 t₀)]; rfl
  have hdy : g1 = dystg m c := by rw [hg1]; unfold Dat.before; rw [if_pos (fetch0_1 t₀)]; rfl
  subst hx hdy
  unfold Dat.owesAt Pipeline.owesWithin
  icases Ho with ⟨%W, %hW, HO⟩
  rw [show (dats (SNDv m) (BLKv m) (OUTv m) m 0 c).owed t₀.castSucc = O₀ c from rfl]
  unfold O₀
  -- the buffers through their views; the three exchanged buffers slot by slot
  ihave Hx := (Entails.of_eq (show ((((c : Thread nD τ).loc cc0_stg0_0) ↦{fullShare} xstg m c : sProp 𝕄)) = (View.loc (c : Thread nD τ) M0.view ↦{fullShare} xstg m c) from rfl)) $$ Hx
  ihave Hdy := (Entails.of_eq (show ((((c : Thread nD τ).loc cc0_stg1_0) ↦{fullShare} dystg m c : sProp 𝕄)) = (View.loc (c : Thread nD τ) M1.view ↦{fullShare} dystg m c) from rfl)) $$ Hdy
  ihave Hout := (Entails.of_eq (show ((((c : Thread nD τ).loc cc0_stg2_0) ↦{fullShare} g2 : sProp 𝕄)) = (View.loc (c : Thread nD τ) M2.view ↦{fullShare} g2) from rfl)) $$ Hout
  ihave Hs0 := (Entails.of_eq (show ((((c : Thread nD τ).loc cc0_scratch0) ↦{fullShare} f0 : sProp 𝕄)) = (View.loc (c : Thread nD τ) Mbf.view ↦{fullShare} f0) from rfl)) $$ Hs0
  ihave Hs3 := (Entails.of_eq (show ((((c : Thread nD τ).loc cc0_scratch3) ↦{fullShare} f3 : sProp 𝕄)) = (View.loc (c : Thread nD τ) Mp.view ↦{fullShare} f3) from rfl)) $$ Hs3
  ihave Hsn := (split6_snd c f1).1 $$ Hs1
  ihave Hrc := (split6_rcv c f2).1 $$ Hs2
  ihave Hbl := (splitBlk c f4).1 $$ Hs4
  unfold holds
  icases Hsn with ⟨Hsnd0, Hsnd1, Hsnd2, Hsnd3, Hsnd4, Hsnd5⟩
  icases Hrc with ⟨Hrcv0, Hrcv1, Hrcv2, Hrcv3, Hrcv4, Hrcv5⟩
  icases Hbl with ⟨HownA0, HownA1, HownB0, HownB1, HownB2, HownB3, HxinA0, HxinA1, HxinB0, HxinB1, HxinB2, HxinB3, HzinA0, HzinA1, HzinB0, HzinB1⟩
  irevert HownA0 HownA1 HownB0 HownB1 HownB2 HownB3
  iintro HownA0 HownA1 HownB0 HownB1 HownB2 HownB3
  sl_unfold [cc0_body]
  -- the three entry signals, each handing a neighbour this device's landing slots
  sl_exec_parts
  -- the wait for all three neighbours' units: their landing slots come with it
  iapply (Rounds.wp_wait_rest_token 𝒱₀ ER (Rd (SNDv m) (BLKv m)) (c : Thread nD τ) none (κ := K (barCell c))
      (wpE_semWait_eq 𝒱₀ (c : Thread nD τ) none Set.univ) (Set.mem_univ _) () (R := 0) (m := 0) (T := ∅)
      (by rw [expect_bar]; decide)) $$ [Hcb HO Hatb]
  · isplitr; · iexact HIb
    isplitl [Hcb]; · iexact Hcb
    isplitl [HO]; · iexact HO
    isplitr; · iapply (mayWait_above c _ _ 1 (lv_bar c) (by above_tac)); iexact Hlev
    iexact Hatb
  iintro ⟨HO, Hatb, -, Hpay⟩
  ihave Hp := (Entails.of_eq (rest_bar (SNDv m) (BLKv m) c)) $$ Hpay
  unfold PX PY PZ some_
  icases Hp with ⟨⟨⟨%gxA0, HpxA0⟩, ⟨%gxA1, HpxA1⟩, ⟨%gxB0, HpxB0⟩, ⟨%gxB1, HpxB1⟩, ⟨%gxB2, HpxB2⟩, ⟨%gxB3, HpxB3⟩, #Hrxrp0, #Hrxrp1, #Hrxrp2, #Hrxrp3, #Hrxrp4, #Hrxrp5⟩,
    ⟨⟨%gy0, Hq0⟩, ⟨%gy1, Hq1⟩, ⟨%gy2, Hq2⟩, ⟨%gy3, Hq3⟩, ⟨%gy4, Hq4⟩, ⟨%gy5, Hq5⟩, #Hryrp0, #Hryrp1, #Hryrp2, #Hryrp3, #Hryrp4, #Hryrp5⟩,
    ⟨%gzA0, HpzA0⟩, ⟨%gzA1, HpzA1⟩, ⟨%gzB0, HpzB0⟩, ⟨%gzB1, HpzB1⟩, #Hrzrp0, #Hrzrp1, #Hrzrp2, #Hrzrp3⟩
  sl_exec_parts
  -- copy 0 across y: the stored slot restated at the canonical contents, then sent
  have hw : sound_body.sl.Hsnd0_w1 m c f1 = (sndM.access (Rect.unit (s := S6x256x128) ![0, 0, 0] S1x256x128.size inb_S6x256x128_S1x256x128_0_0_0)).write (Elt F) f1 (sndVec (xstg m c) (dystg m c) c 0) Finset.univ := rfl
  have e := store6_snd c 0 fullShare ![0, 0, 0] rfl inb_S6x256x128_S1x256x128_0_0_0 f1 (SNDv m c) (sndVec (xstg m c) (dystg m c) c 0) (fun r k => rfl)
  rw [← hw] at e
  ihave Hsnd0 := (Entails.of_eq e) $$ Hsnd0
  clear hw e
  unfold holds
  iapply (wp_ysend' (SNDv m) (BLKv m) K c _ (dev4_eq c) 0 (SNDv m c) gy0
      (land6 (yp c) 0 fullShare gy0 (SNDv m c) (SNDv m c) (fun r k => rfl)) _ _) $$ [Hsnd0 Hq0 HO Htys0 Htyr0]
  · iframe # ∗
  iintro ⟨Hcys0, HO⟩
  sl_exec_parts
  -- copy 1 across y: the stored slot restated at the canonical contents, then sent
  have hw : sound_body.sl.Hsnd1_w1 m c f1 = (sndM.access (Rect.unit (s := S6x256x128) ![1, 0, 0] S1x256x128.size inb_S6x256x128_S1x256x128_1_0_0)).write (Elt F) f1 (sndVec (xstg m c) (dystg m c) c 1) Finset.univ := rfl
  have e := store6_snd c 1 fullShare ![1, 0, 0] rfl inb_S6x256x128_S1x256x128_1_0_0 f1 (SNDv m c) (sndVec (xstg m c) (dystg m c) c 1) (fun r k => rfl)
  rw [← hw] at e
  ihave Hsnd1 := (Entails.of_eq e) $$ Hsnd1
  clear hw e
  unfold holds
  iapply (wp_ysend' (SNDv m) (BLKv m) K c _ (dev5_eq c) 1 (SNDv m c) gy1
      (land6 (yp c) 1 fullShare gy1 (SNDv m c) (SNDv m c) (fun r k => rfl)) _ _) $$ [Hsnd1 Hq1 HO Htys1 Htyr1]
  · iframe # ∗
  iintro ⟨Hcys1, HO⟩
  sl_exec_parts
  -- copy 2 across y: the stored slot restated at the canonical contents, then sent
  have hw : sound_body.sl.Hsnd2_w1 m c f1 = (sndM.access (Rect.unit (s := S6x256x128) ![2, 0, 0] S1x256x128.size inb_S6x256x128_S1x256x128_2_0_0)).write (Elt F) f1 (sndVec (xstg m c) (dystg m c) c 2) Finset.univ := rfl
  have e := store6_snd c 2 fullShare ![2, 0, 0] rfl inb_S6x256x128_S1x256x128_2_0_0 f1 (SNDv m c) (sndVec (xstg m c) (dystg m c) c 2) (fun r k => rfl)
  rw [← hw] at e
  ihave Hsnd2 := (Entails.of_eq e) $$ Hsnd2
  clear hw e
  unfold holds
  iapply (wp_ysend' (SNDv m) (BLKv m) K c _ (dev6_eq c) 2 (SNDv m c) gy2
      (land6 (yp c) 2 fullShare gy2 (SNDv m c) (SNDv m c) (fun r k => rfl)) _ _) $$ [Hsnd2 Hq2 HO Htys2 Htyr2]
  · iframe # ∗
  iintro ⟨Hcys2, HO⟩
  sl_exec_parts
  -- copy 3 across y: the stored slot restated at the canonical contents, then sent
  have hw : sound_body.sl.Hsnd3_w1 m c f1 = (sndM.access (Rect.unit (s := S6x256x128) ![3, 0, 0] S1x256x128.size inb_S6x256x128_S1x256x128_3_0_0)).write (Elt F) f1 (sndVec (xstg m c) (dystg m c) c 3) Finset.univ := rfl
  have e := store6_snd c 3 fullShare ![3, 0, 0] rfl inb_S6x256x128_S1x256x128_3_0_0 f1 (SNDv m c) (sndVec (xstg m c) (dystg m c) c 3) (fun r k => rfl)
  rw [← hw] at e
  ihave Hsnd3 := (Entails.of_eq e) $$ Hsnd3
  clear hw e
  unfold holds
  iapply (wp_ysend' (SNDv m) (BLKv m) K c _ (dev7_eq c) 3 (SNDv m c) gy3
      (land6 (yp c) 3 fullShare gy3 (SNDv m c) (SNDv m c) (fun r k => rfl)) _ _) $$ [Hsnd3 Hq3 HO Htys3 Htyr3]
  · iframe # ∗
  iintro ⟨Hcys3, HO⟩
  sl_exec_parts
  -- copy 4 across y: the stored slot restated at the canonical contents, then sent
  have hw : sound_body.sl.Hsnd4_w1 m c f1 = (sndM.access (Rect.unit (s := S6x256x128) ![4, 0, 0] S1x256x128.size inb_S6x256x128_S1x256x128_4_0_0)).write (Elt F) f1 (sndVec (xstg m c) (dystg m c) c 4) Finset.univ := rfl
  have e := store6_snd c 4 fullShare ![4, 0, 0] rfl inb_S6x256x128_S1x256x128_4_0_0 f1 (SNDv m c) (sndVec (xstg m c) (dystg m c) c 4) (fun r k => rfl)
  rw [← hw] at e
  ihave Hsnd4 := (Entails.of_eq e) $$ Hsnd4
  clear hw e
  unfold holds
  iapply (wp_ysend' (SNDv m) (BLKv m) K c _ (dev8_eq c) 4 (SNDv m c) gy4
      (land6 (yp c) 4 fullShare gy4 (SNDv m c) (SNDv m c) (fun r k => rfl)) _ _) $$ [Hsnd4 Hq4 HO Htys4 Htyr4]
  · iframe # ∗
  iintro ⟨Hcys4, HO⟩
  sl_exec_parts
  -- copy 5 across y: the stored slot restated at the canonical contents, then sent
  have hw : sound_body.sl.Hsnd5_w1 m c f1 = (sndM.access (Rect.unit (s := S6x256x128) ![5, 0, 0] S1x256x128.size inb_S6x256x128_S1x256x128_5_0_0)).write (Elt F) f1 (sndVec (xstg m c) (dystg m c) c 5) Finset.univ := rfl
  have e := store6_snd c 5 fullShare ![5, 0, 0] rfl inb_S6x256x128_S1x256x128_5_0_0 f1 (SNDv m c) (sndVec (xstg m c) (dystg m c) c 5) (fun r k => rfl)
  rw [← hw] at e
  ihave Hsnd5 := (Entails.of_eq e) $$ Hsnd5
  clear hw e
  unfold holds
  iapply (wp_ysend' (SNDv m) (BLKv m) K c _ (dev9_eq c) 5 (SNDv m c) gy5
      (land6 (yp c) 5 fullShare gy5 (SNDv m c) (SNDv m c) (fun r k => rfl)) _ _) $$ [Hsnd5 Hq5 HO Htys5 Htyr5]
  · iframe # ∗
  iintro ⟨Hcys5, HO⟩
  sl_exec_parts
  -- chunk 0: its y copy's source slot comes back, the neighbour's partial product arrives
  iapply (wp_dwait (SNDv m) (BLKv m) K c (ysS 0) Ny 0 (duties_ys (SNDv m) (BLKv m) c 0) (amount_ys (SNDv m) (BLKv m) c 0 0) (lv_ys c 0) (O10 c) (by above_tac) _
      (wpE_waitDma2_eq 𝒱₀ (c : Thread nD τ) none Set.univ)) $$ [Hcys0 HO Hatys0]
  · iframe # ∗
  iintro ⟨HO, Hatys0, Hpay⟩
  ihave Hsnd0 := (Entails.of_eq (payload_ys (SNDv m) (BLKv m) c 0)) $$ Hpay
  sl_exec_parts
  iapply (wp_dwait (SNDv m) (BLKv m) K c (yrS 0) Ny 2 (duties_yr (SNDv m) (BLKv m) c 0) (amount_yr (SNDv m) (BLKv m) c 0 0) (lv_yr c 0) (O10 c) (by above_tac) _
      (wpE_waitDma2_eq 𝒱₀ (c : Thread nD τ) none Set.univ)) $$ [Hcyr0 HO Hatyr0]
  · iframe # ∗
  iintro ⟨HO, Hatyr0, Hpay⟩
  ihave Hrcv0 := (Entails.of_eq (payload_yr (SNDv m) (BLKv m) c 0)) $$ Hpay
  unfold holds
  sl_exec_parts
  -- the reduced chunk, stored into its slot, restated at the block buffer's canonical contents; one half of the slot goes
  -- with the copy across x, the other with the copy across z
  have hw : sound_body.sl.HownA0_w1 m c f4 = (blkM.access (Rect.unit (s := S16x256x128) (k0_off6 c 0#32) S1x256x128.size (k0_off6_inb c 0))).write (Elt F) f4 (redB (SNDv m) (xstg m c) (dystg m c) c 0) Finset.univ := rfl
  have e := storeN c _ _ fullShare (k0_off6 c 0#32) (k0_off6_eq c 0) (k0_off6_inb c 0) f4 (BLKv m c) (redB (SNDv m) (xstg m c) (dystg m c) c 0) (fun r k => blkOf_ownA (redBv m) c 0 r k)
  rw [← hw] at e
  ihave HownA0 := (Entails.of_eq e) $$ HownA0
  clear hw e
  ihave Hh := (halves c (ownA c 0) _).1 $$ HownA0
  unfold holds
  icases Hh with ⟨HownA0L, HownA0R⟩
  iapply (wp_xsendA' (SNDv m) (BLKv m) K c _ (dev10_eq c) 0 0 rfl _ _ (k0_off8_inb c 0) (k0_off7_inb c 0) (k0_off8_eq c 0) (k0_off7_eq c 0) (BLKv m c) gxA0
      (landN (xp c) _ _ _ _ fullShare gxA0 (BLKv m c) (BLKv m (xp c)) (fun r k => (blkOf_land_xinA (redBv m) c 0 r k).trans (blkOf_ownA (redBv m) c 0 r k).symm)) (O9 c) _) $$ [HownA0L HpxA0 HO Htxs0 Htxr0]
  · iframe # ∗
  iintro ⟨Hcxs0, HO⟩
  sl_exec_parts
  iapply (wp_zsendA' (SNDv m) (BLKv m) K c _ (dev11_eq c) 0 0 rfl _ _ (k0_off8_inb c 0) (k0_off8_inb c 0) (k0_off8_eq c 0) (k0_off8_eq c 0) (BLKv m c) gzA0
      (landN (zp c) _ _ _ _ fullShare gzA0 (BLKv m c) (BLKv m (zp c)) (fun r k => (blkOf_land_zinA (redBv m) c 0 r k).trans (blkOf_ownA (redBv m) c 0 r k).symm)) (O8 c) _) $$ [HownA0R HpzA0 HO Htzs0 Htzr0]
  · iframe # ∗
  iintro ⟨Hczs0, HO⟩
  sl_exec_parts
  -- chunk 1: its y copy's source slot comes back, the neighbour's partial product arrives
  iapply (wp_dwait (SNDv m) (BLKv m) K c (ysS 1) Ny 0 (duties_ys (SNDv m) (BLKv m) c 1) (amount_ys (SNDv m) (BLKv m) c 1 0) (lv_ys c 1) (O8 c) (by above_tac) _
      (wpE_waitDma2_eq 𝒱₀ (c : Thread nD τ) none Set.univ)) $$ [Hcys1 HO Hatys1]
  · iframe # ∗
  iintro ⟨HO, Hatys1, Hpay⟩
  ihave Hsnd1 := (Entails.of_eq (payload_ys (SNDv m) (BLKv m) c 1)) $$ Hpay
  sl_exec_parts
  iapply (wp_dwait (SNDv m) (BLKv m) K c (yrS 1) Ny 2 (duties_yr (SNDv m) (BLKv m) c 1) (amount_yr (SNDv m) (BLKv m) c 1 0) (lv_yr c 1) (O8 c) (by above_tac) _
      (wpE_waitDma2_eq 𝒱₀ (c : Thread nD τ) none Set.univ)) $$ [Hcyr1 HO Hatyr1]
  · iframe # ∗
  iintro ⟨HO, Hatyr1, Hpay⟩
  ihave Hrcv1 := (Entails.of_eq (payload_yr (SNDv m) (BLKv m) c 1)) $$ Hpay
  unfold holds
  sl_exec_parts
  -- the reduced chunk, stored into its slot, restated at the block buffer's canonical contents; one half of the slot goes
  -- with the copy across x, the other with the copy across z
  have hw : sound_body.sl.HownA1_w1 m c f4 = (blkM.access (Rect.unit (s := S16x256x128) (k0_off6 c 1#32) S1x256x128.size (k0_off6_inb c 1))).write (Elt F) f4 (redB (SNDv m) (xstg m c) (dystg m c) c 1) Finset.univ := rfl
  have e := storeN c _ _ fullShare (k0_off6 c 1#32) (k0_off6_eq c 1) (k0_off6_inb c 1) f4 (BLKv m c) (redB (SNDv m) (xstg m c) (dystg m c) c 1) (fun r k => blkOf_ownA (redBv m) c 1 r k)
  rw [← hw] at e
  ihave HownA1 := (Entails.of_eq e) $$ HownA1
  clear hw e
  ihave Hh := (halves c (ownA c 1) _).1 $$ HownA1
  unfold holds
  icases Hh with ⟨HownA1L, HownA1R⟩
  iapply (wp_xsendA' (SNDv m) (BLKv m) K c _ (dev12_eq c) 1 1 rfl _ _ (k0_off8_inb c 1) (k0_off7_inb c 1) (k0_off8_eq c 1) (k0_off7_eq c 1) (BLKv m c) gxA1
      (landN (xp c) _ _ _ _ fullShare gxA1 (BLKv m c) (BLKv m (xp c)) (fun r k => (blkOf_land_xinA (redBv m) c 1 r k).trans (blkOf_ownA (redBv m) c 1 r k).symm)) (O7 c) _) $$ [HownA1L HpxA1 HO Htxs1 Htxr1]
  · iframe # ∗
  iintro ⟨Hcxs1, HO⟩
  sl_exec_parts
  iapply (wp_zsendA' (SNDv m) (BLKv m) K c _ (dev13_eq c) 1 1 rfl _ _ (k0_off8_inb c 1) (k0_off8_inb c 1) (k0_off8_eq c 1) (k0_off8_eq c 1) (BLKv m c) gzA1
      (landN (zp c) _ _ _ _ fullShare gzA1 (BLKv m c) (BLKv m (zp c)) (fun r k => (blkOf_land_zinA (redBv m) c 1 r k).trans (blkOf_ownA (redBv m) c 1 r k).symm)) (O6 c) _) $$ [HownA1R HpzA1 HO Htzs1 Htzr1]
  · iframe # ∗
  iintro ⟨Hczs1, HO⟩
  sl_exec_parts
  -- chunk 2: its y copy's source slot comes back, the neighbour's partial product arrives
  iapply (wp_dwait (SNDv m) (BLKv m) K c (ysS 2) Ny 0 (duties_ys (SNDv m) (BLKv m) c 2) (amount_ys (SNDv m) (BLKv m) c 2 0) (lv_ys c 2) (O6 c) (by above_tac) _
      (wpE_waitDma2_eq 𝒱₀ (c : Thread nD τ) none Set.univ)) $$ [Hcys2 HO Hatys2]
  · iframe # ∗
  iintro ⟨HO, Hatys2, Hpay⟩
  ihave Hsnd2 := (Entails.of_eq (payload_ys (SNDv m) (BLKv m) c 2)) $$ Hpay
  sl_exec_parts
  iapply (wp_dwait (SNDv m) (BLKv m) K c (yrS 2) Ny 2 (duties_yr (SNDv m) (BLKv m) c 2) (amount_yr (SNDv m) (BLKv m) c 2 0) (lv_yr c 2) (O6 c) (by above_tac) _
      (wpE_waitDma2_eq 𝒱₀ (c : Thread nD τ) none Set.univ)) $$ [Hcyr2 HO Hatyr2]
  · iframe # ∗
  iintro ⟨HO, Hatyr2, Hpay⟩
  ihave Hrcv2 := (Entails.of_eq (payload_yr (SNDv m) (BLKv m) c 2)) $$ Hpay
  unfold holds
  sl_exec_parts
  have hw : sound_body.sl.HownB0_w1 m c f4 = (blkM.access (Rect.unit (s := S16x256x128) ![4, 0, 0] S1x256x128.size inb_S16x256x128_S1x256x128_4_0_0)).write (Elt F) f4 (redB (SNDv m) (xstg m c) (dystg m c) c 2) Finset.univ := rfl
  have e := storeN c _ _ fullShare ![4, 0, 0] rfl inb_S16x256x128_S1x256x128_4_0_0 f4 (BLKv m c) (redB (SNDv m) (xstg m c) (dystg m c) c 2) (fun r k => blkOf_ownB (redBv m) c 0 r k)
  rw [← hw] at e
  ihave HownB0 := (Entails.of_eq e) $$ HownB0
  clear hw e
  unfold holds
  iapply (wp_xsendB' (SNDv m) (BLKv m) K c _ (dev14_eq c) 0 2 rfl (BLKv m c) gxB0
      (landN (xp c) _ _ _ _ fullShare gxB0 (BLKv m c) (BLKv m (xp c)) (fun r k => (blkOf_land_xinB (redBv m) c 0 r k).trans (blkOf_ownB (redBv m) c 0 r k).symm)) (O5 c) _) $$ [HownB0 HpxB0 HO Htxs2 Htxr2]
  · iframe # ∗
  iintro ⟨Hcxs2, HO⟩
  sl_exec_parts
  -- chunk 3: its y copy's source slot comes back, the neighbour's partial product arrives
  iapply (wp_dwait (SNDv m) (BLKv m) K c (ysS 3) Ny 0 (duties_ys (SNDv m) (BLKv m) c 3) (amount_ys (SNDv m) (BLKv m) c 3 0) (lv_ys c 3) (O5 c) (by above_tac) _
      (wpE_waitDma2_eq 𝒱₀ (c : Thread nD τ) none Set.univ)) $$ [Hcys3 HO Hatys3]
  · iframe # ∗
  iintro ⟨HO, Hatys3, Hpay⟩
  ihave Hsnd3 := (Entails.of_eq (payload_ys (SNDv m) (BLKv m) c 3)) $$ Hpay
  sl_exec_parts
  iapply (wp_dwait (SNDv m) (BLKv m) K c (yrS 3) Ny 2 (duties_yr (SNDv m) (BLKv m) c 3) (amount_yr (SNDv m) (BLKv m) c 3 0) (lv_yr c 3) (O5 c) (by above_tac) _
      (wpE_waitDma2_eq 𝒱₀ (c : Thread nD τ) none Set.univ)) $$ [Hcyr3 HO Hatyr3]
  · iframe # ∗
  iintro ⟨HO, Hatyr3, Hpay⟩
  ihave Hrcv3 := (Entails.of_eq (payload_yr (SNDv m) (BLKv m) c 3)) $$ Hpay
  unfold holds
  sl_exec_parts
  have hw : sound_body.sl.HownB1_w1 m c f4 = (blkM.access (Rect.unit (s := S16x256x128) ![5, 0, 0] S1x256x128.size inb_S16x256x128_S1x256x128_5_0_0)).write (Elt F) f4 (redB (SNDv m) (xstg m c) (dystg m c) c 3) Finset.univ := rfl
  have e := storeN c _ _ fullShare ![5, 0, 0] rfl inb_S16x256x128_S1x256x128_5_0_0 f4 (BLKv m c) (redB (SNDv m) (xstg m c) (dystg m c) c 3) (fun r k => blkOf_ownB (redBv m) c 1 r k)
  rw [← hw] at e
  ihave HownB1 := (Entails.of_eq e) $$ HownB1
  clear hw e
  unfold holds
  iapply (wp_xsendB' (SNDv m) (BLKv m) K c _ (dev15_eq c) 1 3 rfl (BLKv m c) gxB1
      (landN (xp c) _ _ _ _ fullShare gxB1 (BLKv m c) (BLKv m (xp c)) (fun r k => (blkOf_land_xinB (redBv m) c 1 r k).trans (blkOf_ownB (redBv m) c 1 r k).symm)) (O4 c) _) $$ [HownB1 HpxB1 HO Htxs3 Htxr3]
  · iframe # ∗
  iintro ⟨Hcxs3, HO⟩
  sl_exec_parts
  -- chunk 4: its y copy's source slot comes back, the neighbour's partial product arrives
  iapply (wp_dwait (SNDv m) (BLKv m) K c (ysS 4) Ny 0 (duties_ys (SNDv m) (BLKv m) c 4) (amount_ys (SNDv m) (BLKv m) c 4 0) (lv_ys c 4) (O4 c) (by above_tac) _
      (wpE_waitDma2_eq 𝒱₀ (c : Thread nD τ) none Set.univ)) $$ [Hcys4 HO Hatys4]
  · iframe # ∗
  iintro ⟨HO, Hatys4, Hpay⟩
  ihave Hsnd4 := (Entails.of_eq (payload_ys (SNDv m) (BLKv m) c 4)) $$ Hpay
  sl_exec_parts
  iapply (wp_dwait (SNDv m) (BLKv m) K c (yrS 4) Ny 2 (duties_yr (SNDv m) (BLKv m) c 4) (amount_yr (SNDv m) (BLKv m) c 4 0) (lv_yr c 4) (O4 c) (by above_tac) _
      (wpE_waitDma2_eq 𝒱₀ (c : Thread nD τ) none Set.univ)) $$ [Hcyr4 HO Hatyr4]
  · iframe # ∗
  iintro ⟨HO, Hatyr4, Hpay⟩
  ihave Hrcv4 := (Entails.of_eq (payload_yr (SNDv m) (BLKv m) c 4)) $$ Hpay
  unfold holds
  sl_exec_parts
  have hw : sound_body.sl.HownB2_w1 m c f4 = (blkM.access (Rect.unit (s := S16x256x128) ![6, 0, 0] S1x256x128.size inb_S16x256x128_S1x256x128_6_0_0)).write (Elt F) f4 (redB (SNDv m) (xstg m c) (dystg m c) c 4) Finset.univ := rfl
  have e := storeN c _ _ fullShare ![6, 0, 0] rfl inb_S16x256x128_S1x256x128_6_0_0 f4 (BLKv m c) (redB (SNDv m) (xstg m c) (dystg m c) c 4) (fun r k => blkOf_ownB (redBv m) c 2 r k)
  rw [← hw] at e
  ihave HownB2 := (Entails.of_eq e) $$ HownB2
  clear hw e
  unfold holds
  iapply (wp_xsendB' (SNDv m) (BLKv m) K c _ (dev16_eq c) 2 4 rfl (BLKv m c) gxB2
      (landN (xp c) _ _ _ _ fullShare gxB2 (BLKv m c) (BLKv m (xp c)) (fun r k => (blkOf_land_xinB (redBv m) c 2 r k).trans (blkOf_ownB (redBv m) c 2 r k).symm)) (O3 c) _) $$ [HownB2 HpxB2 HO Htxs4 Htxr4]
  · iframe # ∗
  iintro ⟨Hcxs4, HO⟩
  sl_exec_parts
  -- chunk 5: its y copy's source slot comes back, the neighbour's partial product arrives
  iapply (wp_dwait (SNDv m) (BLKv m) K c (ysS 5) Ny 0 (duties_ys (SNDv m) (BLKv m) c 5) (amount_ys (SNDv m) (BLKv m) c 5 0) (lv_ys c 5) (O3 c) (by above_tac) _
      (wpE_waitDma2_eq 𝒱₀ (c : Thread nD τ) none Set.univ)) $$ [Hcys5 HO Hatys5]
  · iframe # ∗
  iintro ⟨HO, Hatys5, Hpay⟩
  ihave Hsnd5 := (Entails.of_eq (payload_ys (SNDv m) (BLKv m) c 5)) $$ Hpay
  sl_exec_parts
  iapply (wp_dwait (SNDv m) (BLKv m) K c (yrS 5) Ny 2 (duties_yr (SNDv m) (BLKv m) c 5) (amount_yr (SNDv m) (BLKv m) c 5 0) (lv_yr c 5) (O3 c) (by above_tac) _
      (wpE_waitDma2_eq 𝒱₀ (c : Thread nD τ) none Set.univ)) $$ [Hcyr5 HO Hatyr5]
  · iframe # ∗
  iintro ⟨HO, Hatyr5, Hpay⟩
  ihave Hrcv5 := (Entails.of_eq (payload_yr (SNDv m) (BLKv m) c 5)) $$ Hpay
  unfold holds
  sl_exec_parts
  have hw : sound_body.sl.HownB3_w1 m c f4 = (blkM.access (Rect.unit (s := S16x256x128) ![7, 0, 0] S1x256x128.size inb_S16x256x128_S1x256x128_7_0_0)).write (Elt F) f4 (redB (SNDv m) (xstg m c) (dystg m c) c 5) Finset.univ := rfl
  have e := storeN c _ _ fullShare ![7, 0, 0] rfl inb_S16x256x128_S1x256x128_7_0_0 f4 (BLKv m c) (redB (SNDv m) (xstg m c) (dystg m c) c 5) (fun r k => blkOf_ownB (redBv m) c 3 r k)
  rw [← hw] at e
  ihave HownB3 := (Entails.of_eq e) $$ HownB3
  clear hw e
  unfold holds
  iapply (wp_xsendB' (SNDv m) (BLKv m) K c _ (dev17_eq c) 3 5 rfl (BLKv m c) gxB3
      (landN (xp c) _ _ _ _ fullShare gxB3 (BLKv m c) (BLKv m (xp c)) (fun r k => (blkOf_land_xinB (redBv m) c 3 r k).trans (blkOf_ownB (redBv m) c 3 r k).symm)) (O2 c) _) $$ [HownB3 HpxB3 HO Htxs5 Htxr5]
  · iframe # ∗
  iintro ⟨Hcxs5, HO⟩
  sl_exec_parts
  -- chunk 0 of the x neighbour: the sent half of the own slot comes back, the neighbour's chunk arrives and goes on across z
  iapply (wp_dwait (SNDv m) (BLKv m) K c (xsS 0) Nb 0 (duties_xs (SNDv m) (BLKv m) c 0) (amount_xs (SNDv m) (BLKv m) c 0 0) (lv_xs c 0) (O2 c) (by above_tac) _
      (wpE_waitDma2_eq 𝒱₀ (c : Thread nD τ) none Set.univ)) $$ [Hcxs0 HO Hatxs0]
  · iframe # ∗
  iintro ⟨HO, Hatxs0, Hpay⟩
  ihave HownA0L := (Entails.of_eq (show (Rd (F := F) (SNDv m) (BLKv m)).payload (xsCell c 0) 0 0 = someQ c (ownA c 0) fullShare.left from rfl)) $$ Hpay
  sl_exec_parts
  iapply (wp_dwait (SNDv m) (BLKv m) K c (xrS 0) Nb 3 (duties_xr (SNDv m) (BLKv m) c 0) (amount_xr (SNDv m) (BLKv m) c 0 0) (lv_xr c 0) (O2 c) (by above_tac) _
      (wpE_waitDma2_eq 𝒱₀ (c : Thread nD τ) none Set.univ)) $$ [Hcxr0 HO Hatxr0]
  · iframe # ∗
  iintro ⟨HO, Hatxr0, Hpay⟩
  ihave HxinA0 := (Entails.of_eq (show (Rd (F := F) (SNDv m) (BLKv m)).payload (xrCell c 0) 0 0 = holds c (xinA c 0) fullShare (BLKv m c) from rfl)) $$ Hpay
  sl_exec_parts
  ihave Hh := (halves c (xinA c 0) _).1 $$ HxinA0
  unfold holds
  icases Hh with ⟨HxinA0L, HxinA0R⟩
  iapply (wp_zsendB' (SNDv m) (BLKv m) K c _ (dev18_eq c) 0 2 rfl _ _ (k0_off7_inb c 0) (k0_off7_inb c 0) (k0_off7_eq c 0) (k0_off7_eq c 0) (BLKv m c) gzB0
      (landN (zp c) _ _ _ _ fullShare gzB0 (BLKv m c) (BLKv m (zp c)) (fun r k => (blkOf_land_zinB (redBv m) c 0 r k).trans (blkOf_xinA (redBv m) c 0 r k).symm)) (O1 c) _) $$ [HxinA0L HpzB0 HO Htzs2 Htzr2]
  · iframe # ∗
  iintro ⟨Hczs2, HO⟩
  sl_exec_parts
  -- chunk 1 of the x neighbour: the sent half of the own slot comes back, the neighbour's chunk arrives and goes on across z
  iapply (wp_dwait (SNDv m) (BLKv m) K c (xsS 1) Nb 0 (duties_xs (SNDv m) (BLKv m) c 1) (amount_xs (SNDv m) (BLKv m) c 1 0) (lv_xs c 1) (O1 c) (by above_tac) _
      (wpE_waitDma2_eq 𝒱₀ (c : Thread nD τ) none Set.univ)) $$ [Hcxs1 HO Hatxs1]
  · iframe # ∗
  iintro ⟨HO, Hatxs1, Hpay⟩
  ihave HownA1L := (Entails.of_eq (show (Rd (F := F) (SNDv m) (BLKv m)).payload (xsCell c 1) 0 0 = someQ c (ownA c 1) fullShare.left from rfl)) $$ Hpay
  sl_exec_parts
  iapply (wp_dwait (SNDv m) (BLKv m) K c (xrS 1) Nb 3 (duties_xr (SNDv m) (BLKv m) c 1) (amount_xr (SNDv m) (BLKv m) c 1 0) (lv_xr c 1) (O1 c) (by above_tac) _
      (wpE_waitDma2_eq 𝒱₀ (c : Thread nD τ) none Set.univ)) $$ [Hcxr1 HO Hatxr1]
  · iframe # ∗
  iintro ⟨HO, Hatxr1, Hpay⟩
  ihave HxinA1 := (Entails.of_eq (show (Rd (F := F) (SNDv m) (BLKv m)).payload (xrCell c 1) 0 0 = holds c (xinA c 1) fullShare (BLKv m c) from rfl)) $$ Hpay
  sl_exec_parts
  ihave Hh := (halves c (xinA c 1) _).1 $$ HxinA1
  unfold holds
  icases Hh with ⟨HxinA1L, HxinA1R⟩
  ihave HO := (owes_congr (F := F) (t := (c : Thread nD τ)) (show O1 c = Onil + O1 c from by rw [Onil_eq, zero_add]) _) $$ HO
  iapply (wp_zsendB' (SNDv m) (BLKv m) K c _ (dev19_eq c) 1 3 rfl _ _ (k0_off7_inb c 1) (k0_off7_inb c 1) (k0_off7_eq c 1) (k0_off7_eq c 1) (BLKv m c) gzB1
      (landN (zp c) _ _ _ _ fullShare gzB1 (BLKv m c) (BLKv m (zp c)) (fun r k => (blkOf_land_zinB (redBv m) c 1 r k).trans (blkOf_xinA (redBv m) c 1 r k).symm)) Onil _) $$ [HxinA1L HpzB1 HO Htzs3 Htzr3]
  · iframe # ∗
  iintro ⟨Hczs3, HO⟩
  sl_exec_parts
  iapply (wp_dwait (SNDv m) (BLKv m) K c (xsS 2) Nb 0 (duties_xs (SNDv m) (BLKv m) c 2) (amount_xs (SNDv m) (BLKv m) c 2 0) (lv_xs c 2) Onil (above_nil _) _
      (wpE_waitDma2_eq 𝒱₀ (c : Thread nD τ) none Set.univ)) $$ [Hcxs2 HO Hatxs2]
  · iframe # ∗
  iintro ⟨HO, Hatxs2, Hpay⟩
  ihave HownB0 := (Entails.of_eq (show (Rd (F := F) (SNDv m) (BLKv m)).payload (xsCell c 2) 0 0 = some_ c (ownB 0) from rfl)) $$ Hpay
  sl_exec_parts
  iapply (wp_dwait (SNDv m) (BLKv m) K c (xrS 2) Nb 3 (duties_xr (SNDv m) (BLKv m) c 2) (amount_xr (SNDv m) (BLKv m) c 2 0) (lv_xr c 2) Onil (above_nil _) _
      (wpE_waitDma2_eq 𝒱₀ (c : Thread nD τ) none Set.univ)) $$ [Hcxr2 HO Hatxr2]
  · iframe # ∗
  iintro ⟨HO, Hatxr2, Hpay⟩
  ihave HxinB0 := (Entails.of_eq (show (Rd (F := F) (SNDv m) (BLKv m)).payload (xrCell c 2) 0 0 = holds c (xinB 0) fullShare (BLKv m c) from rfl)) $$ Hpay
  unfold holds
  sl_exec_parts
  iapply (wp_dwait (SNDv m) (BLKv m) K c (xsS 3) Nb 0 (duties_xs (SNDv m) (BLKv m) c 3) (amount_xs (SNDv m) (BLKv m) c 3 0) (lv_xs c 3) Onil (above_nil _) _
      (wpE_waitDma2_eq 𝒱₀ (c : Thread nD τ) none Set.univ)) $$ [Hcxs3 HO Hatxs3]
  · iframe # ∗
  iintro ⟨HO, Hatxs3, Hpay⟩
  ihave HownB1 := (Entails.of_eq (show (Rd (F := F) (SNDv m) (BLKv m)).payload (xsCell c 3) 0 0 = some_ c (ownB 1) from rfl)) $$ Hpay
  sl_exec_parts
  iapply (wp_dwait (SNDv m) (BLKv m) K c (xrS 3) Nb 3 (duties_xr (SNDv m) (BLKv m) c 3) (amount_xr (SNDv m) (BLKv m) c 3 0) (lv_xr c 3) Onil (above_nil _) _
      (wpE_waitDma2_eq 𝒱₀ (c : Thread nD τ) none Set.univ)) $$ [Hcxr3 HO Hatxr3]
  · iframe # ∗
  iintro ⟨HO, Hatxr3, Hpay⟩
  ihave HxinB1 := (Entails.of_eq (show (Rd (F := F) (SNDv m) (BLKv m)).payload (xrCell c 3) 0 0 = holds c (xinB 1) fullShare (BLKv m c) from rfl)) $$ Hpay
  unfold holds
  sl_exec_parts
  iapply (wp_dwait (SNDv m) (BLKv m) K c (xsS 4) Nb 0 (duties_xs (SNDv m) (BLKv m) c 4) (amount_xs (SNDv m) (BLKv m) c 4 0) (lv_xs c 4) Onil (above_nil _) _
      (wpE_waitDma2_eq 𝒱₀ (c : Thread nD τ) none Set.univ)) $$ [Hcxs4 HO Hatxs4]
  · iframe # ∗
  iintro ⟨HO, Hatxs4, Hpay⟩
  ihave HownB2 := (Entails.of_eq (show (Rd (F := F) (SNDv m) (BLKv m)).payload (xsCell c 4) 0 0 = some_ c (ownB 2) from rfl)) $$ Hpay
  sl_exec_parts
  iapply (wp_dwait (SNDv m) (BLKv m) K c (xrS 4) Nb 3 (duties_xr (SNDv m) (BLKv m) c 4) (amount_xr (SNDv m) (BLKv m) c 4 0) (lv_xr c 4) Onil (above_nil _) _
      (wpE_waitDma2_eq 𝒱₀ (c : Thread nD τ) none Set.univ)) $$ [Hcxr4 HO Hatxr4]
  · iframe # ∗
  iintro ⟨HO, Hatxr4, Hpay⟩
  ihave HxinB2 := (Entails.of_eq (show (Rd (F := F) (SNDv m) (BLKv m)).payload (xrCell c 4) 0 0 = holds c (xinB 2) fullShare (BLKv m c) from rfl)) $$ Hpay
  unfold holds
  sl_exec_parts
  iapply (wp_dwait (SNDv m) (BLKv m) K c (xsS 5) Nb 0 (duties_xs (SNDv m) (BLKv m) c 5) (amount_xs (SNDv m) (BLKv m) c 5 0) (lv_xs c 5) Onil (above_nil _) _
      (wpE_waitDma2_eq 𝒱₀ (c : Thread nD τ) none Set.univ)) $$ [Hcxs5 HO Hatxs5]
  · iframe # ∗
  iintro ⟨HO, Hatxs5, Hpay⟩
  ihave HownB3 := (Entails.of_eq (show (Rd (F := F) (SNDv m) (BLKv m)).payload (xsCell c 5) 0 0 = some_ c (ownB 3) from rfl)) $$ Hpay
  sl_exec_parts
  iapply (wp_dwait (SNDv m) (BLKv m) K c (xrS 5) Nb 3 (duties_xr (SNDv m) (BLKv m) c 5) (amount_xr (SNDv m) (BLKv m) c 5 0) (lv_xr c 5) Onil (above_nil _) _
      (wpE_waitDma2_eq 𝒱₀ (c : Thread nD τ) none Set.univ)) $$ [Hcxr5 HO Hatxr5]
  · iframe # ∗
  iintro ⟨HO, Hatxr5, Hpay⟩
  ihave HxinB3 := (Entails.of_eq (show (Rd (F := F) (SNDv m) (BLKv m)).payload (xrCell c 5) 0 0 = holds c (xinB 3) fullShare (BLKv m c) from rfl)) $$ Hpay
  unfold holds
  sl_exec_parts
  -- the four copies that came across z
  iapply (wp_dwait (SNDv m) (BLKv m) K c (zsS 0) Nb 0 (duties_zs (SNDv m) (BLKv m) c 0) (amount_zs (SNDv m) (BLKv m) c 0 0) (lv_zs c 0) Onil (above_nil _) _
      (wpE_waitDma2_eq 𝒱₀ (c : Thread nD τ) none Set.univ)) $$ [Hczs0 HO Hatzs0]
  · iframe # ∗
  iintro ⟨HO, Hatzs0, Hpay⟩
  ihave HownA0R := (Entails.of_eq (show (Rd (F := F) (SNDv m) (BLKv m)).payload (zsCell c 0) 0 0 = someQ c (ownA c 0) fullShare.right from rfl)) $$ Hpay
  sl_exec_parts
  iapply (wp_dwait (SNDv m) (BLKv m) K c (zrS 0) Nb 4 (duties_zr (SNDv m) (BLKv m) c 0) (amount_zr (SNDv m) (BLKv m) c 0 0) (lv_zr c 0) Onil (above_nil _) _
      (wpE_waitDma2_eq 𝒱₀ (c : Thread nD τ) none Set.univ)) $$ [Hczr0 HO Hatzr0]
  · iframe # ∗
  iintro ⟨HO, Hatzr0, Hpay⟩
  ihave HzinA0 := (Entails.of_eq (show (Rd (F := F) (SNDv m) (BLKv m)).payload (zrCell c 0) 0 0 = holds c (zinA c 0) fullShare (BLKv m c) from rfl)) $$ Hpay
  unfold holds
  sl_exec_parts
  iapply (wp_dwait (SNDv m) (BLKv m) K c (zsS 1) Nb 0 (duties_zs (SNDv m) (BLKv m) c 1) (amount_zs (SNDv m) (BLKv m) c 1 0) (lv_zs c 1) Onil (above_nil _) _
      (wpE_waitDma2_eq 𝒱₀ (c : Thread nD τ) none Set.univ)) $$ [Hczs1 HO Hatzs1]
  · iframe # ∗
  iintro ⟨HO, Hatzs1, Hpay⟩
  ihave HownA1R := (Entails.of_eq (show (Rd (F := F) (SNDv m) (BLKv m)).payload (zsCell c 1) 0 0 = someQ c (ownA c 1) fullShare.right from rfl)) $$ Hpay
  sl_exec_parts
  iapply (wp_dwait (SNDv m) (BLKv m) K c (zrS 1) Nb 4 (duties_zr (SNDv m) (BLKv m) c 1) (amount_zr (SNDv m) (BLKv m) c 1 0) (lv_zr c 1) Onil (above_nil _) _
      (wpE_waitDma2_eq 𝒱₀ (c : Thread nD τ) none Set.univ)) $$ [Hczr1 HO Hatzr1]
  · iframe # ∗
  iintro ⟨HO, Hatzr1, Hpay⟩
  ihave HzinA1 := (Entails.of_eq (show (Rd (F := F) (SNDv m) (BLKv m)).payload (zrCell c 1) 0 0 = holds c (zinA c 1) fullShare (BLKv m c) from rfl)) $$ Hpay
  unfold holds
  sl_exec_parts
  iapply (wp_dwait (SNDv m) (BLKv m) K c (zsS 2) Nb 0 (duties_zs (SNDv m) (BLKv m) c 2) (amount_zs (SNDv m) (BLKv m) c 2 0) (lv_zs c 2) Onil (above_nil _) _
      (wpE_waitDma2_eq 𝒱₀ (c : Thread nD τ) none Set.univ)) $$ [Hczs2 HO Hatzs2]
  · iframe # ∗
  iintro ⟨HO, Hatzs2, Hpay⟩
  ihave HxinA0L := (Entails.of_eq (show (Rd (F := F) (SNDv m) (BLKv m)).payload (zsCell c 2) 0 0 = someQ c (xinA c 0) fullShare.left from rfl)) $$ Hpay
  sl_exec_parts
  iapply (wp_dwait (SNDv m) (BLKv m) K c (zrS 2) Nb 4 (duties_zr (SNDv m) (BLKv m) c 2) (amount_zr (SNDv m) (BLKv m) c 2 0) (lv_zr c 2) Onil (above_nil _) _
      (wpE_waitDma2_eq 𝒱₀ (c : Thread nD τ) none Set.univ)) $$ [Hczr2 HO Hatzr2]
  · iframe # ∗
  iintro ⟨HO, Hatzr2, Hpay⟩
  ihave HzinB0 := (Entails.of_eq (show (Rd (F := F) (SNDv m) (BLKv m)).payload (zrCell c 2) 0 0 = holds c (zinB c 0) fullShare (BLKv m c) from rfl)) $$ Hpay
  unfold holds
  sl_exec_parts
  iapply (wp_dwait (SNDv m) (BLKv m) K c (zsS 3) Nb 0 (duties_zs (SNDv m) (BLKv m) c 3) (amount_zs (SNDv m) (BLKv m) c 3 0) (lv_zs c 3) Onil (above_nil _) _
      (wpE_waitDma2_eq 𝒱₀ (c : Thread nD τ) none Set.univ)) $$ [Hczs3 HO Hatzs3]
  · iframe # ∗
  iintro ⟨HO, Hatzs3, Hpay⟩
  ihave HxinA1L := (Entails.of_eq (show (Rd (F := F) (SNDv m) (BLKv m)).payload (zsCell c 3) 0 0 = someQ c (xinA c 1) fullShare.left from rfl)) $$ Hpay
  sl_exec_parts
  iapply (wp_dwait (SNDv m) (BLKv m) K c (zrS 3) Nb 4 (duties_zr (SNDv m) (BLKv m) c 3) (amount_zr (SNDv m) (BLKv m) c 3 0) (lv_zr c 3) Onil (above_nil _) _
      (wpE_waitDma2_eq 𝒱₀ (c : Thread nD τ) none Set.univ)) $$ [Hczr3 HO Hatzr3]
  · iframe # ∗
  iintro ⟨HO, Hatzr3, Hpay⟩
  ihave HzinB1 := (Entails.of_eq (show (Rd (F := F) (SNDv m) (BLKv m)).payload (zrCell c 3) 0 0 = holds c (zinB c 1) fullShare (BLKv m c) from rfl)) $$ Hpay
  unfold holds
  sl_exec_parts
  -- every DMA cell of the device closed: its thirty-two semaphores back at zero
  imod (close_all (SNDv m) (BLKv m) K c) $$ [Hatys0 Hatys1 Hatys2 Hatys3 Hatys4 Hatys5 Hatyr0 Hatyr1 Hatyr2 Hatyr3 Hatyr4 Hatyr5 Hatxs0 Hatxs1 Hatxs2 Hatxs3 Hatxs4 Hatxs5 Hatxr0 Hatxr1 Hatxr2 Hatxr3 Hatxr4 Hatxr5 Hatzs0 Hatzs1 Hatzs2 Hatzs3 Hatzr0 Hatzr1 Hatzr2 Hatzr3] with Hzero
  · isplitr
    · unfold invs; iframe #
    unfold positions1; iframe ∗
  -- the halves of the four twice-lent slots joined
  ihave HownA0 := (join_halves_ex c (ownA c 0)) $$ [HownA0L HownA0R]
  · isplitl [HownA0L]; · iexact HownA0L
    iexact HownA0R
  ihave HownA1 := (join_halves_ex c (ownA c 1)) $$ [HownA1L HownA1R]
  · isplitl [HownA1L]; · iexact HownA1L
    iexact HownA1R
  ihave HxinA0 := (join_halves_ex c (xinA c 0)) $$ [HxinA0L HxinA0R]
  · isplitl [HxinA0L]; · iexact HxinA0L
    unfold someQ; iexists _; iexact HxinA0R
  ihave HxinA1 := (join_halves_ex c (xinA c 1)) $$ [HxinA1L HxinA1R]
  · isplitl [HxinA1L]; · iexact HxinA1L
    unfold someQ; iexists _; iexact HxinA1R
  ihave HO := (owes_congr (F := F) (t := (c : Thread nD τ)) Onil_eq _) $$ HO
  sl_step
  iapply Hk
  unfold bodyPost Φ₁ scratch Dat.owesAt Pipeline.owesWithin
  rw [show (dats (SNDv m) (BLKv m) (OUTv m) m 0 c).owed t₀.succ = 0 from rfl]
  isplitl [Hs0 Hsnd0 Hsnd1 Hsnd2 Hsnd3 Hsnd4 Hsnd5 Hrcv0 Hrcv1 Hrcv2 Hrcv3 Hrcv4 Hrcv5 Hs3 HownA0 HownA1 HownB0 HownB1 HownB2 HownB3 HxinA0 HxinA1 HxinB0 HxinB1 HxinB2 HxinB3 HzinA0 HzinA1 HzinB0 HzinB1 Hzero]
  · isplitr [Hzero]
    · isplitl [Hs0]; · iexists _; iexact Hs0
      isplitl [Hsnd0 Hsnd1 Hsnd2 Hsnd3 Hsnd4 Hsnd5]
      · iapply (join6_snd_ex c)
        isplitl [Hsnd0]; · iexact Hsnd0
        isplitl [Hsnd1]; · iexact Hsnd1
        isplitl [Hsnd2]; · iexact Hsnd2
        isplitl [Hsnd3]; · iexact Hsnd3
        isplitl [Hsnd4]; · iexact Hsnd4
        iexact Hsnd5
      isplitl [Hrcv0 Hrcv1 Hrcv2 Hrcv3 Hrcv4 Hrcv5]
      · iapply (join6_rcv_ex c)
        unfold some_
        isplitl [Hrcv0]; · iexists _; iexact Hrcv0
        isplitl [Hrcv1]; · iexists _; iexact Hrcv1
        isplitl [Hrcv2]; · iexists _; iexact Hrcv2
        isplitl [Hrcv3]; · iexists _; iexact Hrcv3
        isplitl [Hrcv4]; · iexists _; iexact Hrcv4
        iexists _; iexact Hrcv5
      isplitl [Hs3]; · iexists _; iexact Hs3
      iapply (joinBlk_ex c)
      isplitl [HownA0]; · iexact HownA0
      isplitl [HownA1]; · iexact HownA1
      isplitl [HownB0]; · iexact HownB0
      isplitl [HownB1]; · iexact HownB1
      isplitl [HownB2]; · iexact HownB2
      isplitl [HownB3]; · iexact HownB3
      isplitl [HxinA0]; · iexact HxinA0
      isplitl [HxinA1]; · iexact HxinA1
      unfold some_
      isplitl [HxinB0]; · iexists _; iexact HxinB0
      isplitl [HxinB1]; · iexists _; iexact HxinB1
      isplitl [HxinB2]; · iexists _; iexact HxinB2
      isplitl [HxinB3]; · iexists _; iexact HxinB3
      isplitl [HzinA0]; · iexists _; iexact HzinA0
      isplitl [HzinA1]; · iexists _; iexact HzinA1
      isplitl [HzinB0]; · iexists _; iexact HzinB0
      iexists _; iexact HzinB1
    iexact Hzero
  isplitl [HO]
  · iexists _
    isplitr
    rotate_left
    · iexact HO
    · ipureintro; exact fun _ _ => Or.inl trivial
  isplitl [Hx]
  · iexists _; isplitr; · (ipureintro; rfl)
    iexact Hx
  isplitl [Hdy]
  · iexists _; isplitr; · (ipureintro; rfl)
    iexact Hdy
  iexists _; isplitr; · (ipureintro; exact out_rebase m c g2)
  iexact Hout

end Body

end Cert.KernelIdeal.Coll

end
-- ==== Proof.Bits.Steps.lean ====
import proofs.«900594_g7700000000000595_dist_rsdw_v7x_xyz2x2x2_y_m512_d512_f2048_bf16_1_alg».proof.Proof.Bits.Mesh
import proofs.«900594_g7700000000000595_dist_rsdw_v7x_xyz2x2x2_y_m512_d512_f2048_bf16_1_alg».proof.Proof.Gen.Kernel.Skeleton
import proofs.«900594_g7700000000000595_dist_rsdw_v7x_xyz2x2x2_y_m512_d512_f2048_bf16_1_alg».proof.Proof.Gen.Kernel.Frame
import proofs.«900594_g7700000000000595_dist_rsdw_v7x_xyz2x2x2_y_m512_d512_f2048_bf16_1_alg».proof.Proof.Bits.Ghost
import Idealize.ShloMosaic.Lib.Pipeline.Launch
import Idealize.ShloMosaic.Lib.Pipeline.Kit
import Idealize.ShloMosaic.Lib.Tactic

noncomputable section

namespace Cert.Kernel.Coll

open Cert.Kernel Cert.Kernel.Gen Cert.Kernel.Mesh
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

section Steps
variable (SND : Dev nD → (cc0_scratch1 : Ref sig .tc).ty.Contents (Elt F)) (BLK : Dev nD → (cc0_scratch4 : Ref sig .tc).ty.Contents (Elt F))

/-- Copy j across y: device c's send slot j into slot j of its y neighbour's receive buffer. The source comes back with
    the send cell's credit at some contents; the neighbour's receive cell is handed the slot holding what was sent,
    restated at the canonical contents the source agrees with on the slot (hfs). -/
theorem wp_ysend (K : GSem nD τ sig → ℕ) (c n : Dev nD) (hn : n = yp c) (j : Fin 6)
    {hsc : (slot6 rcvM j : Memref sig (Dev.tc n : Thread nD τ).2.kind .vmem S256x128 .bf16).view.ref.isScScratch = false}
    {hsrc : (slot6 sndM j : Memref sig .tc .vmem S256x128 .bf16).view.WordExact} {hdst : (slot6 rcvM j : Memref sig .tc .vmem S256x128 .bf16).view.WordExact}
    {hsem : DmaTarget.Typed .vmem (.dma (yrS j)) (.remote (Dev.tc n : Thread nD τ) (slot6 rcvM j : Memref sig .tc .vmem S256x128 .bf16) (.dma (ysS j)) hsc)}
    {α : Type} {Q : α → sProp 𝕄} {k : PUnit → Prog (TpuEff nD τ sig (Elt F) Λ₀ .tc) α}
    (fs : Buf (Elt F) ((slot6 sndM j).view.loc (c : Thread nD τ))) (fd : Buf (Elt F) ((slot6 rcvM j).view.loc (yp c : Thread nD τ)))
    (hfs : ∀ i ∈ (slot6 rcvM j).view.set, (slot6 rcvM j).view.write (Elt F) fd ((slot6 sndM j).view.read (Elt F) fs) Finset.univ i = SND c i)
    (O : CellTallies nD τ sig Unit) (W : Waits sig Unit) :
    iprop(cellInv ER (Rd SND BLK) (K (ysCell c j)) (ysCell c j) ∗ cellInv ER (Rd SND BLK) (K (yrCell (yp c) j)) (yrCell (yp c) j)
        ∗ ((slot6 sndM j).view.loc (c : Thread nD τ) ↦[(slot6 sndM j).view.set]{fullShare} fs)
        ∗ ((slot6 rcvM j).view.loc (yp c : Thread nD τ) ↦[(slot6 rcvM j).view.set]{fullShare} fd)
        ∗ owes (c : Thread nD τ) (O + tallyAt (yrCell (yp c) j) () Ny) W
        ∗ dutyTok ER (ysCell c j) 0 0 ∗ reached ER (ysCell c j) 0
        ∗ dutyTok ER (yrCell (yp c) j) 0 0 ∗ reached ER (yrCell (yp c) j) 0)
      ⊢ iprop(((cred (tallyAt (ysCell c j) () Ny) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (slot6 sndM j) (.remote (Dev.tc n : Thread nD τ) (slot6 rcvM j) (.dma (ysS j)) hsc) (.dma (yrS j)) hsrc hdst hsem) k) Q) := by
  subst hn
  exact Rounds.wp_send_pointsTo 𝒱₀ ER (Rd SND BLK) (c : Thread nD τ) none (κ₁ := K (ysCell c j)) (κ₂ := K (yrCell (yp c) j))
    (r₁ := 0) (r₂ := 0) (d₁ := 0) (d₂ := 0) (fd := fd)
    (by rw [duties_ys]; exact Finset.mem_singleton_self _) (by rw [duties_yr]; exact Finset.mem_singleton_self _)
    () () Ny rfl (amount_ys SND BLK c j 0) (amount_yr SND BLK (yp c) j 0) O rfl (W := W)
    (by rw [payload_ys]; iintro H; iexists fs; iexact H)
    (by rw [payload_yr, yp_yp]; exact Entails.of_eq (pointsTo_congr hfs))

/-- The three payloads the owner of a barrier cell receives with the rest of its one round, as a chain. -/
theorem rest_bar (c : Dev nD) :
    bigSep ((Rd (F := F) SND BLK).duties (barCell c) 0 \ ∅) (fun d => (Rd (F := F) SND BLK).payload (barCell c) 0 d)
      = iprop(PX (xp c) ∗ PY (yp c) ∗ PZ (zp c)) := by
  rw [Finset.sdiff_empty, duties_bar,
    bigSep_eq_bigSepL_of_eq [xp c, yp c, zp c] (by ext d; simp) (by simp [xp_ne_yp, xp_ne_zp, yp_ne_zp]),
    bigSepL_cons_cons, bigSepL_cons_cons, bigSepL_singleton, payload_bar_wx, payload_bar_wy, payload_bar_wz]
  rfl

end Steps

end Cert.Kernel.Coll

end
-- ==== Proof.Bits.Levels.lean ====
/-
  Levels of the cells, and the side condition of a wait read off the shape of what is still owed.

  A device may wait on one of its cells only while everything it still owes lies on cells of a strictly higher level.
  Barrier cells sit at level 1, the receive cells across y at 2, across x at 3, across z at 4, and the send cells at 0.
  What a device owes is always a sum of one-cell tallies, so "all of it lies above level n" is closed under sums and is
  decided cell by cell.
-/
import proofs.«900594_g7700000000000595_dist_rsdw_v7x_xyz2x2x2_y_m512_d512_f2048_bf16_1_alg».proof.Proof.Bits.Ghost

noncomputable section

namespace Cert.Kernel.Coll

open Cert.Kernel Cert.Kernel.Gen Cert.Kernel.Mesh
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The level of each cell -/

theorem lv_bar (c : Dev nD) : lv (barCell c) () = 1 := rfl

theorem lv_ys (c : Dev nD) (j : Fin 6) : lv (ysCell c j) () = 0 := by
  have hj := j.isLt
  dsimp only [lv]
  rw [if_neg (by rw [ysS_val]; omega), if_neg (by rw [ysS_val]; omega), if_neg (by rw [ysS_val]; omega)]

theorem lv_yr (c : Dev nD) (j : Fin 6) : lv (yrCell c j) () = 2 := by
  have hj := j.isLt
  dsimp only [lv]
  rw [if_pos (by rw [yrS_val]; omega)]

theorem lv_xs (c : Dev nD) (j : Fin 6) : lv (xsCell c j) () = 0 := by
  have hj := j.isLt
  dsimp only [lv]
  rw [if_neg (by rw [xsS_val]; omega), if_neg (by rw [xsS_val]; omega), if_neg (by rw [xsS_val]; omega)]

theorem lv_xr (c : Dev nD) (j : Fin 6) : lv (xrCell c j) () = 3 := by
  have hj := j.isLt
  dsimp only [lv]
  rw [if_neg (by rw [xrS_val]; omega), if_pos (by rw [xrS_val]; omega)]

theorem lv_zs (c : Dev nD) (i : Fin 4) : lv (zsCell c i) () = 0 := by
  have hi := i.isLt
  dsimp only [lv]
  rw [if_neg (by rw [zsS_val]; omega), if_neg (by rw [zsS_val]; omega), if_neg (by rw [zsS_val]; omega)]

theorem lv_zr (c : Dev nD) (i : Fin 4) : lv (zrCell c i) () = 4 := by
  have hi := i.isLt
  dsimp only [lv]
  rw [if_neg (by rw [zrS_val]; omega), if_neg (by rw [zrS_val]; omega), if_pos (by rw [zrS_val]; omega)]

/-! ## Everything owed lies above a level -/

/-- Every cell the tally O is positive at is a cell of a compute core, at a level strictly above n. -/
def Above (n : ℕ) (O : CellTallies nD τ sig Unit) : Prop :=
  ∀ (g : GSem nD τ sig) (i : Unit), 0 < O g i → i ∈ L g ∧ n < lv g i

/-- The empty tally is positive nowhere. -/
theorem above_zero (n : ℕ) : Above n 0 := by
  intro g i h
  rw [Pi.zero_apply, Finsupp.zero_apply] at h
  exact absurd h (Nat.lt_irrefl 0)

/-- A sum is positive only where a summand is. -/
theorem above_add {n : ℕ} {O₁ O₂ : CellTallies nD τ sig Unit} (h₁ : Above n O₁) (h₂ : Above n O₂) : Above n (O₁ + O₂) :=
  fun g i h => (Pipeline.add_pos_cases h).elim (h₁ g i) (h₂ g i)

/-- A one-cell tally is positive only at its cell: a compute core's cell above level n qualifies. -/
theorem above_tally (n : ℕ) (g₀ : GSem nD τ sig) (k : ℕ) (htc : g₀.1.2 = .tc) (h : n < lv g₀ ()) : Above n (tallyAt g₀ () k) := by
  intro g i hp
  obtain ⟨hg, hi⟩ := Pipeline.tallyAt_pos hp
  subst hg
  refine ⟨?_, h⟩
  unfold L
  rw [if_pos htc]
  exact Finset.mem_singleton_self _

/-- The cell kinds that carry a positive level, each with the bound it clears. -/
theorem above_bar (n : ℕ) (c : Dev nD) (k : ℕ) (h : n < 1) : Above n (tallyAt (barCell c) () k) :=
  above_tally n _ k rfl (by rw [lv_bar]; exact h)
theorem above_yr (n : ℕ) (c : Dev nD) (j : Fin 6) (k : ℕ) (h : n < 2) : Above n (tallyAt (yrCell c j) () k) :=
  above_tally n _ k rfl (by rw [lv_yr]; exact h)
theorem above_xr (n : ℕ) (c : Dev nD) (j : Fin 6) (k : ℕ) (h : n < 3) : Above n (tallyAt (xrCell c j) () k) :=
  above_tally n _ k rfl (by rw [lv_xr]; exact h)
theorem above_zr (n : ℕ) (c : Dev nD) (i : Fin 4) (k : ℕ) (h : n < 4) : Above n (tallyAt (zrCell c i) () k) :=
  above_tally n _ k rfl (by rw [lv_zr]; exact h)

/-! ## The side condition of one wait -/

/-- A device waiting on a cell of level n, while all it owes lies above n, may wait. -/
theorem mayWait_above (c : Dev nD) (s : SemLoc sig) (O : CellTallies nD τ sig Unit) (n : ℕ)
    (hs : lv ((c : Thread nD τ), s) () = n) (h : Above n O) :
    (levAts L lv : sProp 𝕄) ⊢ MayWait (c : Thread nD τ) s () O :=
  Pipeline.mayWait_of_levAts (by rw [L_tc]; exact Finset.mem_singleton_self _) (fun g i hp => by rw [hs]; exact h g i hp)

/-- Closes `Above n O` for a literal n and O a (left-nested) sum of one-cell tallies on barrier and receive cells, or
    the zero tally: split the sum, then rewrite each cell's level and compare it with n. The shape of O is matched
    without unfolding anything but abbreviations. Send cells are at level 0, above nothing, so they have no rewrite. -/
macro "above_tac" : tactic => `(tactic|
  repeat (first
    | with_reducible exact above_zero _
    | with_reducible refine above_add ?_ ?_
    | (with_reducible refine above_tally _ _ _ ?_ ?_
       · exact rfl
       · (first | rw [lv_bar] | rw [lv_yr] | rw [lv_xr] | rw [lv_zr]) <;> decide)))

/-! ## The shapes the waits of the body meet -/

example (c : Dev nD) : Above 1 (tallyAt (zrCell (zp c) 3) () Nb + tallyAt (xrCell (xp c) 5) () Nb + tallyAt (yrCell (yp c) 0) () Ny) := by above_tac
example (c : Dev nD) : Above 2 (tallyAt (zrCell (zp c) 1) () Nb + tallyAt (xrCell (xp c) 1) () Nb) := by above_tac
example (c : Dev nD) : Above 3 (tallyAt (zrCell (zp c) 3) () Nb + tallyAt (zrCell (zp c) 2) () Nb) := by above_tac
example (c : Dev nD) : Above 0 (O₀ c) := by unfold O₀; above_tac
example (c : Dev nD) : Above 3 (0 + tallyAt (zrCell (zp c) 0) () Nb) := by above_tac
example (c : Dev nD) : Above 4 (0 : CellTallies nD τ sig Unit) := by above_tac

example (c : Dev nD) :
    (levAts L lv : sProp 𝕄) ⊢ MayWait (c : Thread nD τ) (.dma (yrS 2)) ()
      (tallyAt (zrCell (zp c) 1) () Nb + tallyAt (xrCell (xp c) 1) () Nb) :=
  mayWait_above c _ _ 2 (lv_yr c 2) (by above_tac)

/-- info: 'Cert.Kernel.Coll.mayWait_above' depends on axioms: [propext, Classical.choice, Quot.sound] -/
#guard_msgs in #print axioms mayWait_above

/-- info: 'Cert.Kernel.Coll.above_tally' depends on axioms: [propext, Classical.choice, Quot.sound] -/
#guard_msgs in #print axioms above_tally

/-- info: 'Cert.Kernel.Coll.lv_zr' depends on axioms: [propext, Classical.choice, Quot.sound] -/
#guard_msgs in #print axioms lv_zr

end Cert.Kernel.Coll

end
-- ==== Proof.Bits.Steps3.lean ====
/-
  One wait on a DMA cell.

  Every DMA cell of the schedule has a single duty at its one round. A device waiting on one of its own DMA cells for the
  cell's whole amount, at the start of the round, comes back at round 1 holding the duty's payload, provided everything
  it still owes lies on cells strictly above the cell it waits on.
-/
import proofs.«900594_g7700000000000595_dist_rsdw_v7x_xyz2x2x2_y_m512_d512_f2048_bf16_1_alg».proof.Proof.Bits.Steps
import proofs.«900594_g7700000000000595_dist_rsdw_v7x_xyz2x2x2_y_m512_d512_f2048_bf16_1_alg».proof.Proof.Bits.Levels

noncomputable section

namespace Cert.Kernel.Coll

open Cert.Kernel Cert.Kernel.Gen Cert.Kernel.Mesh
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

section Waits
variable (SND : Dev nD → (cc0_scratch1 : Ref sig .tc).ty.Contents (Elt F)) (BLK : Dev nD → (cc0_scratch4 : Ref sig .tc).ty.Contents (Elt F))

/-- With nothing taken yet, the rest of a one-duty round is that duty's payload. -/
theorem rest_single (g : GSem nD τ sig) (hd : (Rd (F := F) SND BLK).duties g 0 = {0}) :
    bigSep ((Rd (F := F) SND BLK).duties g 0 \ ∅) (fun d => (Rd (F := F) SND BLK).payload g 0 d) = (Rd (F := F) SND BLK).payload g 0 0 := by
  rw [Finset.sdiff_empty, hd, bigSep_singleton]

/-- A one-duty round expects that duty's amount. -/
theorem expect_single (g : GSem nD τ sig) (N : ℕ) (hd : (Rd (F := F) SND BLK).duties g 0 = {0}) (hN : (Rd (F := F) SND BLK).amount g 0 0 = N) :
    (Rd (F := F) SND BLK).expect g 0 = N := by
  unfold Schedule.expect Schedule.amountOf
  rw [hd, Finset.sum_singleton, hN]

/-- The wait of device c on its DMA cell s, of level n and amount N, for N units, while all it owes lies above n: the
    credit is spent, the wait recorded, and the device stands at round 1 with the payload of the cell's one duty. -/
theorem wp_dwait (K : GSem nD τ sig → ℕ) (c : Dev nD) (s : DmaSem sig) (N n : ℕ)
    (hd : (Rd (F := F) SND BLK).duties ((c : Thread nD τ), .dma s) 0 = {0})
    (hN : (Rd (F := F) SND BLK).amount ((c : Thread nD τ), .dma s) 0 0 = N)
    (hlv : lv ((c : Thread nD τ), SemLoc.dma s) () = n)
    (O : CellTallies nD τ sig Unit) (hab : Above n O) (W : Waits sig Unit)
    {w : TpuEff nD τ sig (Elt F) Λ₀ .tc PUnit} {k' : ℕ}
    (hw : ∀ Kk : PUnit → sProp 𝕄, wpE (defs₀ (F := F)) 𝒱₀ (c : Thread nD τ) none Set.univ w Kk = waitSpec (c : Thread nD τ) Set.univ (.dma s) k' Kk)
    {α : Type} {Q : α → sProp 𝕄} {k : PUnit → Prog (TpuEff nD τ sig (Elt F) Λ₀ .tc) α}
    (hk : k' = N := by rfl) :
    iprop(cellInv ER (Rd SND BLK) (K ((c : Thread nD τ), .dma s)) ((c : Thread nD τ), .dma s)
        ∗ cred (tallyAt ((c : Thread nD τ), .dma s) () N) ∗ owes (c : Thread nD τ) O W ∗ levAts L lv
        ∗ atPos ER ((c : Thread nD τ), .dma s) 0 ∅ 0)
      ⊢ iprop(((owes (c : Thread nD τ) O (insert (SemLoc.dma s, ()) W) ∗ atPos ER ((c : Thread nD τ), .dma s) 1 ∅ 0
              ∗ (Rd SND BLK).payload ((c : Thread nD τ), .dma s) 0 0)
            -∗ wp frame (wpE (defs₀ (F := F)) 𝒱₀ (c : Thread nD τ) none) Set.univ (k ⟨⟩) Q)
          -∗ wp frame (wpE (defs₀ (F := F)) 𝒱₀ (c : Thread nD τ) none) Set.univ (.op w k) Q) := by
  subst hk
  have hexp : 0 + k' = (Rd (F := F) SND BLK).expect ((c : Thread nD τ), .dma s) 0 := by
    rw [Nat.zero_add, expect_single SND BLK _ k' hd hN]
  iintro ⟨HI, Hc, HO, Hlev, Hat⟩ Hk
  iapply (Rounds.wp_wait_rest_token 𝒱₀ ER (Rd SND BLK) (c : Thread nD τ) none (κ := K ((c : Thread nD τ), .dma s))
      hw (Set.mem_univ _) () (O := O) (W := W) (R := 0) (m := 0) (T := ∅) hexp) $$ [HI Hc HO Hlev Hat]
  · isplitl [HI]; · iexact HI
    isplitl [Hc]; · iexact Hc
    isplitl [HO]; · iexact HO
    isplitl [Hlev]; · iapply (mayWait_above c (.dma s) O n hlv hab); iexact Hlev
    iexact Hat
  iintro ⟨HO, Hat, -, Hpay⟩
  iapply Hk
  isplitl [HO]; · iexact HO
  isplitl [Hat]; · iexact Hat
  iapply (Entails.of_eq (rest_single SND BLK _ hd)); iexact Hpay

/-! The shape of a use: the first send semaphore across y, and a receive semaphore across z behind a computed slot. -/

example (K : GSem nD τ sig → ℕ) (c : Dev nD) (O : CellTallies nD τ sig Unit) (W : Waits sig Unit) (hab : Above 0 O)
    {hsrc : (slot6 sndM 0 : Memref sig .tc .vmem S256x128 .bf16).view.WordExact} {hdst : (slot6 rcvM 0 : Memref sig .tc .vmem S256x128 .bf16).view.WordExact}
    {α : Type} {Q : α → sProp 𝕄} {k : PUnit → Prog (TpuEff nD τ sig (Elt F) Λ₀ .tc) α} :
    iprop(cellInv ER (Rd SND BLK) (K (ysCell c 0)) (ysCell c 0) ∗ cred (tallyAt (ysCell c 0) () Ny) ∗ owes (c : Thread nD τ) O W ∗ levAts L lv
        ∗ atPos ER (ysCell c 0) 0 ∅ 0)
      ⊢ iprop(((owes (c : Thread nD τ) O (insert (SemLoc.dma (ysS 0), ()) W) ∗ atPos ER (ysCell c 0) 1 ∅ 0 ∗ (Rd SND BLK).payload (ysCell c 0) 0 0)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (ysS 0) (slot6 sndM 0) (slot6 rcvM 0) hsrc hdst) k) Q) :=
  wp_dwait SND BLK K c (ysS 0) Ny 0 (duties_ys SND BLK c 0) (amount_ys SND BLK c 0 0) (lv_ys c 0) O hab W
    (wpE_waitDma2_eq 𝒱₀ (c : Thread nD τ) none Set.univ)

example (K : GSem nD τ sig → ℕ) (c : Dev nD) (i : Fin 4) (m₁ m₂ : ℕ) (h₁ : m₁ < 16) (h₂ : m₂ < 16) (O : CellTallies nD τ sig Unit) (W : Waits sig Unit) (hab : Above 4 O)
    {hsrc : (slotN m₁ h₁ : Memref sig .tc .vmem S256x128 .bf16).view.WordExact} {hdst : (slotN m₂ h₂ : Memref sig .tc .vmem S256x128 .bf16).view.WordExact}
    {α : Type} {Q : α → sProp 𝕄} {k : PUnit → Prog (TpuEff nD τ sig (Elt F) Λ₀ .tc) α} :
    iprop(cellInv ER (Rd SND BLK) (K (zrCell c i)) (zrCell c i) ∗ cred (tallyAt (zrCell c i) () Nb) ∗ owes (c : Thread nD τ) O W ∗ levAts L lv
        ∗ atPos ER (zrCell c i) 0 ∅ 0)
      ⊢ iprop(((owes (c : Thread nD τ) O (insert (SemLoc.dma (zrS i), ()) W) ∗ atPos ER (zrCell c i) 1 ∅ 0 ∗ (Rd SND BLK).payload (zrCell c i) 0 0)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (zrS i) (slotN m₁ h₁) (slotN m₂ h₂) hsrc hdst) k) Q) := by
  iintro H
  iapply (wp_dwait SND BLK K c (zrS i) Nb 4 (duties_zr SND BLK c i) (amount_zr SND BLK c i 0) (lv_zr c i) O hab W
    (wpE_waitDma2_eq 𝒱₀ (c : Thread nD τ) none Set.univ)) $$ H

end Waits

/-- info: 'Cert.Kernel.Coll.wp_dwait' depends on axioms: [propext, Classical.choice, Quot.sound] -/
#guard_msgs in #print axioms wp_dwait

end Cert.Kernel.Coll

end
-- ==== Proof.Bits.Steps2.lean ====
/-
  The copies across x and across z, one wrapper per shape.

  Each of a device's ten later copies moves one slot of the block buffer into a slot of a neighbour's block buffer. Which
  slot depends on the parity of the device's id: a device's own two reduced chunks sit at slots 2p and 2p + 1 (p the
  parity), its x neighbour has the same parity, its z neighbour the other. The program names the slots by computed
  offsets; here each is identified with the slot it denotes, the sender's share of the source goes to the send cell,
  and the landing slot, holding what was sent, to the neighbour's receive cell.
-/
import proofs.«900594_g7700000000000595_dist_rsdw_v7x_xyz2x2x2_y_m512_d512_f2048_bf16_1_alg».proof.Proof.Bits.Steps

noncomputable section

namespace Cert.Kernel.Coll

open Cert.Kernel Cert.Kernel.Gen Cert.Kernel.Mesh
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## Slots by offset, and the parities of the neighbours -/

/-- The slot of the block buffer at an offset vector, as the program's copies spell it. -/
abbrev slotAt (off : Fin 3 → Nat) (h : ∀ a, off a + S1x256x128.size a ≤ S16x256x128.size a) : Memref sig .tc .vmem S256x128 .bf16 :=
  (blkM.slice (Rect.unit (s := S16x256x128) off S1x256x128.size h) (fun _ => rfl)).squeeze S256x128 squeezes_S1x256x128_S256x128

theorem slotN_congr {n n' : ℕ} (e : n = n') {h : n < 16} {h' : n' < 16} : slotN n h = slotN n' h' := by subst e; rfl

/-- Flipping the bit of weight 4 keeps the parity; flipping the bit of weight 1 reverses it. -/
theorem xp_par (c : Dev nD) : (xp c).val % 2 = c.val % 2 := by revert c; decide
theorem zp_par (c : Dev nD) : (zp c).val % 2 = 1 - c.val % 2 := by revert c; decide

/-- Where the x neighbour receives a device's first two chunks is the slot the device itself receives them at; where
    the z neighbour receives them is the slot they sit at on the sender, and likewise for their x copies. -/
theorem xinA_xp (c : Dev nD) (w : Fin 2) : xinA (xp c) w = xinA c w := slotN_congr (by rw [xp_par])
theorem zinA_zp (c : Dev nD) (w : Fin 2) : zinA (zp c) w = ownA c w :=
  slotN_congr (by rw [zp_par]; have := z2 c; have := w.isLt; omega)
theorem zinB_zp (c : Dev nD) (w : Fin 2) : zinB (zp c) w = xinA c w :=
  slotN_congr (by rw [zp_par]; have := z2 c; have := w.isLt; omega)

/-- Semaphore indices: the first two of six or four, and the rest. -/
abbrev lo6 (w : Fin 2) : Fin 6 := ⟨w.val, by omega⟩
abbrev hi6 (k : Fin 4) : Fin 6 := ⟨k.val + 2, by omega⟩
abbrev lo4 (w : Fin 2) : Fin 4 := ⟨w.val, by omega⟩
abbrev hi4 (w : Fin 2) : Fin 4 := ⟨w.val + 2, by omega⟩

section Sends
variable (SND : Dev nD → (cc0_scratch1 : Ref sig .tc).ty.Contents (Elt F)) (BLK : Dev nD → (cc0_scratch4 : Ref sig .tc).ty.Contents (Elt F))

/-- Own chunk w (w = 0, 1) across x: from the sender's slot 2p + w into slot 2p + w + 8 of the x neighbour, whose parity
    is the sender's. The sender lends the left half of its share of the source; the landing is restated at the
    neighbour's canonical block contents (hfs). -/
theorem wp_xsendA (K : GSem nD τ sig → ℕ) (c n : Dev nD) (hn : n = xp c) (w : Fin 2)
    (off8 off7 : Fin 3 → Nat)
    (h8 : ∀ a, off8 a + S1x256x128.size a ≤ S16x256x128.size a) (h7 : ∀ a, off7 a + S1x256x128.size a ≤ S16x256x128.size a)
    (e8 : off8 = ![2 * (c.val % 2) + w.val, 0, 0]) (e7 : off7 = ![2 * (c.val % 2) + w.val + 8, 0, 0])
    {hsc : (slotAt off7 h7 : Memref sig (Dev.tc n : Thread nD τ).2.kind .vmem S256x128 .bf16).view.ref.isScScratch = false}
    {hsrc : (slotAt off8 h8 : Memref sig .tc .vmem S256x128 .bf16).view.WordExact} {hdst : (slotAt off7 h7 : Memref sig .tc .vmem S256x128 .bf16).view.WordExact}
    {hsem : DmaTarget.Typed .vmem (.dma (xrS (lo6 w))) (.remote (Dev.tc n : Thread nD τ) (slotAt off7 h7 : Memref sig .tc .vmem S256x128 .bf16) (.dma (xsS (lo6 w))) hsc)}
    {α : Type} {Q : α → sProp 𝕄} {k : PUnit → Prog (TpuEff nD τ sig (Elt F) Λ₀ .tc) α}
    (fs : Buf (Elt F) ((ownA c w).view.loc (c : Thread nD τ))) (fd : Buf (Elt F) ((xinA (xp c) w).view.loc (xp c : Thread nD τ)))
    (hfs : ∀ i ∈ (xinA (xp c) w).view.set, (xinA (xp c) w).view.write (Elt F) fd ((ownA c w).view.read (Elt F) fs) Finset.univ i = BLK (xp c) i)
    (O : CellTallies nD τ sig Unit) (W : Waits sig Unit) :
    iprop(cellInv ER (Rd SND BLK) (K (xsCell c (lo6 w))) (xsCell c (lo6 w)) ∗ cellInv ER (Rd SND BLK) (K (xrCell (xp c) (lo6 w))) (xrCell (xp c) (lo6 w))
        ∗ ((ownA c w).view.loc (c : Thread nD τ) ↦[(ownA c w).view.set]{fullShare.left} fs)
        ∗ ((xinA (xp c) w).view.loc (xp c : Thread nD τ) ↦[(xinA (xp c) w).view.set]{fullShare} fd)
        ∗ owes (c : Thread nD τ) (O + tallyAt (xrCell (xp c) (lo6 w)) () Nb) W
        ∗ dutyTok ER (xsCell c (lo6 w)) 0 0 ∗ reached ER (xsCell c (lo6 w)) 0
        ∗ dutyTok ER (xrCell (xp c) (lo6 w)) 0 0 ∗ reached ER (xrCell (xp c) (lo6 w)) 0)
      ⊢ iprop(((cred (tallyAt (xsCell c (lo6 w)) () Nb) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (slotAt off8 h8) (.remote (Dev.tc n : Thread nD τ) (slotAt off7 h7) (.dma (xsS (lo6 w))) hsc) (.dma (xrS (lo6 w))) hsrc hdst hsem) k) Q) := by
  have e7' : off7 = ![2 * ((xp c).val % 2) + w.val + 8, 0, 0] := by rw [e7, xp_par]
  subst hn e8 e7'
  exact Rounds.wp_send_pointsTo 𝒱₀ ER (Rd SND BLK) (c : Thread nD τ) none (κ₁ := K (xsCell c (lo6 w))) (κ₂ := K (xrCell (xp c) (lo6 w)))
    (r₁ := 0) (r₂ := 0) (d₁ := 0) (d₂ := 0) (fs := fs) (fd := fd)
    (by rw [duties_xs]; exact Finset.mem_singleton_self _) (by rw [duties_xr]; exact Finset.mem_singleton_self _)
    () () Nb rfl (amount_xs SND BLK c (lo6 w) 0) (amount_xr SND BLK (xp c) (lo6 w) 0) O rfl (W := W)
    (by rw [payload_xsA]; iintro H; iexists fs; iexact H)
    (by rw [payload_xrA]; exact Entails.of_eq (pointsTo_congr hfs))

/-- The program's literal spelling of a parity-independent slot is the slot. -/
example : ownB 0 = (blkM.slice (Rect.unit (s := S16x256x128) ![4, 0, 0] S1x256x128.size Gen.inb_S16x256x128_S1x256x128_4_0_0) (fun _ => rfl)).squeeze S256x128 squeezes_S1x256x128_S256x128 := rfl

/-- Own chunk 4 + k (k = 0..3) across x: from the sender's slot 4 + k into slot 12 + k of the x neighbour, whatever the
    parities. The sender lends its whole share of the source. -/
theorem wp_xsendB (K : GSem nD τ sig → ℕ) (c n : Dev nD) (hn : n = xp c) (k' : Fin 4)
    {hsc : (xinB k' : Memref sig (Dev.tc n : Thread nD τ).2.kind .vmem S256x128 .bf16).view.ref.isScScratch = false}
    {hsrc : (ownB k' : Memref sig .tc .vmem S256x128 .bf16).view.WordExact} {hdst : (xinB k' : Memref sig .tc .vmem S256x128 .bf16).view.WordExact}
    {hsem : DmaTarget.Typed .vmem (.dma (xrS (hi6 k'))) (.remote (Dev.tc n : Thread nD τ) (xinB k' : Memref sig .tc .vmem S256x128 .bf16) (.dma (xsS (hi6 k'))) hsc)}
    {α : Type} {Q : α → sProp 𝕄} {k : PUnit → Prog (TpuEff nD τ sig (Elt F) Λ₀ .tc) α}
    (fs : Buf (Elt F) ((ownB k').view.loc (c : Thread nD τ))) (fd : Buf (Elt F) ((xinB k').view.loc (xp c : Thread nD τ)))
    (hfs : ∀ i ∈ (xinB k').view.set, (xinB k').view.write (Elt F) fd ((ownB k').view.read (Elt F) fs) Finset.univ i = BLK (xp c) i)
    (O : CellTallies nD τ sig Unit) (W : Waits sig Unit) :
    iprop(cellInv ER (Rd SND BLK) (K (xsCell c (hi6 k'))) (xsCell c (hi6 k')) ∗ cellInv ER (Rd SND BLK) (K (xrCell (xp c) (hi6 k'))) (xrCell (xp c) (hi6 k'))
        ∗ ((ownB k').view.loc (c : Thread nD τ) ↦[(ownB k').view.set]{fullShare} fs)
        ∗ ((xinB k').view.loc (xp c : Thread nD τ) ↦[(xinB k').view.set]{fullShare} fd)
        ∗ owes (c : Thread nD τ) (O + tallyAt (xrCell (xp c) (hi6 k')) () Nb) W
        ∗ dutyTok ER (xsCell c (hi6 k')) 0 0 ∗ reached ER (xsCell c (hi6 k')) 0
        ∗ dutyTok ER (xrCell (xp c) (hi6 k')) 0 0 ∗ reached ER (xrCell (xp c) (hi6 k')) 0)
      ⊢ iprop(((cred (tallyAt (xsCell c (hi6 k')) () Nb) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (ownB k') (.remote (Dev.tc n : Thread nD τ) (xinB k') (.dma (xsS (hi6 k'))) hsc) (.dma (xrS (hi6 k'))) hsrc hdst hsem) k) Q) := by
  subst hn
  exact Rounds.wp_send_pointsTo 𝒱₀ ER (Rd SND BLK) (c : Thread nD τ) none (κ₁ := K (xsCell c (hi6 k'))) (κ₂ := K (xrCell (xp c) (hi6 k')))
    (r₁ := 0) (r₂ := 0) (d₁ := 0) (d₂ := 0) (fs := fs) (fd := fd)
    (by rw [duties_xs]; exact Finset.mem_singleton_self _) (by rw [duties_xr]; exact Finset.mem_singleton_self _)
    () () Nb rfl (amount_xs SND BLK c (hi6 k') 0) (amount_xr SND BLK (xp c) (hi6 k') 0) O rfl (W := W)
    (by rw [payload_xsB]; iintro H; iexists fs; iexact H)
    (by rw [payload_xrB]; exact Entails.of_eq (pointsTo_congr hfs))

/-- Own chunk w (w = 0, 1) across z: from the sender's slot 2p + w into the same slot of the z neighbour, which that
    neighbour, of the other parity, counts as (w + 2) - 2(1 - p). The sender lends the right half of its share. -/
theorem wp_zsendA (K : GSem nD τ sig → ℕ) (c n : Dev nD) (hn : n = zp c) (w : Fin 2)
    (offs offd : Fin 3 → Nat)
    (hs : ∀ a, offs a + S1x256x128.size a ≤ S16x256x128.size a) (hd : ∀ a, offd a + S1x256x128.size a ≤ S16x256x128.size a)
    (es : offs = ![2 * (c.val % 2) + w.val, 0, 0]) (ed : offd = ![2 * (c.val % 2) + w.val, 0, 0])
    {hsc : (slotAt offd hd : Memref sig (Dev.tc n : Thread nD τ).2.kind .vmem S256x128 .bf16).view.ref.isScScratch = false}
    {hsrc : (slotAt offs hs : Memref sig .tc .vmem S256x128 .bf16).view.WordExact} {hdst : (slotAt offd hd : Memref sig .tc .vmem S256x128 .bf16).view.WordExact}
    {hsem : DmaTarget.Typed .vmem (.dma (zrS (lo4 w))) (.remote (Dev.tc n : Thread nD τ) (slotAt offd hd : Memref sig .tc .vmem S256x128 .bf16) (.dma (zsS (lo4 w))) hsc)}
    {α : Type} {Q : α → sProp 𝕄} {k : PUnit → Prog (TpuEff nD τ sig (Elt F) Λ₀ .tc) α}
    (fs : Buf (Elt F) ((ownA c w).view.loc (c : Thread nD τ))) (fd : Buf (Elt F) ((zinA (zp c) w).view.loc (zp c : Thread nD τ)))
    (hfs : ∀ i ∈ (zinA (zp c) w).view.set, (zinA (zp c) w).view.write (Elt F) fd ((ownA c w).view.read (Elt F) fs) Finset.univ i = BLK (zp c) i)
    (O : CellTallies nD τ sig Unit) (W : Waits sig Unit) :
    iprop(cellInv ER (Rd SND BLK) (K (zsCell c (lo4 w))) (zsCell c (lo4 w)) ∗ cellInv ER (Rd SND BLK) (K (zrCell (zp c) (lo4 w))) (zrCell (zp c) (lo4 w))
        ∗ ((ownA c w).view.loc (c : Thread nD τ) ↦[(ownA c w).view.set]{fullShare.right} fs)
        ∗ ((zinA (zp c) w).view.loc (zp c : Thread nD τ) ↦[(zinA (zp c) w).view.set]{fullShare} fd)
        ∗ owes (c : Thread nD τ) (O + tallyAt (zrCell (zp c) (lo4 w)) () Nb) W
        ∗ dutyTok ER (zsCell c (lo4 w)) 0 0 ∗ reached ER (zsCell c (lo4 w)) 0
        ∗ dutyTok ER (zrCell (zp c) (lo4 w)) 0 0 ∗ reached ER (zrCell (zp c) (lo4 w)) 0)
      ⊢ iprop(((cred (tallyAt (zsCell c (lo4 w)) () Nb) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (slotAt offs hs) (.remote (Dev.tc n : Thread nD τ) (slotAt offd hd) (.dma (zsS (lo4 w))) hsc) (.dma (zrS (lo4 w))) hsrc hdst hsem) k) Q) := by
  have en : 2 * (c.val % 2) + w.val = (w.val + 2) - 2 * ((zp c).val % 2) := by rw [zp_par]; have := z2 c; have := w.isLt; omega
  have ed' : offd = ![(w.val + 2) - 2 * ((zp c).val % 2), 0, 0] := by rw [ed, en]
  subst hn es ed'
  exact Rounds.wp_send_pointsTo 𝒱₀ ER (Rd SND BLK) (c : Thread nD τ) none (κ₁ := K (zsCell c (lo4 w))) (κ₂ := K (zrCell (zp c) (lo4 w)))
    (r₁ := 0) (r₂ := 0) (d₁ := 0) (d₂ := 0) (fs := fs) (fd := fd)
    (by rw [duties_zs]; exact Finset.mem_singleton_self _) (by rw [duties_zr]; exact Finset.mem_singleton_self _)
    () () Nb rfl (amount_zs SND BLK c (lo4 w) 0) (amount_zr SND BLK (zp c) (lo4 w) 0) O rfl (W := W)
    (by rw [payload_zsA]; iintro H; iexists fs; iexact H)
    (by rw [payload_zrA]; exact Entails.of_eq (pointsTo_congr hfs))

/-- The x neighbour's copy of chunk w (w = 0, 1) across z: from the sender's slot 2p + w + 8 into the same slot of the z
    neighbour, which that neighbour counts as (w + 10) - 2(1 - p). The sender lends the left half of its share. -/
theorem wp_zsendB (K : GSem nD τ sig → ℕ) (c n : Dev nD) (hn : n = zp c) (w : Fin 2)
    (offs offd : Fin 3 → Nat)
    (hs : ∀ a, offs a + S1x256x128.size a ≤ S16x256x128.size a) (hd : ∀ a, offd a + S1x256x128.size a ≤ S16x256x128.size a)
    (es : offs = ![2 * (c.val % 2) + w.val + 8, 0, 0]) (ed : offd = ![2 * (c.val % 2) + w.val + 8, 0, 0])
    {hsc : (slotAt offd hd : Memref sig (Dev.tc n : Thread nD τ).2.kind .vmem S256x128 .bf16).view.ref.isScScratch = false}
    {hsrc : (slotAt offs hs : Memref sig .tc .vmem S256x128 .bf16).view.WordExact} {hdst : (slotAt offd hd : Memref sig .tc .vmem S256x128 .bf16).view.WordExact}
    {hsem : DmaTarget.Typed .vmem (.dma (zrS (hi4 w))) (.remote (Dev.tc n : Thread nD τ) (slotAt offd hd : Memref sig .tc .vmem S256x128 .bf16) (.dma (zsS (hi4 w))) hsc)}
    {α : Type} {Q : α → sProp 𝕄} {k : PUnit → Prog (TpuEff nD τ sig (Elt F) Λ₀ .tc) α}
    (fs : Buf (Elt F) ((xinA c w).view.loc (c : Thread nD τ))) (fd : Buf (Elt F) ((zinB (zp c) w).view.loc (zp c : Thread nD τ)))
    (hfs : ∀ i ∈ (zinB (zp c) w).view.set, (zinB (zp c) w).view.write (Elt F) fd ((xinA c w).view.read (Elt F) fs) Finset.univ i = BLK (zp c) i)
    (O : CellTallies nD τ sig Unit) (W : Waits sig Unit) :
    iprop(cellInv ER (Rd SND BLK) (K (zsCell c (hi4 w))) (zsCell c (hi4 w)) ∗ cellInv ER (Rd SND BLK) (K (zrCell (zp c) (hi4 w))) (zrCell (zp c) (hi4 w))
        ∗ ((xinA c w).view.loc (c : Thread nD τ) ↦[(xinA c w).view.set]{fullShare.left} fs)
        ∗ ((zinB (zp c) w).view.loc (zp c : Thread nD τ) ↦[(zinB (zp c) w).view.set]{fullShare} fd)
        ∗ owes (c : Thread nD τ) (O + tallyAt (zrCell (zp c) (hi4 w)) () Nb) W
        ∗ dutyTok ER (zsCell c (hi4 w)) 0 0 ∗ reached ER (zsCell c (hi4 w)) 0
        ∗ dutyTok ER (zrCell (zp c) (hi4 w)) 0 0 ∗ reached ER (zrCell (zp c) (hi4 w)) 0)
      ⊢ iprop(((cred (tallyAt (zsCell c (hi4 w)) () Nb) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (slotAt offs hs) (.remote (Dev.tc n : Thread nD τ) (slotAt offd hd) (.dma (zsS (hi4 w))) hsc) (.dma (zrS (hi4 w))) hsrc hdst hsem) k) Q) := by
  have en : 2 * (c.val % 2) + w.val + 8 = (w.val + 10) - 2 * ((zp c).val % 2) := by rw [zp_par]; have := z2 c; have := w.isLt; omega
  have ed' : offd = ![(w.val + 10) - 2 * ((zp c).val % 2), 0, 0] := by rw [ed, en]
  subst hn es ed'
  exact Rounds.wp_send_pointsTo 𝒱₀ ER (Rd SND BLK) (c : Thread nD τ) none (κ₁ := K (zsCell c (hi4 w))) (κ₂ := K (zrCell (zp c) (hi4 w)))
    (r₁ := 0) (r₂ := 0) (d₁ := 0) (d₂ := 0) (fs := fs) (fd := fd)
    (by rw [duties_zs]; exact Finset.mem_singleton_self _) (by rw [duties_zr]; exact Finset.mem_singleton_self _)
    () () Nb rfl (amount_zs SND BLK c (hi4 w) 0) (amount_zr SND BLK (zp c) (hi4 w) 0) O rfl (W := W)
    (by rw [payload_zsB]; iintro H; iexists fs; iexact H)
    (by rw [payload_zrB]; exact Entails.of_eq (pointsTo_congr hfs))

end Sends

/-- info: 'Cert.Kernel.Coll.wp_xsendA' depends on axioms: [propext, Classical.choice, Quot.sound] -/
#guard_msgs in #print axioms wp_xsendA

/-- info: 'Cert.Kernel.Coll.wp_xsendB' depends on axioms: [propext, Classical.choice, Quot.sound] -/
#guard_msgs in #print axioms wp_xsendB

/-- info: 'Cert.Kernel.Coll.wp_zsendA' depends on axioms: [propext, Classical.choice, Quot.sound] -/
#guard_msgs in #print axioms wp_zsendA

/-- info: 'Cert.Kernel.Coll.wp_zsendB' depends on axioms: [propext, Classical.choice, Quot.sound] -/
#guard_msgs in #print axioms wp_zsendB

end Cert.Kernel.Coll

end
-- ==== Proof.Bits.Slots.lean ====
import proofs.«900594_g7700000000000595_dist_rsdw_v7x_xyz2x2x2_y_m512_d512_f2048_bf16_1_alg».proof.Proof.Bits.Sched
import Idealize.ShloMosaic.Lib.Pipeline.Value
import Idealize.ShloMosaic.Lib.ValueIdx
import Idealize.ShloMosaic.Lib.ValueLayout

/-!
# The scratch buffers cut into their slots

A scratch buffer `[N, 256, 128]` is `N` slots `[256, 128]`, slot `n` being the elements whose leading
coordinate is `n`. Holding the whole buffer is holding its slots, one by one; holding a slot in full is
holding its two half shares; and what a slot holds after a copy has landed in it, or after a block has
been stored to it, is told by the elements of the slot alone.
-/

noncomputable section

namespace Cert.Kernel.Coll

open Cert.Kernel Cert.Kernel.Gen Cert.Kernel.Mesh
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ UU ℕ

/-! ## A slot's elements -/

/-- The rectangle `[1, 256, 128]` at leading offset `n` of a shape `[N, 256, 128]` holds exactly the indices whose
    leading coordinate is `n`. -/
theorem mem_lead {N : ℕ} (n : ℕ)
    (inb : ∀ a, (![n, 0, 0] : Fin 3 → ℕ) a + S1x256x128.size a ≤ (⟨3, ![N, 256, 128]⟩ : Shape).size a)
    (i : (⟨3, ![N, 256, 128]⟩ : Shape).Idx) :
    i ∈ (Rect.unit (s := ⟨3, ![N, 256, 128]⟩) ![n, 0, 0] S1x256x128.size inb).set ↔ (i 0).val = n := by
  rw [Rect.mem_set_unit]
  constructor
  · intro h
    have h0 := h 0
    simp [Shape.size] at h0
    omega
  · intro h a
    have hl := (i a).isLt
    fin_cases a <;> simp [Shape.size] at hl ⊢ <;> omega

/-- Two such rectangles at different leading offsets share no index. -/
theorem disjoint_lead {N : ℕ} {n n' : ℕ} (hne : n ≠ n') (inb inb') :
    Disjoint (Rect.unit (s := ⟨3, ![N, 256, 128]⟩) ![n, 0, 0] S1x256x128.size inb).set
      (Rect.unit (s := ⟨3, ![N, 256, 128]⟩) ![n', 0, 0] S1x256x128.size inb').set :=
  Finset.disjoint_left.mpr fun i hi hi' => hne (((mem_lead n inb i).mp hi).symm.trans ((mem_lead n' inb' i).mp hi'))

/-! ## A full share is its two halves -/

theorem halves (c : Dev nD) (M : Memref sig .tc .vmem S256x128 .bf16) (f : Buf (Elt F) (M.view.loc (c : Thread nD τ))) :
    holds c M fullShare f ⊣⊢ iprop(holds c M fullShare.left f ∗ holds c M fullShare.right f) :=
  pointsTo_share (PosShare.mem_left_op_right fullShare)

/-! ## Where a slot's elements lie -/

/-- The rectangle `[1, 256, 128]` at leading offset `n` puts its element `(u, r, k)` at `(n, r, k)`. -/
theorem rect_lead_emb {N : ℕ} (n : ℕ) (hn : n < N)
    (inb : ∀ a, (![n, 0, 0] : Fin 3 → ℕ) a + S1x256x128.size a ≤ (⟨3, ![N, 256, 128]⟩ : Shape).size a)
    (u : Fin 1) (r : Fin 256) (k : Fin 128) :
    (Rect.unit (s := ⟨3, ![N, 256, 128]⟩) ![n, 0, 0] S1x256x128.size inb).emb (ix3 u r k) = ix3 (⟨n, hn⟩ : Fin N) r k := by
  funext a
  apply Fin.ext
  rw [Rect.emb_apply]
  have hu : u.val = 0 := by omega
  match a with
  | ⟨0, _⟩ => show n + 1 * u.val = n; omega
  | ⟨1, _⟩ => show 0 + 1 * r.val = r.val; omega
  | ⟨2, _⟩ => show 0 + 1 * k.val = k.val; omega

/-- An index whose leading coordinate is `n` is `(n, r, k)` for its own `r` and `k`. -/
theorem eq_ix3_lead {N : ℕ} (n : ℕ) (hn : n < N) (i : (⟨3, ![N, 256, 128]⟩ : Shape).Idx) (h : (i 0).val = n) :
    i = ix3 (⟨n, hn⟩ : Fin N) (i 1) (i 2) := by
  funext a
  match a with
  | ⟨0, _⟩ => exact Fin.ext h
  | ⟨1, _⟩ => rfl
  | ⟨2, _⟩ => rfl

/-! ## Cutting a buffer along its leading axis -/

theorem cut_lead {N : ℕ} (M : Memref sig .tc .vmem (⟨3, ![N, 256, 128]⟩ : Shape) .bf16) (c : Dev nD) (q : PosShare TreeShare)
    (f : Buf (Elt F) (M.view.loc (c : Thread nD τ)))
    (inb : ∀ n : Fin N, ∀ a, (![n.val, 0, 0] : Fin 3 → ℕ) a + S1x256x128.size a ≤ (⟨3, ![N, 256, 128]⟩ : Shape).size a) :
    (M.view.loc (c : Thread nD τ) ↦[M.view.set]{q} f : sProp 𝕄)
      = bigSep Finset.univ fun n : Fin N =>
          (M.view.loc (c : Thread nD τ) ↦[(M.view.slice (Rect.unit ![n.val, 0, 0] S1x256x128.size (inb n))).set]{q} f : sProp 𝕄) := by
  have hd : ∀ n ∈ (Finset.univ : Finset (Fin N)), ∀ n' ∈ (Finset.univ : Finset (Fin N)), n ≠ n' →
      Disjoint (M.view.slice (Rect.unit ![n.val, 0, 0] S1x256x128.size (inb n))).set
        (M.view.slice (Rect.unit ![n'.val, 0, 0] S1x256x128.size (inb n'))).set := by
    intro n _ n' _ hne
    rw [View.set_slice, View.set_slice]
    exact (Finset.disjoint_map _).mpr (disjoint_lead (fun e => hne (Fin.ext e)) _ _)
  have hc : M.view.set = Finset.univ.biUnion fun n : Fin N => (M.view.slice (Rect.unit ![n.val, 0, 0] S1x256x128.size (inb n))).set := by
    ext i
    simp only [Finset.mem_biUnion, Finset.mem_univ, true_and, View.set_slice, Finset.mem_map]
    constructor
    · intro hi
      obtain ⟨y, -, rfl⟩ := Finset.mem_map.mp hi
      exact ⟨⟨(y 0).val, (y 0).isLt⟩, y, (mem_lead _ _ y).mpr rfl, rfl⟩
    · rintro ⟨n, y, -, rfl⟩
      exact View.emb_mem_set _ y
  rw [hc]
  exact pointsTo_biUnion Finset.univ _ hd

/-! ## The six slots of the send and receive buffers -/

theorem holds_slot6 (M : Memref sig .tc .vmem S6x256x128 .bf16) (c : Dev nD) (j : Fin 6) (q : PosShare TreeShare)
    (f : Buf (Elt F) (M.view.loc (c : Thread nD τ))) :
    holds c (slot6 M j) q f
      = (M.view.loc (c : Thread nD τ) ↦[(M.view.slice (Rect.unit ![j.val, 0, 0] S1x256x128.size (inb6s j))).set]{q} f : sProp 𝕄) :=
  congrArg (fun I => (M.view.loc (c : Thread nD τ) ↦[I]{q} f : sProp 𝕄))
    (View.set_reshape (M.view.slice (Rect.unit ![j.val, 0, 0] S1x256x128.size (inb6s j))) _)

/-- A `[6, 256, 128]` buffer held through its view is its six slots held, at any share. -/
theorem split6_view (M : Memref sig .tc .vmem S6x256x128 .bf16) (c : Dev nD) (q : PosShare TreeShare)
    (f : Buf (Elt F) (M.view.loc (c : Thread nD τ))) :
    (M.view.loc (c : Thread nD τ) ↦[M.view.set]{q} f : sProp 𝕄)
      = iprop(holds c (slot6 M 0) q f ∗ holds c (slot6 M 1) q f ∗ holds c (slot6 M 2) q f ∗ holds c (slot6 M 3) q f ∗ holds c (slot6 M 4) q f ∗ holds c (slot6 M 5) q f) := by
  rw [cut_lead M c q f inb6s, show (Finset.univ : Finset (Fin 6)) = {0, 1, 2, 3, 4, 5} by decide,
    bigSep_insert (by decide), bigSep_insert (by decide), bigSep_insert (by decide), bigSep_insert (by decide),
    bigSep_insert (by decide), bigSep_singleton]
  simp only [holds_slot6]
  rfl

theorem split6_snd (c : Dev nD) (f : Buf (Elt F) (View.loc (c : Thread nD τ) sndM.view)) :
    (View.loc (c : Thread nD τ) sndM.view ↦{fullShare} f : sProp 𝕄)
      ⊣⊢ iprop(holds c (slot6 sndM 0) fullShare f ∗ holds c (slot6 sndM 1) fullShare f ∗ holds c (slot6 sndM 2) fullShare f ∗ holds c (slot6 sndM 3) fullShare f ∗ holds c (slot6 sndM 4) fullShare f ∗ holds c (slot6 sndM 5) fullShare f) := by
  have e := split6_view sndM c fullShare f
  rw [View.set_whole] at e
  exact ⟨Entails.of_eq e, Entails.of_eq e.symm⟩

theorem split6_rcv (c : Dev nD) (f : Buf (Elt F) (View.loc (c : Thread nD τ) rcvM.view)) :
    (View.loc (c : Thread nD τ) rcvM.view ↦{fullShare} f : sProp 𝕄)
      ⊣⊢ iprop(holds c (slot6 rcvM 0) fullShare f ∗ holds c (slot6 rcvM 1) fullShare f ∗ holds c (slot6 rcvM 2) fullShare f ∗ holds c (slot6 rcvM 3) fullShare f ∗ holds c (slot6 rcvM 4) fullShare f ∗ holds c (slot6 rcvM 5) fullShare f) := by
  have e := split6_view rcvM c fullShare f
  rw [View.set_whole] at e
  exact ⟨Entails.of_eq e, Entails.of_eq e.symm⟩

/-! ## The sixteen slots of the block buffer -/

theorem holds_slotN (c : Dev nD) (n : ℕ) (h : n < 16) (q : PosShare TreeShare)
    (f : Buf (Elt F) (blkM.view.loc (c : Thread nD τ))) :
    holds c (slotN n h) q f
      = (blkM.view.loc (c : Thread nD τ) ↦[(blkM.view.slice (Rect.unit ![n, 0, 0] S1x256x128.size (inbN n h))).set]{q} f : sProp 𝕄) :=
  congrArg (fun I => (blkM.view.loc (c : Thread nD τ) ↦[I]{q} f : sProp 𝕄))
    (View.set_reshape (blkM.view.slice (Rect.unit ![n, 0, 0] S1x256x128.size (inbN n h))) _)

/-- Equal slot numbers name the same slot, whatever the evidence that they are below sixteen. -/
theorem holds_slotN_congr (c : Dev nD) {n n' : ℕ} (e : n = n') (h : n < 16) (h' : n' < 16) (q : PosShare TreeShare)
    (f : Buf (Elt F) (blkM.view.loc (c : Thread nD τ))) :
    holds c (slotN n h) q f = holds c (slotN n' h') q f := by
  subst e; rfl

theorem inb16v (n : Fin 16) : ∀ a, (![n.val, 0, 0] : Fin 3 → Nat) a + S1x256x128.size a ≤ S16x256x128.size a := inbN n.val n.isLt

set_option maxHeartbeats 4000000 in
/-- The block buffer held through its view is its sixteen slots held, in the order of their numbers, at any share. -/
theorem splitBlk_lit (c : Dev nD) (q : PosShare TreeShare) (f : Buf (Elt F) (blkM.view.loc (c : Thread nD τ))) :
    (blkM.view.loc (c : Thread nD τ) ↦[blkM.view.set]{q} f : sProp 𝕄)
      = iprop(holds c (slotN (0 : Fin 16).val (0 : Fin 16).isLt) q f ∗ holds c (slotN (1 : Fin 16).val (1 : Fin 16).isLt) q f ∗ holds c (slotN (2 : Fin 16).val (2 : Fin 16).isLt) q f ∗ holds c (slotN (3 : Fin 16).val (3 : Fin 16).isLt) q f ∗ holds c (slotN (4 : Fin 16).val (4 : Fin 16).isLt) q f ∗ holds c (slotN (5 : Fin 16).val (5 : Fin 16).isLt) q f ∗ holds c (slotN (6 : Fin 16).val (6 : Fin 16).isLt) q f ∗ holds c (slotN (7 : Fin 16).val (7 : Fin 16).isLt) q f ∗ holds c (slotN (8 : Fin 16).val (8 : Fin 16).isLt) q f ∗ holds c (slotN (9 : Fin 16).val (9 : Fin 16).isLt) q f ∗ holds c (slotN (10 : Fin 16).val (10 : Fin 16).isLt) q f ∗ holds c (slotN (11 : Fin 16).val (11 : Fin 16).isLt) q f ∗ holds c (slotN (12 : Fin 16).val (12 : Fin 16).isLt) q f ∗ holds c (slotN (13 : Fin 16).val (13 : Fin 16).isLt) q f ∗ holds c (slotN (14 : Fin 16).val (14 : Fin 16).isLt) q f ∗ holds c (slotN (15 : Fin 16).val (15 : Fin 16).isLt) q f) := by
  rw [cut_lead blkM c q f inb16v,
    show (Finset.univ : Finset (Fin 16)) = {0, 1, 2, 3, 4, 5, 6, 7, 8, 9, 10, 11, 12, 13, 14, 15} by decide,
    bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_singleton]
  simp only [holds_slotN]
  rfl

/-- The sixteen slots in the order of their numbers and in the order of their roles on a device of even
    (respectively odd) number are the same sixteen, so the two separating conjunctions are equal. -/
theorem sep_perm_even (H : Fin 16 → sProp 𝕄) :
    BI.sep (H 0) (BI.sep (H 1) (BI.sep (H 2) (BI.sep (H 3) (BI.sep (H 4) (BI.sep (H 5) (BI.sep (H 6) (BI.sep (H 7) (BI.sep (H 8) (BI.sep (H 9) (BI.sep (H 10) (BI.sep (H 11) (BI.sep (H 12) (BI.sep (H 13) (BI.sep (H 14) (H 15)))))))))))))))
      = BI.sep (H 0) (BI.sep (H 1) (BI.sep (H 4) (BI.sep (H 5) (BI.sep (H 6) (BI.sep (H 7) (BI.sep (H 8) (BI.sep (H 9) (BI.sep (H 12) (BI.sep (H 13) (BI.sep (H 14) (BI.sep (H 15) (BI.sep (H 2) (BI.sep (H 3) (BI.sep (H 10) (H 11))))))))))))))) := by
  ac_rfl

theorem sep_perm_odd (H : Fin 16 → sProp 𝕄) :
    BI.sep (H 0) (BI.sep (H 1) (BI.sep (H 2) (BI.sep (H 3) (BI.sep (H 4) (BI.sep (H 5) (BI.sep (H 6) (BI.sep (H 7) (BI.sep (H 8) (BI.sep (H 9) (BI.sep (H 10) (BI.sep (H 11) (BI.sep (H 12) (BI.sep (H 13) (BI.sep (H 14) (H 15)))))))))))))))
      = BI.sep (H 2) (BI.sep (H 3) (BI.sep (H 4) (BI.sep (H 5) (BI.sep (H 6) (BI.sep (H 7) (BI.sep (H 10) (BI.sep (H 11) (BI.sep (H 12) (BI.sep (H 13) (BI.sep (H 14) (BI.sep (H 15) (BI.sep (H 0) (BI.sep (H 1) (BI.sep (H 8) (H 9))))))))))))))) := by
  ac_rfl

set_option maxHeartbeats 4000000 in
/-- The block buffer held in full is its sixteen slots held in full, named by their roles on device `c`: the
    roles' slot numbers depend on the parity of `c`, and in either case they are the sixteen numbers once each. -/
theorem splitBlk (c : Dev nD) (f : Buf (Elt F) (View.loc (c : Thread nD τ) blkM.view)) :
    (View.loc (c : Thread nD τ) blkM.view ↦{fullShare} f : sProp 𝕄)
      ⊣⊢ iprop(holds c (ownA c 0) fullShare f ∗ holds c (ownA c 1) fullShare f ∗ holds c (ownB 0) fullShare f ∗ holds c (ownB 1) fullShare f ∗ holds c (ownB 2) fullShare f ∗ holds c (ownB 3) fullShare f ∗ holds c (xinA c 0) fullShare f ∗ holds c (xinA c 1) fullShare f ∗ holds c (xinB 0) fullShare f ∗ holds c (xinB 1) fullShare f ∗ holds c (xinB 2) fullShare f ∗ holds c (xinB 3) fullShare f ∗ holds c (zinA c 0) fullShare f ∗ holds c (zinA c 1) fullShare f ∗ holds c (zinB c 0) fullShare f ∗ holds c (zinB c 1) fullShare f) := by
  have e : (View.loc (c : Thread nD τ) blkM.view ↦{fullShare} f : sProp 𝕄)
      = iprop(holds c (ownA c 0) fullShare f ∗ holds c (ownA c 1) fullShare f ∗ holds c (ownB 0) fullShare f ∗ holds c (ownB 1) fullShare f ∗ holds c (ownB 2) fullShare f ∗ holds c (ownB 3) fullShare f ∗ holds c (xinA c 0) fullShare f ∗ holds c (xinA c 1) fullShare f ∗ holds c (xinB 0) fullShare f ∗ holds c (xinB 1) fullShare f ∗ holds c (xinB 2) fullShare f ∗ holds c (xinB 3) fullShare f ∗ holds c (zinA c 0) fullShare f ∗ holds c (zinA c 1) fullShare f ∗ holds c (zinB c 0) fullShare f ∗ holds c (zinB c 1) fullShare f) := by
    have h0 := splitBlk_lit c fullShare f
    rw [View.set_whole] at h0
    rw [h0]
    rcases Nat.mod_two_eq_zero_or_one c.val with hc | hc
    · rw [
      holds_slotN_congr c (show 2 * (c.val % 2) + (0 : Fin 2).val = (0 : Fin 16).val from by rw [hc]; rfl) _ (0 : Fin 16).isLt fullShare f,
      holds_slotN_congr c (show 2 * (c.val % 2) + (1 : Fin 2).val = (1 : Fin 16).val from by rw [hc]; rfl) _ (1 : Fin 16).isLt fullShare f,
      holds_slotN_congr c (show 4 + (0 : Fin 4).val = (4 : Fin 16).val from rfl) _ (4 : Fin 16).isLt fullShare f,
      holds_slotN_congr c (show 4 + (1 : Fin 4).val = (5 : Fin 16).val from rfl) _ (5 : Fin 16).isLt fullShare f,
      holds_slotN_congr c (show 4 + (2 : Fin 4).val = (6 : Fin 16).val from rfl) _ (6 : Fin 16).isLt fullShare f,
      holds_slotN_congr c (show 4 + (3 : Fin 4).val = (7 : Fin 16).val from rfl) _ (7 : Fin 16).isLt fullShare f,
      holds_slotN_congr c (show 2 * (c.val % 2) + (0 : Fin 2).val + 8 = (8 : Fin 16).val from by rw [hc]; rfl) _ (8 : Fin 16).isLt fullShare f,
      holds_slotN_congr c (show 2 * (c.val % 2) + (1 : Fin 2).val + 8 = (9 : Fin 16).val from by rw [hc]; rfl) _ (9 : Fin 16).isLt fullShare f,
      holds_slotN_congr c (show 12 + (0 : Fin 4).val = (12 : Fin 16).val from rfl) _ (12 : Fin 16).isLt fullShare f,
      holds_slotN_congr c (show 12 + (1 : Fin 4).val = (13 : Fin 16).val from rfl) _ (13 : Fin 16).isLt fullShare f,
      holds_slotN_congr c (show 12 + (2 : Fin 4).val = (14 : Fin 16).val from rfl) _ (14 : Fin 16).isLt fullShare f,
      holds_slotN_congr c (show 12 + (3 : Fin 4).val = (15 : Fin 16).val from rfl) _ (15 : Fin 16).isLt fullShare f,
      holds_slotN_congr c (show ((0 : Fin 2).val + 2) - 2 * (c.val % 2) = (2 : Fin 16).val from by rw [hc]; rfl) _ (2 : Fin 16).isLt fullShare f,
      holds_slotN_congr c (show ((1 : Fin 2).val + 2) - 2 * (c.val % 2) = (3 : Fin 16).val from by rw [hc]; rfl) _ (3 : Fin 16).isLt fullShare f,
      holds_slotN_congr c (show ((0 : Fin 2).val + 10) - 2 * (c.val % 2) = (10 : Fin 16).val from by rw [hc]; rfl) _ (10 : Fin 16).isLt fullShare f,
      holds_slotN_congr c (show ((1 : Fin 2).val + 10) - 2 * (c.val % 2) = (11 : Fin 16).val from by rw [hc]; rfl) _ (11 : Fin 16).isLt fullShare f]
      exact sep_perm_even (fun n : Fin 16 => holds c (slotN n.val n.isLt) fullShare f)
    · rw [
      holds_slotN_congr c (show 2 * (c.val % 2) + (0 : Fin 2).val = (2 : Fin 16).val from by rw [hc]; rfl) _ (2 : Fin 16).isLt fullShare f,
      holds_slotN_congr c (show 2 * (c.val % 2) + (1 : Fin 2).val = (3 : Fin 16).val from by rw [hc]; rfl) _ (3 : Fin 16).isLt fullShare f,
      holds_slotN_congr c (show 4 + (0 : Fin 4).val = (4 : Fin 16).val from rfl) _ (4 : Fin 16).isLt fullShare f,
      holds_slotN_congr c (show 4 + (1 : Fin 4).val = (5 : Fin 16).val from rfl) _ (5 : Fin 16).isLt fullShare f,
      holds_slotN_congr c (show 4 + (2 : Fin 4).val = (6 : Fin 16).val from rfl) _ (6 : Fin 16).isLt fullShare f,
      holds_slotN_congr c (show 4 + (3 : Fin 4).val = (7 : Fin 16).val from rfl) _ (7 : Fin 16).isLt fullShare f,
      holds_slotN_congr c (show 2 * (c.val % 2) + (0 : Fin 2).val + 8 = (10 : Fin 16).val from by rw [hc]; rfl) _ (10 : Fin 16).isLt fullShare f,
      holds_slotN_congr c (show 2 * (c.val % 2) + (1 : Fin 2).val + 8 = (11 : Fin 16).val from by rw [hc]; rfl) _ (11 : Fin 16).isLt fullShare f,
      holds_slotN_congr c (show 12 + (0 : Fin 4).val = (12 : Fin 16).val from rfl) _ (12 : Fin 16).isLt fullShare f,
      holds_slotN_congr c (show 12 + (1 : Fin 4).val = (13 : Fin 16).val from rfl) _ (13 : Fin 16).isLt fullShare f,
      holds_slotN_congr c (show 12 + (2 : Fin 4).val = (14 : Fin 16).val from rfl) _ (14 : Fin 16).isLt fullShare f,
      holds_slotN_congr c (show 12 + (3 : Fin 4).val = (15 : Fin 16).val from rfl) _ (15 : Fin 16).isLt fullShare f,
      holds_slotN_congr c (show ((0 : Fin 2).val + 2) - 2 * (c.val % 2) = (0 : Fin 16).val from by rw [hc]; rfl) _ (0 : Fin 16).isLt fullShare f,
      holds_slotN_congr c (show ((1 : Fin 2).val + 2) - 2 * (c.val % 2) = (1 : Fin 16).val from by rw [hc]; rfl) _ (1 : Fin 16).isLt fullShare f,
      holds_slotN_congr c (show ((0 : Fin 2).val + 10) - 2 * (c.val % 2) = (8 : Fin 16).val from by rw [hc]; rfl) _ (8 : Fin 16).isLt fullShare f,
      holds_slotN_congr c (show ((1 : Fin 2).val + 10) - 2 * (c.val % 2) = (9 : Fin 16).val from by rw [hc]; rfl) _ (9 : Fin 16).isLt fullShare f]
      exact sep_perm_odd (fun n : Fin 16 => holds c (slotN n.val n.isLt) fullShare f)
  exact ⟨Entails.of_eq e, Entails.of_eq e.symm⟩

/-! ## Reading a slot

A slot's element `(r, k)` is the buffer's element `(n, r, k)`. -/

theorem lead_slot_emb {N : ℕ} (M : Memref sig .tc .vmem (⟨3, ![N, 256, 128]⟩ : Shape) .bf16) (n : ℕ) (hn : n < N)
    (inb : ∀ a, (![n, 0, 0] : Fin 3 → ℕ) a + S1x256x128.size a ≤ (⟨3, ![N, 256, 128]⟩ : Shape).size a)
    (r : Fin 256) (k : Fin 128) :
    ((M.slice (Rect.unit ![n, 0, 0] S1x256x128.size inb) (fun _ => rfl)).squeeze S256x128 squeezes_S1x256x128_S256x128).view.emb (ix2 r k)
      = M.view.emb (ix3 (⟨n, hn⟩ : Fin N) r k) := by
  show M.view.emb ((Rect.unit (s := ⟨3, ![N, 256, 128]⟩) ![n, 0, 0] S1x256x128.size inb).emb (Shape.reshapeEquiv _ (ix2 r k))) = _
  rw [reshapeEquiv_ix2_1ab, rect_lead_emb n hn]

theorem lead_slot_read {N : ℕ} (M : Memref sig .tc .vmem (⟨3, ![N, 256, 128]⟩ : Shape) .bf16) (n : ℕ) (hn : n < N)
    (inb : ∀ a, (![n, 0, 0] : Fin 3 → ℕ) a + S1x256x128.size a ≤ (⟨3, ![N, 256, 128]⟩ : Shape).size a)
    (g : M.view.ty.Contents (Elt F)) (r : Fin 256) (k : Fin 128) :
    ((M.slice (Rect.unit ![n, 0, 0] S1x256x128.size inb) (fun _ => rfl)).squeeze S256x128 squeezes_S1x256x128_S256x128).view.read (Elt F) g (ix2 r k)
      = M.view.read (Elt F) g (ix3 (⟨n, hn⟩ : Fin N) r k) := by
  rw [View.read_apply, View.read_apply, lead_slot_emb M n hn]

theorem read_slotN (n : ℕ) (h : n < 16) (g : (cc0_scratch4 : Ref sig .tc).ty.Contents (Elt F)) (r : Fin 256) (k : Fin 128) :
    (slotN n h).view.read (Elt F) g (ix2 r k) = g (ix3 (⟨n, h⟩ : Fin 16) r k) :=
  lead_slot_read blkM n h (inbN n h) g r k

theorem read_slot6_snd (j : Fin 6) (g : (cc0_scratch1 : Ref sig .tc).ty.Contents (Elt F)) (r : Fin 256) (k : Fin 128) :
    (slot6 sndM j).view.read (Elt F) g (ix2 r k) = g (ix3 j r k) :=
  lead_slot_read sndM j.val j.isLt (inb6s j) g r k

theorem read_slot6_rcv (j : Fin 6) (g : (cc0_scratch2 : Ref sig .tc).ty.Contents (Elt F)) (r : Fin 256) (k : Fin 128) :
    (slot6 rcvM j).view.read (Elt F) g (ix2 r k) = g (ix3 j r k) :=
  lead_slot_read rcvM j.val j.isLt (inb6s j) g r k

/-! ## What a slot holds after a copy has landed in it

The copy writes, through the landing slot's view, what the source slot's view reads: contents that read, through
the landing slot, as the source reads are as good. -/

theorem holds_write_read_congr (p : Dev nD) (Md Ms : Memref sig .tc .vmem S256x128 .bf16) (q : PosShare TreeShare)
    (fd G : Buf (Elt F) (Md.view.loc (p : Thread nD τ))) (fs : Ms.view.ty.Contents (Elt F))
    (hG : ∀ x, Md.view.read (Elt F) G x = Ms.view.read (Elt F) fs x) :
    holds p Md q (Md.view.write (Elt F) fd (Ms.view.read (Elt F) fs) Finset.univ) = holds p Md q G := by
  refine pointsTo_congr fun i hi => ?_
  obtain ⟨x, rfl⟩ := View.exists_emb_of_mem_set _ hi
  rw [View.write_emb_of_mem _ _ (Finset.mem_univ x), ← hG x, View.read_apply, cast_cast, cast_eq]

/-- Slot `n` of one device's block buffer copied into slot `n'` of another's. -/
theorem landN (p : Dev nD) (n n' : ℕ) (h : n < 16) (h' : n' < 16) (q : PosShare TreeShare)
    (fd fs G : (cc0_scratch4 : Ref sig .tc).ty.Contents (Elt F))
    (hG : ∀ (r : Fin 256) (k : Fin 128), G (ix3 (⟨n', h'⟩ : Fin 16) r k) = fs (ix3 (⟨n, h⟩ : Fin 16) r k)) :
    holds p (slotN n' h') q ((slotN n' h').view.write (Elt F) fd ((slotN n h).view.read (Elt F) fs) Finset.univ)
      = holds p (slotN n' h') q G :=
  holds_write_read_congr p (slotN n' h') (slotN n h) q fd G fs fun x => by
    obtain ⟨r, k, rfl⟩ : ∃ (r : Fin 256) (k : Fin 128), x = ix2 r k := ⟨x 0, x 1, eq_ix2 x⟩
    rw [read_slotN, read_slotN]
    exact hG r k

/-- Slot `j` of one device's send buffer copied into slot `j` of another's receive buffer. -/
theorem land6 (p : Dev nD) (j : Fin 6) (q : PosShare TreeShare)
    (fd G : (cc0_scratch2 : Ref sig .tc).ty.Contents (Elt F)) (fs : (cc0_scratch1 : Ref sig .tc).ty.Contents (Elt F))
    (hG : ∀ (r : Fin 256) (k : Fin 128), G (ix3 j r k) = fs (ix3 j r k)) :
    holds p (slot6 rcvM j) q ((slot6 rcvM j).view.write (Elt F) fd ((slot6 sndM j).view.read (Elt F) fs) Finset.univ)
      = holds p (slot6 rcvM j) q G :=
  holds_write_read_congr p (slot6 rcvM j) (slot6 sndM j) q fd G fs fun x => by
    obtain ⟨r, k, rfl⟩ : ∃ (r : Fin 256) (k : Fin 128), x = ix2 r k := ⟨x 0, x 1, eq_ix2 x⟩
    rw [read_slot6_rcv, read_slot6_snd]
    exact hG r k

/-- The two buffers have one type, so the sender's contents themselves describe the landing slot. -/
theorem land6_self (p : Dev nD) (j : Fin 6) (q : PosShare TreeShare)
    (fd : (cc0_scratch2 : Ref sig .tc).ty.Contents (Elt F)) (fs : (cc0_scratch1 : Ref sig .tc).ty.Contents (Elt F)) :
    holds p (slot6 rcvM j) q ((slot6 rcvM j).view.write (Elt F) fd ((slot6 sndM j).view.read (Elt F) fs) Finset.univ)
      = holds p (slot6 rcvM j) q fs :=
  land6 p j q fd fs fs fun _ _ => rfl

/-! ## What a slot holds after a block has been stored to it

A store of a `[1, 256, 128]` block `v` through the buffer's rectangle at leading offset `n` puts `v (0, r, k)` at
`(n, r, k)`: contents that hold `v` there are as good on slot `n`. The offsets may be spelt in any way that
equals `(n, 0, 0)`. -/

theorem lead_store_congr {N : ℕ} (M : Memref sig .tc .vmem (⟨3, ![N, 256, 128]⟩ : Shape) .bf16) (c : Dev nD) (q : PosShare TreeShare)
    (n : ℕ) (hn : n < N) (off : Fin 3 → ℕ) (hoff : off = ![n, 0, 0])
    (inb : ∀ a, off a + S1x256x128.size a ≤ (⟨3, ![N, 256, 128]⟩ : Shape).size a)
    (inb' : ∀ a, (![n, 0, 0] : Fin 3 → ℕ) a + S1x256x128.size a ≤ (⟨3, ![N, 256, 128]⟩ : Shape).size a)
    (f G : Buf (Elt F) (M.view.loc (c : Thread nD τ))) (v : S1x256x128.Idx → Elt F .bf16)
    (hG : ∀ (r : Fin 256) (k : Fin 128), M.view.read (Elt F) G (ix3 (⟨n, hn⟩ : Fin N) r k) = v (ix3 (0 : Fin 1) r k)) :
    holds c ((M.slice (Rect.unit ![n, 0, 0] S1x256x128.size inb') (fun _ => rfl)).squeeze S256x128 squeezes_S1x256x128_S256x128) q
        ((M.access (Rect.unit off S1x256x128.size inb)).write (Elt F) f v Finset.univ)
      = holds c ((M.slice (Rect.unit ![n, 0, 0] S1x256x128.size inb') (fun _ => rfl)).squeeze S256x128 squeezes_S1x256x128_S256x128) q G := by
  subst hoff
  refine pointsTo_congr fun i hi => ?_
  obtain ⟨x, rfl⟩ := View.exists_emb_of_mem_set _ hi
  obtain ⟨r, k, rfl⟩ : ∃ (r : Fin 256) (k : Fin 128), x = ix2 r k := ⟨x 0, x 1, eq_ix2 x⟩
  have he : ((M.slice (Rect.unit ![n, 0, 0] S1x256x128.size inb') (fun _ => rfl)).squeeze S256x128 squeezes_S1x256x128_S256x128).view.emb (ix2 r k)
      = (M.access (Rect.unit ![n, 0, 0] S1x256x128.size inb)).emb (ix3 (0 : Fin 1) r k) := by
    show M.view.emb ((Rect.unit (s := ⟨3, ![N, 256, 128]⟩) ![n, 0, 0] S1x256x128.size inb').emb (Shape.reshapeEquiv _ (ix2 r k)))
      = M.view.emb ((Rect.unit (s := ⟨3, ![N, 256, 128]⟩) ![n, 0, 0] S1x256x128.size inb).emb (ix3 (0 : Fin 1) r k))
    rw [reshapeEquiv_ix2_1ab]
    rfl
  rw [he, View.write_emb_of_mem _ _ (Finset.mem_univ _), ← hG r k, View.read_apply, cast_cast]
  have hx : (M.access (Rect.unit ![n, 0, 0] S1x256x128.size inb)).emb (ix3 (0 : Fin 1) r k) = M.view.emb (ix3 (⟨n, hn⟩ : Fin N) r k) := by
    show M.view.emb ((Rect.unit (s := ⟨3, ![N, 256, 128]⟩) ![n, 0, 0] S1x256x128.size inb).emb (ix3 (0 : Fin 1) r k)) = _
    rw [rect_lead_emb n hn]
  rw [hx]
  exact (cast_eq _ _)

/-- A block stored to slot `j` of the send buffer. -/
theorem store6_snd (c : Dev nD) (j : Fin 6) (q : PosShare TreeShare) (off : Fin 3 → ℕ) (hoff : off = ![j.val, 0, 0])
    (inb : ∀ a, off a + S1x256x128.size a ≤ S6x256x128.size a)
    (f G : (cc0_scratch1 : Ref sig .tc).ty.Contents (Elt F)) (v : S1x256x128.Idx → Elt F .bf16)
    (hG : ∀ (r : Fin 256) (k : Fin 128), G (ix3 j r k) = v (ix3 (0 : Fin 1) r k)) :
    holds c (slot6 sndM j) q ((sndM.access (Rect.unit off S1x256x128.size inb)).write (Elt F) f v Finset.univ)
      = holds c (slot6 sndM j) q G :=
  lead_store_congr sndM c q j.val j.isLt off hoff inb (inb6s j) f G v hG

/-- A block stored to slot `n` of the block buffer. -/
theorem storeN (c : Dev nD) (n : ℕ) (h : n < 16) (q : PosShare TreeShare) (off : Fin 3 → ℕ) (hoff : off = ![n, 0, 0])
    (inb : ∀ a, off a + S1x256x128.size a ≤ S16x256x128.size a)
    (f G : (cc0_scratch4 : Ref sig .tc).ty.Contents (Elt F)) (v : S1x256x128.Idx → Elt F .bf16)
    (hG : ∀ (r : Fin 256) (k : Fin 128), G (ix3 (⟨n, h⟩ : Fin 16) r k) = v (ix3 (0 : Fin 1) r k)) :
    holds c (slotN n h) q ((blkM.access (Rect.unit off S1x256x128.size inb)).write (Elt F) f v Finset.univ)
      = holds c (slotN n h) q G :=
  lead_store_congr blkM c q n h off hoff inb (inbN n h) f G v hG

/-! ## What the lemmas rest on -/

/-- info: 'Cert.Kernel.Coll.mem_lead' depends on axioms: [propext, Classical.choice, Quot.sound] -/
#guard_msgs in #print axioms mem_lead

/-- info: 'Cert.Kernel.Coll.disjoint_lead' depends on axioms: [propext, Classical.choice, Quot.sound] -/
#guard_msgs in #print axioms disjoint_lead

/-- info: 'Cert.Kernel.Coll.halves' depends on axioms: [propext, Classical.choice, Quot.sound] -/
#guard_msgs in #print axioms halves

/-- info: 'Cert.Kernel.Coll.rect_lead_emb' depends on axioms: [propext, Quot.sound] -/
#guard_msgs in #print axioms rect_lead_emb

/-- info: 'Cert.Kernel.Coll.eq_ix3_lead' depends on axioms: [propext, Quot.sound] -/
#guard_msgs in #print axioms eq_ix3_lead

/-- info: 'Cert.Kernel.Coll.cut_lead' depends on axioms: [propext, Classical.choice, Quot.sound] -/
#guard_msgs in #print axioms cut_lead

/-- info: 'Cert.Kernel.Coll.holds_slot6' depends on axioms: [propext, Classical.choice, Quot.sound] -/
#guard_msgs in #print axioms holds_slot6

/-- info: 'Cert.Kernel.Coll.split6_view' depends on axioms: [propext, Classical.choice, Quot.sound] -/
#guard_msgs in #print axioms split6_view

/-- info: 'Cert.Kernel.Coll.split6_snd' depends on axioms: [propext, Classical.choice, Quot.sound] -/
#guard_msgs in #print axioms split6_snd

/-- info: 'Cert.Kernel.Coll.split6_rcv' depends on axioms: [propext, Classical.choice, Quot.sound] -/
#guard_msgs in #print axioms split6_rcv

/-- info: 'Cert.Kernel.Coll.holds_slotN' depends on axioms: [propext, Classical.choice, Quot.sound] -/
#guard_msgs in #print axioms holds_slotN

/-- info: 'Cert.Kernel.Coll.holds_slotN_congr' depends on axioms: [propext, Classical.choice, Quot.sound] -/
#guard_msgs in #print axioms holds_slotN_congr

/-- info: 'Cert.Kernel.Coll.inb16v' depends on axioms: [propext, Classical.choice, Quot.sound] -/
#guard_msgs in #print axioms inb16v

/-- info: 'Cert.Kernel.Coll.splitBlk_lit' depends on axioms: [propext, Classical.choice, Quot.sound] -/
#guard_msgs in #print axioms splitBlk_lit

/-- info: 'Cert.Kernel.Coll.sep_perm_even' depends on axioms: [propext, Classical.choice, Quot.sound] -/
#guard_msgs in #print axioms sep_perm_even

/-- info: 'Cert.Kernel.Coll.sep_perm_odd' depends on axioms: [propext, Classical.choice, Quot.sound] -/
#guard_msgs in #print axioms sep_perm_odd

/-- info: 'Cert.Kernel.Coll.splitBlk' depends on axioms: [propext, Classical.choice, Quot.sound] -/
#guard_msgs in #print axioms splitBlk

/-- info: 'Cert.Kernel.Coll.lead_slot_emb' depends on axioms: [propext, Classical.choice, Quot.sound] -/
#guard_msgs in #print axioms lead_slot_emb

/-- info: 'Cert.Kernel.Coll.lead_slot_read' depends on axioms: [propext, Classical.choice, Quot.sound] -/
#guard_msgs in #print axioms lead_slot_read

/-- info: 'Cert.Kernel.Coll.read_slotN' depends on axioms: [propext, Classical.choice, Quot.sound] -/
#guard_msgs in #print axioms read_slotN

/-- info: 'Cert.Kernel.Coll.read_slot6_snd' depends on axioms: [propext, Classical.choice, Quot.sound] -/
#guard_msgs in #print axioms read_slot6_snd

/-- info: 'Cert.Kernel.Coll.read_slot6_rcv' depends on axioms: [propext, Classical.choice, Quot.sound] -/
#guard_msgs in #print axioms read_slot6_rcv

/-- info: 'Cert.Kernel.Coll.holds_write_read_congr' depends on axioms: [propext, Classical.choice, Quot.sound] -/
#guard_msgs in #print axioms holds_write_read_congr

/-- info: 'Cert.Kernel.Coll.landN' depends on axioms: [propext, Classical.choice, Quot.sound] -/
#guard_msgs in #print axioms landN

/-- info: 'Cert.Kernel.Coll.land6' depends on axioms: [propext, Classical.choice, Quot.sound] -/
#guard_msgs in #print axioms land6

/-- info: 'Cert.Kernel.Coll.land6_self' depends on axioms: [propext, Classical.choice, Quot.sound] -/
#guard_msgs in #print axioms land6_self

/-- info: 'Cert.Kernel.Coll.lead_store_congr' depends on axioms: [propext, Classical.choice, Quot.sound] -/
#guard_msgs in #print axioms lead_store_congr

/-- info: 'Cert.Kernel.Coll.store6_snd' depends on axioms: [propext, Classical.choice, Quot.sound] -/
#guard_msgs in #print axioms store6_snd

/-- info: 'Cert.Kernel.Coll.storeN' depends on axioms: [propext, Classical.choice, Quot.sound] -/
#guard_msgs in #print axioms storeN

end Cert.Kernel.Coll

end
-- ==== Proof.Bits.Steps4.lean ====
/-
  The five copies again, the landing restated through an equation of assertions.

  Each wrapper of a copy hands the neighbour's receive cell the landing slot "holding what was sent". Here that is
  restated at the canonical contents by an equation between the two assertions about the slot, which is the form the
  slot lemmas prove; everything else is as in the first versions.
-/
import proofs.«900594_g7700000000000595_dist_rsdw_v7x_xyz2x2x2_y_m512_d512_f2048_bf16_1_alg».proof.Proof.Bits.Steps2
import proofs.«900594_g7700000000000595_dist_rsdw_v7x_xyz2x2x2_y_m512_d512_f2048_bf16_1_alg».proof.Proof.Bits.Slots

noncomputable section

namespace Cert.Kernel.Coll

open Cert.Kernel Cert.Kernel.Gen Cert.Kernel.Mesh
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ UU ℕ

section Sends
variable (SND : Dev nD → (cc0_scratch1 : Ref sig .tc).ty.Contents (Elt F)) (BLK : Dev nD → (cc0_scratch4 : Ref sig .tc).ty.Contents (Elt F))

/-- Copy j across y; the landing slot of the y neighbour is restated at the sender's canonical send contents. -/
theorem wp_ysend' (K : GSem nD τ sig → ℕ) (c n : Dev nD) (hn : n = yp c) (j : Fin 6)
    {hsc : (slot6 rcvM j : Memref sig (Dev.tc n : Thread nD τ).2.kind .vmem S256x128 .bf16).view.ref.isScScratch = false}
    {hsrc : (slot6 sndM j : Memref sig .tc .vmem S256x128 .bf16).view.WordExact} {hdst : (slot6 rcvM j : Memref sig .tc .vmem S256x128 .bf16).view.WordExact}
    {hsem : DmaTarget.Typed .vmem (.dma (yrS j)) (.remote (Dev.tc n : Thread nD τ) (slot6 rcvM j : Memref sig .tc .vmem S256x128 .bf16) (.dma (ysS j)) hsc)}
    {α : Type} {Q : α → sProp 𝕄} {k : PUnit → Prog (TpuEff nD τ sig (Elt F) Λ₀ .tc) α}
    (fs : Buf (Elt F) ((slot6 sndM j).view.loc (c : Thread nD τ))) (fd : Buf (Elt F) ((slot6 rcvM j).view.loc (yp c : Thread nD τ)))
    (heq : (holds (yp c) (slot6 rcvM j) fullShare ((slot6 rcvM j).view.write (Elt F) fd ((slot6 sndM j).view.read (Elt F) fs) Finset.univ) : sProp 𝕄)
      = holds (yp c) (slot6 rcvM j) fullShare (SND c))
    (O : CellTallies nD τ sig Unit) (W : Waits sig Unit) :
    iprop(cellInv ER (Rd SND BLK) (K (ysCell c j)) (ysCell c j) ∗ cellInv ER (Rd SND BLK) (K (yrCell (yp c) j)) (yrCell (yp c) j)
        ∗ ((slot6 sndM j).view.loc (c : Thread nD τ) ↦[(slot6 sndM j).view.set]{fullShare} fs)
        ∗ ((slot6 rcvM j).view.loc (yp c : Thread nD τ) ↦[(slot6 rcvM j).view.set]{fullShare} fd)
        ∗ owes (c : Thread nD τ) (O + tallyAt (yrCell (yp c) j) () Ny) W
        ∗ dutyTok ER (ysCell c j) 0 0 ∗ reached ER (ysCell c j) 0
        ∗ dutyTok ER (yrCell (yp c) j) 0 0 ∗ reached ER (yrCell (yp c) j) 0)
      ⊢ iprop(((cred (tallyAt (ysCell c j) () Ny) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (slot6 sndM j) (.remote (Dev.tc n : Thread nD τ) (slot6 rcvM j) (.dma (ysS j)) hsc) (.dma (yrS j)) hsrc hdst hsem) k) Q) := by
  subst hn
  exact Rounds.wp_send_pointsTo 𝒱₀ ER (Rd SND BLK) (c : Thread nD τ) none (κ₁ := K (ysCell c j)) (κ₂ := K (yrCell (yp c) j))
    (r₁ := 0) (r₂ := 0) (d₁ := 0) (d₂ := 0) (fs := fs) (fd := fd)
    (by rw [duties_ys]; exact Finset.mem_singleton_self _) (by rw [duties_yr]; exact Finset.mem_singleton_self _)
    () () Ny rfl (amount_ys SND BLK c j 0) (amount_yr SND BLK (yp c) j 0) O rfl (W := W)
    (by rw [payload_ys]; iintro H; iexists fs; iexact H)
    (by rw [payload_yr, yp_yp]; exact Entails.of_eq heq)

/-- Own chunk w (w = 0, 1) across x, from slot 2p + w into slot 2p + w + 8 of the x neighbour. -/
theorem wp_xsendA' (K : GSem nD τ sig → ℕ) (c n : Dev nD) (hn : n = xp c) (w : Fin 2) (j : Fin 6) (hj : j = lo6 w)
    (off8 off7 : Fin 3 → Nat)
    (h8 : ∀ a, off8 a + S1x256x128.size a ≤ S16x256x128.size a) (h7 : ∀ a, off7 a + S1x256x128.size a ≤ S16x256x128.size a)
    (e8 : off8 = ![2 * (c.val % 2) + w.val, 0, 0]) (e7 : off7 = ![2 * (c.val % 2) + w.val + 8, 0, 0])
    {hsc : (slotAt off7 h7 : Memref sig (Dev.tc n : Thread nD τ).2.kind .vmem S256x128 .bf16).view.ref.isScScratch = false}
    {hsrc : (slotAt off8 h8 : Memref sig .tc .vmem S256x128 .bf16).view.WordExact} {hdst : (slotAt off7 h7 : Memref sig .tc .vmem S256x128 .bf16).view.WordExact}
    {hsem : DmaTarget.Typed .vmem (.dma (xrS j)) (.remote (Dev.tc n : Thread nD τ) (slotAt off7 h7 : Memref sig .tc .vmem S256x128 .bf16) (.dma (xsS j)) hsc)}
    {α : Type} {Q : α → sProp 𝕄} {k : PUnit → Prog (TpuEff nD τ sig (Elt F) Λ₀ .tc) α}
    (fs : Buf (Elt F) ((ownA c w).view.loc (c : Thread nD τ))) (fd : Buf (Elt F) ((xinA (xp c) w).view.loc (xp c : Thread nD τ)))
    (heq : (holds (xp c) (xinA (xp c) w) fullShare ((xinA (xp c) w).view.write (Elt F) fd ((ownA c w).view.read (Elt F) fs) Finset.univ) : sProp 𝕄)
      = holds (xp c) (xinA (xp c) w) fullShare (BLK (xp c)))
    (O : CellTallies nD τ sig Unit) (W : Waits sig Unit) :
    iprop(cellInv ER (Rd SND BLK) (K (xsCell c j)) (xsCell c j) ∗ cellInv ER (Rd SND BLK) (K (xrCell (xp c) j)) (xrCell (xp c) j)
        ∗ ((ownA c w).view.loc (c : Thread nD τ) ↦[(ownA c w).view.set]{fullShare.left} fs)
        ∗ ((xinA (xp c) w).view.loc (xp c : Thread nD τ) ↦[(xinA (xp c) w).view.set]{fullShare} fd)
        ∗ owes (c : Thread nD τ) (O + tallyAt (xrCell (xp c) j) () Nb) W
        ∗ dutyTok ER (xsCell c j) 0 0 ∗ reached ER (xsCell c j) 0
        ∗ dutyTok ER (xrCell (xp c) j) 0 0 ∗ reached ER (xrCell (xp c) j) 0)
      ⊢ iprop(((cred (tallyAt (xsCell c j) () Nb) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (slotAt off8 h8) (.remote (Dev.tc n : Thread nD τ) (slotAt off7 h7) (.dma (xsS j)) hsc) (.dma (xrS j)) hsrc hdst hsem) k) Q) := by
  subst hj
  have e7' : off7 = ![2 * ((xp c).val % 2) + w.val + 8, 0, 0] := by rw [e7, xp_par]
  subst hn e8 e7'
  exact Rounds.wp_send_pointsTo 𝒱₀ ER (Rd SND BLK) (c : Thread nD τ) none (κ₁ := K (xsCell c (lo6 w))) (κ₂ := K (xrCell (xp c) (lo6 w)))
    (r₁ := 0) (r₂ := 0) (d₁ := 0) (d₂ := 0) (fs := fs) (fd := fd)
    (by rw [duties_xs]; exact Finset.mem_singleton_self _) (by rw [duties_xr]; exact Finset.mem_singleton_self _)
    () () Nb rfl (amount_xs SND BLK c (lo6 w) 0) (amount_xr SND BLK (xp c) (lo6 w) 0) O rfl (W := W)
    (by rw [payload_xsA]; iintro H; iexists fs; iexact H)
    (by rw [payload_xrA]; exact Entails.of_eq heq)

/-- Own chunk 4 + k' (k' = 0..3) across x, from slot 4 + k' into slot 12 + k' of the x neighbour. -/
theorem wp_xsendB' (K : GSem nD τ sig → ℕ) (c n : Dev nD) (hn : n = xp c) (k' : Fin 4) (j : Fin 6) (hj : j = hi6 k')
    {hsc : (xinB k' : Memref sig (Dev.tc n : Thread nD τ).2.kind .vmem S256x128 .bf16).view.ref.isScScratch = false}
    {hsrc : (ownB k' : Memref sig .tc .vmem S256x128 .bf16).view.WordExact} {hdst : (xinB k' : Memref sig .tc .vmem S256x128 .bf16).view.WordExact}
    {hsem : DmaTarget.Typed .vmem (.dma (xrS j)) (.remote (Dev.tc n : Thread nD τ) (xinB k' : Memref sig .tc .vmem S256x128 .bf16) (.dma (xsS j)) hsc)}
    {α : Type} {Q : α → sProp 𝕄} {k : PUnit → Prog (TpuEff nD τ sig (Elt F) Λ₀ .tc) α}
    (fs : Buf (Elt F) ((ownB k').view.loc (c : Thread nD τ))) (fd : Buf (Elt F) ((xinB k').view.loc (xp c : Thread nD τ)))
    (heq : (holds (xp c) (xinB k') fullShare ((xinB k').view.write (Elt F) fd ((ownB k').view.read (Elt F) fs) Finset.univ) : sProp 𝕄)
      = holds (xp c) (xinB k') fullShare (BLK (xp c)))
    (O : CellTallies nD τ sig Unit) (W : Waits sig Unit) :
    iprop(cellInv ER (Rd SND BLK) (K (xsCell c j)) (xsCell c j) ∗ cellInv ER (Rd SND BLK) (K (xrCell (xp c) j)) (xrCell (xp c) j)
        ∗ ((ownB k').view.loc (c : Thread nD τ) ↦[(ownB k').view.set]{fullShare} fs)
        ∗ ((xinB k').view.loc (xp c : Thread nD τ) ↦[(xinB k').view.set]{fullShare} fd)
        ∗ owes (c : Thread nD τ) (O + tallyAt (xrCell (xp c) j) () Nb) W
        ∗ dutyTok ER (xsCell c j) 0 0 ∗ reached ER (xsCell c j) 0
        ∗ dutyTok ER (xrCell (xp c) j) 0 0 ∗ reached ER (xrCell (xp c) j) 0)
      ⊢ iprop(((cred (tallyAt (xsCell c j) () Nb) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (ownB k') (.remote (Dev.tc n : Thread nD τ) (xinB k') (.dma (xsS j)) hsc) (.dma (xrS j)) hsrc hdst hsem) k) Q) := by
  subst hj
  subst hn
  exact Rounds.wp_send_pointsTo 𝒱₀ ER (Rd SND BLK) (c : Thread nD τ) none (κ₁ := K (xsCell c (hi6 k'))) (κ₂ := K (xrCell (xp c) (hi6 k')))
    (r₁ := 0) (r₂ := 0) (d₁ := 0) (d₂ := 0) (fs := fs) (fd := fd)
    (by rw [duties_xs]; exact Finset.mem_singleton_self _) (by rw [duties_xr]; exact Finset.mem_singleton_self _)
    () () Nb rfl (amount_xs SND BLK c (hi6 k') 0) (amount_xr SND BLK (xp c) (hi6 k') 0) O rfl (W := W)
    (by rw [payload_xsB]; iintro H; iexists fs; iexact H)
    (by rw [payload_xrB]; exact Entails.of_eq heq)

/-- Own chunk w (w = 0, 1) across z, from slot 2p + w into the same slot of the z neighbour. -/
theorem wp_zsendA' (K : GSem nD τ sig → ℕ) (c n : Dev nD) (hn : n = zp c) (w : Fin 2) (i : Fin 4) (hi : i = lo4 w)
    (offs offd : Fin 3 → Nat)
    (hs : ∀ a, offs a + S1x256x128.size a ≤ S16x256x128.size a) (hd : ∀ a, offd a + S1x256x128.size a ≤ S16x256x128.size a)
    (es : offs = ![2 * (c.val % 2) + w.val, 0, 0]) (ed : offd = ![2 * (c.val % 2) + w.val, 0, 0])
    {hsc : (slotAt offd hd : Memref sig (Dev.tc n : Thread nD τ).2.kind .vmem S256x128 .bf16).view.ref.isScScratch = false}
    {hsrc : (slotAt offs hs : Memref sig .tc .vmem S256x128 .bf16).view.WordExact} {hdst : (slotAt offd hd : Memref sig .tc .vmem S256x128 .bf16).view.WordExact}
    {hsem : DmaTarget.Typed .vmem (.dma (zrS i)) (.remote (Dev.tc n : Thread nD τ) (slotAt offd hd : Memref sig .tc .vmem S256x128 .bf16) (.dma (zsS i)) hsc)}
    {α : Type} {Q : α → sProp 𝕄} {k : PUnit → Prog (TpuEff nD τ sig (Elt F) Λ₀ .tc) α}
    (fs : Buf (Elt F) ((ownA c w).view.loc (c : Thread nD τ))) (fd : Buf (Elt F) ((zinA (zp c) w).view.loc (zp c : Thread nD τ)))
    (heq : (holds (zp c) (zinA (zp c) w) fullShare ((zinA (zp c) w).view.write (Elt F) fd ((ownA c w).view.read (Elt F) fs) Finset.univ) : sProp 𝕄)
      = holds (zp c) (zinA (zp c) w) fullShare (BLK (zp c)))
    (O : CellTallies nD τ sig Unit) (W : Waits sig Unit) :
    iprop(cellInv ER (Rd SND BLK) (K (zsCell c i)) (zsCell c i) ∗ cellInv ER (Rd SND BLK) (K (zrCell (zp c) i)) (zrCell (zp c) i)
        ∗ ((ownA c w).view.loc (c : Thread nD τ) ↦[(ownA c w).view.set]{fullShare.right} fs)
        ∗ ((zinA (zp c) w).view.loc (zp c : Thread nD τ) ↦[(zinA (zp c) w).view.set]{fullShare} fd)
        ∗ owes (c : Thread nD τ) (O + tallyAt (zrCell (zp c) i) () Nb) W
        ∗ dutyTok ER (zsCell c i) 0 0 ∗ reached ER (zsCell c i) 0
        ∗ dutyTok ER (zrCell (zp c) i) 0 0 ∗ reached ER (zrCell (zp c) i) 0)
      ⊢ iprop(((cred (tallyAt (zsCell c i) () Nb) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (slotAt offs hs) (.remote (Dev.tc n : Thread nD τ) (slotAt offd hd) (.dma (zsS i)) hsc) (.dma (zrS i)) hsrc hdst hsem) k) Q) := by
  subst hi
  have en : 2 * (c.val % 2) + w.val = (w.val + 2) - 2 * ((zp c).val % 2) := by rw [zp_par]; have := z2 c; have := w.isLt; omega
  have ed' : offd = ![(w.val + 2) - 2 * ((zp c).val % 2), 0, 0] := by rw [ed, en]
  subst hn es ed'
  exact Rounds.wp_send_pointsTo 𝒱₀ ER (Rd SND BLK) (c : Thread nD τ) none (κ₁ := K (zsCell c (lo4 w))) (κ₂ := K (zrCell (zp c) (lo4 w)))
    (r₁ := 0) (r₂ := 0) (d₁ := 0) (d₂ := 0) (fs := fs) (fd := fd)
    (by rw [duties_zs]; exact Finset.mem_singleton_self _) (by rw [duties_zr]; exact Finset.mem_singleton_self _)
    () () Nb rfl (amount_zs SND BLK c (lo4 w) 0) (amount_zr SND BLK (zp c) (lo4 w) 0) O rfl (W := W)
    (by rw [payload_zsA]; iintro H; iexists fs; iexact H)
    (by rw [payload_zrA]; exact Entails.of_eq heq)

/-- The x neighbour's copy of chunk w (w = 0, 1) across z, from slot 2p + w + 8 into the same slot of the z neighbour. -/
theorem wp_zsendB' (K : GSem nD τ sig → ℕ) (c n : Dev nD) (hn : n = zp c) (w : Fin 2) (i : Fin 4) (hi : i = hi4 w)
    (offs offd : Fin 3 → Nat)
    (hs : ∀ a, offs a + S1x256x128.size a ≤ S16x256x128.size a) (hd : ∀ a, offd a + S1x256x128.size a ≤ S16x256x128.size a)
    (es : offs = ![2 * (c.val % 2) + w.val + 8, 0, 0]) (ed : offd = ![2 * (c.val % 2) + w.val + 8, 0, 0])
    {hsc : (slotAt offd hd : Memref sig (Dev.tc n : Thread nD τ).2.kind .vmem S256x128 .bf16).view.ref.isScScratch = false}
    {hsrc : (slotAt offs hs : Memref sig .tc .vmem S256x128 .bf16).view.WordExact} {hdst : (slotAt offd hd : Memref sig .tc .vmem S256x128 .bf16).view.WordExact}
    {hsem : DmaTarget.Typed .vmem (.dma (zrS i)) (.remote (Dev.tc n : Thread nD τ) (slotAt offd hd : Memref sig .tc .vmem S256x128 .bf16) (.dma (zsS i)) hsc)}
    {α : Type} {Q : α → sProp 𝕄} {k : PUnit → Prog (TpuEff nD τ sig (Elt F) Λ₀ .tc) α}
    (fs : Buf (Elt F) ((xinA c w).view.loc (c : Thread nD τ))) (fd : Buf (Elt F) ((zinB (zp c) w).view.loc (zp c : Thread nD τ)))
    (heq : (holds (zp c) (zinB (zp c) w) fullShare ((zinB (zp c) w).view.write (Elt F) fd ((xinA c w).view.read (Elt F) fs) Finset.univ) : sProp 𝕄)
      = holds (zp c) (zinB (zp c) w) fullShare (BLK (zp c)))
    (O : CellTallies nD τ sig Unit) (W : Waits sig Unit) :
    iprop(cellInv ER (Rd SND BLK) (K (zsCell c i)) (zsCell c i) ∗ cellInv ER (Rd SND BLK) (K (zrCell (zp c) i)) (zrCell (zp c) i)
        ∗ ((xinA c w).view.loc (c : Thread nD τ) ↦[(xinA c w).view.set]{fullShare.left} fs)
        ∗ ((zinB (zp c) w).view.loc (zp c : Thread nD τ) ↦[(zinB (zp c) w).view.set]{fullShare} fd)
        ∗ owes (c : Thread nD τ) (O + tallyAt (zrCell (zp c) i) () Nb) W
        ∗ dutyTok ER (zsCell c i) 0 0 ∗ reached ER (zsCell c i) 0
        ∗ dutyTok ER (zrCell (zp c) i) 0 0 ∗ reached ER (zrCell (zp c) i) 0)
      ⊢ iprop(((cred (tallyAt (zsCell c i) () Nb) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (slotAt offs hs) (.remote (Dev.tc n : Thread nD τ) (slotAt offd hd) (.dma (zsS i)) hsc) (.dma (zrS i)) hsrc hdst hsem) k) Q) := by
  subst hi
  have en : 2 * (c.val % 2) + w.val + 8 = (w.val + 10) - 2 * ((zp c).val % 2) := by rw [zp_par]; have := z2 c; have := w.isLt; omega
  have ed' : offd = ![(w.val + 10) - 2 * ((zp c).val % 2), 0, 0] := by rw [ed, en]
  subst hn es ed'
  exact Rounds.wp_send_pointsTo 𝒱₀ ER (Rd SND BLK) (c : Thread nD τ) none (κ₁ := K (zsCell c (hi4 w))) (κ₂ := K (zrCell (zp c) (hi4 w)))
    (r₁ := 0) (r₂ := 0) (d₁ := 0) (d₂ := 0) (fs := fs) (fd := fd)
    (by rw [duties_zs]; exact Finset.mem_singleton_self _) (by rw [duties_zr]; exact Finset.mem_singleton_self _)
    () () Nb rfl (amount_zs SND BLK c (hi4 w) 0) (amount_zr SND BLK (zp c) (hi4 w) 0) O rfl (W := W)
    (by rw [payload_zsB]; iintro H; iexists fs; iexact H)
    (by rw [payload_zrB]; exact Entails.of_eq heq)

/-! The slot lemmas prove exactly the equations asked for. -/

example (K : GSem nD τ sig → ℕ) (c : Dev nD) (j : Fin 6) (fs : (cc0_scratch1 : Ref sig .tc).ty.Contents (Elt F)) (fd : (cc0_scratch2 : Ref sig .tc).ty.Contents (Elt F))
    (hG : ∀ (r : Fin 256) (k : Fin 128), SND c (ix3 j r k) = fs (ix3 j r k)) (O : CellTallies nD τ sig Unit) (W : Waits sig Unit) :=
  fun hsc hsrc hdst hsem (α : Type) (Q : α → sProp 𝕄) (k : PUnit → Prog (TpuEff nD τ sig (Elt F) Λ₀ .tc) α) =>
    wp_ysend' SND BLK K c (yp c) rfl j (hsc := hsc) (hsrc := hsrc) (hdst := hdst) (hsem := hsem) (Q := Q) (k := k) fs fd
      (land6 (yp c) j fullShare fd (SND c) fs hG) O W

example (K : GSem nD τ sig → ℕ) (c : Dev nD) (w : Fin 2) (off8 off7 : Fin 3 → Nat)
    (h8 : ∀ a, off8 a + S1x256x128.size a ≤ S16x256x128.size a) (h7 : ∀ a, off7 a + S1x256x128.size a ≤ S16x256x128.size a)
    (e8 : off8 = ![2 * (c.val % 2) + w.val, 0, 0]) (e7 : off7 = ![2 * (c.val % 2) + w.val + 8, 0, 0])
    (fs fd : (cc0_scratch4 : Ref sig .tc).ty.Contents (Elt F))
    (hn : 2 * (c.val % 2) + w.val < 16) (hn' : 2 * ((xp c).val % 2) + w.val + 8 < 16)
    (hG : ∀ (r : Fin 256) (k : Fin 128), BLK (xp c) (ix3 (⟨2 * ((xp c).val % 2) + w.val + 8, hn'⟩ : Fin 16) r k) = fs (ix3 (⟨2 * (c.val % 2) + w.val, hn⟩ : Fin 16) r k))
    (O : CellTallies nD τ sig Unit) (W : Waits sig Unit) :=
  fun hsc hsrc hdst hsem (α : Type) (Q : α → sProp 𝕄) (k : PUnit → Prog (TpuEff nD τ sig (Elt F) Λ₀ .tc) α) =>
    wp_xsendA' SND BLK K c (xp c) rfl w (lo6 w) rfl off8 off7 h8 h7 e8 e7 (hsc := hsc) (hsrc := hsrc) (hdst := hdst) (hsem := hsem) (Q := Q) (k := k) fs fd
      (landN (xp c) _ _ hn hn' fullShare fd fs (BLK (xp c)) hG) O W

example (K : GSem nD τ sig → ℕ) (c : Dev nD) (k' : Fin 4) (fs fd : (cc0_scratch4 : Ref sig .tc).ty.Contents (Elt F))
    (hn : 4 + k'.val < 16) (hn' : 12 + k'.val < 16)
    (hG : ∀ (r : Fin 256) (k : Fin 128), BLK (xp c) (ix3 (⟨12 + k'.val, hn'⟩ : Fin 16) r k) = fs (ix3 (⟨4 + k'.val, hn⟩ : Fin 16) r k))
    (O : CellTallies nD τ sig Unit) (W : Waits sig Unit) :=
  fun hsc hsrc hdst hsem (α : Type) (Q : α → sProp 𝕄) (k : PUnit → Prog (TpuEff nD τ sig (Elt F) Λ₀ .tc) α) =>
    wp_xsendB' SND BLK K c (xp c) rfl k' (hi6 k') rfl (hsc := hsc) (hsrc := hsrc) (hdst := hdst) (hsem := hsem) (Q := Q) (k := k) fs fd
      (landN (xp c) _ _ hn hn' fullShare fd fs (BLK (xp c)) hG) O W

example (K : GSem nD τ sig → ℕ) (c : Dev nD) (w : Fin 2) (offs offd : Fin 3 → Nat)
    (hs : ∀ a, offs a + S1x256x128.size a ≤ S16x256x128.size a) (hd : ∀ a, offd a + S1x256x128.size a ≤ S16x256x128.size a)
    (es : offs = ![2 * (c.val % 2) + w.val, 0, 0]) (ed : offd = ![2 * (c.val % 2) + w.val, 0, 0])
    (fs fd : (cc0_scratch4 : Ref sig .tc).ty.Contents (Elt F))
    (hn : 2 * (c.val % 2) + w.val < 16) (hn' : (w.val + 2) - 2 * ((zp c).val % 2) < 16)
    (hG : ∀ (r : Fin 256) (k : Fin 128), BLK (zp c) (ix3 (⟨(w.val + 2) - 2 * ((zp c).val % 2), hn'⟩ : Fin 16) r k) = fs (ix3 (⟨2 * (c.val % 2) + w.val, hn⟩ : Fin 16) r k))
    (O : CellTallies nD τ sig Unit) (W : Waits sig Unit) :=
  fun hsc hsrc hdst hsem (α : Type) (Q : α → sProp 𝕄) (k : PUnit → Prog (TpuEff nD τ sig (Elt F) Λ₀ .tc) α) =>
    wp_zsendA' SND BLK K c (zp c) rfl w (lo4 w) rfl offs offd hs hd es ed (hsc := hsc) (hsrc := hsrc) (hdst := hdst) (hsem := hsem) (Q := Q) (k := k) fs fd
      (landN (zp c) _ _ hn hn' fullShare fd fs (BLK (zp c)) hG) O W

example (K : GSem nD τ sig → ℕ) (c : Dev nD) (w : Fin 2) (offs offd : Fin 3 → Nat)
    (hs : ∀ a, offs a + S1x256x128.size a ≤ S16x256x128.size a) (hd : ∀ a, offd a + S1x256x128.size a ≤ S16x256x128.size a)
    (es : offs = ![2 * (c.val % 2) + w.val + 8, 0, 0]) (ed : offd = ![2 * (c.val % 2) + w.val + 8, 0, 0])
    (fs fd : (cc0_scratch4 : Ref sig .tc).ty.Contents (Elt F))
    (hn : 2 * (c.val % 2) + w.val + 8 < 16) (hn' : (w.val + 10) - 2 * ((zp c).val % 2) < 16)
    (hG : ∀ (r : Fin 256) (k : Fin 128), BLK (zp c) (ix3 (⟨(w.val + 10) - 2 * ((zp c).val % 2), hn'⟩ : Fin 16) r k) = fs (ix3 (⟨2 * (c.val % 2) + w.val + 8, hn⟩ : Fin 16) r k))
    (O : CellTallies nD τ sig Unit) (W : Waits sig Unit) :=
  fun hsc hsrc hdst hsem (α : Type) (Q : α → sProp 𝕄) (k : PUnit → Prog (TpuEff nD τ sig (Elt F) Λ₀ .tc) α) =>
    wp_zsendB' SND BLK K c (zp c) rfl w (hi4 w) rfl offs offd hs hd es ed (hsc := hsc) (hsrc := hsrc) (hdst := hdst) (hsem := hsem) (Q := Q) (k := k) fs fd
      (landN (zp c) _ _ hn hn' fullShare fd fs (BLK (zp c)) hG) O W

/-! With literal indices, as the body's context spells the cells. -/

example (K : GSem nD τ sig → ℕ) (c : Dev nD) (off8 off7 : Fin 3 → Nat)
    (h8 : ∀ a, off8 a + S1x256x128.size a ≤ S16x256x128.size a) (h7 : ∀ a, off7 a + S1x256x128.size a ≤ S16x256x128.size a)
    (e8 : off8 = ![2 * (c.val % 2) + (1 : Fin 2).val, 0, 0]) (e7 : off7 = ![2 * (c.val % 2) + (1 : Fin 2).val + 8, 0, 0])
    (fs fd : (cc0_scratch4 : Ref sig .tc).ty.Contents (Elt F))
    (heq : (holds (xp c) (xinA (xp c) 1) fullShare ((xinA (xp c) 1).view.write (Elt F) fd ((ownA c 1).view.read (Elt F) fs) Finset.univ) : sProp 𝕄)
      = holds (xp c) (xinA (xp c) 1) fullShare (BLK (xp c)))
    (O : CellTallies nD τ sig Unit) (W : Waits sig Unit)
    {hsc : (slotAt off7 h7 : Memref sig (Dev.tc (xp c) : Thread nD τ).2.kind .vmem S256x128 .bf16).view.ref.isScScratch = false}
    {hsrc : (slotAt off8 h8 : Memref sig .tc .vmem S256x128 .bf16).view.WordExact} {hdst : (slotAt off7 h7 : Memref sig .tc .vmem S256x128 .bf16).view.WordExact}
    {hsem : DmaTarget.Typed .vmem (.dma (xrS 1)) (.remote (Dev.tc (xp c) : Thread nD τ) (slotAt off7 h7 : Memref sig .tc .vmem S256x128 .bf16) (.dma (xsS 1)) hsc)}
    {α : Type} {Q : α → sProp 𝕄} {k : PUnit → Prog (TpuEff nD τ sig (Elt F) Λ₀ .tc) α} :
    iprop(cellInv ER (Rd SND BLK) (K (xsCell c 1)) (xsCell c 1) ∗ cellInv ER (Rd SND BLK) (K (xrCell (xp c) 1)) (xrCell (xp c) 1)
        ∗ ((ownA c 1).view.loc (c : Thread nD τ) ↦[(ownA c 1).view.set]{fullShare.left} fs)
        ∗ ((xinA (xp c) 1).view.loc (xp c : Thread nD τ) ↦[(xinA (xp c) 1).view.set]{fullShare} fd)
        ∗ owes (c : Thread nD τ) (O + tallyAt (xrCell (xp c) 1) () Nb) W
        ∗ dutyTok ER (xsCell c 1) 0 0 ∗ reached ER (xsCell c 1) 0
        ∗ dutyTok ER (xrCell (xp c) 1) 0 0 ∗ reached ER (xrCell (xp c) 1) 0)
      ⊢ iprop(((cred (tallyAt (xsCell c 1) () Nb) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (slotAt off8 h8) (.remote (Dev.tc (xp c) : Thread nD τ) (slotAt off7 h7) (.dma (xsS 1)) hsc) (.dma (xrS 1)) hsrc hdst hsem) k) Q) :=
  wp_xsendA' SND BLK K c (xp c) rfl 1 1 rfl off8 off7 h8 h7 e8 e7 fs fd heq O W

example (K : GSem nD τ sig → ℕ) (c : Dev nD) (fs fd : (cc0_scratch4 : Ref sig .tc).ty.Contents (Elt F))
    (heq : (holds (xp c) (xinB 1) fullShare ((xinB 1).view.write (Elt F) fd ((ownB 1).view.read (Elt F) fs) Finset.univ) : sProp 𝕄) = holds (xp c) (xinB 1) fullShare (BLK (xp c)))
    (O : CellTallies nD τ sig Unit) (W : Waits sig Unit) :=
  fun hsc hsrc hdst hsem (α : Type) (Q : α → sProp 𝕄) (k : PUnit → Prog (TpuEff nD τ sig (Elt F) Λ₀ .tc) α) =>
    wp_xsendB' SND BLK K c (xp c) rfl (k' := 1) 3 rfl (hsc := hsc) (hsrc := hsrc) (hdst := hdst) (hsem := hsem) (Q := Q) (k := k) fs fd heq O W

example (K : GSem nD τ sig → ℕ) (c : Dev nD) (offs offd : Fin 3 → Nat)
    (hs : ∀ a, offs a + S1x256x128.size a ≤ S16x256x128.size a) (hd : ∀ a, offd a + S1x256x128.size a ≤ S16x256x128.size a)
    (es : offs = ![2 * (c.val % 2) + (1 : Fin 2).val + 8, 0, 0]) (ed : offd = ![2 * (c.val % 2) + (1 : Fin 2).val + 8, 0, 0])
    (fs fd : (cc0_scratch4 : Ref sig .tc).ty.Contents (Elt F))
    (heq : (holds (zp c) (zinB (zp c) 1) fullShare ((zinB (zp c) 1).view.write (Elt F) fd ((xinA c 1).view.read (Elt F) fs) Finset.univ) : sProp 𝕄) = holds (zp c) (zinB (zp c) 1) fullShare (BLK (zp c)))
    (O : CellTallies nD τ sig Unit) (W : Waits sig Unit) :=
  fun hsc hsrc hdst hsem (α : Type) (Q : α → sProp 𝕄) (k : PUnit → Prog (TpuEff nD τ sig (Elt F) Λ₀ .tc) α) =>
    wp_zsendB' SND BLK K c (zp c) rfl 1 3 rfl offs offd hs hd es ed (hsc := hsc) (hsrc := hsrc) (hdst := hdst) (hsem := hsem) (Q := Q) (k := k) fs fd heq O W

end Sends

/-- info: 'Cert.Kernel.Coll.wp_ysend'' depends on axioms: [propext, Classical.choice, Quot.sound] -/
#guard_msgs in #print axioms wp_ysend'

/-- info: 'Cert.Kernel.Coll.wp_xsendA'' depends on axioms: [propext, Classical.choice, Quot.sound] -/
#guard_msgs in #print axioms wp_xsendA'

/-- info: 'Cert.Kernel.Coll.wp_xsendB'' depends on axioms: [propext, Classical.choice, Quot.sound] -/
#guard_msgs in #print axioms wp_xsendB'

/-- info: 'Cert.Kernel.Coll.wp_zsendA'' depends on axioms: [propext, Classical.choice, Quot.sound] -/
#guard_msgs in #print axioms wp_zsendA'

/-- info: 'Cert.Kernel.Coll.wp_zsendB'' depends on axioms: [propext, Classical.choice, Quot.sound] -/
#guard_msgs in #print axioms wp_zsendB'

end Cert.Kernel.Coll

end
-- ==== Proof.Bits.Finish.lean ====
/-
  The end of the body: every DMA cell of a device is closed.

  The schedule has one round: from round 1 on no cell has a duty. A device that stands at round 1 of one of its cells,
  having taken nothing of it, closes the cell and keeps its counter at zero. Doing so for the thirty-two DMA cells of a
  device hands back its thirty-two DMA semaphores at zero.
-/
import proofs.«900594_g7700000000000595_dist_rsdw_v7x_xyz2x2x2_y_m512_d512_f2048_bf16_1_alg».proof.Proof.Bits.Steps

noncomputable section

namespace Cert.Kernel.Coll

open Cert.Kernel Cert.Kernel.Gen Cert.Kernel.Mesh
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- Device c's positions at round 1 of its thirty-two DMA cells, in the order its semaphores are handed back. -/
def positions1 (c : Dev nD) : sProp 𝕄 :=
  iprop(atPos ER (ysCell c 0) 1 ∅ 0
    ∗ atPos ER (ysCell c 1) 1 ∅ 0
    ∗ atPos ER (ysCell c 2) 1 ∅ 0
    ∗ atPos ER (ysCell c 3) 1 ∅ 0
    ∗ atPos ER (ysCell c 4) 1 ∅ 0
    ∗ atPos ER (ysCell c 5) 1 ∅ 0
    ∗ atPos ER (yrCell c 0) 1 ∅ 0
    ∗ atPos ER (yrCell c 1) 1 ∅ 0
    ∗ atPos ER (yrCell c 2) 1 ∅ 0
    ∗ atPos ER (yrCell c 3) 1 ∅ 0
    ∗ atPos ER (yrCell c 4) 1 ∅ 0
    ∗ atPos ER (yrCell c 5) 1 ∅ 0
    ∗ atPos ER (xsCell c 0) 1 ∅ 0
    ∗ atPos ER (xsCell c 1) 1 ∅ 0
    ∗ atPos ER (xsCell c 2) 1 ∅ 0
    ∗ atPos ER (xsCell c 3) 1 ∅ 0
    ∗ atPos ER (xsCell c 4) 1 ∅ 0
    ∗ atPos ER (xsCell c 5) 1 ∅ 0
    ∗ atPos ER (xrCell c 0) 1 ∅ 0
    ∗ atPos ER (xrCell c 1) 1 ∅ 0
    ∗ atPos ER (xrCell c 2) 1 ∅ 0
    ∗ atPos ER (xrCell c 3) 1 ∅ 0
    ∗ atPos ER (xrCell c 4) 1 ∅ 0
    ∗ atPos ER (xrCell c 5) 1 ∅ 0
    ∗ atPos ER (zsCell c 0) 1 ∅ 0
    ∗ atPos ER (zsCell c 1) 1 ∅ 0
    ∗ atPos ER (zsCell c 2) 1 ∅ 0
    ∗ atPos ER (zsCell c 3) 1 ∅ 0
    ∗ atPos ER (zrCell c 0) 1 ∅ 0
    ∗ atPos ER (zrCell c 1) 1 ∅ 0
    ∗ atPos ER (zrCell c 2) 1 ∅ 0
    ∗ atPos ER (zrCell c 3) 1 ∅ 0)

section Finish
variable (SND : Dev nD → (cc0_scratch1 : Ref sig .tc).ty.Contents (Elt F)) (BLK : Dev nD → (cc0_scratch4 : Ref sig .tc).ty.Contents (Elt F))

/-- Only round 0 has duties. -/
theorem duties_later (g : GSem nD τ sig) : ∀ r, 1 ≤ r → (Rd (F := F) SND BLK).duties g r = ∅ := by
  intro r hr
  dsimp only [Rd]
  exact if_neg (fun h => absurd h.1 (by omega))

/-- The owner of a cell, at round 1 of it with nothing taken, closes it and keeps its counter, which reads zero. -/
theorem close_cell (κ : ℕ) (g : GSem nD τ sig) :
    iprop(cellInv ER (Rd (F := F) SND BLK) κ g ∗ atPos ER g 1 ∅ 0) ⊢ (|={Set.univ}=> semVal g 0 : sProp 𝕄) :=
  Rounds.cell_close ER (Rd SND BLK) (Set.mem_univ κ) (fun h => h) (R := 1) (duties_later SND BLK g)

/-- The same, the invariant and the position taken one after the other. -/
theorem close_cell_w (κ : ℕ) (g : GSem nD τ sig) :
    cellInv ER (Rd (F := F) SND BLK) κ g ⊢ iprop(atPos ER g 1 ∅ 0 -∗ (|={Set.univ}=> semVal g 0 : sProp 𝕄)) :=
  BI.wand_intro (close_cell SND BLK κ g)

/-- All thirty-two DMA cells of a device closed, one after the other. -/
theorem close_all (K : GSem nD τ sig → ℕ) (c : Dev nD) :
    iprop(invs SND BLK K c ∗ positions1 c) ⊢ (|={Set.univ}=> closedSems c : sProp 𝕄) := by
  unfold invs positions1 closedSems
  iintro ⟨⟨#Ib, #Ibx, #Iby, #Ibz, #Iys0, #Iys1, #Iys2, #Iys3, #Iys4, #Iys5, #Iyr0, #Iyr1, #Iyr2, #Iyr3, #Iyr4, #Iyr5,
      #Iyp0, #Iyp1, #Iyp2, #Iyp3, #Iyp4, #Iyp5, #Ixs0, #Ixs1, #Ixs2, #Ixs3, #Ixs4, #Ixs5, #Ixr0, #Ixr1, #Ixr2, #Ixr3, #Ixr4, #Ixr5,
      #Ixp0, #Ixp1, #Ixp2, #Ixp3, #Ixp4, #Ixp5, #Izs0, #Izs1, #Izs2, #Izs3, #Izr0, #Izr1, #Izr2, #Izr3, #Izp0, #Izp1, #Izp2, #Izp3⟩,
    Pys0, Pys1, Pys2, Pys3, Pys4, Pys5, Pyr0, Pyr1, Pyr2, Pyr3, Pyr4, Pyr5, Pxs0, Pxs1, Pxs2, Pxs3, Pxs4, Pxs5,
    Pxr0, Pxr1, Pxr2, Pxr3, Pxr4, Pxr5, Pzs0, Pzs1, Pzs2, Pzs3, Pzr0, Pzr1, Pzr2, Pzr3⟩
  imod (close_cell_w SND BLK (K (ysCell c 0)) (ysCell c 0)) $$ Iys0 Pys0 with Zys0
  imod (close_cell_w SND BLK (K (ysCell c 1)) (ysCell c 1)) $$ Iys1 Pys1 with Zys1
  imod (close_cell_w SND BLK (K (ysCell c 2)) (ysCell c 2)) $$ Iys2 Pys2 with Zys2
  imod (close_cell_w SND BLK (K (ysCell c 3)) (ysCell c 3)) $$ Iys3 Pys3 with Zys3
  imod (close_cell_w SND BLK (K (ysCell c 4)) (ysCell c 4)) $$ Iys4 Pys4 with Zys4
  imod (close_cell_w SND BLK (K (ysCell c 5)) (ysCell c 5)) $$ Iys5 Pys5 with Zys5
  imod (close_cell_w SND BLK (K (yrCell c 0)) (yrCell c 0)) $$ Iyr0 Pyr0 with Zyr0
  imod (close_cell_w SND BLK (K (yrCell c 1)) (yrCell c 1)) $$ Iyr1 Pyr1 with Zyr1
  imod (close_cell_w SND BLK (K (yrCell c 2)) (yrCell c 2)) $$ Iyr2 Pyr2 with Zyr2
  imod (close_cell_w SND BLK (K (yrCell c 3)) (yrCell c 3)) $$ Iyr3 Pyr3 with Zyr3
  imod (close_cell_w SND BLK (K (yrCell c 4)) (yrCell c 4)) $$ Iyr4 Pyr4 with Zyr4
  imod (close_cell_w SND BLK (K (yrCell c 5)) (yrCell c 5)) $$ Iyr5 Pyr5 with Zyr5
  imod (close_cell_w SND BLK (K (xsCell c 0)) (xsCell c 0)) $$ Ixs0 Pxs0 with Zxs0
  imod (close_cell_w SND BLK (K (xsCell c 1)) (xsCell c 1)) $$ Ixs1 Pxs1 with Zxs1
  imod (close_cell_w SND BLK (K (xsCell c 2)) (xsCell c 2)) $$ Ixs2 Pxs2 with Zxs2
  imod (close_cell_w SND BLK (K (xsCell c 3)) (xsCell c 3)) $$ Ixs3 Pxs3 with Zxs3
  imod (close_cell_w SND BLK (K (xsCell c 4)) (xsCell c 4)) $$ Ixs4 Pxs4 with Zxs4
  imod (close_cell_w SND BLK (K (xsCell c 5)) (xsCell c 5)) $$ Ixs5 Pxs5 with Zxs5
  imod (close_cell_w SND BLK (K (xrCell c 0)) (xrCell c 0)) $$ Ixr0 Pxr0 with Zxr0
  imod (close_cell_w SND BLK (K (xrCell c 1)) (xrCell c 1)) $$ Ixr1 Pxr1 with Zxr1
  imod (close_cell_w SND BLK (K (xrCell c 2)) (xrCell c 2)) $$ Ixr2 Pxr2 with Zxr2
  imod (close_cell_w SND BLK (K (xrCell c 3)) (xrCell c 3)) $$ Ixr3 Pxr3 with Zxr3
  imod (close_cell_w SND BLK (K (xrCell c 4)) (xrCell c 4)) $$ Ixr4 Pxr4 with Zxr4
  imod (close_cell_w SND BLK (K (xrCell c 5)) (xrCell c 5)) $$ Ixr5 Pxr5 with Zxr5
  imod (close_cell_w SND BLK (K (zsCell c 0)) (zsCell c 0)) $$ Izs0 Pzs0 with Zzs0
  imod (close_cell_w SND BLK (K (zsCell c 1)) (zsCell c 1)) $$ Izs1 Pzs1 with Zzs1
  imod (close_cell_w SND BLK (K (zsCell c 2)) (zsCell c 2)) $$ Izs2 Pzs2 with Zzs2
  imod (close_cell_w SND BLK (K (zsCell c 3)) (zsCell c 3)) $$ Izs3 Pzs3 with Zzs3
  imod (close_cell_w SND BLK (K (zrCell c 0)) (zrCell c 0)) $$ Izr0 Pzr0 with Zzr0
  imod (close_cell_w SND BLK (K (zrCell c 1)) (zrCell c 1)) $$ Izr1 Pzr1 with Zzr1
  imod (close_cell_w SND BLK (K (zrCell c 2)) (zrCell c 2)) $$ Izr2 Pzr2 with Zzr2
  imod (close_cell_w SND BLK (K (zrCell c 3)) (zrCell c 3)) $$ Izr3 Pzr3 with Zzr3
  imodintro
  isplitl [Zys0]; · iexact Zys0
  isplitl [Zys1]; · iexact Zys1
  isplitl [Zys2]; · iexact Zys2
  isplitl [Zys3]; · iexact Zys3
  isplitl [Zys4]; · iexact Zys4
  isplitl [Zys5]; · iexact Zys5
  isplitl [Zyr0]; · iexact Zyr0
  isplitl [Zyr1]; · iexact Zyr1
  isplitl [Zyr2]; · iexact Zyr2
  isplitl [Zyr3]; · iexact Zyr3
  isplitl [Zyr4]; · iexact Zyr4
  isplitl [Zyr5]; · iexact Zyr5
  isplitl [Zxs0]; · iexact Zxs0
  isplitl [Zxs1]; · iexact Zxs1
  isplitl [Zxs2]; · iexact Zxs2
  isplitl [Zxs3]; · iexact Zxs3
  isplitl [Zxs4]; · iexact Zxs4
  isplitl [Zxs5]; · iexact Zxs5
  isplitl [Zxr0]; · iexact Zxr0
  isplitl [Zxr1]; · iexact Zxr1
  isplitl [Zxr2]; · iexact Zxr2
  isplitl [Zxr3]; · iexact Zxr3
  isplitl [Zxr4]; · iexact Zxr4
  isplitl [Zxr5]; · iexact Zxr5
  isplitl [Zzs0]; · iexact Zzs0
  isplitl [Zzs1]; · iexact Zzs1
  isplitl [Zzs2]; · iexact Zzs2
  isplitl [Zzs3]; · iexact Zzs3
  isplitl [Zzr0]; · iexact Zzr0
  isplitl [Zzr1]; · iexact Zzr1
  isplitl [Zzr2]; · iexact Zzr2
  iexact Zzr3

end Finish

/-- info: 'Cert.Kernel.Coll.close_cell' depends on axioms: [propext, Classical.choice, Quot.sound] -/
#guard_msgs in #print axioms close_cell

/-- info: 'Cert.Kernel.Coll.close_all' depends on axioms: [propext, Classical.choice, Quot.sound] -/
#guard_msgs in #print axioms close_all

end Cert.Kernel.Coll

end
-- ==== Proof.Bits.BlkCases.lean ====
import proofs.«900594_g7700000000000595_dist_rsdw_v7x_xyz2x2x2_y_m512_d512_f2048_bf16_1_alg».proof.Proof.Bits.Mesh
import Idealize.ShloMosaic.Lib.ValueIdx

/-!
# What each slot of the block buffer holds

At the end, slot `s` of device `c`'s block buffer `[16, 256, 128]` holds one reduced chunk of one device of
`c`'s plane: slots 0 to 7 hold chunks of `c` itself and of its neighbour across z, slots 8 to 15 the same eight of
the neighbour across x. Within each eight, the last four slots are chunks 2 to 5 of the device itself; the first four
are chunks 0 and 1 of the two devices of the z pair, the pair's even member first.

`srcDev c s` is the device and `srcChunk s` the chunk; the lemmas below read the table at the slot numbers the
kernel computes for each role, on the device itself and on the neighbour a copy is sent to.
-/

noncomputable section

namespace Cert.Kernel.Coll

open Cert.Kernel Cert.Kernel.Gen Cert.Kernel.Mesh
open Idealize.ShloMosaic Idealize.ShloMosaic.TcCoe Idealize.SL.Sem
open Idealize.ShloMosaic.ValueIdx

variable {F : FTy → Type} [FloatOps F]

/-- The device whose chunk slot `s` of device `c`'s block buffer holds. -/
def srcDev (c : Dev nD) (s : ℕ) : Dev nD :=
  if s < 8 then (if 4 ≤ s ∨ s / 2 = c.val % 2 then c else zp c)
  else (if 12 ≤ s ∨ (s - 8) / 2 = c.val % 2 then xp c else xp (zp c))

/-- The number of the chunk slot `s` holds. -/
def srcChunk (s : ℕ) : Fin 6 :=
  if h : 4 ≤ s % 8 then ⟨s % 8 - 2, by omega⟩ else ⟨s % 2, by omega⟩

/-- The block buffer's final contents on device `c`, from the family `redB` of the devices' reduced chunks (chunk
    `j` of device `d` as the `[1, 256, 128]` block it is stored as). -/
def blkOf (redB : Dev nD → Fin 6 → (S1x256x128.Idx → Elt F .bf16)) (c : Dev nD) : (cc0_scratch4 : Ref sig .tc).ty.Contents (Elt F) :=
  fun (i : S16x256x128.Idx) => redB (srcDev c (i 0).val) (srcChunk (i 0).val) (ix3 (0 : Fin 1) (i 1) (i 2))

section Roles

variable (redB : Dev nD → Fin 6 → (S1x256x128.Idx → Elt F .bf16))

theorem blkOf_apply (c : Dev nD) (n : Fin 16) (r : Fin 256) (k : Fin 128) :
    blkOf redB c (ix3 n r k) = redB (srcDev c n.val) (srcChunk n.val) (ix3 (0 : Fin 1) r k) := rfl

theorem par_lt2 (c : Dev nD) : c.val % 2 < 2 := Nat.mod_lt _ (by decide)

theorem srcDev_ownA (c : Dev nD) (w : Fin 2) : srcDev c (2 * (c.val % 2) + w.val) = c := by
  have hz := par_lt2 c
  have hv := w.isLt
  unfold srcDev
  split_ifs <;> first | rfl | (exfalso; omega)

theorem srcChunk_ownA (c : Dev nD) (w : Fin 2) : srcChunk (2 * (c.val % 2) + w.val) = ⟨w.val, by have := w.isLt; omega⟩ := by
  have hz := par_lt2 c
  have hv := w.isLt
  unfold srcChunk
  rw [dif_neg (by omega)]
  exact Fin.ext (by show (2 * (c.val % 2) + w.val) % 2 = w.val; omega)

theorem blkOf_ownA (c : Dev nD) (w : Fin 2) (r : Fin 256) (k : Fin 128) :
    blkOf redB c (ix3 (⟨2 * (c.val % 2) + w.val, by have := par_lt2 c; have := w.isLt; omega⟩ : Fin 16) r k)
      = redB (c) ⟨w.val, by have := w.isLt; omega⟩ (ix3 (0 : Fin 1) r k) := by
  rw [blkOf_apply]
  show redB (srcDev c (2 * (c.val % 2) + w.val)) (srcChunk (2 * (c.val % 2) + w.val)) (ix3 (0 : Fin 1) r k) = _
  rw [srcDev_ownA, srcChunk_ownA]

theorem srcDev_ownB (c : Dev nD) (k' : Fin 4) : srcDev c (4 + k'.val) = c := by
  have hz := par_lt2 c
  have hv := k'.isLt
  unfold srcDev
  split_ifs <;> first | rfl | (exfalso; omega)

theorem srcChunk_ownB (k' : Fin 4) : srcChunk (4 + k'.val) = ⟨k'.val + 2, by have := k'.isLt; omega⟩ := by
  have hv := k'.isLt
  unfold srcChunk
  rw [dif_pos (by omega)]
  exact Fin.ext (by show (4 + k'.val) % 8 - 2 = k'.val + 2; omega)

theorem blkOf_ownB (c : Dev nD) (k' : Fin 4) (r : Fin 256) (k : Fin 128) :
    blkOf redB c (ix3 (⟨4 + k'.val, by have := par_lt2 c; have := k'.isLt; omega⟩ : Fin 16) r k)
      = redB (c) ⟨k'.val + 2, by have := k'.isLt; omega⟩ (ix3 (0 : Fin 1) r k) := by
  rw [blkOf_apply]
  show redB (srcDev c (4 + k'.val)) (srcChunk (4 + k'.val)) (ix3 (0 : Fin 1) r k) = _
  rw [srcDev_ownB, srcChunk_ownB]

theorem srcDev_xinA (c : Dev nD) (w : Fin 2) : srcDev c (2 * (c.val % 2) + w.val + 8) = xp c := by
  have hz := par_lt2 c
  have hv := w.isLt
  unfold srcDev
  split_ifs <;> first | rfl | (exfalso; omega)

theorem srcChunk_xinA (c : Dev nD) (w : Fin 2) : srcChunk (2 * (c.val % 2) + w.val + 8) = ⟨w.val, by have := w.isLt; omega⟩ := by
  have hz := par_lt2 c
  have hv := w.isLt
  unfold srcChunk
  rw [dif_neg (by omega)]
  exact Fin.ext (by show (2 * (c.val % 2) + w.val + 8) % 2 = w.val; omega)

theorem blkOf_xinA (c : Dev nD) (w : Fin 2) (r : Fin 256) (k : Fin 128) :
    blkOf redB c (ix3 (⟨2 * (c.val % 2) + w.val + 8, by have := par_lt2 c; have := w.isLt; omega⟩ : Fin 16) r k)
      = redB (xp c) ⟨w.val, by have := w.isLt; omega⟩ (ix3 (0 : Fin 1) r k) := by
  rw [blkOf_apply]
  show redB (srcDev c (2 * (c.val % 2) + w.val + 8)) (srcChunk (2 * (c.val % 2) + w.val + 8)) (ix3 (0 : Fin 1) r k) = _
  rw [srcDev_xinA, srcChunk_xinA]

theorem srcDev_xinB (c : Dev nD) (k' : Fin 4) : srcDev c (12 + k'.val) = xp c := by
  have hz := par_lt2 c
  have hv := k'.isLt
  unfold srcDev
  split_ifs <;> first | rfl | (exfalso; omega)

theorem srcChunk_xinB (k' : Fin 4) : srcChunk (12 + k'.val) = ⟨k'.val + 2, by have := k'.isLt; omega⟩ := by
  have hv := k'.isLt
  unfold srcChunk
  rw [dif_pos (by omega)]
  exact Fin.ext (by show (12 + k'.val) % 8 - 2 = k'.val + 2; omega)

theorem blkOf_xinB (c : Dev nD) (k' : Fin 4) (r : Fin 256) (k : Fin 128) :
    blkOf redB c (ix3 (⟨12 + k'.val, by have := par_lt2 c; have := k'.isLt; omega⟩ : Fin 16) r k)
      = redB (xp c) ⟨k'.val + 2, by have := k'.isLt; omega⟩ (ix3 (0 : Fin 1) r k) := by
  rw [blkOf_apply]
  show redB (srcDev c (12 + k'.val)) (srcChunk (12 + k'.val)) (ix3 (0 : Fin 1) r k) = _
  rw [srcDev_xinB, srcChunk_xinB]

theorem srcDev_zinA (c : Dev nD) (w : Fin 2) : srcDev c ((w.val + 2) - 2 * (c.val % 2)) = zp c := by
  have hz := par_lt2 c
  have hv := w.isLt
  unfold srcDev
  split_ifs <;> first | rfl | (exfalso; omega)

theorem srcChunk_zinA (c : Dev nD) (w : Fin 2) : srcChunk ((w.val + 2) - 2 * (c.val % 2)) = ⟨w.val, by have := w.isLt; omega⟩ := by
  have hz := par_lt2 c
  have hv := w.isLt
  unfold srcChunk
  rw [dif_neg (by omega)]
  exact Fin.ext (by show ((w.val + 2) - 2 * (c.val % 2)) % 2 = w.val; omega)

theorem blkOf_zinA (c : Dev nD) (w : Fin 2) (r : Fin 256) (k : Fin 128) :
    blkOf redB c (ix3 (⟨(w.val + 2) - 2 * (c.val % 2), by have := par_lt2 c; have := w.isLt; omega⟩ : Fin 16) r k)
      = redB (zp c) ⟨w.val, by have := w.isLt; omega⟩ (ix3 (0 : Fin 1) r k) := by
  rw [blkOf_apply]
  show redB (srcDev c ((w.val + 2) - 2 * (c.val % 2))) (srcChunk ((w.val + 2) - 2 * (c.val % 2))) (ix3 (0 : Fin 1) r k) = _
  rw [srcDev_zinA, srcChunk_zinA]

theorem srcDev_zinB (c : Dev nD) (w : Fin 2) : srcDev c ((w.val + 10) - 2 * (c.val % 2)) = xp (zp c) := by
  have hz := par_lt2 c
  have hv := w.isLt
  unfold srcDev
  split_ifs <;> first | rfl | (exfalso; omega)

theorem srcChunk_zinB (c : Dev nD) (w : Fin 2) : srcChunk ((w.val + 10) - 2 * (c.val % 2)) = ⟨w.val, by have := w.isLt; omega⟩ := by
  have hz := par_lt2 c
  have hv := w.isLt
  unfold srcChunk
  rw [dif_neg (by omega)]
  exact Fin.ext (by show ((w.val + 10) - 2 * (c.val % 2)) % 2 = w.val; omega)

theorem blkOf_zinB (c : Dev nD) (w : Fin 2) (r : Fin 256) (k : Fin 128) :
    blkOf redB c (ix3 (⟨(w.val + 10) - 2 * (c.val % 2), by have := par_lt2 c; have := w.isLt; omega⟩ : Fin 16) r k)
      = redB (xp (zp c)) ⟨w.val, by have := w.isLt; omega⟩ (ix3 (0 : Fin 1) r k) := by
  rw [blkOf_apply]
  show redB (srcDev c ((w.val + 10) - 2 * (c.val % 2))) (srcChunk ((w.val + 10) - 2 * (c.val % 2))) (ix3 (0 : Fin 1) r k) = _
  rw [srcDev_zinB, srcChunk_zinB]

/-! ## Where a device's copies land

The slot a copy lands in is computed on the receiving device, with the receiver's own parity; what the receiver's
table says of that slot is the sender's chunk, because a neighbour's neighbour across the same axis is the device
itself. -/

theorem blkOf_land_xinA (c : Dev nD) (w : Fin 2) (r : Fin 256) (k : Fin 128) :
    blkOf redB (xp c) (ix3 (⟨2 * ((xp c).val % 2) + w.val + 8, by have := par_lt2 (xp c); have := w.isLt; omega⟩ : Fin 16) r k)
      = redB c ⟨w.val, by have := w.isLt; omega⟩ (ix3 (0 : Fin 1) r k) := by
  rw [blkOf_xinA, xp_xp]

theorem blkOf_land_xinB (c : Dev nD) (k' : Fin 4) (r : Fin 256) (k : Fin 128) :
    blkOf redB (xp c) (ix3 (⟨12 + k'.val, by have := k'.isLt; omega⟩ : Fin 16) r k)
      = redB c ⟨k'.val + 2, by have := k'.isLt; omega⟩ (ix3 (0 : Fin 1) r k) := by
  have h := blkOf_xinB redB (xp c) k' r k
  rw [xp_xp] at h
  exact h

theorem blkOf_land_zinA (c : Dev nD) (w : Fin 2) (r : Fin 256) (k : Fin 128) :
    blkOf redB (zp c) (ix3 (⟨(w.val + 2) - 2 * ((zp c).val % 2), by have := par_lt2 (zp c); have := w.isLt; omega⟩ : Fin 16) r k)
      = redB c ⟨w.val, by have := w.isLt; omega⟩ (ix3 (0 : Fin 1) r k) := by
  rw [blkOf_zinA, zp_zp]

theorem blkOf_land_zinB (c : Dev nD) (w : Fin 2) (r : Fin 256) (k : Fin 128) :
    blkOf redB (zp c) (ix3 (⟨(w.val + 10) - 2 * ((zp c).val % 2), by have := par_lt2 (zp c); have := w.isLt; omega⟩ : Fin 16) r k)
      = redB (xp c) ⟨w.val, by have := w.isLt; omega⟩ (ix3 (0 : Fin 1) r k) := by
  rw [blkOf_zinB, zp_zp]

end Roles

/-! ## What the lemmas rest on -/

/-- info: 'Cert.Kernel.Coll.blkOf_apply' depends on axioms: [propext, Classical.choice, Quot.sound] -/
#guard_msgs in #print axioms blkOf_apply

/-- info: 'Cert.Kernel.Coll.par_lt2' does not depend on any axioms -/
#guard_msgs in #print axioms par_lt2

/-- info: 'Cert.Kernel.Coll.srcDev_ownA' depends on axioms: [propext, Quot.sound] -/
#guard_msgs in #print axioms srcDev_ownA

/-- info: 'Cert.Kernel.Coll.srcChunk_ownA' depends on axioms: [propext, Quot.sound] -/
#guard_msgs in #print axioms srcChunk_ownA

/-- info: 'Cert.Kernel.Coll.blkOf_ownA' depends on axioms: [propext, Classical.choice, Quot.sound] -/
#guard_msgs in #print axioms blkOf_ownA

/-- info: 'Cert.Kernel.Coll.srcDev_ownB' depends on axioms: [propext, Quot.sound] -/
#guard_msgs in #print axioms srcDev_ownB

/-- info: 'Cert.Kernel.Coll.srcChunk_ownB' depends on axioms: [propext, Quot.sound] -/
#guard_msgs in #print axioms srcChunk_ownB

/-- info: 'Cert.Kernel.Coll.blkOf_ownB' depends on axioms: [propext, Classical.choice, Quot.sound] -/
#guard_msgs in #print axioms blkOf_ownB

/-- info: 'Cert.Kernel.Coll.srcDev_xinA' depends on axioms: [propext, Quot.sound] -/
#guard_msgs in #print axioms srcDev_xinA

/-- info: 'Cert.Kernel.Coll.srcChunk_xinA' depends on axioms: [propext, Quot.sound] -/
#guard_msgs in #print axioms srcChunk_xinA

/-- info: 'Cert.Kernel.Coll.blkOf_xinA' depends on axioms: [propext, Classical.choice, Quot.sound] -/
#guard_msgs in #print axioms blkOf_xinA

/-- info: 'Cert.Kernel.Coll.srcDev_xinB' depends on axioms: [propext, Quot.sound] -/
#guard_msgs in #print axioms srcDev_xinB

/-- info: 'Cert.Kernel.Coll.srcChunk_xinB' depends on axioms: [propext, Quot.sound] -/
#guard_msgs in #print axioms srcChunk_xinB

/-- info: 'Cert.Kernel.Coll.blkOf_xinB' depends on axioms: [propext, Classical.choice, Quot.sound] -/
#guard_msgs in #print axioms blkOf_xinB

/-- info: 'Cert.Kernel.Coll.srcDev_zinA' depends on axioms: [propext, Quot.sound] -/
#guard_msgs in #print axioms srcDev_zinA

/-- info: 'Cert.Kernel.Coll.srcChunk_zinA' depends on axioms: [propext, Quot.sound] -/
#guard_msgs in #print axioms srcChunk_zinA

/-- info: 'Cert.Kernel.Coll.blkOf_zinA' depends on axioms: [propext, Classical.choice, Quot.sound] -/
#guard_msgs in #print axioms blkOf_zinA

/-- info: 'Cert.Kernel.Coll.srcDev_zinB' depends on axioms: [propext, Quot.sound] -/
#guard_msgs in #print axioms srcDev_zinB

/-- info: 'Cert.Kernel.Coll.srcChunk_zinB' depends on axioms: [propext, Quot.sound] -/
#guard_msgs in #print axioms srcChunk_zinB

/-- info: 'Cert.Kernel.Coll.blkOf_zinB' depends on axioms: [propext, Classical.choice, Quot.sound] -/
#guard_msgs in #print axioms blkOf_zinB

/-- info: 'Cert.Kernel.Coll.blkOf_land_xinA' depends on axioms: [propext, Classical.choice, Quot.sound] -/
#guard_msgs in #print axioms blkOf_land_xinA

/-- info: 'Cert.Kernel.Coll.blkOf_land_xinB' depends on axioms: [propext, Classical.choice, Quot.sound] -/
#guard_msgs in #print axioms blkOf_land_xinB

/-- info: 'Cert.Kernel.Coll.blkOf_land_zinA' depends on axioms: [propext, Classical.choice, Quot.sound] -/
#guard_msgs in #print axioms blkOf_land_zinA

/-- info: 'Cert.Kernel.Coll.blkOf_land_zinB' depends on axioms: [propext, Classical.choice, Quot.sound] -/
#guard_msgs in #print axioms blkOf_land_zinB

end Cert.Kernel.Coll

end
-- ==== Proof.Bits.Values.lean ====
import proofs.«900594_g7700000000000595_dist_rsdw_v7x_xyz2x2x2_y_m512_d512_f2048_bf16_1_alg».proof.Proof.Bits.Mesh
import proofs.«900594_g7700000000000595_dist_rsdw_v7x_xyz2x2x2_y_m512_d512_f2048_bf16_1_alg».proof.Proof.Gen.Kernel.Skeleton
import proofs.«900594_g7700000000000595_dist_rsdw_v7x_xyz2x2x2_y_m512_d512_f2048_bf16_1_alg».proof.Proof.Gen.Kernel.Frame
import proofs.«900594_g7700000000000595_dist_rsdw_v7x_xyz2x2x2_y_m512_d512_f2048_bf16_1_alg».proof.Proof.Bits.BodyDefs
import proofs.«900594_g7700000000000595_dist_rsdw_v7x_xyz2x2x2_y_m512_d512_f2048_bf16_1_alg».proof.Proof.Bits.BlkCases
import Idealize.ShloMosaic.Lib.Pipeline.Launch
import Idealize.ShloMosaic.Lib.Pipeline.Kit
import Idealize.ShloMosaic.Lib.Tactic

noncomputable section

namespace Cert.Kernel.Coll

open Cert.Kernel Cert.Kernel.Gen Cert.Kernel.Mesh
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

open Idealize.ShloMosaic.ValueIdx

/-! ## What the kernel computes, device by device, as terms of the two staged argument blocks

Every value the body moves is named here once, in the form the body's own loads and stores give it: a load is the
view's read of the buffer's contents through the load's rectangle; the bf16 copy of dy's column half and the six
partial products of the device's own rows are lists of (rectangle, vector) pieces read back through covering
rectangles. -/

abbrev M0 : Memref sig .tc .vmem S512x512 .f32 := Memref.whole cc0_stg0_0
abbrev M1 : Memref sig .tc .vmem S512x2048 .f32 := Memref.whole cc0_stg1_0
abbrev M2 : Memref sig .tc .vmem S256x2048 .f32 := Memref.whole cc0_stg2_0
abbrev Mbf : Memref sig .tc .vmem S512x1024 .bf16 := Memref.whole cc0_scratch0
abbrev Mp : Memref sig .tc .vmem S6x256x128 .f32 := Memref.whole cc0_scratch3

/-- The rectangle of slot j of a [6, 256, 128] buffer, and of slot n of the [16, 256, 128] one. -/
abbrev R6 (j : Fin 6) : Rect S6x256x128 := Rect.unit (s := S6x256x128) ![j.val, 0, 0] S1x256x128.size (inb6s j)
abbrev colR (o : ℕ) (h : ∀ a, (![0, o] : Fin 2 → ℕ) a + S512x128.size a ≤ S512x1024.size a) : Rect S512x1024 :=
  Rect.unit (s := S512x1024) ![0, o] S512x128.size h

section Spec
variable (X : (cc0_stg0_0 : Ref sig .tc).ty.Contents (Elt F)) (DY : (cc0_stg1_0 : Ref sig .tc).ty.Contents (Elt F))

/-- The device's x block cut to the peer's columns, and to its own, in bf16. -/
def xRaw (c : Dev nD) : Vec F S512x256 .f32 :=
  View.readAt (Elt F) M0.view (Rect.unit (s := S512x512) (k0_off1 c) S512x256.size (k0_off1_inb c)).toLoadRect X
def xpL (c : Dev nD) : FVec F S512x256 .bf16 := k0_pay1 (xRaw X c)
def xmL (c : Dev nD) : FVec F S512x256 .bf16 :=
  k0_pay2 (View.readAt (Elt F) M0.view (Rect.unit (s := S512x512) (k0_off2 c) S512x256.size (k0_off2_inb c)).toLoadRect X)
/-- Column chunk w (of the device's own first two) of dy, in f32. -/
def dyL (c : Dev nD) (w : Fin 2) : Vec F S512x128 .f32 :=
  View.readAt (Elt F) M1.view (Rect.unit (s := S512x2048) (k0_off3 c (BitVec.ofNat 32 w.val)) S512x128.size (k0_off3_inb c w)).toLoadRect DY
/-- The bf16 copy of the device's column half of dy, as the one piece written over the whole scratch buffer. -/
def bfW (c : Dev nD) : List (View.Piece (Elt F) S512x1024 .bf16) :=
  [⟨Rect.unit (s := S512x1024) ![0, 0] S512x1024.size inb_S512x1024_S512x1024_0_0,
      k0_pay5 (View.readAt (Elt F) M1.view (Rect.unit (s := S512x2048) (k0_off4 c) S512x1024.size (k0_off4_inb c)).toLoadRect DY)⟩]
/-- Its column chunk at a literal offset, and at the device's own first two chunks. -/
def bfAt (c : Dev nD) (o : ℕ) (h : ∀ a, (![0, o] : Fin 2 → ℕ) a + S512x128.size a ≤ S512x1024.size a) : Vec F S512x128 .bf16 :=
  Mbf.view.readCov (bfW DY c) (colR o h).toLoadRect
def bfS (c : Dev nD) (w : Fin 2) : Vec F S512x128 .bf16 :=
  View.readAt (Elt F) Mbf.view (Rect.unit (s := S512x1024) (k0_off5 c (BitVec.ofNat 32 w.val)) S512x128.size (k0_off5_inb c w)).toLoadRect
    (Mbf.view.writes (Elt F) Mbf.view.junk (bfW DY c))

/-- The six partial products for the PEER's rows, as sent across y. -/
def sndVec (c : Dev nD) : Fin 6 → FVec F S1x256x128 .bf16
  | 0 => k0_pay3 (xRaw X c) (dyL DY c 0)
  | 1 => k0_pay4 (xpL X c) (dyL DY c 1)
  | 2 => k0_pay6 (xpL X c) (bfAt DY c 512 inb_S512x1024_S512x128_0_512)
  | 3 => k0_pay8 (k0_pay7 (xpL X c) (bfAt DY c 640 inb_S512x1024_S512x128_0_640))
  | 4 => k0_pay9 (xpL X c) (bfAt DY c 768 inb_S512x1024_S512x128_0_768)
  | 5 => k0_pay10 (xpL X c) (bfAt DY c 896 inb_S512x1024_S512x128_0_896)

/-- The six partial products for the device's OWN rows, as the pieces written into the f32 scratch buffer (last first). -/
def pW (c : Dev nD) : List (View.Piece (Elt F) S6x256x128 .f32) :=
  ⟨R6 5, k0_pay17 (xmL X c) (bfAt DY c 896 inb_S512x1024_S512x128_0_896)⟩ ::
  ⟨R6 4, k0_pay16 (k0_pay15 (xmL X c) (bfAt DY c 768 inb_S512x1024_S512x128_0_768))⟩ ::
  [⟨R6 3, k0_pay14 (xmL X c) (bfAt DY c 640 inb_S512x1024_S512x128_0_640)⟩,
   ⟨R6 2, k0_pay13 (xmL X c) (bfAt DY c 512 inb_S512x1024_S512x128_0_512)⟩,
   ⟨R6 1, k0_pay12 (xmL X c) (bfS DY c 1)⟩,
   ⟨R6 0, k0_pay11 (xmL X c) (bfS DY c 0)⟩]
def pAt (c : Dev nD) (j : Fin 6) : Vec F S1x256x128 .f32 := Mp.view.readCov (pW X DY c) (R6 j).toLoadRect

end Spec

section Spec2
variable (SND : Dev nD → (cc0_scratch1 : Ref sig .tc).ty.Contents (Elt F)) (BLK : Dev nD → (cc0_scratch4 : Ref sig .tc).ty.Contents (Elt F))
variable (X : (cc0_stg0_0 : Ref sig .tc).ty.Contents (Elt F)) (DY : (cc0_stg1_0 : Ref sig .tc).ty.Contents (Elt F))

/-- What the y neighbour sent for chunk j, read out of the receive buffer's slot j. -/
def rAt (c : Dev nD) (j : Fin 6) : Vec F S1x256x128 .bf16 :=
  View.readAt (Elt F) (Memref.whole cc0_scratch2 : Memref sig .tc .vmem S6x256x128 .bf16).view (R6 j).toLoadRect (SND (yp c))

/-- The reduced chunk j of device c: its own partial product plus the neighbour's, in f32 (what goes to the result)
    and in bf16 (what goes into the block buffer and on to the x and z neighbours). -/
def red32 (c : Dev nD) : Fin 6 → FVec F S256x128 .f32
  | 0 => k0_pay18 (pAt X DY c 0) (rAt SND c 0)
  | 1 => k0_pay20 (pAt X DY c 1) (rAt SND c 1)
  | 2 => k0_pay22 (pAt X DY c 2) (rAt SND c 2)
  | 3 => k0_pay24 (pAt X DY c 3) (rAt SND c 3)
  | 4 => k0_pay26 (pAt X DY c 4) (rAt SND c 4)
  | 5 => k0_pay28 (pAt X DY c 5) (rAt SND c 5)
def redB (c : Dev nD) : Fin 6 → (S1x256x128.Idx → Elt F .bf16)
  | 0 => k0_pay19 (pAt X DY c 0) (rAt SND c 0)
  | 1 => k0_pay21 (pAt X DY c 1) (rAt SND c 1)
  | 2 => k0_pay23 (pAt X DY c 2) (rAt SND c 2)
  | 3 => k0_pay25 (pAt X DY c 3) (rAt SND c 3)
  | 4 => k0_pay27 (pAt X DY c 4) (rAt SND c 4)
  | 5 => k0_pay29 (k0_pay28 (pAt X DY c 5) (rAt SND c 5))

/-- A slot of the block buffer read back, at a computed offset. -/
def bAt (c : Dev nD) (off : Fin 3 → ℕ) (h : ∀ a, off a + S1x256x128.size a ≤ S16x256x128.size a) : Vec F S1x256x128 .bf16 :=
  View.readAt (Elt F) (Memref.whole cc0_scratch4 : Memref sig .tc .vmem S16x256x128 .bf16).view (Rect.unit (s := S16x256x128) off S1x256x128.size h).toLoadRect (BLK c)

/-- One [256, 128] column chunk of the result at a computed offset. -/
abbrev oR (off : Fin 2 → ℕ) (h : ∀ a, off a + S256x128.size a ≤ S256x2048.size a) : Rect S256x2048 :=
  Rect.unit (s := S256x2048) off S256x128.size h

/-- The sixteen column chunks the body stores into the result, last first: the four chunks that came across z, the six
    that came across x, and the device's own six. -/
def outW (c : Dev nD) : List (View.Piece (Elt F) S256x2048 .f32) :=
  [⟨oR (k0_off17 c 1#32) (k0_off17_inb c 1), k0_pay39 (bAt BLK c (k0_off16 c 1#32) (k0_off16_inb c 1))⟩,
   ⟨oR (k0_off15 c 1#32) (k0_off15_inb c 1), k0_pay38 (bAt BLK c (k0_off14 c 1#32) (k0_off14_inb c 1))⟩,
   ⟨oR (k0_off17 c 0#32) (k0_off17_inb c 0), k0_pay37 (bAt BLK c (k0_off16 c 0#32) (k0_off16_inb c 0))⟩,
   ⟨oR (k0_off15 c 0#32) (k0_off15_inb c 0), k0_pay36 (bAt BLK c (k0_off14 c 0#32) (k0_off14_inb c 0))⟩,
   ⟨oR (k0_off13 c 896#32) (k0_off13_inb c 3), k0_pay35 (bAt BLK c ![15, 0, 0] inb_S16x256x128_S1x256x128_15_0_0)⟩,
   ⟨oR (k0_off13 c 768#32) (k0_off13_inb c 2), k0_pay34 (bAt BLK c ![14, 0, 0] inb_S16x256x128_S1x256x128_14_0_0)⟩,
   ⟨oR (k0_off13 c 640#32) (k0_off13_inb c 1), k0_pay33 (bAt BLK c ![13, 0, 0] inb_S16x256x128_S1x256x128_13_0_0)⟩,
   ⟨oR (k0_off13 c 512#32) (k0_off13_inb c 0), k0_pay32 (bAt BLK c ![12, 0, 0] inb_S16x256x128_S1x256x128_12_0_0)⟩,
   ⟨oR (k0_off12 c 1#32) (k0_off12_inb c 1), k0_pay31 (bAt BLK c (k0_off11 c 1#32) (k0_off11_inb c 1))⟩,
   ⟨oR (k0_off12 c 0#32) (k0_off12_inb c 0), k0_pay30 (bAt BLK c (k0_off11 c 0#32) (k0_off11_inb c 0))⟩,
   ⟨oR (k0_off10 c 896#32) (k0_off10_inb c 3), red32 SND X DY c 5⟩,
   ⟨oR (k0_off10 c 768#32) (k0_off10_inb c 2), red32 SND X DY c 4⟩,
   ⟨oR (k0_off10 c 640#32) (k0_off10_inb c 1), red32 SND X DY c 3⟩,
   ⟨oR (k0_off10 c 512#32) (k0_off10_inb c 0), red32 SND X DY c 2⟩,
   ⟨oR (k0_off9 c 1#32) (k0_off9_inb c 1), red32 SND X DY c 1⟩,
   ⟨oR (k0_off9 c 0#32) (k0_off9_inb c 0), red32 SND X DY c 0⟩]

end Spec2

/-! ## The three families the schedule and the proof data are stated over -/

section Families
variable (m : (ℓ : Loc nD τ sig) → Buf (Elt F) ℓ)

/-- The send buffer's canonical contents: slot j holds the partial product sent for chunk j. -/
def SNDv (c : Dev nD) : (cc0_scratch1 : Ref sig .tc).ty.Contents (Elt F) :=
  fun (i : S6x256x128.Idx) => sndVec (xstg m c) (dystg m c) c (i 0) (ix3 (0 : Fin 1) (i 1) (i 2))
/-- The block buffer's: each slot holds the reduced chunk of the device it came from. -/
def BLKv : Dev nD → (cc0_scratch4 : Ref sig .tc).ty.Contents (Elt F) :=
  blkOf fun d j => redB (SNDv m) (xstg m d) (dystg m d) d j
/-- The result buffer's: the sixteen column chunks, over contents that do not matter (they cover the buffer). -/
def OUTv (c : Dev nD) : (cc0_stg2_0 : Ref sig .tc).ty.Contents (Elt F) :=
  M2.view.writes (Elt F) M2.view.junk (outW (SNDv m) (BLKv m) (xstg m c) (dystg m c) c)

end Families

end Cert.Kernel.Coll

end
-- ==== Proof.Bits.ValIdx.lean ====
import proofs.«900594_g7700000000000595_dist_rsdw_v7x_xyz2x2x2_y_m512_d512_f2048_bf16_1_alg».proof.Proof.Bits.Slots
import proofs.«900594_g7700000000000595_dist_rsdw_v7x_xyz2x2x2_y_m512_d512_f2048_bf16_1_alg».proof.Proof.LayoutIdx
import proofs.«900594_g7700000000000595_dist_rsdw_v7x_xyz2x2x2_y_m512_d512_f2048_bf16_1_alg».proof.Proof.RefValue
import Idealize.ShloMosaic.Lib.Pipeline.Value
import Idealize.ShloMosaic.Lib.ValueIdx
import Idealize.ShloMosaic.Lib.ValueLayout

/-!
# Index plumbing of the value proof

Two groups of facts.

* A load through a unit-stride rectangle at offsets `off` reads, at the rectangle's own index `x`, the buffer's
  element `off + x`; a store through it puts the stored block's element `x` there and leaves every element outside the
  rectangle as it was. Stated for matrices cut by a smaller matrix, and for the `[N, 256, 128]` buffers cut into
  their slots.
* Over the extended reals: the result's entry is a sum over 1024 rows; the rows are held half and half by two devices,
  so the entry is the sum of the two devices' sums over their 512 rows, in either order.
-/

noncomputable section

namespace Cert.Kernel.Coll

open Cert.Kernel Cert.Kernel.Gen Cert.Kernel.Mesh
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open scoped BigOperators

variable {F : FTy → Type} [FloatOps F]

local notation "𝕄" => MT nD τ sig Unit (Elt F) ℕ UU ℕ

/-! ## A matrix cut by a smaller matrix at symbolic offsets -/

section Plumbing

variable {κ : Kind} {sp : Space} {e : EltTy}

theorem unit2_lt0 {R C R' C' : ℕ} (off : Fin 2 → ℕ)
    (inb : ∀ a, off a + (⟨2, ![R', C']⟩ : Shape).size a ≤ (⟨2, ![R, C]⟩ : Shape).size a) (i : Fin R') : off 0 + i.val < R := by
  have h := inb 0
  have hi := i.isLt
  simp [Shape.size] at h
  omega

theorem unit2_lt1 {R C R' C' : ℕ} (off : Fin 2 → ℕ)
    (inb : ∀ a, off a + (⟨2, ![R', C']⟩ : Shape).size a ≤ (⟨2, ![R, C]⟩ : Shape).size a) (j : Fin C') : off 1 + j.val < C := by
  have h := inb 1
  have hj := j.isLt
  simp [Shape.size] at h
  omega

/-- The rectangle's element `(i, j)` is the matrix's element `(off 0 + i, off 1 + j)`. -/
theorem unit_idx_ix2 {R C R' C' : ℕ} (off : Fin 2 → ℕ)
    (inb : ∀ a, off a + (⟨2, ![R', C']⟩ : Shape).size a ≤ (⟨2, ![R, C]⟩ : Shape).size a) (i : Fin R') (j : Fin C') :
    (Rect.unit (s := ⟨2, ![R, C]⟩) off (⟨2, ![R', C']⟩ : Shape).size inb).emb (ix2 i j)
      = ix2 (⟨off 0 + i.val, unit2_lt0 off inb i⟩ : Fin R) (⟨off 1 + j.val, unit2_lt1 off inb j⟩ : Fin C) := by
  funext a
  apply Fin.ext
  rw [Rect.emb_apply]
  match a with
  | ⟨0, _⟩ => show off 0 + 1 * i.val = off 0 + i.val; omega
  | ⟨1, _⟩ => show off 1 + 1 * j.val = off 1 + j.val; omega

/-- A load of a `[R', C']` block at offsets `off` of a `[R, C]` matrix: its element `(i, j)` is the matrix's
    element `(off 0 + i, off 1 + j)`. `g` is what the view reads off the contents (the contents themselves, for a
    whole buffer). -/
theorem readAt_unit2 {R C R' C' : ℕ} (v : View sig κ sp (⟨2, ![R, C]⟩ : Shape) e) (off : Fin 2 → ℕ)
    (inb : ∀ a, off a + (⟨2, ![R', C']⟩ : Shape).size a ≤ (⟨2, ![R, C]⟩ : Shape).size a)
    (f : v.ty.Contents (Elt F)) (g : (⟨2, ![R, C]⟩ : Shape).Idx → Elt F e) (hg : ∀ x, v.read (Elt F) f x = g x)
    (i : Fin R') (j : Fin C') :
    v.readAt (Elt F) (Rect.unit (s := ⟨2, ![R, C]⟩) off (⟨2, ![R', C']⟩ : Shape).size inb).toLoadRect f (ix2 i j)
      = g (ix2 ⟨off 0 + i.val, unit2_lt0 off inb i⟩ ⟨off 1 + j.val, unit2_lt1 off inb j⟩) := by
  rw [View.readAt_apply, hg]
  exact congrArg g (unit_idx_ix2 off inb i j)

/-- After a store of a `[R', C']` block `w` at offsets `off`, the matrix's element `(off 0 + i, off 1 + j)` is `w (i, j)`. -/
theorem read_write_unit2_inside {R C R' C' : ℕ} (v : View sig κ sp (⟨2, ![R, C]⟩ : Shape) e) (off : Fin 2 → ℕ)
    (inb : ∀ a, off a + (⟨2, ![R', C']⟩ : Shape).size a ≤ (⟨2, ![R, C]⟩ : Shape).size a)
    (f : v.ty.Contents (Elt F)) (w : (⟨2, ![R', C']⟩ : Shape).Idx → Elt F e) (i : Fin R') (j : Fin C') :
    v.read (Elt F) ((v.slice (Rect.unit off (⟨2, ![R', C']⟩ : Shape).size inb)).write (Elt F) f w Finset.univ)
        (ix2 ⟨off 0 + i.val, unit2_lt0 off inb i⟩ ⟨off 1 + j.val, unit2_lt1 off inb j⟩)
      = w (ix2 i j) := by
  have h := View.read_slice_write_emb (v := v) (Rect.unit (s := ⟨2, ![R, C]⟩) off (⟨2, ![R', C']⟩ : Shape).size inb) f w
    (Finset.mem_univ (ix2 i j))
  rw [unit_idx_ix2 off inb i j] at h
  exact h

/-- After a store through a unit-stride rectangle, of any rank, every element outside the rectangle is what it was. -/
theorem read_write_unit_outside {s : Shape} (v : View sig κ sp s e) (off size : Fin s.rank → ℕ)
    (inb : ∀ a, off a + size a ≤ s.size a) (f : v.ty.Contents (Elt F)) (w : (Rect.unit off size inb).shape.Idx → Elt F e)
    (y : s.Idx) (hy : ¬ ∀ a, off a ≤ (y a).val ∧ (y a).val < off a + size a) :
    v.read (Elt F) ((v.slice (Rect.unit off size inb)).write (Elt F) f w Finset.univ) y = v.read (Elt F) f y :=
  View.read_slice_write_of_not_mem _ f w _ (by rw [Rect.map_emb_univ, Rect.mem_set_unit]; exact hy)

/-- A column block: a `[R, C']` block stored at columns `o ..< o + C'` of a `[R, C]` matrix. -/
theorem read_write_cols_inside {R C C' : ℕ} (v : View sig κ sp (⟨2, ![R, C]⟩ : Shape) e) (off : Fin 2 → ℕ) (o : ℕ) (hoff : off = ![0, o])
    (inb : ∀ a, off a + (⟨2, ![R, C']⟩ : Shape).size a ≤ (⟨2, ![R, C]⟩ : Shape).size a)
    (f : v.ty.Contents (Elt F)) (w : (⟨2, ![R, C']⟩ : Shape).Idx → Elt F e) (r : Fin R) (k : Fin C') (hk : o + k.val < C) :
    v.read (Elt F) ((v.slice (Rect.unit off (⟨2, ![R, C']⟩ : Shape).size inb)).write (Elt F) f w Finset.univ) (ix2 r ⟨o + k.val, hk⟩)
      = w (ix2 r k) := by
  subst hoff
  have h := read_write_unit2_inside v ![0, o] inb f w r k
  have e : (ix2 (⟨(![0, o] : Fin 2 → ℕ) 0 + r.val, unit2_lt0 ![0, o] inb r⟩ : Fin R) (⟨(![0, o] : Fin 2 → ℕ) 1 + k.val, unit2_lt1 ![0, o] inb k⟩ : Fin C))
      = ix2 r ⟨o + k.val, hk⟩ := by
    funext a
    apply Fin.ext
    match a with
    | ⟨0, _⟩ => show 0 + r.val = r.val; omega
    | ⟨1, _⟩ => rfl
  rw [e] at h
  exact h

theorem read_write_cols_outside {R C C' : ℕ} (v : View sig κ sp (⟨2, ![R, C]⟩ : Shape) e) (off : Fin 2 → ℕ) (o : ℕ) (hoff : off = ![0, o])
    (inb : ∀ a, off a + (⟨2, ![R, C']⟩ : Shape).size a ≤ (⟨2, ![R, C]⟩ : Shape).size a)
    (f : v.ty.Contents (Elt F)) (w : (⟨2, ![R, C']⟩ : Shape).Idx → Elt F e) (r : Fin R) (col : Fin C) (hc : col.val < o ∨ o + C' ≤ col.val) :
    v.read (Elt F) ((v.slice (Rect.unit off (⟨2, ![R, C']⟩ : Shape).size inb)).write (Elt F) f w Finset.univ) (ix2 r col)
      = v.read (Elt F) f (ix2 r col) := by
  subst hoff
  refine read_write_unit_outside v _ _ inb f w _ fun h => ?_
  have h1 : o ≤ col.val ∧ col.val < o + C' := h 1
  omega

/-! ## The `[N, 256, 128]` buffers cut into their slots -/

/-- A load of slot `n`: its element `(0, r, k)` is the buffer's element `(n, r, k)`. -/
theorem readAt_lead {N : ℕ} (v : View sig κ sp (⟨3, ![N, 256, 128]⟩ : Shape) e) (n : ℕ) (hn : n < N) (off : Fin 3 → ℕ) (hoff : off = ![n, 0, 0])
    (inb : ∀ a, off a + S1x256x128.size a ≤ (⟨3, ![N, 256, 128]⟩ : Shape).size a)
    (f : v.ty.Contents (Elt F)) (g : (⟨3, ![N, 256, 128]⟩ : Shape).Idx → Elt F e) (hg : ∀ x, v.read (Elt F) f x = g x)
    (u : Fin 1) (r : Fin 256) (k : Fin 128) :
    v.readAt (Elt F) (Rect.unit (s := ⟨3, ![N, 256, 128]⟩) off S1x256x128.size inb).toLoadRect f (ix3 u r k) = g (ix3 (⟨n, hn⟩ : Fin N) r k) := by
  subst hoff
  rw [View.readAt_apply, hg]
  exact congrArg g (rect_lead_emb n hn inb u r k)

/-- After a store of a `[1, 256, 128]` block `w` to slot `n`, the buffer's element `(n, r, k)` is `w (0, r, k)`. -/
theorem read_write_lead_inside {N : ℕ} (v : View sig κ sp (⟨3, ![N, 256, 128]⟩ : Shape) e) (n : ℕ) (hn : n < N) (off : Fin 3 → ℕ) (hoff : off = ![n, 0, 0])
    (inb : ∀ a, off a + S1x256x128.size a ≤ (⟨3, ![N, 256, 128]⟩ : Shape).size a)
    (f : v.ty.Contents (Elt F)) (w : S1x256x128.Idx → Elt F e) (r : Fin 256) (k : Fin 128) :
    v.read (Elt F) ((v.slice (Rect.unit off S1x256x128.size inb)).write (Elt F) f w Finset.univ) (ix3 (⟨n, hn⟩ : Fin N) r k)
      = w (ix3 (0 : Fin 1) r k) := by
  subst hoff
  have h := View.read_slice_write_emb (v := v) (Rect.unit (s := ⟨3, ![N, 256, 128]⟩) ![n, 0, 0] S1x256x128.size inb) f w
    (Finset.mem_univ (ix3 (0 : Fin 1) r k))
  rw [rect_lead_emb n hn inb (0 : Fin 1) r k] at h
  exact h

/-- After a store of a `[1, 256, 128]` block to slot `n`, the elements of every other slot are what they were. -/
theorem read_write_lead_outside {N : ℕ} (v : View sig κ sp (⟨3, ![N, 256, 128]⟩ : Shape) e) (n : ℕ) (off : Fin 3 → ℕ) (hoff : off = ![n, 0, 0])
    (inb : ∀ a, off a + S1x256x128.size a ≤ (⟨3, ![N, 256, 128]⟩ : Shape).size a)
    (f : v.ty.Contents (Elt F)) (w : S1x256x128.Idx → Elt F e) (m : Fin N) (hm : m.val ≠ n) (r : Fin 256) (k : Fin 128) :
    v.read (Elt F) ((v.slice (Rect.unit off S1x256x128.size inb)).write (Elt F) f w Finset.univ) (ix3 m r k)
      = v.read (Elt F) f (ix3 m r k) := by
  subst hoff
  refine read_write_unit_outside v _ _ inb f w _ fun h => ?_
  have h0 : n ≤ m.val ∧ m.val < n + 1 := h 0
  omega

end Plumbing

/-! ## The kernel's buffers

The same facts at the whole buffers the kernel loads from and stores to, where the view reads the contents
themselves. -/

theorem readAt_stg0 (off : Fin 2 → ℕ) (inb : ∀ a, off a + S512x256.size a ≤ S512x512.size a)
    (f : (cc0_stg0_0 : Ref sig .tc).ty.Contents (Elt F)) (i : Fin 512) (j : Fin 256) :
    (Memref.whole cc0_stg0_0 : Memref sig .tc .vmem S512x512 .f32).view.readAt (Elt F) (Rect.unit (s := S512x512) off S512x256.size inb).toLoadRect f (ix2 i j)
      = f (ix2 ⟨off 0 + i.val, unit2_lt0 off inb i⟩ ⟨off 1 + j.val, unit2_lt1 off inb j⟩) :=
  readAt_unit2 (Memref.whole cc0_stg0_0 : Memref sig .tc .vmem S512x512 .f32).view off inb f f (fun _ => rfl) i j

theorem readAt_stg1_128 (off : Fin 2 → ℕ) (inb : ∀ a, off a + S512x128.size a ≤ S512x2048.size a)
    (f : (cc0_stg1_0 : Ref sig .tc).ty.Contents (Elt F)) (i : Fin 512) (j : Fin 128) :
    (Memref.whole cc0_stg1_0 : Memref sig .tc .vmem S512x2048 .f32).view.readAt (Elt F) (Rect.unit (s := S512x2048) off S512x128.size inb).toLoadRect f (ix2 i j)
      = f (ix2 ⟨off 0 + i.val, unit2_lt0 off inb i⟩ ⟨off 1 + j.val, unit2_lt1 off inb j⟩) :=
  readAt_unit2 (Memref.whole cc0_stg1_0 : Memref sig .tc .vmem S512x2048 .f32).view off inb f f (fun _ => rfl) i j

theorem readAt_stg1_1024 (off : Fin 2 → ℕ) (inb : ∀ a, off a + S512x1024.size a ≤ S512x2048.size a)
    (f : (cc0_stg1_0 : Ref sig .tc).ty.Contents (Elt F)) (i : Fin 512) (j : Fin 1024) :
    (Memref.whole cc0_stg1_0 : Memref sig .tc .vmem S512x2048 .f32).view.readAt (Elt F) (Rect.unit (s := S512x2048) off S512x1024.size inb).toLoadRect f (ix2 i j)
      = f (ix2 ⟨off 0 + i.val, unit2_lt0 off inb i⟩ ⟨off 1 + j.val, unit2_lt1 off inb j⟩) :=
  readAt_unit2 (Memref.whole cc0_stg1_0 : Memref sig .tc .vmem S512x2048 .f32).view off inb f f (fun _ => rfl) i j

theorem readAt_stg2 (off : Fin 2 → ℕ) (inb : ∀ a, off a + S256x128.size a ≤ S256x2048.size a)
    (f : (cc0_stg2_0 : Ref sig .tc).ty.Contents (Elt F)) (i : Fin 256) (j : Fin 128) :
    (Memref.whole cc0_stg2_0 : Memref sig .tc .vmem S256x2048 .f32).view.readAt (Elt F) (Rect.unit (s := S256x2048) off S256x128.size inb).toLoadRect f (ix2 i j)
      = f (ix2 ⟨off 0 + i.val, unit2_lt0 off inb i⟩ ⟨off 1 + j.val, unit2_lt1 off inb j⟩) :=
  readAt_unit2 (Memref.whole cc0_stg2_0 : Memref sig .tc .vmem S256x2048 .f32).view off inb f f (fun _ => rfl) i j

theorem readAt_scratch0 (off : Fin 2 → ℕ) (inb : ∀ a, off a + S512x128.size a ≤ S512x1024.size a)
    (f : (cc0_scratch0 : Ref sig .tc).ty.Contents (Elt F)) (i : Fin 512) (j : Fin 128) :
    (Memref.whole cc0_scratch0 : Memref sig .tc .vmem S512x1024 .bf16).view.readAt (Elt F) (Rect.unit (s := S512x1024) off S512x128.size inb).toLoadRect f (ix2 i j)
      = f (ix2 ⟨off 0 + i.val, unit2_lt0 off inb i⟩ ⟨off 1 + j.val, unit2_lt1 off inb j⟩) :=
  readAt_unit2 (Memref.whole cc0_scratch0 : Memref sig .tc .vmem S512x1024 .bf16).view off inb f f (fun _ => rfl) i j

theorem readAt_scratch1 (n : ℕ) (hn : n < 6) (off : Fin 3 → ℕ) (hoff : off = ![n, 0, 0]) (inb : ∀ a, off a + S1x256x128.size a ≤ S6x256x128.size a)
    (f : (cc0_scratch1 : Ref sig .tc).ty.Contents (Elt F)) (u : Fin 1) (r : Fin 256) (k : Fin 128) :
    (Memref.whole cc0_scratch1 : Memref sig .tc .vmem S6x256x128 .bf16).view.readAt (Elt F) (Rect.unit (s := S6x256x128) off S1x256x128.size inb).toLoadRect f (ix3 u r k)
      = f (ix3 (⟨n, hn⟩ : Fin 6) r k) :=
  readAt_lead (Memref.whole cc0_scratch1 : Memref sig .tc .vmem S6x256x128 .bf16).view n hn off hoff inb f f (fun _ => rfl) u r k

theorem write_scratch1_inside (n : ℕ) (hn : n < 6) (off : Fin 3 → ℕ) (hoff : off = ![n, 0, 0]) (inb : ∀ a, off a + S1x256x128.size a ≤ S6x256x128.size a)
    (f : (cc0_scratch1 : Ref sig .tc).ty.Contents (Elt F)) (w : S1x256x128.Idx → Elt F .bf16) (r : Fin 256) (k : Fin 128) :
    (((Memref.whole cc0_scratch1 : Memref sig .tc .vmem S6x256x128 .bf16).access (Rect.unit (s := S6x256x128) off S1x256x128.size inb)).write (Elt F) f w Finset.univ
        : (cc0_scratch1 : Ref sig .tc).ty.Contents (Elt F)) (ix3 (⟨n, hn⟩ : Fin 6) r k)
      = w (ix3 (0 : Fin 1) r k) := by
  have h := read_write_lead_inside (Memref.whole cc0_scratch1 : Memref sig .tc .vmem S6x256x128 .bf16).view n hn off hoff inb f w r k
  generalize ((Memref.whole cc0_scratch1 : Memref sig .tc .vmem S6x256x128 .bf16).view.slice (Rect.unit (s := S6x256x128) off S1x256x128.size inb)).write (Elt F) f w Finset.univ = W at h ⊢
  exact h

theorem write_scratch1_outside (n : ℕ) (off : Fin 3 → ℕ) (hoff : off = ![n, 0, 0]) (inb : ∀ a, off a + S1x256x128.size a ≤ S6x256x128.size a)
    (f : (cc0_scratch1 : Ref sig .tc).ty.Contents (Elt F)) (w : S1x256x128.Idx → Elt F .bf16) (m : Fin 6) (hm : m.val ≠ n) (r : Fin 256) (k : Fin 128) :
    (((Memref.whole cc0_scratch1 : Memref sig .tc .vmem S6x256x128 .bf16).access (Rect.unit (s := S6x256x128) off S1x256x128.size inb)).write (Elt F) f w Finset.univ
        : (cc0_scratch1 : Ref sig .tc).ty.Contents (Elt F)) (ix3 m r k)
      = f (ix3 m r k) := by
  have h := read_write_lead_outside (Memref.whole cc0_scratch1 : Memref sig .tc .vmem S6x256x128 .bf16).view n off hoff inb f w m hm r k
  generalize ((Memref.whole cc0_scratch1 : Memref sig .tc .vmem S6x256x128 .bf16).view.slice (Rect.unit (s := S6x256x128) off S1x256x128.size inb)).write (Elt F) f w Finset.univ = W at h ⊢
  exact h

theorem readAt_scratch2 (n : ℕ) (hn : n < 6) (off : Fin 3 → ℕ) (hoff : off = ![n, 0, 0]) (inb : ∀ a, off a + S1x256x128.size a ≤ S6x256x128.size a)
    (f : (cc0_scratch2 : Ref sig .tc).ty.Contents (Elt F)) (u : Fin 1) (r : Fin 256) (k : Fin 128) :
    (Memref.whole cc0_scratch2 : Memref sig .tc .vmem S6x256x128 .bf16).view.readAt (Elt F) (Rect.unit (s := S6x256x128) off S1x256x128.size inb).toLoadRect f (ix3 u r k)
      = f (ix3 (⟨n, hn⟩ : Fin 6) r k) :=
  readAt_lead (Memref.whole cc0_scratch2 : Memref sig .tc .vmem S6x256x128 .bf16).view n hn off hoff inb f f (fun _ => rfl) u r k

theorem write_scratch2_inside (n : ℕ) (hn : n < 6) (off : Fin 3 → ℕ) (hoff : off = ![n, 0, 0]) (inb : ∀ a, off a + S1x256x128.size a ≤ S6x256x128.size a)
    (f : (cc0_scratch2 : Ref sig .tc).ty.Contents (Elt F)) (w : S1x256x128.Idx → Elt F .bf16) (r : Fin 256) (k : Fin 128) :
    (((Memref.whole cc0_scratch2 : Memref sig .tc .vmem S6x256x128 .bf16).access (Rect.unit (s := S6x256x128) off S1x256x128.size inb)).write (Elt F) f w Finset.univ
        : (cc0_scratch2 : Ref sig .tc).ty.Contents (Elt F)) (ix3 (⟨n, hn⟩ : Fin 6) r k)
      = w (ix3 (0 : Fin 1) r k) := by
  have h := read_write_lead_inside (Memref.whole cc0_scratch2 : Memref sig .tc .vmem S6x256x128 .bf16).view n hn off hoff inb f w r k
  generalize ((Memref.whole cc0_scratch2 : Memref sig .tc .vmem S6x256x128 .bf16).view.slice (Rect.unit (s := S6x256x128) off S1x256x128.size inb)).write (Elt F) f w Finset.univ = W at h ⊢
  exact h

theorem write_scratch2_outside (n : ℕ) (off : Fin 3 → ℕ) (hoff : off = ![n, 0, 0]) (inb : ∀ a, off a + S1x256x128.size a ≤ S6x256x128.size a)
    (f : (cc0_scratch2 : Ref sig .tc).ty.Contents (Elt F)) (w : S1x256x128.Idx → Elt F .bf16) (m : Fin 6) (hm : m.val ≠ n) (r : Fin 256) (k : Fin 128) :
    (((Memref.whole cc0_scratch2 : Memref sig .tc .vmem S6x256x128 .bf16).access (Rect.unit (s := S6x256x128) off S1x256x128.size inb)).write (Elt F) f w Finset.univ
        : (cc0_scratch2 : Ref sig .tc).ty.Contents (Elt F)) (ix3 m r k)
      = f (ix3 m r k) := by
  have h := read_write_lead_outside (Memref.whole cc0_scratch2 : Memref sig .tc .vmem S6x256x128 .bf16).view n off hoff inb f w m hm r k
  generalize ((Memref.whole cc0_scratch2 : Memref sig .tc .vmem S6x256x128 .bf16).view.slice (Rect.unit (s := S6x256x128) off S1x256x128.size inb)).write (Elt F) f w Finset.univ = W at h ⊢
  exact h

theorem readAt_scratch3 (n : ℕ) (hn : n < 6) (off : Fin 3 → ℕ) (hoff : off = ![n, 0, 0]) (inb : ∀ a, off a + S1x256x128.size a ≤ S6x256x128.size a)
    (f : (cc0_scratch3 : Ref sig .tc).ty.Contents (Elt F)) (u : Fin 1) (r : Fin 256) (k : Fin 128) :
    (Memref.whole cc0_scratch3 : Memref sig .tc .vmem S6x256x128 .f32).view.readAt (Elt F) (Rect.unit (s := S6x256x128) off S1x256x128.size inb).toLoadRect f (ix3 u r k)
      = f (ix3 (⟨n, hn⟩ : Fin 6) r k) :=
  readAt_lead (Memref.whole cc0_scratch3 : Memref sig .tc .vmem S6x256x128 .f32).view n hn off hoff inb f f (fun _ => rfl) u r k

theorem write_scratch3_inside (n : ℕ) (hn : n < 6) (off : Fin 3 → ℕ) (hoff : off = ![n, 0, 0]) (inb : ∀ a, off a + S1x256x128.size a ≤ S6x256x128.size a)
    (f : (cc0_scratch3 : Ref sig .tc).ty.Contents (Elt F)) (w : S1x256x128.Idx → Elt F .f32) (r : Fin 256) (k : Fin 128) :
    (((Memref.whole cc0_scratch3 : Memref sig .tc .vmem S6x256x128 .f32).access (Rect.unit (s := S6x256x128) off S1x256x128.size inb)).write (Elt F) f w Finset.univ
        : (cc0_scratch3 : Ref sig .tc).ty.Contents (Elt F)) (ix3 (⟨n, hn⟩ : Fin 6) r k)
      = w (ix3 (0 : Fin 1) r k) := by
  have h := read_write_lead_inside (Memref.whole cc0_scratch3 : Memref sig .tc .vmem S6x256x128 .f32).view n hn off hoff inb f w r k
  generalize ((Memref.whole cc0_scratch3 : Memref sig .tc .vmem S6x256x128 .f32).view.slice (Rect.unit (s := S6x256x128) off S1x256x128.size inb)).write (Elt F) f w Finset.univ = W at h ⊢
  exact h

theorem write_scratch3_outside (n : ℕ) (off : Fin 3 → ℕ) (hoff : off = ![n, 0, 0]) (inb : ∀ a, off a + S1x256x128.size a ≤ S6x256x128.size a)
    (f : (cc0_scratch3 : Ref sig .tc).ty.Contents (Elt F)) (w : S1x256x128.Idx → Elt F .f32) (m : Fin 6) (hm : m.val ≠ n) (r : Fin 256) (k : Fin 128) :
    (((Memref.whole cc0_scratch3 : Memref sig .tc .vmem S6x256x128 .f32).access (Rect.unit (s := S6x256x128) off S1x256x128.size inb)).write (Elt F) f w Finset.univ
        : (cc0_scratch3 : Ref sig .tc).ty.Contents (Elt F)) (ix3 m r k)
      = f (ix3 m r k) := by
  have h := read_write_lead_outside (Memref.whole cc0_scratch3 : Memref sig .tc .vmem S6x256x128 .f32).view n off hoff inb f w m hm r k
  generalize ((Memref.whole cc0_scratch3 : Memref sig .tc .vmem S6x256x128 .f32).view.slice (Rect.unit (s := S6x256x128) off S1x256x128.size inb)).write (Elt F) f w Finset.univ = W at h ⊢
  exact h

theorem readAt_scratch4 (n : ℕ) (hn : n < 16) (off : Fin 3 → ℕ) (hoff : off = ![n, 0, 0]) (inb : ∀ a, off a + S1x256x128.size a ≤ S16x256x128.size a)
    (f : (cc0_scratch4 : Ref sig .tc).ty.Contents (Elt F)) (u : Fin 1) (r : Fin 256) (k : Fin 128) :
    (Memref.whole cc0_scratch4 : Memref sig .tc .vmem S16x256x128 .bf16).view.readAt (Elt F) (Rect.unit (s := S16x256x128) off S1x256x128.size inb).toLoadRect f (ix3 u r k)
      = f (ix3 (⟨n, hn⟩ : Fin 16) r k) :=
  readAt_lead (Memref.whole cc0_scratch4 : Memref sig .tc .vmem S16x256x128 .bf16).view n hn off hoff inb f f (fun _ => rfl) u r k

theorem write_scratch4_inside (n : ℕ) (hn : n < 16) (off : Fin 3 → ℕ) (hoff : off = ![n, 0, 0]) (inb : ∀ a, off a + S1x256x128.size a ≤ S16x256x128.size a)
    (f : (cc0_scratch4 : Ref sig .tc).ty.Contents (Elt F)) (w : S1x256x128.Idx → Elt F .bf16) (r : Fin 256) (k : Fin 128) :
    (((Memref.whole cc0_scratch4 : Memref sig .tc .vmem S16x256x128 .bf16).access (Rect.unit (s := S16x256x128) off S1x256x128.size inb)).write (Elt F) f w Finset.univ
        : (cc0_scratch4 : Ref sig .tc).ty.Contents (Elt F)) (ix3 (⟨n, hn⟩ : Fin 16) r k)
      = w (ix3 (0 : Fin 1) r k) := by
  have h := read_write_lead_inside (Memref.whole cc0_scratch4 : Memref sig .tc .vmem S16x256x128 .bf16).view n hn off hoff inb f w r k
  generalize ((Memref.whole cc0_scratch4 : Memref sig .tc .vmem S16x256x128 .bf16).view.slice (Rect.unit (s := S16x256x128) off S1x256x128.size inb)).write (Elt F) f w Finset.univ = W at h ⊢
  exact h

theorem write_scratch4_outside (n : ℕ) (off : Fin 3 → ℕ) (hoff : off = ![n, 0, 0]) (inb : ∀ a, off a + S1x256x128.size a ≤ S16x256x128.size a)
    (f : (cc0_scratch4 : Ref sig .tc).ty.Contents (Elt F)) (w : S1x256x128.Idx → Elt F .bf16) (m : Fin 16) (hm : m.val ≠ n) (r : Fin 256) (k : Fin 128) :
    (((Memref.whole cc0_scratch4 : Memref sig .tc .vmem S16x256x128 .bf16).access (Rect.unit (s := S16x256x128) off S1x256x128.size inb)).write (Elt F) f w Finset.univ
        : (cc0_scratch4 : Ref sig .tc).ty.Contents (Elt F)) (ix3 m r k)
      = f (ix3 m r k) := by
  have h := read_write_lead_outside (Memref.whole cc0_scratch4 : Memref sig .tc .vmem S16x256x128 .bf16).view n off hoff inb f w m hm r k
  generalize ((Memref.whole cc0_scratch4 : Memref sig .tc .vmem S16x256x128 .bf16).view.slice (Rect.unit (s := S16x256x128) off S1x256x128.size inb)).write (Elt F) f w Finset.univ = W at h ⊢
  exact h

/-- A `[256, 128]` block stored at columns `o ..< o + 128` of the `[256, 2048]` result block. -/
theorem write_stg2_inside (off : Fin 2 → ℕ) (o : ℕ) (hoff : off = ![0, o]) (inb : ∀ a, off a + S256x128.size a ≤ S256x2048.size a)
    (f : (cc0_stg2_0 : Ref sig .tc).ty.Contents (Elt F)) (w : S256x128.Idx → Elt F .f32) (r : Fin 256) (k : Fin 128) (hk : o + k.val < 2048) :
    (((Memref.whole cc0_stg2_0 : Memref sig .tc .vmem S256x2048 .f32).access (Rect.unit (s := S256x2048) off S256x128.size inb)).write (Elt F) f w Finset.univ
        : (cc0_stg2_0 : Ref sig .tc).ty.Contents (Elt F)) (ix2 r ⟨o + k.val, hk⟩)
      = w (ix2 r k) := by
  have h := read_write_cols_inside (Memref.whole cc0_stg2_0 : Memref sig .tc .vmem S256x2048 .f32).view off o hoff inb f w r k hk
  generalize ((Memref.whole cc0_stg2_0 : Memref sig .tc .vmem S256x2048 .f32).view.slice (Rect.unit (s := S256x2048) off S256x128.size inb)).write (Elt F) f w Finset.univ = W at h ⊢
  exact h

theorem write_stg2_outside (off : Fin 2 → ℕ) (o : ℕ) (hoff : off = ![0, o]) (inb : ∀ a, off a + S256x128.size a ≤ S256x2048.size a)
    (f : (cc0_stg2_0 : Ref sig .tc).ty.Contents (Elt F)) (w : S256x128.Idx → Elt F .f32) (r : Fin 256) (col : Fin 2048) (hc : col.val < o ∨ o + 128 ≤ col.val) :
    (((Memref.whole cc0_stg2_0 : Memref sig .tc .vmem S256x2048 .f32).access (Rect.unit (s := S256x2048) off S256x128.size inb)).write (Elt F) f w Finset.univ
        : (cc0_stg2_0 : Ref sig .tc).ty.Contents (Elt F)) (ix2 r col)
      = f (ix2 r col) := by
  have h := read_write_cols_outside (Memref.whole cc0_stg2_0 : Memref sig .tc .vmem S256x2048 .f32).view off o hoff inb f w r col hc
  generalize ((Memref.whole cc0_stg2_0 : Memref sig .tc .vmem S256x2048 .f32).view.slice (Rect.unit (s := S256x2048) off S256x128.size inb)).write (Elt F) f w Finset.univ = W at h ⊢
  exact h

/-! ## The two halves of the contraction -/

/-- The whole arrays `Xw : [1024, 512]` and `DYw : [1024, 2048]` are cut into two blocks of 512 rows; one device
    holds block `y` (`Xa`, `DYa`), the other block `y'`, the other one of the two (`Xb`, `DYb`). Entry
    `(256 y + r, col)` of the reference's result, a sum over all 1024 rows, is the first device's sum over its rows
    plus the second's. -/
theorem two_halves (Xw : (⟨2, ![1024, 512]⟩ : Shape).Idx → EReal) (DYw : (⟨2, ![1024, 2048]⟩ : Shape).Idx → EReal)
    (Xa Xb : (⟨2, ![512, 512]⟩ : Shape).Idx → EReal) (DYa DYb : (⟨2, ![512, 2048]⟩ : Shape).Idx → EReal)
    (y y' : ℕ) (hy : y + y' = 1)
    (hXa : ∀ (i : Fin 512) (j : Fin 512), Xa (ix2 i j) = Xw (ix2 ⟨512 * y + i.val, by have := i.isLt; omega⟩ j))
    (hXb : ∀ (i : Fin 512) (j : Fin 512), Xb (ix2 i j) = Xw (ix2 ⟨512 * y' + i.val, by have := i.isLt; omega⟩ j))
    (hDa : ∀ (i : Fin 512) (j : Fin 2048), DYa (ix2 i j) = DYw (ix2 ⟨512 * y + i.val, by have := i.isLt; omega⟩ j))
    (hDb : ∀ (i : Fin 512) (j : Fin 2048), DYb (ix2 i j) = DYw (ix2 ⟨512 * y' + i.val, by have := i.isLt; omega⟩ j))
    (r : Fin 256) (col : Fin 2048) :
    (∑ i : Fin 512, Xa (ix2 i ⟨256 * y + r.val, by have := r.isLt; omega⟩) * DYa (ix2 i col))
        + (∑ i : Fin 512, Xb (ix2 i ⟨256 * y + r.val, by have := r.isLt; omega⟩) * DYb (ix2 i col))
      = Cert.ReferenceIdeal.RefValue.refOut Xw DYw (ix2 ⟨256 * y + r.val, by have := r.isLt; omega⟩ col) := by
  rw [Cert.ReferenceIdeal.RefValue.refOut_apply]
  refine Eq.trans ?_ (Cert.LayoutIdx.sum_fin1024_split_ereal
    (fun k => Xw (ix2 k ⟨256 * y + r.val, by have := r.isLt; omega⟩) * DYw (ix2 k col))).symm
  simp only [hXa, hXb, hDa, hDb]
  obtain ⟨rfl, rfl⟩ | ⟨rfl, rfl⟩ : (y = 0 ∧ y' = 1) ∨ (y = 1 ∧ y' = 0) := by omega
  · simp only [Nat.mul_zero, Nat.zero_add, Nat.mul_one]
  · rw [add_comm]
    simp only [Nat.mul_zero, Nat.zero_add, Nat.mul_one]

/-! ## What the lemmas rest on -/

/-- info: 'Cert.Kernel.Coll.unit2_lt0' depends on axioms: [propext, Quot.sound] -/
#guard_msgs in #print axioms unit2_lt0

/-- info: 'Cert.Kernel.Coll.unit2_lt1' depends on axioms: [propext, Quot.sound] -/
#guard_msgs in #print axioms unit2_lt1

/-- info: 'Cert.Kernel.Coll.unit_idx_ix2' depends on axioms: [propext, Quot.sound] -/
#guard_msgs in #print axioms unit_idx_ix2

/-- info: 'Cert.Kernel.Coll.readAt_unit2' depends on axioms: [propext, Classical.choice, Quot.sound] -/
#guard_msgs in #print axioms readAt_unit2

/-- info: 'Cert.Kernel.Coll.read_write_unit2_inside' depends on axioms: [propext, Classical.choice, Quot.sound] -/
#guard_msgs in #print axioms read_write_unit2_inside

/-- info: 'Cert.Kernel.Coll.read_write_unit_outside' depends on axioms: [propext, Classical.choice, Quot.sound] -/
#guard_msgs in #print axioms read_write_unit_outside

/-- info: 'Cert.Kernel.Coll.read_write_cols_inside' depends on axioms: [propext, Classical.choice, Quot.sound] -/
#guard_msgs in #print axioms read_write_cols_inside

/-- info: 'Cert.Kernel.Coll.read_write_cols_outside' depends on axioms: [propext, Classical.choice, Quot.sound] -/
#guard_msgs in #print axioms read_write_cols_outside

/-- info: 'Cert.Kernel.Coll.readAt_lead' depends on axioms: [propext, Classical.choice, Quot.sound] -/
#guard_msgs in #print axioms readAt_lead

/-- info: 'Cert.Kernel.Coll.read_write_lead_inside' depends on axioms: [propext, Classical.choice, Quot.sound] -/
#guard_msgs in #print axioms read_write_lead_inside

/-- info: 'Cert.Kernel.Coll.read_write_lead_outside' depends on axioms: [propext, Classical.choice, Quot.sound] -/
#guard_msgs in #print axioms read_write_lead_outside

/-- info: 'Cert.Kernel.Coll.readAt_stg0' depends on axioms: [propext, Classical.choice, Quot.sound] -/
#guard_msgs in #print axioms readAt_stg0

/-- info: 'Cert.Kernel.Coll.readAt_stg1_128' depends on axioms: [propext, Classical.choice, Quot.sound] -/
#guard_msgs in #print axioms readAt_stg1_128

/-- info: 'Cert.Kernel.Coll.readAt_stg1_1024' depends on axioms: [propext, Classical.choice, Quot.sound] -/
#guard_msgs in #print axioms readAt_stg1_1024

/-- info: 'Cert.Kernel.Coll.readAt_stg2' depends on axioms: [propext, Classical.choice, Quot.sound] -/
#guard_msgs in #print axioms readAt_stg2

/-- info: 'Cert.Kernel.Coll.readAt_scratch0' depends on axioms: [propext, Classical.choice, Quot.sound] -/
#guard_msgs in #print axioms readAt_scratch0

/-- info: 'Cert.Kernel.Coll.readAt_scratch1' depends on axioms: [propext, Classical.choice, Quot.sound] -/
#guard_msgs in #print axioms readAt_scratch1

/-- info: 'Cert.Kernel.Coll.write_scratch1_inside' depends on axioms: [propext, Classical.choice, Quot.sound] -/
#guard_msgs in #print axioms write_scratch1_inside

/-- info: 'Cert.Kernel.Coll.write_scratch1_outside' depends on axioms: [propext, Classical.choice, Quot.sound] -/
#guard_msgs in #print axioms write_scratch1_outside

/-- info: 'Cert.Kernel.Coll.readAt_scratch2' depends on axioms: [propext, Classical.choice, Quot.sound] -/
#guard_msgs in #print axioms readAt_scratch2

/-- info: 'Cert.Kernel.Coll.write_scratch2_inside' depends on axioms: [propext, Classical.choice, Quot.sound] -/
#guard_msgs in #print axioms write_scratch2_inside

/-- info: 'Cert.Kernel.Coll.write_scratch2_outside' depends on axioms: [propext, Classical.choice, Quot.sound] -/
#guard_msgs in #print axioms write_scratch2_outside

/-- info: 'Cert.Kernel.Coll.readAt_scratch3' depends on axioms: [propext, Classical.choice, Quot.sound] -/
#guard_msgs in #print axioms readAt_scratch3

/-- info: 'Cert.Kernel.Coll.write_scratch3_inside' depends on axioms: [propext, Classical.choice, Quot.sound] -/
#guard_msgs in #print axioms write_scratch3_inside

/-- info: 'Cert.Kernel.Coll.write_scratch3_outside' depends on axioms: [propext, Classical.choice, Quot.sound] -/
#guard_msgs in #print axioms write_scratch3_outside

/-- info: 'Cert.Kernel.Coll.readAt_scratch4' depends on axioms: [propext, Classical.choice, Quot.sound] -/
#guard_msgs in #print axioms readAt_scratch4

/-- info: 'Cert.Kernel.Coll.write_scratch4_inside' depends on axioms: [propext, Classical.choice, Quot.sound] -/
#guard_msgs in #print axioms write_scratch4_inside

/-- info: 'Cert.Kernel.Coll.write_scratch4_outside' depends on axioms: [propext, Classical.choice, Quot.sound] -/
#guard_msgs in #print axioms write_scratch4_outside

/-- info: 'Cert.Kernel.Coll.write_stg2_inside' depends on axioms: [propext, Classical.choice, Quot.sound] -/
#guard_msgs in #print axioms write_stg2_inside

/-- info: 'Cert.Kernel.Coll.write_stg2_outside' depends on axioms: [propext, Classical.choice, Quot.sound] -/
#guard_msgs in #print axioms write_stg2_outside

/-- info: 'Cert.Kernel.Coll.two_halves' depends on axioms: [propext, Classical.choice, Quot.sound] -/
#guard_msgs in #print axioms two_halves

end Cert.Kernel.Coll

end
-- ==== Proof.Bits.OutCover.lean ====
import proofs.«900594_g7700000000000595_dist_rsdw_v7x_xyz2x2x2_y_m512_d512_f2048_bf16_1_alg».proof.Proof.Bits.Values
import proofs.«900594_g7700000000000595_dist_rsdw_v7x_xyz2x2x2_y_m512_d512_f2048_bf16_1_alg».proof.Proof.Bits.ValIdx
import Idealize.ShloMosaic.Lib.Writes

/-!
# The sixteen column chunks cover the result block

The body stores sixteen `[256, 128]` column chunks into the `[256, 2048]` result block, each at a column offset
computed from the device's number. On every device the sixteen offsets are the sixteen multiples of 128 below 2048,
each once: the chunks are pairwise disjoint and together they are the whole block. So what the block held before does
not matter, and at a chunk's columns the block holds that chunk.
-/

noncomputable section

namespace Cert.Kernel.Coll

open Cert.Kernel Cert.Kernel.Gen Cert.Kernel.Mesh
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

/-! ## Writes through pairwise disjoint rectangles -/

/-- After writes through pairwise disjoint rectangles, each piece's elements hold that piece's payload: no later write
    touches them. -/
theorem read_writes_of_mem_disjoint {κ : Kind} {sp : Space} {s : Shape} {e : EltTy} (v : View sig κ sp s e) (f : v.ty.Contents (Elt F)) :
    ∀ (L : List (View.Piece (Elt F) s e)), L.Pairwise (fun p q => Disjoint p.1.set q.1.set) →
      ∀ p ∈ L, ∀ x : p.1.shape.Idx, v.read (Elt F) (v.writes (Elt F) f L) (p.1.emb x) = p.2 x
  | [], _, p, hp, _ => absurd hp List.not_mem_nil
  | q :: L, hd, p, hp, x => by
    rcases List.mem_cons.mp hp with rfl | hp'
    · obtain ⟨r, w⟩ := p
      exact View.read_writes_cons_emb v f r w L x
    · have hdq : Disjoint q.1.set p.1.set := (List.pairwise_cons.mp hd).1 p hp'
      have hx : p.1.emb x ∉ Finset.univ.map q.1.emb := by
        rw [Rect.map_emb_univ]
        exact fun h => Finset.disjoint_left.mp hdq h (p.1.toLoadRect.idx_mem x)
      rw [View.writes_cons, View.read_slice_write_of_not_mem q.1 _ _ _ hx]
      exact read_writes_of_mem_disjoint v f L (List.pairwise_cons.mp hd).2 p hp' x

/-! ## The sixteen column offsets -/

/-- The column offset of the `i`-th stored chunk (the last store first) on the device of number `c`: the closed
    forms of the kernel's six offset computations. -/
def colOff (c : ℕ) : ℕ → ℕ
  | 0 => (128 * 1 + 1280) - (1024 * (c / 4) + 256 * (c % 2))
  | 1 => (1024 * (c / 4) + 128 * 1 + 256) - 256 * (c % 2)
  | 2 => (128 * 0 + 1280) - (1024 * (c / 4) + 256 * (c % 2))
  | 3 => (1024 * (c / 4) + 128 * 0 + 256) - 256 * (c % 2)
  | 4 => (128 * 3 + 1536) - 1024 * (c / 4)
  | 5 => (128 * 2 + 1536) - 1024 * (c / 4)
  | 6 => (128 * 1 + 1536) - 1024 * (c / 4)
  | 7 => (128 * 0 + 1536) - 1024 * (c / 4)
  | 8 => (256 * (c % 2) + 128 * 1 + 1024) - 1024 * (c / 4)
  | 9 => (256 * (c % 2) + 128 * 0 + 1024) - 1024 * (c / 4)
  | 10 => 1024 * (c / 4) + 128 * 3 + 512
  | 11 => 1024 * (c / 4) + 128 * 2 + 512
  | 12 => 1024 * (c / 4) + 128 * 1 + 512
  | 13 => 1024 * (c / 4) + 128 * 0 + 512
  | 14 => 1024 * (c / 4) + 256 * (c % 2) + 128 * 1
  | 15 => 1024 * (c / 4) + 256 * (c % 2) + 128 * 0
  | _ => 0

theorem colOff_le : ∀ (c : Fin 8) (i : Fin 16), colOff c.val i.val + 128 ≤ 2048 := by decide
/-- On every device two different chunks' column ranges `[o, o + 128)` do not meet. -/
theorem colOff_disj : ∀ (c : Fin 8) (i j : Fin 16), i ≠ j →
    colOff c.val i.val + 128 ≤ colOff c.val j.val ∨ colOff c.val j.val + 128 ≤ colOff c.val i.val := by decide
/-- On every device every multiple of 128 below 2048 is the column offset of one of the sixteen chunks. -/
theorem colOff_cover : ∀ (c : Fin 8) (q : Fin 16), ∃ i : Fin 16, colOff c.val i.val = 128 * q.val := by decide

theorem colInb (c : Dev nD) (i : ℕ) (hi : i < 16) : ∀ a, (![0, colOff c.val i] : Fin 2 → ℕ) a + S256x128.size a ≤ S256x2048.size a := by
  have h := colOff_le c ⟨i, hi⟩
  intro a
  match a with
  | ⟨0, _⟩ => show 0 + 256 ≤ 256; omega
  | ⟨1, _⟩ => show colOff c.val i + 128 ≤ 2048; exact h

/-- A column chunk's rectangle at column offset `o` holds the indices whose column is in `[o, o + 128)`. -/
theorem mem_oR_cols (o : ℕ) (h : ∀ a, (![0, o] : Fin 2 → ℕ) a + S256x128.size a ≤ S256x2048.size a) (y : S256x2048.Idx) :
    y ∈ (oR ![0, o] h).set ↔ o ≤ (y 1).val ∧ (y 1).val < o + 128 := by
  rw [Rect.mem_set_unit, Fin.forall_fin_two]
  show (0 ≤ (y 0).val ∧ (y 0).val < 0 + 256) ∧ (o ≤ (y 1).val ∧ (y 1).val < o + 128) ↔ _
  have h0 : (y 0).val < 256 := (y 0).isLt
  constructor
  · exact fun h => h.2
  · exact fun h => ⟨⟨Nat.zero_le _, by omega⟩, h⟩

/-- The element `(r, k)` of the column chunk at column offset `o` is the block's element `(r, o + k)`. -/
theorem oR_emb_cols (o : ℕ) (h : ∀ a, (![0, o] : Fin 2 → ℕ) a + S256x128.size a ≤ S256x2048.size a) (r : Fin 256) (k : Fin 128)
    (hk : o + k.val < 2048) : (oR ![0, o] h).emb (ix2 r k) = ix2 r ⟨o + k.val, hk⟩ := by
  funext a
  apply Fin.ext
  rw [Rect.emb_apply]
  match a with
  | ⟨0, _⟩ => show 0 + 1 * r.val = r.val; omega
  | ⟨1, _⟩ => show o + 1 * k.val = o + k.val; omega

/-! ## Any sixteen pieces at those offsets -/

section Sixteen

variable (c : Dev nD) (L : List (View.Piece (Elt F) S256x2048 .f32)) (hlen : L.length = 16)
  (hrect : ∀ (i : ℕ) (hi : i < 16), (L[i]'(by rw [hlen]; exact hi)).1 = oR ![0, colOff c.val i] (colInb c i hi))

include hlen hrect

theorem sixteen_cover (y : S256x2048.Idx) : ∃ p ∈ L, y ∈ p.1.set := by
  have hy : (y 1).val < 2048 := (y 1).isLt
  obtain ⟨i, hi⟩ := colOff_cover c ⟨(y 1).val / 128, by omega⟩
  refine ⟨L[i.val]'(by rw [hlen]; exact i.isLt), List.getElem_mem _, ?_⟩
  rw [hrect i.val i.isLt, mem_oR_cols]
  have hi' : colOff c.val i.val = 128 * ((y 1).val / 128) := hi
  omega

theorem sixteen_disjoint : L.Pairwise (fun p q => Disjoint p.1.set q.1.set) := by
  rw [List.pairwise_iff_getElem]
  intro i j hi hj hij
  have hi' : i < 16 := by rw [← hlen]; exact hi
  have hj' : j < 16 := by rw [← hlen]; exact hj
  rw [hrect i hi', hrect j hj']
  exact Rect.unit_disjoint (1 : Fin 2) (colOff_disj c ⟨i, hi'⟩ ⟨j, hj'⟩ (fun e => by have := congrArg Fin.val e; simp at this; omega))

end Sixteen

/-! ## The body's sixteen stores -/

section Main

variable (SND : Dev nD → (cc0_scratch1 : Ref sig .tc).ty.Contents (Elt F)) (BLK : Dev nD → (cc0_scratch4 : Ref sig .tc).ty.Contents (Elt F))
variable (X : (cc0_stg0_0 : Ref sig .tc).ty.Contents (Elt F)) (DY : (cc0_stg1_0 : Ref sig .tc).ty.Contents (Elt F))

theorem outW_length (c : Dev nD) : (outW SND BLK X DY c).length = 16 := rfl

/-- The `i`-th store's rectangle is the column chunk at `colOff c i`: each computed offset is its closed form. -/
theorem outW_rect (c : Dev nD) (i : ℕ) (hi : i < 16) :
    ((outW SND BLK X DY c)[i]'(by rw [outW_length]; exact hi)).1 = oR ![0, colOff c.val i] (colInb c i hi) := by
  interval_cases i
  · exact Rect.unit_congr (k0_off17_eq c ⟨1, by decide⟩) (k0_off17_inb c 1) (colInb c 0 (by decide))
  · exact Rect.unit_congr (k0_off15_eq c ⟨1, by decide⟩) (k0_off15_inb c 1) (colInb c 1 (by decide))
  · exact Rect.unit_congr (k0_off17_eq c ⟨0, by decide⟩) (k0_off17_inb c 0) (colInb c 2 (by decide))
  · exact Rect.unit_congr (k0_off15_eq c ⟨0, by decide⟩) (k0_off15_inb c 0) (colInb c 3 (by decide))
  · exact Rect.unit_congr (k0_off13_eq c ⟨3, by decide⟩) (k0_off13_inb c 3) (colInb c 4 (by decide))
  · exact Rect.unit_congr (k0_off13_eq c ⟨2, by decide⟩) (k0_off13_inb c 2) (colInb c 5 (by decide))
  · exact Rect.unit_congr (k0_off13_eq c ⟨1, by decide⟩) (k0_off13_inb c 1) (colInb c 6 (by decide))
  · exact Rect.unit_congr (k0_off13_eq c ⟨0, by decide⟩) (k0_off13_inb c 0) (colInb c 7 (by decide))
  · exact Rect.unit_congr (k0_off12_eq c ⟨1, by decide⟩) (k0_off12_inb c 1) (colInb c 8 (by decide))
  · exact Rect.unit_congr (k0_off12_eq c ⟨0, by decide⟩) (k0_off12_inb c 0) (colInb c 9 (by decide))
  · exact Rect.unit_congr (k0_off10_eq c ⟨3, by decide⟩) (k0_off10_inb c 3) (colInb c 10 (by decide))
  · exact Rect.unit_congr (k0_off10_eq c ⟨2, by decide⟩) (k0_off10_inb c 2) (colInb c 11 (by decide))
  · exact Rect.unit_congr (k0_off10_eq c ⟨1, by decide⟩) (k0_off10_inb c 1) (colInb c 12 (by decide))
  · exact Rect.unit_congr (k0_off10_eq c ⟨0, by decide⟩) (k0_off10_inb c 0) (colInb c 13 (by decide))
  · exact Rect.unit_congr (k0_off9_eq c ⟨1, by decide⟩) (k0_off9_inb c 1) (colInb c 14 (by decide))
  · exact Rect.unit_congr (k0_off9_eq c ⟨0, by decide⟩) (k0_off9_inb c 0) (colInb c 15 (by decide))

theorem outW_cover (c : Dev nD) (y : S256x2048.Idx) : ∃ p ∈ outW SND BLK X DY c, y ∈ p.1.set :=
  sixteen_cover c _ (outW_length SND BLK X DY c) (outW_rect SND BLK X DY c) y

theorem outW_disjoint (c : Dev nD) : (outW SND BLK X DY c).Pairwise (fun p q => Disjoint p.1.set q.1.set) :=
  sixteen_disjoint c _ (outW_length SND BLK X DY c) (outW_rect SND BLK X DY c)

/-- The sixteen stores leave the same block whatever it held before. -/
theorem outW_rebase (c : Dev nD) (O O' : (cc0_stg2_0 : Ref sig .tc).ty.Contents (Elt F)) :
    M2.view.writes (Elt F) O (outW SND BLK X DY c) = M2.view.writes (Elt F) O' (outW SND BLK X DY c) := by
  have h := View.read_writes_of_cover M2.view O M2.view O' (outW SND BLK X DY c) (outW_cover SND BLK X DY c)
  generalize M2.view.writes (Elt F) O (outW SND BLK X DY c) = W at h ⊢
  generalize M2.view.writes (Elt F) O' (outW SND BLK X DY c) = W' at h ⊢
  exact h

/-- After the sixteen stores each piece's elements hold that piece. -/
theorem outW_apply (c : Dev nD) (O : (cc0_stg2_0 : Ref sig .tc).ty.Contents (Elt F))
    (p : View.Piece (Elt F) S256x2048 .f32) (hp : p ∈ outW SND BLK X DY c) (x : p.1.shape.Idx) :
    (M2.view.writes (Elt F) O (outW SND BLK X DY c) : (cc0_stg2_0 : Ref sig .tc).ty.Contents (Elt F)) (p.1.emb x) = p.2 x := by
  have h := read_writes_of_mem_disjoint M2.view O (outW SND BLK X DY c) (outW_disjoint SND BLK X DY c) p hp x
  generalize M2.view.writes (Elt F) O (outW SND BLK X DY c) = W at h ⊢
  exact h

end Main

section Families

variable (m : (ℓ : Loc nD τ sig) → Buf (Elt F) ℓ)

/-- The result block after the body's sixteen stores is `OUTv m c`, whatever it held before. -/
theorem out_rebase (c : Dev nD) (O : (cc0_stg2_0 : Ref sig .tc).ty.Contents (Elt F)) :
    M2.view.writes (Elt F) O (outW (SNDv m) (BLKv m) (xstg m c) (dystg m c) c) = OUTv m c :=
  outW_rebase (SNDv m) (BLKv m) (xstg m c) (dystg m c) c O M2.view.junk

/-- `OUTv m c` at a piece's elements is that piece. -/
theorem out_apply (c : Dev nD) (p : View.Piece (Elt F) S256x2048 .f32)
    (hp : p ∈ outW (SNDv m) (BLKv m) (xstg m c) (dystg m c) c) (x : p.1.shape.Idx) :
    OUTv m c (p.1.emb x) = p.2 x :=
  outW_apply (SNDv m) (BLKv m) (xstg m c) (dystg m c) c M2.view.junk p hp x

/-- The same by coordinates: the piece stored at column offset `o` (its offsets spelt in any way that equals
    `(0, o)`) is what `OUTv m c` holds at columns `o ..< o + 128`. -/
theorem out_apply_cols (c : Dev nD) (off : Fin 2 → ℕ) (h : ∀ a, off a + S256x128.size a ≤ S256x2048.size a)
    (w : S256x128.Idx → Elt F .f32)
    (hp : (⟨oR off h, w⟩ : View.Piece (Elt F) S256x2048 .f32) ∈ outW (SNDv m) (BLKv m) (xstg m c) (dystg m c) c)
    (o : ℕ) (hoff : off = ![0, o]) (r : Fin 256) (k : Fin 128) (hk : o + k.val < 2048) :
    OUTv m c (ix2 r ⟨o + k.val, hk⟩) = w (ix2 r k) := by
  subst hoff
  have e := out_apply m c ⟨oR ![0, o] h, w⟩ hp (ix2 r k)
  rw [oR_emb_cols o h r k hk] at e
  exact e

end Families

/-! ## What the lemmas rest on -/

/-- info: 'Cert.Kernel.Coll.read_writes_of_mem_disjoint' depends on axioms: [propext, Classical.choice, Quot.sound] -/
#guard_msgs in #print axioms read_writes_of_mem_disjoint

/-- info: 'Cert.Kernel.Coll.colOff_le' depends on axioms: [propext, Quot.sound] -/
#guard_msgs in #print axioms colOff_le

/-- info: 'Cert.Kernel.Coll.colOff_disj' depends on axioms: [propext, Quot.sound] -/
#guard_msgs in #print axioms colOff_disj

/-- info: 'Cert.Kernel.Coll.colOff_cover' depends on axioms: [propext, Classical.choice, Quot.sound] -/
#guard_msgs in #print axioms colOff_cover

/-- info: 'Cert.Kernel.Coll.colInb' depends on axioms: [propext, Quot.sound] -/
#guard_msgs in #print axioms colInb

/-- info: 'Cert.Kernel.Coll.mem_oR_cols' depends on axioms: [propext, Classical.choice, Quot.sound] -/
#guard_msgs in #print axioms mem_oR_cols

/-- info: 'Cert.Kernel.Coll.oR_emb_cols' depends on axioms: [propext, Quot.sound] -/
#guard_msgs in #print axioms oR_emb_cols

/-- info: 'Cert.Kernel.Coll.sixteen_cover' depends on axioms: [propext, Classical.choice, Quot.sound] -/
#guard_msgs in #print axioms sixteen_cover

/-- info: 'Cert.Kernel.Coll.sixteen_disjoint' depends on axioms: [propext, Classical.choice, Quot.sound] -/
#guard_msgs in #print axioms sixteen_disjoint

/-- info: 'Cert.Kernel.Coll.outW_length' depends on axioms: [propext, Classical.choice, Quot.sound] -/
#guard_msgs in #print axioms outW_length

/-- info: 'Cert.Kernel.Coll.outW_rect' depends on axioms: [propext, Classical.choice, Quot.sound] -/
#guard_msgs in #print axioms outW_rect

/-- info: 'Cert.Kernel.Coll.outW_cover' depends on axioms: [propext, Classical.choice, Quot.sound] -/
#guard_msgs in #print axioms outW_cover

/-- info: 'Cert.Kernel.Coll.outW_disjoint' depends on axioms: [propext, Classical.choice, Quot.sound] -/
#guard_msgs in #print axioms outW_disjoint

/-- info: 'Cert.Kernel.Coll.outW_rebase' depends on axioms: [propext, Classical.choice, Quot.sound] -/
#guard_msgs in #print axioms outW_rebase

/-- info: 'Cert.Kernel.Coll.outW_apply' depends on axioms: [propext, Classical.choice, Quot.sound] -/
#guard_msgs in #print axioms outW_apply

/-- info: 'Cert.Kernel.Coll.out_rebase' depends on axioms: [propext, Classical.choice, Quot.sound] -/
#guard_msgs in #print axioms out_rebase

/-- info: 'Cert.Kernel.Coll.out_apply' depends on axioms: [propext, Classical.choice, Quot.sound] -/
#guard_msgs in #print axioms out_apply

/-- info: 'Cert.Kernel.Coll.out_apply_cols' depends on axioms: [propext, Classical.choice, Quot.sound] -/
#guard_msgs in #print axioms out_apply_cols

end Cert.Kernel.Coll

end
-- ==== Proof.Bits.Joins.lean ====
/-
  Handing the scratch buffers back whole.

  At the end of the body every slot of a scratch buffer is held in full, each at some contents of its own. Two half
  shares of one slot agree on the slot, so they are one full share. Slots at different leading offsets share no element
  and together they are the whole buffer, so slots held at different contents are the buffer held at some contents.
-/
import proofs.«900594_g7700000000000595_dist_rsdw_v7x_xyz2x2x2_y_m512_d512_f2048_bf16_1_alg».proof.Proof.Bits.Slots

noncomputable section

namespace Cert.Kernel.Coll

open Cert.Kernel Cert.Kernel.Gen Cert.Kernel.Mesh
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ UU ℕ

/-! ## Two halves of a slot -/

/-- The two half shares of a slot, each at some contents: the contents agree on the slot, so the slot is held in full
    at the first. -/
theorem join_halves_ex (c : Dev nD) (M : Memref sig .tc .vmem S256x128 .bf16) :
    iprop(someQ c M fullShare.left ∗ someQ c M fullShare.right) ⊢ (some_ c M : sProp 𝕄) := by
  iintro ⟨⟨%f, Hl⟩, ⟨%g, Hr⟩⟩
  ihave H := (persistent_entails_right (pointsTo_agree (q₁ := fullShare.left) (q₂ := fullShare.right) (f := f) (g := g)
      (I := M.view.set) (J := M.view.set))) $$ [Hl Hr]
  · isplitl [Hl]; · iexact Hl
    iexact Hr
  icases H with ⟨%hag, Hl, Hr⟩
  iexists f
  iapply (halves c M f).2
  isplitl [Hl]; · iexact Hl
  iapply (Entails.of_eq (pointsTo_congr (q := fullShare.right) fun i hi => ((hag i (Finset.mem_inter.mpr ⟨hi, hi⟩)).1).symm))
  iexact Hr

/-! ## Slots along the leading axis, at different contents -/

section Lead
variable {N : ℕ} (M : Memref sig .tc .vmem (⟨3, ![N, 256, 128]⟩ : Shape) .bf16)
  (inb : ∀ n : Fin N, ∀ a, (![n.val, 0, 0] : Fin 3 → ℕ) a + S1x256x128.size a ≤ (⟨3, ![N, 256, 128]⟩ : Shape).size a)

/-- Slots at different leading offsets share no element of the buffer. -/
theorem lead_disjoint : ∀ n ∈ (Finset.univ : Finset (Fin N)), ∀ n' ∈ (Finset.univ : Finset (Fin N)), n ≠ n' →
    Disjoint (M.view.slice (Rect.unit ![n.val, 0, 0] S1x256x128.size (inb n))).set
      (M.view.slice (Rect.unit ![n'.val, 0, 0] S1x256x128.size (inb n'))).set := by
  intro n _ n' _ hne
  rw [View.set_slice, View.set_slice, Finset.disjoint_map]
  exact disjoint_lead (fun e => hne (Fin.ext e)) (inb n) (inb n')

/-- Every element under the buffer's view lies in the slot at its own leading coordinate. -/
theorem lead_cover : (Finset.univ : Finset (Fin N)).biUnion
    (fun n => (M.view.slice (Rect.unit ![n.val, 0, 0] S1x256x128.size (inb n))).set) = M.view.set := by
  apply Finset.Subset.antisymm
  · exact Finset.biUnion_subset.mpr fun n _ => View.set_slice_subset _ _
  · intro i hi
    obtain ⟨y, rfl⟩ := View.exists_emb_of_mem_set _ hi
    refine Finset.mem_biUnion.mpr ⟨⟨(y 0).val, (y 0).isLt⟩, Finset.mem_univ _, ?_⟩
    rw [View.set_slice]
    exact Finset.mem_map_of_mem _ ((mem_lead _ _ y).mpr rfl)

/-- The slots of a buffer held at one share, each at contents of its own, are the buffer held at some contents. -/
theorem join_lead (c : Dev nD) (q : PosShare TreeShare) (fs : Fin N → Buf (Elt F) (M.view.loc (c : Thread nD τ)))
    (f₀ : Buf (Elt F) (M.view.loc (c : Thread nD τ))) :
    bigSep Finset.univ (fun n : Fin N =>
        (M.view.loc (c : Thread nD τ) ↦[(M.view.slice (Rect.unit ![n.val, 0, 0] S1x256x128.size (inb n))).set]{q} fs n : sProp 𝕄))
      ⊢ (iprop(∃ g : Buf (Elt F) (M.view.loc (c : Thread nD τ)), M.view.loc (c : Thread nD τ) ↦[M.view.set]{q} g) : sProp 𝕄) := by
  iintro H
  ihave H := (pointsTo_biUnion_join (q := q) Finset.univ
    (fun n : Fin N => (M.view.slice (Rect.unit ![n.val, 0, 0] S1x256x128.size (inb n))).set) fs f₀ (lead_disjoint M inb)) $$ H
  icases H with ⟨%g, -, H⟩
  iexists g
  rw [lead_cover M inb]
  iexact H

end Lead

/-! ## The send and receive buffers -/

/-- A separating conjunction over six indices, written out. -/
theorem bigSep_fin6 (Φ : Fin 6 → sProp 𝕄) : bigSep Finset.univ Φ = iprop(Φ 0 ∗ Φ 1 ∗ Φ 2 ∗ Φ 3 ∗ Φ 4 ∗ Φ 5) := by
  rw [show (Finset.univ : Finset (Fin 6)) = {0, 1, 2, 3, 4, 5} by decide,
    bigSep_insert (by decide), bigSep_insert (by decide), bigSep_insert (by decide), bigSep_insert (by decide),
    bigSep_insert (by decide), bigSep_singleton]
  rfl

/-- The six slots of a [6, 256, 128] buffer, each held in full at some contents, are the buffer's view held in full. -/
theorem join6_view (M : Memref sig .tc .vmem S6x256x128 .bf16) (c : Dev nD) :
    iprop(some_ c (slot6 M 0) ∗ some_ c (slot6 M 1) ∗ some_ c (slot6 M 2) ∗ some_ c (slot6 M 3) ∗ some_ c (slot6 M 4) ∗ some_ c (slot6 M 5))
      ⊢ (iprop(∃ f : Buf (Elt F) (M.view.loc (c : Thread nD τ)), M.view.loc (c : Thread nD τ) ↦[M.view.set]{fullShare} f) : sProp 𝕄) := by
  iintro ⟨⟨%f0, H0⟩, ⟨%f1, H1⟩, ⟨%f2, H2⟩, ⟨%f3, H3⟩, ⟨%f4, H4⟩, ⟨%f5, H5⟩⟩
  iapply (join_lead M inb6s c fullShare ![f0, f1, f2, f3, f4, f5] f0)
  rw [bigSep_fin6]
  isplitl [H0]; · iapply (Entails.of_eq (holds_slot6 M c 0 fullShare f0)); iexact H0
  isplitl [H1]; · iapply (Entails.of_eq (holds_slot6 M c 1 fullShare f1)); iexact H1
  isplitl [H2]; · iapply (Entails.of_eq (holds_slot6 M c 2 fullShare f2)); iexact H2
  isplitl [H3]; · iapply (Entails.of_eq (holds_slot6 M c 3 fullShare f3)); iexact H3
  isplitl [H4]; · iapply (Entails.of_eq (holds_slot6 M c 4 fullShare f4)); iexact H4
  iapply (Entails.of_eq (holds_slot6 M c 5 fullShare f5)); iexact H5

/-- The send buffer handed back whole. -/
theorem join6_snd_ex (c : Dev nD) :
    iprop(some_ c (slot6 sndM 0) ∗ some_ c (slot6 sndM 1) ∗ some_ c (slot6 sndM 2) ∗ some_ c (slot6 sndM 3) ∗ some_ c (slot6 sndM 4) ∗ some_ c (slot6 sndM 5))
      ⊢ (iprop(∃ f : Buf (Elt F) (((c : Thread nD τ)).loc cc0_scratch1), ((c : Thread nD τ).loc cc0_scratch1) ↦{fullShare} f) : sProp 𝕄) := by
  refine (join6_view sndM c).trans ?_
  iintro ⟨%f, H⟩
  iexists f
  rw [View.set_whole]
  iexact H

/-- The receive buffer handed back whole. -/
theorem join6_rcv_ex (c : Dev nD) :
    iprop(some_ c (slot6 rcvM 0) ∗ some_ c (slot6 rcvM 1) ∗ some_ c (slot6 rcvM 2) ∗ some_ c (slot6 rcvM 3) ∗ some_ c (slot6 rcvM 4) ∗ some_ c (slot6 rcvM 5))
      ⊢ (iprop(∃ f : Buf (Elt F) (((c : Thread nD τ)).loc cc0_scratch2), ((c : Thread nD τ).loc cc0_scratch2) ↦{fullShare} f) : sProp 𝕄) := by
  refine (join6_view rcvM c).trans ?_
  iintro ⟨%f, H⟩
  iexists f
  rw [View.set_whole]
  iexact H

/-! ## The block buffer -/

/-- A separating conjunction over sixteen indices, written out. -/
theorem bigSep_fin16 (Φ : Fin 16 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15) := by
  rw [show (Finset.univ : Finset (Fin 16)) = {0, 1, 2, 3, 4, 5, 6, 7, 8, 9, 10, 11, 12, 13, 14, 15} by decide,
    bigSep_insert (by decide), bigSep_insert (by decide), bigSep_insert (by decide), bigSep_insert (by decide), bigSep_insert (by decide),
    bigSep_insert (by decide), bigSep_insert (by decide), bigSep_insert (by decide), bigSep_insert (by decide), bigSep_insert (by decide),
    bigSep_insert (by decide), bigSep_insert (by decide), bigSep_insert (by decide), bigSep_insert (by decide), bigSep_insert (by decide),
    bigSep_singleton]
  rfl

/-- The elements of the block buffer under its slot number m. -/
abbrev piece (c : Dev nD) (m : Fin 16) (f : Buf (Elt F) (blkM.view.loc (c : Thread nD τ))) : sProp 𝕄 :=
  blkM.view.loc (c : Thread nD τ) ↦[(blkM.view.slice (Rect.unit ![m.val, 0, 0] S1x256x128.size (inb16v m))).set]{fullShare} f

/-- A slot whose number equals m holds exactly the elements under m. -/
theorem slot_piece (c : Dev nD) (n : ℕ) (h : n < 16) (m : Fin 16) (e : n = m.val) (f : Buf (Elt F) (blkM.view.loc (c : Thread nD τ))) :
    holds c (slotN n h) fullShare f ⊢ piece c m f := by
  subst e
  exact Entails.of_eq (holds_slotN c m.val h fullShare f)

/-- The same, slot by role. -/
theorem ownA_piece (c : Dev nD) (w : Fin 2) (m : Fin 16) (e : 2 * (c.val % 2) + w.val = m.val) (f : Buf (Elt F) (blkM.view.loc (c : Thread nD τ))) :
    holds c (ownA c w) fullShare f ⊢ piece c m f := slot_piece c _ _ m e f
theorem xinA_piece (c : Dev nD) (w : Fin 2) (m : Fin 16) (e : 2 * (c.val % 2) + w.val + 8 = m.val) (f : Buf (Elt F) (blkM.view.loc (c : Thread nD τ))) :
    holds c (xinA c w) fullShare f ⊢ piece c m f := slot_piece c _ _ m e f
theorem zinA_piece (c : Dev nD) (w : Fin 2) (m : Fin 16) (e : (w.val + 2) - 2 * (c.val % 2) = m.val) (f : Buf (Elt F) (blkM.view.loc (c : Thread nD τ))) :
    holds c (zinA c w) fullShare f ⊢ piece c m f := slot_piece c _ _ m e f
theorem zinB_piece (c : Dev nD) (w : Fin 2) (m : Fin 16) (e : (w.val + 10) - 2 * (c.val % 2) = m.val) (f : Buf (Elt F) (blkM.view.loc (c : Thread nD τ))) :
    holds c (zinB c w) fullShare f ⊢ piece c m f := slot_piece c _ _ m e f
theorem ownB_piece (c : Dev nD) (k : Fin 4) (m : Fin 16) (e : 4 + k.val = m.val) (f : Buf (Elt F) (blkM.view.loc (c : Thread nD τ))) :
    holds c (ownB k) fullShare f ⊢ piece c m f := slot_piece c _ _ m e f
theorem xinB_piece (c : Dev nD) (k : Fin 4) (m : Fin 16) (e : 12 + k.val = m.val) (f : Buf (Elt F) (blkM.view.loc (c : Thread nD τ))) :
    holds c (xinB k) fullShare f ⊢ piece c m f := slot_piece c _ _ m e f

/-- The block buffer's view held in full at some contents is the buffer held in full. -/
theorem blk_whole_ex (c : Dev nD) :
    (iprop(∃ g : Buf (Elt F) (blkM.view.loc (c : Thread nD τ)), blkM.view.loc (c : Thread nD τ) ↦[blkM.view.set]{fullShare} g) : sProp 𝕄)
      ⊢ iprop(∃ f : Buf (Elt F) (((c : Thread nD τ)).loc cc0_scratch4), ((c : Thread nD τ).loc cc0_scratch4) ↦{fullShare} f) := by
  iintro ⟨%f, H⟩
  iexists f
  rw [View.set_whole]
  iexact H

/-- On a device of even number the own chunks sit at slots 0, 1, their x copies at 8, 9, and the z neighbour's chunks
    and their x copies at 2, 3 and 10, 11. -/
theorem joinBlk_even (c : Dev nD) (hc : c.val % 2 = 0) :
    iprop(some_ c (ownA c 0) ∗ some_ c (ownA c 1) ∗ some_ c (ownB 0) ∗ some_ c (ownB 1) ∗ some_ c (ownB 2) ∗ some_ c (ownB 3)
        ∗ some_ c (xinA c 0) ∗ some_ c (xinA c 1) ∗ some_ c (xinB 0) ∗ some_ c (xinB 1) ∗ some_ c (xinB 2) ∗ some_ c (xinB 3)
        ∗ some_ c (zinA c 0) ∗ some_ c (zinA c 1) ∗ some_ c (zinB c 0) ∗ some_ c (zinB c 1))
      ⊢ (iprop(∃ g : Buf (Elt F) (blkM.view.loc (c : Thread nD τ)), blkM.view.loc (c : Thread nD τ) ↦[blkM.view.set]{fullShare} g) : sProp 𝕄) := by
  iintro ⟨⟨%a0, Ha0⟩, ⟨%a1, Ha1⟩, ⟨%b0, Hb0⟩, ⟨%b1, Hb1⟩, ⟨%b2, Hb2⟩, ⟨%b3, Hb3⟩, ⟨%x0, Hx0⟩, ⟨%x1, Hx1⟩,
    ⟨%y0, Hy0⟩, ⟨%y1, Hy1⟩, ⟨%y2, Hy2⟩, ⟨%y3, Hy3⟩, ⟨%z0, Hz0⟩, ⟨%z1, Hz1⟩, ⟨%u0, Hu0⟩, ⟨%u1, Hu1⟩⟩
  iapply (join_lead blkM inb16v c fullShare ![a0, a1, z0, z1, b0, b1, b2, b3, x0, x1, u0, u1, y0, y1, y2, y3] a0)
  rw [bigSep_fin16]
  isplitl [Ha0]; · iapply (ownA_piece c 0 0 (by rw [hc]; rfl) a0); iexact Ha0
  isplitl [Ha1]; · iapply (ownA_piece c 1 1 (by rw [hc]; rfl) a1); iexact Ha1
  isplitl [Hz0]; · iapply (zinA_piece c 0 2 (by rw [hc]; rfl) z0); iexact Hz0
  isplitl [Hz1]; · iapply (zinA_piece c 1 3 (by rw [hc]; rfl) z1); iexact Hz1
  isplitl [Hb0]; · iapply (ownB_piece c 0 4 rfl b0); iexact Hb0
  isplitl [Hb1]; · iapply (ownB_piece c 1 5 rfl b1); iexact Hb1
  isplitl [Hb2]; · iapply (ownB_piece c 2 6 rfl b2); iexact Hb2
  isplitl [Hb3]; · iapply (ownB_piece c 3 7 rfl b3); iexact Hb3
  isplitl [Hx0]; · iapply (xinA_piece c 0 8 (by rw [hc]; rfl) x0); iexact Hx0
  isplitl [Hx1]; · iapply (xinA_piece c 1 9 (by rw [hc]; rfl) x1); iexact Hx1
  isplitl [Hu0]; · iapply (zinB_piece c 0 10 (by rw [hc]; rfl) u0); iexact Hu0
  isplitl [Hu1]; · iapply (zinB_piece c 1 11 (by rw [hc]; rfl) u1); iexact Hu1
  isplitl [Hy0]; · iapply (xinB_piece c 0 12 rfl y0); iexact Hy0
  isplitl [Hy1]; · iapply (xinB_piece c 1 13 rfl y1); iexact Hy1
  isplitl [Hy2]; · iapply (xinB_piece c 2 14 rfl y2); iexact Hy2
  iapply (xinB_piece c 3 15 rfl y3); iexact Hy3

/-- On a device of odd number the two pairs of pairs change places: own chunks at 2, 3 and 10, 11, the z neighbour's
    at 0, 1 and 8, 9. -/
theorem joinBlk_odd (c : Dev nD) (hc : c.val % 2 = 1) :
    iprop(some_ c (ownA c 0) ∗ some_ c (ownA c 1) ∗ some_ c (ownB 0) ∗ some_ c (ownB 1) ∗ some_ c (ownB 2) ∗ some_ c (ownB 3)
        ∗ some_ c (xinA c 0) ∗ some_ c (xinA c 1) ∗ some_ c (xinB 0) ∗ some_ c (xinB 1) ∗ some_ c (xinB 2) ∗ some_ c (xinB 3)
        ∗ some_ c (zinA c 0) ∗ some_ c (zinA c 1) ∗ some_ c (zinB c 0) ∗ some_ c (zinB c 1))
      ⊢ (iprop(∃ g : Buf (Elt F) (blkM.view.loc (c : Thread nD τ)), blkM.view.loc (c : Thread nD τ) ↦[blkM.view.set]{fullShare} g) : sProp 𝕄) := by
  iintro ⟨⟨%a0, Ha0⟩, ⟨%a1, Ha1⟩, ⟨%b0, Hb0⟩, ⟨%b1, Hb1⟩, ⟨%b2, Hb2⟩, ⟨%b3, Hb3⟩, ⟨%x0, Hx0⟩, ⟨%x1, Hx1⟩,
    ⟨%y0, Hy0⟩, ⟨%y1, Hy1⟩, ⟨%y2, Hy2⟩, ⟨%y3, Hy3⟩, ⟨%z0, Hz0⟩, ⟨%z1, Hz1⟩, ⟨%u0, Hu0⟩, ⟨%u1, Hu1⟩⟩
  iapply (join_lead blkM inb16v c fullShare ![z0, z1, a0, a1, b0, b1, b2, b3, u0, u1, x0, x1, y0, y1, y2, y3] a0)
  rw [bigSep_fin16]
  isplitl [Hz0]; · iapply (zinA_piece c 0 0 (by rw [hc]; rfl) z0); iexact Hz0
  isplitl [Hz1]; · iapply (zinA_piece c 1 1 (by rw [hc]; rfl) z1); iexact Hz1
  isplitl [Ha0]; · iapply (ownA_piece c 0 2 (by rw [hc]; rfl) a0); iexact Ha0
  isplitl [Ha1]; · iapply (ownA_piece c 1 3 (by rw [hc]; rfl) a1); iexact Ha1
  isplitl [Hb0]; · iapply (ownB_piece c 0 4 rfl b0); iexact Hb0
  isplitl [Hb1]; · iapply (ownB_piece c 1 5 rfl b1); iexact Hb1
  isplitl [Hb2]; · iapply (ownB_piece c 2 6 rfl b2); iexact Hb2
  isplitl [Hb3]; · iapply (ownB_piece c 3 7 rfl b3); iexact Hb3
  isplitl [Hu0]; · iapply (zinB_piece c 0 8 (by rw [hc]; rfl) u0); iexact Hu0
  isplitl [Hu1]; · iapply (zinB_piece c 1 9 (by rw [hc]; rfl) u1); iexact Hu1
  isplitl [Hx0]; · iapply (xinA_piece c 0 10 (by rw [hc]; rfl) x0); iexact Hx0
  isplitl [Hx1]; · iapply (xinA_piece c 1 11 (by rw [hc]; rfl) x1); iexact Hx1
  isplitl [Hy0]; · iapply (xinB_piece c 0 12 rfl y0); iexact Hy0
  isplitl [Hy1]; · iapply (xinB_piece c 1 13 rfl y1); iexact Hy1
  isplitl [Hy2]; · iapply (xinB_piece c 2 14 rfl y2); iexact Hy2
  iapply (xinB_piece c 3 15 rfl y3); iexact Hy3

/-- The sixteen slots named by their roles on device c, each held in full at some contents, are the block buffer held
    in full: whichever the parity of c, the roles' slot numbers are the sixteen numbers once each. -/
theorem joinBlk_ex (c : Dev nD) :
    iprop(some_ c (ownA c 0) ∗ some_ c (ownA c 1) ∗ some_ c (ownB 0) ∗ some_ c (ownB 1) ∗ some_ c (ownB 2) ∗ some_ c (ownB 3)
        ∗ some_ c (xinA c 0) ∗ some_ c (xinA c 1) ∗ some_ c (xinB 0) ∗ some_ c (xinB 1) ∗ some_ c (xinB 2) ∗ some_ c (xinB 3)
        ∗ some_ c (zinA c 0) ∗ some_ c (zinA c 1) ∗ some_ c (zinB c 0) ∗ some_ c (zinB c 1))
      ⊢ (iprop(∃ f : Buf (Elt F) (((c : Thread nD τ)).loc cc0_scratch4), ((c : Thread nD τ).loc cc0_scratch4) ↦{fullShare} f) : sProp 𝕄) :=
  (Nat.mod_two_eq_zero_or_one c.val).elim (fun hc => (joinBlk_even c hc).trans (blk_whole_ex c)) (fun hc => (joinBlk_odd c hc).trans (blk_whole_ex c))

/-- info: 'Cert.Kernel.Coll.join_halves_ex' depends on axioms: [propext, Classical.choice, Quot.sound] -/
#guard_msgs in #print axioms join_halves_ex

/-- info: 'Cert.Kernel.Coll.join6_snd_ex' depends on axioms: [propext, Classical.choice, Quot.sound] -/
#guard_msgs in #print axioms join6_snd_ex

/-- info: 'Cert.Kernel.Coll.join6_rcv_ex' depends on axioms: [propext, Classical.choice, Quot.sound] -/
#guard_msgs in #print axioms join6_rcv_ex

/-- info: 'Cert.Kernel.Coll.joinBlk_ex' depends on axioms: [propext, Classical.choice, Quot.sound] -/
#guard_msgs in #print axioms joinBlk_ex

end Cert.Kernel.Coll

end
-- ==== Proof.Bits.Body.lean ====
import proofs.«900594_g7700000000000595_dist_rsdw_v7x_xyz2x2x2_y_m512_d512_f2048_bf16_1_alg».proof.Proof.Bits.Mesh
import proofs.«900594_g7700000000000595_dist_rsdw_v7x_xyz2x2x2_y_m512_d512_f2048_bf16_1_alg».proof.Proof.Gen.Kernel.Skeleton
import proofs.«900594_g7700000000000595_dist_rsdw_v7x_xyz2x2x2_y_m512_d512_f2048_bf16_1_alg».proof.Proof.Gen.Kernel.Frame
import proofs.«900594_g7700000000000595_dist_rsdw_v7x_xyz2x2x2_y_m512_d512_f2048_bf16_1_alg».proof.Proof.Bits.Steps3
import proofs.«900594_g7700000000000595_dist_rsdw_v7x_xyz2x2x2_y_m512_d512_f2048_bf16_1_alg».proof.Proof.Bits.Steps4
import proofs.«900594_g7700000000000595_dist_rsdw_v7x_xyz2x2x2_y_m512_d512_f2048_bf16_1_alg».proof.Proof.Bits.Slots
import proofs.«900594_g7700000000000595_dist_rsdw_v7x_xyz2x2x2_y_m512_d512_f2048_bf16_1_alg».proof.Proof.Bits.Finish
import proofs.«900594_g7700000000000595_dist_rsdw_v7x_xyz2x2x2_y_m512_d512_f2048_bf16_1_alg».proof.Proof.Bits.Values
import proofs.«900594_g7700000000000595_dist_rsdw_v7x_xyz2x2x2_y_m512_d512_f2048_bf16_1_alg».proof.Proof.Bits.OutCover
import proofs.«900594_g7700000000000595_dist_rsdw_v7x_xyz2x2x2_y_m512_d512_f2048_bf16_1_alg».proof.Proof.Bits.Joins
import Idealize.ShloMosaic.Lib.Pipeline.Launch
import Idealize.ShloMosaic.Lib.Pipeline.Kit
import Idealize.ShloMosaic.Lib.Tactic

noncomputable section

namespace Cert.Kernel.Coll

open Cert.Kernel Cert.Kernel.Gen Cert.Kernel.Mesh
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

open Idealize.ShloMosaic.ValueIdx

local notation "𝕄" => MT nD τ sig Unit (Elt F) ℕ UU ℕ

/-- What device c still owes at each stage after its six copies across y: the receive credits of the copies not yet issued. -/
abbrev O1 (c : Dev nD) : CellTallies nD τ sig Unit := tallyAt (zrCell (zp c) 3) () Nb
abbrev O2 (c : Dev nD) : CellTallies nD τ sig Unit := O1 c + tallyAt (zrCell (zp c) 2) () Nb
abbrev O3 (c : Dev nD) : CellTallies nD τ sig Unit := O2 c + tallyAt (xrCell (xp c) 5) () Nb
abbrev O4 (c : Dev nD) : CellTallies nD τ sig Unit := O3 c + tallyAt (xrCell (xp c) 4) () Nb
abbrev O5 (c : Dev nD) : CellTallies nD τ sig Unit := O4 c + tallyAt (xrCell (xp c) 3) () Nb
abbrev O6 (c : Dev nD) : CellTallies nD τ sig Unit := O5 c + tallyAt (xrCell (xp c) 2) () Nb
abbrev O7 (c : Dev nD) : CellTallies nD τ sig Unit := O6 c + tallyAt (zrCell (zp c) 1) () Nb
abbrev O8 (c : Dev nD) : CellTallies nD τ sig Unit := O7 c + tallyAt (xrCell (xp c) 1) () Nb
abbrev O9 (c : Dev nD) : CellTallies nD τ sig Unit := O8 c + tallyAt (zrCell (zp c) 0) () Nb
abbrev O10 (c : Dev nD) : CellTallies nD τ sig Unit := O9 c + tallyAt (xrCell (xp c) 0) () Nb

section Mem
variable (SND : Dev nD → (cc0_scratch1 : Ref sig .tc).ty.Contents (Elt F)) (BLK : Dev nD → (cc0_scratch4 : Ref sig .tc).ty.Contents (Elt F))
theorem mem_sx (c : Dev nD) : c ∈ (Rd (F := F) SND BLK).duties (barCell (xp c)) 0 := by rw [duties_bar, xp_xp]; exact Finset.mem_insert_self _ _
theorem mem_sy (c : Dev nD) : c ∈ (Rd (F := F) SND BLK).duties (barCell (yp c)) 0 := by
  rw [duties_bar, yp_yp]; exact Finset.mem_insert_of_mem (Finset.mem_insert_self _ _)
theorem mem_sz (c : Dev nD) : c ∈ (Rd (F := F) SND BLK).duties (barCell (zp c)) 0 := by
  rw [duties_bar, zp_zp]; exact Finset.mem_insert_of_mem (Finset.mem_insert_of_mem (Finset.mem_singleton_self _))
theorem mem_sx' (c : Dev nD) : c ∈ ({xp (xp c), yp (xp c), zp (xp c)} : Finset D3) := by rw [xp_xp]; exact Finset.mem_insert_self _ _
theorem mem_sy' (c : Dev nD) : c ∈ ({xp (yp c), yp (yp c), zp (yp c)} : Finset D3) := by
  rw [yp_yp]; exact Finset.mem_insert_of_mem (Finset.mem_insert_self _ _)
theorem mem_sz' (c : Dev nD) : c ∈ ({xp (zp c), yp (zp c), zp (zp c)} : Finset D3) := by
  rw [zp_zp]; exact Finset.mem_insert_of_mem (Finset.mem_insert_of_mem (Finset.mem_singleton_self _))
end Mem

/-- Nothing owed, under a name the executor's own test for an empty tally does not see through: the waits after the last
    payment are taken by hand like the others. -/
@[irreducible] def Onil : CellTallies nD τ sig Unit := 0
theorem Onil_eq : (Onil : CellTallies nD τ sig Unit) = 0 := by unfold Onil; rfl
theorem above_nil (n : ℕ) : Above n Onil := by rw [Onil_eq]; exact above_zero n

/-- What is owed restated along an equation of tallies. -/
theorem owes_congr {t : Thread nD τ} {O O' : CellTallies nD τ sig Unit} (h : O = O') (W : Waits sig Unit) :
    (owes t O W : sProp 𝕄) ⊢ owes t O' W := by subst h; exact BI.Entails.refl _

/-- The reduced chunks as the one family the block buffer's canonical contents are built from. -/
abbrev redBv (m : (ℓ : Loc nD τ sig) → Buf (Elt F) ℓ) : Dev nD → Fin 6 → (S1x256x128.Idx → Elt F .bf16) :=
  fun d j => redB (SNDv m) (xstg m d) (dystg m d) d j

section Body
variable (m : (ℓ : Loc nD τ sig) → Buf (Elt F) ℓ)

attribute [local sl_rounds] duties_bar duties_ys duties_yr duties_xs duties_xr duties_zs duties_zr amount_bar amount_ys amount_yr amount_xs amount_xr amount_zs amount_zr
  expect_bar expect_ys expect_yr expect_xs expect_xr expect_zs expect_zr payload_bar_wx payload_bar_wy payload_bar_wz payload_bar_sx payload_bar_sy payload_bar_sz
  PX PY PZ some_ someQ holds xp_ne_yp xp_ne_zp yp_ne_zp yp_ne_xp zp_ne_xp zp_ne_yp mem_sx mem_sy mem_sz mem_sx' mem_sy' mem_sz'

set_option maxHeartbeats 16000000 in
set_option maxRecDepth 100000 in
/-- The body of device c, from its ghost state, credit and buffers to the result buffer at OUTv m c: the three entry
    signals hand the neighbours this device's landing slots; the wait brings theirs; each of the sixteen copies is
    sent at the canonical contents its source agrees with on the slot, and each wait brings a slot back. -/
theorem sound_body (K : GSem nD τ sig → ℕ) (c : Dev nD) (Kt : PUnit → sProp 𝕄) :
    iprop(bodyPre (SNDv m) (BLKv m) (OUTv m) m K c ∗ (bodyPost (SNDv m) (BLKv m) (OUTv m) m c -∗ Kt ⟨⟩))
      ⊢ wp frame (wpE (defs₀ (F := F)) 𝒱₀ (c : Thread nD τ) none) Set.univ
          (cc0_body (Memref.whole cc0_stg0_0) (Memref.isWhole_whole _) (Memref.whole cc0_stg1_0) (Memref.isWhole_whole _) (Memref.whole cc0_stg2_0) (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) (Memref.whole cc0_scratch4) (Memref.isWhole_whole _) cc0_scratch5 cc0_scratch6 cc0_scratch7 cc0_scratch8 cc0_scratch9 cc0_scratch10) Kt := by
  unfold bodyPre ghost marks positions payToks credits scratch
  iintro ⟨⟨⟨⟨Hinvs, ⟨#Hrbx, #Hrby, #Hrbz, #Hrys0, #Hrys1, #Hrys2, #Hrys3, #Hrys4, #Hrys5, #Hryr0, #Hryr1, #Hryr2, #Hryr3, #Hryr4, #Hryr5, #Hrxs0, #Hrxs1, #Hrxs2, #Hrxs3, #Hrxs4, #Hrxs5, #Hrxr0, #Hrxr1, #Hrxr2, #Hrxr3, #Hrxr4, #Hrxr5, #Hrzs0, #Hrzs1, #Hrzs2, #Hrzs3, #Hrzr0, #Hrzr1, #Hrzr2, #Hrzr3⟩,
      ⟨Hatb, Hatys0, Hatys1, Hatys2, Hatys3, Hatys4, Hatys5, Hatyr0, Hatyr1, Hatyr2, Hatyr3, Hatyr4, Hatyr5, Hatxs0, Hatxs1, Hatxs2, Hatxs3, Hatxs4, Hatxs5, Hatxr0, Hatxr1, Hatxr2, Hatxr3, Hatxr4, Hatxr5, Hatzs0, Hatzs1, Hatzs2, Hatzs3, Hatzr0, Hatzr1, Hatzr2, Hatzr3⟩,
      Htbx, Htby, Htbz, Htys0, Htys1, Htys2, Htys3, Htys4, Htys5, Htyr0, Htyr1, Htyr2, Htyr3, Htyr4, Htyr5, Htxs0, Htxs1, Htxs2, Htxs3, Htxs4, Htxs5, Htxr0, Htxr1, Htxr2, Htxr3, Htxr4, Htxr5, Htzs0, Htzs1, Htzs2, Htzs3, Htzr0, Htzr1, Htzr2, Htzr3⟩,
      ⟨Hcb, Hcyr0, Hcyr1, Hcyr2, Hcyr3, Hcyr4, Hcyr5, Hcxr0, Hcxr1, Hcxr2, Hcxr3, Hcxr4, Hcxr5, Hczr0, Hczr1, Hczr2, Hczr3⟩, #Hlev, ⟨%f0, Hs0⟩, ⟨%f1, Hs1⟩, ⟨%f2, Hs2⟩, ⟨%f3, Hs3⟩, ⟨%f4, Hs4⟩⟩,
    Ho, ⟨%d0, %g0, %hg0, Hx⟩, ⟨%d1, %g1, %hg1, Hdy⟩, ⟨%d2, %g2, %hg2, Hout⟩⟩, Hk⟩
  unfold invs
  icases Hinvs with ⟨#HIb, #HIbx, #HIby, #HIbz, #HIys0, #HIys1, #HIys2, #HIys3, #HIys4, #HIys5, #HIyr0, #HIyr1, #HIyr2, #HIyr3, #HIyr4, #HIyr5, #HIyrp0, #HIyrp1, #HIyrp2, #HIyrp3, #HIyrp4, #HIyrp5, #HIxs0, #HIxs1, #HIxs2, #HIxs3, #HIxs4, #HIxs5, #HIxr0, #HIxr1, #HIxr2, #HIxr3, #HIxr4, #HIxr5, #HIxrp0, #HIxrp1, #HIxrp2, #HIxrp3, #HIxrp4, #HIxrp5, #HIzs0, #HIzs1, #HIzs2, #HIzs3, #HIzr0, #HIzr1, #HIzr2, #HIzr3, #HIzrp0, #HIzrp1, #HIzrp2, #HIzrp3⟩
  -- the staged argument blocks, what is owed
  have hx : g0 = xstg m c := by rw [hg0]; unfold Dat.before; rw [if_pos (fetch0_0 t₀)]; rfl
  have hdy : g1 = dystg m c := by rw [hg1]; unfold Dat.before; rw [if_pos (fetch0_1 t₀)]; rfl
  subst hx hdy
  unfold Dat.owesAt Pipeline.owesWithin
  icases Ho with ⟨%W, %hW, HO⟩
  rw [show (dats (SNDv m) (BLKv m) (OUTv m) m 0 c).owed t₀.castSucc = O₀ c from rfl]
  unfold O₀
  -- the buffers through their views; the three exchanged buffers slot by slot
  ihave Hx := (Entails.of_eq (show ((((c : Thread nD τ).loc cc0_stg0_0) ↦{fullShare} xstg m c : sProp 𝕄)) = (View.loc (c : Thread nD τ) M0.view ↦{fullShare} xstg m c) from rfl)) $$ Hx
  ihave Hdy := (Entails.of_eq (show ((((c : Thread nD τ).loc cc0_stg1_0) ↦{fullShare} dystg m c : sProp 𝕄)) = (View.loc (c : Thread nD τ) M1.view ↦{fullShare} dystg m c) from rfl)) $$ Hdy
  ihave Hout := (Entails.of_eq (show ((((c : Thread nD τ).loc cc0_stg2_0) ↦{fullShare} g2 : sProp 𝕄)) = (View.loc (c : Thread nD τ) M2.view ↦{fullShare} g2) from rfl)) $$ Hout
  ihave Hs0 := (Entails.of_eq (show ((((c : Thread nD τ).loc cc0_scratch0) ↦{fullShare} f0 : sProp 𝕄)) = (View.loc (c : Thread nD τ) Mbf.view ↦{fullShare} f0) from rfl)) $$ Hs0
  ihave Hs3 := (Entails.of_eq (show ((((c : Thread nD τ).loc cc0_scratch3) ↦{fullShare} f3 : sProp 𝕄)) = (View.loc (c : Thread nD τ) Mp.view ↦{fullShare} f3) from rfl)) $$ Hs3
  ihave Hsn := (split6_snd c f1).1 $$ Hs1
  ihave Hrc := (split6_rcv c f2).1 $$ Hs2
  ihave Hbl := (splitBlk c f4).1 $$ Hs4
  unfold holds
  icases Hsn with ⟨Hsnd0, Hsnd1, Hsnd2, Hsnd3, Hsnd4, Hsnd5⟩
  icases Hrc with ⟨Hrcv0, Hrcv1, Hrcv2, Hrcv3, Hrcv4, Hrcv5⟩
  icases Hbl with ⟨HownA0, HownA1, HownB0, HownB1, HownB2, HownB3, HxinA0, HxinA1, HxinB0, HxinB1, HxinB2, HxinB3, HzinA0, HzinA1, HzinB0, HzinB1⟩
  irevert HownA0 HownA1 HownB0 HownB1 HownB2 HownB3
  iintro HownA0 HownA1 HownB0 HownB1 HownB2 HownB3
  sl_unfold [cc0_body]
  -- the three entry signals, each handing a neighbour this device's landing slots
  sl_exec_parts
  -- the wait for all three neighbours' units: their landing slots come with it
  iapply (Rounds.wp_wait_rest_token 𝒱₀ ER (Rd (SNDv m) (BLKv m)) (c : Thread nD τ) none (κ := K (barCell c))
      (wpE_semWait_eq 𝒱₀ (c : Thread nD τ) none Set.univ) (Set.mem_univ _) () (R := 0) (m := 0) (T := ∅)
      (by rw [expect_bar]; decide)) $$ [Hcb HO Hatb]
  · isplitr; · iexact HIb
    isplitl [Hcb]; · iexact Hcb
    isplitl [HO]; · iexact HO
    isplitr; · iapply (mayWait_above c _ _ 1 (lv_bar c) (by above_tac)); iexact Hlev
    iexact Hatb
  iintro ⟨HO, Hatb, -, Hpay⟩
  ihave Hp := (Entails.of_eq (rest_bar (SNDv m) (BLKv m) c)) $$ Hpay
  unfold PX PY PZ some_
  icases Hp with ⟨⟨⟨%gxA0, HpxA0⟩, ⟨%gxA1, HpxA1⟩, ⟨%gxB0, HpxB0⟩, ⟨%gxB1, HpxB1⟩, ⟨%gxB2, HpxB2⟩, ⟨%gxB3, HpxB3⟩, #Hrxrp0, #Hrxrp1, #Hrxrp2, #Hrxrp3, #Hrxrp4, #Hrxrp5⟩,
    ⟨⟨%gy0, Hq0⟩, ⟨%gy1, Hq1⟩, ⟨%gy2, Hq2⟩, ⟨%gy3, Hq3⟩, ⟨%gy4, Hq4⟩, ⟨%gy5, Hq5⟩, #Hryrp0, #Hryrp1, #Hryrp2, #Hryrp3, #Hryrp4, #Hryrp5⟩,
    ⟨%gzA0, HpzA0⟩, ⟨%gzA1, HpzA1⟩, ⟨%gzB0, HpzB0⟩, ⟨%gzB1, HpzB1⟩, #Hrzrp0, #Hrzrp1, #Hrzrp2, #Hrzrp3⟩
  sl_exec_parts
  -- copy 0 across y: the stored slot restated at the canonical contents, then sent
  have hw : sound_body.sl.Hsnd0_w1 m c f1 = (sndM.access (Rect.unit (s := S6x256x128) ![0, 0, 0] S1x256x128.size inb_S6x256x128_S1x256x128_0_0_0)).write (Elt F) f1 (sndVec (xstg m c) (dystg m c) c 0) Finset.univ := rfl
  have e := store6_snd c 0 fullShare ![0, 0, 0] rfl inb_S6x256x128_S1x256x128_0_0_0 f1 (SNDv m c) (sndVec (xstg m c) (dystg m c) c 0) (fun r k => rfl)
  rw [← hw] at e
  ihave Hsnd0 := (Entails.of_eq e) $$ Hsnd0
  clear hw e
  unfold holds
  iapply (wp_ysend' (SNDv m) (BLKv m) K c _ (dev4_eq c) 0 (SNDv m c) gy0
      (land6 (yp c) 0 fullShare gy0 (SNDv m c) (SNDv m c) (fun r k => rfl)) _ _) $$ [Hsnd0 Hq0 HO Htys0 Htyr0]
  · iframe # ∗
  iintro ⟨Hcys0, HO⟩
  sl_exec_parts
  -- copy 1 across y: the stored slot restated at the canonical contents, then sent
  have hw : sound_body.sl.Hsnd1_w1 m c f1 = (sndM.access (Rect.unit (s := S6x256x128) ![1, 0, 0] S1x256x128.size inb_S6x256x128_S1x256x128_1_0_0)).write (Elt F) f1 (sndVec (xstg m c) (dystg m c) c 1) Finset.univ := rfl
  have e := store6_snd c 1 fullShare ![1, 0, 0] rfl inb_S6x256x128_S1x256x128_1_0_0 f1 (SNDv m c) (sndVec (xstg m c) (dystg m c) c 1) (fun r k => rfl)
  rw [← hw] at e
  ihave Hsnd1 := (Entails.of_eq e) $$ Hsnd1
  clear hw e
  unfold holds
  iapply (wp_ysend' (SNDv m) (BLKv m) K c _ (dev5_eq c) 1 (SNDv m c) gy1
      (land6 (yp c) 1 fullShare gy1 (SNDv m c) (SNDv m c) (fun r k => rfl)) _ _) $$ [Hsnd1 Hq1 HO Htys1 Htyr1]
  · iframe # ∗
  iintro ⟨Hcys1, HO⟩
  sl_exec_parts
  -- copy 2 across y: the stored slot restated at the canonical contents, then sent
  have hw : sound_body.sl.Hsnd2_w1 m c f1 = (sndM.access (Rect.unit (s := S6x256x128) ![2, 0, 0] S1x256x128.size inb_S6x256x128_S1x256x128_2_0_0)).write (Elt F) f1 (sndVec (xstg m c) (dystg m c) c 2) Finset.univ := rfl
  have e := store6_snd c 2 fullShare ![2, 0, 0] rfl inb_S6x256x128_S1x256x128_2_0_0 f1 (SNDv m c) (sndVec (xstg m c) (dystg m c) c 2) (fun r k => rfl)
  rw [← hw] at e
  ihave Hsnd2 := (Entails.of_eq e) $$ Hsnd2
  clear hw e
  unfold holds
  iapply (wp_ysend' (SNDv m) (BLKv m) K c _ (dev6_eq c) 2 (SNDv m c) gy2
      (land6 (yp c) 2 fullShare gy2 (SNDv m c) (SNDv m c) (fun r k => rfl)) _ _) $$ [Hsnd2 Hq2 HO Htys2 Htyr2]
  · iframe # ∗
  iintro ⟨Hcys2, HO⟩
  sl_exec_parts
  -- copy 3 across y: the stored slot restated at the canonical contents, then sent
  have hw : sound_body.sl.Hsnd3_w1 m c f1 = (sndM.access (Rect.unit (s := S6x256x128) ![3, 0, 0] S1x256x128.size inb_S6x256x128_S1x256x128_3_0_0)).write (Elt F) f1 (sndVec (xstg m c) (dystg m c) c 3) Finset.univ := rfl
  have e := store6_snd c 3 fullShare ![3, 0, 0] rfl inb_S6x256x128_S1x256x128_3_0_0 f1 (SNDv m c) (sndVec (xstg m c) (dystg m c) c 3) (fun r k => rfl)
  rw [← hw] at e
  ihave Hsnd3 := (Entails.of_eq e) $$ Hsnd3
  clear hw e
  unfold holds
  iapply (wp_ysend' (SNDv m) (BLKv m) K c _ (dev7_eq c) 3 (SNDv m c) gy3
      (land6 (yp c) 3 fullShare gy3 (SNDv m c) (SNDv m c) (fun r k => rfl)) _ _) $$ [Hsnd3 Hq3 HO Htys3 Htyr3]
  · iframe # ∗
  iintro ⟨Hcys3, HO⟩
  sl_exec_parts
  -- copy 4 across y: the stored slot restated at the canonical contents, then sent
  have hw : sound_body.sl.Hsnd4_w1 m c f1 = (sndM.access (Rect.unit (s := S6x256x128) ![4, 0, 0] S1x256x128.size inb_S6x256x128_S1x256x128_4_0_0)).write (Elt F) f1 (sndVec (xstg m c) (dystg m c) c 4) Finset.univ := rfl
  have e := store6_snd c 4 fullShare ![4, 0, 0] rfl inb_S6x256x128_S1x256x128_4_0_0 f1 (SNDv m c) (sndVec (xstg m c) (dystg m c) c 4) (fun r k => rfl)
  rw [← hw] at e
  ihave Hsnd4 := (Entails.of_eq e) $$ Hsnd4
  clear hw e
  unfold holds
  iapply (wp_ysend' (SNDv m) (BLKv m) K c _ (dev8_eq c) 4 (SNDv m c) gy4
      (land6 (yp c) 4 fullShare gy4 (SNDv m c) (SNDv m c) (fun r k => rfl)) _ _) $$ [Hsnd4 Hq4 HO Htys4 Htyr4]
  · iframe # ∗
  iintro ⟨Hcys4, HO⟩
  sl_exec_parts
  -- copy 5 across y: the stored slot restated at the canonical contents, then sent
  have hw : sound_body.sl.Hsnd5_w1 m c f1 = (sndM.access (Rect.unit (s := S6x256x128) ![5, 0, 0] S1x256x128.size inb_S6x256x128_S1x256x128_5_0_0)).write (Elt F) f1 (sndVec (xstg m c) (dystg m c) c 5) Finset.univ := rfl
  have e := store6_snd c 5 fullShare ![5, 0, 0] rfl inb_S6x256x128_S1x256x128_5_0_0 f1 (SNDv m c) (sndVec (xstg m c) (dystg m c) c 5) (fun r k => rfl)
  rw [← hw] at e
  ihave Hsnd5 := (Entails.of_eq e) $$ Hsnd5
  clear hw e
  unfold holds
  iapply (wp_ysend' (SNDv m) (BLKv m) K c _ (dev9_eq c) 5 (SNDv m c) gy5
      (land6 (yp c) 5 fullShare gy5 (SNDv m c) (SNDv m c) (fun r k => rfl)) _ _) $$ [Hsnd5 Hq5 HO Htys5 Htyr5]
  · iframe # ∗
  iintro ⟨Hcys5, HO⟩
  sl_exec_parts
  -- chunk 0: its y copy's source slot comes back, the neighbour's partial product arrives
  iapply (wp_dwait (SNDv m) (BLKv m) K c (ysS 0) Ny 0 (duties_ys (SNDv m) (BLKv m) c 0) (amount_ys (SNDv m) (BLKv m) c 0 0) (lv_ys c 0) (O10 c) (by above_tac) _
      (wpE_waitDma2_eq 𝒱₀ (c : Thread nD τ) none Set.univ)) $$ [Hcys0 HO Hatys0]
  · iframe # ∗
  iintro ⟨HO, Hatys0, Hpay⟩
  ihave Hsnd0 := (Entails.of_eq (payload_ys (SNDv m) (BLKv m) c 0)) $$ Hpay
  sl_exec_parts
  iapply (wp_dwait (SNDv m) (BLKv m) K c (yrS 0) Ny 2 (duties_yr (SNDv m) (BLKv m) c 0) (amount_yr (SNDv m) (BLKv m) c 0 0) (lv_yr c 0) (O10 c) (by above_tac) _
      (wpE_waitDma2_eq 𝒱₀ (c : Thread nD τ) none Set.univ)) $$ [Hcyr0 HO Hatyr0]
  · iframe # ∗
  iintro ⟨HO, Hatyr0, Hpay⟩
  ihave Hrcv0 := (Entails.of_eq (payload_yr (SNDv m) (BLKv m) c 0)) $$ Hpay
  unfold holds
  sl_exec_parts
  -- the reduced chunk, stored into its slot, restated at the block buffer's canonical contents; one half of the slot goes
  -- with the copy across x, the other with the copy across z
  have hw : sound_body.sl.HownA0_w1 m c f4 = (blkM.access (Rect.unit (s := S16x256x128) (k0_off6 c 0#32) S1x256x128.size (k0_off6_inb c 0))).write (Elt F) f4 (redB (SNDv m) (xstg m c) (dystg m c) c 0) Finset.univ := rfl
  have e := storeN c _ _ fullShare (k0_off6 c 0#32) (k0_off6_eq c 0) (k0_off6_inb c 0) f4 (BLKv m c) (redB (SNDv m) (xstg m c) (dystg m c) c 0) (fun r k => blkOf_ownA (redBv m) c 0 r k)
  rw [← hw] at e
  ihave HownA0 := (Entails.of_eq e) $$ HownA0
  clear hw e
  ihave Hh := (halves c (ownA c 0) _).1 $$ HownA0
  unfold holds
  icases Hh with ⟨HownA0L, HownA0R⟩
  iapply (wp_xsendA' (SNDv m) (BLKv m) K c _ (dev10_eq c) 0 0 rfl _ _ (k0_off8_inb c 0) (k0_off7_inb c 0) (k0_off8_eq c 0) (k0_off7_eq c 0) (BLKv m c) gxA0
      (landN (xp c) _ _ _ _ fullShare gxA0 (BLKv m c) (BLKv m (xp c)) (fun r k => (blkOf_land_xinA (redBv m) c 0 r k).trans (blkOf_ownA (redBv m) c 0 r k).symm)) (O9 c) _) $$ [HownA0L HpxA0 HO Htxs0 Htxr0]
  · iframe # ∗
  iintro ⟨Hcxs0, HO⟩
  sl_exec_parts
  iapply (wp_zsendA' (SNDv m) (BLKv m) K c _ (dev11_eq c) 0 0 rfl _ _ (k0_off8_inb c 0) (k0_off8_inb c 0) (k0_off8_eq c 0) (k0_off8_eq c 0) (BLKv m c) gzA0
      (landN (zp c) _ _ _ _ fullShare gzA0 (BLKv m c) (BLKv m (zp c)) (fun r k => (blkOf_land_zinA (redBv m) c 0 r k).trans (blkOf_ownA (redBv m) c 0 r k).symm)) (O8 c) _) $$ [HownA0R HpzA0 HO Htzs0 Htzr0]
  · iframe # ∗
  iintro ⟨Hczs0, HO⟩
  sl_exec_parts
  -- chunk 1: its y copy's source slot comes back, the neighbour's partial product arrives
  iapply (wp_dwait (SNDv m) (BLKv m) K c (ysS 1) Ny 0 (duties_ys (SNDv m) (BLKv m) c 1) (amount_ys (SNDv m) (BLKv m) c 1 0) (lv_ys c 1) (O8 c) (by above_tac) _
      (wpE_waitDma2_eq 𝒱₀ (c : Thread nD τ) none Set.univ)) $$ [Hcys1 HO Hatys1]
  · iframe # ∗
  iintro ⟨HO, Hatys1, Hpay⟩
  ihave Hsnd1 := (Entails.of_eq (payload_ys (SNDv m) (BLKv m) c 1)) $$ Hpay
  sl_exec_parts
  iapply (wp_dwait (SNDv m) (BLKv m) K c (yrS 1) Ny 2 (duties_yr (SNDv m) (BLKv m) c 1) (amount_yr (SNDv m) (BLKv m) c 1 0) (lv_yr c 1) (O8 c) (by above_tac) _
      (wpE_waitDma2_eq 𝒱₀ (c : Thread nD τ) none Set.univ)) $$ [Hcyr1 HO Hatyr1]
  · iframe # ∗
  iintro ⟨HO, Hatyr1, Hpay⟩
  ihave Hrcv1 := (Entails.of_eq (payload_yr (SNDv m) (BLKv m) c 1)) $$ Hpay
  unfold holds
  sl_exec_parts
  -- the reduced chunk, stored into its slot, restated at the block buffer's canonical contents; one half of the slot goes
  -- with the copy across x, the other with the copy across z
  have hw : sound_body.sl.HownA1_w1 m c f4 = (blkM.access (Rect.unit (s := S16x256x128) (k0_off6 c 1#32) S1x256x128.size (k0_off6_inb c 1))).write (Elt F) f4 (redB (SNDv m) (xstg m c) (dystg m c) c 1) Finset.univ := rfl
  have e := storeN c _ _ fullShare (k0_off6 c 1#32) (k0_off6_eq c 1) (k0_off6_inb c 1) f4 (BLKv m c) (redB (SNDv m) (xstg m c) (dystg m c) c 1) (fun r k => blkOf_ownA (redBv m) c 1 r k)
  rw [← hw] at e
  ihave HownA1 := (Entails.of_eq e) $$ HownA1
  clear hw e
  ihave Hh := (halves c (ownA c 1) _).1 $$ HownA1
  unfold holds
  icases Hh with ⟨HownA1L, HownA1R⟩
  iapply (wp_xsendA' (SNDv m) (BLKv m) K c _ (dev12_eq c) 1 1 rfl _ _ (k0_off8_inb c 1) (k0_off7_inb c 1) (k0_off8_eq c 1) (k0_off7_eq c 1) (BLKv m c) gxA1
      (landN (xp c) _ _ _ _ fullShare gxA1 (BLKv m c) (BLKv m (xp c)) (fun r k => (blkOf_land_xinA (redBv m) c 1 r k).trans (blkOf_ownA (redBv m) c 1 r k).symm)) (O7 c) _) $$ [HownA1L HpxA1 HO Htxs1 Htxr1]
  · iframe # ∗
  iintro ⟨Hcxs1, HO⟩
  sl_exec_parts
  iapply (wp_zsendA' (SNDv m) (BLKv m) K c _ (dev13_eq c) 1 1 rfl _ _ (k0_off8_inb c 1) (k0_off8_inb c 1) (k0_off8_eq c 1) (k0_off8_eq c 1) (BLKv m c) gzA1
      (landN (zp c) _ _ _ _ fullShare gzA1 (BLKv m c) (BLKv m (zp c)) (fun r k => (blkOf_land_zinA (redBv m) c 1 r k).trans (blkOf_ownA (redBv m) c 1 r k).symm)) (O6 c) _) $$ [HownA1R HpzA1 HO Htzs1 Htzr1]
  · iframe # ∗
  iintro ⟨Hczs1, HO⟩
  sl_exec_parts
  -- chunk 2: its y copy's source slot comes back, the neighbour's partial product arrives
  iapply (wp_dwait (SNDv m) (BLKv m) K c (ysS 2) Ny 0 (duties_ys (SNDv m) (BLKv m) c 2) (amount_ys (SNDv m) (BLKv m) c 2 0) (lv_ys c 2) (O6 c) (by above_tac) _
      (wpE_waitDma2_eq 𝒱₀ (c : Thread nD τ) none Set.univ)) $$ [Hcys2 HO Hatys2]
  · iframe # ∗
  iintro ⟨HO, Hatys2, Hpay⟩
  ihave Hsnd2 := (Entails.of_eq (payload_ys (SNDv m) (BLKv m) c 2)) $$ Hpay
  sl_exec_parts
  iapply (wp_dwait (SNDv m) (BLKv m) K c (yrS 2) Ny 2 (duties_yr (SNDv m) (BLKv m) c 2) (amount_yr (SNDv m) (BLKv m) c 2 0) (lv_yr c 2) (O6 c) (by above_tac) _
      (wpE_waitDma2_eq 𝒱₀ (c : Thread nD τ) none Set.univ)) $$ [Hcyr2 HO Hatyr2]
  · iframe # ∗
  iintro ⟨HO, Hatyr2, Hpay⟩
  ihave Hrcv2 := (Entails.of_eq (payload_yr (SNDv m) (BLKv m) c 2)) $$ Hpay
  unfold holds
  sl_exec_parts
  have hw : sound_body.sl.HownB0_w1 m c f4 = (blkM.access (Rect.unit (s := S16x256x128) ![4, 0, 0] S1x256x128.size inb_S16x256x128_S1x256x128_4_0_0)).write (Elt F) f4 (redB (SNDv m) (xstg m c) (dystg m c) c 2) Finset.univ := rfl
  have e := storeN c _ _ fullShare ![4, 0, 0] rfl inb_S16x256x128_S1x256x128_4_0_0 f4 (BLKv m c) (redB (SNDv m) (xstg m c) (dystg m c) c 2) (fun r k => blkOf_ownB (redBv m) c 0 r k)
  rw [← hw] at e
  ihave HownB0 := (Entails.of_eq e) $$ HownB0
  clear hw e
  unfold holds
  iapply (wp_xsendB' (SNDv m) (BLKv m) K c _ (dev14_eq c) 0 2 rfl (BLKv m c) gxB0
      (landN (xp c) _ _ _ _ fullShare gxB0 (BLKv m c) (BLKv m (xp c)) (fun r k => (blkOf_land_xinB (redBv m) c 0 r k).trans (blkOf_ownB (redBv m) c 0 r k).symm)) (O5 c) _) $$ [HownB0 HpxB0 HO Htxs2 Htxr2]
  · iframe # ∗
  iintro ⟨Hcxs2, HO⟩
  sl_exec_parts
  -- chunk 3: its y copy's source slot comes back, the neighbour's partial product arrives
  iapply (wp_dwait (SNDv m) (BLKv m) K c (ysS 3) Ny 0 (duties_ys (SNDv m) (BLKv m) c 3) (amount_ys (SNDv m) (BLKv m) c 3 0) (lv_ys c 3) (O5 c) (by above_tac) _
      (wpE_waitDma2_eq 𝒱₀ (c : Thread nD τ) none Set.univ)) $$ [Hcys3 HO Hatys3]
  · iframe # ∗
  iintro ⟨HO, Hatys3, Hpay⟩
  ihave Hsnd3 := (Entails.of_eq (payload_ys (SNDv m) (BLKv m) c 3)) $$ Hpay
  sl_exec_parts
  iapply (wp_dwait (SNDv m) (BLKv m) K c (yrS 3) Ny 2 (duties_yr (SNDv m) (BLKv m) c 3) (amount_yr (SNDv m) (BLKv m) c 3 0) (lv_yr c 3) (O5 c) (by above_tac) _
      (wpE_waitDma2_eq 𝒱₀ (c : Thread nD τ) none Set.univ)) $$ [Hcyr3 HO Hatyr3]
  · iframe # ∗
  iintro ⟨HO, Hatyr3, Hpay⟩
  ihave Hrcv3 := (Entails.of_eq (payload_yr (SNDv m) (BLKv m) c 3)) $$ Hpay
  unfold holds
  sl_exec_parts
  have hw : sound_body.sl.HownB1_w1 m c f4 = (blkM.access (Rect.unit (s := S16x256x128) ![5, 0, 0] S1x256x128.size inb_S16x256x128_S1x256x128_5_0_0)).write (Elt F) f4 (redB (SNDv m) (xstg m c) (dystg m c) c 3) Finset.univ := rfl
  have e := storeN c _ _ fullShare ![5, 0, 0] rfl inb_S16x256x128_S1x256x128_5_0_0 f4 (BLKv m c) (redB (SNDv m) (xstg m c) (dystg m c) c 3) (fun r k => blkOf_ownB (redBv m) c 1 r k)
  rw [← hw] at e
  ihave HownB1 := (Entails.of_eq e) $$ HownB1
  clear hw e
  unfold holds
  iapply (wp_xsendB' (SNDv m) (BLKv m) K c _ (dev15_eq c) 1 3 rfl (BLKv m c) gxB1
      (landN (xp c) _ _ _ _ fullShare gxB1 (BLKv m c) (BLKv m (xp c)) (fun r k => (blkOf_land_xinB (redBv m) c 1 r k).trans (blkOf_ownB (redBv m) c 1 r k).symm)) (O4 c) _) $$ [HownB1 HpxB1 HO Htxs3 Htxr3]
  · iframe # ∗
  iintro ⟨Hcxs3, HO⟩
  sl_exec_parts
  -- chunk 4: its y copy's source slot comes back, the neighbour's partial product arrives
  iapply (wp_dwait (SNDv m) (BLKv m) K c (ysS 4) Ny 0 (duties_ys (SNDv m) (BLKv m) c 4) (amount_ys (SNDv m) (BLKv m) c 4 0) (lv_ys c 4) (O4 c) (by above_tac) _
      (wpE_waitDma2_eq 𝒱₀ (c : Thread nD τ) none Set.univ)) $$ [Hcys4 HO Hatys4]
  · iframe # ∗
  iintro ⟨HO, Hatys4, Hpay⟩
  ihave Hsnd4 := (Entails.of_eq (payload_ys (SNDv m) (BLKv m) c 4)) $$ Hpay
  sl_exec_parts
  iapply (wp_dwait (SNDv m) (BLKv m) K c (yrS 4) Ny 2 (duties_yr (SNDv m) (BLKv m) c 4) (amount_yr (SNDv m) (BLKv m) c 4 0) (lv_yr c 4) (O4 c) (by above_tac) _
      (wpE_waitDma2_eq 𝒱₀ (c : Thread nD τ) none Set.univ)) $$ [Hcyr4 HO Hatyr4]
  · iframe # ∗
  iintro ⟨HO, Hatyr4, Hpay⟩
  ihave Hrcv4 := (Entails.of_eq (payload_yr (SNDv m) (BLKv m) c 4)) $$ Hpay
  unfold holds
  sl_exec_parts
  have hw : sound_body.sl.HownB2_w1 m c f4 = (blkM.access (Rect.unit (s := S16x256x128) ![6, 0, 0] S1x256x128.size inb_S16x256x128_S1x256x128_6_0_0)).write (Elt F) f4 (redB (SNDv m) (xstg m c) (dystg m c) c 4) Finset.univ := rfl
  have e := storeN c _ _ fullShare ![6, 0, 0] rfl inb_S16x256x128_S1x256x128_6_0_0 f4 (BLKv m c) (redB (SNDv m) (xstg m c) (dystg m c) c 4) (fun r k => blkOf_ownB (redBv m) c 2 r k)
  rw [← hw] at e
  ihave HownB2 := (Entails.of_eq e) $$ HownB2
  clear hw e
  unfold holds
  iapply (wp_xsendB' (SNDv m) (BLKv m) K c _ (dev16_eq c) 2 4 rfl (BLKv m c) gxB2
      (landN (xp c) _ _ _ _ fullShare gxB2 (BLKv m c) (BLKv m (xp c)) (fun r k => (blkOf_land_xinB (redBv m) c 2 r k).trans (blkOf_ownB (redBv m) c 2 r k).symm)) (O3 c) _) $$ [HownB2 HpxB2 HO Htxs4 Htxr4]
  · iframe # ∗
  iintro ⟨Hcxs4, HO⟩
  sl_exec_parts
  -- chunk 5: its y copy's source slot comes back, the neighbour's partial product arrives
  iapply (wp_dwait (SNDv m) (BLKv m) K c (ysS 5) Ny 0 (duties_ys (SNDv m) (BLKv m) c 5) (amount_ys (SNDv m) (BLKv m) c 5 0) (lv_ys c 5) (O3 c) (by above_tac) _
      (wpE_waitDma2_eq 𝒱₀ (c : Thread nD τ) none Set.univ)) $$ [Hcys5 HO Hatys5]
  · iframe # ∗
  iintro ⟨HO, Hatys5, Hpay⟩
  ihave Hsnd5 := (Entails.of_eq (payload_ys (SNDv m) (BLKv m) c 5)) $$ Hpay
  sl_exec_parts
  iapply (wp_dwait (SNDv m) (BLKv m) K c (yrS 5) Ny 2 (duties_yr (SNDv m) (BLKv m) c 5) (amount_yr (SNDv m) (BLKv m) c 5 0) (lv_yr c 5) (O3 c) (by above_tac) _
      (wpE_waitDma2_eq 𝒱₀ (c : Thread nD τ) none Set.univ)) $$ [Hcyr5 HO Hatyr5]
  · iframe # ∗
  iintro ⟨HO, Hatyr5, Hpay⟩
  ihave Hrcv5 := (Entails.of_eq (payload_yr (SNDv m) (BLKv m) c 5)) $$ Hpay
  unfold holds
  sl_exec_parts
  have hw : sound_body.sl.HownB3_w1 m c f4 = (blkM.access (Rect.unit (s := S16x256x128) ![7, 0, 0] S1x256x128.size inb_S16x256x128_S1x256x128_7_0_0)).write (Elt F) f4 (redB (SNDv m) (xstg m c) (dystg m c) c 5) Finset.univ := rfl
  have e := storeN c _ _ fullShare ![7, 0, 0] rfl inb_S16x256x128_S1x256x128_7_0_0 f4 (BLKv m c) (redB (SNDv m) (xstg m c) (dystg m c) c 5) (fun r k => blkOf_ownB (redBv m) c 3 r k)
  rw [← hw] at e
  ihave HownB3 := (Entails.of_eq e) $$ HownB3
  clear hw e
  unfold holds
  iapply (wp_xsendB' (SNDv m) (BLKv m) K c _ (dev17_eq c) 3 5 rfl (BLKv m c) gxB3
      (landN (xp c) _ _ _ _ fullShare gxB3 (BLKv m c) (BLKv m (xp c)) (fun r k => (blkOf_land_xinB (redBv m) c 3 r k).trans (blkOf_ownB (redBv m) c 3 r k).symm)) (O2 c) _) $$ [HownB3 HpxB3 HO Htxs5 Htxr5]
  · iframe # ∗
  iintro ⟨Hcxs5, HO⟩
  sl_exec_parts
  -- chunk 0 of the x neighbour: the sent half of the own slot comes back, the neighbour's chunk arrives and goes on across z
  iapply (wp_dwait (SNDv m) (BLKv m) K c (xsS 0) Nb 0 (duties_xs (SNDv m) (BLKv m) c 0) (amount_xs (SNDv m) (BLKv m) c 0 0) (lv_xs c 0) (O2 c) (by above_tac) _
      (wpE_waitDma2_eq 𝒱₀ (c : Thread nD τ) none Set.univ)) $$ [Hcxs0 HO Hatxs0]
  · iframe # ∗
  iintro ⟨HO, Hatxs0, Hpay⟩
  ihave HownA0L := (Entails.of_eq (show (Rd (F := F) (SNDv m) (BLKv m)).payload (xsCell c 0) 0 0 = someQ c (ownA c 0) fullShare.left from rfl)) $$ Hpay
  sl_exec_parts
  iapply (wp_dwait (SNDv m) (BLKv m) K c (xrS 0) Nb 3 (duties_xr (SNDv m) (BLKv m) c 0) (amount_xr (SNDv m) (BLKv m) c 0 0) (lv_xr c 0) (O2 c) (by above_tac) _
      (wpE_waitDma2_eq 𝒱₀ (c : Thread nD τ) none Set.univ)) $$ [Hcxr0 HO Hatxr0]
  · iframe # ∗
  iintro ⟨HO, Hatxr0, Hpay⟩
  ihave HxinA0 := (Entails.of_eq (show (Rd (F := F) (SNDv m) (BLKv m)).payload (xrCell c 0) 0 0 = holds c (xinA c 0) fullShare (BLKv m c) from rfl)) $$ Hpay
  sl_exec_parts
  ihave Hh := (halves c (xinA c 0) _).1 $$ HxinA0
  unfold holds
  icases Hh with ⟨HxinA0L, HxinA0R⟩
  iapply (wp_zsendB' (SNDv m) (BLKv m) K c _ (dev18_eq c) 0 2 rfl _ _ (k0_off7_inb c 0) (k0_off7_inb c 0) (k0_off7_eq c 0) (k0_off7_eq c 0) (BLKv m c) gzB0
      (landN (zp c) _ _ _ _ fullShare gzB0 (BLKv m c) (BLKv m (zp c)) (fun r k => (blkOf_land_zinB (redBv m) c 0 r k).trans (blkOf_xinA (redBv m) c 0 r k).symm)) (O1 c) _) $$ [HxinA0L HpzB0 HO Htzs2 Htzr2]
  · iframe # ∗
  iintro ⟨Hczs2, HO⟩
  sl_exec_parts
  -- chunk 1 of the x neighbour: the sent half of the own slot comes back, the neighbour's chunk arrives and goes on across z
  iapply (wp_dwait (SNDv m) (BLKv m) K c (xsS 1) Nb 0 (duties_xs (SNDv m) (BLKv m) c 1) (amount_xs (SNDv m) (BLKv m) c 1 0) (lv_xs c 1) (O1 c) (by above_tac) _
      (wpE_waitDma2_eq 𝒱₀ (c : Thread nD τ) none Set.univ)) $$ [Hcxs1 HO Hatxs1]
  · iframe # ∗
  iintro ⟨HO, Hatxs1, Hpay⟩
  ihave HownA1L := (Entails.of_eq (show (Rd (F := F) (SNDv m) (BLKv m)).payload (xsCell c 1) 0 0 = someQ c (ownA c 1) fullShare.left from rfl)) $$ Hpay
  sl_exec_parts
  iapply (wp_dwait (SNDv m) (BLKv m) K c (xrS 1) Nb 3 (duties_xr (SNDv m) (BLKv m) c 1) (amount_xr (SNDv m) (BLKv m) c 1 0) (lv_xr c 1) (O1 c) (by above_tac) _
      (wpE_waitDma2_eq 𝒱₀ (c : Thread nD τ) none Set.univ)) $$ [Hcxr1 HO Hatxr1]
  · iframe # ∗
  iintro ⟨HO, Hatxr1, Hpay⟩
  ihave HxinA1 := (Entails.of_eq (show (Rd (F := F) (SNDv m) (BLKv m)).payload (xrCell c 1) 0 0 = holds c (xinA c 1) fullShare (BLKv m c) from rfl)) $$ Hpay
  sl_exec_parts
  ihave Hh := (halves c (xinA c 1) _).1 $$ HxinA1
  unfold holds
  icases Hh with ⟨HxinA1L, HxinA1R⟩
  ihave HO := (owes_congr (F := F) (t := (c : Thread nD τ)) (show O1 c = Onil + O1 c from by rw [Onil_eq, zero_add]) _) $$ HO
  iapply (wp_zsendB' (SNDv m) (BLKv m) K c _ (dev19_eq c) 1 3 rfl _ _ (k0_off7_inb c 1) (k0_off7_inb c 1) (k0_off7_eq c 1) (k0_off7_eq c 1) (BLKv m c) gzB1
      (landN (zp c) _ _ _ _ fullShare gzB1 (BLKv m c) (BLKv m (zp c)) (fun r k => (blkOf_land_zinB (redBv m) c 1 r k).trans (blkOf_xinA (redBv m) c 1 r k).symm)) Onil _) $$ [HxinA1L HpzB1 HO Htzs3 Htzr3]
  · iframe # ∗
  iintro ⟨Hczs3, HO⟩
  sl_exec_parts
  iapply (wp_dwait (SNDv m) (BLKv m) K c (xsS 2) Nb 0 (duties_xs (SNDv m) (BLKv m) c 2) (amount_xs (SNDv m) (BLKv m) c 2 0) (lv_xs c 2) Onil (above_nil _) _
      (wpE_waitDma2_eq 𝒱₀ (c : Thread nD τ) none Set.univ)) $$ [Hcxs2 HO Hatxs2]
  · iframe # ∗
  iintro ⟨HO, Hatxs2, Hpay⟩
  ihave HownB0 := (Entails.of_eq (show (Rd (F := F) (SNDv m) (BLKv m)).payload (xsCell c 2) 0 0 = some_ c (ownB 0) from rfl)) $$ Hpay
  sl_exec_parts
  iapply (wp_dwait (SNDv m) (BLKv m) K c (xrS 2) Nb 3 (duties_xr (SNDv m) (BLKv m) c 2) (amount_xr (SNDv m) (BLKv m) c 2 0) (lv_xr c 2) Onil (above_nil _) _
      (wpE_waitDma2_eq 𝒱₀ (c : Thread nD τ) none Set.univ)) $$ [Hcxr2 HO Hatxr2]
  · iframe # ∗
  iintro ⟨HO, Hatxr2, Hpay⟩
  ihave HxinB0 := (Entails.of_eq (show (Rd (F := F) (SNDv m) (BLKv m)).payload (xrCell c 2) 0 0 = holds c (xinB 0) fullShare (BLKv m c) from rfl)) $$ Hpay
  unfold holds
  sl_exec_parts
  iapply (wp_dwait (SNDv m) (BLKv m) K c (xsS 3) Nb 0 (duties_xs (SNDv m) (BLKv m) c 3) (amount_xs (SNDv m) (BLKv m) c 3 0) (lv_xs c 3) Onil (above_nil _) _
      (wpE_waitDma2_eq 𝒱₀ (c : Thread nD τ) none Set.univ)) $$ [Hcxs3 HO Hatxs3]
  · iframe # ∗
  iintro ⟨HO, Hatxs3, Hpay⟩
  ihave HownB1 := (Entails.of_eq (show (Rd (F := F) (SNDv m) (BLKv m)).payload (xsCell c 3) 0 0 = some_ c (ownB 1) from rfl)) $$ Hpay
  sl_exec_parts
  iapply (wp_dwait (SNDv m) (BLKv m) K c (xrS 3) Nb 3 (duties_xr (SNDv m) (BLKv m) c 3) (amount_xr (SNDv m) (BLKv m) c 3 0) (lv_xr c 3) Onil (above_nil _) _
      (wpE_waitDma2_eq 𝒱₀ (c : Thread nD τ) none Set.univ)) $$ [Hcxr3 HO Hatxr3]
  · iframe # ∗
  iintro ⟨HO, Hatxr3, Hpay⟩
  ihave HxinB1 := (Entails.of_eq (show (Rd (F := F) (SNDv m) (BLKv m)).payload (xrCell c 3) 0 0 = holds c (xinB 1) fullShare (BLKv m c) from rfl)) $$ Hpay
  unfold holds
  sl_exec_parts
  iapply (wp_dwait (SNDv m) (BLKv m) K c (xsS 4) Nb 0 (duties_xs (SNDv m) (BLKv m) c 4) (amount_xs (SNDv m) (BLKv m) c 4 0) (lv_xs c 4) Onil (above_nil _) _
      (wpE_waitDma2_eq 𝒱₀ (c : Thread nD τ) none Set.univ)) $$ [Hcxs4 HO Hatxs4]
  · iframe # ∗
  iintro ⟨HO, Hatxs4, Hpay⟩
  ihave HownB2 := (Entails.of_eq (show (Rd (F := F) (SNDv m) (BLKv m)).payload (xsCell c 4) 0 0 = some_ c (ownB 2) from rfl)) $$ Hpay
  sl_exec_parts
  iapply (wp_dwait (SNDv m) (BLKv m) K c (xrS 4) Nb 3 (duties_xr (SNDv m) (BLKv m) c 4) (amount_xr (SNDv m) (BLKv m) c 4 0) (lv_xr c 4) Onil (above_nil _) _
      (wpE_waitDma2_eq 𝒱₀ (c : Thread nD τ) none Set.univ)) $$ [Hcxr4 HO Hatxr4]
  · iframe # ∗
  iintro ⟨HO, Hatxr4, Hpay⟩
  ihave HxinB2 := (Entails.of_eq (show (Rd (F := F) (SNDv m) (BLKv m)).payload (xrCell c 4) 0 0 = holds c (xinB 2) fullShare (BLKv m c) from rfl)) $$ Hpay
  unfold holds
  sl_exec_parts
  iapply (wp_dwait (SNDv m) (BLKv m) K c (xsS 5) Nb 0 (duties_xs (SNDv m) (BLKv m) c 5) (amount_xs (SNDv m) (BLKv m) c 5 0) (lv_xs c 5) Onil (above_nil _) _
      (wpE_waitDma2_eq 𝒱₀ (c : Thread nD τ) none Set.univ)) $$ [Hcxs5 HO Hatxs5]
  · iframe # ∗
  iintro ⟨HO, Hatxs5, Hpay⟩
  ihave HownB3 := (Entails.of_eq (show (Rd (F := F) (SNDv m) (BLKv m)).payload (xsCell c 5) 0 0 = some_ c (ownB 3) from rfl)) $$ Hpay
  sl_exec_parts
  iapply (wp_dwait (SNDv m) (BLKv m) K c (xrS 5) Nb 3 (duties_xr (SNDv m) (BLKv m) c 5) (amount_xr (SNDv m) (BLKv m) c 5 0) (lv_xr c 5) Onil (above_nil _) _
      (wpE_waitDma2_eq 𝒱₀ (c : Thread nD τ) none Set.univ)) $$ [Hcxr5 HO Hatxr5]
  · iframe # ∗
  iintro ⟨HO, Hatxr5, Hpay⟩
  ihave HxinB3 := (Entails.of_eq (show (Rd (F := F) (SNDv m) (BLKv m)).payload (xrCell c 5) 0 0 = holds c (xinB 3) fullShare (BLKv m c) from rfl)) $$ Hpay
  unfold holds
  sl_exec_parts
  -- the four copies that came across z
  iapply (wp_dwait (SNDv m) (BLKv m) K c (zsS 0) Nb 0 (duties_zs (SNDv m) (BLKv m) c 0) (amount_zs (SNDv m) (BLKv m) c 0 0) (lv_zs c 0) Onil (above_nil _) _
      (wpE_waitDma2_eq 𝒱₀ (c : Thread nD τ) none Set.univ)) $$ [Hczs0 HO Hatzs0]
  · iframe # ∗
  iintro ⟨HO, Hatzs0, Hpay⟩
  ihave HownA0R := (Entails.of_eq (show (Rd (F := F) (SNDv m) (BLKv m)).payload (zsCell c 0) 0 0 = someQ c (ownA c 0) fullShare.right from rfl)) $$ Hpay
  sl_exec_parts
  iapply (wp_dwait (SNDv m) (BLKv m) K c (zrS 0) Nb 4 (duties_zr (SNDv m) (BLKv m) c 0) (amount_zr (SNDv m) (BLKv m) c 0 0) (lv_zr c 0) Onil (above_nil _) _
      (wpE_waitDma2_eq 𝒱₀ (c : Thread nD τ) none Set.univ)) $$ [Hczr0 HO Hatzr0]
  · iframe # ∗
  iintro ⟨HO, Hatzr0, Hpay⟩
  ihave HzinA0 := (Entails.of_eq (show (Rd (F := F) (SNDv m) (BLKv m)).payload (zrCell c 0) 0 0 = holds c (zinA c 0) fullShare (BLKv m c) from rfl)) $$ Hpay
  unfold holds
  sl_exec_parts
  iapply (wp_dwait (SNDv m) (BLKv m) K c (zsS 1) Nb 0 (duties_zs (SNDv m) (BLKv m) c 1) (amount_zs (SNDv m) (BLKv m) c 1 0) (lv_zs c 1) Onil (above_nil _) _
      (wpE_waitDma2_eq 𝒱₀ (c : Thread nD τ) none Set.univ)) $$ [Hczs1 HO Hatzs1]
  · iframe # ∗
  iintro ⟨HO, Hatzs1, Hpay⟩
  ihave HownA1R := (Entails.of_eq (show (Rd (F := F) (SNDv m) (BLKv m)).payload (zsCell c 1) 0 0 = someQ c (ownA c 1) fullShare.right from rfl)) $$ Hpay
  sl_exec_parts
  iapply (wp_dwait (SNDv m) (BLKv m) K c (zrS 1) Nb 4 (duties_zr (SNDv m) (BLKv m) c 1) (amount_zr (SNDv m) (BLKv m) c 1 0) (lv_zr c 1) Onil (above_nil _) _
      (wpE_waitDma2_eq 𝒱₀ (c : Thread nD τ) none Set.univ)) $$ [Hczr1 HO Hatzr1]
  · iframe # ∗
  iintro ⟨HO, Hatzr1, Hpay⟩
  ihave HzinA1 := (Entails.of_eq (show (Rd (F := F) (SNDv m) (BLKv m)).payload (zrCell c 1) 0 0 = holds c (zinA c 1) fullShare (BLKv m c) from rfl)) $$ Hpay
  unfold holds
  sl_exec_parts
  iapply (wp_dwait (SNDv m) (BLKv m) K c (zsS 2) Nb 0 (duties_zs (SNDv m) (BLKv m) c 2) (amount_zs (SNDv m) (BLKv m) c 2 0) (lv_zs c 2) Onil (above_nil _) _
      (wpE_waitDma2_eq 𝒱₀ (c : Thread nD τ) none Set.univ)) $$ [Hczs2 HO Hatzs2]
  · iframe # ∗
  iintro ⟨HO, Hatzs2, Hpay⟩
  ihave HxinA0L := (Entails.of_eq (show (Rd (F := F) (SNDv m) (BLKv m)).payload (zsCell c 2) 0 0 = someQ c (xinA c 0) fullShare.left from rfl)) $$ Hpay
  sl_exec_parts
  iapply (wp_dwait (SNDv m) (BLKv m) K c (zrS 2) Nb 4 (duties_zr (SNDv m) (BLKv m) c 2) (amount_zr (SNDv m) (BLKv m) c 2 0) (lv_zr c 2) Onil (above_nil _) _
      (wpE_waitDma2_eq 𝒱₀ (c : Thread nD τ) none Set.univ)) $$ [Hczr2 HO Hatzr2]
  · iframe # ∗
  iintro ⟨HO, Hatzr2, Hpay⟩
  ihave HzinB0 := (Entails.of_eq (show (Rd (F := F) (SNDv m) (BLKv m)).payload (zrCell c 2) 0 0 = holds c (zinB c 0) fullShare (BLKv m c) from rfl)) $$ Hpay
  unfold holds
  sl_exec_parts
  iapply (wp_dwait (SNDv m) (BLKv m) K c (zsS 3) Nb 0 (duties_zs (SNDv m) (BLKv m) c 3) (amount_zs (SNDv m) (BLKv m) c 3 0) (lv_zs c 3) Onil (above_nil _) _
      (wpE_waitDma2_eq 𝒱₀ (c : Thread nD τ) none Set.univ)) $$ [Hczs3 HO Hatzs3]
  · iframe # ∗
  iintro ⟨HO, Hatzs3, Hpay⟩
  ihave HxinA1L := (Entails.of_eq (show (Rd (F := F) (SNDv m) (BLKv m)).payload (zsCell c 3) 0 0 = someQ c (xinA c 1) fullShare.left from rfl)) $$ Hpay
  sl_exec_parts
  iapply (wp_dwait (SNDv m) (BLKv m) K c (zrS 3) Nb 4 (duties_zr (SNDv m) (BLKv m) c 3) (amount_zr (SNDv m) (BLKv m) c 3 0) (lv_zr c 3) Onil (above_nil _) _
      (wpE_waitDma2_eq 𝒱₀ (c : Thread nD τ) none Set.univ)) $$ [Hczr3 HO Hatzr3]
  · iframe # ∗
  iintro ⟨HO, Hatzr3, Hpay⟩
  ihave HzinB1 := (Entails.of_eq (show (Rd (F := F) (SNDv m) (BLKv m)).payload (zrCell c 3) 0 0 = holds c (zinB c 1) fullShare (BLKv m c) from rfl)) $$ Hpay
  unfold holds
  sl_exec_parts
  -- every DMA cell of the device closed: its thirty-two semaphores back at zero
  imod (close_all (SNDv m) (BLKv m) K c) $$ [Hatys0 Hatys1 Hatys2 Hatys3 Hatys4 Hatys5 Hatyr0 Hatyr1 Hatyr2 Hatyr3 Hatyr4 Hatyr5 Hatxs0 Hatxs1 Hatxs2 Hatxs3 Hatxs4 Hatxs5 Hatxr0 Hatxr1 Hatxr2 Hatxr3 Hatxr4 Hatxr5 Hatzs0 Hatzs1 Hatzs2 Hatzs3 Hatzr0 Hatzr1 Hatzr2 Hatzr3] with Hzero
  · isplitr
    · unfold invs; iframe #
    unfold positions1; iframe ∗
  -- the halves of the four twice-lent slots joined
  ihave HownA0 := (join_halves_ex c (ownA c 0)) $$ [HownA0L HownA0R]
  · isplitl [HownA0L]; · iexact HownA0L
    iexact HownA0R
  ihave HownA1 := (join_halves_ex c (ownA c 1)) $$ [HownA1L HownA1R]
  · isplitl [HownA1L]; · iexact HownA1L
    iexact HownA1R
  ihave HxinA0 := (join_halves_ex c (xinA c 0)) $$ [HxinA0L HxinA0R]
  · isplitl [HxinA0L]; · iexact HxinA0L
    unfold someQ; iexists _; iexact HxinA0R
  ihave HxinA1 := (join_halves_ex c (xinA c 1)) $$ [HxinA1L HxinA1R]
  · isplitl [HxinA1L]; · iexact HxinA1L
    unfold someQ; iexists _; iexact HxinA1R
  ihave HO := (owes_congr (F := F) (t := (c : Thread nD τ)) Onil_eq _) $$ HO
  sl_step
  iapply Hk
  unfold bodyPost Φ₁ scratch Dat.owesAt Pipeline.owesWithin
  rw [show (dats (SNDv m) (BLKv m) (OUTv m) m 0 c).owed t₀.succ = 0 from rfl]
  isplitl [Hs0 Hsnd0 Hsnd1 Hsnd2 Hsnd3 Hsnd4 Hsnd5 Hrcv0 Hrcv1 Hrcv2 Hrcv3 Hrcv4 Hrcv5 Hs3 HownA0 HownA1 HownB0 HownB1 HownB2 HownB3 HxinA0 HxinA1 HxinB0 HxinB1 HxinB2 HxinB3 HzinA0 HzinA1 HzinB0 HzinB1 Hzero]
  · isplitr [Hzero]
    · isplitl [Hs0]; · iexists _; iexact Hs0
      isplitl [Hsnd0 Hsnd1 Hsnd2 Hsnd3 Hsnd4 Hsnd5]
      · iapply (join6_snd_ex c)
        isplitl [Hsnd0]; · iexact Hsnd0
        isplitl [Hsnd1]; · iexact Hsnd1
        isplitl [Hsnd2]; · iexact Hsnd2
        isplitl [Hsnd3]; · iexact Hsnd3
        isplitl [Hsnd4]; · iexact Hsnd4
        iexact Hsnd5
      isplitl [Hrcv0 Hrcv1 Hrcv2 Hrcv3 Hrcv4 Hrcv5]
      · iapply (join6_rcv_ex c)
        unfold some_
        isplitl [Hrcv0]; · iexists _; iexact Hrcv0
        isplitl [Hrcv1]; · iexists _; iexact Hrcv1
        isplitl [Hrcv2]; · iexists _; iexact Hrcv2
        isplitl [Hrcv3]; · iexists _; iexact Hrcv3
        isplitl [Hrcv4]; · iexists _; iexact Hrcv4
        iexists _; iexact Hrcv5
      isplitl [Hs3]; · iexists _; iexact Hs3
      iapply (joinBlk_ex c)
      isplitl [HownA0]; · iexact HownA0
      isplitl [HownA1]; · iexact HownA1
      isplitl [HownB0]; · iexact HownB0
      isplitl [HownB1]; · iexact HownB1
      isplitl [HownB2]; · iexact HownB2
      isplitl [HownB3]; · iexact HownB3
      isplitl [HxinA0]; · iexact HxinA0
      isplitl [HxinA1]; · iexact HxinA1
      unfold some_
      isplitl [HxinB0]; · iexists _; iexact HxinB0
      isplitl [HxinB1]; · iexists _; iexact HxinB1
      isplitl [HxinB2]; · iexists _; iexact HxinB2
      isplitl [HxinB3]; · iexists _; iexact HxinB3
      isplitl [HzinA0]; · iexists _; iexact HzinA0
      isplitl [HzinA1]; · iexists _; iexact HzinA1
      isplitl [HzinB0]; · iexists _; iexact HzinB0
      iexists _; iexact HzinB1
    iexact Hzero
  isplitl [HO]
  · iexists _
    isplitr
    rotate_left
    · iexact HO
    · ipureintro; exact fun _ _ => Or.inl trivial
  isplitl [Hx]
  · iexists _; isplitr; · (ipureintro; rfl)
    iexact Hx
  isplitl [Hdy]
  · iexists _; isplitr; · (ipureintro; rfl)
    iexact Hdy
  iexists _; isplitr; · (ipureintro; exact out_rebase m c g2)
  iexact Hout

end Body

end Cert.Kernel.Coll

end
-- ==== Proof.PayIdx.lean ====
import proofs.«900594_g7700000000000595_dist_rsdw_v7x_xyz2x2x2_y_m512_d512_f2048_bf16_1_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

/-!
# The kernel body's payloads, read at an index, over the extended reals

Every value the kernel body stores or carries is one of three things.

* A change of format or of shape of a value it already has: a narrowing to bf16 or a widening
  to f32, which over the extended reals changes nothing, and a cast between `[256,128]` and
  `[1,256,128]`, which puts the row and the column under a leading coordinate `0`.
* A product `aᵀ b` of a `[512,256]` left operand and a `[512,128]` right operand into a zero
  accumulator: both operands are contracted along their first axis, so the entry at row `r` and
  column `k` is `∑ i, a (i, r) * b (i, k)` over the 512 contracted positions.
* A running sum `p + q` of an f32 partial result and a bf16 one received from a neighbour.

Each lemma below reads one payload at an index given by its coordinates.
-/

set_option synthInstance.maxSize 4096

noncomputable section

namespace Cert.KernelIdeal.PayIdx

open Cert.KernelIdeal Idealize.ShloMosaic Idealize.SL.Sem Idealize.ShloMosaic.ValueIdx
open scoped BigOperators

/-! ## The product's operand indices

The dot record contracts axis `0` of each operand and keeps axis `1` of each: the left operand's
axis `1` is the result's row, the right operand's axis `1` is the result's column. -/

theorem lhs_dot_0 (j : S256x128.Idx) (q : dot_S512x256_S512x128_S256x128_0_0_1_1_n_n.contr.Idx) :
    (dot_S512x256_S512x128_S256x128_0_0_1_1_n_n.lhsIdx j q 0).val = (q ⟨0, by decide⟩).val :=
  dot_S512x256_S512x128_S256x128_0_0_1_1_n_n.lhsIdx_val_of_single rfl j q
theorem lhs_dot_1 (j : S256x128.Idx) (q : dot_S512x256_S512x128_S256x128_0_0_1_1_n_n.contr.Idx) :
    (dot_S512x256_S512x128_S256x128_0_0_1_1_n_n.lhsIdx j q 1).val = (j 0).val := by
  unfold DotDims.lhsIdx
  rw [dif_neg (show ¬(1 : Fin S512x256.rank) ∈ dot_S512x256_S512x128_S256x128_0_0_1_1_n_n.lhsBatch by decide), dif_pos (show (1 : Fin S512x256.rank) ∈ dot_S512x256_S512x128_S256x128_0_0_1_1_n_n.lhsNonContracting by decide)]
  rfl
theorem rhs_dot_0 (j : S256x128.Idx) (q : dot_S512x256_S512x128_S256x128_0_0_1_1_n_n.contr.Idx) :
    (dot_S512x256_S512x128_S256x128_0_0_1_1_n_n.rhsIdx j q 0).val = (q ⟨0, by decide⟩).val :=
  dot_S512x256_S512x128_S256x128_0_0_1_1_n_n.rhsIdx_val_of_single rfl j q
theorem rhs_dot_1 (j : S256x128.Idx) (q : dot_S512x256_S512x128_S256x128_0_0_1_1_n_n.contr.Idx) :
    (dot_S512x256_S512x128_S256x128_0_0_1_1_n_n.rhsIdx j q 1).val = (j 1).val := by
  unfold DotDims.rhsIdx
  rw [dif_neg (show ¬(1 : Fin S512x128.rank) ∈ dot_S512x256_S512x128_S256x128_0_0_1_1_n_n.rhsBatch by decide), dif_pos (show (1 : Fin S512x128.rank) ∈ dot_S512x256_S512x128_S256x128_0_0_1_1_n_n.rhsNonContracting by decide)]
  rfl

/-- The product into a zero accumulator at row `r`, column `k`: the sum over the contracted
    position `i` of the left operand at `(i, r)` times the right operand at `(i, k)`. -/
theorem matmul_zero_apply {φ₁ φ₂ : FTy} (a : FVec Ideal S512x256 φ₁) (b : FVec Ideal S512x128 φ₂) (r : Fin 256) (k : Fin 128) :
    matmul dot_S512x256_S512x128_S256x128_0_0_1_1_n_n none a b (constant (F := Ideal) S256x128 .f32 0x00000000#32) (ix2 r k)
      = ∑ i : Fin 512, a (ix2 i r) * b (ix2 i k) := by
  simp only [matmul]
  rw [Ideal.matmul_constant_zero_apply, ← Equiv.sum_comp (contrEquiv1 dot_S512x256_S512x128_S256x128_0_0_1_1_n_n 512 rfl rfl).symm]
  refine Finset.sum_congr rfl fun i _ => ?_
  have hi := contrEquiv1_symm_val dot_S512x256_S512x128_S256x128_0_0_1_1_n_n 512 rfl rfl i
  have el : dot_S512x256_S512x128_S256x128_0_0_1_1_n_n.lhsIdx (ix2 r k) ((contrEquiv1 dot_S512x256_S512x128_S256x128_0_0_1_1_n_n 512 rfl rfl).symm i) = ix2 i r := funext fun c => Fin.ext (by
    match c with
    | ⟨0, _⟩ => exact (lhs_dot_0 _ _).trans hi
    | ⟨1, _⟩ => exact lhs_dot_1 _ _)
  have er : dot_S512x256_S512x128_S256x128_0_0_1_1_n_n.rhsIdx (ix2 r k) ((contrEquiv1 dot_S512x256_S512x128_S256x128_0_0_1_1_n_n 512 rfl rfl).symm i) = ix2 i k := funext fun c => Fin.ext (by
    match c with
    | ⟨0, _⟩ => exact (rhs_dot_0 _ _).trans hi
    | ⟨1, _⟩ => exact rhs_dot_1 _ _)
  rw [el, er]

/-! ## Narrowings of the loaded left operand -/

theorem pay1_apply (v : Vec Ideal S512x256 .f32) (i : Fin 512) (r : Fin 256) :
    Gen.k0_pay1 v (ix2 i r) = v (ix2 i r) := by
  unfold Gen.k0_pay1
  rw [truncf_apply, shapeCast_self]

theorem pay2_apply (v : Vec Ideal S512x256 .f32) (i : Fin 512) (r : Fin 256) :
    Gen.k0_pay2 v (ix2 i r) = v (ix2 i r) := by
  unfold Gen.k0_pay2
  rw [truncf_apply, shapeCast_self]

/-! ## The products stored as bf16 blocks `[1,256,128]`

The product is formed in f32, narrowed to bf16 and placed under a leading unit axis; none of the
three changes the entry. -/

theorem pay3_apply (a : Vec Ideal S512x256 .f32) (b : Vec Ideal S512x128 .f32) (r : Fin 256) (k : Fin 128) :
    Gen.k0_pay3 a b (ix3 (0 : Fin 1) r k) = ∑ i : Fin 512, a (ix2 i r) * b (ix2 i k) := by
  unfold Gen.k0_pay3
  rw [shapeCast_ab_1ab_apply, truncf_apply, matmul_zero_apply]
  refine Finset.sum_congr rfl fun i _ => ?_
  rw [pay1_apply, truncf_apply, shapeCast_self]

theorem pay4_apply (a : FVec Ideal S512x256 .bf16) (b : Vec Ideal S512x128 .f32) (r : Fin 256) (k : Fin 128) :
    Gen.k0_pay4 a b (ix3 (0 : Fin 1) r k) = ∑ i : Fin 512, a (ix2 i r) * b (ix2 i k) := by
  unfold Gen.k0_pay4
  rw [shapeCast_ab_1ab_apply, truncf_apply, matmul_zero_apply]
  refine Finset.sum_congr rfl fun i _ => ?_
  rw [truncf_apply, shapeCast_self]

/-! ## The whole loaded block narrowed to bf16 -/

theorem pay5_apply (v : Vec Ideal S512x1024 .f32) (i : Fin 512) (c : Fin 1024) :
    Gen.k0_pay5 v (ix2 i c) = v (ix2 i c) := by
  unfold Gen.k0_pay5
  rw [shapeCast_self, truncf_apply, shapeCast_self]

/-! ## Products of the narrowed left operand with a bf16 right operand -/

theorem pay6_apply (a : FVec Ideal S512x256 .bf16) (b : Vec Ideal S512x128 .bf16) (r : Fin 256) (k : Fin 128) :
    Gen.k0_pay6 a b (ix3 (0 : Fin 1) r k) = ∑ i : Fin 512, a (ix2 i r) * b (ix2 i k) := by
  unfold Gen.k0_pay6
  rw [shapeCast_ab_1ab_apply, truncf_apply, matmul_zero_apply]

theorem pay9_apply (a : FVec Ideal S512x256 .bf16) (b : Vec Ideal S512x128 .bf16) (r : Fin 256) (k : Fin 128) :
    Gen.k0_pay9 a b (ix3 (0 : Fin 1) r k) = ∑ i : Fin 512, a (ix2 i r) * b (ix2 i k) := by
  unfold Gen.k0_pay9
  rw [shapeCast_ab_1ab_apply, truncf_apply, matmul_zero_apply]

theorem pay10_apply (a : FVec Ideal S512x256 .bf16) (b : Vec Ideal S512x128 .bf16) (r : Fin 256) (k : Fin 128) :
    Gen.k0_pay10 a b (ix3 (0 : Fin 1) r k) = ∑ i : Fin 512, a (ix2 i r) * b (ix2 i k) := by
  unfold Gen.k0_pay10
  rw [shapeCast_ab_1ab_apply, truncf_apply, matmul_zero_apply]

theorem pay7_apply (a : FVec Ideal S512x256 .bf16) (b : Vec Ideal S512x128 .bf16) (r : Fin 256) (k : Fin 128) :
    Gen.k0_pay7 a b (ix2 r k) = ∑ i : Fin 512, a (ix2 i r) * b (ix2 i k) := by
  unfold Gen.k0_pay7
  rw [truncf_apply, matmul_zero_apply]

theorem pay8_apply (v : FVec Ideal S256x128 .bf16) (r : Fin 256) (k : Fin 128) :
    Gen.k0_pay8 v (ix3 (0 : Fin 1) r k) = v (ix2 r k) := by
  unfold Gen.k0_pay8
  rw [shapeCast_ab_1ab_apply]

/-! ## The products kept in f32 -/

theorem pay11_apply (a : FVec Ideal S512x256 .bf16) (b : Vec Ideal S512x128 .bf16) (r : Fin 256) (k : Fin 128) :
    Gen.k0_pay11 a b (ix3 (0 : Fin 1) r k) = ∑ i : Fin 512, a (ix2 i r) * b (ix2 i k) := by
  unfold Gen.k0_pay11
  rw [shapeCast_ab_1ab_apply, matmul_zero_apply]

theorem pay12_apply (a : FVec Ideal S512x256 .bf16) (b : Vec Ideal S512x128 .bf16) (r : Fin 256) (k : Fin 128) :
    Gen.k0_pay12 a b (ix3 (0 : Fin 1) r k) = ∑ i : Fin 512, a (ix2 i r) * b (ix2 i k) := by
  unfold Gen.k0_pay12
  rw [shapeCast_ab_1ab_apply, matmul_zero_apply]

theorem pay13_apply (a : FVec Ideal S512x256 .bf16) (b : Vec Ideal S512x128 .bf16) (r : Fin 256) (k : Fin 128) :
    Gen.k0_pay13 a b (ix3 (0 : Fin 1) r k) = ∑ i : Fin 512, a (ix2 i r) * b (ix2 i k) := by
  unfold Gen.k0_pay13
  rw [shapeCast_ab_1ab_apply, matmul_zero_apply]

theorem pay14_apply (a : FVec Ideal S512x256 .bf16) (b : Vec Ideal S512x128 .bf16) (r : Fin 256) (k : Fin 128) :
    Gen.k0_pay14 a b (ix3 (0 : Fin 1) r k) = ∑ i : Fin 512, a (ix2 i r) * b (ix2 i k) := by
  unfold Gen.k0_pay14
  rw [shapeCast_ab_1ab_apply, matmul_zero_apply]

theorem pay17_apply (a : FVec Ideal S512x256 .bf16) (b : Vec Ideal S512x128 .bf16) (r : Fin 256) (k : Fin 128) :
    Gen.k0_pay17 a b (ix3 (0 : Fin 1) r k) = ∑ i : Fin 512, a (ix2 i r) * b (ix2 i k) := by
  unfold Gen.k0_pay17
  rw [shapeCast_ab_1ab_apply, matmul_zero_apply]

theorem pay15_apply (a : FVec Ideal S512x256 .bf16) (b : Vec Ideal S512x128 .bf16) (r : Fin 256) (k : Fin 128) :
    Gen.k0_pay15 a b (ix2 r k) = ∑ i : Fin 512, a (ix2 i r) * b (ix2 i k) := by
  unfold Gen.k0_pay15
  rw [matmul_zero_apply]

theorem pay16_apply (v : FVec Ideal S256x128 .f32) (r : Fin 256) (k : Fin 128) :
    Gen.k0_pay16 v (ix3 (0 : Fin 1) r k) = v (ix2 r k) := by
  unfold Gen.k0_pay16
  rw [shapeCast_ab_1ab_apply]

/-! ## The running sums

An f32 partial result `p` and a bf16 partial result `q`, both blocks `[1,256,128]`: the even-numbered
payloads are the f32 sum as a `[256,128]` matrix, the odd-numbered ones that sum narrowed to bf16 and
put back under the leading unit axis. -/

theorem pay18_apply (p : Vec Ideal S1x256x128 .f32) (q : Vec Ideal S1x256x128 .bf16) (r : Fin 256) (k : Fin 128) :
    Gen.k0_pay18 p q (ix2 r k) = p (ix3 (0 : Fin 1) r k) + q (ix3 (0 : Fin 1) r k) := by
  unfold Gen.k0_pay18
  rw [addf_apply, extf_apply, shapeCast_1ab_ab_apply, shapeCast_1ab_ab_apply]

theorem pay19_apply (p : Vec Ideal S1x256x128 .f32) (q : Vec Ideal S1x256x128 .bf16) (r : Fin 256) (k : Fin 128) :
    Gen.k0_pay19 p q (ix3 (0 : Fin 1) r k) = p (ix3 (0 : Fin 1) r k) + q (ix3 (0 : Fin 1) r k) := by
  unfold Gen.k0_pay19
  rw [shapeCast_ab_1ab_apply, truncf_apply, pay18_apply]

theorem pay20_apply (p : Vec Ideal S1x256x128 .f32) (q : Vec Ideal S1x256x128 .bf16) (r : Fin 256) (k : Fin 128) :
    Gen.k0_pay20 p q (ix2 r k) = p (ix3 (0 : Fin 1) r k) + q (ix3 (0 : Fin 1) r k) := by
  unfold Gen.k0_pay20
  rw [addf_apply, extf_apply, shapeCast_1ab_ab_apply, shapeCast_1ab_ab_apply]

theorem pay21_apply (p : Vec Ideal S1x256x128 .f32) (q : Vec Ideal S1x256x128 .bf16) (r : Fin 256) (k : Fin 128) :
    Gen.k0_pay21 p q (ix3 (0 : Fin 1) r k) = p (ix3 (0 : Fin 1) r k) + q (ix3 (0 : Fin 1) r k) := by
  unfold Gen.k0_pay21
  rw [shapeCast_ab_1ab_apply, truncf_apply, pay20_apply]

theorem pay22_apply (p : Vec Ideal S1x256x128 .f32) (q : Vec Ideal S1x256x128 .bf16) (r : Fin 256) (k : Fin 128) :
    Gen.k0_pay22 p q (ix2 r k) = p (ix3 (0 : Fin 1) r k) + q (ix3 (0 : Fin 1) r k) := by
  unfold Gen.k0_pay22
  rw [addf_apply, extf_apply, shapeCast_1ab_ab_apply, shapeCast_1ab_ab_apply]

theorem pay23_apply (p : Vec Ideal S1x256x128 .f32) (q : Vec Ideal S1x256x128 .bf16) (r : Fin 256) (k : Fin 128) :
    Gen.k0_pay23 p q (ix3 (0 : Fin 1) r k) = p (ix3 (0 : Fin 1) r k) + q (ix3 (0 : Fin 1) r k) := by
  unfold Gen.k0_pay23
  rw [shapeCast_ab_1ab_apply, truncf_apply, pay22_apply]

theorem pay24_apply (p : Vec Ideal S1x256x128 .f32) (q : Vec Ideal S1x256x128 .bf16) (r : Fin 256) (k : Fin 128) :
    Gen.k0_pay24 p q (ix2 r k) = p (ix3 (0 : Fin 1) r k) + q (ix3 (0 : Fin 1) r k) := by
  unfold Gen.k0_pay24
  rw [addf_apply, extf_apply, shapeCast_1ab_ab_apply, shapeCast_1ab_ab_apply]

theorem pay25_apply (p : Vec Ideal S1x256x128 .f32) (q : Vec Ideal S1x256x128 .bf16) (r : Fin 256) (k : Fin 128) :
    Gen.k0_pay25 p q (ix3 (0 : Fin 1) r k) = p (ix3 (0 : Fin 1) r k) + q (ix3 (0 : Fin 1) r k) := by
  unfold Gen.k0_pay25
  rw [shapeCast_ab_1ab_apply, truncf_apply, pay24_apply]

theorem pay26_apply (p : Vec Ideal S1x256x128 .f32) (q : Vec Ideal S1x256x128 .bf16) (r : Fin 256) (k : Fin 128) :
    Gen.k0_pay26 p q (ix2 r k) = p (ix3 (0 : Fin 1) r k) + q (ix3 (0 : Fin 1) r k) := by
  unfold Gen.k0_pay26
  rw [addf_apply, extf_apply, shapeCast_1ab_ab_apply, shapeCast_1ab_ab_apply]

theorem pay27_apply (p : Vec Ideal S1x256x128 .f32) (q : Vec Ideal S1x256x128 .bf16) (r : Fin 256) (k : Fin 128) :
    Gen.k0_pay27 p q (ix3 (0 : Fin 1) r k) = p (ix3 (0 : Fin 1) r k) + q (ix3 (0 : Fin 1) r k) := by
  unfold Gen.k0_pay27
  rw [shapeCast_ab_1ab_apply, truncf_apply, pay26_apply]

theorem pay28_apply (p : Vec Ideal S1x256x128 .f32) (q : Vec Ideal S1x256x128 .bf16) (r : Fin 256) (k : Fin 128) :
    Gen.k0_pay28 p q (ix2 r k) = p (ix3 (0 : Fin 1) r k) + q (ix3 (0 : Fin 1) r k) := by
  unfold Gen.k0_pay28
  rw [addf_apply, extf_apply, shapeCast_1ab_ab_apply, shapeCast_1ab_ab_apply]

theorem pay29_apply (v : FVec Ideal S256x128 .f32) (r : Fin 256) (k : Fin 128) :
    Gen.k0_pay29 v (ix3 (0 : Fin 1) r k) = v (ix2 r k) := by
  unfold Gen.k0_pay29
  rw [shapeCast_ab_1ab_apply, truncf_apply]

/-! ## A received bf16 block `[1,256,128]` widened to an f32 matrix `[256,128]` -/

theorem pay30_apply (v : Vec Ideal S1x256x128 .bf16) (r : Fin 256) (k : Fin 128) :
    Gen.k0_pay30 v (ix2 r k) = v (ix3 (0 : Fin 1) r k) := by
  unfold Gen.k0_pay30
  rw [extf_apply, shapeCast_1ab_ab_apply]

theorem pay31_apply (v : Vec Ideal S1x256x128 .bf16) (r : Fin 256) (k : Fin 128) :
    Gen.k0_pay31 v (ix2 r k) = v (ix3 (0 : Fin 1) r k) := by
  unfold Gen.k0_pay31
  rw [extf_apply, shapeCast_1ab_ab_apply]

theorem pay32_apply (v : Vec Ideal S1x256x128 .bf16) (r : Fin 256) (k : Fin 128) :
    Gen.k0_pay32 v (ix2 r k) = v (ix3 (0 : Fin 1) r k) := by
  unfold Gen.k0_pay32
  rw [extf_apply, shapeCast_1ab_ab_apply]

theorem pay33_apply (v : Vec Ideal S1x256x128 .bf16) (r : Fin 256) (k : Fin 128) :
    Gen.k0_pay33 v (ix2 r k) = v (ix3 (0 : Fin 1) r k) := by
  unfold Gen.k0_pay33
  rw [extf_apply, shapeCast_1ab_ab_apply]

theorem pay34_apply (v : Vec Ideal S1x256x128 .bf16) (r : Fin 256) (k : Fin 128) :
    Gen.k0_pay34 v (ix2 r k) = v (ix3 (0 : Fin 1) r k) := by
  unfold Gen.k0_pay34
  rw [extf_apply, shapeCast_1ab_ab_apply]

theorem pay35_apply (v : Vec Ideal S1x256x128 .bf16) (r : Fin 256) (k : Fin 128) :
    Gen.k0_pay35 v (ix2 r k) = v (ix3 (0 : Fin 1) r k) := by
  unfold Gen.k0_pay35
  rw [extf_apply, shapeCast_1ab_ab_apply]

theorem pay36_apply (v : Vec Ideal S1x256x128 .bf16) (r : Fin 256) (k : Fin 128) :
    Gen.k0_pay36 v (ix2 r k) = v (ix3 (0 : Fin 1) r k) := by
  unfold Gen.k0_pay36
  rw [extf_apply, shapeCast_1ab_ab_apply]

theorem pay37_apply (v : Vec Ideal S1x256x128 .bf16) (r : Fin 256) (k : Fin 128) :
    Gen.k0_pay37 v (ix2 r k) = v (ix3 (0 : Fin 1) r k) := by
  unfold Gen.k0_pay37
  rw [extf_apply, shapeCast_1ab_ab_apply]

theorem pay38_apply (v : Vec Ideal S1x256x128 .bf16) (r : Fin 256) (k : Fin 128) :
    Gen.k0_pay38 v (ix2 r k) = v (ix3 (0 : Fin 1) r k) := by
  unfold Gen.k0_pay38
  rw [extf_apply, shapeCast_1ab_ab_apply]

theorem pay39_apply (v : Vec Ideal S1x256x128 .bf16) (r : Fin 256) (k : Fin 128) :
    Gen.k0_pay39 v (ix2 r k) = v (ix3 (0 : Fin 1) r k) := by
  unfold Gen.k0_pay39
  rw [extf_apply, shapeCast_1ab_ab_apply]

/-! ## What the lemmas rest on -/

/-- info: 'Cert.KernelIdeal.PayIdx.lhs_dot_0' depends on axioms: [propext, Classical.choice, Quot.sound] -/
#guard_msgs in #print axioms lhs_dot_0

/-- info: 'Cert.KernelIdeal.PayIdx.lhs_dot_1' depends on axioms: [propext, Classical.choice, Quot.sound] -/
#guard_msgs in #print axioms lhs_dot_1

/-- info: 'Cert.KernelIdeal.PayIdx.rhs_dot_0' depends on axioms: [propext, Classical.choice, Quot.sound] -/
#guard_msgs in #print axioms rhs_dot_0

/-- info: 'Cert.KernelIdeal.PayIdx.rhs_dot_1' depends on axioms: [propext, Classical.choice, Quot.sound] -/
#guard_msgs in #print axioms rhs_dot_1

/-- info: 'Cert.KernelIdeal.PayIdx.matmul_zero_apply' depends on axioms: [propext, Classical.choice, Quot.sound] -/
#guard_msgs in #print axioms matmul_zero_apply

/-- info: 'Cert.KernelIdeal.PayIdx.pay1_apply' depends on axioms: [propext, Classical.choice, Quot.sound] -/
#guard_msgs in #print axioms pay1_apply

/-- info: 'Cert.KernelIdeal.PayIdx.pay2_apply' depends on axioms: [propext, Classical.choice, Quot.sound] -/
#guard_msgs in #print axioms pay2_apply

/-- info: 'Cert.KernelIdeal.PayIdx.pay3_apply' depends on axioms: [propext, Classical.choice, Quot.sound] -/
#guard_msgs in #print axioms pay3_apply

/-- info: 'Cert.KernelIdeal.PayIdx.pay4_apply' depends on axioms: [propext, Classical.choice, Quot.sound] -/
#guard_msgs in #print axioms pay4_apply

/-- info: 'Cert.KernelIdeal.PayIdx.pay5_apply' depends on axioms: [propext, Classical.choice, Quot.sound] -/
#guard_msgs in #print axioms pay5_apply

/-- info: 'Cert.KernelIdeal.PayIdx.pay6_apply' depends on axioms: [propext, Classical.choice, Quot.sound] -/
#guard_msgs in #print axioms pay6_apply

/-- info: 'Cert.KernelIdeal.PayIdx.pay7_apply' depends on axioms: [propext, Classical.choice, Quot.sound] -/
#guard_msgs in #print axioms pay7_apply

/-- info: 'Cert.KernelIdeal.PayIdx.pay8_apply' depends on axioms: [propext, Classical.choice, Quot.sound] -/
#guard_msgs in #print axioms pay8_apply

/-- info: 'Cert.KernelIdeal.PayIdx.pay9_apply' depends on axioms: [propext, Classical.choice, Quot.sound] -/
#guard_msgs in #print axioms pay9_apply

/-- info: 'Cert.KernelIdeal.PayIdx.pay10_apply' depends on axioms: [propext, Classical.choice, Quot.sound] -/
#guard_msgs in #print axioms pay10_apply

/-- info: 'Cert.KernelIdeal.PayIdx.pay11_apply' depends on axioms: [propext, Classical.choice, Quot.sound] -/
#guard_msgs in #print axioms pay11_apply

/-- info: 'Cert.KernelIdeal.PayIdx.pay12_apply' depends on axioms: [propext, Classical.choice, Quot.sound] -/
#guard_msgs in #print axioms pay12_apply

/-- info: 'Cert.KernelIdeal.PayIdx.pay13_apply' depends on axioms: [propext, Classical.choice, Quot.sound] -/
#guard_msgs in #print axioms pay13_apply

/-- info: 'Cert.KernelIdeal.PayIdx.pay14_apply' depends on axioms: [propext, Classical.choice, Quot.sound] -/
#guard_msgs in #print axioms pay14_apply

/-- info: 'Cert.KernelIdeal.PayIdx.pay15_apply' depends on axioms: [propext, Classical.choice, Quot.sound] -/
#guard_msgs in #print axioms pay15_apply

/-- info: 'Cert.KernelIdeal.PayIdx.pay16_apply' depends on axioms: [propext, Classical.choice, Quot.sound] -/
#guard_msgs in #print axioms pay16_apply

/-- info: 'Cert.KernelIdeal.PayIdx.pay17_apply' depends on axioms: [propext, Classical.choice, Quot.sound] -/
#guard_msgs in #print axioms pay17_apply

/-- info: 'Cert.KernelIdeal.PayIdx.pay18_apply' depends on axioms: [propext, Classical.choice, Quot.sound] -/
#guard_msgs in #print axioms pay18_apply

/-- info: 'Cert.KernelIdeal.PayIdx.pay19_apply' depends on axioms: [propext, Classical.choice, Quot.sound] -/
#guard_msgs in #print axioms pay19_apply

/-- info: 'Cert.KernelIdeal.PayIdx.pay20_apply' depends on axioms: [propext, Classical.choice, Quot.sound] -/
#guard_msgs in #print axioms pay20_apply

/-- info: 'Cert.KernelIdeal.PayIdx.pay21_apply' depends on axioms: [propext, Classical.choice, Quot.sound] -/
#guard_msgs in #print axioms pay21_apply

/-- info: 'Cert.KernelIdeal.PayIdx.pay22_apply' depends on axioms: [propext, Classical.choice, Quot.sound] -/
#guard_msgs in #print axioms pay22_apply

/-- info: 'Cert.KernelIdeal.PayIdx.pay23_apply' depends on axioms: [propext, Classical.choice, Quot.sound] -/
#guard_msgs in #print axioms pay23_apply

/-- info: 'Cert.KernelIdeal.PayIdx.pay24_apply' depends on axioms: [propext, Classical.choice, Quot.sound] -/
#guard_msgs in #print axioms pay24_apply

/-- info: 'Cert.KernelIdeal.PayIdx.pay25_apply' depends on axioms: [propext, Classical.choice, Quot.sound] -/
#guard_msgs in #print axioms pay25_apply

/-- info: 'Cert.KernelIdeal.PayIdx.pay26_apply' depends on axioms: [propext, Classical.choice, Quot.sound] -/
#guard_msgs in #print axioms pay26_apply

/-- info: 'Cert.KernelIdeal.PayIdx.pay27_apply' depends on axioms: [propext, Classical.choice, Quot.sound] -/
#guard_msgs in #print axioms pay27_apply

/-- info: 'Cert.KernelIdeal.PayIdx.pay28_apply' depends on axioms: [propext, Classical.choice, Quot.sound] -/
#guard_msgs in #print axioms pay28_apply

/-- info: 'Cert.KernelIdeal.PayIdx.pay29_apply' depends on axioms: [propext, Classical.choice, Quot.sound] -/
#guard_msgs in #print axioms pay29_apply

/-- info: 'Cert.KernelIdeal.PayIdx.pay30_apply' depends on axioms: [propext, Classical.choice, Quot.sound] -/
#guard_msgs in #print axioms pay30_apply

/-- info: 'Cert.KernelIdeal.PayIdx.pay31_apply' depends on axioms: [propext, Classical.choice, Quot.sound] -/
#guard_msgs in #print axioms pay31_apply

/-- info: 'Cert.KernelIdeal.PayIdx.pay32_apply' depends on axioms: [propext, Classical.choice, Quot.sound] -/
#guard_msgs in #print axioms pay32_apply

/-- info: 'Cert.KernelIdeal.PayIdx.pay33_apply' depends on axioms: [propext, Classical.choice, Quot.sound] -/
#guard_msgs in #print axioms pay33_apply

/-- info: 'Cert.KernelIdeal.PayIdx.pay34_apply' depends on axioms: [propext, Classical.choice, Quot.sound] -/
#guard_msgs in #print axioms pay34_apply

/-- info: 'Cert.KernelIdeal.PayIdx.pay35_apply' depends on axioms: [propext, Classical.choice, Quot.sound] -/
#guard_msgs in #print axioms pay35_apply

/-- info: 'Cert.KernelIdeal.PayIdx.pay36_apply' depends on axioms: [propext, Classical.choice, Quot.sound] -/
#guard_msgs in #print axioms pay36_apply

/-- info: 'Cert.KernelIdeal.PayIdx.pay37_apply' depends on axioms: [propext, Classical.choice, Quot.sound] -/
#guard_msgs in #print axioms pay37_apply

/-- info: 'Cert.KernelIdeal.PayIdx.pay38_apply' depends on axioms: [propext, Classical.choice, Quot.sound] -/
#guard_msgs in #print axioms pay38_apply

/-- info: 'Cert.KernelIdeal.PayIdx.pay39_apply' depends on axioms: [propext, Classical.choice, Quot.sound] -/
#guard_msgs in #print axioms pay39_apply

end Cert.KernelIdeal.PayIdx

end
-- ==== Proof.OutValue.lean ====
/-
  The kernel's values at the ideal instance, index by index.

  At the ideal instance a change of float format moves no value and the matrix product is the textbook sum of
  products, so each of the six partial products a device sends across y is, at row r and column k of its chunk,
  the sum over the 512 rows of the device's block of x (read at the peer's column r) times dy (read at the
  chunk's column k).
-/
import proofs.«900594_g7700000000000595_dist_rsdw_v7x_xyz2x2x2_y_m512_d512_f2048_bf16_1_alg».proof.Proof.Values
import proofs.«900594_g7700000000000595_dist_rsdw_v7x_xyz2x2x2_y_m512_d512_f2048_bf16_1_alg».proof.Proof.ValIdx
import proofs.«900594_g7700000000000595_dist_rsdw_v7x_xyz2x2x2_y_m512_d512_f2048_bf16_1_alg».proof.Proof.PayIdx
import Idealize.ShloMosaic.Lib.Pipeline.Value
import Idealize.ShloMosaic.Lib.ValueIdx

noncomputable section

namespace Cert.KernelIdeal.Coll

open Cert.KernelIdeal Cert.KernelIdeal.Gen Cert.KernelIdeal.Mesh Cert.KernelIdeal.PayIdx
open Idealize.ShloMosaic Idealize.ShloMosaic.TcCoe Idealize.SL.Sem
open Idealize.ShloMosaic.ValueIdx
open scoped BigOperators

section V1
variable (X : (cc0_stg0_0 : Ref sig .tc).ty.Contents (Elt Ideal)) (DY : (cc0_stg1_0 : Ref sig .tc).ty.Contents (Elt Ideal))

/-- The device's x block cut to the peer's columns: element (i, r) is x at (i, the cut's first column + r). -/
theorem xRaw_apply (c : Dev nD) (i : Fin 512) (r : Fin 256) :
    xRaw (F := Ideal) X c (ix2 i r)
      = X (ix2 ⟨(k0_off1 c) 0 + i.val, unit2_lt0 (k0_off1 c) (k0_off1_inb c) i⟩ ⟨(k0_off1 c) 1 + r.val, unit2_lt1 (k0_off1 c) (k0_off1_inb c) r⟩) := by
  unfold xRaw
  exact readAt_stg0 (k0_off1 c) (k0_off1_inb c) X i r

/-- Column chunk w of dy in f32: element (i, k) is dy at (i, the chunk's first column + k). -/
theorem dyL_apply (c : Dev nD) (w : Fin 2) (i : Fin 512) (k : Fin 128) :
    dyL (F := Ideal) DY c w (ix2 i k)
      = DY (ix2 ⟨(k0_off3 c (BitVec.ofNat 32 w.val)) 0 + i.val, unit2_lt0 _ (k0_off3_inb c w) i⟩
              ⟨(k0_off3 c (BitVec.ofNat 32 w.val)) 1 + k.val, unit2_lt1 _ (k0_off3_inb c w) k⟩) := by
  unfold dyL
  exact readAt_stg1_128 (k0_off3 c (BitVec.ofNat 32 w.val)) (k0_off3_inb c w) DY i k

/-- The narrowed copy of that block is the block: a change of format moves no value. -/
theorem xpL_apply (c : Dev nD) (i : Fin 512) (r : Fin 256) :
    xpL (F := Ideal) X c (ix2 i r) = xRaw (F := Ideal) X c (ix2 i r) := by
  unfold xpL
  exact pay1_apply _ i r

/-- Chunk 0 of what is sent across y: the peer's rows of x against the device's first column chunk of dy. -/
theorem sndVec_apply_0 (c : Dev nD) (r : Fin 256) (k : Fin 128) :
    sndVec (F := Ideal) X DY c 0 (ix3 (0 : Fin 1) r k) = ∑ i : Fin 512, xRaw (F := Ideal) X c (ix2 i r) * dyL (F := Ideal) DY c 0 (ix2 i k) := by
  show Gen.k0_pay3 (xRaw (F := Ideal) X c) (dyL (F := Ideal) DY c 0) (ix3 (0 : Fin 1) r k) = _
  exact pay3_apply _ _ r k

/-- Chunk 1: the same rows, narrowed, against the device's second column chunk of dy. -/
theorem sndVec_apply_1 (c : Dev nD) (r : Fin 256) (k : Fin 128) :
    sndVec (F := Ideal) X DY c 1 (ix3 (0 : Fin 1) r k) = ∑ i : Fin 512, xRaw (F := Ideal) X c (ix2 i r) * dyL (F := Ideal) DY c 1 (ix2 i k) := by
  show Gen.k0_pay4 (xpL (F := Ideal) X c) (dyL (F := Ideal) DY c 1) (ix3 (0 : Fin 1) r k) = _
  rw [pay4_apply]
  exact Finset.sum_congr rfl fun i _ => by rw [xpL_apply]

/-- Chunk 2: the same rows against the column chunk at offset 512 of the narrowed copy of dy's column half. -/
theorem sndVec_apply_2 (c : Dev nD) (r : Fin 256) (k : Fin 128) :
    sndVec (F := Ideal) X DY c 2 (ix3 (0 : Fin 1) r k)
      = ∑ i : Fin 512, xRaw (F := Ideal) X c (ix2 i r) * bfAt (F := Ideal) DY c 512 inb_S512x1024_S512x128_0_512 (ix2 i k) := by
  show Gen.k0_pay6 (xpL (F := Ideal) X c) (bfAt (F := Ideal) DY c 512 inb_S512x1024_S512x128_0_512) (ix3 (0 : Fin 1) r k) = _
  rw [pay6_apply]
  exact Finset.sum_congr rfl fun i _ => by rw [xpL_apply]

/-- Chunk 3, at offset 640: the product at rank two, then given its leading unit axis. -/
theorem sndVec_apply_3 (c : Dev nD) (r : Fin 256) (k : Fin 128) :
    sndVec (F := Ideal) X DY c 3 (ix3 (0 : Fin 1) r k)
      = ∑ i : Fin 512, xRaw (F := Ideal) X c (ix2 i r) * bfAt (F := Ideal) DY c 640 inb_S512x1024_S512x128_0_640 (ix2 i k) := by
  show Gen.k0_pay8 (Gen.k0_pay7 (xpL (F := Ideal) X c) (bfAt (F := Ideal) DY c 640 inb_S512x1024_S512x128_0_640)) (ix3 (0 : Fin 1) r k) = _
  rw [pay8_apply, pay7_apply]
  exact Finset.sum_congr rfl fun i _ => by rw [xpL_apply]

/-- Chunk 4, at offset 768. -/
theorem sndVec_apply_4 (c : Dev nD) (r : Fin 256) (k : Fin 128) :
    sndVec (F := Ideal) X DY c 4 (ix3 (0 : Fin 1) r k)
      = ∑ i : Fin 512, xRaw (F := Ideal) X c (ix2 i r) * bfAt (F := Ideal) DY c 768 inb_S512x1024_S512x128_0_768 (ix2 i k) := by
  show Gen.k0_pay9 (xpL (F := Ideal) X c) (bfAt (F := Ideal) DY c 768 inb_S512x1024_S512x128_0_768) (ix3 (0 : Fin 1) r k) = _
  rw [pay9_apply]
  exact Finset.sum_congr rfl fun i _ => by rw [xpL_apply]

/-- Chunk 5, at offset 896. -/
theorem sndVec_apply_5 (c : Dev nD) (r : Fin 256) (k : Fin 128) :
    sndVec (F := Ideal) X DY c 5 (ix3 (0 : Fin 1) r k)
      = ∑ i : Fin 512, xRaw (F := Ideal) X c (ix2 i r) * bfAt (F := Ideal) DY c 896 inb_S512x1024_S512x128_0_896 (ix2 i k) := by
  show Gen.k0_pay10 (xpL (F := Ideal) X c) (bfAt (F := Ideal) DY c 896 inb_S512x1024_S512x128_0_896) (ix3 (0 : Fin 1) r k) = _
  rw [pay10_apply]
  exact Finset.sum_congr rfl fun i _ => by rw [xpL_apply]

end V1

section V3
variable (SND : Dev nD → (cc0_scratch1 : Ref sig .tc).ty.Contents (Elt Ideal))
variable (X : (cc0_stg0_0 : Ref sig .tc).ty.Contents (Elt Ideal)) (DY : (cc0_stg1_0 : Ref sig .tc).ty.Contents (Elt Ideal))

/-- What the y neighbour sent for chunk j is slot j of the neighbour's send buffer. -/
theorem rAt_apply (c : Dev nD) (j : Fin 6) (u : Fin 1) (r : Fin 256) (k : Fin 128) :
    rAt (F := Ideal) SND c j (ix3 u r k) = SND (yp c) (ix3 j r k) := by
  unfold rAt
  exact readAt_scratch2 j.val j.isLt ![j.val, 0, 0] rfl (inb6s j) (SND (yp c)) u r k

/-- The reduced chunk in f32 is the device's own partial product plus the neighbour's, entry by entry. -/
theorem red32_apply (c : Dev nD) (j : Fin 6) (r : Fin 256) (k : Fin 128) :
    red32 (F := Ideal) SND X DY c j (ix2 r k)
      = pAt (F := Ideal) X DY c j (ix3 (0 : Fin 1) r k) + rAt (F := Ideal) SND c j (ix3 (0 : Fin 1) r k) := by
  fin_cases j
  · exact pay18_apply _ _ r k
  · exact pay20_apply _ _ r k
  · exact pay22_apply _ _ r k
  · exact pay24_apply _ _ r k
  · exact pay26_apply _ _ r k
  · exact pay28_apply _ _ r k

/-- So is its narrowed copy, under the leading unit axis. -/
theorem redB_apply (c : Dev nD) (j : Fin 6) (r : Fin 256) (k : Fin 128) :
    redB (F := Ideal) SND X DY c j (ix3 (0 : Fin 1) r k)
      = pAt (F := Ideal) X DY c j (ix3 (0 : Fin 1) r k) + rAt (F := Ideal) SND c j (ix3 (0 : Fin 1) r k) := by
  fin_cases j
  · exact pay19_apply _ _ r k
  · exact pay21_apply _ _ r k
  · exact pay23_apply _ _ r k
  · exact pay25_apply _ _ r k
  · exact pay27_apply _ _ r k
  · show Gen.k0_pay29 (Gen.k0_pay28 (pAt (F := Ideal) X DY c 5) (rAt (F := Ideal) SND c 5)) (ix3 (0 : Fin 1) r k) = _
    rw [pay29_apply, pay28_apply]
    rfl

end V3

section Fam
variable (m : (ℓ : Loc nD τ sig) → Buf (Elt Ideal) ℓ)

/-- Slot j of the send buffer's canonical contents is the partial product sent for chunk j. -/
theorem SNDv_apply (c : Dev nD) (j : Fin 6) (r : Fin 256) (k : Fin 128) :
    SNDv (F := Ideal) m c (ix3 j r k) = sndVec (F := Ideal) (xstg m c) (dystg m c) c j (ix3 (0 : Fin 1) r k) := rfl

/-- So what the y neighbour sent device c for chunk j is the neighbour's own partial product for chunk j. -/
theorem rAt_SNDv (c : Dev nD) (j : Fin 6) (r : Fin 256) (k : Fin 128) :
    rAt (F := Ideal) (SNDv (F := Ideal) m) c j (ix3 (0 : Fin 1) r k)
      = sndVec (F := Ideal) (xstg m (yp c)) (dystg m (yp c)) (yp c) j (ix3 (0 : Fin 1) r k) := by
  rw [rAt_apply, SNDv_apply]

end Fam

/-- info: 'Cert.KernelIdeal.Coll.sndVec_apply_3' depends on axioms: [propext, Classical.choice, Quot.sound] -/
#guard_msgs in #print axioms sndVec_apply_3
/-- info: 'Cert.KernelIdeal.Coll.redB_apply' depends on axioms: [propext, Classical.choice, Quot.sound] -/
#guard_msgs in #print axioms redB_apply
/-- info: 'Cert.KernelIdeal.Coll.rAt_SNDv' depends on axioms: [propext, Classical.choice, Quot.sound] -/
#guard_msgs in #print axioms rAt_SNDv

end Cert.KernelIdeal.Coll

end
-- ==== Proof.ColOf.lean ====
/-
  The absolute column of dy at which a device's chunk starts.

  A device's column half of dy starts at 1024 times the device's coordinate on the first mesh axis (its number
  divided by four). Within the half, chunks 0 and 1 are the device's own two, placed by its parity (its number
  modulo two); chunks 2 to 5 are the four chunks at 512, 640, 768 and 896. Every chunk is 128 columns wide.
-/

namespace Cert.KernelIdeal.Coll

/-- The first column of chunk j of the device numbered d. -/
def colOf (d : Nat) (j : Fin 6) : Nat := 1024 * (d / 4) + 128 * (if j.val < 2 then 2 * (d % 2) + j.val else j.val + 2)

end Cert.KernelIdeal.Coll
-- ==== Proof.OutValue2.lean ====
/-
  The ten column chunks of a device's result that came from its neighbours, and the result as a whole.

  Ten of the sixteen chunks a device stores into its result are reduced chunks of another device — the neighbour
  across x, the neighbour across z, or that neighbour's neighbour across x — read back out of the block buffer. All
  four devices have the same coordinate on the axis the rows are cut along, so each such chunk is the same row block
  of the reference's result, at the columns the chunk is stored at. With the device's own six chunks the sixteen
  cover the result's 2048 columns, so the result is the device's block of the reference's.
-/
import proofs.«900594_g7700000000000595_dist_rsdw_v7x_xyz2x2x2_y_m512_d512_f2048_bf16_1_alg».proof.Proof.OutValue
import proofs.«900594_g7700000000000595_dist_rsdw_v7x_xyz2x2x2_y_m512_d512_f2048_bf16_1_alg».proof.Proof.OutCover
import proofs.«900594_g7700000000000595_dist_rsdw_v7x_xyz2x2x2_y_m512_d512_f2048_bf16_1_alg».proof.Proof.BlkCases
import proofs.«900594_g7700000000000595_dist_rsdw_v7x_xyz2x2x2_y_m512_d512_f2048_bf16_1_alg».proof.Proof.ColOf
import proofs.«900594_g7700000000000595_dist_rsdw_v7x_xyz2x2x2_y_m512_d512_f2048_bf16_1_alg».proof.Proof.LayoutIdx
import proofs.«900594_g7700000000000595_dist_rsdw_v7x_xyz2x2x2_y_m512_d512_f2048_bf16_1_alg».proof.Proof.RefValue

noncomputable section

namespace Cert.KernelIdeal.Coll

open Cert.KernelIdeal Cert.KernelIdeal.Gen Cert.KernelIdeal.Mesh Cert.KernelIdeal.PayIdx
open Idealize.ShloMosaic Idealize.ShloMosaic.TcCoe Idealize.SL.Sem
open Idealize.ShloMosaic.ValueIdx
open Cert.ReferenceIdeal.RefValue (refOut)
open scoped BigOperators

section Pieces
variable (m : (ℓ : Loc nD τ sig) → Buf (Elt Ideal) ℓ)
  (m' : (ℓ : Loc Cert.ReferenceIdeal.nD Cert.ReferenceIdeal.τ Cert.ReferenceIdeal.sig) → Buf (Elt Ideal) ℓ)

/-- The reference's two argument arrays. -/
abbrev Xw : (⟨Cert.ReferenceIdeal.S1024x512, .f32⟩ : BufTy).Contents (Elt Ideal) :=
  m' (((0 : Dev Cert.ReferenceIdeal.nD).tc : Thread Cert.ReferenceIdeal.nD Cert.ReferenceIdeal.τ).loc Cert.ReferenceIdeal.main_arg0)
abbrev DYw : (⟨Cert.ReferenceIdeal.S1024x2048, .f32⟩ : BufTy).Contents (Elt Ideal) :=
  m' (((0 : Dev Cert.ReferenceIdeal.nD).tc : Thread Cert.ReferenceIdeal.nD Cert.ReferenceIdeal.τ).loc Cert.ReferenceIdeal.main_arg1)

/-- What is assumed of the reduced chunks: chunk j of device d is rows 256·y_d … of the reference's result at the
    columns colOf d j …, y_d the device's coordinate on the axis the rows are cut along. -/
abbrev RedRef : Prop :=
  ∀ (d : Dev nD) (j : Fin 6) (r : Fin 256) (k : Fin 128)
    (hr : 256 * ((d.val / 2) % 2) + r.val < 512) (hc : colOf d.val j + k.val < 2048),
    red32 (F := Ideal) (SNDv (F := Ideal) m) (xstg m d) (dystg m d) d j (ix2 r k)
      = refOut (Xw m') (DYw m') (ix2 (⟨256 * ((d.val / 2) % 2) + r.val, hr⟩ : Fin 512) (⟨colOf d.val j + k.val, hc⟩ : Fin 2048))

/-- A stored chunk whose vector is the narrowed reduced chunk j of a device d with the device's own row coordinate,
    stored at the column chunk j of d starts at: the result holds the reference's result there. -/
theorem xz_piece (hred : RedRef m m') (c d : Dev nD) (j : Fin 6) (i : ℕ)
    (offO : Fin 2 → ℕ) (hO : ∀ a, offO a + S256x128.size a ≤ S256x2048.size a) (w : S256x128.Idx → Elt Ideal .f32)
    (hp : (⟨oR offO hO, w⟩ : View.Piece (Elt Ideal) S256x2048 .f32) ∈ outW (SNDv (F := Ideal) m) (BLKv (F := Ideal) m) (xstg m c) (dystg m c) c)
    (hoff : offO = ![0, colOff c.val i])
    (hw : ∀ (r : Fin 256) (k : Fin 128), w (ix2 r k) = redB (F := Ideal) (SNDv (F := Ideal) m) (xstg m d) (dystg m d) d j (ix3 (0 : Fin 1) r k))
    (hy : (d.val / 2) % 2 = (c.val / 2) % 2) (hcol : colOf d.val j = colOff c.val i)
    (r : Fin 256) (k : Fin 128) (hr : 256 * ((c.val / 2) % 2) + r.val < 512) (hk : colOff c.val i + k.val < 2048) :
    OUTv (F := Ideal) m c (ix2 r (⟨colOff c.val i + k.val, hk⟩ : Fin 2048))
      = refOut (Xw m') (DYw m') (ix2 (⟨256 * ((c.val / 2) % 2) + r.val, hr⟩ : Fin 512) (⟨colOff c.val i + k.val, hk⟩ : Fin 2048)) := by
  rw [out_apply_cols m c offO hO w hp (colOff c.val i) hoff r k hk, hw r k, redB_apply, ← red32_apply,
    hred d j r k (by rw [hy]; exact hr) (by rw [hcol]; exact hk)]
  refine congrArg (refOut (Xw m') (DYw m')) (funext fun a => Fin.ext ?_)
  match a with
  | ⟨0, _⟩ => show 256 * ((d.val / 2) % 2) + r.val = 256 * ((c.val / 2) % 2) + r.val; rw [hy]
  | ⟨1, _⟩ => show colOf d.val j + k.val = colOff c.val i + k.val; rw [hcol]

/-! ### What the block buffer holds where the ten chunks are read back -/

/-- The block buffer's canonical contents are the table of the devices' narrowed reduced chunks. -/
theorem BLKv_eq : BLKv (F := Ideal) m = blkOf fun d j => redB (F := Ideal) (SNDv (F := Ideal) m) (xstg m d) (dystg m d) d j := rfl

/-- The slot the x neighbour's chunk w (of its first two) landed in. -/
theorem bAt_xinA (c : Dev nD) (w : Fin 2) (r : Fin 256) (k : Fin 128) :
    bAt (F := Ideal) (BLKv (F := Ideal) m) c (k0_off11 c (BitVec.ofNat 32 w.val)) (k0_off11_inb c w) (ix3 (0 : Fin 1) r k)
      = redB (F := Ideal) (SNDv (F := Ideal) m) (xstg m (xp c)) (dystg m (xp c)) (xp c) ⟨w.val, by have := w.isLt; omega⟩ (ix3 (0 : Fin 1) r k) := by
  unfold bAt
  rw [readAt_scratch4 (2 * (c.val % 2) + w.val + 8) (by have := par_lt2 c; have := w.isLt; omega) _ (k0_off11_eq c w) _ (BLKv (F := Ideal) m c) 0 r k,
    BLKv_eq, blkOf_xinA]

/-- The slot the x neighbour's chunk k' + 2 landed in: slot 12 + k'. -/
theorem bAt_xinB (c : Dev nD) (k' : Fin 4) (off : Fin 3 → ℕ) (hoff : off = ![12 + k'.val, 0, 0])
    (h : ∀ a, off a + S1x256x128.size a ≤ S16x256x128.size a) (r : Fin 256) (k : Fin 128) :
    bAt (F := Ideal) (BLKv (F := Ideal) m) c off h (ix3 (0 : Fin 1) r k)
      = redB (F := Ideal) (SNDv (F := Ideal) m) (xstg m (xp c)) (dystg m (xp c)) (xp c) ⟨k'.val + 2, by have := k'.isLt; omega⟩ (ix3 (0 : Fin 1) r k) := by
  unfold bAt
  rw [readAt_scratch4 (12 + k'.val) (by have := k'.isLt; omega) off hoff h (BLKv (F := Ideal) m c) 0 r k, BLKv_eq, blkOf_xinB]

/-- The slot the z neighbour's own chunk w landed in. -/
theorem bAt_zinA (c : Dev nD) (w : Fin 2) (r : Fin 256) (k : Fin 128) :
    bAt (F := Ideal) (BLKv (F := Ideal) m) c (k0_off14 c (BitVec.ofNat 32 w.val)) (k0_off14_inb c w) (ix3 (0 : Fin 1) r k)
      = redB (F := Ideal) (SNDv (F := Ideal) m) (xstg m (zp c)) (dystg m (zp c)) (zp c) ⟨w.val, by have := w.isLt; omega⟩ (ix3 (0 : Fin 1) r k) := by
  unfold bAt
  rw [readAt_scratch4 ((w.val + 2) - 2 * (c.val % 2)) (by have := par_lt2 c; have := w.isLt; omega) _ (k0_off14_eq c w) _ (BLKv (F := Ideal) m c) 0 r k,
    BLKv_eq, blkOf_zinA]

/-- The slot the z neighbour's copy of ITS x neighbour's chunk w landed in. -/
theorem bAt_zinB (c : Dev nD) (w : Fin 2) (r : Fin 256) (k : Fin 128) :
    bAt (F := Ideal) (BLKv (F := Ideal) m) c (k0_off16 c (BitVec.ofNat 32 w.val)) (k0_off16_inb c w) (ix3 (0 : Fin 1) r k)
      = redB (F := Ideal) (SNDv (F := Ideal) m) (xstg m (xp (zp c))) (dystg m (xp (zp c))) (xp (zp c)) ⟨w.val, by have := w.isLt; omega⟩ (ix3 (0 : Fin 1) r k) := by
  unfold bAt
  rw [readAt_scratch4 ((w.val + 10) - 2 * (c.val % 2)) (by have := par_lt2 c; have := w.isLt; omega) _ (k0_off16_eq c w) _ (BLKv (F := Ideal) m c) 0 r k,
    BLKv_eq, blkOf_zinB]

/-! ### The four devices share the row coordinate; the ten column identities -/

theorem y_xp (c : Dev nD) : ((xp c).val / 2) % 2 = (c.val / 2) % 2 := by revert c; decide
theorem y_zp (c : Dev nD) : ((zp c).val / 2) % 2 = (c.val / 2) % 2 := by revert c; decide
theorem y_xp_zp (c : Dev nD) : ((xp (zp c)).val / 2) % 2 = (c.val / 2) % 2 := by revert c; decide

theorem col_9 (c : Dev nD) : colOf (xp c).val 0 = colOff c.val 9 := by revert c; decide
theorem col_8 (c : Dev nD) : colOf (xp c).val 1 = colOff c.val 8 := by revert c; decide
theorem col_7 (c : Dev nD) : colOf (xp c).val 2 = colOff c.val 7 := by revert c; decide
theorem col_6 (c : Dev nD) : colOf (xp c).val 3 = colOff c.val 6 := by revert c; decide
theorem col_5 (c : Dev nD) : colOf (xp c).val 4 = colOff c.val 5 := by revert c; decide
theorem col_4 (c : Dev nD) : colOf (xp c).val 5 = colOff c.val 4 := by revert c; decide
theorem col_3 (c : Dev nD) : colOf (zp c).val 0 = colOff c.val 3 := by revert c; decide
theorem col_1 (c : Dev nD) : colOf (zp c).val 1 = colOff c.val 1 := by revert c; decide
theorem col_2 (c : Dev nD) : colOf (xp (zp c)).val 0 = colOff c.val 2 := by revert c; decide
theorem col_0 (c : Dev nD) : colOf (xp (zp c)).val 1 = colOff c.val 0 := by revert c; decide

/-! ### The ten chunks, one by one (index i as in the list of the sixteen stores, last store first) -/

/-- Entry i of the list of stores is in the list. -/
theorem outW_mem (c : Dev nD) (i : ℕ) (hi : i < 16) :
    (outW (SNDv (F := Ideal) m) (BLKv (F := Ideal) m) (xstg m c) (dystg m c) c)[i]'(by rw [outW_length]; exact hi)
      ∈ outW (SNDv (F := Ideal) m) (BLKv (F := Ideal) m) (xstg m c) (dystg m c) c := List.getElem_mem _

/-- The shape every one of the sixteen has. -/
abbrev PieceAt (c : Dev nD) (i : ℕ) : Prop :=
  ∀ (r : Fin 256) (k : Fin 128) (hr : 256 * ((c.val / 2) % 2) + r.val < 512) (hk : colOff c.val i + k.val < 2048),
    OUTv (F := Ideal) m c (ix2 r (⟨colOff c.val i + k.val, hk⟩ : Fin 2048))
      = refOut (Xw m') (DYw m') (ix2 (⟨256 * ((c.val / 2) % 2) + r.val, hr⟩ : Fin 512) (⟨colOff c.val i + k.val, hk⟩ : Fin 2048))

theorem piece_9 (hred : RedRef m m') (c : Dev nD) : PieceAt m m' c 9 := fun r k hr hk =>
  xz_piece m m' hred c (xp c) 0 9 (k0_off12 c 0#32) (k0_off12_inb c 0) _ (outW_mem m c 9 (by decide)) (k0_off12_eq c ⟨0, by decide⟩)
    (fun r k => by rw [pay30_apply]; exact bAt_xinA m c 0 r k) (y_xp c) (col_9 c) r k hr hk
theorem piece_8 (hred : RedRef m m') (c : Dev nD) : PieceAt m m' c 8 := fun r k hr hk =>
  xz_piece m m' hred c (xp c) 1 8 (k0_off12 c 1#32) (k0_off12_inb c 1) _ (outW_mem m c 8 (by decide)) (k0_off12_eq c ⟨1, by decide⟩)
    (fun r k => by rw [pay31_apply]; exact bAt_xinA m c 1 r k) (y_xp c) (col_8 c) r k hr hk
theorem piece_7 (hred : RedRef m m') (c : Dev nD) : PieceAt m m' c 7 := fun r k hr hk =>
  xz_piece m m' hred c (xp c) 2 7 (k0_off13 c 512#32) (k0_off13_inb c 0) _ (outW_mem m c 7 (by decide)) (k0_off13_eq c ⟨0, by decide⟩)
    (fun r k => by rw [pay32_apply]; exact bAt_xinB m c 0 _ rfl _ r k) (y_xp c) (col_7 c) r k hr hk
theorem piece_6 (hred : RedRef m m') (c : Dev nD) : PieceAt m m' c 6 := fun r k hr hk =>
  xz_piece m m' hred c (xp c) 3 6 (k0_off13 c 640#32) (k0_off13_inb c 1) _ (outW_mem m c 6 (by decide)) (k0_off13_eq c ⟨1, by decide⟩)
    (fun r k => by rw [pay33_apply]; exact bAt_xinB m c 1 _ rfl _ r k) (y_xp c) (col_6 c) r k hr hk
theorem piece_5 (hred : RedRef m m') (c : Dev nD) : PieceAt m m' c 5 := fun r k hr hk =>
  xz_piece m m' hred c (xp c) 4 5 (k0_off13 c 768#32) (k0_off13_inb c 2) _ (outW_mem m c 5 (by decide)) (k0_off13_eq c ⟨2, by decide⟩)
    (fun r k => by rw [pay34_apply]; exact bAt_xinB m c 2 _ rfl _ r k) (y_xp c) (col_5 c) r k hr hk
theorem piece_4 (hred : RedRef m m') (c : Dev nD) : PieceAt m m' c 4 := fun r k hr hk =>
  xz_piece m m' hred c (xp c) 5 4 (k0_off13 c 896#32) (k0_off13_inb c 3) _ (outW_mem m c 4 (by decide)) (k0_off13_eq c ⟨3, by decide⟩)
    (fun r k => by rw [pay35_apply]; exact bAt_xinB m c 3 _ rfl _ r k) (y_xp c) (col_4 c) r k hr hk
theorem piece_3 (hred : RedRef m m') (c : Dev nD) : PieceAt m m' c 3 := fun r k hr hk =>
  xz_piece m m' hred c (zp c) 0 3 (k0_off15 c 0#32) (k0_off15_inb c 0) _ (outW_mem m c 3 (by decide)) (k0_off15_eq c ⟨0, by decide⟩)
    (fun r k => by rw [pay36_apply]; exact bAt_zinA m c 0 r k) (y_zp c) (col_3 c) r k hr hk
theorem piece_2 (hred : RedRef m m') (c : Dev nD) : PieceAt m m' c 2 := fun r k hr hk =>
  xz_piece m m' hred c (xp (zp c)) 0 2 (k0_off17 c 0#32) (k0_off17_inb c 0) _ (outW_mem m c 2 (by decide)) (k0_off17_eq c ⟨0, by decide⟩)
    (fun r k => by rw [pay37_apply]; exact bAt_zinB m c 0 r k) (y_xp_zp c) (col_2 c) r k hr hk
theorem piece_1 (hred : RedRef m m') (c : Dev nD) : PieceAt m m' c 1 := fun r k hr hk =>
  xz_piece m m' hred c (zp c) 1 1 (k0_off15 c 1#32) (k0_off15_inb c 1) _ (outW_mem m c 1 (by decide)) (k0_off15_eq c ⟨1, by decide⟩)
    (fun r k => by rw [pay38_apply]; exact bAt_zinA m c 1 r k) (y_zp c) (col_1 c) r k hr hk
theorem piece_0 (hred : RedRef m m') (c : Dev nD) : PieceAt m m' c 0 := fun r k hr hk =>
  xz_piece m m' hred c (xp (zp c)) 1 0 (k0_off17 c 1#32) (k0_off17_inb c 1) _ (outW_mem m c 0 (by decide)) (k0_off17_eq c ⟨1, by decide⟩)
    (fun r k => by rw [pay39_apply]; exact bAt_zinB m c 1 r k) (y_xp_zp c) (col_0 c) r k hr hk

/-! ### The result as a whole -/

/-- All sixteen: the ten above and the device's own six (taken in the same shape). -/
theorem piece_all (hred : RedRef m m') (hown : ∀ (c : Dev nD) (i : ℕ), 10 ≤ i → i < 16 → PieceAt m m' c i) (c : Dev nD) (i : Fin 16) :
    PieceAt m m' c i.val := by
  obtain ⟨i, hi⟩ := i
  by_cases h10 : 10 ≤ i
  · exact hown c i h10 hi
  · have h : i < 10 := Nat.lt_of_not_le h10
    interval_cases i
    · exact piece_0 m m' hred c
    · exact piece_1 m m' hred c
    · exact piece_2 m m' hred c
    · exact piece_3 m m' hred c
    · exact piece_4 m m' hred c
    · exact piece_5 m m' hred c
    · exact piece_6 m m' hred c
    · exact piece_7 m m' hred c
    · exact piece_8 m m' hred c
    · exact piece_9 m m' hred c

/-- Each device's result array is its block of the reference's result. -/
theorem out_value (hred : RedRef m m') (hown : ∀ (c : Dev nD) (i : ℕ), 10 ≤ i → i < 16 → PieceAt m m' c i) (c : Dev nD) :
    OUTv (F := Ideal) m c
      = Layout.blockN ⟨2, ![256, 2048]⟩ ⟨2, ![512, 2048]⟩ (Layout.meshBlock [2, 2, 2] ![[1], []] c) (refOut (Xw m') (DYw m')) := by
  funext ij
  obtain ⟨r, col, rfl⟩ : ∃ (r : Fin 256) (col : Fin 2048), ij = ix2 r col := ⟨ij 0, ij 1, eq_ix2 ij⟩
  rw [Cert.LayoutIdx.blockN_256x2048_apply]
  have hcl : col.val / 128 < 16 := by have := col.isLt; omega
  obtain ⟨i, hi⟩ := colOff_cover c ⟨col.val / 128, hcl⟩
  have hk : colOff c.val i.val + col.val % 128 < 2048 := by have := colOff_le c i; have := Nat.mod_lt col.val (show 0 < 128 by decide); omega
  have hcol : col = (⟨colOff c.val i.val + col.val % 128, hk⟩ : Fin 2048) := Fin.ext (by
    show col.val = colOff c.val i.val + col.val % 128
    rw [hi]; show col.val = 128 * (col.val / 128) + col.val % 128; exact (Nat.div_add_mod col.val 128).symm)
  rw [hcol]
  exact piece_all m m' hred hown c i r ⟨col.val % 128, Nat.mod_lt _ (by decide)⟩ _ hk

end Pieces

/-- info: 'Cert.KernelIdeal.Coll.out_value' depends on axioms: [propext, Classical.choice, Quot.sound] -/
#guard_msgs in #print axioms out_value

end Cert.KernelIdeal.Coll

end
-- ==== Proof.CovIdx.lean ====
import proofs.«900594_g7700000000000595_dist_rsdw_v7x_xyz2x2x2_y_m512_d512_f2048_bf16_1_alg».proof.Proof.Values
import proofs.«900594_g7700000000000595_dist_rsdw_v7x_xyz2x2x2_y_m512_d512_f2048_bf16_1_alg».proof.Proof.ValIdx
import Idealize.ShloMosaic.Lib.Writes
import Idealize.ShloMosaic.Lib.Pipeline.FrameBody

/-!
# What the loads of the two scratch buffers read

The bf16 scratch buffer `[512, 1024]` is written once, whole: a load of a `[512, 128]` column chunk of it reads
the written matrix at the chunk's columns. The f32 scratch buffer `[6, 256, 128]` is written slot by slot, each slot
once: a load of slot `j` reads the block that was stored to slot `j`.
-/

noncomputable section

namespace Cert.KernelIdeal.Coll

open Cert.KernelIdeal Cert.KernelIdeal.Gen Cert.KernelIdeal.Mesh
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

/-! ## One store through the whole buffer -/

/-- After one store through the rectangle of the buffer's own sizes at zero offsets, however the zeros are spelt, the
    view reads the stored payload. -/
theorem read_writes_unit_zero {κ : Kind} {sp : Space} {S : Shape} {e : EltTy} (v : View sig κ sp S e) (off : Fin S.rank → ℕ)
    (hz : off = fun _ => 0) (inb : ∀ a, off a + S.size a ≤ S.size a) (f : v.ty.Contents (Elt F)) (w : S.Idx → Elt F e) :
    v.read (Elt F) (v.writes (Elt F) f [(⟨Rect.unit off S.size inb, w⟩ : View.Piece (Elt F) S e)]) = w := by
  subst hz
  exact View.read_writes_whole v f w

theorem zero2 : (![0, 0] : Fin 2 → ℕ) = fun _ => 0 := funext fun a => by fin_cases a <;> rfl

section Bf
variable (DY : (cc0_stg1_0 : Ref sig .tc).ty.Contents (Elt F))

/-- The bf16 copy of the device's column half of dy: the one matrix stored, whole, into the bf16 scratch buffer. -/
abbrev bfVec (c : Dev nD) : FVec F S512x1024 .bf16 :=
  k0_pay5 (View.readAt (Elt F) M1.view (Rect.unit (s := S512x2048) (k0_off4 c) S512x1024.size (k0_off4_inb c)).toLoadRect DY)

theorem bfW_eq (c : Dev nD) :
    bfW DY c = [⟨Rect.unit (s := S512x1024) ![0, 0] S512x1024.size inb_S512x1024_S512x1024_0_0, bfVec DY c⟩] := rfl

/-- The bf16 scratch buffer after its one store reads as the stored matrix. -/
theorem read_bfW (c : Dev nD) (x : S512x1024.Idx) :
    Mbf.view.read (Elt F) (Mbf.view.writes (Elt F) Mbf.view.junk (bfW DY c)) x = bfVec DY c x :=
  congrFun (read_writes_unit_zero Mbf.view ![0, 0] zero2 inb_S512x1024_S512x1024_0_0 Mbf.view.junk (bfVec DY c)) x

/-- The column chunk at a literal column offset `o`: element `(i, k)` is the stored matrix's `(i, o + k)`. -/
theorem bfAt_apply (c : Dev nD) (o : ℕ) (h : ∀ a, (![0, o] : Fin 2 → ℕ) a + S512x128.size a ≤ S512x1024.size a)
    (i : Fin 512) (k : Fin 128) (hk : o + k.val < 1024) :
    bfAt DY c o h (ix2 i k) = bfVec DY c (ix2 i ⟨o + k.val, hk⟩) := by
  have e := readAt_unit2 Mbf.view ![0, o] h (Mbf.view.writes (Elt F) Mbf.view.junk (bfW DY c)) (bfVec DY c) (read_bfW DY c) i k
  have ei : (ix2 (⟨(![0, o] : Fin 2 → ℕ) 0 + i.val, unit2_lt0 ![0, o] h i⟩ : Fin 512) (⟨(![0, o] : Fin 2 → ℕ) 1 + k.val, unit2_lt1 ![0, o] h k⟩ : Fin 1024))
      = ix2 i ⟨o + k.val, hk⟩ := by
    funext a
    apply Fin.ext
    match a with
    | ⟨0, _⟩ => show 0 + i.val = i.val; omega
    | ⟨1, _⟩ => rfl
  rw [ei] at e
  exact e

/-- The column chunk at a computed offset: element `(i, k)` is the stored matrix's `(off 0 + i, off 1 + k)`. -/
theorem bfS_apply (c : Dev nD) (w : Fin 2) (i : Fin 512) (k : Fin 128) :
    bfS DY c w (ix2 i k)
      = bfVec DY c (ix2 ⟨(k0_off5 c (BitVec.ofNat 32 w.val)) 0 + i.val, unit2_lt0 _ (k0_off5_inb c w) i⟩
          ⟨(k0_off5 c (BitVec.ofNat 32 w.val)) 1 + k.val, unit2_lt1 _ (k0_off5_inb c w) k⟩) :=
  readAt_unit2 Mbf.view (k0_off5 c (BitVec.ofNat 32 w.val)) (k0_off5_inb c w) (Mbf.view.writes (Elt F) Mbf.view.junk (bfW DY c))
    (bfVec DY c) (read_bfW DY c) i k

end Bf

/-! ## The six slots of the f32 scratch buffer -/

section P
variable (X : (cc0_stg0_0 : Ref sig .tc).ty.Contents (Elt F)) (DY : (cc0_stg1_0 : Ref sig .tc).ty.Contents (Elt F))

/-- The block stored to slot `j` of the f32 scratch buffer: the device's own partial product for chunk `j`. -/
def pVec (c : Dev nD) : Fin 6 → Vec F S1x256x128 .f32
  | 0 => k0_pay11 (xmL X c) (bfS DY c 0)
  | 1 => k0_pay12 (xmL X c) (bfS DY c 1)
  | 2 => k0_pay13 (xmL X c) (bfAt DY c 512 inb_S512x1024_S512x128_0_512)
  | 3 => k0_pay14 (xmL X c) (bfAt DY c 640 inb_S512x1024_S512x128_0_640)
  | 4 => k0_pay16 (k0_pay15 (xmL X c) (bfAt DY c 768 inb_S512x1024_S512x128_0_768))
  | 5 => k0_pay17 (xmL X c) (bfAt DY c 896 inb_S512x1024_S512x128_0_896)

theorem R6_disjoint {a b : Fin 6} (h : a.val ≠ b.val) : Disjoint (R6 a).set (R6 b).toLoadRect.set :=
  disjoint_lead h (inb6s a) (inb6s b)

/-- A load whose box is disjoint from the last store's rectangle reads what the earlier stores left. -/
theorem readCov_skip {κ : Kind} {sp : Space} {s : Shape} {e : EltTy} (v : View sig κ sp s e) (r : Rect s) (w : r.shape.Idx → Elt F e)
    (L : List (View.Piece (Elt F) s e)) (B : LoadRect s) (h : Disjoint r.set B.set) :
    v.readCov ((⟨r, w⟩ : View.Piece (Elt F) s e) :: L) B = v.readCov L B :=
  View.readCov_cons_of_disjoint v ⟨r, w⟩ L B h

/-- A load of slot `j` reads the block stored to slot `j`: the later stores went to other slots. -/
theorem pAt_eq (c : Dev nD) (j : Fin 6) : pAt X DY c j = pVec X DY c j := by
  unfold pAt pW
  match j with
  | 5 =>
    exact View.readCov_cons_toLoadRect Mp.view (R6 5) _ _
  | 4 =>
    refine (readCov_skip Mp.view (R6 5) _ _ (R6 4).toLoadRect (R6_disjoint (a := 5) (b := 4) (by decide))).trans ?_
    exact View.readCov_cons_toLoadRect Mp.view (R6 4) _ _
  | 3 =>
    refine (readCov_skip Mp.view (R6 5) _ _ (R6 3).toLoadRect (R6_disjoint (a := 5) (b := 3) (by decide))).trans ?_
    refine (readCov_skip Mp.view (R6 4) _ _ (R6 3).toLoadRect (R6_disjoint (a := 4) (b := 3) (by decide))).trans ?_
    exact View.readCov_cons_toLoadRect Mp.view (R6 3) _ _
  | 2 =>
    refine (readCov_skip Mp.view (R6 5) _ _ (R6 2).toLoadRect (R6_disjoint (a := 5) (b := 2) (by decide))).trans ?_
    refine (readCov_skip Mp.view (R6 4) _ _ (R6 2).toLoadRect (R6_disjoint (a := 4) (b := 2) (by decide))).trans ?_
    refine (readCov_skip Mp.view (R6 3) _ _ (R6 2).toLoadRect (R6_disjoint (a := 3) (b := 2) (by decide))).trans ?_
    exact View.readCov_cons_toLoadRect Mp.view (R6 2) _ _
  | 1 =>
    refine (readCov_skip Mp.view (R6 5) _ _ (R6 1).toLoadRect (R6_disjoint (a := 5) (b := 1) (by decide))).trans ?_
    refine (readCov_skip Mp.view (R6 4) _ _ (R6 1).toLoadRect (R6_disjoint (a := 4) (b := 1) (by decide))).trans ?_
    refine (readCov_skip Mp.view (R6 3) _ _ (R6 1).toLoadRect (R6_disjoint (a := 3) (b := 1) (by decide))).trans ?_
    refine (readCov_skip Mp.view (R6 2) _ _ (R6 1).toLoadRect (R6_disjoint (a := 2) (b := 1) (by decide))).trans ?_
    exact View.readCov_cons_toLoadRect Mp.view (R6 1) _ _
  | 0 =>
    refine (readCov_skip Mp.view (R6 5) _ _ (R6 0).toLoadRect (R6_disjoint (a := 5) (b := 0) (by decide))).trans ?_
    refine (readCov_skip Mp.view (R6 4) _ _ (R6 0).toLoadRect (R6_disjoint (a := 4) (b := 0) (by decide))).trans ?_
    refine (readCov_skip Mp.view (R6 3) _ _ (R6 0).toLoadRect (R6_disjoint (a := 3) (b := 0) (by decide))).trans ?_
    refine (readCov_skip Mp.view (R6 2) _ _ (R6 0).toLoadRect (R6_disjoint (a := 2) (b := 0) (by decide))).trans ?_
    refine (readCov_skip Mp.view (R6 1) _ _ (R6 0).toLoadRect (R6_disjoint (a := 1) (b := 0) (by decide))).trans ?_
    exact View.readCov_cons_toLoadRect Mp.view (R6 0) _ _

/-- The same at an index (the block's leading coordinate is `0`, whatever it is called). -/
theorem pAt_apply (c : Dev nD) (j : Fin 6) (u : Fin 1) (r : Fin 256) (k : Fin 128) :
    pAt X DY c j (ix3 u r k) = pVec X DY c j (ix3 (0 : Fin 1) r k) := by
  rw [pAt_eq, Subsingleton.elim u 0]

end P

/-! ## What the lemmas rest on -/

/-- info: 'Cert.KernelIdeal.Coll.read_writes_unit_zero' depends on axioms: [propext, Classical.choice, Quot.sound] -/
#guard_msgs in #print axioms read_writes_unit_zero

/-- info: 'Cert.KernelIdeal.Coll.zero2' depends on axioms: [propext, Classical.choice, Quot.sound] -/
#guard_msgs in #print axioms zero2

/-- info: 'Cert.KernelIdeal.Coll.bfW_eq' depends on axioms: [propext, Classical.choice, Quot.sound] -/
#guard_msgs in #print axioms bfW_eq

/-- info: 'Cert.KernelIdeal.Coll.read_bfW' depends on axioms: [propext, Classical.choice, Quot.sound] -/
#guard_msgs in #print axioms read_bfW

/-- info: 'Cert.KernelIdeal.Coll.bfAt_apply' depends on axioms: [propext, Classical.choice, Quot.sound] -/
#guard_msgs in #print axioms bfAt_apply

/-- info: 'Cert.KernelIdeal.Coll.bfS_apply' depends on axioms: [propext, Classical.choice, Quot.sound] -/
#guard_msgs in #print axioms bfS_apply

/-- info: 'Cert.KernelIdeal.Coll.R6_disjoint' depends on axioms: [propext, Classical.choice, Quot.sound] -/
#guard_msgs in #print axioms R6_disjoint

/-- info: 'Cert.KernelIdeal.Coll.readCov_skip' depends on axioms: [propext, Classical.choice, Quot.sound] -/
#guard_msgs in #print axioms readCov_skip

/-- info: 'Cert.KernelIdeal.Coll.pAt_eq' depends on axioms: [propext, Classical.choice, Quot.sound] -/
#guard_msgs in #print axioms pAt_eq

/-- info: 'Cert.KernelIdeal.Coll.pAt_apply' depends on axioms: [propext, Classical.choice, Quot.sound] -/
#guard_msgs in #print axioms pAt_apply

end Cert.KernelIdeal.Coll

end
-- ==== Proof.PVal.lean ====
import proofs.«900594_g7700000000000595_dist_rsdw_v7x_xyz2x2x2_y_m512_d512_f2048_bf16_1_alg».proof.Proof.Values
import proofs.«900594_g7700000000000595_dist_rsdw_v7x_xyz2x2x2_y_m512_d512_f2048_bf16_1_alg».proof.Proof.ValIdx
import proofs.«900594_g7700000000000595_dist_rsdw_v7x_xyz2x2x2_y_m512_d512_f2048_bf16_1_alg».proof.Proof.PayIdx
import proofs.«900594_g7700000000000595_dist_rsdw_v7x_xyz2x2x2_y_m512_d512_f2048_bf16_1_alg».proof.Proof.CovIdx
import Idealize.ShloMosaic.Lib.Pipeline.Value
import Idealize.ShloMosaic.Lib.ValueIdx

/-!
# A device's partial products, over the extended reals

Device `c` of the mesh has coordinates `x = c / 4`, `y = (c / 2) % 2`, `z = c % 2`. It holds 512 of the 1024 rows
of `x : [1024, 512]` and of `dy : [1024, 2048]`. Of the result's 512 rows it is responsible for the 256 rows
`256 y ..< 256 y + 256`, and of the 2048 columns for the six column chunks of 128 that start at `colAbs c j`.

Over the extended reals a change of float format moves no value and the matrix product is the sum of products. So
the device's own partial product for chunk `j`, at row `r` and column `k` of the chunk, is the sum over its 512
rows `i` of `x (i, 256 y + r) * dy (i, colAbs c j + k)`; what it sends its neighbour across y is the same sum at
the neighbour's rows `256 - 256 y + r`.
-/

noncomputable section

namespace Cert.KernelIdeal.Coll

open Cert.KernelIdeal Cert.KernelIdeal.Gen Cert.KernelIdeal.Mesh Cert.KernelIdeal.PayIdx
open Idealize.ShloMosaic Idealize.ShloMosaic.TcCoe Idealize.SL.Sem
open Idealize.ShloMosaic.ValueIdx
open scoped BigOperators

/-! ## Index bookkeeping -/

/-- An index at offsets `(0, o)`, however the offsets are spelt, is `(i, o + j)`. -/
theorem pv_ix2_off_eq {R C : ℕ} (off : Fin 2 → ℕ) (o : ℕ) (hoff : off = ![0, o]) (i : Fin R) (j : ℕ)
    (h0 : off 0 + i.val < R) (h1 : off 1 + j < C) (h1' : o + j < C) :
    (ix2 (⟨off 0 + i.val, h0⟩ : Fin R) (⟨off 1 + j, h1⟩ : Fin C)) = ix2 i ⟨o + j, h1'⟩ := by
  subst hoff
  funext a
  apply Fin.ext
  match a with
  | ⟨0, _⟩ => show 0 + i.val = i.val; omega
  | ⟨1, _⟩ => rfl

/-- The first absolute column of chunk `j` of device `c`: the device's column half starts at `1024 x`; its chunks 0
    and 1 are the pair `z` of the half's first four chunks, its chunks 2 to 5 the half's last four. -/
def colAbs (c : Dev nD) (j : Fin 6) : ℕ :=
  1024 * (c.val / 4) + 128 * (if j.val < 2 then 2 * (c.val % 2) + j.val else j.val + 2)

theorem colAbs_lt (c : Dev nD) (j : Fin 6) (k : Fin 128) : colAbs c j + k.val < 2048 := by
  have hc : c.val < 8 := c.isLt
  have hj := j.isLt
  have hk := k.isLt
  unfold colAbs
  split_ifs <;> omega

theorem colAbs_small (c : Dev nD) (j : Fin 6) (h : j.val < 2) : colAbs c j = 1024 * (c.val / 4) + (256 * (c.val % 2) + 128 * j.val) := by
  unfold colAbs
  rw [if_pos h]
  omega

theorem colAbs_big (c : Dev nD) (j : Fin 6) (h : ¬ j.val < 2) : colAbs c j = 1024 * (c.val / 4) + (128 * j.val + 256) := by
  unfold colAbs
  rw [if_neg h]
  omega

section Own
variable (X : (cc0_stg0_0 : Ref sig .tc).ty.Contents (Elt Ideal)) (DY : (cc0_stg1_0 : Ref sig .tc).ty.Contents (Elt Ideal))

theorem pv_dy_congr (i : Fin 512) {n n' : ℕ} (e : n = n') (h : n < 2048) (h' : n' < 2048) :
    DY (ix2 i ⟨n, h⟩) = DY (ix2 i ⟨n', h'⟩) := by
  subst e; rfl

/-! ## The bf16 copy of dy's column half -/

/-- The stored copy at `(i, col)` is dy at `(i, the half's first column + col)`. -/
theorem bfVec_apply (c : Dev nD) (i : Fin 512) (col : Fin 1024) :
    bfVec (F := Ideal) DY c (ix2 i col)
      = DY (ix2 ⟨(k0_off4 c) 0 + i.val, unit2_lt0 _ (k0_off4_inb c) i⟩ ⟨(k0_off4 c) 1 + col.val, unit2_lt1 _ (k0_off4_inb c) col⟩) := by
  show Gen.k0_pay5 _ (ix2 i col) = _
  rw [pay5_apply]
  exact readAt_stg1_1024 (k0_off4 c) (k0_off4_inb c) DY i col

/-- The same with the half's first column in closed form, `1024 x`. -/
theorem bfVec_apply' (c : Dev nD) (i : Fin 512) (col : Fin 1024) :
    bfVec (F := Ideal) DY c (ix2 i col)
      = DY (ix2 i ⟨1024 * (c.val / 4) + col.val, by have hc : c.val < 8 := c.isLt; have := col.isLt; omega⟩) :=
  (bfVec_apply DY c i col).trans
    (congrArg (fun t => DY t) (pv_ix2_off_eq (R := 512) (C := 2048) (k0_off4 c) _ (k0_off4_eq c) i col.val _ _ _))

/-- Its column chunk at a literal offset `o`. -/
theorem bfAt_dy (c : Dev nD) (o : ℕ) (h : ∀ a, (![0, o] : Fin 2 → ℕ) a + S512x128.size a ≤ S512x1024.size a)
    (i : Fin 512) (k : Fin 128) (hk : o + k.val < 1024) :
    bfAt (F := Ideal) DY c o h (ix2 i k)
      = DY (ix2 i ⟨1024 * (c.val / 4) + (o + k.val), by have hc : c.val < 8 := c.isLt; omega⟩) :=
  (bfAt_apply DY c o h i k hk).trans (bfVec_apply' DY c i ⟨o + k.val, hk⟩)

/-- Its column chunk `w` of the device's own first two, at columns `256 z + 128 w` of the copy. -/
theorem bfS_dy (c : Dev nD) (w : Fin 2) (i : Fin 512) (k : Fin 128) :
    bfS (F := Ideal) DY c w (ix2 i k)
      = DY (ix2 i ⟨1024 * (c.val / 4) + (256 * (c.val % 2) + 128 * w.val + k.val),
          by have hc : c.val < 8 := c.isLt; have := w.isLt; have := k.isLt; omega⟩) :=
  (bfS_apply DY c w i k).trans
    ((congrArg (fun t => bfVec (F := Ideal) DY c t)
        (pv_ix2_off_eq (R := 512) (C := 1024) (k0_off5 c (BitVec.ofNat 32 w.val)) _ (k0_off5_eq c w) i k.val _ _
          (by have := w.isLt; have := k.isLt; omega))).trans
      (bfVec_apply' DY c i ⟨256 * (c.val % 2) + 128 * w.val + k.val, by have := w.isLt; have := k.isLt; omega⟩))

/-! ## The device's rows of x -/

/-- The device's own result rows: x at columns `256 y + r`. -/
theorem xmL_apply (c : Dev nD) (i : Fin 512) (r : Fin 256) :
    xmL (F := Ideal) X c (ix2 i r)
      = X (ix2 ⟨(k0_off2 c) 0 + i.val, unit2_lt0 _ (k0_off2_inb c) i⟩ ⟨(k0_off2 c) 1 + r.val, unit2_lt1 _ (k0_off2_inb c) r⟩) := by
  show Gen.k0_pay2 _ (ix2 i r) = _
  rw [pay2_apply]
  exact readAt_stg0 (k0_off2 c) (k0_off2_inb c) X i r

theorem xmL_apply' (c : Dev nD) (i : Fin 512) (r : Fin 256) :
    xmL (F := Ideal) X c (ix2 i r) = X (ix2 i ⟨256 * ((c.val / 2) % 2) + r.val, by have := r.isLt; omega⟩) :=
  (xmL_apply X c i r).trans
    (congrArg (fun t => X t) (pv_ix2_off_eq (R := 512) (C := 512) (k0_off2 c) _ (k0_off2_eq c) i r.val _ _ _))

/-- The neighbour's result rows: x at columns `256 - 256 y + r`, as loaded -/
theorem pv_xRaw (c : Dev nD) (i : Fin 512) (r : Fin 256) :
    xRaw (F := Ideal) X c (ix2 i r) = X (ix2 i ⟨256 - 256 * ((c.val / 2) % 2) + r.val, by have := r.isLt; omega⟩) := by
  unfold xRaw
  exact (readAt_stg0 (k0_off1 c) (k0_off1_inb c) X i r).trans
    (congrArg (fun t => X t) (pv_ix2_off_eq (R := 512) (C := 512) (k0_off1 c) _ (k0_off1_eq c) i r.val _ _ _))

/-- and the same narrowed to bf16. -/
theorem pv_xpL (c : Dev nD) (i : Fin 512) (r : Fin 256) :
    xpL (F := Ideal) X c (ix2 i r) = X (ix2 i ⟨256 - 256 * ((c.val / 2) % 2) + r.val, by have := r.isLt; omega⟩) := by
  show Gen.k0_pay1 (xRaw (F := Ideal) X c) (ix2 i r) = _
  rw [pay1_apply]
  exact pv_xRaw X c i r

/-- Column chunk `w` of dy as loaded in f32: dy at columns `1024 x + 256 z + 128 w + k`. -/
theorem pv_dyL (c : Dev nD) (w : Fin 2) (i : Fin 512) (k : Fin 128) :
    dyL (F := Ideal) DY c w (ix2 i k)
      = DY (ix2 i ⟨1024 * (c.val / 4) + 256 * (c.val % 2) + 128 * w.val + k.val,
          by have hc : c.val < 8 := c.isLt; have := w.isLt; have := k.isLt; omega⟩) := by
  unfold dyL
  exact (readAt_stg1_128 (k0_off3 c (BitVec.ofNat 32 w.val)) (k0_off3_inb c w) DY i k).trans
    (congrArg (fun t => DY t) (pv_ix2_off_eq (R := 512) (C := 2048) (k0_off3 c (BitVec.ofNat 32 w.val)) _ (k0_off3_eq c w) i k.val _ _ _))

/-! ## The device's own partial products -/

/-- The block stored to slot `j` of the f32 scratch buffer, at row `r` and column `k`: the sum over the device's 512
    rows of x at its own result row times dy at chunk `j`'s column. -/
theorem pVec_sum (c : Dev nD) (j : Fin 6) (r : Fin 256) (k : Fin 128) :
    pVec (F := Ideal) X DY c j (ix3 (0 : Fin 1) r k)
      = ∑ i : Fin 512, HMul.hMul (α := EReal) (β := EReal)
          (X (ix2 i ⟨256 * ((c.val / 2) % 2) + r.val, by have := r.isLt; omega⟩)) (DY (ix2 i ⟨colAbs c j + k.val, colAbs_lt c j k⟩)) := by
  match j with
  | 0 =>
    show Gen.k0_pay11 (xmL (F := Ideal) X c) (bfS (F := Ideal) DY c 0) (ix3 (0 : Fin 1) r k) = _
    rw [pay11_apply]
    refine Finset.sum_congr rfl fun i _ => ?_
    have e : 1024 * (c.val / 4) + (256 * (c.val % 2) + 128 * (0 : Fin 2).val + k.val) = colAbs c 0 + k.val := by
      rw [colAbs_small c 0 (by decide)]
      show 1024 * (c.val / 4) + (256 * (c.val % 2) + 128 * 0 + k.val) = 1024 * (c.val / 4) + (256 * (c.val % 2) + 128 * 0) + k.val
      omega
    rw [xmL_apply' X c i r, bfS_dy DY c 0 i k, pv_dy_congr DY i e _ (colAbs_lt c 0 k)]
    try rfl
  | 1 =>
    show Gen.k0_pay12 (xmL (F := Ideal) X c) (bfS (F := Ideal) DY c 1) (ix3 (0 : Fin 1) r k) = _
    rw [pay12_apply]
    refine Finset.sum_congr rfl fun i _ => ?_
    have e : 1024 * (c.val / 4) + (256 * (c.val % 2) + 128 * (1 : Fin 2).val + k.val) = colAbs c 1 + k.val := by
      rw [colAbs_small c 1 (by decide)]
      show 1024 * (c.val / 4) + (256 * (c.val % 2) + 128 * 1 + k.val) = 1024 * (c.val / 4) + (256 * (c.val % 2) + 128 * 1) + k.val
      omega
    rw [xmL_apply' X c i r, bfS_dy DY c 1 i k, pv_dy_congr DY i e _ (colAbs_lt c 1 k)]
    try rfl
  | 2 =>
    show Gen.k0_pay13 (xmL (F := Ideal) X c) (bfAt (F := Ideal) DY c 512 inb_S512x1024_S512x128_0_512) (ix3 (0 : Fin 1) r k) = _
    rw [pay13_apply]
    refine Finset.sum_congr rfl fun i _ => ?_
    have e : 1024 * (c.val / 4) + (512 + k.val) = colAbs c 2 + k.val := by
      rw [colAbs_big c 2 (by decide)]
      show 1024 * (c.val / 4) + (512 + k.val) = 1024 * (c.val / 4) + (128 * 2 + 256) + k.val
      omega
    rw [xmL_apply' X c i r, bfAt_dy DY c 512 inb_S512x1024_S512x128_0_512 i k (by have := k.isLt; omega), pv_dy_congr DY i e _ (colAbs_lt c 2 k)]
    try rfl
  | 3 =>
    show Gen.k0_pay14 (xmL (F := Ideal) X c) (bfAt (F := Ideal) DY c 640 inb_S512x1024_S512x128_0_640) (ix3 (0 : Fin 1) r k) = _
    rw [pay14_apply]
    refine Finset.sum_congr rfl fun i _ => ?_
    have e : 1024 * (c.val / 4) + (640 + k.val) = colAbs c 3 + k.val := by
      rw [colAbs_big c 3 (by decide)]
      show 1024 * (c.val / 4) + (640 + k.val) = 1024 * (c.val / 4) + (128 * 3 + 256) + k.val
      omega
    rw [xmL_apply' X c i r, bfAt_dy DY c 640 inb_S512x1024_S512x128_0_640 i k (by have := k.isLt; omega), pv_dy_congr DY i e _ (colAbs_lt c 3 k)]
    try rfl
  | 4 =>
    show Gen.k0_pay16 (Gen.k0_pay15 (xmL (F := Ideal) X c) (bfAt (F := Ideal) DY c 768 inb_S512x1024_S512x128_0_768)) (ix3 (0 : Fin 1) r k) = _
    rw [pay16_apply, pay15_apply]
    refine Finset.sum_congr rfl fun i _ => ?_
    have e : 1024 * (c.val / 4) + (768 + k.val) = colAbs c 4 + k.val := by
      rw [colAbs_big c 4 (by decide)]
      show 1024 * (c.val / 4) + (768 + k.val) = 1024 * (c.val / 4) + (128 * 4 + 256) + k.val
      omega
    rw [xmL_apply' X c i r, bfAt_dy DY c 768 inb_S512x1024_S512x128_0_768 i k (by have := k.isLt; omega), pv_dy_congr DY i e _ (colAbs_lt c 4 k)]
    try rfl
  | 5 =>
    show Gen.k0_pay17 (xmL (F := Ideal) X c) (bfAt (F := Ideal) DY c 896 inb_S512x1024_S512x128_0_896) (ix3 (0 : Fin 1) r k) = _
    rw [pay17_apply]
    refine Finset.sum_congr rfl fun i _ => ?_
    have e : 1024 * (c.val / 4) + (896 + k.val) = colAbs c 5 + k.val := by
      rw [colAbs_big c 5 (by decide)]
      show 1024 * (c.val / 4) + (896 + k.val) = 1024 * (c.val / 4) + (128 * 5 + 256) + k.val
      omega
    rw [xmL_apply' X c i r, bfAt_dy DY c 896 inb_S512x1024_S512x128_0_896 i k (by have := k.isLt; omega), pv_dy_congr DY i e _ (colAbs_lt c 5 k)]
    try rfl

/-- A load of slot `j` reads that sum. -/
theorem pAt_sum' (c : Dev nD) (j : Fin 6) (r : Fin 256) (k : Fin 128) :
    pAt (F := Ideal) X DY c j (ix3 (0 : Fin 1) r k)
      = ∑ i : Fin 512, HMul.hMul (α := EReal) (β := EReal)
          (X (ix2 i ⟨256 * ((c.val / 2) % 2) + r.val, by have := r.isLt; omega⟩)) (DY (ix2 i ⟨colAbs c j + k.val, colAbs_lt c j k⟩)) := by
  rw [pAt_eq]
  exact pVec_sum X DY c j r k

/-! ## What the device sends its neighbour across y -/

/-- Chunk `j` of what is sent across y, at row `r` and column `k`: the same sum at the neighbour's result row. -/
theorem sndVec_sum' (c : Dev nD) (j : Fin 6) (r : Fin 256) (k : Fin 128) :
    sndVec (F := Ideal) X DY c j (ix3 (0 : Fin 1) r k)
      = ∑ i : Fin 512, HMul.hMul (α := EReal) (β := EReal)
          (X (ix2 i ⟨256 - 256 * ((c.val / 2) % 2) + r.val, by have := r.isLt; omega⟩)) (DY (ix2 i ⟨colAbs c j + k.val, colAbs_lt c j k⟩)) := by
  match j with
  | 0 =>
    show Gen.k0_pay3 (xRaw (F := Ideal) X c) (dyL (F := Ideal) DY c 0) (ix3 (0 : Fin 1) r k) = _
    rw [pay3_apply]
    refine Finset.sum_congr rfl fun i _ => ?_
    have e : 1024 * (c.val / 4) + 256 * (c.val % 2) + 128 * (0 : Fin 2).val + k.val = colAbs c 0 + k.val := by
      rw [colAbs_small c 0 (by decide)]
      show 1024 * (c.val / 4) + 256 * (c.val % 2) + 128 * 0 + k.val = 1024 * (c.val / 4) + (256 * (c.val % 2) + 128 * 0) + k.val
      omega
    rw [pv_xRaw X c i r, pv_dyL DY c 0 i k, pv_dy_congr DY i e _ (colAbs_lt c 0 k)]
    try rfl
  | 1 =>
    show Gen.k0_pay4 (xpL (F := Ideal) X c) (dyL (F := Ideal) DY c 1) (ix3 (0 : Fin 1) r k) = _
    rw [pay4_apply]
    refine Finset.sum_congr rfl fun i _ => ?_
    have e : 1024 * (c.val / 4) + 256 * (c.val % 2) + 128 * (1 : Fin 2).val + k.val = colAbs c 1 + k.val := by
      rw [colAbs_small c 1 (by decide)]
      show 1024 * (c.val / 4) + 256 * (c.val % 2) + 128 * 1 + k.val = 1024 * (c.val / 4) + (256 * (c.val % 2) + 128 * 1) + k.val
      omega
    rw [pv_xpL X c i r, pv_dyL DY c 1 i k, pv_dy_congr DY i e _ (colAbs_lt c 1 k)]
    try rfl
  | 2 =>
    show Gen.k0_pay6 (xpL (F := Ideal) X c) (bfAt (F := Ideal) DY c 512 inb_S512x1024_S512x128_0_512) (ix3 (0 : Fin 1) r k) = _
    rw [pay6_apply]
    refine Finset.sum_congr rfl fun i _ => ?_
    have e : 1024 * (c.val / 4) + (512 + k.val) = colAbs c 2 + k.val := by
      rw [colAbs_big c 2 (by decide)]
      show 1024 * (c.val / 4) + (512 + k.val) = 1024 * (c.val / 4) + (128 * 2 + 256) + k.val
      omega
    rw [pv_xpL X c i r, bfAt_dy DY c 512 inb_S512x1024_S512x128_0_512 i k (by have := k.isLt; omega), pv_dy_congr DY i e _ (colAbs_lt c 2 k)]
    try rfl
  | 3 =>
    show Gen.k0_pay8 (Gen.k0_pay7 (xpL (F := Ideal) X c) (bfAt (F := Ideal) DY c 640 inb_S512x1024_S512x128_0_640)) (ix3 (0 : Fin 1) r k) = _
    rw [pay8_apply, pay7_apply]
    refine Finset.sum_congr rfl fun i _ => ?_
    have e : 1024 * (c.val / 4) + (640 + k.val) = colAbs c 3 + k.val := by
      rw [colAbs_big c 3 (by decide)]
      show 1024 * (c.val / 4) + (640 + k.val) = 1024 * (c.val / 4) + (128 * 3 + 256) + k.val
      omega
    rw [pv_xpL X c i r, bfAt_dy DY c 640 inb_S512x1024_S512x128_0_640 i k (by have := k.isLt; omega), pv_dy_congr DY i e _ (colAbs_lt c 3 k)]
    try rfl
  | 4 =>
    show Gen.k0_pay9 (xpL (F := Ideal) X c) (bfAt (F := Ideal) DY c 768 inb_S512x1024_S512x128_0_768) (ix3 (0 : Fin 1) r k) = _
    rw [pay9_apply]
    refine Finset.sum_congr rfl fun i _ => ?_
    have e : 1024 * (c.val / 4) + (768 + k.val) = colAbs c 4 + k.val := by
      rw [colAbs_big c 4 (by decide)]
      show 1024 * (c.val / 4) + (768 + k.val) = 1024 * (c.val / 4) + (128 * 4 + 256) + k.val
      omega
    rw [pv_xpL X c i r, bfAt_dy DY c 768 inb_S512x1024_S512x128_0_768 i k (by have := k.isLt; omega), pv_dy_congr DY i e _ (colAbs_lt c 4 k)]
    try rfl
  | 5 =>
    show Gen.k0_pay10 (xpL (F := Ideal) X c) (bfAt (F := Ideal) DY c 896 inb_S512x1024_S512x128_0_896) (ix3 (0 : Fin 1) r k) = _
    rw [pay10_apply]
    refine Finset.sum_congr rfl fun i _ => ?_
    have e : 1024 * (c.val / 4) + (896 + k.val) = colAbs c 5 + k.val := by
      rw [colAbs_big c 5 (by decide)]
      show 1024 * (c.val / 4) + (896 + k.val) = 1024 * (c.val / 4) + (128 * 5 + 256) + k.val
      omega
    rw [pv_xpL X c i r, bfAt_dy DY c 896 inb_S512x1024_S512x128_0_896 i k (by have := k.isLt; omega), pv_dy_congr DY i e _ (colAbs_lt c 5 k)]
    try rfl

end Own

/-! ## What the lemmas rest on -/

/-- info: 'Cert.KernelIdeal.Coll.bfVec_apply' depends on axioms: [propext, Classical.choice, Quot.sound] -/
#guard_msgs in #print axioms bfVec_apply

/-- info: 'Cert.KernelIdeal.Coll.bfAt_dy' depends on axioms: [propext, Classical.choice, Quot.sound] -/
#guard_msgs in #print axioms bfAt_dy

/-- info: 'Cert.KernelIdeal.Coll.bfS_dy' depends on axioms: [propext, Classical.choice, Quot.sound] -/
#guard_msgs in #print axioms bfS_dy

/-- info: 'Cert.KernelIdeal.Coll.xmL_apply' depends on axioms: [propext, Classical.choice, Quot.sound] -/
#guard_msgs in #print axioms xmL_apply

/-- info: 'Cert.KernelIdeal.Coll.xmL_apply'' depends on axioms: [propext, Classical.choice, Quot.sound] -/
#guard_msgs in #print axioms xmL_apply'

/-- info: 'Cert.KernelIdeal.Coll.pVec_sum' depends on axioms: [propext, Classical.choice, Quot.sound] -/
#guard_msgs in #print axioms pVec_sum

/-- info: 'Cert.KernelIdeal.Coll.pAt_sum'' depends on axioms: [propext, Classical.choice, Quot.sound] -/
#guard_msgs in #print axioms pAt_sum'

/-- info: 'Cert.KernelIdeal.Coll.sndVec_sum'' depends on axioms: [propext, Classical.choice, Quot.sound] -/
#guard_msgs in #print axioms sndVec_sum'

end Cert.KernelIdeal.Coll

end
-- ==== Proof.RedRef.lean ====
import proofs.«900594_g7700000000000595_dist_rsdw_v7x_xyz2x2x2_y_m512_d512_f2048_bf16_1_alg».proof.Proof.PVal
import proofs.«900594_g7700000000000595_dist_rsdw_v7x_xyz2x2x2_y_m512_d512_f2048_bf16_1_alg».proof.Proof.OutValue
import proofs.«900594_g7700000000000595_dist_rsdw_v7x_xyz2x2x2_y_m512_d512_f2048_bf16_1_alg».proof.Proof.LayoutIdx
import proofs.«900594_g7700000000000595_dist_rsdw_v7x_xyz2x2x2_y_m512_d512_f2048_bf16_1_alg».proof.Proof.RefValue

/-!
# A reduced chunk is a block of the reference's result

Device `d` adds, for each of its six column chunks, its own partial product — the sum over its 512 rows of
`x` and `dy` — and the partial product its neighbour across y computed for it, the sum over the neighbour's 512
rows. The two devices hold the two halves of the 1024 rows, so the sum of the two is the reference's entry: row
`256 y + r` of the result, column `colAbs d j + k`.
-/

noncomputable section

namespace Cert.KernelIdeal.Coll

open Cert.KernelIdeal Cert.KernelIdeal.Gen Cert.KernelIdeal.Mesh Cert.KernelIdeal.PayIdx
open Idealize.ShloMosaic Idealize.ShloMosaic.TcCoe Idealize.SL.Sem
open Idealize.ShloMosaic.ValueIdx
open scoped BigOperators

/-- The neighbour across y has the other y coordinate and the same x and z coordinates. -/
theorem yp_coords (d : Dev nD) :
    (d.val / 2) % 2 + ((yp d).val / 2) % 2 = 1 ∧ (yp d).val / 4 = d.val / 4 ∧ (yp d).val % 2 = d.val % 2 := by
  revert d; decide

/-- So its chunks start at the same absolute columns. -/
theorem colAbs_yp (d : Dev nD) (j : Fin 6) : colAbs (yp d) j = colAbs d j := by
  unfold colAbs
  rw [(yp_coords d).2.1, (yp_coords d).2.2]

section Peer
variable (X : (cc0_stg0_0 : Ref sig .tc).ty.Contents (Elt Ideal)) (DY : (cc0_stg1_0 : Ref sig .tc).ty.Contents (Elt Ideal))

theorem rr_x_congr (i : Fin 512) {n n' : ℕ} (e : n = n') (h : n < 512) (h' : n' < 512) :
    X (ix2 i ⟨n, h⟩) = X (ix2 i ⟨n', h'⟩) := by
  subst e; rfl

/-- What the neighbour across y sends device `d` for chunk `j`, over the neighbour's own blocks `X`, `DY`: the
    sum over the neighbour's rows at `d`'s result row and `d`'s column. -/
theorem sndVec_sum_peer (d : Dev nD) (j : Fin 6) (r : Fin 256) (k : Fin 128) :
    sndVec (F := Ideal) X DY (yp d) j (ix3 (0 : Fin 1) r k)
      = ∑ i : Fin 512, HMul.hMul (α := EReal) (β := EReal)
          (X (ix2 i ⟨256 * ((d.val / 2) % 2) + r.val, by have := r.isLt; omega⟩)) (DY (ix2 i ⟨colAbs d j + k.val, colAbs_lt d j k⟩)) := by
  rw [sndVec_sum' X DY (yp d) j r k]
  refine Finset.sum_congr rfl fun i _ => ?_
  congr 1
  · exact rr_x_congr X i (by have h := (yp_coords d).1; omega) _ _
  · exact pv_dy_congr DY i (by rw [colAbs_yp]) _ _

end Peer

section Main
variable (m : (ℓ : Loc nD τ sig) → Buf (Elt Ideal) ℓ)
variable (X' : (⟨2, ![1024, 512]⟩ : Shape).Idx → EReal) (DY' : (⟨2, ![1024, 2048]⟩ : Shape).Idx → EReal)

/-- The reduced chunk `j` of device `d`, in f32, at row `r` and column `k`, is the reference's result at row
    `256 y + r` and column `colAbs d j + k` — given that every device's staged blocks of `x` and `dy` are its 512
    rows `512 y ..` of the whole arrays `X'`, `DY'`. -/
theorem red_refOut
    (hX : ∀ (d : Dev nD) (i : Fin 512) (j : Fin 512),
      xstg m d (ix2 i j) = X' (ix2 ⟨512 * ((d.val / 2) % 2) + i.val, by have := i.isLt; omega⟩ j))
    (hDY : ∀ (d : Dev nD) (i : Fin 512) (j : Fin 2048),
      dystg m d (ix2 i j) = DY' (ix2 ⟨512 * ((d.val / 2) % 2) + i.val, by have := i.isLt; omega⟩ j))
    (d : Dev nD) (j : Fin 6) (r : Fin 256) (k : Fin 128) :
    red32 (F := Ideal) (SNDv (F := Ideal) m) (xstg m d) (dystg m d) d j (ix2 r k)
      = Cert.ReferenceIdeal.RefValue.refOut X' DY'
          (ix2 ⟨256 * ((d.val / 2) % 2) + r.val, by have := r.isLt; omega⟩ ⟨colAbs d j + k.val, colAbs_lt d j k⟩) := by
  rw [red32_apply, pAt_sum' (xstg m d) (dystg m d) d j r k, rAt_SNDv m d j r k,
    sndVec_sum_peer (xstg m (yp d)) (dystg m (yp d)) d j r k]
  exact two_halves X' DY' (xstg m d) (xstg m (yp d)) (dystg m d) (dystg m (yp d))
    ((d.val / 2) % 2) (((yp d).val / 2) % 2) (yp_coords d).1 (hX d) (hX (yp d)) (hDY d) (hDY (yp d)) r
    ⟨colAbs d j + k.val, colAbs_lt d j k⟩

end Main

/-! ## What the lemmas rest on -/

/-- info: 'Cert.KernelIdeal.Coll.sndVec_sum_peer' depends on axioms: [propext, Classical.choice, Quot.sound] -/
#guard_msgs in #print axioms sndVec_sum_peer

/-- info: 'Cert.KernelIdeal.Coll.red_refOut' depends on axioms: [propext, Classical.choice, Quot.sound] -/
#guard_msgs in #print axioms red_refOut

end Cert.KernelIdeal.Coll

end
-- ==== Proof.OutOwn.lean ====
/-
  The device's own six column chunks of its result block.

  The last six stores of the body put the device's six reduced chunks, in f32, into its result block: chunks 0 and 1 at
  the columns of the device's own quarter, chunks 2 to 5 at the four columns after the two quarters. Each chunk, entry
  by entry, is the reference's result at the device's row block and the chunk's absolute column; that is the
  device-level lemma, taken here as a hypothesis. The stored piece is read back through the covering of the block by the
  sixteen pieces, and the piece's column offset is the chunk's absolute column.
-/
import proofs.«900594_g7700000000000595_dist_rsdw_v7x_xyz2x2x2_y_m512_d512_f2048_bf16_1_alg».proof.Proof.ColOf
import proofs.«900594_g7700000000000595_dist_rsdw_v7x_xyz2x2x2_y_m512_d512_f2048_bf16_1_alg».proof.Proof.OutCover
import proofs.«900594_g7700000000000595_dist_rsdw_v7x_xyz2x2x2_y_m512_d512_f2048_bf16_1_alg».proof.Proof.RefValue
import Idealize.ShloMosaic.Lib.Layout

noncomputable section

namespace Cert.KernelIdeal.Coll

open Cert.KernelIdeal Cert.KernelIdeal.Gen Cert.KernelIdeal.Mesh
open Idealize.ShloMosaic Idealize.ShloMosaic.TcCoe Idealize.SL.Sem
open Idealize.ShloMosaic.ValueIdx
open Cert.ReferenceIdeal.RefValue (refOut)

/-- On every device the column offsets of the last six stores are the absolute columns of the device's six chunks. -/
theorem colOff_own : ∀ c : Dev nD,
    colOff c.val 15 = colOf c.val 0 ∧ colOff c.val 14 = colOf c.val 1 ∧ colOff c.val 13 = colOf c.val 2
      ∧ colOff c.val 12 = colOf c.val 3 ∧ colOff c.val 11 = colOf c.val 4 ∧ colOff c.val 10 = colOf c.val 5 := by
  decide

section Own
variable (m : (ℓ : Loc nD τ sig) → Buf (Elt Ideal) ℓ)
  (m' : (ℓ : Loc Cert.ReferenceIdeal.nD Cert.ReferenceIdeal.τ Cert.ReferenceIdeal.sig) → Buf (Elt Ideal) ℓ)

/-- The reference's two argument arrays. -/
abbrev refX := m' (((0 : Dev Cert.ReferenceIdeal.nD).tc : Thread Cert.ReferenceIdeal.nD Cert.ReferenceIdeal.τ).loc Cert.ReferenceIdeal.main_arg0)
abbrev refDY := m' (((0 : Dev Cert.ReferenceIdeal.nD).tc : Thread Cert.ReferenceIdeal.nD Cert.ReferenceIdeal.τ).loc Cert.ReferenceIdeal.main_arg1)

/-- The device-level lemma as a hypothesis: reduced chunk j of device d, entry (r, k), is the reference's result at
    row 256 y_d + r and column colOf d j + k. -/
abbrev OwnHyp : Prop :=
  ∀ (d : Dev nD) (j : Fin 6) (r : Fin 256) (k : Fin 128)
    (hr : 256 * ((d.val / 2) % 2) + r.val < 512) (hc : colOf d.val j + k.val < 2048),
    red32 (F := Ideal) (SNDv (F := Ideal) m) (xstg m d) (dystg m d) d j (ix2 r k)
      = refOut (refX m') (refDY m') (ix2 (⟨256 * ((d.val / 2) % 2) + r.val, hr⟩ : Fin 512) (⟨colOf d.val j + k.val, hc⟩ : Fin 2048))

/-- The i-th of the sixteen stored pieces is one of them. -/
theorem outW_getElem_mem (c : Dev nD) (i : ℕ) (hi : i < 16) :
    (outW (SNDv (F := Ideal) m) (BLKv (F := Ideal) m) (xstg m c) (dystg m c) c)[i]'(by rw [outW_length]; exact hi)
      ∈ outW (SNDv (F := Ideal) m) (BLKv (F := Ideal) m) (xstg m c) (dystg m c) c :=
  List.getElem_mem _

variable (hagree : ∀ c : Dev nD,
      m ((c.tc : Thread nD τ).loc main_arg0) = Layout.blockN ⟨2, ![512, 512]⟩ ⟨2, ![1024, 512]⟩ (Layout.meshBlock [2, 2, 2] ![[1], []] c) (refX m')
    ∧ m ((c.tc : Thread nD τ).loc main_arg1) = Layout.blockN ⟨2, ![512, 2048]⟩ ⟨2, ![1024, 2048]⟩ (Layout.meshBlock [2, 2, 2] ![[1], []] c) (refDY m'))

include hagree

/-- A stored piece that is reduced chunk j of the device itself, at column offset colOff c i = colOf c j: the result
    block at the piece's columns is the reference's result at the device's rows and those columns. -/
theorem own_piece (hred : OwnHyp m m') (c : Dev nD) (i : ℕ) (j : Fin 6)
    (off : Fin 2 → ℕ) (h : ∀ a, off a + S256x128.size a ≤ S256x2048.size a)
    (hp : (⟨oR off h, red32 (F := Ideal) (SNDv (F := Ideal) m) (xstg m c) (dystg m c) c j⟩ : View.Piece (Elt Ideal) S256x2048 .f32)
      ∈ outW (SNDv (F := Ideal) m) (BLKv (F := Ideal) m) (xstg m c) (dystg m c) c)
    (hoff : off = ![0, colOff c.val i]) (hcol : colOff c.val i = colOf c.val j)
    (r : Fin 256) (k : Fin 128) (hr : 256 * ((c.val / 2) % 2) + r.val < 512) (hk : colOff c.val i + k.val < 2048) :
    OUTv (F := Ideal) m c (ix2 r (⟨colOff c.val i + k.val, hk⟩ : Fin 2048))
      = refOut (refX m') (refDY m') (ix2 (⟨256 * ((c.val / 2) % 2) + r.val, hr⟩ : Fin 512) (⟨colOff c.val i + k.val, hk⟩ : Fin 2048)) := by
  have hk' : colOf c.val j + k.val < 2048 := by rw [← hcol]; exact hk
  rw [out_apply_cols (F := Ideal) m c off h _ hp (colOff c.val i) hoff r k hk, hred c j r k hr hk']
  exact congrArg (fun q : Fin 2048 => refOut (refX m') (refDY m') (ix2 (⟨256 * ((c.val / 2) % 2) + r.val, hr⟩ : Fin 512) q))
    (Fin.ext (by show colOf c.val j + k.val = colOff c.val i + k.val; rw [hcol]))

/-- Own chunk 0: the store at the first column of the device's own quarter. -/
theorem piece_15 (hred : OwnHyp m m') (c : Dev nD) (r : Fin 256) (k : Fin 128)
    (hr : 256 * ((c.val / 2) % 2) + r.val < 512) (hk : colOff c.val 15 + k.val < 2048) :
    OUTv (F := Ideal) m c (ix2 r (⟨colOff c.val 15 + k.val, hk⟩ : Fin 2048))
      = refOut (refX m') (refDY m') (ix2 (⟨256 * ((c.val / 2) % 2) + r.val, hr⟩ : Fin 512) (⟨colOff c.val 15 + k.val, hk⟩ : Fin 2048)) :=
  own_piece m m' hagree hred c 15 0 (k0_off9 c (BitVec.ofNat 32 0)) (k0_off9_inb c 0) (outW_getElem_mem m c 15 (by decide))
    (k0_off9_eq c ⟨0, by decide⟩) (colOff_own c).1 r k hr hk

/-- Own chunk 1. -/
theorem piece_14 (hred : OwnHyp m m') (c : Dev nD) (r : Fin 256) (k : Fin 128)
    (hr : 256 * ((c.val / 2) % 2) + r.val < 512) (hk : colOff c.val 14 + k.val < 2048) :
    OUTv (F := Ideal) m c (ix2 r (⟨colOff c.val 14 + k.val, hk⟩ : Fin 2048))
      = refOut (refX m') (refDY m') (ix2 (⟨256 * ((c.val / 2) % 2) + r.val, hr⟩ : Fin 512) (⟨colOff c.val 14 + k.val, hk⟩ : Fin 2048)) :=
  own_piece m m' hagree hred c 14 1 (k0_off9 c (BitVec.ofNat 32 1)) (k0_off9_inb c 1) (outW_getElem_mem m c 14 (by decide))
    (k0_off9_eq c ⟨1, by decide⟩) (colOff_own c).2.1 r k hr hk

/-- Own chunk 2: the first of the four columns after the two quarters. -/
theorem piece_13 (hred : OwnHyp m m') (c : Dev nD) (r : Fin 256) (k : Fin 128)
    (hr : 256 * ((c.val / 2) % 2) + r.val < 512) (hk : colOff c.val 13 + k.val < 2048) :
    OUTv (F := Ideal) m c (ix2 r (⟨colOff c.val 13 + k.val, hk⟩ : Fin 2048))
      = refOut (refX m') (refDY m') (ix2 (⟨256 * ((c.val / 2) % 2) + r.val, hr⟩ : Fin 512) (⟨colOff c.val 13 + k.val, hk⟩ : Fin 2048)) :=
  own_piece m m' hagree hred c 13 2 (k0_off10 c (BitVec.ofNat 32 512)) (k0_off10_inb c 0) (outW_getElem_mem m c 13 (by decide))
    (k0_off10_eq c ⟨0, by decide⟩) (colOff_own c).2.2.1 r k hr hk

/-- Own chunk 3. -/
theorem piece_12 (hred : OwnHyp m m') (c : Dev nD) (r : Fin 256) (k : Fin 128)
    (hr : 256 * ((c.val / 2) % 2) + r.val < 512) (hk : colOff c.val 12 + k.val < 2048) :
    OUTv (F := Ideal) m c (ix2 r (⟨colOff c.val 12 + k.val, hk⟩ : Fin 2048))
      = refOut (refX m') (refDY m') (ix2 (⟨256 * ((c.val / 2) % 2) + r.val, hr⟩ : Fin 512) (⟨colOff c.val 12 + k.val, hk⟩ : Fin 2048)) :=
  own_piece m m' hagree hred c 12 3 (k0_off10 c (BitVec.ofNat 32 640)) (k0_off10_inb c 1) (outW_getElem_mem m c 12 (by decide))
    (k0_off10_eq c ⟨1, by decide⟩) (colOff_own c).2.2.2.1 r k hr hk

/-- Own chunk 4. -/
theorem piece_11 (hred : OwnHyp m m') (c : Dev nD) (r : Fin 256) (k : Fin 128)
    (hr : 256 * ((c.val / 2) % 2) + r.val < 512) (hk : colOff c.val 11 + k.val < 2048) :
    OUTv (F := Ideal) m c (ix2 r (⟨colOff c.val 11 + k.val, hk⟩ : Fin 2048))
      = refOut (refX m') (refDY m') (ix2 (⟨256 * ((c.val / 2) % 2) + r.val, hr⟩ : Fin 512) (⟨colOff c.val 11 + k.val, hk⟩ : Fin 2048)) :=
  own_piece m m' hagree hred c 11 4 (k0_off10 c (BitVec.ofNat 32 768)) (k0_off10_inb c 2) (outW_getElem_mem m c 11 (by decide))
    (k0_off10_eq c ⟨2, by decide⟩) (colOff_own c).2.2.2.2.1 r k hr hk

/-- Own chunk 5. -/
theorem piece_10 (hred : OwnHyp m m') (c : Dev nD) (r : Fin 256) (k : Fin 128)
    (hr : 256 * ((c.val / 2) % 2) + r.val < 512) (hk : colOff c.val 10 + k.val < 2048) :
    OUTv (F := Ideal) m c (ix2 r (⟨colOff c.val 10 + k.val, hk⟩ : Fin 2048))
      = refOut (refX m') (refDY m') (ix2 (⟨256 * ((c.val / 2) % 2) + r.val, hr⟩ : Fin 512) (⟨colOff c.val 10 + k.val, hk⟩ : Fin 2048)) :=
  own_piece m m' hagree hred c 10 5 (k0_off10 c (BitVec.ofNat 32 896)) (k0_off10_inb c 3) (outW_getElem_mem m c 10 (by decide))
    (k0_off10_eq c ⟨3, by decide⟩) (colOff_own c).2.2.2.2.2 r k hr hk

end Own

/-- info: 'Cert.KernelIdeal.Coll.piece_15' depends on axioms: [propext, Classical.choice, Quot.sound] -/
#guard_msgs in #print axioms piece_15

/-- info: 'Cert.KernelIdeal.Coll.piece_10' depends on axioms: [propext, Classical.choice, Quot.sound] -/
#guard_msgs in #print axioms piece_10

end Cert.KernelIdeal.Coll

end
-- ==== Proof.OutFinal.lean ====
/-
  The value of the kernel's result, assembled: each device's result array is its block of the reference's result.

  The device's two staged argument blocks are its argument arrays, and those are its blocks of the reference's arrays,
  so entry (i, j) of a device's x block is the reference's x at row 512·y + i, y the device's coordinate on the axis
  the rows are cut along, and the same for dy. From that every reduced chunk of every device is rows 256·y … of the
  reference's result at the chunk's columns; the sixteen chunks a device stores — its own six and the ten that came
  from its neighbours — cover its result array's columns.
-/
import proofs.«900594_g7700000000000595_dist_rsdw_v7x_xyz2x2x2_y_m512_d512_f2048_bf16_1_alg».proof.Defs
import proofs.«900594_g7700000000000595_dist_rsdw_v7x_xyz2x2x2_y_m512_d512_f2048_bf16_1_alg».proof.Proof.Gen.KernelIdeal
import proofs.«900594_g7700000000000595_dist_rsdw_v7x_xyz2x2x2_y_m512_d512_f2048_bf16_1_alg».proof.Proof.Gen.Pre_finite_inputs_Kernel
import proofs.«900594_g7700000000000595_dist_rsdw_v7x_xyz2x2x2_y_m512_d512_f2048_bf16_1_alg».proof.Proof.OutValue2
import proofs.«900594_g7700000000000595_dist_rsdw_v7x_xyz2x2x2_y_m512_d512_f2048_bf16_1_alg».proof.Proof.RedRef
import proofs.«900594_g7700000000000595_dist_rsdw_v7x_xyz2x2x2_y_m512_d512_f2048_bf16_1_alg».proof.Proof.OutOwn
import proofs.«900594_g7700000000000595_dist_rsdw_v7x_xyz2x2x2_y_m512_d512_f2048_bf16_1_alg».proof.Proof.LayoutIdx

noncomputable section

namespace Cert.KernelIdeal.Coll

open Cert.KernelIdeal Cert.KernelIdeal.Gen Cert.KernelIdeal.Mesh
open Idealize.ShloMosaic Idealize.ShloMosaic.TcCoe Idealize.SL.Sem
open Idealize.ShloMosaic.ValueIdx
open Cert.ReferenceIdeal.RefValue (refOut)

section Agree
variable (m : (ℓ : Loc nD τ sig) → Buf (Elt Ideal) ℓ)
  (m' : (ℓ : Loc Cert.ReferenceIdeal.nD Cert.ReferenceIdeal.τ Cert.ReferenceIdeal.sig) → Buf (Elt Ideal) ℓ)

/-- The staged x block is the device's x array: the window is the whole array. -/
theorem xstg_apply (d : Dev nD) (i : Fin 512) (j : Fin 512) :
    xstg (F := Ideal) m d (ix2 i j) = m ((d.tc : Thread nD τ).loc main_arg0) (ix2 i j) := by
  show m ((d.tc : Thread nD τ).loc main_arg0) ((win0_0.blk (0 : Fin 1)).view.emb (ix2 i j)) = _
  refine congrArg (m ((d.tc : Thread nD τ).loc main_arg0)) (funext fun a => Fin.ext ?_)
  match a with
  | ⟨0, _⟩ => show 0 * 512 + 1 * i.val = i.val; omega
  | ⟨1, _⟩ => show 0 * 512 + 1 * j.val = j.val; omega

/-- The staged dy block is the device's dy array. -/
theorem dystg_apply (d : Dev nD) (i : Fin 512) (j : Fin 2048) :
    dystg (F := Ideal) m d (ix2 i j) = m ((d.tc : Thread nD τ).loc main_arg1) (ix2 i j) := by
  show m ((d.tc : Thread nD τ).loc main_arg1) ((win0_1.blk (0 : Fin 1)).view.emb (ix2 i j)) = _
  refine congrArg (m ((d.tc : Thread nD τ).loc main_arg1)) (funext fun a => Fin.ext ?_)
  match a with
  | ⟨0, _⟩ => show 0 * 512 + 1 * i.val = i.val; omega
  | ⟨1, _⟩ => show 0 * 2048 + 1 * j.val = j.val; omega

variable (hagree : ∀ c : Dev nD,
      m ((c.tc : Thread nD τ).loc main_arg0) = Layout.blockN ⟨2, ![512, 512]⟩ ⟨2, ![1024, 512]⟩ (Layout.meshBlock [2, 2, 2] ![[1], []] c) (Xw m')
    ∧ m ((c.tc : Thread nD τ).loc main_arg1) = Layout.blockN ⟨2, ![512, 2048]⟩ ⟨2, ![1024, 2048]⟩ (Layout.meshBlock [2, 2, 2] ![[1], []] c) (DYw m'))
include hagree

/-- Entry (i, j) of a device's x block is the reference's x at row 512·y + i. -/
theorem hX_of_agree (d : Dev nD) (i : Fin 512) (j : Fin 512) :
    xstg (F := Ideal) m d (ix2 i j) = Xw m' (ix2 ⟨512 * ((d.val / 2) % 2) + i.val, by have := i.isLt; omega⟩ j) :=
  (xstg_apply m d i j).trans ((congrFun (hagree d).1 (ix2 i j)).trans (Cert.LayoutIdx.blockN_512x512_apply d (Xw m') i j))

/-- The same for dy. -/
theorem hDY_of_agree (d : Dev nD) (i : Fin 512) (j : Fin 2048) :
    dystg (F := Ideal) m d (ix2 i j) = DYw m' (ix2 ⟨512 * ((d.val / 2) % 2) + i.val, by have := i.isLt; omega⟩ j) :=
  (dystg_apply m d i j).trans ((congrFun (hagree d).2 (ix2 i j)).trans (Cert.LayoutIdx.blockN_512x2048_apply d (DYw m') i j))

/-- Every reduced chunk of every device is the reference's result at the device's rows and the chunk's columns. -/
theorem redRef_of_agree : RedRef m m' := fun d j r k hr hc =>
  red_refOut m (Xw m') (DYw m') (hX_of_agree m m' hagree) (hDY_of_agree m m' hagree) d j r k

/-- The device's own six chunks, in the shape of the other ten. -/
theorem own_of_agree (c : Dev nD) (i : ℕ) (h10 : 10 ≤ i) (h16 : i < 16) : PieceAt m m' c i := by
  have hred := redRef_of_agree m m' hagree
  interval_cases i
  · exact fun r k hr hk => piece_10 m m' hagree hred c r k hr hk
  · exact fun r k hr hk => piece_11 m m' hagree hred c r k hr hk
  · exact fun r k hr hk => piece_12 m m' hagree hred c r k hr hk
  · exact fun r k hr hk => piece_13 m m' hagree hred c r k hr hk
  · exact fun r k hr hk => piece_14 m m' hagree hred c r k hr hk
  · exact fun r k hr hk => piece_15 m m' hagree hred c r k hr hk

end Agree

/-- Under the algebraic claim's agreement of the arguments, each device's result array is its block of the reference's
    result. -/
theorem hout : ∀ (m : (ℓ : Loc Cert.KernelIdeal.nD Cert.KernelIdeal.τ Cert.KernelIdeal.sig) → Buf (Elt Ideal) ℓ)
        (m' : (ℓ : Loc Cert.ReferenceIdeal.nD Cert.ReferenceIdeal.τ Cert.ReferenceIdeal.sig) → Buf (Elt Ideal) ℓ),
      Cert.Pre_KernelIdeal m →
      (∀ c : Dev Cert.KernelIdeal.nD,
        m ((c.tc : Thread Cert.KernelIdeal.nD Cert.KernelIdeal.τ).loc Cert.KernelIdeal.main_arg0) = Layout.blockN ⟨2, ![512, 512]⟩ ⟨2, ![1024, 512]⟩ (Layout.meshBlock [2, 2, 2] ![[1], []] c) (m' (((0 : Dev Cert.ReferenceIdeal.nD).tc : Thread Cert.ReferenceIdeal.nD Cert.ReferenceIdeal.τ).loc Cert.ReferenceIdeal.main_arg0))
        ∧ m ((c.tc : Thread Cert.KernelIdeal.nD Cert.KernelIdeal.τ).loc Cert.KernelIdeal.main_arg1) = Layout.blockN ⟨2, ![512, 2048]⟩ ⟨2, ![1024, 2048]⟩ (Layout.meshBlock [2, 2, 2] ![[1], []] c) (m' (((0 : Dev Cert.ReferenceIdeal.nD).tc : Thread Cert.ReferenceIdeal.nD Cert.ReferenceIdeal.τ).loc Cert.ReferenceIdeal.main_arg1))) →
      ∀ c : Dev Cert.KernelIdeal.nD,
        Cert.KernelIdeal.Coll.OUTv (F := Ideal) m c = Layout.blockN ⟨2, ![256, 2048]⟩ ⟨2, ![512, 2048]⟩ (Layout.meshBlock [2, 2, 2] ![[1], []] c)
          (Cert.ReferenceIdeal.RefValue.refOut
            (m' (((0 : Dev Cert.ReferenceIdeal.nD).tc : Thread Cert.ReferenceIdeal.nD Cert.ReferenceIdeal.τ).loc Cert.ReferenceIdeal.main_arg0))
            (m' (((0 : Dev Cert.ReferenceIdeal.nD).tc : Thread Cert.ReferenceIdeal.nD Cert.ReferenceIdeal.τ).loc Cert.ReferenceIdeal.main_arg1))) :=
  fun m m' _ hagree c =>
    out_value m m' (redRef_of_agree m m' hagree) (fun c i h10 h16 => own_of_agree m m' hagree c i h10 h16) c

/-- info: 'Cert.KernelIdeal.Coll.hout' depends on axioms: [propext, Classical.choice, Quot.sound] -/
#guard_msgs in #print axioms hout

end Cert.KernelIdeal.Coll

end
-- ==== Proof.lean ====
/- The proof of `Cert.Claim` (proofs.«900594_g7700000000000595_dist_rsdw_v7x_xyz2x2x2_y_m512_d512_f2048_bf16_1_alg».proof.Defs) — frame_Kernel ∧ frame_KernelIdeal ∧ frame_ReferenceIdeal ∧ preserves_Kernel_KernelIdeal ∧ algebraic_KernelIdeal_ReferenceIdeal —: hand-written, untrusted.
   It must end in `theorem Cert.Proof.claim : Cert.Claim`; how it gets there is its own business
   (idealize/tests/proofs/02_vector_ops proves a bit-exact claim, 04_loops a frame). The witnesses of
   the programs' stated facts come first: the instances the generated Proof/Gen/ modules prove.
   Its author proves each claim OR witnesses that one is false. If a `holds`, `bitexact`, or `algebraic` claim
   fails at some input, do not weaken the claim until it holds: in `test_<name>.py` state
   `proofs.disproves(claim, *arrays)` in its place, with that input as `arrays`; run
   `python test_<name>.py regen`; and prove the disproof here (this file is not rewritten, and the claim to
   prove changes: a disproof adds no frame). A `frame` or `preserves` claim has no disproof.
   idealize/tests/proofs/README.md, "A value claim that is FALSE", says how; 02_vector_ops
   `Proof/Disproof.lean` and 10_ideal_fields `Proof/Widths.lean` are worked examples. -/
import proofs.«900594_g7700000000000595_dist_rsdw_v7x_xyz2x2x2_y_m512_d512_f2048_bf16_1_alg».proof.Defs
import proofs.«900594_g7700000000000595_dist_rsdw_v7x_xyz2x2x2_y_m512_d512_f2048_bf16_1_alg».proof.Proof.Gen.Kernel
import proofs.«900594_g7700000000000595_dist_rsdw_v7x_xyz2x2x2_y_m512_d512_f2048_bf16_1_alg».proof.Proof.Gen.Kernel.Skeleton
import proofs.«900594_g7700000000000595_dist_rsdw_v7x_xyz2x2x2_y_m512_d512_f2048_bf16_1_alg».proof.Proof.Gen.Kernel.Launch
import proofs.«900594_g7700000000000595_dist_rsdw_v7x_xyz2x2x2_y_m512_d512_f2048_bf16_1_alg».proof.Proof.Gen.Kernel.Points
import proofs.«900594_g7700000000000595_dist_rsdw_v7x_xyz2x2x2_y_m512_d512_f2048_bf16_1_alg».proof.Proof.Gen.Kernel.Frame
import proofs.«900594_g7700000000000595_dist_rsdw_v7x_xyz2x2x2_y_m512_d512_f2048_bf16_1_alg».proof.Proof.Gen.KernelIdeal
import proofs.«900594_g7700000000000595_dist_rsdw_v7x_xyz2x2x2_y_m512_d512_f2048_bf16_1_alg».proof.Proof.Gen.KernelIdeal.Skeleton
import proofs.«900594_g7700000000000595_dist_rsdw_v7x_xyz2x2x2_y_m512_d512_f2048_bf16_1_alg».proof.Proof.Gen.KernelIdeal.Launch
import proofs.«900594_g7700000000000595_dist_rsdw_v7x_xyz2x2x2_y_m512_d512_f2048_bf16_1_alg».proof.Proof.Gen.KernelIdeal.Points
import proofs.«900594_g7700000000000595_dist_rsdw_v7x_xyz2x2x2_y_m512_d512_f2048_bf16_1_alg».proof.Proof.Gen.KernelIdeal.Frame
import proofs.«900594_g7700000000000595_dist_rsdw_v7x_xyz2x2x2_y_m512_d512_f2048_bf16_1_alg».proof.Proof.Gen.ReferenceIdeal
import proofs.«900594_g7700000000000595_dist_rsdw_v7x_xyz2x2x2_y_m512_d512_f2048_bf16_1_alg».proof.Proof.Gen.ReferenceIdeal.Run
import proofs.«900594_g7700000000000595_dist_rsdw_v7x_xyz2x2x2_y_m512_d512_f2048_bf16_1_alg».proof.Proof.Gen.ReferenceIdeal.Read
import proofs.«900594_g7700000000000595_dist_rsdw_v7x_xyz2x2x2_y_m512_d512_f2048_bf16_1_alg».proof.Proof.Gen.Pre_finite_inputs_Kernel
import proofs.«900594_g7700000000000595_dist_rsdw_v7x_xyz2x2x2_y_m512_d512_f2048_bf16_1_alg».proof.Proof.Gen.Pre_finite_inputs_ReferenceIdeal
import proofs.«900594_g7700000000000595_dist_rsdw_v7x_xyz2x2x2_y_m512_d512_f2048_bf16_1_alg».proof.Proof.Final
import proofs.«900594_g7700000000000595_dist_rsdw_v7x_xyz2x2x2_y_m512_d512_f2048_bf16_1_alg».proof.Proof.Body
import proofs.«900594_g7700000000000595_dist_rsdw_v7x_xyz2x2x2_y_m512_d512_f2048_bf16_1_alg».proof.Proof.Bits.Body
import proofs.«900594_g7700000000000595_dist_rsdw_v7x_xyz2x2x2_y_m512_d512_f2048_bf16_1_alg».proof.Proof.OutFinal
import Idealize.ShloMosaic.Adequacy
import Idealize.ShloMosaic.Init

noncomputable section

namespace Cert.Proof

open Idealize.ShloMosaic Idealize.SL.Sem Cert.Kernel

/-- The five conjuncts: the two kernels' frames from the body lemma run under the launch (the word-level one through the
    copies of the same modules at the word-level program), the reference's frame and value from its generated run, and
    the value at Ideal: each device's result buffer holds the sixteen column chunks, each the sum of the two y halves of
    the reference's contraction at that device's rows. -/
theorem claim : Cert.Claim :=
  Cert.Final.claim_of
    (fun m => Cert.KernelIdeal.Coll.SNDv (F := Ideal) m) (fun m => Cert.KernelIdeal.Coll.BLKv (F := Ideal) m) (fun m => Cert.KernelIdeal.Coll.OUTv (F := Ideal) m)
    (fun m => Cert.Kernel.Coll.SNDv (F := Bits) m) (fun m => Cert.Kernel.Coll.BLKv (F := Bits) m) (fun m => Cert.Kernel.Coll.OUTv (F := Bits) m)
    (fun m K c Kt => Cert.Kernel.Coll.sound_body (F := Bits) m K c Kt)
    (fun m K c Kt => Cert.KernelIdeal.Coll.sound_body (F := Ideal) m K c Kt)
    Cert.KernelIdeal.Coll.hout

end Cert.Proof

end
